-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v437)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v437) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v703) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2000x768 : Shape := ⟨2, ![2000, 768]⟩
abbrev S20000x1024 : Shape := ⟨2, ![20000, 1024]⟩
abbrev S768x150 : Shape := ⟨2, ![768, 150]⟩
abbrev S150 : Shape := ⟨1, ![150]⟩
abbrev S1024x150 : Shape := ⟨2, ![1024, 150]⟩
abbrev S3x6x150x150 : Shape := ⟨4, ![3, 6, 150, 150]⟩
abbrev S3x6x150 : Shape := ⟨3, ![3, 6, 150]⟩
abbrev S768x300 : Shape := ⟨2, ![768, 300]⟩
abbrev S300 : Shape := ⟨1, ![300]⟩
abbrev S300x200 : Shape := ⟨2, ![300, 200]⟩
abbrev S200 : Shape := ⟨1, ![200]⟩
abbrev S200x150 : Shape := ⟨2, ![200, 150]⟩
abbrev S300x150 : Shape := ⟨2, ![300, 150]⟩
abbrev S150x50 : Shape := ⟨2, ![150, 50]⟩
abbrev S50 : Shape := ⟨1, ![50]⟩
abbrev S50x3 : Shape := ⟨2, ![50, 3]⟩
abbrev S3 : Shape := ⟨1, ![3]⟩
abbrev S2x500000 : Shape := ⟨2, ![2, 500000]⟩
abbrev S2x200000 : Shape := ⟨2, ![2, 200000]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S2000x768 : S_.BroadcastsInDim S2000x768 (![] : Fin 0 → Fin S2000x768.rank)
  reducesTo_S2000x768_S_d0_1 : S2000x768.ReducesTo [0, 1] S_
  bcast_S_S20000x1024 : S_.BroadcastsInDim S20000x1024 (![] : Fin 0 → Fin S20000x1024.rank)
  reducesTo_S20000x1024_S_d0_1 : S20000x1024.ReducesTo [0, 1] S_
  bcast_S_S768x150 : S_.BroadcastsInDim S768x150 (![] : Fin 0 → Fin S768x150.rank)
  reducesTo_S768x150_S_d0_1 : S768x150.ReducesTo [0, 1] S_
  bcast_S_S150 : S_.BroadcastsInDim S150 (![] : Fin 0 → Fin S150.rank)
  reducesTo_S150_S_d0 : S150.ReducesTo [0] S_
  bcast_S_S1024x150 : S_.BroadcastsInDim S1024x150 (![] : Fin 0 → Fin S1024x150.rank)
  reducesTo_S1024x150_S_d0_1 : S1024x150.ReducesTo [0, 1] S_
  bcast_S_S3x6x150x150 : S_.BroadcastsInDim S3x6x150x150 (![] : Fin 0 → Fin S3x6x150x150.rank)
  reducesTo_S3x6x150x150_S_d0_1_2_3 : S3x6x150x150.ReducesTo [0, 1, 2, 3] S_
  bcast_S_S3x6x150 : S_.BroadcastsInDim S3x6x150 (![] : Fin 0 → Fin S3x6x150.rank)
  reducesTo_S3x6x150_S_d0_1_2 : S3x6x150.ReducesTo [0, 1, 2] S_
  bcast_S_S768x300 : S_.BroadcastsInDim S768x300 (![] : Fin 0 → Fin S768x300.rank)
  reducesTo_S768x300_S_d0_1 : S768x300.ReducesTo [0, 1] S_
  bcast_S_S300 : S_.BroadcastsInDim S300 (![] : Fin 0 → Fin S300.rank)
  reducesTo_S300_S_d0 : S300.ReducesTo [0] S_
  bcast_S_S300x200 : S_.BroadcastsInDim S300x200 (![] : Fin 0 → Fin S300x200.rank)
  reducesTo_S300x200_S_d0_1 : S300x200.ReducesTo [0, 1] S_
  bcast_S_S200 : S_.BroadcastsInDim S200 (![] : Fin 0 → Fin S200.rank)
  reducesTo_S200_S_d0 : S200.ReducesTo [0] S_
  bcast_S_S200x150 : S_.BroadcastsInDim S200x150 (![] : Fin 0 → Fin S200x150.rank)
  reducesTo_S200x150_S_d0_1 : S200x150.ReducesTo [0, 1] S_
  bcast_S_S300x150 : S_.BroadcastsInDim S300x150 (![] : Fin 0 → Fin S300x150.rank)
  reducesTo_S300x150_S_d0_1 : S300x150.ReducesTo [0, 1] S_
  bcast_S_S150x50 : S_.BroadcastsInDim S150x50 (![] : Fin 0 → Fin S150x50.rank)
  reducesTo_S150x50_S_d0_1 : S150x50.ReducesTo [0, 1] S_
  bcast_S_S50 : S_.BroadcastsInDim S50 (![] : Fin 0 → Fin S50.rank)
  reducesTo_S50_S_d0 : S50.ReducesTo [0] S_
  bcast_S_S50x3 : S_.BroadcastsInDim S50x3 (![] : Fin 0 → Fin S50x3.rank)
  reducesTo_S50x3_S_d0_1 : S50x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg21 : FVec F S50 .f32) (main_arg22 : FVec F S50x3 .f32) (main_arg23 : FVec F S3 .f32) (main_v98 : IVec S_ 1) (main_v101 : IVec S150x50 1) (main_c_39 : IVec S_ 1) : IVec S_ 1 :=
  let main_v102 : IVec S_ 1 := (fun x v => Host.reduce IntOp.andi x v reducesTo_S150x50_S_d0_1 h_S_) main_v101 main_c_39
  let main_v103 : IVec S_ 1 := andi main_v98 main_v102
  let main_v104 : FVec F S50 .f32 := Host.absf main_arg21
  let main_cst_40 : FVec F S_ .f32 := constant S_ .f32 0x7F800000#32
  let main_v105 : FVec F S50 .f32 := broadcastInDim S50 ![] bcast_S_S50 main_cst_40
  let main_v106 : IVec S50 1 := cmpf .olt main_v104 main_v105
  let main_c_41 : IVec S_ 1 := constantI S_ 1 1#1
  let main_v107 : IVec S_ 1 := (fun x v => Host.reduce IntOp.andi x v reducesTo_S50_S_d0 h_S_) main_v106 main_c_41
  let main_v108 : IVec S_ 1 := andi main_v103 main_v107
  let main_v109 : FVec F S50x3 .f32 := Host.absf main_arg22
  let main_cst_42 : FVec F S_ .f32 := constant S_ .f32 0x7F800000#32
  let main_v110 : FVec F S50x3 .f32 := broadcastInDim S50x3 ![] bcast_S_S50x3 main_cst_42
  let main_v111 : IVec S50x3 1 := cmpf .olt main_v109 main_v110
  let main_c_43 : IVec S_ 1 := constantI S_ 1 1#1
  let main_v112 : IVec S_ 1 := (fun x v => Host.reduce IntOp.andi x v reducesTo_S50x3_S_d0_1 h_S_) main_v111 main_c_43
  let main_v113 : IVec S_ 1 := andi main_v108 main_v112
  let main_v114 : FVec F S3 .f32 := Host.absf main_arg23
  let main_cst_44 : FVec F S_ .f32 := constant S_ .f32 0x7F800000#32
  let main_v115 : FVec F S3 .f32 := broadcastInDim S3 ![] bcast_S_S3 main_cst_44
  let main_v116 : IVec S3 1 := cmpf .olt main_v114 main_v115
  let main_c_45 : IVec S_ 1 := constantI S_ 1 1#1
  let main_v117 : IVec S_ 1 := (fun x v => Host.reduce IntOp.andi x v reducesTo_S3_S_d0 h_S_) main_v116 main_c_45
  let main_v118 : IVec S_ 1 := andi main_v113 main_v117
  main_v118

def fn_part5 {F : FTy → Type} [FloatOps F] (main_arg18 : FVec F S300x150 .f32) (main_arg19 : FVec F S150 .f32) (main_arg20 : FVec F S150x50 .f32) (main_arg21 : FVec F S50 .f32) (main_arg22 : FVec F S50x3 .f32) (main_arg23 : FVec F S3 .f32) (main_v83 : IVec S_ 1) (main_v84 : FVec F S150 .f32) (main_cst_32 : FVec F S_ .f32) : IVec S_ 1 :=
  let main_v85 : FVec F S150 .f32 := broadcastInDim S150 ![] bcast_S_S150 main_cst_32
  let main_v86 : IVec S150 1 := cmpf .olt main_v84 main_v85
  let main_c_33 : IVec S_ 1 := constantI S_ 1 1#1
  let main_v87 : IVec S_ 1 := (fun x v => Host.reduce IntOp.andi x v reducesTo_S150_S_d0 h_S_) main_v86 main_c_33
  let main_v88 : IVec S_ 1 := andi main_v83 main_v87
  let main_v89 : FVec F S300x150 .f32 := Host.absf main_arg18
  let main_cst_34 : FVec F S_ .f32 := constant S_ .f32 0x7F800000#32
  let main_v90 : FVec F S300x150 .f32 := broadcastInDim S300x150 ![] bcast_S_S300x150 main_cst_34
  let main_v91 : IVec S300x150 1 := cmpf .olt main_v89 main_v90
  let main_c_35 : IVec S_ 1 := constantI S_ 1 1#1
  let main_v92 : IVec S_ 1 := (fun x v => Host.reduce IntOp.andi x v reducesTo_S300x150_S_d0_1 h_S_) main_v91 main_c_35
  let main_v93 : IVec S_ 1 := andi main_v88 main_v92
  let main_v94 : FVec F S150 .f32 := Host.absf main_arg19
  let main_cst_36 : FVec F S_ .f32 := constant S_ .f32 0x7F800000#32
  let main_v95 : FVec F S150 .f32 := broadcastInDim S150 ![] bcast_S_S150 main_cst_36
  let main_v96 : IVec S150 1 := cmpf .olt main_v94 main_v95
  let main_c_37 : IVec S_ 1 := constantI S_ 1 1#1
  let main_v97 : IVec S_ 1 := (fun x v => Host.reduce IntOp.andi x v reducesTo_S150_S_d0 h_S_) main_v96 main_c_37
  let main_v98 : IVec S_ 1 := andi main_v93 main_v97
  let main_v99 : FVec F S150x50 .f32 := Host.absf main_arg20
  let main_cst_38 : FVec F S_ .f32 := constant S_ .f32 0x7F800000#32
  let main_v100 : FVec F S150x50 .f32 := broadcastInDim S150x50 ![] bcast_S_S150x50 main_cst_38
  let main_v101 : IVec S150x50 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_v63 : IVec S_ 1) (main_v67 : IVec S_ 1) : IVec S_ 1 :=
  let main_v68 : IVec S_ 1 := andi main_v63 main_v67
  let main_v69 : FVec F S300x200 .f32 := Host.absf main_arg14
  let main_cst_26 : FVec F S_ .f32 := constant S_ .f32 0x7F800000#32
  let main_v70 : FVec F S300x200 .f32 := broadcastInDim S300x200 ![] bcast_S_S300x200 main_cst_26
  let main_v71 : IVec S300x200 1 := cmpf .olt main_v69 main_v70
  let main_c_27 : IVec S_ 1 := constantI S_ 1 1#1
  let main_v72 : IVec S_ 1 := (fun x v => Host.reduce IntOp.andi x v reducesTo_S300x200_S_d0_1 h_S_) main_v71 main_c_27
  let main_v73 : IVec S_ 1 := andi main_v68 main_v72
  let main_v74 : FVec F S200 .f32 := Host.absf main_arg15
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S200x150 .f32 := Host.absf main_arg16
  let main_cst_30 : FVec F S_ .f32 := constant S_ .f32 0x7F800000#32
  let main_v80 : FVec F S200x150 .f32 := broadcastInDim S200x150 ![] bcast_S_S200x150 main_cst_30
  let main_v81 : IVec S200x150 1 := cmpf .olt main_v79 main_v80
  let main_c_31 : IVec S_ 1 := constantI S_ 1 1#1
  let main_v82 : IVec S_ 1 := (fun x v => Host.reduce IntOp.andi x v reducesTo_S200x150_S_d0_1 h_S_) main_v81 main_c_31
  let main_v83 : IVec S_ 1 := andi main_v78 main_v82
  let main_v84 : FVec F S150 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S3x6x150x150 .f32) (main_arg12 : FVec F S768x300 .f32) (main_arg13 : FVec F S300 .f32) (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_v48 : IVec S_ 1) (main_v49 : FVec F S3x6x150 .f32) (main_v50 : FVec F S3x6x150 .f32) : IVec S_ 1 :=
  let main_v51 : IVec S3x6x150 1 := cmpf .olt main_v49 main_v50
  let main_c_19 : IVec S_ 1 := constantI S_ 1 1#1
  let main_v52 : IVec S_ 1 := (fun x v => Host.reduce IntOp.andi x v reducesTo_S3x6x150_S_d0_1_2 h_S_) main_v51 main_c_19
  let main_v53 : IVec S_ 1 := andi main_v48 main_v52
  let main_v54 : FVec F S3x6x150x150 .f32 := Host.absf main_arg11
  let main_cst_20 : FVec F S_ .f32 := constant S_ .f32 0x7F800000#32
  let main_v55 : FVec F S3x6x150x150 .f32 := broadcastInDim S3x6x150x150 ![] bcast_S_S3x6x150x150 main_cst_20
  let main_v56 : IVec S3x6x150x150 1 := cmpf .olt main_v54 main_v55
  let main_c_21 : IVec S_ 1 := constantI S_ 1 1#1
  let main_v57 : IVec S_ 1 := (fun x v => Host.reduce IntOp.andi x v reducesTo_S3x6x150x150_S_d0_1_2_3 h_S_) main_v56 main_c_21
  let main_v58 : IVec S_ 1 := andi main_v53 main_v57
  let main_v59 : FVec F S768x300 .f32 := Host.absf main_arg12
  let main_cst_22 : FVec F S_ .f32 := constant S_ .f32 0x7F800000#32
  let main_v60 : FVec F S768x300 .f32 := broadcastInDim S768x300 ![] bcast_S_S768x300 main_cst_22
  let main_v61 : IVec S768x300 1 := cmpf .olt main_v59 main_v60
  let main_c_23 : IVec S_ 1 := constantI S_ 1 1#1
  let main_v62 : IVec S_ 1 := (fun x v => Host.reduce IntOp.andi x v reducesTo_S768x300_S_d0_1 h_S_) main_v61 main_c_23
  let main_v63 : IVec S_ 1 := andi main_v58 main_v62
  let main_v64 : FVec F S300 .f32 := Host.absf main_arg13
  let main_cst_24 : FVec F S_ .f32 := constant S_ .f32 0x7F800000#32
  let main_v65 : FVec F S300 .f32 := broadcastInDim S300 ![] bcast_S_S300 main_cst_24
  let main_v66 : IVec S300 1 := cmpf .olt main_v64 main_v65
  let main_c_25 : IVec S_ 1 := constantI S_ 1 1#1
  let main_v67 : IVec S_ 1 := (fun x v => Host.reduce IntOp.andi x v reducesTo_S300_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S1024x150 .f32) (main_arg8 : FVec F S150 .f32) (main_arg9 : FVec F S3x6x150x150 .f32) (main_arg10 : FVec F S3x6x150 .f32) (main_arg11 : FVec F S3x6x150x150 .f32) (main_arg12 : FVec F S768x300 .f32) (main_arg13 : FVec F S300 .f32) (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_v33 : IVec S_ 1) : IVec S_ 1 :=
  let main_v34 : FVec F S1024x150 .f32 := Host.absf main_arg7
  let main_cst_12 : FVec F S_ .f32 := constant S_ .f32 0x7F800000#32
  let main_v35 : FVec F S1024x150 .f32 := broadcastInDim S1024x150 ![] bcast_S_S1024x150 main_cst_12
  let main_v36 : IVec S1024x150 1 := cmpf .olt main_v34 main_v35
  let main_c_13 : IVec S_ 1 := constantI S_ 1 1#1
  let main_v37 : IVec S_ 1 := (fun x v => Host.reduce IntOp.andi x v reducesTo_S1024x150_S_d0_1 h_S_) main_v36 main_c_13
  let main_v38 : IVec S_ 1 := andi main_v33 main_v37
  let main_v39 : FVec F S150 .f32 := Host.absf main_arg8
  let main_cst_14 : FVec F S_ .f32 := constant S_ .f32 0x7F800000#32
  let main_v40 : FVec F S150 .f32 := broadcastInDim S150 ![] bcast_S_S150 main_cst_14
  let main_v41 : IVec S150 1 := cmpf .olt main_v39 main_v40
  let main_c_15 : IVec S_ 1 := constantI S_ 1 1#1
  let main_v42 : IVec S_ 1 := (fun x v => Host.reduce IntOp.andi x v reducesTo_S150_S_d0 h_S_) main_v41 main_c_15
  let main_v43 : IVec S_ 1 := andi main_v38 main_v42
  let main_v44 : FVec F S3x6x150x150 .f32 := Host.absf main_arg9
  let main_cst_16 : FVec F S_ .f32 := constant S_ .f32 0x7F800000#32
  let main_v45 : FVec F S3x6x150x150 .f32 := broadcastInDim S3x6x150x150 ![] bcast_S_S3x6x150x150 main_cst_16
  let main_v46 : IVec S3x6x150x150 1 := cmpf .olt main_v44 main_v45
  let main_c_17 : IVec S_ 1 := constantI S_ 1 1#1
  let main_v47 : IVec S_ 1 := (fun x v => Host.reduce IntOp.andi x v reducesTo_S3x6x150x150_S_d0_1_2_3 h_S_) main_v46 main_c_17
  let main_v48 : IVec S_ 1 := andi main_v43 main_v47
  let main_v49 : FVec F S3x6x150 .f32 := Host.absf main_arg10
  let main_cst_18 : FVec F S_ .f32 := constant S_ .f32 0x7F800000#32
  let main_v50 : FVec F S3x6x150 .f32 := broadcastInDim S3x6x150 ![] bcast_S_S3x6x150 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S150 .f32) (main_arg5 : FVec F S768x150 .f32) (main_arg6 : FVec F S150 .f32) (main_arg7 : FVec F S1024x150 .f32) (main_arg8 : FVec F S150 .f32) (main_arg9 : FVec F S3x6x150x150 .f32) (main_arg10 : FVec F S3x6x150 .f32) (main_arg11 : FVec F S3x6x150x150 .f32) (main_arg12 : FVec F S768x300 .f32) (main_arg13 : FVec F S300 .f32) (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_v13 : IVec S_ 1) (main_v16 : IVec S768x150 1) : IVec S_ 1 :=
  let main_c_5 : IVec S_ 1 := constantI S_ 1 1#1
  let main_v17 : IVec S_ 1 := (fun x v => Host.reduce IntOp.andi x v reducesTo_S768x150_S_d0_1 h_S_) main_v16 main_c_5
  let main_v18 : IVec S_ 1 := andi main_v13 main_v17
  let main_v19 : FVec F S150 .f32 := Host.absf main_arg4
  let main_cst_6 : FVec F S_ .f32 := constant S_ .f32 0x7F800000#32
  let main_v20 : FVec F S150 .f32 := broadcastInDim S150 ![] bcast_S_S150 main_cst_6
  let main_v21 : IVec S150 1 := cmpf .olt main_v19 main_v20
  let main_c_7 : IVec S_ 1 := constantI S_ 1 1#1
  let main_v22 : IVec S_ 1 := (fun x v => Host.reduce IntOp.andi x v reducesTo_S150_S_d0 h_S_) main_v21 main_c_7
  let main_v23 : IVec S_ 1 := andi main_v18 main_v22
  let main_v24 : FVec F S768x150 .f32 := Host.absf main_arg5
  let main_cst_8 : FVec F S_ .f32 := constant S_ .f32 0x7F800000#32
  let main_v25 : FVec F S768x150 .f32 := broadcastInDim S768x150 ![] bcast_S_S768x150 main_cst_8
  let main_v26 : IVec S768x150 1 := cmpf .olt main_v24 main_v25
  let main_c_9 : IVec S_ 1 := constantI S_ 1 1#1
  let main_v27 : IVec S_ 1 := (fun x v => Host.reduce IntOp.andi x v reducesTo_S768x150_S_d0_1 h_S_) main_v26 main_c_9
  let main_v28 : IVec S_ 1 := andi main_v23 main_v27
  let main_v29 : FVec F S150 .f32 := Host.absf main_arg6
  let main_cst_10 : FVec F S_ .f32 := constant S_ .f32 0x7F800000#32
  let main_v30 : FVec F S150 .f32 := broadcastInDim S150 ![] bcast_S_S150 main_cst_10
  let main_v31 : IVec S150 1 := cmpf .olt main_v29 main_v30
  let main_c_11 : IVec S_ 1 := constantI S_ 1 1#1
  let main_v32 : IVec S_ 1 := (fun x v => Host.reduce IntOp.andi x v reducesTo_S150_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x768 .f32) (main_arg1 : FVec F S2000x768 .f32) (main_arg2 : FVec F S20000x1024 .f32) (main_arg3 : FVec F S768x150 .f32) (main_arg4 : FVec F S150 .f32) (main_arg5 : FVec F S768x150 .f32) (main_arg6 : FVec F S150 .f32) (main_arg7 : FVec F S1024x150 .f32) (main_arg8 : FVec F S150 .f32) (main_arg9 : FVec F S3x6x150x150 .f32) (main_arg10 : FVec F S3x6x150 .f32) (main_arg11 : FVec F S3x6x150x150 .f32) (main_arg12 : FVec F S768x300 .f32) (main_arg13 : FVec F S300 .f32) (main_arg14 : FVec F S300x200 .f32) (main_arg15 : FVec F S200 .f32) (main_arg16 : FVec F S200x150 .f32) (main_arg17 : FVec F S150 .f32) (main_arg18 : FVec F S300x150 .f32) (main_arg19 : FVec F S150 .f32) (main_arg20 : FVec F S150x50 .f32) (main_arg21 : FVec F S50 .f32) (main_arg22 : FVec F S50x3 .f32) (main_arg23 : FVec F S3 .f32) (main_arg24 : IVec S2x500000 32) (main_arg25 : IVec S2x200000 32) (main_arg26 : IVec S2x200000 32) (main_arg27 : IVec S2x500000 32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S2000x768 .f32 := Host.absf main_arg1
  let main_cst_0 : FVec F S_ .f32 := constant S_ .f32 0x7F800000#32
  let main_v5 : FVec F S2000x768 .f32 := broadcastInDim S2000x768 ![] bcast_S_S2000x768 main_cst_0
  let main_v6 : IVec S2000x768 1 := cmpf .olt main_v4 main_v5
  let main_c_1 : IVec S_ 1 := constantI S_ 1 1#1
  let main_v7 : IVec S_ 1 := (fun x v => Host.reduce IntOp.andi x v reducesTo_S2000x768_S_d0_1 h_S_) main_v6 main_c_1
  let main_v8 : IVec S_ 1 := andi main_v3 main_v7
  let main_v9 : FVec F S20000x1024 .f32 := Host.absf main_arg2
  let main_cst_2 : FVec F S_ .f32 := constant S_ .f32 0x7F800000#32
  let main_v10 : FVec F S20000x1024 .f32 := broadcastInDim S20000x1024 ![] bcast_S_S20000x1024 main_cst_2
  let main_v11 : IVec S20000x1024 1 := cmpf .olt main_v9 main_v10
  let main_c_3 : IVec S_ 1 := constantI S_ 1 1#1
  let main_v12 : IVec S_ 1 := (fun x v => Host.reduce IntOp.andi x v reducesTo_S20000x1024_S_d0_1 h_S_) main_v11 main_c_3
  let main_v13 : IVec S_ 1 := andi main_v8 main_v12
  let main_v14 : FVec F S768x150 .f32 := Host.absf main_arg3
  let main_cst_4 : FVec F S_ .f32 := constant S_ .f32 0x7F800000#32
  let main_v15 : FVec F S768x150 .f32 := broadcastInDim S768x150 ![] bcast_S_S768x150 main_cst_4
  let main_v16 : IVec S768x150 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x768 : Shape := ⟨2, ![50000, 768]⟩
abbrev S2000x768 : Shape := ⟨2, ![2000, 768]⟩
abbrev S20000x1024 : Shape := ⟨2, ![20000, 1024]⟩
abbrev S768x150 : Shape := ⟨2, ![768, 150]⟩
abbrev S150 : Shape := ⟨1, ![150]⟩
abbrev S1024x150 : Shape := ⟨2, ![1024, 150]⟩
abbrev S3x6x150x150 : Shape := ⟨4, ![3, 6, 150, 150]⟩
abbrev S3x6x150 : Shape := ⟨3, ![3, 6, 150]⟩
abbrev S768x300 : Shape := ⟨2, ![768, 300]⟩
abbrev S300 : Shape := ⟨1, ![300]⟩
abbrev S300x200 : Shape := ⟨2, ![300, 200]⟩
abbrev S200 : Shape := ⟨1, ![200]⟩
abbrev S200x150 : Shape := ⟨2, ![200, 150]⟩
abbrev S300x150 : Shape := ⟨2, ![300, 150]⟩
abbrev S150x50 : Shape := ⟨2, ![150, 50]⟩
abbrev S50 : Shape := ⟨1, ![50]⟩
abbrev S50x3 : Shape := ⟨2, ![50, 3]⟩
abbrev S3 : Shape := ⟨1, ![3]⟩
abbrev S2x500000 : Shape := ⟨2, ![2, 500000]⟩
abbrev S2x200000 : Shape := ⟨2, ![2, 200000]⟩
abbrev S1x150 : Shape := ⟨2, ![1, 150]⟩
abbrev S50000x150 : Shape := ⟨2, ![50000, 150]⟩
abbrev S2000x150 : Shape := ⟨2, ![2000, 150]⟩
abbrev S20000x150 : Shape := ⟨2, ![20000, 150]⟩
abbrev S2000x1024 : Shape := ⟨2, ![2000, 1024]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S1x200000 : Shape := ⟨2, ![1, 200000]⟩
abbrev S200000 : Shape := ⟨1, ![200000]⟩
abbrev S200000x1 : Shape := ⟨2, ![200000, 1]⟩
abbrev S2000 : Shape := ⟨1, ![2000]⟩
abbrev S2000x1 : Shape := ⟨2, ![2000, 1]⟩
abbrev S20000 : Shape := ⟨1, ![20000]⟩
abbrev S20000x1 : Shape := ⟨2, ![20000, 1]⟩
abbrev S500000x150 : Shape := ⟨2, ![500000, 150]⟩
abbrev S200000x150 : Shape := ⟨2, ![200000, 150]⟩
abbrev S1x1x150x150 : Shape := ⟨4, ![1, 1, 150, 150]⟩
abbrev S150x150 : Shape := ⟨2, ![150, 150]⟩
abbrev S1x1x150 : Shape := ⟨3, ![1, 1, 150]⟩
abbrev S1x300 : Shape := ⟨2, ![1, 300]⟩
abbrev S1x200 : Shape := ⟨2, ![1, 200]⟩
abbrev S2000x300 : Shape := ⟨2, ![2000, 300]⟩
abbrev S2000x200 : Shape := ⟨2, ![2000, 200]⟩
abbrev S1x50 : Shape := ⟨2, ![1, 50]⟩
abbrev S1x3 : Shape := ⟨2, ![1, 3]⟩
abbrev S500000x3 : Shape := ⟨2, ![500000, 3]⟩
abbrev S5000x150 : Shape := ⟨2, ![5000, 150]⟩
abbrev S5000x3 : Shape := ⟨2, ![5000, 3]⟩
abbrev S5000x50 : Shape := ⟨2, ![5000, 50]⟩

abbrev nBuf : Space → Nat
  | .hbm => 530
  | .vmem => 115
  | .smem => 0
  | _ => 0

abbrev hbmTy0_0 (i : Nat) : BufTy := match i % 128 with
  | 0 => ⟨S50000x768, .f32⟩
  | 1 => ⟨S2000x768, .f32⟩
  | 2 => ⟨S20000x1024, .f32⟩
  | 3 => ⟨S768x150, .f32⟩
  | 4 => ⟨S150, .f32⟩
  | 5 => ⟨S768x150, .f32⟩
  | 6 => ⟨S150, .f32⟩
  | 7 => ⟨S1024x150, .f32⟩
  | 8 => ⟨S150, .f32⟩
  | 9 => ⟨S3x6x150x150, .f32⟩
  | 10 => ⟨S3x6x150, .f32⟩
  | 11 => ⟨S3x6x150x150, .f32⟩
  | 12 => ⟨S768x300, .f32⟩
  | 13 => ⟨S300, .f32⟩
  | 14 => ⟨S300x200, .f32⟩
  | 15 => ⟨S200, .f32⟩
  | 16 => ⟨S200x150, .f32⟩
  | 17 => ⟨S150, .f32⟩
  | 18 => ⟨S300x150, .f32⟩
  | 19 => ⟨S150, .f32⟩
  | 20 => ⟨S150x50, .f32⟩
  | 21 => ⟨S50, .f32⟩
  | 22 => ⟨S50x3, .f32⟩
  | 23 => ⟨S3, .f32⟩
  | 24 => ⟨S2x500000, .i32⟩
  | 25 => ⟨S2x200000, .i32⟩
  | 26 => ⟨S2x200000, .i32⟩
  | 27 => ⟨S2x500000, .i32⟩
  | 28 => ⟨S1x150, .f32⟩
  | 29 => ⟨S50000x150, .bf16⟩
  | 30 => ⟨S1x150, .f32⟩
  | 31 => ⟨S2000x150, .bf16⟩
  | 32 => ⟨S1x150, .f32⟩
  | 33 => ⟨S20000x150, .bf16⟩
  | 34 => ⟨S1x500000, .i32⟩
  | 35 => ⟨S500000, .i32⟩
  | 36 => ⟨S_, .f32⟩
  | 37 => ⟨S500000, .f32⟩
  | 38 => ⟨S_, .f32⟩
  | 39 => ⟨S50000, .f32⟩
  | 40 => ⟨S500000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S1x200000, .i32⟩
  | 47 => ⟨S200000, .i32⟩
  | 48 => ⟨S_, .f32⟩
  | 49 => ⟨S200000, .f32⟩
  | 50 => ⟨S_, .f32⟩
  | 51 => ⟨S50000, .f32⟩
  | 52 => ⟨S200000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S1x200000, .i32⟩
  | 59 => ⟨S200000, .i32⟩
  | 60 => ⟨S_, .f32⟩
  | 61 => ⟨S200000, .f32⟩
  | 62 => ⟨S_, .f32⟩
  | 63 => ⟨S2000, .f32⟩
  | 64 => ⟨S200000x1, .i32⟩
  | 65 => ⟨S2000, .f32⟩
  | 66 => ⟨S_, .f32⟩
  | 67 => ⟨S2000, .f32⟩
  | 68 => ⟨S2000, .f32⟩
  | 69 => ⟨S2000x1, .f32⟩
  | 70 => ⟨S1x200000, .i32⟩
  | 71 => ⟨S200000, .i32⟩
  | 72 => ⟨S_, .f32⟩
  | 73 => ⟨S200000, .f32⟩
  | 74 => ⟨S_, .f32⟩
  | 75 => ⟨S2000, .f32⟩
  | 76 => ⟨S200000x1, .i32⟩
  | 77 => ⟨S2000, .f32⟩
  | 78 => ⟨S_, .f32⟩
  | 79 => ⟨S2000, .f32⟩
  | 80 => ⟨S2000, .f32⟩
  | 81 => ⟨S2000x1, .f32⟩
  | 82 => ⟨S1x500000, .i32⟩
  | 83 => ⟨S500000, .i32⟩
  | 84 => ⟨S_, .f32⟩
  | 85 => ⟨S500000, .f32⟩
  | 86 => ⟨S_, .f32⟩
  | 87 => ⟨S20000, .f32⟩
  | 88 => ⟨S500000x1, .i32⟩
  | 89 => ⟨S20000, .f32⟩
  | 90 => ⟨S_, .f32⟩
  | 91 => ⟨S20000, .f32⟩
  | 92 => ⟨S20000, .f32⟩
  | 93 => ⟨S20000x1, .f32⟩
  | 94 => ⟨S1x200000, .i32⟩
  | 95 => ⟨S200000, .i32⟩
  | 96 => ⟨S_, .f32⟩
  | 97 => ⟨S200000, .f32⟩
  | 98 => ⟨S_, .f32⟩
  | 99 => ⟨S20000, .f32⟩
  | 100 => ⟨S200000x1, .i32⟩
  | 101 => ⟨S20000, .f32⟩
  | 102 => ⟨S_, .f32⟩
  | 103 => ⟨S20000, .f32⟩
  | 104 => ⟨S20000, .f32⟩
  | 105 => ⟨S20000x1, .f32⟩
  | 106 => ⟨S1x500000, .i32⟩
  | 107 => ⟨S500000, .i32⟩
  | 108 => ⟨S1x500000, .i32⟩
  | 109 => ⟨S500000, .i32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x150, .bf16⟩
  | 119 => ⟨S500000x150, .f32⟩
  | 120 => ⟨S_, .f32⟩
  | 121 => ⟨S50000x150, .f32⟩
  | 122 => ⟨S500000x1, .i32⟩
  | 123 => ⟨S50000x150, .f32⟩
  | 124 => ⟨S50000x150, .f32⟩
  | 125 => ⟨S50000x150, .f32⟩
  | 126 => ⟨S1x200000, .i32⟩
  | 127 => ⟨S200000, .i32⟩
  | _ => ⟨S50000x768, .f32⟩

abbrev hbmTy0_1 (i : Nat) : BufTy := match i % 128 with
  | 0 => ⟨S1x200000, .i32⟩
  | 1 => ⟨S200000, .i32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S200000x150, .bf16⟩
  | 11 => ⟨S200000x150, .f32⟩
  | 12 => ⟨S_, .f32⟩
  | 13 => ⟨S50000x150, .f32⟩
  | 14 => ⟨S200000x1, .i32⟩
  | 15 => ⟨S50000x150, .f32⟩
  | 16 => ⟨S50000x150, .f32⟩
  | 17 => ⟨S50000x150, .f32⟩
  | 18 => ⟨S1x1x150x150, .f32⟩
  | 19 => ⟨S150x150, .f32⟩
  | 20 => ⟨S1x1x150x150, .f32⟩
  | 21 => ⟨S150x150, .f32⟩
  | 22 => ⟨S150x150, .f32⟩
  | 23 => ⟨S1x1x150, .f32⟩
  | 24 => ⟨S150, .f32⟩
  | 25 => ⟨S1x1x150, .f32⟩
  | 26 => ⟨S150, .f32⟩
  | 27 => ⟨S150, .f32⟩
  | 28 => ⟨S1x1x150x150, .f32⟩
  | 29 => ⟨S150x150, .f32⟩
  | 30 => ⟨S1x1x150x150, .f32⟩
  | 31 => ⟨S150x150, .f32⟩
  | 32 => ⟨S1x150, .f32⟩
  | 33 => ⟨S50000x150, .bf16⟩
  | 34 => ⟨S1x200000, .i32⟩
  | 35 => ⟨S200000, .i32⟩
  | 36 => ⟨S1x200000, .i32⟩
  | 37 => ⟨S200000, .i32⟩
  | 38 => ⟨S_, .i32⟩
  | 39 => ⟨S200000, .i32⟩
  | 40 => ⟨S200000, .i1⟩
  | 41 => ⟨S_, .i32⟩
  | 42 => ⟨S200000, .i32⟩
  | 43 => ⟨S200000, .i32⟩
  | 44 => ⟨S200000, .i32⟩
  | 45 => ⟨S200000x1, .i32⟩
  | 46 => ⟨S200000x150, .bf16⟩
  | 47 => ⟨S200000x150, .f32⟩
  | 48 => ⟨S_, .f32⟩
  | 49 => ⟨S2000x150, .f32⟩
  | 50 => ⟨S200000x1, .i32⟩
  | 51 => ⟨S2000x150, .f32⟩
  | 52 => ⟨S2000x150, .f32⟩
  | 53 => ⟨S2000x150, .f32⟩
  | 54 => ⟨S1x200000, .i32⟩
  | 55 => ⟨S200000, .i32⟩
  | 56 => ⟨S1x200000, .i32⟩
  | 57 => ⟨S200000, .i32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S200000x150, .bf16⟩
  | 67 => ⟨S200000x150, .f32⟩
  | 68 => ⟨S_, .f32⟩
  | 69 => ⟨S2000x150, .f32⟩
  | 70 => ⟨S200000x1, .i32⟩
  | 71 => ⟨S2000x150, .f32⟩
  | 72 => ⟨S2000x150, .f32⟩
  | 73 => ⟨S2000x150, .f32⟩
  | 74 => ⟨S1x1x150x150, .f32⟩
  | 75 => ⟨S150x150, .f32⟩
  | 76 => ⟨S1x1x150x150, .f32⟩
  | 77 => ⟨S150x150, .f32⟩
  | 78 => ⟨S150x150, .f32⟩
  | 79 => ⟨S1x1x150, .f32⟩
  | 80 => ⟨S150, .f32⟩
  | 81 => ⟨S1x1x150, .f32⟩
  | 82 => ⟨S150, .f32⟩
  | 83 => ⟨S150, .f32⟩
  | 84 => ⟨S1x1x150x150, .f32⟩
  | 85 => ⟨S150x150, .f32⟩
  | 86 => ⟨S1x1x150x150, .f32⟩
  | 87 => ⟨S150x150, .f32⟩
  | 88 => ⟨S1x150, .f32⟩
  | 89 => ⟨S2000x150, .bf16⟩
  | 90 => ⟨S1x500000, .i32⟩
  | 91 => ⟨S500000, .i32⟩
  | 92 => ⟨S1x500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x150, .bf16⟩
  | 103 => ⟨S500000x150, .f32⟩
  | 104 => ⟨S_, .f32⟩
  | 105 => ⟨S20000x150, .f32⟩
  | 106 => ⟨S500000x1, .i32⟩
  | 107 => ⟨S20000x150, .f32⟩
  | 108 => ⟨S20000x150, .f32⟩
  | 109 => ⟨S20000x150, .f32⟩
  | 110 => ⟨S1x200000, .i32⟩
  | 111 => ⟨S200000, .i32⟩
  | 112 => ⟨S1x200000, .i32⟩
  | 113 => ⟨S200000, .i32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000x150, .bf16⟩
  | 123 => ⟨S200000x150, .f32⟩
  | 124 => ⟨S_, .f32⟩
  | 125 => ⟨S20000x150, .f32⟩
  | 126 => ⟨S200000x1, .i32⟩
  | 127 => ⟨S20000x150, .f32⟩
  | _ => ⟨S50000x768, .f32⟩

abbrev hbmTy0_2 (i : Nat) : BufTy := match i % 128 with
  | 0 => ⟨S20000x150, .f32⟩
  | 1 => ⟨S20000x150, .f32⟩
  | 2 => ⟨S1x1x150x150, .f32⟩
  | 3 => ⟨S150x150, .f32⟩
  | 4 => ⟨S1x1x150x150, .f32⟩
  | 5 => ⟨S150x150, .f32⟩
  | 6 => ⟨S150x150, .f32⟩
  | 7 => ⟨S1x1x150, .f32⟩
  | 8 => ⟨S150, .f32⟩
  | 9 => ⟨S1x1x150, .f32⟩
  | 10 => ⟨S150, .f32⟩
  | 11 => ⟨S150, .f32⟩
  | 12 => ⟨S1x1x150x150, .f32⟩
  | 13 => ⟨S150x150, .f32⟩
  | 14 => ⟨S1x1x150x150, .f32⟩
  | 15 => ⟨S150x150, .f32⟩
  | 16 => ⟨S1x150, .f32⟩
  | 17 => ⟨S20000x150, .bf16⟩
  | 18 => ⟨S1x500000, .i32⟩
  | 19 => ⟨S500000, .i32⟩
  | 20 => ⟨S1x500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x150, .bf16⟩
  | 31 => ⟨S500000x150, .f32⟩
  | 32 => ⟨S_, .f32⟩
  | 33 => ⟨S50000x150, .f32⟩
  | 34 => ⟨S500000x1, .i32⟩
  | 35 => ⟨S50000x150, .f32⟩
  | 36 => ⟨S50000x150, .f32⟩
  | 37 => ⟨S50000x150, .f32⟩
  | 38 => ⟨S1x200000, .i32⟩
  | 39 => ⟨S200000, .i32⟩
  | 40 => ⟨S1x200000, .i32⟩
  | 41 => ⟨S200000, .i32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x150, .bf16⟩
  | 51 => ⟨S200000x150, .f32⟩
  | 52 => ⟨S_, .f32⟩
  | 53 => ⟨S50000x150, .f32⟩
  | 54 => ⟨S200000x1, .i32⟩
  | 55 => ⟨S50000x150, .f32⟩
  | 56 => ⟨S50000x150, .f32⟩
  | 57 => ⟨S50000x150, .f32⟩
  | 58 => ⟨S1x1x150x150, .f32⟩
  | 59 => ⟨S150x150, .f32⟩
  | 60 => ⟨S1x1x150x150, .f32⟩
  | 61 => ⟨S150x150, .f32⟩
  | 62 => ⟨S150x150, .f32⟩
  | 63 => ⟨S1x1x150, .f32⟩
  | 64 => ⟨S150, .f32⟩
  | 65 => ⟨S1x1x150, .f32⟩
  | 66 => ⟨S150, .f32⟩
  | 67 => ⟨S150, .f32⟩
  | 68 => ⟨S1x1x150x150, .f32⟩
  | 69 => ⟨S150x150, .f32⟩
  | 70 => ⟨S1x1x150x150, .f32⟩
  | 71 => ⟨S150x150, .f32⟩
  | 72 => ⟨S1x150, .f32⟩
  | 73 => ⟨S50000x150, .bf16⟩
  | 74 => ⟨S1x200000, .i32⟩
  | 75 => ⟨S200000, .i32⟩
  | 76 => ⟨S1x200000, .i32⟩
  | 77 => ⟨S200000, .i32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000x150, .bf16⟩
  | 87 => ⟨S200000x150, .f32⟩
  | 88 => ⟨S_, .f32⟩
  | 89 => ⟨S2000x150, .f32⟩
  | 90 => ⟨S200000x1, .i32⟩
  | 91 => ⟨S2000x150, .f32⟩
  | 92 => ⟨S2000x150, .f32⟩
  | 93 => ⟨S2000x150, .f32⟩
  | 94 => ⟨S1x200000, .i32⟩
  | 95 => ⟨S200000, .i32⟩
  | 96 => ⟨S1x200000, .i32⟩
  | 97 => ⟨S200000, .i32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S200000x150, .bf16⟩
  | 107 => ⟨S200000x150, .f32⟩
  | 108 => ⟨S_, .f32⟩
  | 109 => ⟨S2000x150, .f32⟩
  | 110 => ⟨S200000x1, .i32⟩
  | 111 => ⟨S2000x150, .f32⟩
  | 112 => ⟨S2000x150, .f32⟩
  | 113 => ⟨S2000x150, .f32⟩
  | 114 => ⟨S1x1x150x150, .f32⟩
  | 115 => ⟨S150x150, .f32⟩
  | 116 => ⟨S1x1x150x150, .f32⟩
  | 117 => ⟨S150x150, .f32⟩
  | 118 => ⟨S150x150, .f32⟩
  | 119 => ⟨S1x1x150, .f32⟩
  | 120 => ⟨S150, .f32⟩
  | 121 => ⟨S1x1x150, .f32⟩
  | 122 => ⟨S150, .f32⟩
  | 123 => ⟨S150, .f32⟩
  | 124 => ⟨S1x1x150x150, .f32⟩
  | 125 => ⟨S150x150, .f32⟩
  | 126 => ⟨S1x1x150x150, .f32⟩
  | 127 => ⟨S150x150, .f32⟩
  | _ => ⟨S50000x768, .f32⟩

abbrev hbmTy0_3 (i : Nat) : BufTy := match i % 128 with
  | 0 => ⟨S1x150, .f32⟩
  | 1 => ⟨S2000x150, .bf16⟩
  | 2 => ⟨S1x500000, .i32⟩
  | 3 => ⟨S500000, .i32⟩
  | 4 => ⟨S1x500000, .i32⟩
  | 5 => ⟨S500000, .i32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x150, .bf16⟩
  | 15 => ⟨S500000x150, .f32⟩
  | 16 => ⟨S_, .f32⟩
  | 17 => ⟨S20000x150, .f32⟩
  | 18 => ⟨S500000x1, .i32⟩
  | 19 => ⟨S20000x150, .f32⟩
  | 20 => ⟨S20000x150, .f32⟩
  | 21 => ⟨S20000x150, .f32⟩
  | 22 => ⟨S1x200000, .i32⟩
  | 23 => ⟨S200000, .i32⟩
  | 24 => ⟨S1x200000, .i32⟩
  | 25 => ⟨S200000, .i32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x150, .bf16⟩
  | 35 => ⟨S200000x150, .f32⟩
  | 36 => ⟨S_, .f32⟩
  | 37 => ⟨S20000x150, .f32⟩
  | 38 => ⟨S200000x1, .i32⟩
  | 39 => ⟨S20000x150, .f32⟩
  | 40 => ⟨S20000x150, .f32⟩
  | 41 => ⟨S20000x150, .f32⟩
  | 42 => ⟨S1x1x150x150, .f32⟩
  | 43 => ⟨S150x150, .f32⟩
  | 44 => ⟨S1x1x150x150, .f32⟩
  | 45 => ⟨S150x150, .f32⟩
  | 46 => ⟨S150x150, .f32⟩
  | 47 => ⟨S1x1x150, .f32⟩
  | 48 => ⟨S150, .f32⟩
  | 49 => ⟨S1x1x150, .f32⟩
  | 50 => ⟨S150, .f32⟩
  | 51 => ⟨S150, .f32⟩
  | 52 => ⟨S1x1x150x150, .f32⟩
  | 53 => ⟨S150x150, .f32⟩
  | 54 => ⟨S1x1x150x150, .f32⟩
  | 55 => ⟨S150x150, .f32⟩
  | 56 => ⟨S1x150, .f32⟩
  | 57 => ⟨S20000x150, .bf16⟩
  | 58 => ⟨S1x500000, .i32⟩
  | 59 => ⟨S500000, .i32⟩
  | 60 => ⟨S1x500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x150, .bf16⟩
  | 71 => ⟨S500000x150, .f32⟩
  | 72 => ⟨S_, .f32⟩
  | 73 => ⟨S20000x150, .f32⟩
  | 74 => ⟨S500000x1, .i32⟩
  | 75 => ⟨S20000x150, .f32⟩
  | 76 => ⟨S20000x150, .f32⟩
  | 77 => ⟨S20000x150, .f32⟩
  | 78 => ⟨S1x200000, .i32⟩
  | 79 => ⟨S200000, .i32⟩
  | 80 => ⟨S1x200000, .i32⟩
  | 81 => ⟨S200000, .i32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S200000x1, .i32⟩
  | 90 => ⟨S200000x150, .bf16⟩
  | 91 => ⟨S200000x150, .f32⟩
  | 92 => ⟨S_, .f32⟩
  | 93 => ⟨S20000x150, .f32⟩
  | 94 => ⟨S200000x1, .i32⟩
  | 95 => ⟨S20000x150, .f32⟩
  | 96 => ⟨S20000x150, .f32⟩
  | 97 => ⟨S20000x150, .f32⟩
  | 98 => ⟨S1x1x150x150, .f32⟩
  | 99 => ⟨S150x150, .f32⟩
  | 100 => ⟨S1x1x150x150, .f32⟩
  | 101 => ⟨S150x150, .f32⟩
  | 102 => ⟨S150x150, .f32⟩
  | 103 => ⟨S1x1x150, .f32⟩
  | 104 => ⟨S150, .f32⟩
  | 105 => ⟨S1x1x150, .f32⟩
  | 106 => ⟨S150, .f32⟩
  | 107 => ⟨S150, .f32⟩
  | 108 => ⟨S1x1x150x150, .f32⟩
  | 109 => ⟨S150x150, .f32⟩
  | 110 => ⟨S1x1x150x150, .f32⟩
  | 111 => ⟨S150x150, .f32⟩
  | 112 => ⟨S1x150, .f32⟩
  | 113 => ⟨S20000x150, .bf16⟩
  | 114 => ⟨S1x300, .f32⟩
  | 115 => ⟨S1x200, .f32⟩
  | 116 => ⟨S1x150, .f32⟩
  | 117 => ⟨S50000x150, .bf16⟩
  | 118 => ⟨S1x500000, .i32⟩
  | 119 => ⟨S500000, .i32⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S50000x768, .f32⟩

abbrev hbmTy0_4 (i : Nat) : BufTy := match i % 128 with
  | 0 => ⟨S500000x150, .bf16⟩
  | 1 => ⟨S1x500000, .i32⟩
  | 2 => ⟨S500000, .i32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000x150, .bf16⟩
  | 12 => ⟨S150x150, .f32⟩
  | 13 => ⟨S150x150, .f32⟩
  | 14 => ⟨S1x150, .f32⟩
  | 15 => ⟨S1x50, .f32⟩
  | 16 => ⟨S1x3, .f32⟩
  | 17 => ⟨S500000x3, .f32⟩
  | _ => ⟨S50000x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x768, .f32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x150, .f32⟩
  | .local _ .vmem, ⟨3, _⟩ => ⟨S1x150, .f32⟩
  | .local _ .vmem, ⟨4, _⟩ => ⟨S2000x150, .bf16⟩
  | .local _ .vmem, ⟨5, _⟩ => ⟨S2000x150, .bf16⟩
  | .local _ .vmem, ⟨6, _⟩ => ⟨S2000x768, .f32⟩
  | .local _ .vmem, ⟨7, _⟩ => ⟨S768x150, .f32⟩
  | .local _ .vmem, ⟨8, _⟩ => ⟨S1x150, .f32⟩
  | .local _ .vmem, ⟨9, _⟩ => ⟨S2000x150, .bf16⟩
  | .local _ .vmem, ⟨10, _⟩ => ⟨S2000x1024, .f32⟩
  | .local _ .vmem, ⟨11, _⟩ => ⟨S2000x1024, .f32⟩
  | .local _ .vmem, ⟨12, _⟩ => ⟨S1024x150, .f32⟩
  | .local _ .vmem, ⟨13, _⟩ => ⟨S1x150, .f32⟩
  | .local _ .vmem, ⟨14, _⟩ => ⟨S2000x150, .bf16⟩
  | .local _ .vmem, ⟨15, _⟩ => ⟨S2000x150, .bf16⟩
  | .local _ .vmem, ⟨16, _⟩ => ⟨S2000x150, .f32⟩
  | .local _ .vmem, ⟨17, _⟩ => ⟨S2000x150, .f32⟩
  | .local _ .vmem, ⟨18, _⟩ => ⟨S150x150, .f32⟩
  | .local _ .vmem, ⟨19, _⟩ => ⟨S2000x150, .f32⟩
  | .local _ .vmem, ⟨20, _⟩ => ⟨S2000x150, .f32⟩
  | .local _ .vmem, ⟨21, _⟩ => ⟨S150x150, .f32⟩
  | .local _ .vmem, ⟨22, _⟩ => ⟨S2000x150, .bf16⟩
  | .local _ .vmem, ⟨23, _⟩ => ⟨S2000x150, .bf16⟩
  | .local _ .vmem, ⟨24, _⟩ => ⟨S150x150, .f32⟩
  | .local _ .vmem, ⟨25, _⟩ => ⟨S1x150, .f32⟩
  | .local _ .vmem, ⟨26, _⟩ => ⟨S2000x150, .bf16⟩
  | .local _ .vmem, ⟨27, _⟩ => ⟨S2000x150, .bf16⟩
  | .local _ .vmem, ⟨28, _⟩ => ⟨S2000x150, .f32⟩
  | .local _ .vmem, ⟨29, _⟩ => ⟨S150x150, .f32⟩
  | .local _ .vmem, ⟨30, _⟩ => ⟨S2000x150, .f32⟩
  | .local _ .vmem, ⟨31, _⟩ => ⟨S150x150, .f32⟩
  | .local _ .vmem, ⟨32, _⟩ => ⟨S2000x150, .bf16⟩
  | .local _ .vmem, ⟨33, _⟩ => ⟨S150x150, .f32⟩
  | .local _ .vmem, ⟨34, _⟩ => ⟨S1x150, .f32⟩
  | .local _ .vmem, ⟨35, _⟩ => ⟨S2000x150, .bf16⟩
  | .local _ .vmem, ⟨36, _⟩ => ⟨S2000x150, .f32⟩
  | .local _ .vmem, ⟨37, _⟩ => ⟨S2000x150, .f32⟩
  | .local _ .vmem, ⟨38, _⟩ => ⟨S150x150, .f32⟩
  | .local _ .vmem, ⟨39, _⟩ => ⟨S2000x150, .f32⟩
  | .local _ .vmem, ⟨40, _⟩ => ⟨S2000x150, .f32⟩
  | .local _ .vmem, ⟨41, _⟩ => ⟨S150x150, .f32⟩
  | .local _ .vmem, ⟨42, _⟩ => ⟨S2000x150, .bf16⟩
  | .local _ .vmem, ⟨43, _⟩ => ⟨S2000x150, .bf16⟩
  | .local _ .vmem, ⟨44, _⟩ => ⟨S150x150, .f32⟩
  | .local _ .vmem, ⟨45, _⟩ => ⟨S1x150, .f32⟩
  | .local _ .vmem, ⟨46, _⟩ => ⟨S2000x150, .bf16⟩
  | .local _ .vmem, ⟨47, _⟩ => ⟨S2000x150, .bf16⟩
  | .local _ .vmem, ⟨48, _⟩ => ⟨S2000x150, .f32⟩
  | .local _ .vmem, ⟨49, _⟩ => ⟨S2000x150, .f32⟩
  | .local _ .vmem, ⟨50, _⟩ => ⟨S150x150, .f32⟩
  | .local _ .vmem, ⟨51, _⟩ => ⟨S2000x150, .f32⟩
  | .local _ .vmem, ⟨52, _⟩ => ⟨S2000x150, .f32⟩
  | .local _ .vmem, ⟨53, _⟩ => ⟨S150x150, .f32⟩
  | .local _ .vmem, ⟨54, _⟩ => ⟨S2000x150, .bf16⟩
  | .local _ .vmem, ⟨55, _⟩ => ⟨S2000x150, .bf16⟩
  | .local _ .vmem, ⟨56, _⟩ => ⟨S150x150, .f32⟩
  | .local _ .vmem, ⟨57, _⟩ => ⟨S1x150, .f32⟩
  | .local _ .vmem, ⟨58, _⟩ => ⟨S2000x150, .bf16⟩
  | .local _ .vmem, ⟨59, _⟩ => ⟨S2000x150, .bf16⟩
  | .local _ .vmem, ⟨60, _⟩ => ⟨S2000x150, .f32⟩
  | .local _ .vmem, ⟨61, _⟩ => ⟨S150x150, .f32⟩
  | .local _ .vmem, ⟨62, _⟩ => ⟨S2000x150, .f32⟩
  | .local _ .vmem, ⟨63, _⟩ => ⟨S150x150, .f32⟩
  | .local _ .vmem, ⟨64, _⟩ => ⟨S2000x150, .bf16⟩
  | .local _ .vmem, ⟨65, _⟩ => ⟨S150x150, .f32⟩
  | .local _ .vmem, ⟨66, _⟩ => ⟨S1x150, .f32⟩
  | .local _ .vmem, ⟨67, _⟩ => ⟨S2000x150, .bf16⟩
  | .local _ .vmem, ⟨68, _⟩ => ⟨S2000x150, .f32⟩
  | .local _ .vmem, ⟨69, _⟩ => ⟨S2000x150, .f32⟩
  | .local _ .vmem, ⟨70, _⟩ => ⟨S150x150, .f32⟩
  | .local _ .vmem, ⟨71, _⟩ => ⟨S2000x150, .f32⟩
  | .local _ .vmem, ⟨72, _⟩ => ⟨S2000x150, .f32⟩
  | .local _ .vmem, ⟨73, _⟩ => ⟨S150x150, .f32⟩
  | .local _ .vmem, ⟨74, _⟩ => ⟨S2000x150, .bf16⟩
  | .local _ .vmem, ⟨75, _⟩ => ⟨S2000x150, .bf16⟩
  | .local _ .vmem, ⟨76, _⟩ => ⟨S150x150, .f32⟩
  | .local _ .vmem, ⟨77, _⟩ => ⟨S1x150, .f32⟩
  | .local _ .vmem, ⟨78, _⟩ => ⟨S2000x150, .bf16⟩
  | .local _ .vmem, ⟨79, _⟩ => ⟨S2000x150, .bf16⟩
  | .local _ .vmem, ⟨80, _⟩ => ⟨S2000x150, .f32⟩
  | .local _ .vmem, ⟨81, _⟩ => ⟨S2000x150, .f32⟩
  | .local _ .vmem, ⟨82, _⟩ => ⟨S150x150, .f32⟩
  | .local _ .vmem, ⟨83, _⟩ => ⟨S2000x150, .f32⟩
  | .local _ .vmem, ⟨84, _⟩ => ⟨S2000x150, .f32⟩
  | .local _ .vmem, ⟨85, _⟩ => ⟨S150x150, .f32⟩
  | .local _ .vmem, ⟨86, _⟩ => ⟨S2000x150, .bf16⟩
  | .local _ .vmem, ⟨87, _⟩ => ⟨S2000x150, .bf16⟩
  | .local _ .vmem, ⟨88, _⟩ => ⟨S150x150, .f32⟩
  | .local _ .vmem, ⟨89, _⟩ => ⟨S1x150, .f32⟩
  | .local _ .vmem, ⟨90, _⟩ => ⟨S2000x150, .bf16⟩
  | .local _ .vmem, ⟨91, _⟩ => ⟨S2000x150, .bf16⟩
  | .local _ .vmem, ⟨92, _⟩ => ⟨S2000x768, .f32⟩
  | .local _ .vmem, ⟨93, _⟩ => ⟨S2000x768, .f32⟩
  | .local _ .vmem, ⟨94, _⟩ => ⟨S768x300, .f32⟩
  | .local _ .vmem, ⟨95, _⟩ => ⟨S1x300, .f32⟩
  | .local _ .vmem, ⟨96, _⟩ => ⟨S300x200, .f32⟩
  | .local _ .vmem, ⟨97, _⟩ => ⟨S1x200, .f32⟩
  | .local _ .vmem, ⟨98, _⟩ => ⟨S200x150, .f32⟩
  | .local _ .vmem, ⟨99, _⟩ => ⟨S1x150, .f32⟩
  | .local _ .vmem, ⟨100, _⟩ => ⟨S2000x150, .bf16⟩
  | .local _ .vmem, ⟨101, _⟩ => ⟨S2000x150, .bf16⟩
  | .local _ .vmem, ⟨102, _⟩ => ⟨S5000x150, .bf16⟩
  | .local _ .vmem, ⟨103, _⟩ => ⟨S5000x150, .bf16⟩
  | .local _ .vmem, ⟨104, _⟩ => ⟨S5000x150, .bf16⟩
  | .local _ .vmem, ⟨105, _⟩ => ⟨S5000x150, .bf16⟩
  | .local _ .vmem, ⟨106, _⟩ => ⟨S150x150, .f32⟩
  | .local _ .vmem, ⟨107, _⟩ => ⟨S150x150, .f32⟩
  | .local _ .vmem, ⟨108, _⟩ => ⟨S1x150, .f32⟩
  | .local _ .vmem, ⟨109, _⟩ => ⟨S150x50, .f32⟩
  | .local _ .vmem, ⟨110, _⟩ => ⟨S1x50, .f32⟩
  | .local _ .vmem, ⟨111, _⟩ => ⟨S50x3, .f32⟩
  | .local _ .vmem, ⟨112, _⟩ => ⟨S1x3, .f32⟩
  | .local _ .vmem, ⟨113, _⟩ => ⟨S5000x3, .f32⟩
  | .local _ .vmem, ⟨114, _⟩ => ⟨S5000x3, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | _, _ => false

abbrev semScoped : Fin 0 → Bool
  | ⟨_, h⟩ => absurd h (Nat.not_lt_zero _)

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  ofTc nBuf bufTy 0 115 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_8 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_11 : Ref sig .tc := ⟨.hbm, 84, rfl⟩
abbrev main_v44 : Ref sig .tc := ⟨.hbm, 85, rfl⟩
abbrev main_cst_12 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_13 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_14 : Ref sig .tc := ⟨.hbm, 96, rfl⟩
abbrev main_v53 : Ref sig .tc := ⟨.hbm, 97, rfl⟩
abbrev main_cst_15 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_16 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_c : Ref sig .tc := ⟨.hbm, 110, rfl⟩
abbrev main_v64 : Ref sig .tc := ⟨.hbm, 111, rfl⟩
abbrev main_v65 : Ref sig .tc := ⟨.hbm, 112, rfl⟩
abbrev main_c_17 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_18 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_19 : Ref sig .tc := ⟨.hbm, 130, rfl⟩
abbrev main_v81 : Ref sig .tc := ⟨.hbm, 131, rfl⟩
abbrev main_v82 : Ref sig .tc := ⟨.hbm, 132, rfl⟩
abbrev main_c_20 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_21 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_c_22 : Ref sig .tc := ⟨.hbm, 166, rfl⟩
abbrev main_v114 : Ref sig .tc := ⟨.hbm, 167, rfl⟩
abbrev main_v115 : Ref sig .tc := ⟨.hbm, 168, rfl⟩
abbrev main_c_23 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_24 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_c_25 : Ref sig .tc := ⟨.hbm, 186, rfl⟩
abbrev main_v131 : Ref sig .tc := ⟨.hbm, 187, rfl⟩
abbrev main_v132 : Ref sig .tc := ⟨.hbm, 188, rfl⟩
abbrev main_c_26 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_27 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_28 : Ref sig .tc := ⟨.hbm, 222, rfl⟩
abbrev main_v164 : Ref sig .tc := ⟨.hbm, 223, rfl⟩
abbrev main_v165 : Ref sig .tc := ⟨.hbm, 224, rfl⟩
abbrev main_c_29 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_30 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_c_31 : Ref sig .tc := ⟨.hbm, 242, rfl⟩
abbrev main_v181 : Ref sig .tc := ⟨.hbm, 243, rfl⟩
abbrev main_v182 : Ref sig .tc := ⟨.hbm, 244, rfl⟩
abbrev main_c_32 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_33 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_c_34 : Ref sig .tc := ⟨.hbm, 278, rfl⟩
abbrev main_v214 : Ref sig .tc := ⟨.hbm, 279, rfl⟩
abbrev main_v215 : Ref sig .tc := ⟨.hbm, 280, rfl⟩
abbrev main_c_35 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_cst_36 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_c_37 : Ref sig .tc := ⟨.hbm, 298, rfl⟩
abbrev main_v231 : Ref sig .tc := ⟨.hbm, 299, rfl⟩
abbrev main_v232 : Ref sig .tc := ⟨.hbm, 300, rfl⟩
abbrev main_c_38 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_cst_39 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_c_40 : Ref sig .tc := ⟨.hbm, 334, rfl⟩
abbrev main_v264 : Ref sig .tc := ⟨.hbm, 335, rfl⟩
abbrev main_v265 : Ref sig .tc := ⟨.hbm, 336, rfl⟩
abbrev main_c_41 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_cst_42 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_c_43 : Ref sig .tc := ⟨.hbm, 354, rfl⟩
abbrev main_v281 : Ref sig .tc := ⟨.hbm, 355, rfl⟩
abbrev main_v282 : Ref sig .tc := ⟨.hbm, 356, rfl⟩
abbrev main_c_44 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_cst_45 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_v311 : Ref sig .tc := ⟨.hbm, 387, rfl⟩
abbrev main_v312 : Ref sig .tc := ⟨.hbm, 388, rfl⟩
abbrev main_v313 : Ref sig .tc := ⟨.hbm, 389, rfl⟩
abbrev main_c_46 : Ref sig .tc := ⟨.hbm, 390, rfl⟩
abbrev main_v314 : Ref sig .tc := ⟨.hbm, 391, rfl⟩
abbrev main_v315 : Ref sig .tc := ⟨.hbm, 392, rfl⟩
abbrev main_c_47 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_cst_48 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_c_49 : Ref sig .tc := ⟨.hbm, 410, rfl⟩
abbrev main_v331 : Ref sig .tc := ⟨.hbm, 411, rfl⟩
abbrev main_v332 : Ref sig .tc := ⟨.hbm, 412, rfl⟩
abbrev main_c_50 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_cst_51 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_v343 : Ref sig .tc := ⟨.hbm, 425, rfl⟩
abbrev main_v344 : Ref sig .tc := ⟨.hbm, 426, rfl⟩
abbrev main_v345 : Ref sig .tc := ⟨.hbm, 427, rfl⟩
abbrev main_v346 : Ref sig .tc := ⟨.hbm, 428, rfl⟩
abbrev main_v347 : Ref sig .tc := ⟨.hbm, 429, rfl⟩
abbrev main_v348 : Ref sig .tc := ⟨.hbm, 430, rfl⟩
abbrev main_v349 : Ref sig .tc := ⟨.hbm, 431, rfl⟩
abbrev main_v350 : Ref sig .tc := ⟨.hbm, 432, rfl⟩
abbrev main_v351 : Ref sig .tc := ⟨.hbm, 433, rfl⟩
abbrev main_v352 : Ref sig .tc := ⟨.hbm, 434, rfl⟩
abbrev main_v353 : Ref sig .tc := ⟨.hbm, 435, rfl⟩
abbrev main_v354 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_c_52 : Ref sig .tc := ⟨.hbm, 446, rfl⟩
abbrev main_v364 : Ref sig .tc := ⟨.hbm, 447, rfl⟩
abbrev main_v365 : Ref sig .tc := ⟨.hbm, 448, rfl⟩
abbrev main_c_53 : Ref sig .tc := ⟨.hbm, 449, rfl⟩
abbrev main_v366 : Ref sig .tc := ⟨.hbm, 450, rfl⟩
abbrev main_v367 : Ref sig .tc := ⟨.hbm, 451, rfl⟩
abbrev main_v368 : Ref sig .tc := ⟨.hbm, 452, rfl⟩
abbrev main_v369 : Ref sig .tc := ⟨.hbm, 453, rfl⟩
abbrev main_v370 : Ref sig .tc := ⟨.hbm, 454, rfl⟩
abbrev main_v371 : Ref sig .tc := ⟨.hbm, 455, rfl⟩
abbrev main_cst_54 : Ref sig .tc := ⟨.hbm, 456, rfl⟩
abbrev main_v372 : Ref sig .tc := ⟨.hbm, 457, rfl⟩
abbrev main_v373 : Ref sig .tc := ⟨.hbm, 458, rfl⟩
abbrev main_v374 : Ref sig .tc := ⟨.hbm, 459, rfl⟩
abbrev main_v375 : Ref sig .tc := ⟨.hbm, 460, rfl⟩
abbrev main_v376 : Ref sig .tc := ⟨.hbm, 461, rfl⟩
abbrev main_v377 : Ref sig .tc := ⟨.hbm, 462, rfl⟩
abbrev main_v378 : Ref sig .tc := ⟨.hbm, 463, rfl⟩
abbrev main_v379 : Ref sig .tc := ⟨.hbm, 464, rfl⟩
abbrev main_v380 : Ref sig .tc := ⟨.hbm, 465, rfl⟩
abbrev main_c_55 : Ref sig .tc := ⟨.hbm, 466, rfl⟩
abbrev main_v381 : Ref sig .tc := ⟨.hbm, 467, rfl⟩
abbrev main_v382 : Ref sig .tc := ⟨.hbm, 468, rfl⟩
abbrev main_c_56 : Ref sig .tc := ⟨.hbm, 469, rfl⟩
abbrev main_v383 : Ref sig .tc := ⟨.hbm, 470, rfl⟩
abbrev main_v384 : Ref sig .tc := ⟨.hbm, 471, rfl⟩
abbrev main_v385 : Ref sig .tc := ⟨.hbm, 472, rfl⟩
abbrev main_v386 : Ref sig .tc := ⟨.hbm, 473, rfl⟩
abbrev main_v387 : Ref sig .tc := ⟨.hbm, 474, rfl⟩
abbrev main_v388 : Ref sig .tc := ⟨.hbm, 475, rfl⟩
abbrev main_cst_57 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_v399 : Ref sig .tc := ⟨.hbm, 487, rfl⟩
abbrev main_v400 : Ref sig .tc := ⟨.hbm, 488, rfl⟩
abbrev main_v401 : Ref sig .tc := ⟨.hbm, 489, rfl⟩
abbrev main_v402 : Ref sig .tc := ⟨.hbm, 490, rfl⟩
abbrev main_v403 : Ref sig .tc := ⟨.hbm, 491, rfl⟩
abbrev main_v404 : Ref sig .tc := ⟨.hbm, 492, rfl⟩
abbrev main_v405 : Ref sig .tc := ⟨.hbm, 493, rfl⟩
abbrev main_v406 : Ref sig .tc := ⟨.hbm, 494, rfl⟩
abbrev main_v407 : Ref sig .tc := ⟨.hbm, 495, rfl⟩
abbrev main_v408 : Ref sig .tc := ⟨.hbm, 496, rfl⟩
abbrev main_v409 : Ref sig .tc := ⟨.hbm, 497, rfl⟩
abbrev main_v410 : Ref sig .tc := ⟨.hbm, 498, rfl⟩
abbrev main_v411 : Ref sig .tc := ⟨.hbm, 499, rfl⟩
abbrev main_v412 : Ref sig .tc := ⟨.hbm, 500, rfl⟩
abbrev main_v413 : Ref sig .tc := ⟨.hbm, 501, rfl⟩
abbrev main_v414 : Ref sig .tc := ⟨.hbm, 502, rfl⟩
abbrev main_v415 : Ref sig .tc := ⟨.hbm, 503, rfl⟩
abbrev main_c_58 : Ref sig .tc := ⟨.hbm, 504, rfl⟩
abbrev main_v416 : Ref sig .tc := ⟨.hbm, 505, rfl⟩
abbrev main_v417 : Ref sig .tc := ⟨.hbm, 506, rfl⟩
abbrev main_c_59 : Ref sig .tc := ⟨.hbm, 507, rfl⟩
abbrev main_v418 : Ref sig .tc := ⟨.hbm, 508, rfl⟩
abbrev main_v419 : Ref sig .tc := ⟨.hbm, 509, rfl⟩
abbrev main_v420 : Ref sig .tc := ⟨.hbm, 510, rfl⟩
abbrev main_v421 : Ref sig .tc := ⟨.hbm, 511, rfl⟩
abbrev main_v422 : Ref sig .tc := ⟨.hbm, 512, rfl⟩
abbrev main_v423 : Ref sig .tc := ⟨.hbm, 513, rfl⟩
abbrev main_v424 : Ref sig .tc := ⟨.hbm, 514, rfl⟩
abbrev main_c_60 : Ref sig .tc := ⟨.hbm, 515, rfl⟩
abbrev main_v425 : Ref sig .tc := ⟨.hbm, 516, rfl⟩
abbrev main_v426 : Ref sig .tc := ⟨.hbm, 517, rfl⟩
abbrev main_c_61 : Ref sig .tc := ⟨.hbm, 518, rfl⟩
abbrev main_v427 : Ref sig .tc := ⟨.hbm, 519, rfl⟩
abbrev main_v428 : Ref sig .tc := ⟨.hbm, 520, rfl⟩
abbrev main_v429 : Ref sig .tc := ⟨.hbm, 521, rfl⟩
abbrev main_v430 : Ref sig .tc := ⟨.hbm, 522, rfl⟩
abbrev main_v431 : Ref sig .tc := ⟨.hbm, 523, rfl⟩
abbrev main_v432 : Ref sig .tc := ⟨.hbm, 524, rfl⟩
abbrev main_v433 : Ref sig .tc := ⟨.hbm, 525, rfl⟩
abbrev main_v434 : Ref sig .tc := ⟨.hbm, 526, rfl⟩
abbrev main_v435 : Ref sig .tc := ⟨.hbm, 527, rfl⟩
abbrev main_v436 : Ref sig .tc := ⟨.hbm, 528, rfl⟩
abbrev main_v437 : Ref sig .tc := ⟨.hbm, 529, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg7_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg7_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg7_0 : Ref sig .tc := ⟨.vmem, 58, rfl⟩
abbrev cc6_stg7_1 : Ref sig .tc := ⟨.vmem, 59, rfl⟩
abbrev cc7_stg0_0 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg7_0 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg2_1 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg4_1 : Ref sig .tc := ⟨.vmem, 75, rfl⟩
abbrev cc8_stg5_0 : Ref sig .tc := ⟨.vmem, 76, rfl⟩
abbrev cc8_stg6_0 : Ref sig .tc := ⟨.vmem, 77, rfl⟩
abbrev cc8_stg7_0 : Ref sig .tc := ⟨.vmem, 78, rfl⟩
abbrev cc8_stg7_1 : Ref sig .tc := ⟨.vmem, 79, rfl⟩
abbrev cc9_stg0_0 : Ref sig .tc := ⟨.vmem, 80, rfl⟩
abbrev cc9_stg0_1 : Ref sig .tc := ⟨.vmem, 81, rfl⟩
abbrev cc9_stg1_0 : Ref sig .tc := ⟨.vmem, 82, rfl⟩
abbrev cc9_stg2_0 : Ref sig .tc := ⟨.vmem, 83, rfl⟩
abbrev cc9_stg2_1 : Ref sig .tc := ⟨.vmem, 84, rfl⟩
abbrev cc9_stg3_0 : Ref sig .tc := ⟨.vmem, 85, rfl⟩
abbrev cc9_stg4_0 : Ref sig .tc := ⟨.vmem, 86, rfl⟩
abbrev cc9_stg4_1 : Ref sig .tc := ⟨.vmem, 87, rfl⟩
abbrev cc9_stg5_0 : Ref sig .tc := ⟨.vmem, 88, rfl⟩
abbrev cc9_stg6_0 : Ref sig .tc := ⟨.vmem, 89, rfl⟩
abbrev cc9_stg7_0 : Ref sig .tc := ⟨.vmem, 90, rfl⟩
abbrev cc9_stg7_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg2_0 : Ref sig .tc := ⟨.vmem, 95, rfl⟩
abbrev cc10_stg3_0 : Ref sig .tc := ⟨.vmem, 96, rfl⟩
abbrev cc10_stg4_0 : Ref sig .tc := ⟨.vmem, 97, rfl⟩
abbrev cc10_stg5_0 : Ref sig .tc := ⟨.vmem, 98, rfl⟩
abbrev cc10_stg6_0 : Ref sig .tc := ⟨.vmem, 99, rfl⟩
abbrev cc10_stg7_0 : Ref sig .tc := ⟨.vmem, 100, rfl⟩
abbrev cc10_stg7_1 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg1_1 : Ref sig .tc := ⟨.vmem, 105, rfl⟩
abbrev cc11_stg2_0 : Ref sig .tc := ⟨.vmem, 106, rfl⟩
abbrev cc11_stg3_0 : Ref sig .tc := ⟨.vmem, 107, rfl⟩
abbrev cc11_stg4_0 : Ref sig .tc := ⟨.vmem, 108, rfl⟩
abbrev cc11_stg5_0 : Ref sig .tc := ⟨.vmem, 109, rfl⟩
abbrev cc11_stg6_0 : Ref sig .tc := ⟨.vmem, 110, rfl⟩
abbrev cc11_stg7_0 : Ref sig .tc := ⟨.vmem, 111, rfl⟩
abbrev cc11_stg8_0 : Ref sig .tc := ⟨.vmem, 112, rfl⟩
abbrev cc11_stg9_0 : Ref sig .tc := ⟨.vmem, 113, rfl⟩
abbrev cc11_stg9_1 : Ref sig .tc := ⟨.vmem, 114, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem6_0 : DmaSem sig := 25
abbrev cc3_sem7_0 : DmaSem sig := 26
abbrev cc3_sem7_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem7_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem4_1 : DmaSem sig := 43
abbrev cc5_sem5_0 : DmaSem sig := 44
abbrev cc5_sem6_0 : DmaSem sig := 45
abbrev cc5_sem7_0 : DmaSem sig := 46
abbrev cc5_sem7_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem4_0 : DmaSem sig := 54
abbrev cc6_sem4_1 : DmaSem sig := 55
abbrev cc6_sem5_0 : DmaSem sig := 56
abbrev cc6_sem6_0 : DmaSem sig := 57
abbrev cc6_sem7_0 : DmaSem sig := 58
abbrev cc6_sem7_1 : DmaSem sig := 59
abbrev cc7_sem0_0 : DmaSem sig := 60
abbrev cc7_sem1_0 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem6_0 : DmaSem sig := 66
abbrev cc7_sem7_0 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem2_1 : DmaSem sig := 72
abbrev cc8_sem3_0 : DmaSem sig := 73
abbrev cc8_sem4_0 : DmaSem sig := 74
abbrev cc8_sem4_1 : DmaSem sig := 75
abbrev cc8_sem5_0 : DmaSem sig := 76
abbrev cc8_sem6_0 : DmaSem sig := 77
abbrev cc8_sem7_0 : DmaSem sig := 78
abbrev cc8_sem7_1 : DmaSem sig := 79
abbrev cc9_sem0_0 : DmaSem sig := 80
abbrev cc9_sem0_1 : DmaSem sig := 81
abbrev cc9_sem1_0 : DmaSem sig := 82
abbrev cc9_sem2_0 : DmaSem sig := 83
abbrev cc9_sem2_1 : DmaSem sig := 84
abbrev cc9_sem3_0 : DmaSem sig := 85
abbrev cc9_sem4_0 : DmaSem sig := 86
abbrev cc9_sem4_1 : DmaSem sig := 87
abbrev cc9_sem5_0 : DmaSem sig := 88
abbrev cc9_sem6_0 : DmaSem sig := 89
abbrev cc9_sem7_0 : DmaSem sig := 90
abbrev cc9_sem7_1 : DmaSem sig := 91
abbrev cc10_sem0_0 : DmaSem sig := 92
abbrev cc10_sem0_1 : DmaSem sig := 93
abbrev cc10_sem1_0 : DmaSem sig := 94
abbrev cc10_sem2_0 : DmaSem sig := 95
abbrev cc10_sem3_0 : DmaSem sig := 96
abbrev cc10_sem4_0 : DmaSem sig := 97
abbrev cc10_sem5_0 : DmaSem sig := 98
abbrev cc10_sem6_0 : DmaSem sig := 99
abbrev cc10_sem7_0 : DmaSem sig := 100
abbrev cc10_sem7_1 : DmaSem sig := 101
abbrev cc11_sem0_0 : DmaSem sig := 102
abbrev cc11_sem0_1 : DmaSem sig := 103
abbrev cc11_sem1_0 : DmaSem sig := 104
abbrev cc11_sem1_1 : DmaSem sig := 105
abbrev cc11_sem2_0 : DmaSem sig := 106
abbrev cc11_sem3_0 : DmaSem sig := 107
abbrev cc11_sem4_0 : DmaSem sig := 108
abbrev cc11_sem5_0 : DmaSem sig := 109
abbrev cc11_sem6_0 : DmaSem sig := 110
abbrev cc11_sem7_0 : DmaSem sig := 111
abbrev cc11_sem8_0 : DmaSem sig := 112
abbrev cc11_sem9_0 : DmaSem sig := 113
abbrev cc11_sem9_1 : DmaSem sig := 114

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x150 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x150 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2000x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S768x150 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x150 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2000x150 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x150 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x150 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x150 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x150 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S150x150 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x150 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S150x150 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x150 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S150x150 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x150 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x150 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2000x150 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S150x150 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2000x150 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S150x150 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2000x150 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S150x150 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x150 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S2000x150 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x150 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S150x150 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x150 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S150x150 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x150 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S150x150 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x150 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x150 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x150 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S150x150 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x150 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S150x150 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x150 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S150x150 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x150 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x150 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S2000x150 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S150x150 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S2000x150 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S150x150 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S2000x150 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S150x150 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x150 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S2000x150 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x150 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S150x150 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x150 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S150x150 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S2000x150 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S150x150 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x150 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S2000x150 .bf16 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x150 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S150x150 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x150 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S150x150 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x150 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S150x150 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x150 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S2000x150 .bf16 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x768 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S768x300 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x300 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S300x200 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x200 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S200x150 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x150 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S2000x150 .bf16 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![100], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x150 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x150 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S150x150 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S150x150 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x150 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S150x50 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x50 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S50x3 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x3 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 2 → Memref sig .tc .vmem S5000x3 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

class Facts₀ : Prop where
  shapeCasts_S150_S1x150 : S150.ShapeCasts S1x150
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x150_S768x150_0_0 : ∀ a, (![0, 0] : Fin 2 → Nat) a + S768x150.size a ≤ S768x150.size a
  h_S768x150 : 0 < S768x150.numel
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S2000x150 : S1x150.Broadcasts S2000x150
  inb_S2000x150_S2000x150_0_0 : ∀ a, (![0, 0] : Fin 2 → Nat) a + S2000x150.size a ≤ S2000x150.size a
  h_S2000x150 : 0 < S2000x150.numel
  packedbf16_S2000x150_S2000x150_0_0 : (Rect.unit (s := S2000x150) ![0, 0] S2000x150.size inb_S2000x150_S2000x150_0_0).PackedRows (EltTy.packing .bf16)
  inb_S2000x1024_S2000x1024_0_0 : ∀ a, (![0, 0] : Fin 2 → Nat) a + S2000x1024.size a ≤ S2000x1024.size a
  h_S2000x1024 : 0 < S2000x1024.numel
  inb_S1024x150_S1024x150_0_0 : ∀ a, (![0, 0] : Fin 2 → Nat) a + S1024x150.size a ≤ S1024x150.size a
  h_S1024x150 : 0 < S1024x150.numel
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  bcast_S_S2000 : S_.BroadcastsInDim S2000 (![] : Fin 0 → Fin S2000.rank)
  bcast_S2000_S2000x1_0 : S2000.BroadcastsInDim S2000x1 (![0] : Fin 1 → Fin S2000x1.rank)
  slices_S2x500000_S1x500000_1_0 : S2x500000.Slices ![1, 0] S1x500000
  bcast_S_S20000 : S_.BroadcastsInDim S20000 (![] : Fin 0 → Fin S20000.rank)
  bcast_S20000_S20000x1_0 : S20000.BroadcastsInDim S20000x1 (![0] : Fin 1 → Fin S20000x1.rank)
  bcast_S_S50000x150 : S_.BroadcastsInDim S50000x150 (![] : Fin 0 → Fin S50000x150.rank)
  bcast_S50000x1_S50000x150_0_1 : S50000x1.BroadcastsInDim S50000x150 (![0, 1] : Fin 2 → Fin S50000x150.rank)
  slices_S3x6x150x150_S1x1x150x150_0_1_0_0 : S3x6x150x150.Slices ![0, 1, 0, 0] S1x1x150x150
  shapeCasts_S1x1x150x150_S150x150 : S1x1x150x150.ShapeCasts S150x150
  slices_S3x6x150x150_S1x1x150x150_0_3_0_0 : S3x6x150x150.Slices ![0, 3, 0, 0] S1x1x150x150
  slices_S3x6x150_S1x1x150_0_1_0 : S3x6x150.Slices ![0, 1, 0] S1x1x150
  shapeCasts_S1x1x150_S150 : S1x1x150.ShapeCasts S150
  slices_S3x6x150_S1x1x150_0_3_0 : S3x6x150.Slices ![0, 3, 0] S1x1x150
  shapeCasts_S2000x150_S2000x150 : S2000x150.ShapeCasts S2000x150
  inb_S150x150_S150x150_0_0 : ∀ a, (![0, 0] : Fin 2 → Nat) a + S150x150.size a ≤ S150x150.size a
  h_S150x150 : 0 < S150x150.numel
  shapeCasts_S150x150_S150x150 : S150x150.ShapeCasts S150x150
  bcast_S_S2000x150 : S_.BroadcastsInDim S2000x150 (![] : Fin 0 → Fin S2000x150.rank)
  bcast_S2000x1_S2000x150_0_1 : S2000x1.BroadcastsInDim S2000x150 (![0, 1] : Fin 2 → Fin S2000x150.rank)
  slices_S3x6x150x150_S1x1x150x150_0_2_0_0 : S3x6x150x150.Slices ![0, 2, 0, 0] S1x1x150x150
  slices_S3x6x150x150_S1x1x150x150_0_5_0_0 : S3x6x150x150.Slices ![0, 5, 0, 0] S1x1x150x150
  slices_S3x6x150_S1x1x150_0_2_0 : S3x6x150.Slices ![0, 2, 0] S1x1x150
  slices_S3x6x150_S1x1x150_0_5_0 : S3x6x150.Slices ![0, 5, 0] S1x1x150
  bcast_S_S20000x150 : S_.BroadcastsInDim S20000x150 (![] : Fin 0 → Fin S20000x150.rank)
  bcast_S20000x1_S20000x150_0_1 : S20000x1.BroadcastsInDim S20000x150 (![0, 1] : Fin 2 → Fin S20000x150.rank)
  slices_S3x6x150x150_S1x1x150x150_0_0_0_0 : S3x6x150x150.Slices ![0, 0, 0, 0] S1x1x150x150
  slices_S3x6x150x150_S1x1x150x150_0_4_0_0 : S3x6x150x150.Slices ![0, 4, 0, 0] S1x1x150x150
  slices_S3x6x150_S1x1x150_0_0_0 : S3x6x150.Slices ![0, 0, 0] S1x1x150
  slices_S3x6x150_S1x1x150_0_4_0 : S3x6x150.Slices ![0, 4, 0] S1x1x150
  slices_S3x6x150x150_S1x1x150x150_1_1_0_0 : S3x6x150x150.Slices ![1, 1, 0, 0] S1x1x150x150
  slices_S3x6x150x150_S1x1x150x150_1_3_0_0 : S3x6x150x150.Slices ![1, 3, 0, 0] S1x1x150x150
  slices_S3x6x150_S1x1x150_1_1_0 : S3x6x150.Slices ![1, 1, 0] S1x1x150
  slices_S3x6x150_S1x1x150_1_3_0 : S3x6x150.Slices ![1, 3, 0] S1x1x150
  slices_S3x6x150x150_S1x1x150x150_1_2_0_0 : S3x6x150x150.Slices ![1, 2, 0, 0] S1x1x150x150
  slices_S3x6x150x150_S1x1x150x150_1_5_0_0 : S3x6x150x150.Slices ![1, 5, 0, 0] S1x1x150x150
  slices_S3x6x150_S1x1x150_1_2_0 : S3x6x150.Slices ![1, 2, 0] S1x1x150
  slices_S3x6x150_S1x1x150_1_5_0 : S3x6x150.Slices ![1, 5, 0] S1x1x150
  slices_S3x6x150x150_S1x1x150x150_1_0_0_0 : S3x6x150x150.Slices ![1, 0, 0, 0] S1x1x150x150
  slices_S3x6x150x150_S1x1x150x150_1_4_0_0 : S3x6x150x150.Slices ![1, 4, 0, 0] S1x1x150x150
  slices_S3x6x150_S1x1x150_1_0_0 : S3x6x150.Slices ![1, 0, 0] S1x1x150
  slices_S3x6x150_S1x1x150_1_4_0 : S3x6x150.Slices ![1, 4, 0] S1x1x150
  slices_S3x6x150x150_S1x1x150x150_2_0_0_0 : S3x6x150x150.Slices ![2, 0, 0, 0] S1x1x150x150
  slices_S3x6x150x150_S1x1x150x150_2_4_0_0 : S3x6x150x150.Slices ![2, 4, 0, 0] S1x1x150x150
  slices_S3x6x150_S1x1x150_2_0_0 : S3x6x150.Slices ![2, 0, 0] S1x1x150
  slices_S3x6x150_S1x1x150_2_4_0 : S3x6x150.Slices ![2, 4, 0] S1x1x150
  shapeCasts_S300_S1x300 : S300.ShapeCasts S1x300
  shapeCasts_S200_S1x200 : S200.ShapeCasts S1x200
  inb_S768x300_S768x300_0_0 : ∀ a, (![0, 0] : Fin 2 → Nat) a + S768x300.size a ≤ S768x300.size a
  h_S768x300 : 0 < S768x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S300x200_S300x200_0_0 : ∀ a, (![0, 0] : Fin 2 → Nat) a + S300x200.size a ≤ S300x200.size a
  h_S300x200 : 0 < S300x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2000x200 : S1x200.Broadcasts S2000x200
  inb_S200x150_S200x150_0_0 : ∀ a, (![0, 0] : Fin 2 → Nat) a + S200x150.size a ≤ S200x150.size a
  h_S200x150 : 0 < S200x150.numel
  slices_S300x150_S150x150_0_0 : S300x150.Slices ![0, 0] S150x150
  slices_S300x150_S150x150_150_0 : S300x150.Slices ![150, 0] S150x150
  shapeCasts_S50_S1x50 : S50.ShapeCasts S1x50
  shapeCasts_S3_S1x3 : S3.ShapeCasts S1x3
  inb_S5000x150_S5000x150_0_0 : ∀ a, (![0, 0] : Fin 2 → Nat) a + S5000x150.size a ≤ S5000x150.size a
  h_S5000x150 : 0 < S5000x150.numel
  shapeCasts_S5000x150_S5000x150 : S5000x150.ShapeCasts S5000x150
  broadcasts_S1x150_S5000x150 : S1x150.Broadcasts S5000x150
  inb_S150x50_S150x50_0_0 : ∀ a, (![0, 0] : Fin 2 → Nat) a + S150x50.size a ≤ S150x50.size a
  h_S150x50 : 0 < S150x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  inb_S50x3_S50x3_0_0 : ∀ a, (![0, 0] : Fin 2 → Nat) a + S50x3.size a ≤ S50x3.size a
  h_S50x3 : 0 < S50x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  dot_S2000x768_S768x150_S2000x150_1_0_0_1_n_n_wf : DotDims.WF S2000x768 S768x150 S2000x150 [1] [0] [0] [1] [] []
  dot_S2000x1024_S1024x150_S2000x150_1_0_0_1_n_n_wf : DotDims.WF S2000x1024 S1024x150 S2000x150 [1] [0] [0] [1] [] []
  scatter_S50000_S500000x1_S500000_n_0_0_1_wf : ScatterDims.WF S50000 S500000x1 S500000 [] [0] [0] 1
  scatter_S50000_S200000x1_S200000_n_0_0_1_wf : ScatterDims.WF S50000 S200000x1 S200000 [] [0] [0] 1
  scatter_S2000_S200000x1_S200000_n_0_0_1_wf : ScatterDims.WF S2000 S200000x1 S200000 [] [0] [0] 1
  scatter_S20000_S500000x1_S500000_n_0_0_1_wf : ScatterDims.WF S20000 S500000x1 S500000 [] [0] [0] 1
  scatter_S20000_S200000x1_S200000_n_0_0_1_wf : ScatterDims.WF S20000 S200000x1 S200000 [] [0] [0] 1
  gather_S20000x150_S500000x1_S500000x150_1_0_n_n_0_1_1150_wf : GatherDims.WF S20000x150 S500000x1 S500000x150 [1] [0] [] [0] [] 1 ![1, 150]
  scatter_S50000x150_S500000x1_S500000x150_1_0_0_1_wf : ScatterDims.WF S50000x150 S500000x1 S500000x150 [1] [0] [0] 1
  gather_S2000x150_S200000x1_S200000x150_1_0_n_n_0_1_1150_wf : GatherDims.WF S2000x150 S200000x1 S200000x150 [1] [0] [] [0] [] 1 ![1, 150]
  scatter_S50000x150_S200000x1_S200000x150_1_0_0_1_wf : ScatterDims.WF S50000x150 S200000x1 S200000x150 [1] [0] [0] 1
  dot_S2000x150_S150x150_S2000x150_1_0_0_1_n_n_wf : DotDims.WF S2000x150 S150x150 S2000x150 [1] [0] [0] [1] [] []
  gather_S50000x150_S200000x1_S200000x150_1_0_n_n_0_1_1150_wf : GatherDims.WF S50000x150 S200000x1 S200000x150 [1] [0] [] [0] [] 1 ![1, 150]
  scatter_S2000x150_S200000x1_S200000x150_1_0_0_1_wf : ScatterDims.WF S2000x150 S200000x1 S200000x150 [1] [0] [0] 1
  gather_S20000x150_S200000x1_S200000x150_1_0_n_n_0_1_1150_wf : GatherDims.WF S20000x150 S200000x1 S200000x150 [1] [0] [] [0] [] 1 ![1, 150]
  gather_S50000x150_S500000x1_S500000x150_1_0_n_n_0_1_1150_wf : GatherDims.WF S50000x150 S500000x1 S500000x150 [1] [0] [] [0] [] 1 ![1, 150]
  scatter_S20000x150_S500000x1_S500000x150_1_0_0_1_wf : ScatterDims.WF S20000x150 S500000x1 S500000x150 [1] [0] [0] 1
  scatter_S20000x150_S200000x1_S200000x150_1_0_0_1_wf : ScatterDims.WF S20000x150 S200000x1 S200000x150 [1] [0] [0] 1
  dot_S2000x768_S768x300_S2000x300_1_0_0_1_n_n_wf : DotDims.WF S2000x768 S768x300 S2000x300 [1] [0] [0] [1] [] []
  dot_S2000x300_S300x200_S2000x200_1_0_0_1_n_n_wf : DotDims.WF S2000x300 S300x200 S2000x200 [1] [0] [0] [1] [] []
  dot_S2000x200_S200x150_S2000x150_1_0_0_1_n_n_wf : DotDims.WF S2000x200 S200x150 S2000x150 [1] [0] [0] [1] [] []
  dot_S5000x150_S150x150_S5000x150_1_0_0_1_n_n_wf : DotDims.WF S5000x150 S150x150 S5000x150 [1] [0] [0] [1] [] []
  dot_S5000x150_S150x50_S5000x50_1_0_0_1_n_n_wf : DotDims.WF S5000x150 S150x50 S5000x50 [1] [0] [0] [1] [] []
  dot_S5000x50_S50x3_S5000x3_1_0_0_1_n_n_wf : DotDims.WF S5000x50 S50x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x150.size a ≤ S768x150.size a
  hwx0_1 : ∀ i : grid0.Coords, EltTy.bits .f32 = 32 ∨ (Rect.block (s := S768x150) S768x150.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x150.size a ≤ S1x150.size a
  hwx0_2 : ∀ i : grid0.Coords, EltTy.bits .f32 = 32 ∨ (Rect.block (s := S1x150) S1x150.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x150.size a ≤ S50000x150.size a
  hwx0_3 : ∀ i : grid0.Coords, EltTy.bits .bf16 = 32 ∨ (Rect.block (s := S50000x150) S2000x150.size (cc0_transform_3 i) (hinb0_3 i)).WholeWords (EltTy.packing .bf16)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S2000x768.size a
  hwx1_0 : ∀ i : grid1.Coords, EltTy.bits .f32 = 32 ∨ (Rect.block (s := S2000x768) S2000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x150.size a ≤ S768x150.size a
  hwx1_1 : ∀ i : grid1.Coords, EltTy.bits .f32 = 32 ∨ (Rect.block (s := S768x150) S768x150.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x150.size a ≤ S1x150.size a
  hwx1_2 : ∀ i : grid1.Coords, EltTy.bits .f32 = 32 ∨ (Rect.block (s := S1x150) S1x150.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S2000x150.size a ≤ S2000x150.size a
  hwx1_3 : ∀ i : grid1.Coords, EltTy.bits .bf16 = 32 ∨ (Rect.block (s := S2000x150) S2000x150.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1024.size a ≤ S20000x1024.size a
  hwx2_0 : ∀ i : grid2.Coords, EltTy.bits .f32 = 32 ∨ (Rect.block (s := S20000x1024) S2000x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x150.size a ≤ S1024x150.size a
  hwx2_1 : ∀ i : grid2.Coords, EltTy.bits .f32 = 32 ∨ (Rect.block (s := S1024x150) S1024x150.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x150.size a ≤ S1x150.size a
  hwx2_2 : ∀ i : grid2.Coords, EltTy.bits .f32 = 32 ∨ (Rect.block (s := S1x150) S1x150.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x150.size a ≤ S20000x150.size a
  hwx2_3 : ∀ i : grid2.Coords, EltTy.bits .bf16 = 32 ∨ (Rect.block (s := S20000x150) S2000x150.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x150.size a ≤ S50000x150.size a
  hwx3_0 : ∀ i : grid3.Coords, EltTy.bits .f32 = 32 ∨ (Rect.block (s := S50000x150) S2000x150.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S150x150.size a ≤ S150x150.size a
  hwx3_1 : ∀ i : grid3.Coords, EltTy.bits .f32 = 32 ∨ (Rect.block (s := S150x150) S150x150.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x150.size a ≤ S50000x150.size a
  hwx3_2 : ∀ i : grid3.Coords, EltTy.bits .f32 = 32 ∨ (Rect.block (s := S50000x150) S2000x150.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S150x150.size a ≤ S150x150.size a
  hwx3_3 : ∀ i : grid3.Coords, EltTy.bits .f32 = 32 ∨ (Rect.block (s := S150x150) S150x150.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x150.size a ≤ S50000x150.size a
  hwx3_4 : ∀ i : grid3.Coords, EltTy.bits .bf16 = 32 ∨ (Rect.block (s := S50000x150) S2000x150.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S150x150.size a ≤ S150x150.size a
  hwx3_5 : ∀ i : grid3.Coords, EltTy.bits .f32 = 32 ∨ (Rect.block (s := S150x150) S150x150.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x150.size a ≤ S1x150.size a
  hwx3_6 : ∀ i : grid3.Coords, EltTy.bits .f32 = 32 ∨ (Rect.block (s := S1x150) S1x150.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x150.size a ≤ S50000x150.size a
  hwx3_7 : ∀ i : grid3.Coords, EltTy.bits .bf16 = 32 ∨ (Rect.block (s := S50000x150) S2000x150.size (cc3_transform_7 i) (hinb3_7 i)).WholeWords (EltTy.packing .bf16)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S2000x150.size a ≤ S2000x150.size a
  hwx4_0 : ∀ i : grid4.Coords, EltTy.bits .f32 = 32 ∨ (Rect.block (s := S2000x150) S2000x150.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S150x150.size a ≤ S150x150.size a
  hwx4_1 : ∀ i : grid4.Coords, EltTy.bits .f32 = 32 ∨ (Rect.block (s := S150x150) S150x150.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S2000x150.size a ≤ S2000x150.size a
  hwx4_2 : ∀ i : grid4.Coords, EltTy.bits .f32 = 32 ∨ (Rect.block (s := S2000x150) S2000x150.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S150x150.size a ≤ S150x150.size a
  hwx4_3 : ∀ i : grid4.Coords, EltTy.bits .f32 = 32 ∨ (Rect.block (s := S150x150) S150x150.size (cc4_transform_3 i) (hinb4_3 i)).WholeWords (EltTy.packing .f32)
  hstage4_4 : ∀ j, (stage4_4 j).IsWhole
  nbuf4_4 : grid4.bufCount reads4_4 false = 1
  hreads4_4 : ∀ i i' : grid4.Coords, (∀ a, reads4_4 a = true → i a = i' a) → cc4_transform_4 i = cc4_transform_4 i'
  hinb4_4 : ∀ (i : grid4.Coords) a, (cc4_transform_4 i a + 1) * S2000x150.size a ≤ S2000x150.size a
  hwx4_4 : ∀ i : grid4.Coords, EltTy.bits .bf16 = 32 ∨ (Rect.block (s := S2000x150) S2000x150.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S150x150.size a ≤ S150x150.size a
  hwx4_5 : ∀ i : grid4.Coords, EltTy.bits .f32 = 32 ∨ (Rect.block (s := S150x150) S150x150.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x150.size a ≤ S1x150.size a
  hwx4_6 : ∀ i : grid4.Coords, EltTy.bits .f32 = 32 ∨ (Rect.block (s := S1x150) S1x150.size (cc4_transform_6 i) (hinb4_6 i)).WholeWords (EltTy.packing .f32)
  hstage4_7 : ∀ j, (stage4_7 j).IsWhole
  nbuf4_7 : grid4.bufCount reads4_7 false = 1
  hreads4_7 : ∀ i i' : grid4.Coords, (∀ a, reads4_7 a = true → i a = i' a) → cc4_transform_7 i = cc4_transform_7 i'
  hinb4_7 : ∀ (i : grid4.Coords) a, (cc4_transform_7 i a + 1) * S2000x150.size a ≤ S2000x150.size a
  hwx4_7 : ∀ i : grid4.Coords, EltTy.bits .bf16 = 32 ∨ (Rect.block (s := S2000x150) S2000x150.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x150.size a ≤ S20000x150.size a
  hwx5_0 : ∀ i : grid5.Coords, EltTy.bits .f32 = 32 ∨ (Rect.block (s := S20000x150) S2000x150.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S150x150.size a ≤ S150x150.size a
  hwx5_1 : ∀ i : grid5.Coords, EltTy.bits .f32 = 32 ∨ (Rect.block (s := S150x150) S150x150.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x150.size a ≤ S20000x150.size a
  hwx5_2 : ∀ i : grid5.Coords, EltTy.bits .f32 = 32 ∨ (Rect.block (s := S20000x150) S2000x150.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S150x150.size a ≤ S150x150.size a
  hwx5_3 : ∀ i : grid5.Coords, EltTy.bits .f32 = 32 ∨ (Rect.block (s := S150x150) S150x150.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x150.size a ≤ S20000x150.size a
  hwx5_4 : ∀ i : grid5.Coords, EltTy.bits .bf16 = 32 ∨ (Rect.block (s := S20000x150) S2000x150.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S150x150.size a ≤ S150x150.size a
  hwx5_5 : ∀ i : grid5.Coords, EltTy.bits .f32 = 32 ∨ (Rect.block (s := S150x150) S150x150.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x150.size a ≤ S1x150.size a
  hwx5_6 : ∀ i : grid5.Coords, EltTy.bits .f32 = 32 ∨ (Rect.block (s := S1x150) S1x150.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x150.size a ≤ S20000x150.size a
  hwx5_7 : ∀ i : grid5.Coords, EltTy.bits .bf16 = 32 ∨ (Rect.block (s := S20000x150) S2000x150.size (cc5_transform_7 i) (hinb5_7 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x150.size a ≤ S50000x150.size a
  hwx6_0 : ∀ i : grid6.Coords, EltTy.bits .f32 = 32 ∨ (Rect.block (s := S50000x150) S2000x150.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S150x150.size a ≤ S150x150.size a
  hwx6_1 : ∀ i : grid6.Coords, EltTy.bits .f32 = 32 ∨ (Rect.block (s := S150x150) S150x150.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x150.size a ≤ S50000x150.size a
  hwx6_2 : ∀ i : grid6.Coords, EltTy.bits .f32 = 32 ∨ (Rect.block (s := S50000x150) S2000x150.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S150x150.size a ≤ S150x150.size a
  hwx6_3 : ∀ i : grid6.Coords, EltTy.bits .f32 = 32 ∨ (Rect.block (s := S150x150) S150x150.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x150.size a ≤ S50000x150.size a
  hwx6_4 : ∀ i : grid6.Coords, EltTy.bits .bf16 = 32 ∨ (Rect.block (s := S50000x150) S2000x150.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S150x150.size a ≤ S150x150.size a
  hwx6_5 : ∀ i : grid6.Coords, EltTy.bits .f32 = 32 ∨ (Rect.block (s := S150x150) S150x150.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x150.size a ≤ S1x150.size a
  hwx6_6 : ∀ i : grid6.Coords, EltTy.bits .f32 = 32 ∨ (Rect.block (s := S1x150) S1x150.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x150.size a ≤ S50000x150.size a
  hwx6_7 : ∀ i : grid6.Coords, EltTy.bits .bf16 = 32 ∨ (Rect.block (s := S50000x150) S2000x150.size (cc6_transform_7 i) (hinb6_7 i)).WholeWords (EltTy.packing .bf16)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S2000x150.size a ≤ S2000x150.size a
  hwx7_0 : ∀ i : grid7.Coords, EltTy.bits .f32 = 32 ∨ (Rect.block (s := S2000x150) S2000x150.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S150x150.size a ≤ S150x150.size a
  hwx7_1 : ∀ i : grid7.Coords, EltTy.bits .f32 = 32 ∨ (Rect.block (s := S150x150) S150x150.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S2000x150.size a ≤ S2000x150.size a
  hwx7_2 : ∀ i : grid7.Coords, EltTy.bits .f32 = 32 ∨ (Rect.block (s := S2000x150) S2000x150.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S150x150.size a ≤ S150x150.size a
  hwx7_3 : ∀ i : grid7.Coords, EltTy.bits .f32 = 32 ∨ (Rect.block (s := S150x150) S150x150.size (cc7_transform_3 i) (hinb7_3 i)).WholeWords (EltTy.packing .f32)
  hstage7_4 : ∀ j, (stage7_4 j).IsWhole
  nbuf7_4 : grid7.bufCount reads7_4 false = 1
  hreads7_4 : ∀ i i' : grid7.Coords, (∀ a, reads7_4 a = true → i a = i' a) → cc7_transform_4 i = cc7_transform_4 i'
  hinb7_4 : ∀ (i : grid7.Coords) a, (cc7_transform_4 i a + 1) * S2000x150.size a ≤ S2000x150.size a
  hwx7_4 : ∀ i : grid7.Coords, EltTy.bits .bf16 = 32 ∨ (Rect.block (s := S2000x150) S2000x150.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S150x150.size a ≤ S150x150.size a
  hwx7_5 : ∀ i : grid7.Coords, EltTy.bits .f32 = 32 ∨ (Rect.block (s := S150x150) S150x150.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x150.size a ≤ S1x150.size a
  hwx7_6 : ∀ i : grid7.Coords, EltTy.bits .f32 = 32 ∨ (Rect.block (s := S1x150) S1x150.size (cc7_transform_6 i) (hinb7_6 i)).WholeWords (EltTy.packing .f32)
  hstage7_7 : ∀ j, (stage7_7 j).IsWhole
  nbuf7_7 : grid7.bufCount reads7_7 false = 1
  hreads7_7 : ∀ i i' : grid7.Coords, (∀ a, reads7_7 a = true → i a = i' a) → cc7_transform_7 i = cc7_transform_7 i'
  hinb7_7 : ∀ (i : grid7.Coords) a, (cc7_transform_7 i a + 1) * S2000x150.size a ≤ S2000x150.size a
  hwx7_7 : ∀ i : grid7.Coords, EltTy.bits .bf16 = 32 ∨ (Rect.block (s := S2000x150) S2000x150.size (cc7_transform_7 i) (hinb7_7 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x150.size a ≤ S20000x150.size a
  hwx8_0 : ∀ i : grid8.Coords, EltTy.bits .f32 = 32 ∨ (Rect.block (s := S20000x150) S2000x150.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S150x150.size a ≤ S150x150.size a
  hwx8_1 : ∀ i : grid8.Coords, EltTy.bits .f32 = 32 ∨ (Rect.block (s := S150x150) S150x150.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x150.size a ≤ S20000x150.size a
  hwx8_2 : ∀ i : grid8.Coords, EltTy.bits .f32 = 32 ∨ (Rect.block (s := S20000x150) S2000x150.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S150x150.size a ≤ S150x150.size a
  hwx8_3 : ∀ i : grid8.Coords, EltTy.bits .f32 = 32 ∨ (Rect.block (s := S150x150) S150x150.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x150.size a ≤ S20000x150.size a
  hwx8_4 : ∀ i : grid8.Coords, EltTy.bits .bf16 = 32 ∨ (Rect.block (s := S20000x150) S2000x150.size (cc8_transform_4 i) (hinb8_4 i)).WholeWords (EltTy.packing .bf16)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S150x150.size a ≤ S150x150.size a
  hwx8_5 : ∀ i : grid8.Coords, EltTy.bits .f32 = 32 ∨ (Rect.block (s := S150x150) S150x150.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x150.size a ≤ S1x150.size a
  hwx8_6 : ∀ i : grid8.Coords, EltTy.bits .f32 = 32 ∨ (Rect.block (s := S1x150) S1x150.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2000x150.size a ≤ S20000x150.size a
  hwx8_7 : ∀ i : grid8.Coords, EltTy.bits .bf16 = 32 ∨ (Rect.block (s := S20000x150) S2000x150.size (cc8_transform_7 i) (hinb8_7 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x150.size a ≤ S20000x150.size a
  hwx9_0 : ∀ i : grid9.Coords, EltTy.bits .f32 = 32 ∨ (Rect.block (s := S20000x150) S2000x150.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S150x150.size a ≤ S150x150.size a
  hwx9_1 : ∀ i : grid9.Coords, EltTy.bits .f32 = 32 ∨ (Rect.block (s := S150x150) S150x150.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x150.size a ≤ S20000x150.size a
  hwx9_2 : ∀ i : grid9.Coords, EltTy.bits .f32 = 32 ∨ (Rect.block (s := S20000x150) S2000x150.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S150x150.size a ≤ S150x150.size a
  hwx9_3 : ∀ i : grid9.Coords, EltTy.bits .f32 = 32 ∨ (Rect.block (s := S150x150) S150x150.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x150.size a ≤ S20000x150.size a
  hwx9_4 : ∀ i : grid9.Coords, EltTy.bits .bf16 = 32 ∨ (Rect.block (s := S20000x150) S2000x150.size (cc9_transform_4 i) (hinb9_4 i)).WholeWords (EltTy.packing .bf16)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S150x150.size a ≤ S150x150.size a
  hwx9_5 : ∀ i : grid9.Coords, EltTy.bits .f32 = 32 ∨ (Rect.block (s := S150x150) S150x150.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x150.size a ≤ S1x150.size a
  hwx9_6 : ∀ i : grid9.Coords, EltTy.bits .f32 = 32 ∨ (Rect.block (s := S1x150) S1x150.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S2000x150.size a ≤ S20000x150.size a
  hwx9_7 : ∀ i : grid9.Coords, EltTy.bits .bf16 = 32 ∨ (Rect.block (s := S20000x150) S2000x150.size (cc9_transform_7 i) (hinb9_7 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x768.size a ≤ S50000x768.size a
  hwx10_0 : ∀ i : grid10.Coords, EltTy.bits .f32 = 32 ∨ (Rect.block (s := S50000x768) S2000x768.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S768x300.size a ≤ S768x300.size a
  hwx10_1 : ∀ i : grid10.Coords, EltTy.bits .f32 = 32 ∨ (Rect.block (s := S768x300) S768x300.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x300.size a ≤ S1x300.size a
  hwx10_2 : ∀ i : grid10.Coords, EltTy.bits .f32 = 32 ∨ (Rect.block (s := S1x300) S1x300.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S300x200.size a ≤ S300x200.size a
  hwx10_3 : ∀ i : grid10.Coords, EltTy.bits .f32 = 32 ∨ (Rect.block (s := S300x200) S300x200.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x200.size a ≤ S1x200.size a
  hwx10_4 : ∀ i : grid10.Coords, EltTy.bits .f32 = 32 ∨ (Rect.block (s := S1x200) S1x200.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S200x150.size a ≤ S200x150.size a
  hwx10_5 : ∀ i : grid10.Coords, EltTy.bits .f32 = 32 ∨ (Rect.block (s := S200x150) S200x150.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x150.size a ≤ S1x150.size a
  hwx10_6 : ∀ i : grid10.Coords, EltTy.bits .f32 = 32 ∨ (Rect.block (s := S1x150) S1x150.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S2000x150.size a ≤ S50000x150.size a
  hwx10_7 : ∀ i : grid10.Coords, EltTy.bits .bf16 = 32 ∨ (Rect.block (s := S50000x150) S2000x150.size (cc10_transform_7 i) (hinb10_7 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x150.size a ≤ S500000x150.size a
  hwx11_0 : ∀ i : grid11.Coords, EltTy.bits .bf16 = 32 ∨ (Rect.block (s := S500000x150) S5000x150.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x150.size a ≤ S500000x150.size a
  hwx11_1 : ∀ i : grid11.Coords, EltTy.bits .bf16 = 32 ∨ (Rect.block (s := S500000x150) S5000x150.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S150x150.size a ≤ S150x150.size a
  hwx11_2 : ∀ i : grid11.Coords, EltTy.bits .f32 = 32 ∨ (Rect.block (s := S150x150) S150x150.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S150x150.size a ≤ S150x150.size a
  hwx11_3 : ∀ i : grid11.Coords, EltTy.bits .f32 = 32 ∨ (Rect.block (s := S150x150) S150x150.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x150.size a ≤ S1x150.size a
  hwx11_4 : ∀ i : grid11.Coords, EltTy.bits .f32 = 32 ∨ (Rect.block (s := S1x150) S1x150.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S150x50.size a ≤ S150x50.size a
  hwx11_5 : ∀ i : grid11.Coords, EltTy.bits .f32 = 32 ∨ (Rect.block (s := S150x50) S150x50.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x50.size a ≤ S1x50.size a
  hwx11_6 : ∀ i : grid11.Coords, EltTy.bits .f32 = 32 ∨ (Rect.block (s := S1x50) S1x50.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S50x3.size a ≤ S50x3.size a
  hwx11_7 : ∀ i : grid11.Coords, EltTy.bits .f32 = 32 ∨ (Rect.block (s := S50x3) S50x3.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x3.size a ≤ S1x3.size a
  hwx11_8 : ∀ i : grid11.Coords, EltTy.bits .f32 = 32 ∨ (Rect.block (s := S1x3) S1x3.size (cc11_transform_8 i) (hinb11_8 i)).WholeWords (EltTy.packing .f32)
  hstage11_9 : ∀ j, (stage11_9 j).IsWhole
  nbuf11_9 : grid11.bufCount reads11_9 false = 2
  hreads11_9 : ∀ i i' : grid11.Coords, (∀ a, reads11_9 a = true → i a = i' a) → cc11_transform_9 i = cc11_transform_9 i'
  hinb11_9 : ∀ (i : grid11.Coords) a, (cc11_transform_9 i a + 1) * S5000x3.size a ≤ S500000x3.size a
  hwx11_9 : ∀ i : grid11.Coords, EltTy.bits .f32 = 32 ∨ (Rect.block (s := S500000x3) S5000x3.size (cc11_transform_9 i) (hinb11_9 i)).WholeWords (EltTy.packing .f32)

variable [Facts₀]

def dot_S2000x768_S768x150_S2000x150_1_0_0_1_n_n : DotDims S2000x768 S768x150 S2000x150 where
  lhsContracting := [1]
  rhsContracting := [0]
  lhsNonContracting := [0]
  rhsNonContracting := [1]
  lhsBatch := []
  rhsBatch := []
  wf := dot_S2000x768_S768x150_S2000x150_1_0_0_1_n_n_wf
def dot_S2000x1024_S1024x150_S2000x150_1_0_0_1_n_n : DotDims S2000x1024 S1024x150 S2000x150 where
  lhsContracting := [1]
  rhsContracting := [0]
  lhsNonContracting := [0]
  rhsNonContracting := [1]
  lhsBatch := []
  rhsBatch := []
  wf := dot_S2000x1024_S1024x150_S2000x150_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def scatter_S2000_S200000x1_S200000_n_0_0_1 : ScatterDims S2000 S200000x1 S200000 where
  updateWindowDims := []
  insertedWindowDims := [0]
  scatterDimsToOperandDims := [0]
  indexVectorDim := 1
  wf := scatter_S2000_S200000x1_S200000_n_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def gather_S20000x150_S500000x1_S500000x150_1_0_n_n_0_1_1150 : GatherDims S20000x150 S500000x1 S500000x150 where
  offsetDims := [1]
  collapsedSliceDims := [0]
  operandBatchingDims := []
  startIndicesBatchingDims := []
  startIndexMap := [0]
  indexVectorDim := 1
  sliceSizes := ![1, 150]
  wf := gather_S20000x150_S500000x1_S500000x150_1_0_n_n_0_1_1150_wf
def scatter_S50000x150_S500000x1_S500000x150_1_0_0_1 : ScatterDims S50000x150 S500000x1 S500000x150 where
  updateWindowDims := [1]
  insertedWindowDims := [0]
  scatterDimsToOperandDims := [0]
  indexVectorDim := 1
  wf := scatter_S50000x150_S500000x1_S500000x150_1_0_0_1_wf
def gather_S2000x150_S200000x1_S200000x150_1_0_n_n_0_1_1150 : GatherDims S2000x150 S200000x1 S200000x150 where
  offsetDims := [1]
  collapsedSliceDims := [0]
  operandBatchingDims := []
  startIndicesBatchingDims := []
  startIndexMap := [0]
  indexVectorDim := 1
  sliceSizes := ![1, 150]
  wf := gather_S2000x150_S200000x1_S200000x150_1_0_n_n_0_1_1150_wf
def scatter_S50000x150_S200000x1_S200000x150_1_0_0_1 : ScatterDims S50000x150 S200000x1 S200000x150 where
  updateWindowDims := [1]
  insertedWindowDims := [0]
  scatterDimsToOperandDims := [0]
  indexVectorDim := 1
  wf := scatter_S50000x150_S200000x1_S200000x150_1_0_0_1_wf
def dot_S2000x150_S150x150_S2000x150_1_0_0_1_n_n : DotDims S2000x150 S150x150 S2000x150 where
  lhsContracting := [1]
  rhsContracting := [0]
  lhsNonContracting := [0]
  rhsNonContracting := [1]
  lhsBatch := []
  rhsBatch := []
  wf := dot_S2000x150_S150x150_S2000x150_1_0_0_1_n_n_wf
def gather_S50000x150_S200000x1_S200000x150_1_0_n_n_0_1_1150 : GatherDims S50000x150 S200000x1 S200000x150 where
  offsetDims := [1]
  collapsedSliceDims := [0]
  operandBatchingDims := []
  startIndicesBatchingDims := []
  startIndexMap := [0]
  indexVectorDim := 1
  sliceSizes := ![1, 150]
  wf := gather_S50000x150_S200000x1_S200000x150_1_0_n_n_0_1_1150_wf
def scatter_S2000x150_S200000x1_S200000x150_1_0_0_1 : ScatterDims S2000x150 S200000x1 S200000x150 where
  updateWindowDims := [1]
  insertedWindowDims := [0]
  scatterDimsToOperandDims := [0]
  indexVectorDim := 1
  wf := scatter_S2000x150_S200000x1_S200000x150_1_0_0_1_wf
def gather_S20000x150_S200000x1_S200000x150_1_0_n_n_0_1_1150 : GatherDims S20000x150 S200000x1 S200000x150 where
  offsetDims := [1]
  collapsedSliceDims := [0]
  operandBatchingDims := []
  startIndicesBatchingDims := []
  startIndexMap := [0]
  indexVectorDim := 1
  sliceSizes := ![1, 150]
  wf := gather_S20000x150_S200000x1_S200000x150_1_0_n_n_0_1_1150_wf
def gather_S50000x150_S500000x1_S500000x150_1_0_n_n_0_1_1150 : GatherDims S50000x150 S500000x1 S500000x150 where
  offsetDims := [1]
  collapsedSliceDims := [0]
  operandBatchingDims := []
  startIndicesBatchingDims := []
  startIndexMap := [0]
  indexVectorDim := 1
  sliceSizes := ![1, 150]
  wf := gather_S50000x150_S500000x1_S500000x150_1_0_n_n_0_1_1150_wf
def scatter_S20000x150_S500000x1_S500000x150_1_0_0_1 : ScatterDims S20000x150 S500000x1 S500000x150 where
  updateWindowDims := [1]
  insertedWindowDims := [0]
  scatterDimsToOperandDims := [0]
  indexVectorDim := 1
  wf := scatter_S20000x150_S500000x1_S500000x150_1_0_0_1_wf
def scatter_S20000x150_S200000x1_S200000x150_1_0_0_1 : ScatterDims S20000x150 S200000x1 S200000x150 where
  updateWindowDims := [1]
  insertedWindowDims := [0]
  scatterDimsToOperandDims := [0]
  indexVectorDim := 1
  wf := scatter_S20000x150_S200000x1_S200000x150_1_0_0_1_wf
def dot_S2000x768_S768x300_S2000x300_1_0_0_1_n_n : DotDims S2000x768 S768x300 S2000x300 where
  lhsContracting := [1]
  rhsContracting := [0]
  lhsNonContracting := [0]
  rhsNonContracting := [1]
  lhsBatch := []
  rhsBatch := []
  wf := dot_S2000x768_S768x300_S2000x300_1_0_0_1_n_n_wf
def dot_S2000x300_S300x200_S2000x200_1_0_0_1_n_n : DotDims S2000x300 S300x200 S2000x200 where
  lhsContracting := [1]
  rhsContracting := [0]
  lhsNonContracting := [0]
  rhsNonContracting := [1]
  lhsBatch := []
  rhsBatch := []
  wf := dot_S2000x300_S300x200_S2000x200_1_0_0_1_n_n_wf
def dot_S2000x200_S200x150_S2000x150_1_0_0_1_n_n : DotDims S2000x200 S200x150 S2000x150 where
  lhsContracting := [1]
  rhsContracting := [0]
  lhsNonContracting := [0]
  rhsNonContracting := [1]
  lhsBatch := []
  rhsBatch := []
  wf := dot_S2000x200_S200x150_S2000x150_1_0_0_1_n_n_wf
def dot_S5000x150_S150x150_S5000x150_1_0_0_1_n_n : DotDims S5000x150 S150x150 S5000x150 where
  lhsContracting := [1]
  rhsContracting := [0]
  lhsNonContracting := [0]
  rhsNonContracting := [1]
  lhsBatch := []
  rhsBatch := []
  wf := dot_S5000x150_S150x150_S5000x150_1_0_0_1_n_n_wf
def dot_S5000x150_S150x50_S5000x50_1_0_0_1_n_n : DotDims S5000x150 S150x50 S5000x50 where
  lhsContracting := [1]
  rhsContracting := [0]
  lhsNonContracting := [0]
  rhsNonContracting := [1]
  lhsBatch := []
  rhsBatch := []
  wf := dot_S5000x150_S150x50_S5000x50_1_0_0_1_n_n_wf
def dot_S5000x50_S50x3_S5000x3_1_0_0_1_n_n : DotDims S5000x50 S50x3 S5000x3 where
  lhsContracting := [1]
  rhsContracting := [0]
  lhsNonContracting := [0]
  rhsNonContracting := [1]
  lhsBatch := []
  rhsBatch := []
  wf := dot_S5000x50_S50x3_S5000x3_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x150.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x150.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x768.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S768x150.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x150.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x150.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S2000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x150.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x150.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2000x150.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S2000x150.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v105) S150x150.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S2000x150.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v107) S150x150.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v1) S2000x150.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v98) S150x150.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v108) S1x150.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v109) S2000x150.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v126) S2000x150.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v155) S150x150.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v143) S2000x150.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v157) S150x150.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v3) S2000x150.size cc4_transform_4 reads4_4 false false 1 stage4_4 sem4_4
    hrank4 hreads4_4 hinb4_4 nbuf4_4 (Memref.isWhole_whole _) hwx4_4 hstage4_4

abbrev win4_5 : Pipeline.Window sig grid4 :=
  Pipeline.Window.ofSpec (Memref.whole main_v148) S150x150.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v158) S1x150.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v159) S2000x150.size cc4_transform_7 reads4_7 true false 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v176) S2000x150.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v205) S150x150.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v193) S2000x150.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v207) S150x150.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v5) S2000x150.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v198) S150x150.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v208) S1x150.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v209) S2000x150.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v226) S2000x150.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v255) S150x150.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v243) S2000x150.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v257) S150x150.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S2000x150.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v248) S150x150.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v258) S1x150.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v259) S2000x150.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v276) S2000x150.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v305) S150x150.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v293) S2000x150.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v307) S150x150.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v159) S2000x150.size cc7_transform_4 reads7_4 false false 1 stage7_4 sem7_4
    hrank7 hreads7_4 hinb7_4 nbuf7_4 (Memref.isWhole_whole _) hwx7_4 hstage7_4

abbrev win7_5 : Pipeline.Window sig grid7 :=
  Pipeline.Window.ofSpec (Memref.whole main_v298) S150x150.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v308) S1x150.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v309) S2000x150.size cc7_transform_7 reads7_7 true false 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v326) S2000x150.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v355) S150x150.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v343) S2000x150.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v357) S150x150.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v209) S2000x150.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v348) S150x150.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v358) S1x150.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v359) S2000x150.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v376) S2000x150.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v405) S150x150.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v393) S2000x150.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v407) S150x150.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v359) S2000x150.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v398) S150x150.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v408) S1x150.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v409) S2000x150.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_arg0) S2000x768.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S768x300.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v410) S1x300.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg14) S300x200.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v411) S1x200.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg16) S200x150.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v412) S1x150.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v413) S2000x150.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v422) S5000x150.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v431) S5000x150.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v432) S150x150.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v433) S150x150.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v434) S1x150.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_arg20) S150x50.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v435) S1x50.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_arg22) S50x3.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v436) S1x3.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v437) S5000x3.size cc11_transform_9 reads11_9 true false 2 stage11_9 sem11_9
    hrank11 hreads11_9 hinb11_9 nbuf11_9 (Memref.isWhole_whole _) hwx11_9 hstage11_9

abbrev win11 : Fin 10 → Pipeline.Window sig grid11 := fun | 0 => win11_0 | 1 => win11_1 | 2 => win11_2 | 3 => win11_3 | 4 => win11_4 | 5 => win11_5 | 6 => win11_6 | 7 => win11_7 | 8 => win11_8 | 9 => win11_9 | ⟨_ + 10, h⟩ => absurd h (Nat.not_lt.2 (Nat.le_add_left _ _))
abbrev spec11 : Fin 10 → Pipeline.WinSpec sig grid11.rank := fun w => (win11 w).toWinSpec

class Facts : Prop extends Facts₀ where

variable [Facts]
-- ==== ReferenceIdeal.lean ====
abbrev S50000x768 : Shape := ⟨2, ![50000, 768]⟩
abbrev S2000x768 : Shape := ⟨2, ![2000, 768]⟩
abbrev S20000x1024 : Shape := ⟨2, ![20000, 1024]⟩
abbrev S768x150 : Shape := ⟨2, ![768, 150]⟩
abbrev S150 : Shape := ⟨1, ![150]⟩
abbrev S1024x150 : Shape := ⟨2, ![1024, 150]⟩
abbrev S3x6x150x150 : Shape := ⟨4, ![3, 6, 150, 150]⟩
abbrev S3x6x150 : Shape := ⟨3, ![3, 6, 150]⟩
abbrev S768x300 : Shape := ⟨2, ![768, 300]⟩
abbrev S300 : Shape := ⟨1, ![300]⟩
abbrev S300x200 : Shape := ⟨2, ![300, 200]⟩
abbrev S200 : Shape := ⟨1, ![200]⟩
abbrev S200x150 : Shape := ⟨2, ![200, 150]⟩
abbrev S300x150 : Shape := ⟨2, ![300, 150]⟩
abbrev S150x50 : Shape := ⟨2, ![150, 50]⟩
abbrev S50 : Shape := ⟨1, ![50]⟩
abbrev S50x3 : Shape := ⟨2, ![50, 3]⟩
abbrev S3 : Shape := ⟨1, ![3]⟩
abbrev S2x500000 : Shape := ⟨2, ![2, 500000]⟩
abbrev S2x200000 : Shape := ⟨2, ![2, 200000]⟩
abbrev S50000x150 : Shape := ⟨2, ![50000, 150]⟩
abbrev S1x150 : Shape := ⟨2, ![1, 150]⟩
abbrev S2000x150 : Shape := ⟨2, ![2000, 150]⟩
abbrev S20000x150 : Shape := ⟨2, ![20000, 150]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x150 : Shape := ⟨2, ![500000, 150]⟩
abbrev S50000 : Shape := ⟨1, ![50000]⟩
abbrev S50000x1 : Shape := ⟨2, ![50000, 1]⟩
abbrev S1x1x150x150 : Shape := ⟨4, ![1, 1, 150, 150]⟩
abbrev S150x150 : Shape := ⟨2, ![150, 150]⟩
abbrev S1x1x150 : Shape := ⟨3, ![1, 1, 150]⟩
abbrev S1x200000 : Shape := ⟨2, ![1, 200000]⟩
abbrev S200000 : Shape := ⟨1, ![200000]⟩
abbrev S200000x1 : Shape := ⟨2, ![200000, 1]⟩
abbrev S200000x150 : Shape := ⟨2, ![200000, 150]⟩
abbrev S2000 : Shape := ⟨1, ![2000]⟩
abbrev S2000x1 : Shape := ⟨2, ![2000, 1]⟩
abbrev S20000 : Shape := ⟨1, ![20000]⟩
abbrev S20000x1 : Shape := ⟨2, ![20000, 1]⟩
abbrev S50000x300 : Shape := ⟨2, ![50000, 300]⟩
abbrev S1x300 : Shape := ⟨2, ![1, 300]⟩
abbrev S50000x200 : Shape := ⟨2, ![50000, 200]⟩
abbrev S1x200 : Shape := ⟨2, ![1, 200]⟩
abbrev S500000x300 : Shape := ⟨2, ![500000, 300]⟩
abbrev S500000x50 : Shape := ⟨2, ![500000, 50]⟩
abbrev S1x50 : Shape := ⟨2, ![1, 50]⟩
abbrev S500000x3 : Shape := ⟨2, ![500000, 3]⟩
abbrev S1x3 : Shape := ⟨2, ![1, 3]⟩

abbrev nBuf : Space → Nat
  | .hbm => 864
  | .vmem => 0
  | .smem => 0
  | _ => 0

abbrev hbmTy0_0 (i : Nat) : BufTy := match i % 128 with
  | 0 => ⟨S50000x768, .f32⟩
  | 1 => ⟨S2000x768, .f32⟩
  | 2 => ⟨S20000x1024, .f32⟩
  | 3 => ⟨S768x150, .f32⟩
  | 4 => ⟨S150, .f32⟩
  | 5 => ⟨S768x150, .f32⟩
  | 6 => ⟨S150, .f32⟩
  | 7 => ⟨S1024x150, .f32⟩
  | 8 => ⟨S150, .f32⟩
  | 9 => ⟨S3x6x150x150, .f32⟩
  | 10 => ⟨S3x6x150, .f32⟩
  | 11 => ⟨S3x6x150x150, .f32⟩
  | 12 => ⟨S768x300, .f32⟩
  | 13 => ⟨S300, .f32⟩
  | 14 => ⟨S300x200, .f32⟩
  | 15 => ⟨S200, .f32⟩
  | 16 => ⟨S200x150, .f32⟩
  | 17 => ⟨S150, .f32⟩
  | 18 => ⟨S300x150, .f32⟩
  | 19 => ⟨S150, .f32⟩
  | 20 => ⟨S150x50, .f32⟩
  | 21 => ⟨S50, .f32⟩
  | 22 => ⟨S50x3, .f32⟩
  | 23 => ⟨S3, .f32⟩
  | 24 => ⟨S2x500000, .i32⟩
  | 25 => ⟨S2x200000, .i32⟩
  | 26 => ⟨S2x200000, .i32⟩
  | 27 => ⟨S2x500000, .i32⟩
  | 28 => ⟨S50000x150, .f32⟩
  | 29 => ⟨S1x150, .f32⟩
  | 30 => ⟨S50000x150, .f32⟩
  | 31 => ⟨S50000x150, .f32⟩
  | 32 => ⟨S2000x150, .f32⟩
  | 33 => ⟨S1x150, .f32⟩
  | 34 => ⟨S2000x150, .f32⟩
  | 35 => ⟨S2000x150, .f32⟩
  | 36 => ⟨S20000x150, .f32⟩
  | 37 => ⟨S1x150, .f32⟩
  | 38 => ⟨S20000x150, .f32⟩
  | 39 => ⟨S20000x150, .f32⟩
  | 40 => ⟨S1x500000, .i32⟩
  | 41 => ⟨S500000, .i32⟩
  | 42 => ⟨S1x500000, .i32⟩
  | 43 => ⟨S500000, .i32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x150, .f32⟩
  | 53 => ⟨S_, .f32⟩
  | 54 => ⟨S50000x150, .f32⟩
  | 55 => ⟨S500000x1, .i32⟩
  | 56 => ⟨S50000x150, .f32⟩
  | 57 => ⟨S_, .f32⟩
  | 58 => ⟨S500000, .f32⟩
  | 59 => ⟨S_, .f32⟩
  | 60 => ⟨S50000, .f32⟩
  | 61 => ⟨S500000x1, .i32⟩
  | 62 => ⟨S50000, .f32⟩
  | 63 => ⟨S_, .f32⟩
  | 64 => ⟨S50000, .f32⟩
  | 65 => ⟨S50000, .f32⟩
  | 66 => ⟨S50000x1, .f32⟩
  | 67 => ⟨S50000x150, .f32⟩
  | 68 => ⟨S50000x150, .f32⟩
  | 69 => ⟨S1x1x150x150, .f32⟩
  | 70 => ⟨S150x150, .f32⟩
  | 71 => ⟨S50000x150, .f32⟩
  | 72 => ⟨S1x1x150, .f32⟩
  | 73 => ⟨S150, .f32⟩
  | 74 => ⟨S1x150, .f32⟩
  | 75 => ⟨S50000x150, .f32⟩
  | 76 => ⟨S50000x150, .f32⟩
  | 77 => ⟨S1x1x150x150, .f32⟩
  | 78 => ⟨S150x150, .f32⟩
  | 79 => ⟨S50000x150, .f32⟩
  | 80 => ⟨S50000x150, .f32⟩
  | 81 => ⟨S1x200000, .i32⟩
  | 82 => ⟨S200000, .i32⟩
  | 83 => ⟨S1x200000, .i32⟩
  | 84 => ⟨S200000, .i32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S200000x150, .f32⟩
  | 94 => ⟨S_, .f32⟩
  | 95 => ⟨S50000x150, .f32⟩
  | 96 => ⟨S200000x1, .i32⟩
  | 97 => ⟨S50000x150, .f32⟩
  | 98 => ⟨S_, .f32⟩
  | 99 => ⟨S200000, .f32⟩
  | 100 => ⟨S_, .f32⟩
  | 101 => ⟨S50000, .f32⟩
  | 102 => ⟨S200000x1, .i32⟩
  | 103 => ⟨S50000, .f32⟩
  | 104 => ⟨S_, .f32⟩
  | 105 => ⟨S50000, .f32⟩
  | 106 => ⟨S50000, .f32⟩
  | 107 => ⟨S50000x1, .f32⟩
  | 108 => ⟨S50000x150, .f32⟩
  | 109 => ⟨S50000x150, .f32⟩
  | 110 => ⟨S1x1x150x150, .f32⟩
  | 111 => ⟨S150x150, .f32⟩
  | 112 => ⟨S50000x150, .f32⟩
  | 113 => ⟨S1x1x150, .f32⟩
  | 114 => ⟨S150, .f32⟩
  | 115 => ⟨S1x150, .f32⟩
  | 116 => ⟨S50000x150, .f32⟩
  | 117 => ⟨S50000x150, .f32⟩
  | 118 => ⟨S1x1x150x150, .f32⟩
  | 119 => ⟨S150x150, .f32⟩
  | 120 => ⟨S50000x150, .f32⟩
  | 121 => ⟨S50000x150, .f32⟩
  | 122 => ⟨S50000x150, .f32⟩
  | 123 => ⟨S1x200000, .i32⟩
  | 124 => ⟨S200000, .i32⟩
  | 125 => ⟨S1x200000, .i32⟩
  | 126 => ⟨S200000, .i32⟩
  | 127 => ⟨S_, .i32⟩
  | _ => ⟨S50000x768, .f32⟩

abbrev hbmTy0_1 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x150, .f32⟩
  | 8 => ⟨S_, .f32⟩
  | 9 => ⟨S2000x150, .f32⟩
  | 10 => ⟨S200000x1, .i32⟩
  | 11 => ⟨S2000x150, .f32⟩
  | 12 => ⟨S_, .f32⟩
  | 13 => ⟨S200000, .f32⟩
  | 14 => ⟨S_, .f32⟩
  | 15 => ⟨S2000, .f32⟩
  | 16 => ⟨S200000x1, .i32⟩
  | 17 => ⟨S2000, .f32⟩
  | 18 => ⟨S_, .f32⟩
  | 19 => ⟨S2000, .f32⟩
  | 20 => ⟨S2000, .f32⟩
  | 21 => ⟨S2000x1, .f32⟩
  | 22 => ⟨S2000x150, .f32⟩
  | 23 => ⟨S2000x150, .f32⟩
  | 24 => ⟨S1x1x150x150, .f32⟩
  | 25 => ⟨S150x150, .f32⟩
  | 26 => ⟨S2000x150, .f32⟩
  | 27 => ⟨S1x1x150, .f32⟩
  | 28 => ⟨S150, .f32⟩
  | 29 => ⟨S1x150, .f32⟩
  | 30 => ⟨S2000x150, .f32⟩
  | 31 => ⟨S2000x150, .f32⟩
  | 32 => ⟨S1x1x150x150, .f32⟩
  | 33 => ⟨S150x150, .f32⟩
  | 34 => ⟨S2000x150, .f32⟩
  | 35 => ⟨S2000x150, .f32⟩
  | 36 => ⟨S1x200000, .i32⟩
  | 37 => ⟨S200000, .i32⟩
  | 38 => ⟨S1x200000, .i32⟩
  | 39 => ⟨S200000, .i32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S200000x150, .f32⟩
  | 49 => ⟨S_, .f32⟩
  | 50 => ⟨S2000x150, .f32⟩
  | 51 => ⟨S200000x1, .i32⟩
  | 52 => ⟨S2000x150, .f32⟩
  | 53 => ⟨S_, .f32⟩
  | 54 => ⟨S200000, .f32⟩
  | 55 => ⟨S_, .f32⟩
  | 56 => ⟨S2000, .f32⟩
  | 57 => ⟨S200000x1, .i32⟩
  | 58 => ⟨S2000, .f32⟩
  | 59 => ⟨S_, .f32⟩
  | 60 => ⟨S2000, .f32⟩
  | 61 => ⟨S2000, .f32⟩
  | 62 => ⟨S2000x1, .f32⟩
  | 63 => ⟨S2000x150, .f32⟩
  | 64 => ⟨S2000x150, .f32⟩
  | 65 => ⟨S1x1x150x150, .f32⟩
  | 66 => ⟨S150x150, .f32⟩
  | 67 => ⟨S2000x150, .f32⟩
  | 68 => ⟨S1x1x150, .f32⟩
  | 69 => ⟨S150, .f32⟩
  | 70 => ⟨S1x150, .f32⟩
  | 71 => ⟨S2000x150, .f32⟩
  | 72 => ⟨S2000x150, .f32⟩
  | 73 => ⟨S1x1x150x150, .f32⟩
  | 74 => ⟨S150x150, .f32⟩
  | 75 => ⟨S2000x150, .f32⟩
  | 76 => ⟨S2000x150, .f32⟩
  | 77 => ⟨S2000x150, .f32⟩
  | 78 => ⟨S1x500000, .i32⟩
  | 79 => ⟨S500000, .i32⟩
  | 80 => ⟨S1x500000, .i32⟩
  | 81 => ⟨S500000, .i32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S500000x150, .f32⟩
  | 91 => ⟨S_, .f32⟩
  | 92 => ⟨S20000x150, .f32⟩
  | 93 => ⟨S500000x1, .i32⟩
  | 94 => ⟨S20000x150, .f32⟩
  | 95 => ⟨S_, .f32⟩
  | 96 => ⟨S500000, .f32⟩
  | 97 => ⟨S_, .f32⟩
  | 98 => ⟨S20000, .f32⟩
  | 99 => ⟨S500000x1, .i32⟩
  | 100 => ⟨S20000, .f32⟩
  | 101 => ⟨S_, .f32⟩
  | 102 => ⟨S20000, .f32⟩
  | 103 => ⟨S20000, .f32⟩
  | 104 => ⟨S20000x1, .f32⟩
  | 105 => ⟨S20000x150, .f32⟩
  | 106 => ⟨S20000x150, .f32⟩
  | 107 => ⟨S1x1x150x150, .f32⟩
  | 108 => ⟨S150x150, .f32⟩
  | 109 => ⟨S20000x150, .f32⟩
  | 110 => ⟨S1x1x150, .f32⟩
  | 111 => ⟨S150, .f32⟩
  | 112 => ⟨S1x150, .f32⟩
  | 113 => ⟨S20000x150, .f32⟩
  | 114 => ⟨S20000x150, .f32⟩
  | 115 => ⟨S1x1x150x150, .f32⟩
  | 116 => ⟨S150x150, .f32⟩
  | 117 => ⟨S20000x150, .f32⟩
  | 118 => ⟨S20000x150, .f32⟩
  | 119 => ⟨S1x200000, .i32⟩
  | 120 => ⟨S200000, .i32⟩
  | 121 => ⟨S1x200000, .i32⟩
  | 122 => ⟨S200000, .i32⟩
  | 123 => ⟨S_, .i32⟩
  | 124 => ⟨S200000, .i32⟩
  | 125 => ⟨S200000, .i1⟩
  | 126 => ⟨S_, .i32⟩
  | 127 => ⟨S200000, .i32⟩
  | _ => ⟨S50000x768, .f32⟩

abbrev hbmTy0_2 (i : Nat) : BufTy := match i % 128 with
  | 0 => ⟨S200000, .i32⟩
  | 1 => ⟨S200000, .i32⟩
  | 2 => ⟨S200000x1, .i32⟩
  | 3 => ⟨S200000x150, .f32⟩
  | 4 => ⟨S_, .f32⟩
  | 5 => ⟨S20000x150, .f32⟩
  | 6 => ⟨S200000x1, .i32⟩
  | 7 => ⟨S20000x150, .f32⟩
  | 8 => ⟨S_, .f32⟩
  | 9 => ⟨S200000, .f32⟩
  | 10 => ⟨S_, .f32⟩
  | 11 => ⟨S20000, .f32⟩
  | 12 => ⟨S200000x1, .i32⟩
  | 13 => ⟨S20000, .f32⟩
  | 14 => ⟨S_, .f32⟩
  | 15 => ⟨S20000, .f32⟩
  | 16 => ⟨S20000, .f32⟩
  | 17 => ⟨S20000x1, .f32⟩
  | 18 => ⟨S20000x150, .f32⟩
  | 19 => ⟨S20000x150, .f32⟩
  | 20 => ⟨S1x1x150x150, .f32⟩
  | 21 => ⟨S150x150, .f32⟩
  | 22 => ⟨S20000x150, .f32⟩
  | 23 => ⟨S1x1x150, .f32⟩
  | 24 => ⟨S150, .f32⟩
  | 25 => ⟨S1x150, .f32⟩
  | 26 => ⟨S20000x150, .f32⟩
  | 27 => ⟨S20000x150, .f32⟩
  | 28 => ⟨S1x1x150x150, .f32⟩
  | 29 => ⟨S150x150, .f32⟩
  | 30 => ⟨S20000x150, .f32⟩
  | 31 => ⟨S20000x150, .f32⟩
  | 32 => ⟨S20000x150, .f32⟩
  | 33 => ⟨S_, .f32⟩
  | 34 => ⟨S50000x150, .f32⟩
  | 35 => ⟨S50000x150, .f32⟩
  | 36 => ⟨S_, .f32⟩
  | 37 => ⟨S2000x150, .f32⟩
  | 38 => ⟨S2000x150, .f32⟩
  | 39 => ⟨S_, .f32⟩
  | 40 => ⟨S20000x150, .f32⟩
  | 41 => ⟨S20000x150, .f32⟩
  | 42 => ⟨S1x500000, .i32⟩
  | 43 => ⟨S500000, .i32⟩
  | 44 => ⟨S1x500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x150, .f32⟩
  | 55 => ⟨S_, .f32⟩
  | 56 => ⟨S50000x150, .f32⟩
  | 57 => ⟨S500000x1, .i32⟩
  | 58 => ⟨S50000x150, .f32⟩
  | 59 => ⟨S_, .f32⟩
  | 60 => ⟨S500000, .f32⟩
  | 61 => ⟨S_, .f32⟩
  | 62 => ⟨S50000, .f32⟩
  | 63 => ⟨S500000x1, .i32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x150, .f32⟩
  | 70 => ⟨S50000x150, .f32⟩
  | 71 => ⟨S1x1x150x150, .f32⟩
  | 72 => ⟨S150x150, .f32⟩
  | 73 => ⟨S50000x150, .f32⟩
  | 74 => ⟨S1x1x150, .f32⟩
  | 75 => ⟨S150, .f32⟩
  | 76 => ⟨S1x150, .f32⟩
  | 77 => ⟨S50000x150, .f32⟩
  | 78 => ⟨S50000x150, .f32⟩
  | 79 => ⟨S1x1x150x150, .f32⟩
  | 80 => ⟨S150x150, .f32⟩
  | 81 => ⟨S50000x150, .f32⟩
  | 82 => ⟨S50000x150, .f32⟩
  | 83 => ⟨S1x200000, .i32⟩
  | 84 => ⟨S200000, .i32⟩
  | 85 => ⟨S1x200000, .i32⟩
  | 86 => ⟨S200000, .i32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x150, .f32⟩
  | 96 => ⟨S_, .f32⟩
  | 97 => ⟨S50000x150, .f32⟩
  | 98 => ⟨S200000x1, .i32⟩
  | 99 => ⟨S50000x150, .f32⟩
  | 100 => ⟨S_, .f32⟩
  | 101 => ⟨S200000, .f32⟩
  | 102 => ⟨S_, .f32⟩
  | 103 => ⟨S50000, .f32⟩
  | 104 => ⟨S200000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x150, .f32⟩
  | 111 => ⟨S50000x150, .f32⟩
  | 112 => ⟨S1x1x150x150, .f32⟩
  | 113 => ⟨S150x150, .f32⟩
  | 114 => ⟨S50000x150, .f32⟩
  | 115 => ⟨S1x1x150, .f32⟩
  | 116 => ⟨S150, .f32⟩
  | 117 => ⟨S1x150, .f32⟩
  | 118 => ⟨S50000x150, .f32⟩
  | 119 => ⟨S50000x150, .f32⟩
  | 120 => ⟨S1x1x150x150, .f32⟩
  | 121 => ⟨S150x150, .f32⟩
  | 122 => ⟨S50000x150, .f32⟩
  | 123 => ⟨S50000x150, .f32⟩
  | 124 => ⟨S50000x150, .f32⟩
  | 125 => ⟨S1x200000, .i32⟩
  | 126 => ⟨S200000, .i32⟩
  | 127 => ⟨S1x200000, .i32⟩
  | _ => ⟨S50000x768, .f32⟩

abbrev hbmTy0_3 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x150, .f32⟩
  | 10 => ⟨S_, .f32⟩
  | 11 => ⟨S2000x150, .f32⟩
  | 12 => ⟨S200000x1, .i32⟩
  | 13 => ⟨S2000x150, .f32⟩
  | 14 => ⟨S_, .f32⟩
  | 15 => ⟨S200000, .f32⟩
  | 16 => ⟨S_, .f32⟩
  | 17 => ⟨S2000, .f32⟩
  | 18 => ⟨S200000x1, .i32⟩
  | 19 => ⟨S2000, .f32⟩
  | 20 => ⟨S_, .f32⟩
  | 21 => ⟨S2000, .f32⟩
  | 22 => ⟨S2000, .f32⟩
  | 23 => ⟨S2000x1, .f32⟩
  | 24 => ⟨S2000x150, .f32⟩
  | 25 => ⟨S2000x150, .f32⟩
  | 26 => ⟨S1x1x150x150, .f32⟩
  | 27 => ⟨S150x150, .f32⟩
  | 28 => ⟨S2000x150, .f32⟩
  | 29 => ⟨S1x1x150, .f32⟩
  | 30 => ⟨S150, .f32⟩
  | 31 => ⟨S1x150, .f32⟩
  | 32 => ⟨S2000x150, .f32⟩
  | 33 => ⟨S2000x150, .f32⟩
  | 34 => ⟨S1x1x150x150, .f32⟩
  | 35 => ⟨S150x150, .f32⟩
  | 36 => ⟨S2000x150, .f32⟩
  | 37 => ⟨S2000x150, .f32⟩
  | 38 => ⟨S1x200000, .i32⟩
  | 39 => ⟨S200000, .i32⟩
  | 40 => ⟨S1x200000, .i32⟩
  | 41 => ⟨S200000, .i32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x150, .f32⟩
  | 51 => ⟨S_, .f32⟩
  | 52 => ⟨S2000x150, .f32⟩
  | 53 => ⟨S200000x1, .i32⟩
  | 54 => ⟨S2000x150, .f32⟩
  | 55 => ⟨S_, .f32⟩
  | 56 => ⟨S200000, .f32⟩
  | 57 => ⟨S_, .f32⟩
  | 58 => ⟨S2000, .f32⟩
  | 59 => ⟨S200000x1, .i32⟩
  | 60 => ⟨S2000, .f32⟩
  | 61 => ⟨S_, .f32⟩
  | 62 => ⟨S2000, .f32⟩
  | 63 => ⟨S2000, .f32⟩
  | 64 => ⟨S2000x1, .f32⟩
  | 65 => ⟨S2000x150, .f32⟩
  | 66 => ⟨S2000x150, .f32⟩
  | 67 => ⟨S1x1x150x150, .f32⟩
  | 68 => ⟨S150x150, .f32⟩
  | 69 => ⟨S2000x150, .f32⟩
  | 70 => ⟨S1x1x150, .f32⟩
  | 71 => ⟨S150, .f32⟩
  | 72 => ⟨S1x150, .f32⟩
  | 73 => ⟨S2000x150, .f32⟩
  | 74 => ⟨S2000x150, .f32⟩
  | 75 => ⟨S1x1x150x150, .f32⟩
  | 76 => ⟨S150x150, .f32⟩
  | 77 => ⟨S2000x150, .f32⟩
  | 78 => ⟨S2000x150, .f32⟩
  | 79 => ⟨S2000x150, .f32⟩
  | 80 => ⟨S1x500000, .i32⟩
  | 81 => ⟨S500000, .i32⟩
  | 82 => ⟨S1x500000, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x150, .f32⟩
  | 93 => ⟨S_, .f32⟩
  | 94 => ⟨S20000x150, .f32⟩
  | 95 => ⟨S500000x1, .i32⟩
  | 96 => ⟨S20000x150, .f32⟩
  | 97 => ⟨S_, .f32⟩
  | 98 => ⟨S500000, .f32⟩
  | 99 => ⟨S_, .f32⟩
  | 100 => ⟨S20000, .f32⟩
  | 101 => ⟨S500000x1, .i32⟩
  | 102 => ⟨S20000, .f32⟩
  | 103 => ⟨S_, .f32⟩
  | 104 => ⟨S20000, .f32⟩
  | 105 => ⟨S20000, .f32⟩
  | 106 => ⟨S20000x1, .f32⟩
  | 107 => ⟨S20000x150, .f32⟩
  | 108 => ⟨S20000x150, .f32⟩
  | 109 => ⟨S1x1x150x150, .f32⟩
  | 110 => ⟨S150x150, .f32⟩
  | 111 => ⟨S20000x150, .f32⟩
  | 112 => ⟨S1x1x150, .f32⟩
  | 113 => ⟨S150, .f32⟩
  | 114 => ⟨S1x150, .f32⟩
  | 115 => ⟨S20000x150, .f32⟩
  | 116 => ⟨S20000x150, .f32⟩
  | 117 => ⟨S1x1x150x150, .f32⟩
  | 118 => ⟨S150x150, .f32⟩
  | 119 => ⟨S20000x150, .f32⟩
  | 120 => ⟨S20000x150, .f32⟩
  | 121 => ⟨S1x200000, .i32⟩
  | 122 => ⟨S200000, .i32⟩
  | 123 => ⟨S1x200000, .i32⟩
  | 124 => ⟨S200000, .i32⟩
  | 125 => ⟨S_, .i32⟩
  | 126 => ⟨S200000, .i32⟩
  | 127 => ⟨S200000, .i1⟩
  | _ => ⟨S50000x768, .f32⟩

abbrev hbmTy0_4 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x150, .f32⟩
  | 6 => ⟨S_, .f32⟩
  | 7 => ⟨S20000x150, .f32⟩
  | 8 => ⟨S200000x1, .i32⟩
  | 9 => ⟨S20000x150, .f32⟩
  | 10 => ⟨S_, .f32⟩
  | 11 => ⟨S200000, .f32⟩
  | 12 => ⟨S_, .f32⟩
  | 13 => ⟨S20000, .f32⟩
  | 14 => ⟨S200000x1, .i32⟩
  | 15 => ⟨S20000, .f32⟩
  | 16 => ⟨S_, .f32⟩
  | 17 => ⟨S20000, .f32⟩
  | 18 => ⟨S20000, .f32⟩
  | 19 => ⟨S20000x1, .f32⟩
  | 20 => ⟨S20000x150, .f32⟩
  | 21 => ⟨S20000x150, .f32⟩
  | 22 => ⟨S1x1x150x150, .f32⟩
  | 23 => ⟨S150x150, .f32⟩
  | 24 => ⟨S20000x150, .f32⟩
  | 25 => ⟨S1x1x150, .f32⟩
  | 26 => ⟨S150, .f32⟩
  | 27 => ⟨S1x150, .f32⟩
  | 28 => ⟨S20000x150, .f32⟩
  | 29 => ⟨S20000x150, .f32⟩
  | 30 => ⟨S1x1x150x150, .f32⟩
  | 31 => ⟨S150x150, .f32⟩
  | 32 => ⟨S20000x150, .f32⟩
  | 33 => ⟨S20000x150, .f32⟩
  | 34 => ⟨S20000x150, .f32⟩
  | 35 => ⟨S_, .f32⟩
  | 36 => ⟨S50000x150, .f32⟩
  | 37 => ⟨S50000x150, .f32⟩
  | 38 => ⟨S_, .f32⟩
  | 39 => ⟨S2000x150, .f32⟩
  | 40 => ⟨S2000x150, .f32⟩
  | 41 => ⟨S_, .f32⟩
  | 42 => ⟨S20000x150, .f32⟩
  | 43 => ⟨S20000x150, .f32⟩
  | 44 => ⟨S1x500000, .i32⟩
  | 45 => ⟨S500000, .i32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x150, .f32⟩
  | 57 => ⟨S_, .f32⟩
  | 58 => ⟨S50000x150, .f32⟩
  | 59 => ⟨S500000x1, .i32⟩
  | 60 => ⟨S50000x150, .f32⟩
  | 61 => ⟨S_, .f32⟩
  | 62 => ⟨S500000, .f32⟩
  | 63 => ⟨S_, .f32⟩
  | 64 => ⟨S50000, .f32⟩
  | 65 => ⟨S500000x1, .i32⟩
  | 66 => ⟨S50000, .f32⟩
  | 67 => ⟨S_, .f32⟩
  | 68 => ⟨S50000, .f32⟩
  | 69 => ⟨S50000, .f32⟩
  | 70 => ⟨S50000x1, .f32⟩
  | 71 => ⟨S50000x150, .f32⟩
  | 72 => ⟨S50000x150, .f32⟩
  | 73 => ⟨S1x1x150x150, .f32⟩
  | 74 => ⟨S150x150, .f32⟩
  | 75 => ⟨S50000x150, .f32⟩
  | 76 => ⟨S1x1x150, .f32⟩
  | 77 => ⟨S150, .f32⟩
  | 78 => ⟨S1x150, .f32⟩
  | 79 => ⟨S50000x150, .f32⟩
  | 80 => ⟨S50000x150, .f32⟩
  | 81 => ⟨S1x1x150x150, .f32⟩
  | 82 => ⟨S150x150, .f32⟩
  | 83 => ⟨S50000x150, .f32⟩
  | 84 => ⟨S50000x150, .f32⟩
  | 85 => ⟨S1x200000, .i32⟩
  | 86 => ⟨S200000, .i32⟩
  | 87 => ⟨S1x200000, .i32⟩
  | 88 => ⟨S200000, .i32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x150, .f32⟩
  | 98 => ⟨S_, .f32⟩
  | 99 => ⟨S50000x150, .f32⟩
  | 100 => ⟨S200000x1, .i32⟩
  | 101 => ⟨S50000x150, .f32⟩
  | 102 => ⟨S_, .f32⟩
  | 103 => ⟨S200000, .f32⟩
  | 104 => ⟨S_, .f32⟩
  | 105 => ⟨S50000, .f32⟩
  | 106 => ⟨S200000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x150, .f32⟩
  | 113 => ⟨S50000x150, .f32⟩
  | 114 => ⟨S1x1x150x150, .f32⟩
  | 115 => ⟨S150x150, .f32⟩
  | 116 => ⟨S50000x150, .f32⟩
  | 117 => ⟨S1x1x150, .f32⟩
  | 118 => ⟨S150, .f32⟩
  | 119 => ⟨S1x150, .f32⟩
  | 120 => ⟨S50000x150, .f32⟩
  | 121 => ⟨S50000x150, .f32⟩
  | 122 => ⟨S1x1x150x150, .f32⟩
  | 123 => ⟨S150x150, .f32⟩
  | 124 => ⟨S50000x150, .f32⟩
  | 125 => ⟨S50000x150, .f32⟩
  | 126 => ⟨S50000x150, .f32⟩
  | 127 => ⟨S1x200000, .i32⟩
  | _ => ⟨S50000x768, .f32⟩

abbrev hbmTy0_5 (i : Nat) : BufTy := match i % 128 with
  | 0 => ⟨S200000, .i32⟩
  | 1 => ⟨S1x200000, .i32⟩
  | 2 => ⟨S200000, .i32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x150, .f32⟩
  | 12 => ⟨S_, .f32⟩
  | 13 => ⟨S2000x150, .f32⟩
  | 14 => ⟨S200000x1, .i32⟩
  | 15 => ⟨S2000x150, .f32⟩
  | 16 => ⟨S_, .f32⟩
  | 17 => ⟨S200000, .f32⟩
  | 18 => ⟨S_, .f32⟩
  | 19 => ⟨S2000, .f32⟩
  | 20 => ⟨S200000x1, .i32⟩
  | 21 => ⟨S2000, .f32⟩
  | 22 => ⟨S_, .f32⟩
  | 23 => ⟨S2000, .f32⟩
  | 24 => ⟨S2000, .f32⟩
  | 25 => ⟨S2000x1, .f32⟩
  | 26 => ⟨S2000x150, .f32⟩
  | 27 => ⟨S2000x150, .f32⟩
  | 28 => ⟨S1x1x150x150, .f32⟩
  | 29 => ⟨S150x150, .f32⟩
  | 30 => ⟨S2000x150, .f32⟩
  | 31 => ⟨S1x1x150, .f32⟩
  | 32 => ⟨S150, .f32⟩
  | 33 => ⟨S1x150, .f32⟩
  | 34 => ⟨S2000x150, .f32⟩
  | 35 => ⟨S2000x150, .f32⟩
  | 36 => ⟨S1x1x150x150, .f32⟩
  | 37 => ⟨S150x150, .f32⟩
  | 38 => ⟨S2000x150, .f32⟩
  | 39 => ⟨S2000x150, .f32⟩
  | 40 => ⟨S1x200000, .i32⟩
  | 41 => ⟨S200000, .i32⟩
  | 42 => ⟨S1x200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x150, .f32⟩
  | 53 => ⟨S_, .f32⟩
  | 54 => ⟨S2000x150, .f32⟩
  | 55 => ⟨S200000x1, .i32⟩
  | 56 => ⟨S2000x150, .f32⟩
  | 57 => ⟨S_, .f32⟩
  | 58 => ⟨S200000, .f32⟩
  | 59 => ⟨S_, .f32⟩
  | 60 => ⟨S2000, .f32⟩
  | 61 => ⟨S200000x1, .i32⟩
  | 62 => ⟨S2000, .f32⟩
  | 63 => ⟨S_, .f32⟩
  | 64 => ⟨S2000, .f32⟩
  | 65 => ⟨S2000, .f32⟩
  | 66 => ⟨S2000x1, .f32⟩
  | 67 => ⟨S2000x150, .f32⟩
  | 68 => ⟨S2000x150, .f32⟩
  | 69 => ⟨S1x1x150x150, .f32⟩
  | 70 => ⟨S150x150, .f32⟩
  | 71 => ⟨S2000x150, .f32⟩
  | 72 => ⟨S1x1x150, .f32⟩
  | 73 => ⟨S150, .f32⟩
  | 74 => ⟨S1x150, .f32⟩
  | 75 => ⟨S2000x150, .f32⟩
  | 76 => ⟨S2000x150, .f32⟩
  | 77 => ⟨S1x1x150x150, .f32⟩
  | 78 => ⟨S150x150, .f32⟩
  | 79 => ⟨S2000x150, .f32⟩
  | 80 => ⟨S2000x150, .f32⟩
  | 81 => ⟨S2000x150, .f32⟩
  | 82 => ⟨S1x500000, .i32⟩
  | 83 => ⟨S500000, .i32⟩
  | 84 => ⟨S1x500000, .i32⟩
  | 85 => ⟨S500000, .i32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x150, .f32⟩
  | 95 => ⟨S_, .f32⟩
  | 96 => ⟨S20000x150, .f32⟩
  | 97 => ⟨S500000x1, .i32⟩
  | 98 => ⟨S20000x150, .f32⟩
  | 99 => ⟨S_, .f32⟩
  | 100 => ⟨S500000, .f32⟩
  | 101 => ⟨S_, .f32⟩
  | 102 => ⟨S20000, .f32⟩
  | 103 => ⟨S500000x1, .i32⟩
  | 104 => ⟨S20000, .f32⟩
  | 105 => ⟨S_, .f32⟩
  | 106 => ⟨S20000, .f32⟩
  | 107 => ⟨S20000, .f32⟩
  | 108 => ⟨S20000x1, .f32⟩
  | 109 => ⟨S20000x150, .f32⟩
  | 110 => ⟨S20000x150, .f32⟩
  | 111 => ⟨S1x1x150x150, .f32⟩
  | 112 => ⟨S150x150, .f32⟩
  | 113 => ⟨S20000x150, .f32⟩
  | 114 => ⟨S1x1x150, .f32⟩
  | 115 => ⟨S150, .f32⟩
  | 116 => ⟨S1x150, .f32⟩
  | 117 => ⟨S20000x150, .f32⟩
  | 118 => ⟨S20000x150, .f32⟩
  | 119 => ⟨S1x1x150x150, .f32⟩
  | 120 => ⟨S150x150, .f32⟩
  | 121 => ⟨S20000x150, .f32⟩
  | 122 => ⟨S20000x150, .f32⟩
  | 123 => ⟨S1x200000, .i32⟩
  | 124 => ⟨S200000, .i32⟩
  | 125 => ⟨S1x200000, .i32⟩
  | 126 => ⟨S200000, .i32⟩
  | 127 => ⟨S_, .i32⟩
  | _ => ⟨S50000x768, .f32⟩

abbrev hbmTy0_6 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x150, .f32⟩
  | 8 => ⟨S_, .f32⟩
  | 9 => ⟨S20000x150, .f32⟩
  | 10 => ⟨S200000x1, .i32⟩
  | 11 => ⟨S20000x150, .f32⟩
  | 12 => ⟨S_, .f32⟩
  | 13 => ⟨S200000, .f32⟩
  | 14 => ⟨S_, .f32⟩
  | 15 => ⟨S20000, .f32⟩
  | 16 => ⟨S200000x1, .i32⟩
  | 17 => ⟨S20000, .f32⟩
  | 18 => ⟨S_, .f32⟩
  | 19 => ⟨S20000, .f32⟩
  | 20 => ⟨S20000, .f32⟩
  | 21 => ⟨S20000x1, .f32⟩
  | 22 => ⟨S20000x150, .f32⟩
  | 23 => ⟨S20000x150, .f32⟩
  | 24 => ⟨S1x1x150x150, .f32⟩
  | 25 => ⟨S150x150, .f32⟩
  | 26 => ⟨S20000x150, .f32⟩
  | 27 => ⟨S1x1x150, .f32⟩
  | 28 => ⟨S150, .f32⟩
  | 29 => ⟨S1x150, .f32⟩
  | 30 => ⟨S20000x150, .f32⟩
  | 31 => ⟨S20000x150, .f32⟩
  | 32 => ⟨S1x1x150x150, .f32⟩
  | 33 => ⟨S150x150, .f32⟩
  | 34 => ⟨S20000x150, .f32⟩
  | 35 => ⟨S20000x150, .f32⟩
  | 36 => ⟨S20000x150, .f32⟩
  | 37 => ⟨S50000x300, .f32⟩
  | 38 => ⟨S1x300, .f32⟩
  | 39 => ⟨S50000x300, .f32⟩
  | 40 => ⟨S50000x300, .f32⟩
  | 41 => ⟨S_, .f32⟩
  | 42 => ⟨S50000x300, .f32⟩
  | 43 => ⟨S50000x300, .f32⟩
  | 44 => ⟨S50000x200, .f32⟩
  | 45 => ⟨S1x200, .f32⟩
  | 46 => ⟨S50000x200, .f32⟩
  | 47 => ⟨S50000x200, .f32⟩
  | 48 => ⟨S_, .f32⟩
  | 49 => ⟨S50000x200, .f32⟩
  | 50 => ⟨S50000x200, .f32⟩
  | 51 => ⟨S50000x150, .f32⟩
  | 52 => ⟨S1x150, .f32⟩
  | 53 => ⟨S50000x150, .f32⟩
  | 54 => ⟨S50000x150, .f32⟩
  | 55 => ⟨S1x500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x150, .f32⟩
  | 66 => ⟨S1x500000, .i32⟩
  | 67 => ⟨S500000, .i32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x150, .f32⟩
  | 77 => ⟨S500000x300, .f32⟩
  | 78 => ⟨S500000x150, .f32⟩
  | 79 => ⟨S1x150, .f32⟩
  | 80 => ⟨S500000x150, .f32⟩
  | 81 => ⟨S500000x150, .f32⟩
  | 82 => ⟨S_, .f32⟩
  | 83 => ⟨S500000x150, .f32⟩
  | 84 => ⟨S500000x150, .f32⟩
  | 85 => ⟨S500000x50, .f32⟩
  | 86 => ⟨S1x50, .f32⟩
  | 87 => ⟨S500000x50, .f32⟩
  | 88 => ⟨S500000x50, .f32⟩
  | 89 => ⟨S_, .f32⟩
  | 90 => ⟨S500000x50, .f32⟩
  | 91 => ⟨S500000x50, .f32⟩
  | 92 => ⟨S500000x3, .f32⟩
  | 93 => ⟨S1x3, .f32⟩
  | 94 => ⟨S500000x3, .f32⟩
  | 95 => ⟨S500000x3, .f32⟩
  | _ => ⟨S50000x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_0 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_1 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_4 : Ref sig .tc := ⟨.hbm, 85, rfl⟩
abbrev main_v51 : Ref sig .tc := ⟨.hbm, 86, rfl⟩
abbrev main_v52 : Ref sig .tc := ⟨.hbm, 87, rfl⟩
abbrev main_c_5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_6 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_7 : Ref sig .tc := ⟨.hbm, 98, rfl⟩
abbrev main_v61 : Ref sig .tc := ⟨.hbm, 99, rfl⟩
abbrev main_cst_8 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_9 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_10 : Ref sig .tc := ⟨.hbm, 127, rfl⟩
abbrev main_v87 : Ref sig .tc := ⟨.hbm, 128, rfl⟩
abbrev main_v88 : Ref sig .tc := ⟨.hbm, 129, rfl⟩
abbrev main_c_11 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_12 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_13 : Ref sig .tc := ⟨.hbm, 140, rfl⟩
abbrev main_v97 : Ref sig .tc := ⟨.hbm, 141, rfl⟩
abbrev main_cst_14 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_15 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_c_16 : Ref sig .tc := ⟨.hbm, 168, rfl⟩
abbrev main_v122 : Ref sig .tc := ⟨.hbm, 169, rfl⟩
abbrev main_v123 : Ref sig .tc := ⟨.hbm, 170, rfl⟩
abbrev main_c_17 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_18 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_19 : Ref sig .tc := ⟨.hbm, 181, rfl⟩
abbrev main_v132 : Ref sig .tc := ⟨.hbm, 182, rfl⟩
abbrev main_cst_20 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_21 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_22 : Ref sig .tc := ⟨.hbm, 210, rfl⟩
abbrev main_v158 : Ref sig .tc := ⟨.hbm, 211, rfl⟩
abbrev main_v159 : Ref sig .tc := ⟨.hbm, 212, rfl⟩
abbrev main_c_23 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_24 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_25 : Ref sig .tc := ⟨.hbm, 223, rfl⟩
abbrev main_v168 : Ref sig .tc := ⟨.hbm, 224, rfl⟩
abbrev main_cst_26 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_cst_27 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_c_28 : Ref sig .tc := ⟨.hbm, 251, rfl⟩
abbrev main_v193 : Ref sig .tc := ⟨.hbm, 252, rfl⟩
abbrev main_v194 : Ref sig .tc := ⟨.hbm, 253, rfl⟩
abbrev main_c_29 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_cst_30 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_cst_31 : Ref sig .tc := ⟨.hbm, 264, rfl⟩
abbrev main_v203 : Ref sig .tc := ⟨.hbm, 265, rfl⟩
abbrev main_cst_32 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_33 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_call0_cst : Ref sig .tc := ⟨.hbm, 289, rfl⟩
abbrev main_call0_v0 : Ref sig .tc := ⟨.hbm, 290, rfl⟩
abbrev main_v225 : Ref sig .tc := ⟨.hbm, 291, rfl⟩
abbrev main_call1_cst : Ref sig .tc := ⟨.hbm, 292, rfl⟩
abbrev main_call1_v0 : Ref sig .tc := ⟨.hbm, 293, rfl⟩
abbrev main_v226 : Ref sig .tc := ⟨.hbm, 294, rfl⟩
abbrev main_call2_cst : Ref sig .tc := ⟨.hbm, 295, rfl⟩
abbrev main_call2_v0 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_c_34 : Ref sig .tc := ⟨.hbm, 302, rfl⟩
abbrev main_v232 : Ref sig .tc := ⟨.hbm, 303, rfl⟩
abbrev main_v233 : Ref sig .tc := ⟨.hbm, 304, rfl⟩
abbrev main_c_35 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_cst_36 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_cst_37 : Ref sig .tc := ⟨.hbm, 315, rfl⟩
abbrev main_v242 : Ref sig .tc := ⟨.hbm, 316, rfl⟩
abbrev main_cst_38 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_cst_39 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_c_40 : Ref sig .tc := ⟨.hbm, 343, rfl⟩
abbrev main_v267 : Ref sig .tc := ⟨.hbm, 344, rfl⟩
abbrev main_v268 : Ref sig .tc := ⟨.hbm, 345, rfl⟩
abbrev main_c_41 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_cst_42 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_cst_43 : Ref sig .tc := ⟨.hbm, 356, rfl⟩
abbrev main_v277 : Ref sig .tc := ⟨.hbm, 357, rfl⟩
abbrev main_cst_44 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_cst_45 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_c_46 : Ref sig .tc := ⟨.hbm, 385, rfl⟩
abbrev main_v303 : Ref sig .tc := ⟨.hbm, 386, rfl⟩
abbrev main_v304 : Ref sig .tc := ⟨.hbm, 387, rfl⟩
abbrev main_c_47 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_cst_48 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_cst_49 : Ref sig .tc := ⟨.hbm, 398, rfl⟩
abbrev main_v313 : Ref sig .tc := ⟨.hbm, 399, rfl⟩
abbrev main_cst_50 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_cst_51 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_v335 : Ref sig .tc := ⟨.hbm, 423, rfl⟩
abbrev main_v336 : Ref sig .tc := ⟨.hbm, 424, rfl⟩
abbrev main_v337 : Ref sig .tc := ⟨.hbm, 425, rfl⟩
abbrev main_c_52 : Ref sig .tc := ⟨.hbm, 426, rfl⟩
abbrev main_v338 : Ref sig .tc := ⟨.hbm, 427, rfl⟩
abbrev main_v339 : Ref sig .tc := ⟨.hbm, 428, rfl⟩
abbrev main_c_53 : Ref sig .tc := ⟨.hbm, 429, rfl⟩
abbrev main_v340 : Ref sig .tc := ⟨.hbm, 430, rfl⟩
abbrev main_v341 : Ref sig .tc := ⟨.hbm, 431, rfl⟩
abbrev main_v342 : Ref sig .tc := ⟨.hbm, 432, rfl⟩
abbrev main_v343 : Ref sig .tc := ⟨.hbm, 433, rfl⟩
abbrev main_v344 : Ref sig .tc := ⟨.hbm, 434, rfl⟩
abbrev main_cst_54 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_cst_55 : Ref sig .tc := ⟨.hbm, 439, rfl⟩
abbrev main_v348 : Ref sig .tc := ⟨.hbm, 440, rfl⟩
abbrev main_cst_56 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_cst_57 : Ref sig .tc := ⟨.hbm, 445, rfl⟩
abbrev main_v352 : Ref sig .tc := ⟨.hbm, 446, rfl⟩
abbrev main_v353 : Ref sig .tc := ⟨.hbm, 447, rfl⟩
abbrev main_v354 : Ref sig .tc := ⟨.hbm, 448, rfl⟩
abbrev main_v355 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_v364 : Ref sig .tc := ⟨.hbm, 458, rfl⟩
abbrev main_v365 : Ref sig .tc := ⟨.hbm, 459, rfl⟩
abbrev main_v366 : Ref sig .tc := ⟨.hbm, 460, rfl⟩
abbrev main_v367 : Ref sig .tc := ⟨.hbm, 461, rfl⟩
abbrev main_v368 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_v372 : Ref sig .tc := ⟨.hbm, 466, rfl⟩
abbrev main_v373 : Ref sig .tc := ⟨.hbm, 467, rfl⟩
abbrev main_c_58 : Ref sig .tc := ⟨.hbm, 468, rfl⟩
abbrev main_v374 : Ref sig .tc := ⟨.hbm, 469, rfl⟩
abbrev main_v375 : Ref sig .tc := ⟨.hbm, 470, rfl⟩
abbrev main_c_59 : Ref sig .tc := ⟨.hbm, 471, rfl⟩
abbrev main_v376 : Ref sig .tc := ⟨.hbm, 472, rfl⟩
abbrev main_v377 : Ref sig .tc := ⟨.hbm, 473, rfl⟩
abbrev main_v378 : Ref sig .tc := ⟨.hbm, 474, rfl⟩
abbrev main_v379 : Ref sig .tc := ⟨.hbm, 475, rfl⟩
abbrev main_v380 : Ref sig .tc := ⟨.hbm, 476, rfl⟩
abbrev main_cst_60 : Ref sig .tc := ⟨.hbm, 477, rfl⟩
abbrev main_v381 : Ref sig .tc := ⟨.hbm, 478, rfl⟩
abbrev main_v382 : Ref sig .tc := ⟨.hbm, 479, rfl⟩
abbrev main_v383 : Ref sig .tc := ⟨.hbm, 480, rfl⟩
abbrev main_cst_61 : Ref sig .tc := ⟨.hbm, 481, rfl⟩
abbrev main_v384 : Ref sig .tc := ⟨.hbm, 482, rfl⟩
abbrev main_cst_62 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_cst_63 : Ref sig .tc := ⟨.hbm, 487, rfl⟩
abbrev main_v388 : Ref sig .tc := ⟨.hbm, 488, rfl⟩
abbrev main_v389 : Ref sig .tc := ⟨.hbm, 489, rfl⟩
abbrev main_v390 : Ref sig .tc := ⟨.hbm, 490, rfl⟩
abbrev main_v391 : Ref sig .tc := ⟨.hbm, 491, rfl⟩
abbrev main_v392 : Ref sig .tc := ⟨.hbm, 492, rfl⟩
abbrev main_v393 : Ref sig .tc := ⟨.hbm, 493, rfl⟩
abbrev main_v394 : Ref sig .tc := ⟨.hbm, 494, rfl⟩
abbrev main_v395 : Ref sig .tc := ⟨.hbm, 495, rfl⟩
abbrev main_v396 : Ref sig .tc := ⟨.hbm, 496, rfl⟩
abbrev main_v397 : Ref sig .tc := ⟨.hbm, 497, rfl⟩
abbrev main_v398 : Ref sig .tc := ⟨.hbm, 498, rfl⟩
abbrev main_v399 : Ref sig .tc := ⟨.hbm, 499, rfl⟩
abbrev main_v400 : Ref sig .tc := ⟨.hbm, 500, rfl⟩
abbrev main_v401 : Ref sig .tc := ⟨.hbm, 501, rfl⟩
abbrev main_v402 : Ref sig .tc := ⟨.hbm, 502, rfl⟩
abbrev main_v403 : Ref sig .tc := ⟨.hbm, 503, rfl⟩
abbrev main_v404 : Ref sig .tc := ⟨.hbm, 504, rfl⟩
abbrev main_v405 : Ref sig .tc := ⟨.hbm, 505, rfl⟩
abbrev main_v406 : Ref sig .tc := ⟨.hbm, 506, rfl⟩
abbrev main_v407 : Ref sig .tc := ⟨.hbm, 507, rfl⟩
abbrev main_v408 : Ref sig .tc := ⟨.hbm, 508, rfl⟩
abbrev main_c_64 : Ref sig .tc := ⟨.hbm, 509, rfl⟩
abbrev main_v409 : Ref sig .tc := ⟨.hbm, 510, rfl⟩
abbrev main_v410 : Ref sig .tc := ⟨.hbm, 511, rfl⟩
abbrev main_c_65 : Ref sig .tc := ⟨.hbm, 512, rfl⟩
abbrev main_v411 : Ref sig .tc := ⟨.hbm, 513, rfl⟩
abbrev main_v412 : Ref sig .tc := ⟨.hbm, 514, rfl⟩
abbrev main_v413 : Ref sig .tc := ⟨.hbm, 515, rfl⟩
abbrev main_v414 : Ref sig .tc := ⟨.hbm, 516, rfl⟩
abbrev main_v415 : Ref sig .tc := ⟨.hbm, 517, rfl⟩
abbrev main_cst_66 : Ref sig .tc := ⟨.hbm, 518, rfl⟩
abbrev main_v416 : Ref sig .tc := ⟨.hbm, 519, rfl⟩
abbrev main_v417 : Ref sig .tc := ⟨.hbm, 520, rfl⟩
abbrev main_v418 : Ref sig .tc := ⟨.hbm, 521, rfl⟩
abbrev main_cst_67 : Ref sig .tc := ⟨.hbm, 522, rfl⟩
abbrev main_v419 : Ref sig .tc := ⟨.hbm, 523, rfl⟩
abbrev main_cst_68 : Ref sig .tc := ⟨.hbm, 524, rfl⟩
abbrev main_v420 : Ref sig .tc := ⟨.hbm, 525, rfl⟩
abbrev main_v421 : Ref sig .tc := ⟨.hbm, 526, rfl⟩
abbrev main_v422 : Ref sig .tc := ⟨.hbm, 527, rfl⟩
abbrev main_cst_69 : Ref sig .tc := ⟨.hbm, 528, rfl⟩
abbrev main_v423 : Ref sig .tc := ⟨.hbm, 529, rfl⟩
abbrev main_v424 : Ref sig .tc := ⟨.hbm, 530, rfl⟩
abbrev main_v425 : Ref sig .tc := ⟨.hbm, 531, rfl⟩
abbrev main_v426 : Ref sig .tc := ⟨.hbm, 532, rfl⟩
abbrev main_v427 : Ref sig .tc := ⟨.hbm, 533, rfl⟩
abbrev main_v428 : Ref sig .tc := ⟨.hbm, 534, rfl⟩
abbrev main_v429 : Ref sig .tc := ⟨.hbm, 535, rfl⟩
abbrev main_v430 : Ref sig .tc := ⟨.hbm, 536, rfl⟩
abbrev main_v431 : Ref sig .tc := ⟨.hbm, 537, rfl⟩
abbrev main_v432 : Ref sig .tc := ⟨.hbm, 538, rfl⟩
abbrev main_v433 : Ref sig .tc := ⟨.hbm, 539, rfl⟩
abbrev main_v434 : Ref sig .tc := ⟨.hbm, 540, rfl⟩
abbrev main_v435 : Ref sig .tc := ⟨.hbm, 541, rfl⟩
abbrev main_v436 : Ref sig .tc := ⟨.hbm, 542, rfl⟩
abbrev main_v437 : Ref sig .tc := ⟨.hbm, 543, rfl⟩
abbrev main_v438 : Ref sig .tc := ⟨.hbm, 544, rfl⟩
abbrev main_v439 : Ref sig .tc := ⟨.hbm, 545, rfl⟩
abbrev main_v440 : Ref sig .tc := ⟨.hbm, 546, rfl⟩
abbrev main_call3_cst : Ref sig .tc := ⟨.hbm, 547, rfl⟩
abbrev main_call3_v0 : Ref sig .tc := ⟨.hbm, 548, rfl⟩
abbrev main_v441 : Ref sig .tc := ⟨.hbm, 549, rfl⟩
abbrev main_call4_cst : Ref sig .tc := ⟨.hbm, 550, rfl⟩
abbrev main_call4_v0 : Ref sig .tc := ⟨.hbm, 551, rfl⟩
abbrev main_v442 : Ref sig .tc := ⟨.hbm, 552, rfl⟩
abbrev main_call5_cst : Ref sig .tc := ⟨.hbm, 553, rfl⟩
abbrev main_call5_v0 : Ref sig .tc := ⟨.hbm, 554, rfl⟩
abbrev main_v443 : Ref sig .tc := ⟨.hbm, 555, rfl⟩
abbrev main_v444 : Ref sig .tc := ⟨.hbm, 556, rfl⟩
abbrev main_v445 : Ref sig .tc := ⟨.hbm, 557, rfl⟩
abbrev main_v446 : Ref sig .tc := ⟨.hbm, 558, rfl⟩
abbrev main_v447 : Ref sig .tc := ⟨.hbm, 559, rfl⟩
abbrev main_c_70 : Ref sig .tc := ⟨.hbm, 560, rfl⟩
abbrev main_v448 : Ref sig .tc := ⟨.hbm, 561, rfl⟩
abbrev main_v449 : Ref sig .tc := ⟨.hbm, 562, rfl⟩
abbrev main_c_71 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_v453 : Ref sig .tc := ⟨.hbm, 567, rfl⟩
abbrev main_v454 : Ref sig .tc := ⟨.hbm, 568, rfl⟩
abbrev main_cst_72 : Ref sig .tc := ⟨.hbm, 569, rfl⟩
abbrev main_v455 : Ref sig .tc := ⟨.hbm, 570, rfl⟩
abbrev main_v456 : Ref sig .tc := ⟨.hbm, 571, rfl⟩
abbrev main_v457 : Ref sig .tc := ⟨.hbm, 572, rfl⟩
abbrev main_cst_73 : Ref sig .tc := ⟨.hbm, 573, rfl⟩
abbrev main_v458 : Ref sig .tc := ⟨.hbm, 574, rfl⟩
abbrev main_cst_74 : Ref sig .tc := ⟨.hbm, 575, rfl⟩
abbrev main_v459 : Ref sig .tc := ⟨.hbm, 576, rfl⟩
abbrev main_v460 : Ref sig .tc := ⟨.hbm, 577, rfl⟩
abbrev main_v461 : Ref sig .tc := ⟨.hbm, 578, rfl⟩
abbrev main_cst_75 : Ref sig .tc := ⟨.hbm, 579, rfl⟩
abbrev main_v462 : Ref sig .tc := ⟨.hbm, 580, rfl⟩
abbrev main_v463 : Ref sig .tc := ⟨.hbm, 581, rfl⟩
abbrev main_v464 : Ref sig .tc := ⟨.hbm, 582, rfl⟩
abbrev main_v465 : Ref sig .tc := ⟨.hbm, 583, rfl⟩
abbrev main_v466 : Ref sig .tc := ⟨.hbm, 584, rfl⟩
abbrev main_v467 : Ref sig .tc := ⟨.hbm, 585, rfl⟩
abbrev main_v468 : Ref sig .tc := ⟨.hbm, 586, rfl⟩
abbrev main_v469 : Ref sig .tc := ⟨.hbm, 587, rfl⟩
abbrev main_v470 : Ref sig .tc := ⟨.hbm, 588, rfl⟩
abbrev main_v471 : Ref sig .tc := ⟨.hbm, 589, rfl⟩
abbrev main_v472 : Ref sig .tc := ⟨.hbm, 590, rfl⟩
abbrev main_v473 : Ref sig .tc := ⟨.hbm, 591, rfl⟩
abbrev main_v474 : Ref sig .tc := ⟨.hbm, 592, rfl⟩
abbrev main_v475 : Ref sig .tc := ⟨.hbm, 593, rfl⟩
abbrev main_v476 : Ref sig .tc := ⟨.hbm, 594, rfl⟩
abbrev main_v477 : Ref sig .tc := ⟨.hbm, 595, rfl⟩
abbrev main_v478 : Ref sig .tc := ⟨.hbm, 596, rfl⟩
abbrev main_v479 : Ref sig .tc := ⟨.hbm, 597, rfl⟩
abbrev main_v480 : Ref sig .tc := ⟨.hbm, 598, rfl⟩
abbrev main_v481 : Ref sig .tc := ⟨.hbm, 599, rfl⟩
abbrev main_v482 : Ref sig .tc := ⟨.hbm, 600, rfl⟩
abbrev main_c_76 : Ref sig .tc := ⟨.hbm, 601, rfl⟩
abbrev main_v483 : Ref sig .tc := ⟨.hbm, 602, rfl⟩
abbrev main_v484 : Ref sig .tc := ⟨.hbm, 603, rfl⟩
abbrev main_c_77 : Ref sig .tc := ⟨.hbm, 604, rfl⟩
abbrev main_v485 : Ref sig .tc := ⟨.hbm, 605, rfl⟩
abbrev main_v486 : Ref sig .tc := ⟨.hbm, 606, rfl⟩
abbrev main_v487 : Ref sig .tc := ⟨.hbm, 607, rfl⟩
abbrev main_v488 : Ref sig .tc := ⟨.hbm, 608, rfl⟩
abbrev main_v489 : Ref sig .tc := ⟨.hbm, 609, rfl⟩
abbrev main_cst_78 : Ref sig .tc := ⟨.hbm, 610, rfl⟩
abbrev main_v490 : Ref sig .tc := ⟨.hbm, 611, rfl⟩
abbrev main_v491 : Ref sig .tc := ⟨.hbm, 612, rfl⟩
abbrev main_v492 : Ref sig .tc := ⟨.hbm, 613, rfl⟩
abbrev main_cst_79 : Ref sig .tc := ⟨.hbm, 614, rfl⟩
abbrev main_v493 : Ref sig .tc := ⟨.hbm, 615, rfl⟩
abbrev main_cst_80 : Ref sig .tc := ⟨.hbm, 616, rfl⟩
abbrev main_v494 : Ref sig .tc := ⟨.hbm, 617, rfl⟩
abbrev main_v495 : Ref sig .tc := ⟨.hbm, 618, rfl⟩
abbrev main_v496 : Ref sig .tc := ⟨.hbm, 619, rfl⟩
abbrev main_cst_81 : Ref sig .tc := ⟨.hbm, 620, rfl⟩
abbrev main_v497 : Ref sig .tc := ⟨.hbm, 621, rfl⟩
abbrev main_v498 : Ref sig .tc := ⟨.hbm, 622, rfl⟩
abbrev main_v499 : Ref sig .tc := ⟨.hbm, 623, rfl⟩
abbrev main_v500 : Ref sig .tc := ⟨.hbm, 624, rfl⟩
abbrev main_v501 : Ref sig .tc := ⟨.hbm, 625, rfl⟩
abbrev main_v502 : Ref sig .tc := ⟨.hbm, 626, rfl⟩
abbrev main_v503 : Ref sig .tc := ⟨.hbm, 627, rfl⟩
abbrev main_v504 : Ref sig .tc := ⟨.hbm, 628, rfl⟩
abbrev main_v505 : Ref sig .tc := ⟨.hbm, 629, rfl⟩
abbrev main_v506 : Ref sig .tc := ⟨.hbm, 630, rfl⟩
abbrev main_v507 : Ref sig .tc := ⟨.hbm, 631, rfl⟩
abbrev main_v508 : Ref sig .tc := ⟨.hbm, 632, rfl⟩
abbrev main_v509 : Ref sig .tc := ⟨.hbm, 633, rfl⟩
abbrev main_v510 : Ref sig .tc := ⟨.hbm, 634, rfl⟩
abbrev main_v511 : Ref sig .tc := ⟨.hbm, 635, rfl⟩
abbrev main_v512 : Ref sig .tc := ⟨.hbm, 636, rfl⟩
abbrev main_v513 : Ref sig .tc := ⟨.hbm, 637, rfl⟩
abbrev main_v514 : Ref sig .tc := ⟨.hbm, 638, rfl⟩
abbrev main_v515 : Ref sig .tc := ⟨.hbm, 639, rfl⟩
abbrev main_v516 : Ref sig .tc := ⟨.hbm, 640, rfl⟩
abbrev main_v517 : Ref sig .tc := ⟨.hbm, 641, rfl⟩
abbrev main_v518 : Ref sig .tc := ⟨.hbm, 642, rfl⟩
abbrev main_c_82 : Ref sig .tc := ⟨.hbm, 643, rfl⟩
abbrev main_v519 : Ref sig .tc := ⟨.hbm, 644, rfl⟩
abbrev main_v520 : Ref sig .tc := ⟨.hbm, 645, rfl⟩
abbrev main_c_83 : Ref sig .tc := ⟨.hbm, 646, rfl⟩
abbrev main_v521 : Ref sig .tc := ⟨.hbm, 647, rfl⟩
abbrev main_v522 : Ref sig .tc := ⟨.hbm, 648, rfl⟩
abbrev main_v523 : Ref sig .tc := ⟨.hbm, 649, rfl⟩
abbrev main_v524 : Ref sig .tc := ⟨.hbm, 650, rfl⟩
abbrev main_v525 : Ref sig .tc := ⟨.hbm, 651, rfl⟩
abbrev main_cst_84 : Ref sig .tc := ⟨.hbm, 652, rfl⟩
abbrev main_v526 : Ref sig .tc := ⟨.hbm, 653, rfl⟩
abbrev main_v527 : Ref sig .tc := ⟨.hbm, 654, rfl⟩
abbrev main_v528 : Ref sig .tc := ⟨.hbm, 655, rfl⟩
abbrev main_cst_85 : Ref sig .tc := ⟨.hbm, 656, rfl⟩
abbrev main_v529 : Ref sig .tc := ⟨.hbm, 657, rfl⟩
abbrev main_cst_86 : Ref sig .tc := ⟨.hbm, 658, rfl⟩
abbrev main_v530 : Ref sig .tc := ⟨.hbm, 659, rfl⟩
abbrev main_v531 : Ref sig .tc := ⟨.hbm, 660, rfl⟩
abbrev main_v532 : Ref sig .tc := ⟨.hbm, 661, rfl⟩
abbrev main_cst_87 : Ref sig .tc := ⟨.hbm, 662, rfl⟩
abbrev main_v533 : Ref sig .tc := ⟨.hbm, 663, rfl⟩
abbrev main_v534 : Ref sig .tc := ⟨.hbm, 664, rfl⟩
abbrev main_v535 : Ref sig .tc := ⟨.hbm, 665, rfl⟩
abbrev main_v536 : Ref sig .tc := ⟨.hbm, 666, rfl⟩
abbrev main_v537 : Ref sig .tc := ⟨.hbm, 667, rfl⟩
abbrev main_v538 : Ref sig .tc := ⟨.hbm, 668, rfl⟩
abbrev main_v539 : Ref sig .tc := ⟨.hbm, 669, rfl⟩
abbrev main_v540 : Ref sig .tc := ⟨.hbm, 670, rfl⟩
abbrev main_v541 : Ref sig .tc := ⟨.hbm, 671, rfl⟩
abbrev main_v542 : Ref sig .tc := ⟨.hbm, 672, rfl⟩
abbrev main_v543 : Ref sig .tc := ⟨.hbm, 673, rfl⟩
abbrev main_v544 : Ref sig .tc := ⟨.hbm, 674, rfl⟩
abbrev main_v545 : Ref sig .tc := ⟨.hbm, 675, rfl⟩
abbrev main_v546 : Ref sig .tc := ⟨.hbm, 676, rfl⟩
abbrev main_v547 : Ref sig .tc := ⟨.hbm, 677, rfl⟩
abbrev main_v548 : Ref sig .tc := ⟨.hbm, 678, rfl⟩
abbrev main_v549 : Ref sig .tc := ⟨.hbm, 679, rfl⟩
abbrev main_v550 : Ref sig .tc := ⟨.hbm, 680, rfl⟩
abbrev main_v551 : Ref sig .tc := ⟨.hbm, 681, rfl⟩
abbrev main_v552 : Ref sig .tc := ⟨.hbm, 682, rfl⟩
abbrev main_v553 : Ref sig .tc := ⟨.hbm, 683, rfl⟩
abbrev main_c_88 : Ref sig .tc := ⟨.hbm, 684, rfl⟩
abbrev main_v554 : Ref sig .tc := ⟨.hbm, 685, rfl⟩
abbrev main_v555 : Ref sig .tc := ⟨.hbm, 686, rfl⟩
abbrev main_c_89 : Ref sig .tc := ⟨.hbm, 687, rfl⟩
abbrev main_v556 : Ref sig .tc := ⟨.hbm, 688, rfl⟩
abbrev main_v557 : Ref sig .tc := ⟨.hbm, 689, rfl⟩
abbrev main_v558 : Ref sig .tc := ⟨.hbm, 690, rfl⟩
abbrev main_v559 : Ref sig .tc := ⟨.hbm, 691, rfl⟩
abbrev main_v560 : Ref sig .tc := ⟨.hbm, 692, rfl⟩
abbrev main_cst_90 : Ref sig .tc := ⟨.hbm, 693, rfl⟩
abbrev main_v561 : Ref sig .tc := ⟨.hbm, 694, rfl⟩
abbrev main_v562 : Ref sig .tc := ⟨.hbm, 695, rfl⟩
abbrev main_v563 : Ref sig .tc := ⟨.hbm, 696, rfl⟩
abbrev main_cst_91 : Ref sig .tc := ⟨.hbm, 697, rfl⟩
abbrev main_v564 : Ref sig .tc := ⟨.hbm, 698, rfl⟩
abbrev main_cst_92 : Ref sig .tc := ⟨.hbm, 699, rfl⟩
abbrev main_v565 : Ref sig .tc := ⟨.hbm, 700, rfl⟩
abbrev main_v566 : Ref sig .tc := ⟨.hbm, 701, rfl⟩
abbrev main_v567 : Ref sig .tc := ⟨.hbm, 702, rfl⟩
abbrev main_cst_93 : Ref sig .tc := ⟨.hbm, 703, rfl⟩
abbrev main_v568 : Ref sig .tc := ⟨.hbm, 704, rfl⟩
abbrev main_v569 : Ref sig .tc := ⟨.hbm, 705, rfl⟩
abbrev main_v570 : Ref sig .tc := ⟨.hbm, 706, rfl⟩
abbrev main_v571 : Ref sig .tc := ⟨.hbm, 707, rfl⟩
abbrev main_v572 : Ref sig .tc := ⟨.hbm, 708, rfl⟩
abbrev main_v573 : Ref sig .tc := ⟨.hbm, 709, rfl⟩
abbrev main_v574 : Ref sig .tc := ⟨.hbm, 710, rfl⟩
abbrev main_v575 : Ref sig .tc := ⟨.hbm, 711, rfl⟩
abbrev main_v576 : Ref sig .tc := ⟨.hbm, 712, rfl⟩
abbrev main_v577 : Ref sig .tc := ⟨.hbm, 713, rfl⟩
abbrev main_v578 : Ref sig .tc := ⟨.hbm, 714, rfl⟩
abbrev main_v579 : Ref sig .tc := ⟨.hbm, 715, rfl⟩
abbrev main_v580 : Ref sig .tc := ⟨.hbm, 716, rfl⟩
abbrev main_v581 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩
abbrev main_v588 : Ref sig .tc := ⟨.hbm, 724, rfl⟩
abbrev main_v589 : Ref sig .tc := ⟨.hbm, 725, rfl⟩
abbrev main_c_94 : Ref sig .tc := ⟨.hbm, 726, rfl⟩
abbrev main_v590 : Ref sig .tc := ⟨.hbm, 727, rfl⟩
abbrev main_v591 : Ref sig .tc := ⟨.hbm, 728, rfl⟩
abbrev main_c_95 : Ref sig .tc := ⟨.hbm, 729, rfl⟩
abbrev main_v592 : Ref sig .tc := ⟨.hbm, 730, rfl⟩
abbrev main_v593 : Ref sig .tc := ⟨.hbm, 731, rfl⟩
abbrev main_v594 : Ref sig .tc := ⟨.hbm, 732, rfl⟩
abbrev main_v595 : Ref sig .tc := ⟨.hbm, 733, rfl⟩
abbrev main_v596 : Ref sig .tc := ⟨.hbm, 734, rfl⟩
abbrev main_cst_96 : Ref sig .tc := ⟨.hbm, 735, rfl⟩
abbrev main_v597 : Ref sig .tc := ⟨.hbm, 736, rfl⟩
abbrev main_v598 : Ref sig .tc := ⟨.hbm, 737, rfl⟩
abbrev main_v599 : Ref sig .tc := ⟨.hbm, 738, rfl⟩
abbrev main_cst_97 : Ref sig .tc := ⟨.hbm, 739, rfl⟩
abbrev main_v600 : Ref sig .tc := ⟨.hbm, 740, rfl⟩
abbrev main_cst_98 : Ref sig .tc := ⟨.hbm, 741, rfl⟩
abbrev main_v601 : Ref sig .tc := ⟨.hbm, 742, rfl⟩
abbrev main_v602 : Ref sig .tc := ⟨.hbm, 743, rfl⟩
abbrev main_v603 : Ref sig .tc := ⟨.hbm, 744, rfl⟩
abbrev main_cst_99 : Ref sig .tc := ⟨.hbm, 745, rfl⟩
abbrev main_v604 : Ref sig .tc := ⟨.hbm, 746, rfl⟩
abbrev main_v605 : Ref sig .tc := ⟨.hbm, 747, rfl⟩
abbrev main_v606 : Ref sig .tc := ⟨.hbm, 748, rfl⟩
abbrev main_v607 : Ref sig .tc := ⟨.hbm, 749, rfl⟩
abbrev main_v608 : Ref sig .tc := ⟨.hbm, 750, rfl⟩
abbrev main_v609 : Ref sig .tc := ⟨.hbm, 751, rfl⟩
abbrev main_v610 : Ref sig .tc := ⟨.hbm, 752, rfl⟩
abbrev main_v611 : Ref sig .tc := ⟨.hbm, 753, rfl⟩
abbrev main_v612 : Ref sig .tc := ⟨.hbm, 754, rfl⟩
abbrev main_v613 : Ref sig .tc := ⟨.hbm, 755, rfl⟩
abbrev main_v614 : Ref sig .tc := ⟨.hbm, 756, rfl⟩
abbrev main_v615 : Ref sig .tc := ⟨.hbm, 757, rfl⟩
abbrev main_v616 : Ref sig .tc := ⟨.hbm, 758, rfl⟩
abbrev main_v617 : Ref sig .tc := ⟨.hbm, 759, rfl⟩
abbrev main_v618 : Ref sig .tc := ⟨.hbm, 760, rfl⟩
abbrev main_v619 : Ref sig .tc := ⟨.hbm, 761, rfl⟩
abbrev main_v620 : Ref sig .tc := ⟨.hbm, 762, rfl⟩
abbrev main_v621 : Ref sig .tc := ⟨.hbm, 763, rfl⟩
abbrev main_v622 : Ref sig .tc := ⟨.hbm, 764, rfl⟩
abbrev main_v623 : Ref sig .tc := ⟨.hbm, 765, rfl⟩
abbrev main_v624 : Ref sig .tc := ⟨.hbm, 766, rfl⟩
abbrev main_c_100 : Ref sig .tc := ⟨.hbm, 767, rfl⟩
abbrev main_v625 : Ref sig .tc := ⟨.hbm, 768, rfl⟩
abbrev main_v626 : Ref sig .tc := ⟨.hbm, 769, rfl⟩
abbrev main_c_101 : Ref sig .tc := ⟨.hbm, 770, rfl⟩
abbrev main_v627 : Ref sig .tc := ⟨.hbm, 771, rfl⟩
abbrev main_v628 : Ref sig .tc := ⟨.hbm, 772, rfl⟩
abbrev main_v629 : Ref sig .tc := ⟨.hbm, 773, rfl⟩
abbrev main_v630 : Ref sig .tc := ⟨.hbm, 774, rfl⟩
abbrev main_v631 : Ref sig .tc := ⟨.hbm, 775, rfl⟩
abbrev main_cst_102 : Ref sig .tc := ⟨.hbm, 776, rfl⟩
abbrev main_v632 : Ref sig .tc := ⟨.hbm, 777, rfl⟩
abbrev main_v633 : Ref sig .tc := ⟨.hbm, 778, rfl⟩
abbrev main_v634 : Ref sig .tc := ⟨.hbm, 779, rfl⟩
abbrev main_cst_103 : Ref sig .tc := ⟨.hbm, 780, rfl⟩
abbrev main_v635 : Ref sig .tc := ⟨.hbm, 781, rfl⟩
abbrev main_cst_104 : Ref sig .tc := ⟨.hbm, 782, rfl⟩
abbrev main_v636 : Ref sig .tc := ⟨.hbm, 783, rfl⟩
abbrev main_v637 : Ref sig .tc := ⟨.hbm, 784, rfl⟩
abbrev main_v638 : Ref sig .tc := ⟨.hbm, 785, rfl⟩
abbrev main_cst_105 : Ref sig .tc := ⟨.hbm, 786, rfl⟩
abbrev main_v639 : Ref sig .tc := ⟨.hbm, 787, rfl⟩
abbrev main_v640 : Ref sig .tc := ⟨.hbm, 788, rfl⟩
abbrev main_v641 : Ref sig .tc := ⟨.hbm, 789, rfl⟩
abbrev main_v642 : Ref sig .tc := ⟨.hbm, 790, rfl⟩
abbrev main_v643 : Ref sig .tc := ⟨.hbm, 791, rfl⟩
abbrev main_v644 : Ref sig .tc := ⟨.hbm, 792, rfl⟩
abbrev main_v645 : Ref sig .tc := ⟨.hbm, 793, rfl⟩
abbrev main_v646 : Ref sig .tc := ⟨.hbm, 794, rfl⟩
abbrev main_v647 : Ref sig .tc := ⟨.hbm, 795, rfl⟩
abbrev main_v648 : Ref sig .tc := ⟨.hbm, 796, rfl⟩
abbrev main_v649 : Ref sig .tc := ⟨.hbm, 797, rfl⟩
abbrev main_v650 : Ref sig .tc := ⟨.hbm, 798, rfl⟩
abbrev main_v651 : Ref sig .tc := ⟨.hbm, 799, rfl⟩
abbrev main_v652 : Ref sig .tc := ⟨.hbm, 800, rfl⟩
abbrev main_v653 : Ref sig .tc := ⟨.hbm, 801, rfl⟩
abbrev main_v654 : Ref sig .tc := ⟨.hbm, 802, rfl⟩
abbrev main_v655 : Ref sig .tc := ⟨.hbm, 803, rfl⟩
abbrev main_v656 : Ref sig .tc := ⟨.hbm, 804, rfl⟩
abbrev main_v657 : Ref sig .tc := ⟨.hbm, 805, rfl⟩
abbrev main_v658 : Ref sig .tc := ⟨.hbm, 806, rfl⟩
abbrev main_v659 : Ref sig .tc := ⟨.hbm, 807, rfl⟩
abbrev main_v660 : Ref sig .tc := ⟨.hbm, 808, rfl⟩
abbrev main_call6_cst : Ref sig .tc := ⟨.hbm, 809, rfl⟩
abbrev main_call6_v0 : Ref sig .tc := ⟨.hbm, 810, rfl⟩
abbrev main_v661 : Ref sig .tc := ⟨.hbm, 811, rfl⟩
abbrev main_v662 : Ref sig .tc := ⟨.hbm, 812, rfl⟩
abbrev main_v663 : Ref sig .tc := ⟨.hbm, 813, rfl⟩
abbrev main_v664 : Ref sig .tc := ⟨.hbm, 814, rfl⟩
abbrev main_v665 : Ref sig .tc := ⟨.hbm, 815, rfl⟩
abbrev main_call7_cst : Ref sig .tc := ⟨.hbm, 816, rfl⟩
abbrev main_call7_v0 : Ref sig .tc := ⟨.hbm, 817, rfl⟩
abbrev main_v666 : Ref sig .tc := ⟨.hbm, 818, rfl⟩
abbrev main_v667 : Ref sig .tc := ⟨.hbm, 819, rfl⟩
abbrev main_v668 : Ref sig .tc := ⟨.hbm, 820, rfl⟩
abbrev main_v669 : Ref sig .tc := ⟨.hbm, 821, rfl⟩
abbrev main_v670 : Ref sig .tc := ⟨.hbm, 822, rfl⟩
abbrev main_v671 : Ref sig .tc := ⟨.hbm, 823, rfl⟩
abbrev main_v672 : Ref sig .tc := ⟨.hbm, 824, rfl⟩
abbrev main_c_106 : Ref sig .tc := ⟨.hbm, 825, rfl⟩
abbrev main_v673 : Ref sig .tc := ⟨.hbm, 826, rfl⟩
abbrev main_v674 : Ref sig .tc := ⟨.hbm, 827, rfl⟩
abbrev main_c_107 : Ref sig .tc := ⟨.hbm, 828, rfl⟩
abbrev main_v675 : Ref sig .tc := ⟨.hbm, 829, rfl⟩
abbrev main_v676 : Ref sig .tc := ⟨.hbm, 830, rfl⟩
abbrev main_v677 : Ref sig .tc := ⟨.hbm, 831, rfl⟩
abbrev main_v678 : Ref sig .tc := ⟨.hbm, 832, rfl⟩
abbrev main_v679 : Ref sig .tc := ⟨.hbm, 833, rfl⟩
abbrev main_v680 : Ref sig .tc := ⟨.hbm, 834, rfl⟩
abbrev main_v681 : Ref sig .tc := ⟨.hbm, 835, rfl⟩
abbrev main_c_108 : Ref sig .tc := ⟨.hbm, 836, rfl⟩
abbrev main_v682 : Ref sig .tc := ⟨.hbm, 837, rfl⟩
abbrev main_v683 : Ref sig .tc := ⟨.hbm, 838, rfl⟩
abbrev main_c_109 : Ref sig .tc := ⟨.hbm, 839, rfl⟩
abbrev main_v684 : Ref sig .tc := ⟨.hbm, 840, rfl⟩
abbrev main_v685 : Ref sig .tc := ⟨.hbm, 841, rfl⟩
abbrev main_v686 : Ref sig .tc := ⟨.hbm, 842, rfl⟩
abbrev main_v687 : Ref sig .tc := ⟨.hbm, 843, rfl⟩
abbrev main_v688 : Ref sig .tc := ⟨.hbm, 844, rfl⟩
abbrev main_v689 : Ref sig .tc := ⟨.hbm, 845, rfl⟩
abbrev main_v690 : Ref sig .tc := ⟨.hbm, 846, rfl⟩
abbrev main_v691 : Ref sig .tc := ⟨.hbm, 847, rfl⟩
abbrev main_v692 : Ref sig .tc := ⟨.hbm, 848, rfl⟩
abbrev main_v693 : Ref sig .tc := ⟨.hbm, 849, rfl⟩
abbrev main_call8_cst : Ref sig .tc := ⟨.hbm, 850, rfl⟩
abbrev main_call8_v0 : Ref sig .tc := ⟨.hbm, 851, rfl⟩
abbrev main_v694 : Ref sig .tc := ⟨.hbm, 852, rfl⟩
abbrev main_v695 : Ref sig .tc := ⟨.hbm, 853, rfl⟩
abbrev main_v696 : Ref sig .tc := ⟨.hbm, 854, rfl⟩
abbrev main_v697 : Ref sig .tc := ⟨.hbm, 855, rfl⟩
abbrev main_v698 : Ref sig .tc := ⟨.hbm, 856, rfl⟩
abbrev main_call9_cst : Ref sig .tc := ⟨.hbm, 857, rfl⟩
abbrev main_call9_v0 : Ref sig .tc := ⟨.hbm, 858, rfl⟩
abbrev main_v699 : Ref sig .tc := ⟨.hbm, 859, rfl⟩
abbrev main_v700 : Ref sig .tc := ⟨.hbm, 860, rfl⟩
abbrev main_v701 : Ref sig .tc := ⟨.hbm, 861, rfl⟩
abbrev main_v702 : Ref sig .tc := ⟨.hbm, 862, rfl⟩
abbrev main_v703 : Ref sig .tc := ⟨.hbm, 863, rfl⟩

abbrev nD : Nat := 1
abbrev τ : Topo := Topo.v7x

variable {F : FTy → Type} [FloatOps F]

class Facts₀ : Prop where
  bcast_S150_S1x150_1 : S150.BroadcastsInDim S1x150 (![1] : Fin 1 → Fin S1x150.rank)
  bcast_S1x150_S50000x150_0_1 : S1x150.BroadcastsInDim S50000x150 (![0, 1] : Fin 2 → Fin S50000x150.rank)
  bcast_S1x150_S2000x150_0_1 : S1x150.BroadcastsInDim S2000x150 (![0, 1] : Fin 2 → Fin S2000x150.rank)
  bcast_S1x150_S20000x150_0_1 : S1x150.BroadcastsInDim S20000x150 (![0, 1] : Fin 2 → Fin S20000x150.rank)
  slices_S2x500000_S1x500000_1_0 : S2x500000.Slices ![1, 0] S1x500000
  shapeCasts_S1x500000_S500000 : S1x500000.ShapeCasts S500000
  slices_S2x500000_S1x500000_0_0 : S2x500000.Slices ![0, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x150 : S_.BroadcastsInDim S50000x150 (![] : Fin 0 → Fin S50000x150.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x150_0_1 : S50000x1.BroadcastsInDim S50000x150 (![0, 1] : Fin 2 → Fin S50000x150.rank)
  slices_S3x6x150x150_S1x1x150x150_0_1_0_0 : S3x6x150x150.Slices ![0, 1, 0, 0] S1x1x150x150
  shapeCasts_S1x1x150x150_S150x150 : S1x1x150x150.ShapeCasts S150x150
  slices_S3x6x150_S1x1x150_0_1_0 : S3x6x150.Slices ![0, 1, 0] S1x1x150
  shapeCasts_S1x1x150_S150 : S1x1x150.ShapeCasts S150
  slices_S2x200000_S1x200000_1_0 : S2x200000.Slices ![1, 0] S1x200000
  shapeCasts_S1x200000_S200000 : S1x200000.ShapeCasts S200000
  slices_S2x200000_S1x200000_0_0 : S2x200000.Slices ![0, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S3x6x150x150_S1x1x150x150_0_3_0_0 : S3x6x150x150.Slices ![0, 3, 0, 0] S1x1x150x150
  slices_S3x6x150_S1x1x150_0_3_0 : S3x6x150.Slices ![0, 3, 0] S1x1x150
  bcast_S_S2000x150 : S_.BroadcastsInDim S2000x150 (![] : Fin 0 → Fin S2000x150.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x150_0_1 : S2000x1.BroadcastsInDim S2000x150 (![0, 1] : Fin 2 → Fin S2000x150.rank)
  slices_S3x6x150x150_S1x1x150x150_0_2_0_0 : S3x6x150x150.Slices ![0, 2, 0, 0] S1x1x150x150
  slices_S3x6x150_S1x1x150_0_2_0 : S3x6x150.Slices ![0, 2, 0] S1x1x150
  slices_S3x6x150x150_S1x1x150x150_0_5_0_0 : S3x6x150x150.Slices ![0, 5, 0, 0] S1x1x150x150
  slices_S3x6x150_S1x1x150_0_5_0 : S3x6x150.Slices ![0, 5, 0] S1x1x150
  bcast_S_S20000x150 : S_.BroadcastsInDim S20000x150 (![] : Fin 0 → Fin S20000x150.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x150_0_1 : S20000x1.BroadcastsInDim S20000x150 (![0, 1] : Fin 2 → Fin S20000x150.rank)
  slices_S3x6x150x150_S1x1x150x150_0_0_0_0 : S3x6x150x150.Slices ![0, 0, 0, 0] S1x1x150x150
  slices_S3x6x150_S1x1x150_0_0_0 : S3x6x150.Slices ![0, 0, 0] S1x1x150
  slices_S3x6x150x150_S1x1x150x150_0_4_0_0 : S3x6x150x150.Slices ![0, 4, 0, 0] S1x1x150x150
  slices_S3x6x150_S1x1x150_0_4_0 : S3x6x150.Slices ![0, 4, 0] S1x1x150
  slices_S3x6x150x150_S1x1x150x150_1_1_0_0 : S3x6x150x150.Slices ![1, 1, 0, 0] S1x1x150x150
  slices_S3x6x150_S1x1x150_1_1_0 : S3x6x150.Slices ![1, 1, 0] S1x1x150
  slices_S3x6x150x150_S1x1x150x150_1_3_0_0 : S3x6x150x150.Slices ![1, 3, 0, 0] S1x1x150x150
  slices_S3x6x150_S1x1x150_1_3_0 : S3x6x150.Slices ![1, 3, 0] S1x1x150
  slices_S3x6x150x150_S1x1x150x150_1_2_0_0 : S3x6x150x150.Slices ![1, 2, 0, 0] S1x1x150x150
  slices_S3x6x150_S1x1x150_1_2_0 : S3x6x150.Slices ![1, 2, 0] S1x1x150
  slices_S3x6x150x150_S1x1x150x150_1_5_0_0 : S3x6x150x150.Slices ![1, 5, 0, 0] S1x1x150x150
  slices_S3x6x150_S1x1x150_1_5_0 : S3x6x150.Slices ![1, 5, 0] S1x1x150
  slices_S3x6x150x150_S1x1x150x150_1_0_0_0 : S3x6x150x150.Slices ![1, 0, 0, 0] S1x1x150x150
  slices_S3x6x150_S1x1x150_1_0_0 : S3x6x150.Slices ![1, 0, 0] S1x1x150
  slices_S3x6x150x150_S1x1x150x150_1_4_0_0 : S3x6x150x150.Slices ![1, 4, 0, 0] S1x1x150x150
  slices_S3x6x150_S1x1x150_1_4_0 : S3x6x150.Slices ![1, 4, 0] S1x1x150
  slices_S3x6x150x150_S1x1x150x150_2_1_0_0 : S3x6x150x150.Slices ![2, 1, 0, 0] S1x1x150x150
  slices_S3x6x150_S1x1x150_2_1_0 : S3x6x150.Slices ![2, 1, 0] S1x1x150
  slices_S3x6x150x150_S1x1x150x150_2_3_0_0 : S3x6x150x150.Slices ![2, 3, 0, 0] S1x1x150x150
  slices_S3x6x150_S1x1x150_2_3_0 : S3x6x150.Slices ![2, 3, 0] S1x1x150
  slices_S3x6x150x150_S1x1x150x150_2_2_0_0 : S3x6x150x150.Slices ![2, 2, 0, 0] S1x1x150x150
  slices_S3x6x150_S1x1x150_2_2_0 : S3x6x150.Slices ![2, 2, 0] S1x1x150
  slices_S3x6x150x150_S1x1x150x150_2_5_0_0 : S3x6x150x150.Slices ![2, 5, 0, 0] S1x1x150x150
  slices_S3x6x150_S1x1x150_2_5_0 : S3x6x150.Slices ![2, 5, 0] S1x1x150
  slices_S3x6x150x150_S1x1x150x150_2_0_0_0 : S3x6x150x150.Slices ![2, 0, 0, 0] S1x1x150x150
  slices_S3x6x150_S1x1x150_2_0_0 : S3x6x150.Slices ![2, 0, 0] S1x1x150
  slices_S3x6x150x150_S1x1x150x150_2_4_0_0 : S3x6x150x150.Slices ![2, 4, 0, 0] S1x1x150x150
  slices_S3x6x150_S1x1x150_2_4_0 : S3x6x150.Slices ![2, 4, 0] S1x1x150
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S_S50000x200 : S_.BroadcastsInDim S50000x200 (![] : Fin 0 → Fin S50000x200.rank)
  concatenates_S500000x150_S500000x150_S500000x300_d1 : Shape.Concatenates [S500000x150, S500000x150] S500000x300 1
  bcast_S1x150_S500000x150_0_1 : S1x150.BroadcastsInDim S500000x150 (![0, 1] : Fin 2 → Fin S500000x150.rank)
  bcast_S_S500000x150 : S_.BroadcastsInDim S500000x150 (![] : Fin 0 → Fin S500000x150.rank)
  bcast_S50_S1x50_1 : S50.BroadcastsInDim S1x50 (![1] : Fin 1 → Fin S1x50.rank)
  bcast_S1x50_S500000x50_0_1 : S1x50.BroadcastsInDim S500000x50 (![0, 1] : Fin 2 → Fin S500000x50.rank)
  bcast_S_S500000x50 : S_.BroadcastsInDim S500000x50 (![] : Fin 0 → Fin S500000x50.rank)
  bcast_S3_S1x3_1 : S3.BroadcastsInDim S1x3 (![1] : Fin 1 → Fin S1x3.rank)
  bcast_S1x3_S500000x3_0_1 : S1x3.BroadcastsInDim S500000x3 (![0, 1] : Fin 2 → Fin S500000x3.rank)
  dot_S50000x768_S768x150_S50000x150_1_0_0_1_n_n_wf : DotDims.WF S50000x768 S768x150 S50000x150 [1] [0] [0] [1] [] []
  dot_S2000x768_S768x150_S2000x150_1_0_0_1_n_n_wf : DotDims.WF S2000x768 S768x150 S2000x150 [1] [0] [0] [1] [] []
  dot_S20000x1024_S1024x150_S20000x150_1_0_0_1_n_n_wf : DotDims.WF S20000x1024 S1024x150 S20000x150 [1] [0] [0] [1] [] []
  gather_S20000x150_S500000x1_S500000x150_1_0_n_n_0_1_1150_wf : GatherDims.WF S20000x150 S500000x1 S500000x150 [1] [0] [] [0] [] 1 ![1, 150]
  scatter_S50000x150_S500000x1_S500000x150_1_0_0_1_wf : ScatterDims.WF S50000x150 S500000x1 S500000x150 [1] [0] [0] 1
  scatter_S50000_S500000x1_S500000_n_0_0_1_wf : ScatterDims.WF S50000 S500000x1 S500000 [] [0] [0] 1
  dot_S50000x150_S150x150_S50000x150_1_0_0_1_n_n_wf : DotDims.WF S50000x150 S150x150 S50000x150 [1] [0] [0] [1] [] []
  gather_S2000x150_S200000x1_S200000x150_1_0_n_n_0_1_1150_wf : GatherDims.WF S2000x150 S200000x1 S200000x150 [1] [0] [] [0] [] 1 ![1, 150]
  scatter_S50000x150_S200000x1_S200000x150_1_0_0_1_wf : ScatterDims.WF S50000x150 S200000x1 S200000x150 [1] [0] [0] 1
  scatter_S50000_S200000x1_S200000_n_0_0_1_wf : ScatterDims.WF S50000 S200000x1 S200000 [] [0] [0] 1
  gather_S50000x150_S200000x1_S200000x150_1_0_n_n_0_1_1150_wf : GatherDims.WF S50000x150 S200000x1 S200000x150 [1] [0] [] [0] [] 1 ![1, 150]
  scatter_S2000x150_S200000x1_S200000x150_1_0_0_1_wf : ScatterDims.WF S2000x150 S200000x1 S200000x150 [1] [0] [0] 1
  scatter_S2000_S200000x1_S200000_n_0_0_1_wf : ScatterDims.WF S2000 S200000x1 S200000 [] [0] [0] 1
  dot_S2000x150_S150x150_S2000x150_1_0_0_1_n_n_wf : DotDims.WF S2000x150 S150x150 S2000x150 [1] [0] [0] [1] [] []
  gather_S20000x150_S200000x1_S200000x150_1_0_n_n_0_1_1150_wf : GatherDims.WF S20000x150 S200000x1 S200000x150 [1] [0] [] [0] [] 1 ![1, 150]
  gather_S50000x150_S500000x1_S500000x150_1_0_n_n_0_1_1150_wf : GatherDims.WF S50000x150 S500000x1 S500000x150 [1] [0] [] [0] [] 1 ![1, 150]
  scatter_S20000x150_S500000x1_S500000x150_1_0_0_1_wf : ScatterDims.WF S20000x150 S500000x1 S500000x150 [1] [0] [0] 1
  scatter_S20000_S500000x1_S500000_n_0_0_1_wf : ScatterDims.WF S20000 S500000x1 S500000 [] [0] [0] 1
  dot_S20000x150_S150x150_S20000x150_1_0_0_1_n_n_wf : DotDims.WF S20000x150 S150x150 S20000x150 [1] [0] [0] [1] [] []
  scatter_S20000x150_S200000x1_S200000x150_1_0_0_1_wf : ScatterDims.WF S20000x150 S200000x1 S200000x150 [1] [0] [0] 1
  scatter_S20000_S200000x1_S200000_n_0_0_1_wf : ScatterDims.WF S20000 S200000x1 S200000 [] [0] [0] 1
  dot_S50000x768_S768x300_S50000x300_1_0_0_1_n_n_wf : DotDims.WF S50000x768 S768x300 S50000x300 [1] [0] [0] [1] [] []
  dot_S50000x300_S300x200_S50000x200_1_0_0_1_n_n_wf : DotDims.WF S50000x300 S300x200 S50000x200 [1] [0] [0] [1] [] []
  dot_S50000x200_S200x150_S50000x150_1_0_0_1_n_n_wf : DotDims.WF S50000x200 S200x150 S50000x150 [1] [0] [0] [1] [] []
  dot_S500000x300_S300x150_S500000x150_1_0_0_1_n_n_wf : DotDims.WF S500000x300 S300x150 S500000x150 [1] [0] [0] [1] [] []
  dot_S500000x150_S150x50_S500000x50_1_0_0_1_n_n_wf : DotDims.WF S500000x150 S150x50 S500000x50 [1] [0] [0] [1] [] []
  dot_S500000x50_S50x3_S500000x3_1_0_0_1_n_n_wf : DotDims.WF S500000x50 S50x3 S500000x3 [1] [0] [0] [1] [] []

variable [Facts₀]

def dot_S50000x768_S768x150_S50000x150_1_0_0_1_n_n : DotDims S50000x768 S768x150 S50000x150 where
  lhsContracting := [1]
  rhsContracting := [0]
  lhsNonContracting := [0]
  rhsNonContracting := [1]
  lhsBatch := []
  rhsBatch := []
  wf := dot_S50000x768_S768x150_S50000x150_1_0_0_1_n_n_wf
def dot_S2000x768_S768x150_S2000x150_1_0_0_1_n_n : DotDims S2000x768 S768x150 S2000x150 where
  lhsContracting := [1]
  rhsContracting := [0]
  lhsNonContracting := [0]
  rhsNonContracting := [1]
  lhsBatch := []
  rhsBatch := []
  wf := dot_S2000x768_S768x150_S2000x150_1_0_0_1_n_n_wf
def dot_S20000x1024_S1024x150_S20000x150_1_0_0_1_n_n : DotDims S20000x1024 S1024x150 S20000x150 where
  lhsContracting := [1]
  rhsContracting := [0]
  lhsNonContracting := [0]
  rhsNonContracting := [1]
  lhsBatch := []
  rhsBatch := []
  wf := dot_S20000x1024_S1024x150_S20000x150_1_0_0_1_n_n_wf
def gather_S20000x150_S500000x1_S500000x150_1_0_n_n_0_1_1150 : GatherDims S20000x150 S500000x1 S500000x150 where
  offsetDims := [1]
  collapsedSliceDims := [0]
  operandBatchingDims := []
  startIndicesBatchingDims := []
  startIndexMap := [0]
  indexVectorDim := 1
  sliceSizes := ![1, 150]
  wf := gather_S20000x150_S500000x1_S500000x150_1_0_n_n_0_1_1150_wf
def scatter_S50000x150_S500000x1_S500000x150_1_0_0_1 : ScatterDims S50000x150 S500000x1 S500000x150 where
  updateWindowDims := [1]
  insertedWindowDims := [0]
  scatterDimsToOperandDims := [0]
  indexVectorDim := 1
  wf := scatter_S50000x150_S500000x1_S500000x150_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x150_S150x150_S50000x150_1_0_0_1_n_n : DotDims S50000x150 S150x150 S50000x150 where
  lhsContracting := [1]
  rhsContracting := [0]
  lhsNonContracting := [0]
  rhsNonContracting := [1]
  lhsBatch := []
  rhsBatch := []
  wf := dot_S50000x150_S150x150_S50000x150_1_0_0_1_n_n_wf
def gather_S2000x150_S200000x1_S200000x150_1_0_n_n_0_1_1150 : GatherDims S2000x150 S200000x1 S200000x150 where
  offsetDims := [1]
  collapsedSliceDims := [0]
  operandBatchingDims := []
  startIndicesBatchingDims := []
  startIndexMap := [0]
  indexVectorDim := 1
  sliceSizes := ![1, 150]
  wf := gather_S2000x150_S200000x1_S200000x150_1_0_n_n_0_1_1150_wf
def scatter_S50000x150_S200000x1_S200000x150_1_0_0_1 : ScatterDims S50000x150 S200000x1 S200000x150 where
  updateWindowDims := [1]
  insertedWindowDims := [0]
  scatterDimsToOperandDims := [0]
  indexVectorDim := 1
  wf := scatter_S50000x150_S200000x1_S200000x150_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000x150_S200000x1_S200000x150_1_0_n_n_0_1_1150 : GatherDims S50000x150 S200000x1 S200000x150 where
  offsetDims := [1]
  collapsedSliceDims := [0]
  operandBatchingDims := []
  startIndicesBatchingDims := []
  startIndexMap := [0]
  indexVectorDim := 1
  sliceSizes := ![1, 150]
  wf := gather_S50000x150_S200000x1_S200000x150_1_0_n_n_0_1_1150_wf
def scatter_S2000x150_S200000x1_S200000x150_1_0_0_1 : ScatterDims S2000x150 S200000x1 S200000x150 where
  updateWindowDims := [1]
  insertedWindowDims := [0]
  scatterDimsToOperandDims := [0]
  indexVectorDim := 1
  wf := scatter_S2000x150_S200000x1_S200000x150_1_0_0_1_wf
def scatter_S2000_S200000x1_S200000_n_0_0_1 : ScatterDims S2000 S200000x1 S200000 where
  updateWindowDims := []
  insertedWindowDims := [0]
  scatterDimsToOperandDims := [0]
  indexVectorDim := 1
  wf := scatter_S2000_S200000x1_S200000_n_0_0_1_wf
def dot_S2000x150_S150x150_S2000x150_1_0_0_1_n_n : DotDims S2000x150 S150x150 S2000x150 where
  lhsContracting := [1]
  rhsContracting := [0]
  lhsNonContracting := [0]
  rhsNonContracting := [1]
  lhsBatch := []
  rhsBatch := []
  wf := dot_S2000x150_S150x150_S2000x150_1_0_0_1_n_n_wf
def gather_S20000x150_S200000x1_S200000x150_1_0_n_n_0_1_1150 : GatherDims S20000x150 S200000x1 S200000x150 where
  offsetDims := [1]
  collapsedSliceDims := [0]
  operandBatchingDims := []
  startIndicesBatchingDims := []
  startIndexMap := [0]
  indexVectorDim := 1
  sliceSizes := ![1, 150]
  wf := gather_S20000x150_S200000x1_S200000x150_1_0_n_n_0_1_1150_wf
def gather_S50000x150_S500000x1_S500000x150_1_0_n_n_0_1_1150 : GatherDims S50000x150 S500000x1 S500000x150 where
  offsetDims := [1]
  collapsedSliceDims := [0]
  operandBatchingDims := []
  startIndicesBatchingDims := []
  startIndexMap := [0]
  indexVectorDim := 1
  sliceSizes := ![1, 150]
  wf := gather_S50000x150_S500000x1_S500000x150_1_0_n_n_0_1_1150_wf
def scatter_S20000x150_S500000x1_S500000x150_1_0_0_1 : ScatterDims S20000x150 S500000x1 S500000x150 where
  updateWindowDims := [1]
  insertedWindowDims := [0]
  scatterDimsToOperandDims := [0]
  indexVectorDim := 1
  wf := scatter_S20000x150_S500000x1_S500000x150_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S20000x150_S150x150_S20000x150_1_0_0_1_n_n : DotDims S20000x150 S150x150 S20000x150 where
  lhsContracting := [1]
  rhsContracting := [0]
  lhsNonContracting := [0]
  rhsNonContracting := [1]
  lhsBatch := []
  rhsBatch := []
  wf := dot_S20000x150_S150x150_S20000x150_1_0_0_1_n_n_wf
def scatter_S20000x150_S200000x1_S200000x150_1_0_0_1 : ScatterDims S20000x150 S200000x1 S200000x150 where
  updateWindowDims := [1]
  insertedWindowDims := [0]
  scatterDimsToOperandDims := [0]
  indexVectorDim := 1
  wf := scatter_S20000x150_S200000x1_S200000x150_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S50000x768_S768x300_S50000x300_1_0_0_1_n_n : DotDims S50000x768 S768x300 S50000x300 where
  lhsContracting := [1]
  rhsContracting := [0]
  lhsNonContracting := [0]
  rhsNonContracting := [1]
  lhsBatch := []
  rhsBatch := []
  wf := dot_S50000x768_S768x300_S50000x300_1_0_0_1_n_n_wf
def dot_S50000x300_S300x200_S50000x200_1_0_0_1_n_n : DotDims S50000x300 S300x200 S50000x200 where
  lhsContracting := [1]
  rhsContracting := [0]
  lhsNonContracting := [0]
  rhsNonContracting := [1]
  lhsBatch := []
  rhsBatch := []
  wf := dot_S50000x300_S300x200_S50000x200_1_0_0_1_n_n_wf
def dot_S50000x200_S200x150_S50000x150_1_0_0_1_n_n : DotDims S50000x200 S200x150 S50000x150 where
  lhsContracting := [1]
  rhsContracting := [0]
  lhsNonContracting := [0]
  rhsNonContracting := [1]
  lhsBatch := []
  rhsBatch := []
  wf := dot_S50000x200_S200x150_S50000x150_1_0_0_1_n_n_wf
def dot_S500000x300_S300x150_S500000x150_1_0_0_1_n_n : DotDims S500000x300 S300x150 S500000x150 where
  lhsContracting := [1]
  rhsContracting := [0]
  lhsNonContracting := [0]
  rhsNonContracting := [1]
  lhsBatch := []
  rhsBatch := []
  wf := dot_S500000x300_S300x150_S500000x150_1_0_0_1_n_n_wf
def dot_S500000x150_S150x50_S500000x50_1_0_0_1_n_n : DotDims S500000x150 S150x50 S500000x50 where
  lhsContracting := [1]
  rhsContracting := [0]
  lhsNonContracting := [0]
  rhsNonContracting := [1]
  lhsBatch := []
  rhsBatch := []
  wf := dot_S500000x150_S150x50_S500000x50_1_0_0_1_n_n_wf
def dot_S500000x50_S50x3_S500000x3_1_0_0_1_n_n : DotDims S500000x50 S50x3 S500000x3 where
  lhsContracting := [1]
  rhsContracting := [0]
  lhsNonContracting := [0]
  rhsNonContracting := [1]
  lhsBatch := []
  rhsBatch := []
  wf := dot_S500000x50_S50x3_S500000x3_1_0_0_1_n_n_wf

class Facts : Prop extends Facts₀ where

variable [Facts]
-- ==== Proof.RefRead.lean ====
/-
  The reference's values, one operation at a time: the stages of the reference program and their
  read-at-an-index lemmas, which the modules about node features build on.
-/
import proofs.«138545_j63058709840619_2_alg».proof.Proof.RefReadP
-- ==== Proof.Algebra.lean ====
/-
  Extended-real algebra used by the certificate, over abstract finite index types.

  A value of the ideal instance is an extended real. Addition there is commutative and associative
  without side conditions, but a product distributes over a sum only away from the infinities, so the
  two laws that move a factor across a sum are stated for REAL-valued (finite) entries. `IsReal x`
  says that the extended real `x` is (the coercion of) a real number; it is closed under every
  operation the two programs apply to node features: sums, products, finite sums, maxima, and the
  quotient by a real that is not zero.
-/
import Idealize.ShloMosaic.PureOps.Ideal

noncomputable section

namespace Cert.Algebra

open Idealize.ShloMosaic

/-- The extended real `x` is a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩
theorem IsReal.add {x y : EReal} (hx : IsReal x) (hy : IsReal y) : IsReal (x + y) := by
  obtain ⟨r, rfl⟩ := hx
  obtain ⟨s, rfl⟩ := hy
  exact ⟨r + s, (EReal.coe_add r s).symm⟩
theorem IsReal.mul {x y : EReal} (hx : IsReal x) (hy : IsReal y) : IsReal (x * y) := by
  obtain ⟨r, rfl⟩ := hx
  obtain ⟨s, rfl⟩ := hy
  exact ⟨r * s, (EReal.coe_mul r s).symm⟩
theorem IsReal.max {x y : EReal} (hx : IsReal x) (hy : IsReal y) : IsReal (max x y) := by
  obtain ⟨r, rfl⟩ := hx
  obtain ⟨s, rfl⟩ := hy
  -- the coercion is monotone, so it carries the real maximum to the extended-real one
  exact ⟨Max.max r s, (EReal.coe_strictMono.monotone.map_max).symm⟩
/-- A finite sum of reals is real. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add
      (ih fun i hi => hf i (Finset.mem_insert_of_mem hi))
/-- The ideal quotient of a real by a real at least one is real. -/
theorem IsReal.div_of_one_le {x y : EReal} (hx : IsReal x) (hy : IsReal y) (h1 : (1 : EReal) ≤ y) :
    IsReal (Ideal.div x y) := by
  obtain ⟨r, rfl⟩ := hx
  obtain ⟨s, rfl⟩ := hy
  -- `1 ≤ s` as reals, so `s ≠ 0` and the quotient is the product with the real reciprocal
  have hs1 : (1 : ℝ) ≤ s := by
    have h1' : ((1 : ℝ) : EReal) ≤ (s : EReal) := by simpa using h1
    exact EReal.coe_le_coe_iff.mp h1'
  have hs : s ≠ 0 := by
    intro h0
    rw [h0] at hs1
    exact absurd hs1 (by norm_num)
  rw [Ideal.div_coe hs]
  exact (isReal_coe r).mul (isReal_coe (1 / s))
/-- A maximum with one is at least one. -/
theorem one_le_max_one (x : EReal) : (1 : EReal) ≤ max x 1 := le_max_right _ _

/-- The coercion commutes with finite sums (this Mathlib has no such lemma for the extended reals). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- A real factor distributes over the sum of two reals. -/
theorem mul_add_of_isReal {x a b : EReal} (hx : IsReal x) (ha : IsReal a) (hb : IsReal b) :
    x * (a + b) = x * a + x * b := by
  obtain ⟨r, rfl⟩ := hx
  obtain ⟨s, rfl⟩ := ha
  obtain ⟨t, rfl⟩ := hb
  -- all three are real: the law is the real distributive law, read through the coercion
  rw [← EReal.coe_add, ← EReal.coe_mul, ← EReal.coe_mul, ← EReal.coe_mul, ← EReal.coe_add, mul_add]

/-- One row of a matrix product against a sum of two matrices: with real entries on the left and in
    both matrices, the row against the sum is the sum of the rows against each. -/
theorem sum_mul_add {κ : Type*} [Fintype κ] (x w1 w2 : κ → EReal)
    (hx : ∀ k, IsReal (x k)) (h1 : ∀ k, IsReal (w1 k)) (h2 : ∀ k, IsReal (w2 k)) :
    ∑ k, x k * (w1 k + w2 k) = ∑ k, x k * w1 k + ∑ k, x k * w2 k := by
  rw [← Finset.sum_add_distrib]
  exact Finset.sum_congr rfl fun k _ => mul_add_of_isReal (hx k) (h1 k) (h2 k)

/-- The combine step of one two-branch layer at one output entry. The kernel adds the two aggregated
    products, then the destination row against the SUM of the two root matrices, then the SUM of the
    two biases; the reference adds, per branch, the aggregated product, the bias and the destination
    row against that branch's root matrix, and then the two branches. Equal when the destination row
    and the root matrices are real. -/
theorem combine_law {κ : Type*} [Fintype κ] (a1 w1 a2 w2 xd r1 r2 : κ → EReal) (b1 b2 : EReal)
    (hx : ∀ k, IsReal (xd k)) (h1 : ∀ k, IsReal (r1 k)) (h2 : ∀ k, IsReal (r2 k)) :
    ((∑ k, a1 k * w1 k) + (∑ k, a2 k * w2 k) + (∑ k, xd k * (r1 k + r2 k))) + (b1 + b2)
      = (((∑ k, a1 k * w1 k) + b1) + ∑ k, xd k * r1 k) + (((∑ k, a2 k * w2 k) + b2) + ∑ k, xd k * r2 k) := by
  rw [sum_mul_add xd r1 r2 hx h1 h2]
  -- both sides are the same six summands; addition of extended reals is commutative and associative
  generalize (∑ k, a1 k * w1 k) = A1
  generalize (∑ k, a2 k * w2 k) = A2
  generalize (∑ k, xd k * r1 k) = X1
  generalize (∑ k, xd k * r2 k) = X2
  abel

/-- A sum over `Fin (n + n')` splits into the sum over the first `n` and the sum over the last `n'`:
    the product of a row of two concatenated pieces with a matrix is the sum of the pieces' products
    with the matrix's two row blocks. -/
theorem sum_split (n n' : ℕ) (f : Fin (n + n') → EReal) :
    ∑ k, f k = ∑ k : Fin n, f (Fin.castAdd n' k) + ∑ k : Fin n', f (Fin.natAdd n k) := by
  exact Fin.sum_univ_add f

/-- Every entry of an array of extended reals is a real number. -/
def AllReal {ι : Type*} (x : ι → EReal) : Prop := ∀ i, IsReal (x i)

end Cert.Algebra

end
-- ==== Proof.PreFinite.lean ====
/-
  The finiteness precondition, read back. The precondition is the conjunction, over the 24 float
  arguments, of "every entry x has |x| < +∞", each written as a comparison against the splat of the
  pattern of +∞, reduced by `and` over all axes. In the ideal instance a float entry is an extended
  real and |x| is `max x (-x)`; `max x (-x) < ⊤` fails at both infinities, so it leaves exactly the
  real numbers. Hence the precondition makes every entry of every float argument a real number.
-/
import proofs.«138545_j63058709840619_2_alg».proof.Pre_finite_inputs
import proofs.«138545_j63058709840619_2_alg».proof.Proof.Gen.Pre_finite_inputs
import proofs.«138545_j63058709840619_2_alg».proof.Proof.Algebra
import Idealize.ShloMosaic.Lib.ReduceAll
import Idealize.ShloMosaic.PureOps.Ideal

noncomputable section

namespace Cert.PreFinite

open Idealize.ShloMosaic Cert.Algebra Cert.Pre_finite_inputs

/-- The scalar shape has one index: a function out of the empty `Fin 0`. -/
instance : Subsingleton S_.Idx := ⟨fun a b => funext fun d => d.elim0⟩

/-- An extended real whose absolute value `max x (-x)` is below `⊤` is a real number: at `⊥` the
    negation is `⊤`, at `⊤` the value itself is. -/
theorem isReal_of_abs_lt_top (x : EReal) (h : max x (-x) < ⊤) : IsReal x := by
  induction x using EReal.rec with
  | bot => exact absurd h (by simp)
  | coe r => exact ⟨r, rfl⟩
  | top => exact absurd h (by simp)

/-- One conjunct of the precondition: if the `and`-reduction over all axes of the entrywise test
    `|x| < +∞` (against the splat of the pattern `0x7F800000`) is 1, every entry of `x` is real. -/
theorem abs_lt_top_allReal {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j = 1#1) :
    AllReal x := by
  intro i
  have hi := Host.reduce_andi_all _ init hr hu j e i
  -- the entry's test: `max (x i) (-(x i)) < ⊤`, as an `i1` word
  have hlt : max (x i) (-(x i)) < ⊤ := by
    have htop : Ideal.ofBits .f32 0x7F800000#32 = ⊤ := by simp [Ideal.ofBits, Ideal.ieee]
    have hi' : Ideal.cmp .olt (max (x i) (-(x i))) (Ideal.ofBits .f32 0x7F800000#32) = 1#1 := hi
    rw [htop] at hi'
    by_contra hn
    simp only [Ideal.cmp, hn, decide_false] at hi'
    exact absurd hi' (by decide)
  exact isReal_of_abs_lt_top (x i) hlt

/-- The precondition makes every entry of each of the 24 float arguments a real number. -/
theorem args_real [Cert.Pre_finite_inputs.Facts]
    (a0 : FVec Ideal S50000x768 .f32) (a1 : FVec Ideal S2000x768 .f32) (a2 : FVec Ideal S20000x1024 .f32)
    (a3 : FVec Ideal S768x150 .f32) (a4 : FVec Ideal S150 .f32) (a5 : FVec Ideal S768x150 .f32)
    (a6 : FVec Ideal S150 .f32) (a7 : FVec Ideal S1024x150 .f32) (a8 : FVec Ideal S150 .f32)
    (a9 : FVec Ideal S3x6x150x150 .f32) (a10 : FVec Ideal S3x6x150 .f32) (a11 : FVec Ideal S3x6x150x150 .f32)
    (a12 : FVec Ideal S768x300 .f32) (a13 : FVec Ideal S300 .f32) (a14 : FVec Ideal S300x200 .f32)
    (a15 : FVec Ideal S200 .f32) (a16 : FVec Ideal S200x150 .f32) (a17 : FVec Ideal S150 .f32)
    (a18 : FVec Ideal S300x150 .f32) (a19 : FVec Ideal S150 .f32) (a20 : FVec Ideal S150x50 .f32)
    (a21 : FVec Ideal S50 .f32) (a22 : FVec Ideal S50x3 .f32) (a23 : FVec Ideal S3 .f32)
    (a24 : IVec S2x500000 32) (a25 : IVec S2x200000 32) (a26 : IVec S2x200000 32)
    (a27 : IVec S2x500000 32)
    (h : Cert.Pre_finite_inputs.fn (F := Ideal) a0 a1 a2 a3 a4 a5 a6 a7 a8 a9 a10 a11 a12 a13 a14 a15 a16 a17 a18 a19 a20 a21 a22 a23 a24 a25 a26 a27 = fun _ => 1#1) :
      AllReal a0 ∧ AllReal a1 ∧ AllReal a2 ∧ AllReal a3 ∧ AllReal a4 ∧ AllReal a5 ∧
      AllReal a6 ∧ AllReal a7 ∧ AllReal a8 ∧ AllReal a9 ∧ AllReal a10 ∧ AllReal a11 ∧
      AllReal a12 ∧ AllReal a13 ∧ AllReal a14 ∧ AllReal a15 ∧ AllReal a16 ∧ AllReal a17 ∧
      AllReal a18 ∧ AllReal a19 ∧ AllReal a20 ∧ AllReal a21 ∧ AllReal a22 ∧ AllReal a23 := by
  have hj := congrFun h (fun a => a.elim0)
  dsimp only [fn, fn_part1, fn_part2, fn_part3, fn_part4, fn_part5, fn_part6] at hj
  simp only [andi, IntOp.andi_eq_one] at hj
  obtain ⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩ := hj
  exact ⟨abs_lt_top_allReal a0 _ _ _ _ _ h0,
    abs_lt_top_allReal a1 _ _ _ _ _ h1,
    abs_lt_top_allReal a2 _ _ _ _ _ h2,
    abs_lt_top_allReal a3 _ _ _ _ _ h3,
    abs_lt_top_allReal a4 _ _ _ _ _ h4,
    abs_lt_top_allReal a5 _ _ _ _ _ h5,
    abs_lt_top_allReal a6 _ _ _ _ _ h6,
    abs_lt_top_allReal a7 _ _ _ _ _ h7,
    abs_lt_top_allReal a8 _ _ _ _ _ h8,
    abs_lt_top_allReal a9 _ _ _ _ _ h9,
    abs_lt_top_allReal a10 _ _ _ _ _ h10,
    abs_lt_top_allReal a11 _ _ _ _ _ h11,
    abs_lt_top_allReal a12 _ _ _ _ _ h12,
    abs_lt_top_allReal a13 _ _ _ _ _ h13,
    abs_lt_top_allReal a14 _ _ _ _ _ h14,
    abs_lt_top_allReal a15 _ _ _ _ _ h15,
    abs_lt_top_allReal a16 _ _ _ _ _ h16,
    abs_lt_top_allReal a17 _ _ _ _ _ h17,
    abs_lt_top_allReal a18 _ _ _ _ _ h18,
    abs_lt_top_allReal a19 _ _ _ _ _ h19,
    abs_lt_top_allReal a20 _ _ _ _ _ h20,
    abs_lt_top_allReal a21 _ _ _ _ _ h21,
    abs_lt_top_allReal a22 _ _ _ _ _ h22,
    abs_lt_top_allReal a23 _ _ _ _ _ h23⟩

end Cert.PreFinite

end
-- ==== Proof.OpsFinite.lean ====
/-
  Real-valuedness of arrays under the host operations of a program read at the ideal values.

  A float of the ideal instance is an extended real. An array is REAL when each entry is a real number
  (`Cert.Algebra.AllReal`). Every operation below keeps that property: the entrywise sum and maximum
  because the reals are closed under them; a contraction and a scatter-add because each entry of the
  result is a finite sum of products (of entries) of the operands; the quotient when the divisor is at
  least one; and every layout operation (broadcast, reshape, slice, gather, concatenation) because each
  entry of its result IS an entry of an operand. The same for the bound "every entry is at least one",
  which a divisor carries.
-/
import proofs.«138545_j63058709840619_2_alg».proof.Proof.Algebra
import Idealize.ShloMosaic.PureOps.Ideal
import Idealize.ShloMosaic.PureOps.Ideal.Laws
import Idealize.ShloMosaic.PureOps.Vector
import Idealize.ShloMosaic.PureOps.ShapeOps
import Idealize.ShloMosaic.PureOps.Contract

noncomputable section

namespace Cert.OpsFinite

open Cert.Algebra Idealize.ShloMosaic

/-! ### Entrywise operations -/

/-- The entrywise sum of two real arrays is real. -/
theorem allReal_addf {s : Shape} {φ : FTy} {x y : FVec Ideal s φ} (hx : AllReal x) (hy : AllReal y) :
    AllReal (addf (F := Ideal) x y) := by
  intro i
  show IsReal (x i + y i)
  exact (hx i).add (hy i)

/-- The entrywise maximum of two real arrays is real. -/
theorem allReal_maximumf {s : Shape} {φ : FTy} {x y : FVec Ideal s φ} (hx : AllReal x) (hy : AllReal y) :
    AllReal (maximumf (F := Ideal) x y) := by
  intro i
  show IsReal (max (x i) (y i))
  exact (hx i).max (hy i)

/-- The entrywise quotient of a real array by a real array whose entries are at least one is real. -/
theorem allReal_divf {s : Shape} {φ : FTy} {x y : FVec Ideal s φ} (hx : AllReal x) (hy : AllReal y)
    (h1 : ∀ i, (1 : EReal) ≤ y i) : AllReal (Host.divf (F := Ideal) x y) := by
  intro i
  show IsReal (Ideal.div (x i) (y i))
  exact (hx i).div_of_one_le (hy i) (h1 i)

/-! ### Constants -/

/-- The pattern `0x3F800000` has sign 0, exponent field 127 (the bias) and significand field 0: it
    denotes `(2²³ + 0) · 2^(127 - 127 - 23) = 1`. -/
theorem ofBits_one_f32 : Ideal.ofBits .f32 0x3F800000#32 = 1 := by
  simp [Ideal.ofBits, Ideal.ieee, -EReal.coe_mul]
  norm_num

/-- The splat of the pattern of `+0.0` is the array of zeros: real. -/
theorem allReal_constant_zero {s : Shape} : AllReal (constant (F := Ideal) s .f32 0x00000000#32) := by
  intro i
  show IsReal (Ideal.ofBits .f32 0x00000000#32)
  rw [Ideal.ofBits_zero_f32]
  exact isReal_zero

/-- The splat of the pattern of `1.0` is the array of ones: real. -/
theorem allReal_constant_one {s : Shape} : AllReal (constant (F := Ideal) s .f32 0x3F800000#32) := by
  intro i
  show IsReal (Ideal.ofBits .f32 0x3F800000#32)
  rw [ofBits_one_f32]
  exact isReal_one

/-- Every entry of the splat of the pattern of `1.0` is at least one. -/
theorem oneLe_constant_one {s : Shape} : ∀ i, (1 : EReal) ≤ constant (F := Ideal) s .f32 0x3F800000#32 i := by
  intro i
  show (1 : EReal) ≤ Ideal.ofBits .f32 0x3F800000#32
  rw [ofBits_one_f32]

/-! ### Contractions -/

/-- A contraction of two real arrays is real: each entry is a finite sum of products of entries. -/
theorem allReal_dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  show IsReal (FloatOps.dotGeneral d prec .single l r j)
  -- the entry is the sum over the contracted index of the products of the paired entries
  rw [Ideal.dotGeneral_apply]
  exact isReal_sum _ _ fun k _ => (hl _).mul (hr _)

/-- A scatter-add of real updates into a real array is real: each entry is the operand's plus a finite sum
    of update entries. -/
theorem allReal_scatterAdd {s si u : Shape} {φ : FTy} {w : Nat} {d : ScatterDims s si u} {x : FVec Ideal s φ}
    {idx : IVec si w} {upd : FVec Ideal u φ} (hx : AllReal x) (hu : AllReal upd) :
    AllReal (Host.scatterAdd (F := Ideal) d x idx upd) := by
  intro i
  -- the entry is the operand's plus the sum of the updates that land on it
  show IsReal (x i + ∑ j ∈ Finset.univ.filter (fun j => d.resultIdx? j idx = some i), upd j)
  exact (hx i).add (isReal_sum _ _ fun j _ => hu j)

/-! ### Layout operations: each entry of the result is an entry of an operand -/

/-- A broadcast of a real array is real: each entry reads one entry of the operand. -/
theorem allReal_broadcastInDim {s t : Shape} {dims : Fin s.rank → Fin t.rank} {h : s.BroadcastsInDim t dims}
    {x : s.Idx → EReal} (hx : AllReal x) : AllReal (broadcastInDim t dims h x) :=
  fun _ => hx _

/-- A reshape of a real array is real: the same entries in row-major order. -/
theorem allReal_shapeCast {s t : Shape} {x : s.Idx → EReal} {h : s.ShapeCasts t} (hx : AllReal x) :
    AllReal (shapeCast t x h) :=
  fun _ => hx _

/-- A slice of a real array is real: a block of its entries. -/
theorem allReal_extractStridedSlice {s t : Shape} {off : Fin s.rank → Nat} {x : s.Idx → EReal} {h : s.Slices off t}
    (hx : AllReal x) : AllReal (extractStridedSlice t off x h) :=
  fun _ => hx _

/-- A gather from a real array is real: each entry is the operand's at the index the gather computes. -/
theorem allReal_gather {s si t : Shape} {w : Nat} {d : GatherDims s si t} {x : s.Idx → EReal} {idx : IVec si w}
    (hx : AllReal x) : AllReal (Host.gather d x idx) :=
  fun _ => hx _

/-- A concatenation of real arrays along an axis is real: the entry at `j` is an entry of the piece that
    `j`'s coordinate on the axis falls in. -/
theorem allReal_concatenate {t : Shape} {a : Fin t.rank} {xs : List ((s : Shape) × (s.Idx → EReal))}
    {h : Shape.Concatenates (xs.map (·.1)) t a} (hxs : ∀ p ∈ xs, AllReal p.2) :
    AllReal (concatenate t a xs h) := by
  intro j
  unfold concatenate
  exact hxs _ (List.getElem_mem _) _

/-- The concatenation of two real arrays along an axis is real. -/
theorem allReal_concatenate2 {t s1 s2 : Shape} {a : Fin t.rank} {x1 : s1.Idx → EReal} {x2 : s2.Idx → EReal}
    {h : Shape.Concatenates [s1, s2] t a}
    (h1 : AllReal x1) (h2 : AllReal x2) :
    AllReal (concatenate t a [⟨s1, x1⟩, ⟨s2, x2⟩] h) := by
  refine allReal_concatenate (xs := [⟨s1, x1⟩, ⟨s2, x2⟩]) (h := h) fun p hp => ?_
  simp only [List.mem_cons, List.not_mem_nil, or_false] at hp
  rcases hp with rfl | rfl
  · exact h1
  · exact h2

/-! ### The bound "at least one" -/

/-- A broadcast of an array whose entries are at least one has entries at least one. -/
theorem oneLe_broadcastInDim {s t : Shape} {dims : Fin s.rank → Fin t.rank} {h : s.BroadcastsInDim t dims}
    {x : s.Idx → EReal} (h1 : ∀ i, (1 : EReal) ≤ x i) : ∀ j, (1 : EReal) ≤ broadcastInDim t dims h x j :=
  fun _ => h1 _

/-- The entrywise maximum with an array whose entries are at least one has entries at least one. -/
theorem oneLe_maximumf_right {s : Shape} {φ : FTy} {x y : FVec Ideal s φ} (h1 : ∀ i, (1 : EReal) ≤ y i) :
    ∀ i, (1 : EReal) ≤ maximumf (F := Ideal) x y i := by
  intro i
  show (1 : EReal) ≤ max (x i) (y i)
  exact le_max_of_le_right (h1 i)

end Cert.OpsFinite

end
-- ==== Proof.RefFinite.lean ====
/- Every entry of the reference's node features is a real number when every entry of the float arguments is: one line per stage,
   the operation's closure lemma applied to the operands' facts; and the in-degree counts the means divide by are at least one. -/
import proofs.«138545_j63058709840619_2_alg».proof.Proof.RefReadP
import proofs.«138545_j63058709840619_2_alg».proof.Proof.OpsFinite

noncomputable section

namespace Cert.RefFinite

open Cert.ReferenceIdeal Cert.ReferenceIdeal.Read Cert.Algebra Cert.OpsFinite Idealize.ShloMosaic

theorem fin_main_v0 (x0 : (⟨S50000x768, .f32⟩ : BufTy).Contents (Elt Ideal)) (x3 : (⟨S768x150, .f32⟩ : BufTy).Contents (Elt Ideal)) (h0 : AllReal x0) (h3 : AllReal x3) : AllReal (val_main_v0 (F := Ideal) x0 x3) := by
  unfold val_main_v0
  exact allReal_dotGeneral h0 h3
theorem fin_main_v1 (x4 : (⟨S150, .f32⟩ : BufTy).Contents (Elt Ideal)) (h4 : AllReal x4) : AllReal (val_main_v1 (F := Ideal) x4) := by
  unfold val_main_v1
  exact allReal_broadcastInDim h4
theorem fin_main_v2 (x4 : (⟨S150, .f32⟩ : BufTy).Contents (Elt Ideal)) (h4 : AllReal x4) : AllReal (val_main_v2 (F := Ideal) x4) := by
  unfold val_main_v2
  exact allReal_broadcastInDim (fin_main_v1 x4 h4)
theorem fin_main_v3 (x0 : (⟨S50000x768, .f32⟩ : BufTy).Contents (Elt Ideal)) (x3 : (⟨S768x150, .f32⟩ : BufTy).Contents (Elt Ideal)) (x4 : (⟨S150, .f32⟩ : BufTy).Contents (Elt Ideal)) (h0 : AllReal x0) (h3 : AllReal x3) (h4 : AllReal x4) : AllReal (val_main_v3 (F := Ideal) x0 x3 x4) := by
  unfold val_main_v3
  exact allReal_addf (fin_main_v0 x0 x3 h0 h3) (fin_main_v2 x4 h4)
theorem fin_main_v4 (x1 : (⟨S2000x768, .f32⟩ : BufTy).Contents (Elt Ideal)) (x5 : (⟨S768x150, .f32⟩ : BufTy).Contents (Elt Ideal)) (h1 : AllReal x1) (h5 : AllReal x5) : AllReal (val_main_v4 (F := Ideal) x1 x5) := by
  unfold val_main_v4
  exact allReal_dotGeneral h1 h5
theorem fin_main_v5 (x6 : (⟨S150, .f32⟩ : BufTy).Contents (Elt Ideal)) (h6 : AllReal x6) : AllReal (val_main_v5 (F := Ideal) x6) := by
  unfold val_main_v5
  exact allReal_broadcastInDim h6
theorem fin_main_v6 (x6 : (⟨S150, .f32⟩ : BufTy).Contents (Elt Ideal)) (h6 : AllReal x6) : AllReal (val_main_v6 (F := Ideal) x6) := by
  unfold val_main_v6
  exact allReal_broadcastInDim (fin_main_v5 x6 h6)
theorem fin_main_v7 (x1 : (⟨S2000x768, .f32⟩ : BufTy).Contents (Elt Ideal)) (x5 : (⟨S768x150, .f32⟩ : BufTy).Contents (Elt Ideal)) (x6 : (⟨S150, .f32⟩ : BufTy).Contents (Elt Ideal)) (h1 : AllReal x1) (h5 : AllReal x5) (h6 : AllReal x6) : AllReal (val_main_v7 (F := Ideal) x1 x5 x6) := by
  unfold val_main_v7
  exact allReal_addf (fin_main_v4 x1 x5 h1 h5) (fin_main_v6 x6 h6)
theorem fin_main_v8 (x2 : (⟨S20000x1024, .f32⟩ : BufTy).Contents (Elt Ideal)) (x7 : (⟨S1024x150, .f32⟩ : BufTy).Contents (Elt Ideal)) (h2 : AllReal x2) (h7 : AllReal x7) : AllReal (val_main_v8 (F := Ideal) x2 x7) := by
  unfold val_main_v8
  exact allReal_dotGeneral h2 h7
theorem fin_main_v9 (x8 : (⟨S150, .f32⟩ : BufTy).Contents (Elt Ideal)) (h8 : AllReal x8) : AllReal (val_main_v9 (F := Ideal) x8) := by
  unfold val_main_v9
  exact allReal_broadcastInDim h8
theorem fin_main_v10 (x8 : (⟨S150, .f32⟩ : BufTy).Contents (Elt Ideal)) (h8 : AllReal x8) : AllReal (val_main_v10 (F := Ideal) x8) := by
  unfold val_main_v10
  exact allReal_broadcastInDim (fin_main_v9 x8 h8)
theorem fin_main_v11 (x2 : (⟨S20000x1024, .f32⟩ : BufTy).Contents (Elt Ideal)) (x7 : (⟨S1024x150, .f32⟩ : BufTy).Contents (Elt Ideal)) (x8 : (⟨S150, .f32⟩ : BufTy).Contents (Elt Ideal)) (h2 : AllReal x2) (h7 : AllReal x7) (h8 : AllReal x8) : AllReal (val_main_v11 (F := Ideal) x2 x7 x8) := by
  unfold val_main_v11
  exact allReal_addf (fin_main_v8 x2 x7 h2 h7) (fin_main_v10 x8 h8)
theorem fin_main_v22 (x2 : (⟨S20000x1024, .f32⟩ : BufTy).Contents (Elt Ideal)) (x7 : (⟨S1024x150, .f32⟩ : BufTy).Contents (Elt Ideal)) (x8 : (⟨S150, .f32⟩ : BufTy).Contents (Elt Ideal)) (x24 : (⟨S2x500000, .i32⟩ : BufTy).Contents (Elt Ideal)) (h2 : AllReal x2) (h7 : AllReal x7) (h8 : AllReal x8) : AllReal (val_main_v22 (F := Ideal) x2 x7 x8 x24) := by
  unfold val_main_v22
  exact allReal_gather (fin_main_v11 x2 x7 x8 h2 h7 h8)
theorem fin_main_cst : AllReal (val_main_cst (F := Ideal)) := by
  unfold val_main_cst
  exact allReal_constant_zero
theorem fin_main_v23 : AllReal (val_main_v23 (F := Ideal)) := by
  unfold val_main_v23
  exact allReal_broadcastInDim (fin_main_cst)
theorem fin_main_v25 (x2 : (⟨S20000x1024, .f32⟩ : BufTy).Contents (Elt Ideal)) (x7 : (⟨S1024x150, .f32⟩ : BufTy).Contents (Elt Ideal)) (x8 : (⟨S150, .f32⟩ : BufTy).Contents (Elt Ideal)) (x24 : (⟨S2x500000, .i32⟩ : BufTy).Contents (Elt Ideal)) (h2 : AllReal x2) (h7 : AllReal x7) (h8 : AllReal x8) : AllReal (val_main_v25 (F := Ideal) x2 x7 x8 x24) := by
  unfold val_main_v25
  exact allReal_scatterAdd (fin_main_v23) (fin_main_v22 x2 x7 x8 x24 h2 h7 h8)
theorem fin_main_cst_1 : AllReal (val_main_cst_1 (F := Ideal)) := by
  unfold val_main_cst_1
  exact allReal_constant_one
theorem fin_main_v26 : AllReal (val_main_v26 (F := Ideal)) := by
  unfold val_main_v26
  exact allReal_broadcastInDim (fin_main_cst_1)
theorem fin_main_cst_2 : AllReal (val_main_cst_2 (F := Ideal)) := by
  unfold val_main_cst_2
  exact allReal_constant_zero
theorem fin_main_v27 : AllReal (val_main_v27 (F := Ideal)) := by
  unfold val_main_v27
  exact allReal_broadcastInDim (fin_main_cst_2)
theorem fin_main_v29 (x24 : (⟨S2x500000, .i32⟩ : BufTy).Contents (Elt Ideal)) : AllReal (val_main_v29 (F := Ideal) x24) := by
  unfold val_main_v29
  exact allReal_scatterAdd (fin_main_v27) (fin_main_v26)
theorem oneLe_main_cst_3 : ∀ i, (1 : EReal) ≤ val_main_cst_3 (F := Ideal)  i := by
  unfold val_main_cst_3
  exact oneLe_constant_one
theorem fin_main_cst_3 : AllReal (val_main_cst_3 (F := Ideal)) := by
  unfold val_main_cst_3
  exact allReal_constant_one
theorem oneLe_main_v30 : ∀ i, (1 : EReal) ≤ val_main_v30 (F := Ideal)  i := by
  unfold val_main_v30
  exact oneLe_broadcastInDim (oneLe_main_cst_3)
theorem fin_main_v30 : AllReal (val_main_v30 (F := Ideal)) := by
  unfold val_main_v30
  exact allReal_broadcastInDim (fin_main_cst_3)
theorem oneLe_main_v31 (x24 : (⟨S2x500000, .i32⟩ : BufTy).Contents (Elt Ideal)) : ∀ i, (1 : EReal) ≤ val_main_v31 (F := Ideal) x24 i := by
  unfold val_main_v31
  exact oneLe_maximumf_right (oneLe_main_v30)
theorem fin_main_v31 (x24 : (⟨S2x500000, .i32⟩ : BufTy).Contents (Elt Ideal)) : AllReal (val_main_v31 (F := Ideal) x24) := by
  unfold val_main_v31
  exact allReal_maximumf (fin_main_v29 x24) (fin_main_v30)
theorem oneLe_main_v32 (x24 : (⟨S2x500000, .i32⟩ : BufTy).Contents (Elt Ideal)) : ∀ i, (1 : EReal) ≤ val_main_v32 (F := Ideal) x24 i := by
  unfold val_main_v32
  exact oneLe_broadcastInDim (oneLe_main_v31 x24)
theorem fin_main_v32 (x24 : (⟨S2x500000, .i32⟩ : BufTy).Contents (Elt Ideal)) : AllReal (val_main_v32 (F := Ideal) x24) := by
  unfold val_main_v32
  exact allReal_broadcastInDim (fin_main_v31 x24)
theorem oneLe_main_v33 (x24 : (⟨S2x500000, .i32⟩ : BufTy).Contents (Elt Ideal)) : ∀ i, (1 : EReal) ≤ val_main_v33 (F := Ideal) x24 i := by
  unfold val_main_v33
  exact oneLe_broadcastInDim (oneLe_main_v32 x24)
theorem fin_main_v33 (x24 : (⟨S2x500000, .i32⟩ : BufTy).Contents (Elt Ideal)) : AllReal (val_main_v33 (F := Ideal) x24) := by
  unfold val_main_v33
  exact allReal_broadcastInDim (fin_main_v32 x24)
theorem fin_main_v34 (x2 : (⟨S20000x1024, .f32⟩ : BufTy).Contents (Elt Ideal)) (x7 : (⟨S1024x150, .f32⟩ : BufTy).Contents (Elt Ideal)) (x8 : (⟨S150, .f32⟩ : BufTy).Contents (Elt Ideal)) (x24 : (⟨S2x500000, .i32⟩ : BufTy).Contents (Elt Ideal)) (h2 : AllReal x2) (h7 : AllReal x7) (h8 : AllReal x8) : AllReal (val_main_v34 (F := Ideal) x2 x7 x8 x24) := by
  unfold val_main_v34
  exact allReal_divf (fin_main_v25 x2 x7 x8 x24 h2 h7 h8) (fin_main_v33 x24) (oneLe_main_v33 x24)
theorem fin_main_v35 (x9 : (⟨S3x6x150x150, .f32⟩ : BufTy).Contents (Elt Ideal)) (h9 : AllReal x9) : AllReal (val_main_v35 (F := Ideal) x9) := by
  unfold val_main_v35
  exact allReal_extractStridedSlice h9
theorem fin_main_v36 (x9 : (⟨S3x6x150x150, .f32⟩ : BufTy).Contents (Elt Ideal)) (h9 : AllReal x9) : AllReal (val_main_v36 (F := Ideal) x9) := by
  unfold val_main_v36
  exact allReal_shapeCast (fin_main_v35 x9 h9)
theorem fin_main_v37 (x2 : (⟨S20000x1024, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x24 : (⟨S2x500000, .i32⟩ : BufTy).Contents (Elt Ideal)) (h2 : AllReal x2) (h7 : AllReal x7) (h8 : AllReal x8) (h9 : AllReal x9) : AllReal (val_main_v37 (F := Ideal) x2 x7 x8 x9 x24) := by
  unfold val_main_v37
  exact allReal_dotGeneral (fin_main_v34 x2 x7 x8 x24 h2 h7 h8) (fin_main_v36 x9 h9)
theorem fin_main_v38 (x10 : (⟨S3x6x150, .f32⟩ : BufTy).Contents (Elt Ideal)) (h10 : AllReal x10) : AllReal (val_main_v38 (F := Ideal) x10) := by
  unfold val_main_v38
  exact allReal_extractStridedSlice h10
theorem fin_main_v39 (x10 : (⟨S3x6x150, .f32⟩ : BufTy).Contents (Elt Ideal)) (h10 : AllReal x10) : AllReal (val_main_v39 (F := Ideal) x10) := by
  unfold val_main_v39
  exact allReal_shapeCast (fin_main_v38 x10 h10)
theorem fin_main_v40 (x10 : (⟨S3x6x150, .f32⟩ : BufTy).Contents (Elt Ideal)) (h10 : AllReal x10) : AllReal (val_main_v40 (F := Ideal) x10) := by
  unfold val_main_v40
  exact allReal_broadcastInDim (fin_main_v39 x10 h10)
theorem fin_main_v41 (x10 : (⟨S3x6x150, .f32⟩ : BufTy).Contents (Elt Ideal)) (h10 : AllReal x10) : AllReal (val_main_v41 (F := Ideal) x10) := by
  unfold val_main_v41
  exact allReal_broadcastInDim (fin_main_v40 x10 h10)
theorem fin_main_v42 (x2 : (⟨S20000x1024, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x24 : (⟨S2x500000, .i32⟩ : BufTy).Contents (Elt Ideal)) (h2 : AllReal x2) (h7 : AllReal x7) (h8 : AllReal x8) (h9 : AllReal x9) (h10 : AllReal x10) : AllReal (val_main_v42 (F := Ideal) x2 x7 x8 x9 x10 x24) := by
  unfold val_main_v42
  exact allReal_addf (fin_main_v37 x2 x7 x8 x9 x24 h2 h7 h8 h9) (fin_main_v41 x10 h10)
theorem fin_main_v43 (x11 : (⟨S3x6x150x150, .f32⟩ : BufTy).Contents (Elt Ideal)) (h11 : AllReal x11) : AllReal (val_main_v43 (F := Ideal) x11) := by
  unfold val_main_v43
  exact allReal_extractStridedSlice h11
theorem fin_main_v44 (x11 : (⟨S3x6x150x150, .f32⟩ : BufTy).Contents (Elt Ideal)) (h11 : AllReal x11) : AllReal (val_main_v44 (F := Ideal) x11) := by
  unfold val_main_v44
  exact allReal_shapeCast (fin_main_v43 x11 h11)
theorem fin_main_v45 (x0 : (⟨S50000x768, .f32⟩ : BufTy).Contents (Elt Ideal)) (x3 : (⟨S768x150, .f32⟩ : BufTy).Contents (Elt Ideal)) (x4 : (⟨S150, .f32⟩ : BufTy).Contents (Elt Ideal)) (x11 : (⟨S3x6x150x150, .f32⟩ : BufTy).Contents (Elt Ideal)) (h0 : AllReal x0) (h3 : AllReal x3) (h4 : AllReal x4) (h11 : AllReal x11) : AllReal (val_main_v45 (F := Ideal) x0 x3 x4 x11) := by
  unfold val_main_v45
  exact allReal_dotGeneral (fin_main_v3 x0 x3 x4 h0 h3 h4) (fin_main_v44 x11 h11)
theorem fin_main_v46 (x0 : (⟨S50000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (h0 : AllReal x0) (h2 : AllReal x2) (h3 : AllReal x3) (h4 : AllReal x4) (h7 : AllReal x7) (h8 : AllReal x8) (h9 : AllReal x9) (h10 : AllReal x10) (h11 : AllReal x11) : AllReal (val_main_v46 (F := Ideal) x0 x2 x3 x4 x7 x8 x9 x10 x11 x24) := by
  unfold val_main_v46
  exact allReal_addf (fin_main_v42 x2 x7 x8 x9 x10 x24 h2 h7 h8 h9 h10) (fin_main_v45 x0 x3 x4 x11 h0 h3 h4 h11)
theorem fin_main_v57 (x1 : (⟨S2000x768, .f32⟩ : BufTy).Contents (Elt Ideal)) (x5 : (⟨S768x150, .f32⟩ : BufTy).Contents (Elt Ideal)) (x6 : (⟨S150, .f32⟩ : BufTy).Contents (Elt Ideal)) (x25 : (⟨S2x200000, .i32⟩ : BufTy).Contents (Elt Ideal)) (h1 : AllReal x1) (h5 : AllReal x5) (h6 : AllReal x6) : AllReal (val_main_v57 (F := Ideal) x1 x5 x6 x25) := by
  unfold val_main_v57
  exact allReal_gather (fin_main_v7 x1 x5 x6 h1 h5 h6)
theorem fin_main_cst_6 : AllReal (val_main_cst_6 (F := Ideal)) := by
  unfold val_main_cst_6
  exact allReal_constant_zero
theorem fin_main_v58 : AllReal (val_main_v58 (F := Ideal)) := by
  unfold val_main_v58
  exact allReal_broadcastInDim (fin_main_cst_6)
theorem fin_main_v60 (x1 : (⟨S2000x768, .f32⟩ : BufTy).Contents (Elt Ideal)) (x5 : (⟨S768x150, .f32⟩ : BufTy).Contents (Elt Ideal)) (x6 : (⟨S150, .f32⟩ : BufTy).Contents (Elt Ideal)) (x25 : (⟨S2x200000, .i32⟩ : BufTy).Contents (Elt Ideal)) (h1 : AllReal x1) (h5 : AllReal x5) (h6 : AllReal x6) : AllReal (val_main_v60 (F := Ideal) x1 x5 x6 x25) := by
  unfold val_main_v60
  exact allReal_scatterAdd (fin_main_v58) (fin_main_v57 x1 x5 x6 x25 h1 h5 h6)
theorem fin_main_cst_7 : AllReal (val_main_cst_7 (F := Ideal)) := by
  unfold val_main_cst_7
  exact allReal_constant_one
theorem fin_main_v61 : AllReal (val_main_v61 (F := Ideal)) := by
  unfold val_main_v61
  exact allReal_broadcastInDim (fin_main_cst_7)
theorem fin_main_cst_8 : AllReal (val_main_cst_8 (F := Ideal)) := by
  unfold val_main_cst_8
  exact allReal_constant_zero
theorem fin_main_v62 : AllReal (val_main_v62 (F := Ideal)) := by
  unfold val_main_v62
  exact allReal_broadcastInDim (fin_main_cst_8)
theorem fin_main_v64 (x25 : (⟨S2x200000, .i32⟩ : BufTy).Contents (Elt Ideal)) : AllReal (val_main_v64 (F := Ideal) x25) := by
  unfold val_main_v64
  exact allReal_scatterAdd (fin_main_v62) (fin_main_v61)
theorem oneLe_main_cst_9 : ∀ i, (1 : EReal) ≤ val_main_cst_9 (F := Ideal)  i := by
  unfold val_main_cst_9
  exact oneLe_constant_one
theorem fin_main_cst_9 : AllReal (val_main_cst_9 (F := Ideal)) := by
  unfold val_main_cst_9
  exact allReal_constant_one
theorem oneLe_main_v65 : ∀ i, (1 : EReal) ≤ val_main_v65 (F := Ideal)  i := by
  unfold val_main_v65
  exact oneLe_broadcastInDim (oneLe_main_cst_9)
theorem fin_main_v65 : AllReal (val_main_v65 (F := Ideal)) := by
  unfold val_main_v65
  exact allReal_broadcastInDim (fin_main_cst_9)
theorem oneLe_main_v66 (x25 : (⟨S2x200000, .i32⟩ : BufTy).Contents (Elt Ideal)) : ∀ i, (1 : EReal) ≤ val_main_v66 (F := Ideal) x25 i := by
  unfold val_main_v66
  exact oneLe_maximumf_right (oneLe_main_v65)
theorem fin_main_v66 (x25 : (⟨S2x200000, .i32⟩ : BufTy).Contents (Elt Ideal)) : AllReal (val_main_v66 (F := Ideal) x25) := by
  unfold val_main_v66
  exact allReal_maximumf (fin_main_v64 x25) (fin_main_v65)
theorem oneLe_main_v67 (x25 : (⟨S2x200000, .i32⟩ : BufTy).Contents (Elt Ideal)) : ∀ i, (1 : EReal) ≤ val_main_v67 (F := Ideal) x25 i := by
  unfold val_main_v67
  exact oneLe_broadcastInDim (oneLe_main_v66 x25)
theorem fin_main_v67 (x25 : (⟨S2x200000, .i32⟩ : BufTy).Contents (Elt Ideal)) : AllReal (val_main_v67 (F := Ideal) x25) := by
  unfold val_main_v67
  exact allReal_broadcastInDim (fin_main_v66 x25)
theorem oneLe_main_v68 (x25 : (⟨S2x200000, .i32⟩ : BufTy).Contents (Elt Ideal)) : ∀ i, (1 : EReal) ≤ val_main_v68 (F := Ideal) x25 i := by
  unfold val_main_v68
  exact oneLe_broadcastInDim (oneLe_main_v67 x25)
theorem fin_main_v68 (x25 : (⟨S2x200000, .i32⟩ : BufTy).Contents (Elt Ideal)) : AllReal (val_main_v68 (F := Ideal) x25) := by
  unfold val_main_v68
  exact allReal_broadcastInDim (fin_main_v67 x25)
theorem fin_main_v69 (x1 : (⟨S2000x768, .f32⟩ : BufTy).Contents (Elt Ideal)) (x5 : (⟨S768x150, .f32⟩ : BufTy).Contents (Elt Ideal)) (x6 : (⟨S150, .f32⟩ : BufTy).Contents (Elt Ideal)) (x25 : (⟨S2x200000, .i32⟩ : BufTy).Contents (Elt Ideal)) (h1 : AllReal x1) (h5 : AllReal x5) (h6 : AllReal x6) : AllReal (val_main_v69 (F := Ideal) x1 x5 x6 x25) := by
  unfold val_main_v69
  exact allReal_divf (fin_main_v60 x1 x5 x6 x25 h1 h5 h6) (fin_main_v68 x25) (oneLe_main_v68 x25)
theorem fin_main_v70 (x9 : (⟨S3x6x150x150, .f32⟩ : BufTy).Contents (Elt Ideal)) (h9 : AllReal x9) : AllReal (val_main_v70 (F := Ideal) x9) := by
  unfold val_main_v70
  exact allReal_extractStridedSlice h9
theorem fin_main_v71 (x9 : (⟨S3x6x150x150, .f32⟩ : BufTy).Contents (Elt Ideal)) (h9 : AllReal x9) : AllReal (val_main_v71 (F := Ideal) x9) := by
  unfold val_main_v71
  exact allReal_shapeCast (fin_main_v70 x9 h9)
theorem fin_main_v72 (x1 : (⟨S2000x768, .f32⟩ : BufTy).Contents (Elt Ideal)) (x5 : (⟨S768x150, .f32⟩ : BufTy).Contents (Elt Ideal)) (x6 : (⟨S150, .f32⟩ : BufTy).Contents (Elt Ideal)) (x9 : (⟨S3x6x150x150, .f32⟩ : BufTy).Contents (Elt Ideal)) (x25 : (⟨S2x200000, .i32⟩ : BufTy).Contents (Elt Ideal)) (h1 : AllReal x1) (h5 : AllReal x5) (h6 : AllReal x6) (h9 : AllReal x9) : AllReal (val_main_v72 (F := Ideal) x1 x5 x6 x9 x25) := by
  unfold val_main_v72
  exact allReal_dotGeneral (fin_main_v69 x1 x5 x6 x25 h1 h5 h6) (fin_main_v71 x9 h9)
theorem fin_main_v73 (x10 : (⟨S3x6x150, .f32⟩ : BufTy).Contents (Elt Ideal)) (h10 : AllReal x10) : AllReal (val_main_v73 (F := Ideal) x10) := by
  unfold val_main_v73
  exact allReal_extractStridedSlice h10
theorem fin_main_v74 (x10 : (⟨S3x6x150, .f32⟩ : BufTy).Contents (Elt Ideal)) (h10 : AllReal x10) : AllReal (val_main_v74 (F := Ideal) x10) := by
  unfold val_main_v74
  exact allReal_shapeCast (fin_main_v73 x10 h10)
theorem fin_main_v75 (x10 : (⟨S3x6x150, .f32⟩ : BufTy).Contents (Elt Ideal)) (h10 : AllReal x10) : AllReal (val_main_v75 (F := Ideal) x10) := by
  unfold val_main_v75
  exact allReal_broadcastInDim (fin_main_v74 x10 h10)
theorem fin_main_v76 (x10 : (⟨S3x6x150, .f32⟩ : BufTy).Contents (Elt Ideal)) (h10 : AllReal x10) : AllReal (val_main_v76 (F := Ideal) x10) := by
  unfold val_main_v76
  exact allReal_broadcastInDim (fin_main_v75 x10 h10)
theorem fin_main_v77 (x1 : (⟨S2000x768, .f32⟩ : BufTy).Contents (Elt Ideal)) (x5 : (⟨S768x150, .f32⟩ : BufTy).Contents (Elt Ideal)) (x6 : (⟨S150, .f32⟩ : BufTy).Contents (Elt Ideal)) (x9 : (⟨S3x6x150x150, .f32⟩ : BufTy).Contents (Elt Ideal)) (x10 : (⟨S3x6x150, .f32⟩ : BufTy).Contents (Elt Ideal)) (x25 : (⟨S2x200000, .i32⟩ : BufTy).Contents (Elt Ideal)) (h1 : AllReal x1) (h5 : AllReal x5) (h6 : AllReal x6) (h9 : AllReal x9) (h10 : AllReal x10) : AllReal (val_main_v77 (F := Ideal) x1 x5 x6 x9 x10 x25) := by
  unfold val_main_v77
  exact allReal_addf (fin_main_v72 x1 x5 x6 x9 x25 h1 h5 h6 h9) (fin_main_v76 x10 h10)
theorem fin_main_v78 (x11 : (⟨S3x6x150x150, .f32⟩ : BufTy).Contents (Elt Ideal)) (h11 : AllReal x11) : AllReal (val_main_v78 (F := Ideal) x11) := by
  unfold val_main_v78
  exact allReal_extractStridedSlice h11
theorem fin_main_v79 (x11 : (⟨S3x6x150x150, .f32⟩ : BufTy).Contents (Elt Ideal)) (h11 : AllReal x11) : AllReal (val_main_v79 (F := Ideal) x11) := by
  unfold val_main_v79
  exact allReal_shapeCast (fin_main_v78 x11 h11)
theorem fin_main_v80 (x0 : (⟨S50000x768, .f32⟩ : BufTy).Contents (Elt Ideal)) (x3 : (⟨S768x150, .f32⟩ : BufTy).Contents (Elt Ideal)) (x4 : (⟨S150, .f32⟩ : BufTy).Contents (Elt Ideal)) (x11 : (⟨S3x6x150x150, .f32⟩ : BufTy).Contents (Elt Ideal)) (h0 : AllReal x0) (h3 : AllReal x3) (h4 : AllReal x4) (h11 : AllReal x11) : AllReal (val_main_v80 (F := Ideal) x0 x3 x4 x11) := by
  unfold val_main_v80
  exact allReal_dotGeneral (fin_main_v3 x0 x3 x4 h0 h3 h4) (fin_main_v79 x11 h11)
theorem fin_main_v81 (x0 : (⟨S50000x768, .f32⟩ : BufTy).Contents (Elt Ideal)) (x1 : (⟨S2000x768, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x25 : (⟨S2x200000, .i32⟩ : BufTy).Contents (Elt Ideal)) (h0 : AllReal x0) (h1 : AllReal x1) (h3 : AllReal x3) (h4 : AllReal x4) (h5 : AllReal x5) (h6 : AllReal x6) (h9 : AllReal x9) (h10 : AllReal x10) (h11 : AllReal x11) : AllReal (val_main_v81 (F := Ideal) x0 x1 x3 x4 x5 x6 x9 x10 x11 x25) := by
  unfold val_main_v81
  exact allReal_addf (fin_main_v77 x1 x5 x6 x9 x10 x25 h1 h5 h6 h9 h10) (fin_main_v80 x0 x3 x4 x11 h0 h3 h4 h11)
theorem fin_main_v82 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v82 (F := Ideal) x0 x1 x2 x3 x4 x5 x6 x7 x8 x9 x10 x11 x24 x25) := by
  unfold val_main_v82
  exact allReal_addf (fin_main_v46 x0 x2 x3 x4 x7 x8 x9 x10 x11 x24 h0 h2 h3 h4 h7 h8 h9 h10 h11) (fin_main_v81 x0 x1 x3 x4 x5 x6 x9 x10 x11 x25 h0 h1 h3 h4 h5 h6 h9 h10 h11)
theorem fin_main_v93 (x0 : (⟨S50000x768, .f32⟩ : BufTy).Contents (Elt Ideal)) (x3 : (⟨S768x150, .f32⟩ : BufTy).Contents (Elt Ideal)) (x4 : (⟨S150, .f32⟩ : BufTy).Contents (Elt Ideal)) (x25 : (⟨S2x200000, .i32⟩ : BufTy).Contents (Elt Ideal)) (h0 : AllReal x0) (h3 : AllReal x3) (h4 : AllReal x4) : AllReal (val_main_v93 (F := Ideal) x0 x3 x4 x25) := by
  unfold val_main_v93
  exact allReal_gather (fin_main_v3 x0 x3 x4 h0 h3 h4)
theorem fin_main_cst_12 : AllReal (val_main_cst_12 (F := Ideal)) := by
  unfold val_main_cst_12
  exact allReal_constant_zero
theorem fin_main_v94 : AllReal (val_main_v94 (F := Ideal)) := by
  unfold val_main_v94
  exact allReal_broadcastInDim (fin_main_cst_12)
theorem fin_main_v96 (x0 : (⟨S50000x768, .f32⟩ : BufTy).Contents (Elt Ideal)) (x3 : (⟨S768x150, .f32⟩ : BufTy).Contents (Elt Ideal)) (x4 : (⟨S150, .f32⟩ : BufTy).Contents (Elt Ideal)) (x25 : (⟨S2x200000, .i32⟩ : BufTy).Contents (Elt Ideal)) (h0 : AllReal x0) (h3 : AllReal x3) (h4 : AllReal x4) : AllReal (val_main_v96 (F := Ideal) x0 x3 x4 x25) := by
  unfold val_main_v96
  exact allReal_scatterAdd (fin_main_v94) (fin_main_v93 x0 x3 x4 x25 h0 h3 h4)
theorem fin_main_cst_13 : AllReal (val_main_cst_13 (F := Ideal)) := by
  unfold val_main_cst_13
  exact allReal_constant_one
theorem fin_main_v97 : AllReal (val_main_v97 (F := Ideal)) := by
  unfold val_main_v97
  exact allReal_broadcastInDim (fin_main_cst_13)
theorem fin_main_cst_14 : AllReal (val_main_cst_14 (F := Ideal)) := by
  unfold val_main_cst_14
  exact allReal_constant_zero
theorem fin_main_v98 : AllReal (val_main_v98 (F := Ideal)) := by
  unfold val_main_v98
  exact allReal_broadcastInDim (fin_main_cst_14)
theorem fin_main_v100 (x25 : (⟨S2x200000, .i32⟩ : BufTy).Contents (Elt Ideal)) : AllReal (val_main_v100 (F := Ideal) x25) := by
  unfold val_main_v100
  exact allReal_scatterAdd (fin_main_v98) (fin_main_v97)
theorem oneLe_main_cst_15 : ∀ i, (1 : EReal) ≤ val_main_cst_15 (F := Ideal)  i := by
  unfold val_main_cst_15
  exact oneLe_constant_one
theorem fin_main_cst_15 : AllReal (val_main_cst_15 (F := Ideal)) := by
  unfold val_main_cst_15
  exact allReal_constant_one
theorem oneLe_main_v101 : ∀ i, (1 : EReal) ≤ val_main_v101 (F := Ideal)  i := by
  unfold val_main_v101
  exact oneLe_broadcastInDim (oneLe_main_cst_15)
theorem fin_main_v101 : AllReal (val_main_v101 (F := Ideal)) := by
  unfold val_main_v101
  exact allReal_broadcastInDim (fin_main_cst_15)
theorem oneLe_main_v102 (x25 : (⟨S2x200000, .i32⟩ : BufTy).Contents (Elt Ideal)) : ∀ i, (1 : EReal) ≤ val_main_v102 (F := Ideal) x25 i := by
  unfold val_main_v102
  exact oneLe_maximumf_right (oneLe_main_v101)
theorem fin_main_v102 (x25 : (⟨S2x200000, .i32⟩ : BufTy).Contents (Elt Ideal)) : AllReal (val_main_v102 (F := Ideal) x25) := by
  unfold val_main_v102
  exact allReal_maximumf (fin_main_v100 x25) (fin_main_v101)
theorem oneLe_main_v103 (x25 : (⟨S2x200000, .i32⟩ : BufTy).Contents (Elt Ideal)) : ∀ i, (1 : EReal) ≤ val_main_v103 (F := Ideal) x25 i := by
  unfold val_main_v103
  exact oneLe_broadcastInDim (oneLe_main_v102 x25)
theorem fin_main_v103 (x25 : (⟨S2x200000, .i32⟩ : BufTy).Contents (Elt Ideal)) : AllReal (val_main_v103 (F := Ideal) x25) := by
  unfold val_main_v103
  exact allReal_broadcastInDim (fin_main_v102 x25)
theorem oneLe_main_v104 (x25 : (⟨S2x200000, .i32⟩ : BufTy).Contents (Elt Ideal)) : ∀ i, (1 : EReal) ≤ val_main_v104 (F := Ideal) x25 i := by
  unfold val_main_v104
  exact oneLe_broadcastInDim (oneLe_main_v103 x25)
theorem fin_main_v104 (x25 : (⟨S2x200000, .i32⟩ : BufTy).Contents (Elt Ideal)) : AllReal (val_main_v104 (F := Ideal) x25) := by
  unfold val_main_v104
  exact allReal_broadcastInDim (fin_main_v103 x25)
theorem fin_main_v105 (x0 : (⟨S50000x768, .f32⟩ : BufTy).Contents (Elt Ideal)) (x3 : (⟨S768x150, .f32⟩ : BufTy).Contents (Elt Ideal)) (x4 : (⟨S150, .f32⟩ : BufTy).Contents (Elt Ideal)) (x25 : (⟨S2x200000, .i32⟩ : BufTy).Contents (Elt Ideal)) (h0 : AllReal x0) (h3 : AllReal x3) (h4 : AllReal x4) : AllReal (val_main_v105 (F := Ideal) x0 x3 x4 x25) := by
  unfold val_main_v105
  exact allReal_divf (fin_main_v96 x0 x3 x4 x25 h0 h3 h4) (fin_main_v104 x25) (oneLe_main_v104 x25)
theorem fin_main_v106 (x9 : (⟨S3x6x150x150, .f32⟩ : BufTy).Contents (Elt Ideal)) (h9 : AllReal x9) : AllReal (val_main_v106 (F := Ideal) x9) := by
  unfold val_main_v106
  exact allReal_extractStridedSlice h9
theorem fin_main_v107 (x9 : (⟨S3x6x150x150, .f32⟩ : BufTy).Contents (Elt Ideal)) (h9 : AllReal x9) : AllReal (val_main_v107 (F := Ideal) x9) := by
  unfold val_main_v107
  exact allReal_shapeCast (fin_main_v106 x9 h9)
theorem fin_main_v108 (x0 : (⟨S50000x768, .f32⟩ : BufTy).Contents (Elt Ideal)) (x3 : (⟨S768x150, .f32⟩ : BufTy).Contents (Elt Ideal)) (x4 : (⟨S150, .f32⟩ : BufTy).Contents (Elt Ideal)) (x9 : (⟨S3x6x150x150, .f32⟩ : BufTy).Contents (Elt Ideal)) (x25 : (⟨S2x200000, .i32⟩ : BufTy).Contents (Elt Ideal)) (h0 : AllReal x0) (h3 : AllReal x3) (h4 : AllReal x4) (h9 : AllReal x9) : AllReal (val_main_v108 (F := Ideal) x0 x3 x4 x9 x25) := by
  unfold val_main_v108
  exact allReal_dotGeneral (fin_main_v105 x0 x3 x4 x25 h0 h3 h4) (fin_main_v107 x9 h9)
theorem fin_main_v109 (x10 : (⟨S3x6x150, .f32⟩ : BufTy).Contents (Elt Ideal)) (h10 : AllReal x10) : AllReal (val_main_v109 (F := Ideal) x10) := by
  unfold val_main_v109
  exact allReal_extractStridedSlice h10
theorem fin_main_v110 (x10 : (⟨S3x6x150, .f32⟩ : BufTy).Contents (Elt Ideal)) (h10 : AllReal x10) : AllReal (val_main_v110 (F := Ideal) x10) := by
  unfold val_main_v110
  exact allReal_shapeCast (fin_main_v109 x10 h10)
theorem fin_main_v111 (x10 : (⟨S3x6x150, .f32⟩ : BufTy).Contents (Elt Ideal)) (h10 : AllReal x10) : AllReal (val_main_v111 (F := Ideal) x10) := by
  unfold val_main_v111
  exact allReal_broadcastInDim (fin_main_v110 x10 h10)
theorem fin_main_v112 (x10 : (⟨S3x6x150, .f32⟩ : BufTy).Contents (Elt Ideal)) (h10 : AllReal x10) : AllReal (val_main_v112 (F := Ideal) x10) := by
  unfold val_main_v112
  exact allReal_broadcastInDim (fin_main_v111 x10 h10)
theorem fin_main_v113 (x0 : (⟨S50000x768, .f32⟩ : BufTy).Contents (Elt Ideal)) (x3 : (⟨S768x150, .f32⟩ : BufTy).Contents (Elt Ideal)) (x4 : (⟨S150, .f32⟩ : BufTy).Contents (Elt Ideal)) (x9 : (⟨S3x6x150x150, .f32⟩ : BufTy).Contents (Elt Ideal)) (x10 : (⟨S3x6x150, .f32⟩ : BufTy).Contents (Elt Ideal)) (x25 : (⟨S2x200000, .i32⟩ : BufTy).Contents (Elt Ideal)) (h0 : AllReal x0) (h3 : AllReal x3) (h4 : AllReal x4) (h9 : AllReal x9) (h10 : AllReal x10) : AllReal (val_main_v113 (F := Ideal) x0 x3 x4 x9 x10 x25) := by
  unfold val_main_v113
  exact allReal_addf (fin_main_v108 x0 x3 x4 x9 x25 h0 h3 h4 h9) (fin_main_v112 x10 h10)
theorem fin_main_v114 (x11 : (⟨S3x6x150x150, .f32⟩ : BufTy).Contents (Elt Ideal)) (h11 : AllReal x11) : AllReal (val_main_v114 (F := Ideal) x11) := by
  unfold val_main_v114
  exact allReal_extractStridedSlice h11
theorem fin_main_v115 (x11 : (⟨S3x6x150x150, .f32⟩ : BufTy).Contents (Elt Ideal)) (h11 : AllReal x11) : AllReal (val_main_v115 (F := Ideal) x11) := by
  unfold val_main_v115
  exact allReal_shapeCast (fin_main_v114 x11 h11)
theorem fin_main_v116 (x1 : (⟨S2000x768, .f32⟩ : BufTy).Contents (Elt Ideal)) (x5 : (⟨S768x150, .f32⟩ : BufTy).Contents (Elt Ideal)) (x6 : (⟨S150, .f32⟩ : BufTy).Contents (Elt Ideal)) (x11 : (⟨S3x6x150x150, .f32⟩ : BufTy).Contents (Elt Ideal)) (h1 : AllReal x1) (h5 : AllReal x5) (h6 : AllReal x6) (h11 : AllReal x11) : AllReal (val_main_v116 (F := Ideal) x1 x5 x6 x11) := by
  unfold val_main_v116
  exact allReal_dotGeneral (fin_main_v7 x1 x5 x6 h1 h5 h6) (fin_main_v115 x11 h11)
theorem fin_main_v117 (x0 : (⟨S50000x768, .f32⟩ : BufTy).Contents (Elt Ideal)) (x1 : (⟨S2000x768, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x25 : (⟨S2x200000, .i32⟩ : BufTy).Contents (Elt Ideal)) (h0 : AllReal x0) (h1 : AllReal x1) (h3 : AllReal x3) (h4 : AllReal x4) (h5 : AllReal x5) (h6 : AllReal x6) (h9 : AllReal x9) (h10 : AllReal x10) (h11 : AllReal x11) : AllReal (val_main_v117 (F := Ideal) x0 x1 x3 x4 x5 x6 x9 x10 x11 x25) := by
  unfold val_main_v117
  exact allReal_addf (fin_main_v113 x0 x3 x4 x9 x10 x25 h0 h3 h4 h9 h10) (fin_main_v116 x1 x5 x6 x11 h1 h5 h6 h11)
theorem fin_main_v128 (x2 : (⟨S20000x1024, .f32⟩ : BufTy).Contents (Elt Ideal)) (x7 : (⟨S1024x150, .f32⟩ : BufTy).Contents (Elt Ideal)) (x8 : (⟨S150, .f32⟩ : BufTy).Contents (Elt Ideal)) (x26 : (⟨S2x200000, .i32⟩ : BufTy).Contents (Elt Ideal)) (h2 : AllReal x2) (h7 : AllReal x7) (h8 : AllReal x8) : AllReal (val_main_v128 (F := Ideal) x2 x7 x8 x26) := by
  unfold val_main_v128
  exact allReal_gather (fin_main_v11 x2 x7 x8 h2 h7 h8)
theorem fin_main_cst_18 : AllReal (val_main_cst_18 (F := Ideal)) := by
  unfold val_main_cst_18
  exact allReal_constant_zero
theorem fin_main_v129 : AllReal (val_main_v129 (F := Ideal)) := by
  unfold val_main_v129
  exact allReal_broadcastInDim (fin_main_cst_18)
theorem fin_main_v131 (x2 : (⟨S20000x1024, .f32⟩ : BufTy).Contents (Elt Ideal)) (x7 : (⟨S1024x150, .f32⟩ : BufTy).Contents (Elt Ideal)) (x8 : (⟨S150, .f32⟩ : BufTy).Contents (Elt Ideal)) (x26 : (⟨S2x200000, .i32⟩ : BufTy).Contents (Elt Ideal)) (h2 : AllReal x2) (h7 : AllReal x7) (h8 : AllReal x8) : AllReal (val_main_v131 (F := Ideal) x2 x7 x8 x26) := by
  unfold val_main_v131
  exact allReal_scatterAdd (fin_main_v129) (fin_main_v128 x2 x7 x8 x26 h2 h7 h8)
theorem fin_main_cst_19 : AllReal (val_main_cst_19 (F := Ideal)) := by
  unfold val_main_cst_19
  exact allReal_constant_one
theorem fin_main_v132 : AllReal (val_main_v132 (F := Ideal)) := by
  unfold val_main_v132
  exact allReal_broadcastInDim (fin_main_cst_19)
theorem fin_main_cst_20 : AllReal (val_main_cst_20 (F := Ideal)) := by
  unfold val_main_cst_20
  exact allReal_constant_zero
theorem fin_main_v133 : AllReal (val_main_v133 (F := Ideal)) := by
  unfold val_main_v133
  exact allReal_broadcastInDim (fin_main_cst_20)
theorem fin_main_v135 (x26 : (⟨S2x200000, .i32⟩ : BufTy).Contents (Elt Ideal)) : AllReal (val_main_v135 (F := Ideal) x26) := by
  unfold val_main_v135
  exact allReal_scatterAdd (fin_main_v133) (fin_main_v132)
theorem oneLe_main_cst_21 : ∀ i, (1 : EReal) ≤ val_main_cst_21 (F := Ideal)  i := by
  unfold val_main_cst_21
  exact oneLe_constant_one
theorem fin_main_cst_21 : AllReal (val_main_cst_21 (F := Ideal)) := by
  unfold val_main_cst_21
  exact allReal_constant_one
theorem oneLe_main_v136 : ∀ i, (1 : EReal) ≤ val_main_v136 (F := Ideal)  i := by
  unfold val_main_v136
  exact oneLe_broadcastInDim (oneLe_main_cst_21)
theorem fin_main_v136 : AllReal (val_main_v136 (F := Ideal)) := by
  unfold val_main_v136
  exact allReal_broadcastInDim (fin_main_cst_21)
theorem oneLe_main_v137 (x26 : (⟨S2x200000, .i32⟩ : BufTy).Contents (Elt Ideal)) : ∀ i, (1 : EReal) ≤ val_main_v137 (F := Ideal) x26 i := by
  unfold val_main_v137
  exact oneLe_maximumf_right (oneLe_main_v136)
theorem fin_main_v137 (x26 : (⟨S2x200000, .i32⟩ : BufTy).Contents (Elt Ideal)) : AllReal (val_main_v137 (F := Ideal) x26) := by
  unfold val_main_v137
  exact allReal_maximumf (fin_main_v135 x26) (fin_main_v136)
theorem oneLe_main_v138 (x26 : (⟨S2x200000, .i32⟩ : BufTy).Contents (Elt Ideal)) : ∀ i, (1 : EReal) ≤ val_main_v138 (F := Ideal) x26 i := by
  unfold val_main_v138
  exact oneLe_broadcastInDim (oneLe_main_v137 x26)
theorem fin_main_v138 (x26 : (⟨S2x200000, .i32⟩ : BufTy).Contents (Elt Ideal)) : AllReal (val_main_v138 (F := Ideal) x26) := by
  unfold val_main_v138
  exact allReal_broadcastInDim (fin_main_v137 x26)
theorem oneLe_main_v139 (x26 : (⟨S2x200000, .i32⟩ : BufTy).Contents (Elt Ideal)) : ∀ i, (1 : EReal) ≤ val_main_v139 (F := Ideal) x26 i := by
  unfold val_main_v139
  exact oneLe_broadcastInDim (oneLe_main_v138 x26)
theorem fin_main_v139 (x26 : (⟨S2x200000, .i32⟩ : BufTy).Contents (Elt Ideal)) : AllReal (val_main_v139 (F := Ideal) x26) := by
  unfold val_main_v139
  exact allReal_broadcastInDim (fin_main_v138 x26)
theorem fin_main_v140 (x2 : (⟨S20000x1024, .f32⟩ : BufTy).Contents (Elt Ideal)) (x7 : (⟨S1024x150, .f32⟩ : BufTy).Contents (Elt Ideal)) (x8 : (⟨S150, .f32⟩ : BufTy).Contents (Elt Ideal)) (x26 : (⟨S2x200000, .i32⟩ : BufTy).Contents (Elt Ideal)) (h2 : AllReal x2) (h7 : AllReal x7) (h8 : AllReal x8) : AllReal (val_main_v140 (F := Ideal) x2 x7 x8 x26) := by
  unfold val_main_v140
  exact allReal_divf (fin_main_v131 x2 x7 x8 x26 h2 h7 h8) (fin_main_v139 x26) (oneLe_main_v139 x26)
theorem fin_main_v141 (x9 : (⟨S3x6x150x150, .f32⟩ : BufTy).Contents (Elt Ideal)) (h9 : AllReal x9) : AllReal (val_main_v141 (F := Ideal) x9) := by
  unfold val_main_v141
  exact allReal_extractStridedSlice h9
theorem fin_main_v142 (x9 : (⟨S3x6x150x150, .f32⟩ : BufTy).Contents (Elt Ideal)) (h9 : AllReal x9) : AllReal (val_main_v142 (F := Ideal) x9) := by
  unfold val_main_v142
  exact allReal_shapeCast (fin_main_v141 x9 h9)
theorem fin_main_v143 (x2 : (⟨S20000x1024, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x26 : (⟨S2x200000, .i32⟩ : BufTy).Contents (Elt Ideal)) (h2 : AllReal x2) (h7 : AllReal x7) (h8 : AllReal x8) (h9 : AllReal x9) : AllReal (val_main_v143 (F := Ideal) x2 x7 x8 x9 x26) := by
  unfold val_main_v143
  exact allReal_dotGeneral (fin_main_v140 x2 x7 x8 x26 h2 h7 h8) (fin_main_v142 x9 h9)
theorem fin_main_v144 (x10 : (⟨S3x6x150, .f32⟩ : BufTy).Contents (Elt Ideal)) (h10 : AllReal x10) : AllReal (val_main_v144 (F := Ideal) x10) := by
  unfold val_main_v144
  exact allReal_extractStridedSlice h10
theorem fin_main_v145 (x10 : (⟨S3x6x150, .f32⟩ : BufTy).Contents (Elt Ideal)) (h10 : AllReal x10) : AllReal (val_main_v145 (F := Ideal) x10) := by
  unfold val_main_v145
  exact allReal_shapeCast (fin_main_v144 x10 h10)
theorem fin_main_v146 (x10 : (⟨S3x6x150, .f32⟩ : BufTy).Contents (Elt Ideal)) (h10 : AllReal x10) : AllReal (val_main_v146 (F := Ideal) x10) := by
  unfold val_main_v146
  exact allReal_broadcastInDim (fin_main_v145 x10 h10)
theorem fin_main_v147 (x10 : (⟨S3x6x150, .f32⟩ : BufTy).Contents (Elt Ideal)) (h10 : AllReal x10) : AllReal (val_main_v147 (F := Ideal) x10) := by
  unfold val_main_v147
  exact allReal_broadcastInDim (fin_main_v146 x10 h10)
theorem fin_main_v148 (x2 : (⟨S20000x1024, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x26 : (⟨S2x200000, .i32⟩ : BufTy).Contents (Elt Ideal)) (h2 : AllReal x2) (h7 : AllReal x7) (h8 : AllReal x8) (h9 : AllReal x9) (h10 : AllReal x10) : AllReal (val_main_v148 (F := Ideal) x2 x7 x8 x9 x10 x26) := by
  unfold val_main_v148
  exact allReal_addf (fin_main_v143 x2 x7 x8 x9 x26 h2 h7 h8 h9) (fin_main_v147 x10 h10)
theorem fin_main_v149 (x11 : (⟨S3x6x150x150, .f32⟩ : BufTy).Contents (Elt Ideal)) (h11 : AllReal x11) : AllReal (val_main_v149 (F := Ideal) x11) := by
  unfold val_main_v149
  exact allReal_extractStridedSlice h11
theorem fin_main_v150 (x11 : (⟨S3x6x150x150, .f32⟩ : BufTy).Contents (Elt Ideal)) (h11 : AllReal x11) : AllReal (val_main_v150 (F := Ideal) x11) := by
  unfold val_main_v150
  exact allReal_shapeCast (fin_main_v149 x11 h11)
theorem fin_main_v151 (x1 : (⟨S2000x768, .f32⟩ : BufTy).Contents (Elt Ideal)) (x5 : (⟨S768x150, .f32⟩ : BufTy).Contents (Elt Ideal)) (x6 : (⟨S150, .f32⟩ : BufTy).Contents (Elt Ideal)) (x11 : (⟨S3x6x150x150, .f32⟩ : BufTy).Contents (Elt Ideal)) (h1 : AllReal x1) (h5 : AllReal x5) (h6 : AllReal x6) (h11 : AllReal x11) : AllReal (val_main_v151 (F := Ideal) x1 x5 x6 x11) := by
  unfold val_main_v151
  exact allReal_dotGeneral (fin_main_v7 x1 x5 x6 h1 h5 h6) (fin_main_v150 x11 h11)
theorem fin_main_v152 (x1 : (⟨S2000x768, .f32⟩ : BufTy).Contents (Elt Ideal)) (x2 : (⟨S20000x1024, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x26 : (⟨S2x200000, .i32⟩ : BufTy).Contents (Elt Ideal)) (h1 : AllReal x1) (h2 : AllReal x2) (h5 : AllReal x5) (h6 : AllReal x6) (h7 : AllReal x7) (h8 : AllReal x8) (h9 : AllReal x9) (h10 : AllReal x10) (h11 : AllReal x11) : AllReal (val_main_v152 (F := Ideal) x1 x2 x5 x6 x7 x8 x9 x10 x11 x26) := by
  unfold val_main_v152
  exact allReal_addf (fin_main_v148 x2 x7 x8 x9 x10 x26 h2 h7 h8 h9 h10) (fin_main_v151 x1 x5 x6 x11 h1 h5 h6 h11)
theorem fin_main_v153 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v153 (F := Ideal) x0 x1 x2 x3 x4 x5 x6 x7 x8 x9 x10 x11 x25 x26) := by
  unfold val_main_v153
  exact allReal_addf (fin_main_v117 x0 x1 x3 x4 x5 x6 x9 x10 x11 x25 h0 h1 h3 h4 h5 h6 h9 h10 h11) (fin_main_v152 x1 x2 x5 x6 x7 x8 x9 x10 x11 x26 h1 h2 h5 h6 h7 h8 h9 h10 h11)
theorem fin_main_v164 (x0 : (⟨S50000x768, .f32⟩ : BufTy).Contents (Elt Ideal)) (x3 : (⟨S768x150, .f32⟩ : BufTy).Contents (Elt Ideal)) (x4 : (⟨S150, .f32⟩ : BufTy).Contents (Elt Ideal)) (x24 : (⟨S2x500000, .i32⟩ : BufTy).Contents (Elt Ideal)) (h0 : AllReal x0) (h3 : AllReal x3) (h4 : AllReal x4) : AllReal (val_main_v164 (F := Ideal) x0 x3 x4 x24) := by
  unfold val_main_v164
  exact allReal_gather (fin_main_v3 x0 x3 x4 h0 h3 h4)
theorem fin_main_cst_24 : AllReal (val_main_cst_24 (F := Ideal)) := by
  unfold val_main_cst_24
  exact allReal_constant_zero
theorem fin_main_v165 : AllReal (val_main_v165 (F := Ideal)) := by
  unfold val_main_v165
  exact allReal_broadcastInDim (fin_main_cst_24)
theorem fin_main_v167 (x0 : (⟨S50000x768, .f32⟩ : BufTy).Contents (Elt Ideal)) (x3 : (⟨S768x150, .f32⟩ : BufTy).Contents (Elt Ideal)) (x4 : (⟨S150, .f32⟩ : BufTy).Contents (Elt Ideal)) (x24 : (⟨S2x500000, .i32⟩ : BufTy).Contents (Elt Ideal)) (h0 : AllReal x0) (h3 : AllReal x3) (h4 : AllReal x4) : AllReal (val_main_v167 (F := Ideal) x0 x3 x4 x24) := by
  unfold val_main_v167
  exact allReal_scatterAdd (fin_main_v165) (fin_main_v164 x0 x3 x4 x24 h0 h3 h4)
theorem fin_main_cst_25 : AllReal (val_main_cst_25 (F := Ideal)) := by
  unfold val_main_cst_25
  exact allReal_constant_one
theorem fin_main_v168 : AllReal (val_main_v168 (F := Ideal)) := by
  unfold val_main_v168
  exact allReal_broadcastInDim (fin_main_cst_25)
theorem fin_main_cst_26 : AllReal (val_main_cst_26 (F := Ideal)) := by
  unfold val_main_cst_26
  exact allReal_constant_zero
theorem fin_main_v169 : AllReal (val_main_v169 (F := Ideal)) := by
  unfold val_main_v169
  exact allReal_broadcastInDim (fin_main_cst_26)
theorem fin_main_v171 (x24 : (⟨S2x500000, .i32⟩ : BufTy).Contents (Elt Ideal)) : AllReal (val_main_v171 (F := Ideal) x24) := by
  unfold val_main_v171
  exact allReal_scatterAdd (fin_main_v169) (fin_main_v168)
theorem oneLe_main_cst_27 : ∀ i, (1 : EReal) ≤ val_main_cst_27 (F := Ideal)  i := by
  unfold val_main_cst_27
  exact oneLe_constant_one
theorem fin_main_cst_27 : AllReal (val_main_cst_27 (F := Ideal)) := by
  unfold val_main_cst_27
  exact allReal_constant_one
theorem oneLe_main_v172 : ∀ i, (1 : EReal) ≤ val_main_v172 (F := Ideal)  i := by
  unfold val_main_v172
  exact oneLe_broadcastInDim (oneLe_main_cst_27)
theorem fin_main_v172 : AllReal (val_main_v172 (F := Ideal)) := by
  unfold val_main_v172
  exact allReal_broadcastInDim (fin_main_cst_27)
theorem oneLe_main_v173 (x24 : (⟨S2x500000, .i32⟩ : BufTy).Contents (Elt Ideal)) : ∀ i, (1 : EReal) ≤ val_main_v173 (F := Ideal) x24 i := by
  unfold val_main_v173
  exact oneLe_maximumf_right (oneLe_main_v172)
theorem fin_main_v173 (x24 : (⟨S2x500000, .i32⟩ : BufTy).Contents (Elt Ideal)) : AllReal (val_main_v173 (F := Ideal) x24) := by
  unfold val_main_v173
  exact allReal_maximumf (fin_main_v171 x24) (fin_main_v172)
theorem oneLe_main_v174 (x24 : (⟨S2x500000, .i32⟩ : BufTy).Contents (Elt Ideal)) : ∀ i, (1 : EReal) ≤ val_main_v174 (F := Ideal) x24 i := by
  unfold val_main_v174
  exact oneLe_broadcastInDim (oneLe_main_v173 x24)
theorem fin_main_v174 (x24 : (⟨S2x500000, .i32⟩ : BufTy).Contents (Elt Ideal)) : AllReal (val_main_v174 (F := Ideal) x24) := by
  unfold val_main_v174
  exact allReal_broadcastInDim (fin_main_v173 x24)
theorem oneLe_main_v175 (x24 : (⟨S2x500000, .i32⟩ : BufTy).Contents (Elt Ideal)) : ∀ i, (1 : EReal) ≤ val_main_v175 (F := Ideal) x24 i := by
  unfold val_main_v175
  exact oneLe_broadcastInDim (oneLe_main_v174 x24)
theorem fin_main_v175 (x24 : (⟨S2x500000, .i32⟩ : BufTy).Contents (Elt Ideal)) : AllReal (val_main_v175 (F := Ideal) x24) := by
  unfold val_main_v175
  exact allReal_broadcastInDim (fin_main_v174 x24)
theorem fin_main_v176 (x0 : (⟨S50000x768, .f32⟩ : BufTy).Contents (Elt Ideal)) (x3 : (⟨S768x150, .f32⟩ : BufTy).Contents (Elt Ideal)) (x4 : (⟨S150, .f32⟩ : BufTy).Contents (Elt Ideal)) (x24 : (⟨S2x500000, .i32⟩ : BufTy).Contents (Elt Ideal)) (h0 : AllReal x0) (h3 : AllReal x3) (h4 : AllReal x4) : AllReal (val_main_v176 (F := Ideal) x0 x3 x4 x24) := by
  unfold val_main_v176
  exact allReal_divf (fin_main_v167 x0 x3 x4 x24 h0 h3 h4) (fin_main_v175 x24) (oneLe_main_v175 x24)
theorem fin_main_v177 (x9 : (⟨S3x6x150x150, .f32⟩ : BufTy).Contents (Elt Ideal)) (h9 : AllReal x9) : AllReal (val_main_v177 (F := Ideal) x9) := by
  unfold val_main_v177
  exact allReal_extractStridedSlice h9
theorem fin_main_v178 (x9 : (⟨S3x6x150x150, .f32⟩ : BufTy).Contents (Elt Ideal)) (h9 : AllReal x9) : AllReal (val_main_v178 (F := Ideal) x9) := by
  unfold val_main_v178
  exact allReal_shapeCast (fin_main_v177 x9 h9)
theorem fin_main_v179 (x0 : (⟨S50000x768, .f32⟩ : BufTy).Contents (Elt Ideal)) (x3 : (⟨S768x150, .f32⟩ : BufTy).Contents (Elt Ideal)) (x4 : (⟨S150, .f32⟩ : BufTy).Contents (Elt Ideal)) (x9 : (⟨S3x6x150x150, .f32⟩ : BufTy).Contents (Elt Ideal)) (x24 : (⟨S2x500000, .i32⟩ : BufTy).Contents (Elt Ideal)) (h0 : AllReal x0) (h3 : AllReal x3) (h4 : AllReal x4) (h9 : AllReal x9) : AllReal (val_main_v179 (F := Ideal) x0 x3 x4 x9 x24) := by
  unfold val_main_v179
  exact allReal_dotGeneral (fin_main_v176 x0 x3 x4 x24 h0 h3 h4) (fin_main_v178 x9 h9)
theorem fin_main_v180 (x10 : (⟨S3x6x150, .f32⟩ : BufTy).Contents (Elt Ideal)) (h10 : AllReal x10) : AllReal (val_main_v180 (F := Ideal) x10) := by
  unfold val_main_v180
  exact allReal_extractStridedSlice h10
theorem fin_main_v181 (x10 : (⟨S3x6x150, .f32⟩ : BufTy).Contents (Elt Ideal)) (h10 : AllReal x10) : AllReal (val_main_v181 (F := Ideal) x10) := by
  unfold val_main_v181
  exact allReal_shapeCast (fin_main_v180 x10 h10)
theorem fin_main_v182 (x10 : (⟨S3x6x150, .f32⟩ : BufTy).Contents (Elt Ideal)) (h10 : AllReal x10) : AllReal (val_main_v182 (F := Ideal) x10) := by
  unfold val_main_v182
  exact allReal_broadcastInDim (fin_main_v181 x10 h10)
theorem fin_main_v183 (x10 : (⟨S3x6x150, .f32⟩ : BufTy).Contents (Elt Ideal)) (h10 : AllReal x10) : AllReal (val_main_v183 (F := Ideal) x10) := by
  unfold val_main_v183
  exact allReal_broadcastInDim (fin_main_v182 x10 h10)
theorem fin_main_v184 (x0 : (⟨S50000x768, .f32⟩ : BufTy).Contents (Elt Ideal)) (x3 : (⟨S768x150, .f32⟩ : BufTy).Contents (Elt Ideal)) (x4 : (⟨S150, .f32⟩ : BufTy).Contents (Elt Ideal)) (x9 : (⟨S3x6x150x150, .f32⟩ : BufTy).Contents (Elt Ideal)) (x10 : (⟨S3x6x150, .f32⟩ : BufTy).Contents (Elt Ideal)) (x24 : (⟨S2x500000, .i32⟩ : BufTy).Contents (Elt Ideal)) (h0 : AllReal x0) (h3 : AllReal x3) (h4 : AllReal x4) (h9 : AllReal x9) (h10 : AllReal x10) : AllReal (val_main_v184 (F := Ideal) x0 x3 x4 x9 x10 x24) := by
  unfold val_main_v184
  exact allReal_addf (fin_main_v179 x0 x3 x4 x9 x24 h0 h3 h4 h9) (fin_main_v183 x10 h10)
theorem fin_main_v185 (x11 : (⟨S3x6x150x150, .f32⟩ : BufTy).Contents (Elt Ideal)) (h11 : AllReal x11) : AllReal (val_main_v185 (F := Ideal) x11) := by
  unfold val_main_v185
  exact allReal_extractStridedSlice h11
theorem fin_main_v186 (x11 : (⟨S3x6x150x150, .f32⟩ : BufTy).Contents (Elt Ideal)) (h11 : AllReal x11) : AllReal (val_main_v186 (F := Ideal) x11) := by
  unfold val_main_v186
  exact allReal_shapeCast (fin_main_v185 x11 h11)
theorem fin_main_v187 (x2 : (⟨S20000x1024, .f32⟩ : BufTy).Contents (Elt Ideal)) (x7 : (⟨S1024x150, .f32⟩ : BufTy).Contents (Elt Ideal)) (x8 : (⟨S150, .f32⟩ : BufTy).Contents (Elt Ideal)) (x11 : (⟨S3x6x150x150, .f32⟩ : BufTy).Contents (Elt Ideal)) (h2 : AllReal x2) (h7 : AllReal x7) (h8 : AllReal x8) (h11 : AllReal x11) : AllReal (val_main_v187 (F := Ideal) x2 x7 x8 x11) := by
  unfold val_main_v187
  exact allReal_dotGeneral (fin_main_v11 x2 x7 x8 h2 h7 h8) (fin_main_v186 x11 h11)
theorem fin_main_v188 (x0 : (⟨S50000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (h0 : AllReal x0) (h2 : AllReal x2) (h3 : AllReal x3) (h4 : AllReal x4) (h7 : AllReal x7) (h8 : AllReal x8) (h9 : AllReal x9) (h10 : AllReal x10) (h11 : AllReal x11) : AllReal (val_main_v188 (F := Ideal) x0 x2 x3 x4 x7 x8 x9 x10 x11 x24) := by
  unfold val_main_v188
  exact allReal_addf (fin_main_v184 x0 x3 x4 x9 x10 x24 h0 h3 h4 h9 h10) (fin_main_v187 x2 x7 x8 x11 h2 h7 h8 h11)
theorem fin_main_v199 (x1 : (⟨S2000x768, .f32⟩ : BufTy).Contents (Elt Ideal)) (x5 : (⟨S768x150, .f32⟩ : BufTy).Contents (Elt Ideal)) (x6 : (⟨S150, .f32⟩ : BufTy).Contents (Elt Ideal)) (x26 : (⟨S2x200000, .i32⟩ : BufTy).Contents (Elt Ideal)) (h1 : AllReal x1) (h5 : AllReal x5) (h6 : AllReal x6) : AllReal (val_main_v199 (F := Ideal) x1 x5 x6 x26) := by
  unfold val_main_v199
  exact allReal_gather (fin_main_v7 x1 x5 x6 h1 h5 h6)
theorem fin_main_cst_30 : AllReal (val_main_cst_30 (F := Ideal)) := by
  unfold val_main_cst_30
  exact allReal_constant_zero
theorem fin_main_v200 : AllReal (val_main_v200 (F := Ideal)) := by
  unfold val_main_v200
  exact allReal_broadcastInDim (fin_main_cst_30)
theorem fin_main_v202 (x1 : (⟨S2000x768, .f32⟩ : BufTy).Contents (Elt Ideal)) (x5 : (⟨S768x150, .f32⟩ : BufTy).Contents (Elt Ideal)) (x6 : (⟨S150, .f32⟩ : BufTy).Contents (Elt Ideal)) (x26 : (⟨S2x200000, .i32⟩ : BufTy).Contents (Elt Ideal)) (h1 : AllReal x1) (h5 : AllReal x5) (h6 : AllReal x6) : AllReal (val_main_v202 (F := Ideal) x1 x5 x6 x26) := by
  unfold val_main_v202
  exact allReal_scatterAdd (fin_main_v200) (fin_main_v199 x1 x5 x6 x26 h1 h5 h6)
theorem fin_main_cst_31 : AllReal (val_main_cst_31 (F := Ideal)) := by
  unfold val_main_cst_31
  exact allReal_constant_one
theorem fin_main_v203 : AllReal (val_main_v203 (F := Ideal)) := by
  unfold val_main_v203
  exact allReal_broadcastInDim (fin_main_cst_31)
theorem fin_main_cst_32 : AllReal (val_main_cst_32 (F := Ideal)) := by
  unfold val_main_cst_32
  exact allReal_constant_zero
theorem fin_main_v204 : AllReal (val_main_v204 (F := Ideal)) := by
  unfold val_main_v204
  exact allReal_broadcastInDim (fin_main_cst_32)
theorem fin_main_v206 (x26 : (⟨S2x200000, .i32⟩ : BufTy).Contents (Elt Ideal)) : AllReal (val_main_v206 (F := Ideal) x26) := by
  unfold val_main_v206
  exact allReal_scatterAdd (fin_main_v204) (fin_main_v203)
theorem oneLe_main_cst_33 : ∀ i, (1 : EReal) ≤ val_main_cst_33 (F := Ideal)  i := by
  unfold val_main_cst_33
  exact oneLe_constant_one
theorem fin_main_cst_33 : AllReal (val_main_cst_33 (F := Ideal)) := by
  unfold val_main_cst_33
  exact allReal_constant_one
theorem oneLe_main_v207 : ∀ i, (1 : EReal) ≤ val_main_v207 (F := Ideal)  i := by
  unfold val_main_v207
  exact oneLe_broadcastInDim (oneLe_main_cst_33)
theorem fin_main_v207 : AllReal (val_main_v207 (F := Ideal)) := by
  unfold val_main_v207
  exact allReal_broadcastInDim (fin_main_cst_33)
theorem oneLe_main_v208 (x26 : (⟨S2x200000, .i32⟩ : BufTy).Contents (Elt Ideal)) : ∀ i, (1 : EReal) ≤ val_main_v208 (F := Ideal) x26 i := by
  unfold val_main_v208
  exact oneLe_maximumf_right (oneLe_main_v207)
theorem fin_main_v208 (x26 : (⟨S2x200000, .i32⟩ : BufTy).Contents (Elt Ideal)) : AllReal (val_main_v208 (F := Ideal) x26) := by
  unfold val_main_v208
  exact allReal_maximumf (fin_main_v206 x26) (fin_main_v207)
theorem oneLe_main_v209 (x26 : (⟨S2x200000, .i32⟩ : BufTy).Contents (Elt Ideal)) : ∀ i, (1 : EReal) ≤ val_main_v209 (F := Ideal) x26 i := by
  unfold val_main_v209
  exact oneLe_broadcastInDim (oneLe_main_v208 x26)
theorem fin_main_v209 (x26 : (⟨S2x200000, .i32⟩ : BufTy).Contents (Elt Ideal)) : AllReal (val_main_v209 (F := Ideal) x26) := by
  unfold val_main_v209
  exact allReal_broadcastInDim (fin_main_v208 x26)
theorem oneLe_main_v210 (x26 : (⟨S2x200000, .i32⟩ : BufTy).Contents (Elt Ideal)) : ∀ i, (1 : EReal) ≤ val_main_v210 (F := Ideal) x26 i := by
  unfold val_main_v210
  exact oneLe_broadcastInDim (oneLe_main_v209 x26)
theorem fin_main_v210 (x26 : (⟨S2x200000, .i32⟩ : BufTy).Contents (Elt Ideal)) : AllReal (val_main_v210 (F := Ideal) x26) := by
  unfold val_main_v210
  exact allReal_broadcastInDim (fin_main_v209 x26)
theorem fin_main_v211 (x1 : (⟨S2000x768, .f32⟩ : BufTy).Contents (Elt Ideal)) (x5 : (⟨S768x150, .f32⟩ : BufTy).Contents (Elt Ideal)) (x6 : (⟨S150, .f32⟩ : BufTy).Contents (Elt Ideal)) (x26 : (⟨S2x200000, .i32⟩ : BufTy).Contents (Elt Ideal)) (h1 : AllReal x1) (h5 : AllReal x5) (h6 : AllReal x6) : AllReal (val_main_v211 (F := Ideal) x1 x5 x6 x26) := by
  unfold val_main_v211
  exact allReal_divf (fin_main_v202 x1 x5 x6 x26 h1 h5 h6) (fin_main_v210 x26) (oneLe_main_v210 x26)
theorem fin_main_v212 (x9 : (⟨S3x6x150x150, .f32⟩ : BufTy).Contents (Elt Ideal)) (h9 : AllReal x9) : AllReal (val_main_v212 (F := Ideal) x9) := by
  unfold val_main_v212
  exact allReal_extractStridedSlice h9
theorem fin_main_v213 (x9 : (⟨S3x6x150x150, .f32⟩ : BufTy).Contents (Elt Ideal)) (h9 : AllReal x9) : AllReal (val_main_v213 (F := Ideal) x9) := by
  unfold val_main_v213
  exact allReal_shapeCast (fin_main_v212 x9 h9)
theorem fin_main_v214 (x1 : (⟨S2000x768, .f32⟩ : BufTy).Contents (Elt Ideal)) (x5 : (⟨S768x150, .f32⟩ : BufTy).Contents (Elt Ideal)) (x6 : (⟨S150, .f32⟩ : BufTy).Contents (Elt Ideal)) (x9 : (⟨S3x6x150x150, .f32⟩ : BufTy).Contents (Elt Ideal)) (x26 : (⟨S2x200000, .i32⟩ : BufTy).Contents (Elt Ideal)) (h1 : AllReal x1) (h5 : AllReal x5) (h6 : AllReal x6) (h9 : AllReal x9) : AllReal (val_main_v214 (F := Ideal) x1 x5 x6 x9 x26) := by
  unfold val_main_v214
  exact allReal_dotGeneral (fin_main_v211 x1 x5 x6 x26 h1 h5 h6) (fin_main_v213 x9 h9)
theorem fin_main_v215 (x10 : (⟨S3x6x150, .f32⟩ : BufTy).Contents (Elt Ideal)) (h10 : AllReal x10) : AllReal (val_main_v215 (F := Ideal) x10) := by
  unfold val_main_v215
  exact allReal_extractStridedSlice h10
theorem fin_main_v216 (x10 : (⟨S3x6x150, .f32⟩ : BufTy).Contents (Elt Ideal)) (h10 : AllReal x10) : AllReal (val_main_v216 (F := Ideal) x10) := by
  unfold val_main_v216
  exact allReal_shapeCast (fin_main_v215 x10 h10)
theorem fin_main_v217 (x10 : (⟨S3x6x150, .f32⟩ : BufTy).Contents (Elt Ideal)) (h10 : AllReal x10) : AllReal (val_main_v217 (F := Ideal) x10) := by
  unfold val_main_v217
  exact allReal_broadcastInDim (fin_main_v216 x10 h10)
theorem fin_main_v218 (x10 : (⟨S3x6x150, .f32⟩ : BufTy).Contents (Elt Ideal)) (h10 : AllReal x10) : AllReal (val_main_v218 (F := Ideal) x10) := by
  unfold val_main_v218
  exact allReal_broadcastInDim (fin_main_v217 x10 h10)
theorem fin_main_v219 (x1 : (⟨S2000x768, .f32⟩ : BufTy).Contents (Elt Ideal)) (x5 : (⟨S768x150, .f32⟩ : BufTy).Contents (Elt Ideal)) (x6 : (⟨S150, .f32⟩ : BufTy).Contents (Elt Ideal)) (x9 : (⟨S3x6x150x150, .f32⟩ : BufTy).Contents (Elt Ideal)) (x10 : (⟨S3x6x150, .f32⟩ : BufTy).Contents (Elt Ideal)) (x26 : (⟨S2x200000, .i32⟩ : BufTy).Contents (Elt Ideal)) (h1 : AllReal x1) (h5 : AllReal x5) (h6 : AllReal x6) (h9 : AllReal x9) (h10 : AllReal x10) : AllReal (val_main_v219 (F := Ideal) x1 x5 x6 x9 x10 x26) := by
  unfold val_main_v219
  exact allReal_addf (fin_main_v214 x1 x5 x6 x9 x26 h1 h5 h6 h9) (fin_main_v218 x10 h10)
theorem fin_main_v220 (x11 : (⟨S3x6x150x150, .f32⟩ : BufTy).Contents (Elt Ideal)) (h11 : AllReal x11) : AllReal (val_main_v220 (F := Ideal) x11) := by
  unfold val_main_v220
  exact allReal_extractStridedSlice h11
theorem fin_main_v221 (x11 : (⟨S3x6x150x150, .f32⟩ : BufTy).Contents (Elt Ideal)) (h11 : AllReal x11) : AllReal (val_main_v221 (F := Ideal) x11) := by
  unfold val_main_v221
  exact allReal_shapeCast (fin_main_v220 x11 h11)
theorem fin_main_v222 (x2 : (⟨S20000x1024, .f32⟩ : BufTy).Contents (Elt Ideal)) (x7 : (⟨S1024x150, .f32⟩ : BufTy).Contents (Elt Ideal)) (x8 : (⟨S150, .f32⟩ : BufTy).Contents (Elt Ideal)) (x11 : (⟨S3x6x150x150, .f32⟩ : BufTy).Contents (Elt Ideal)) (h2 : AllReal x2) (h7 : AllReal x7) (h8 : AllReal x8) (h11 : AllReal x11) : AllReal (val_main_v222 (F := Ideal) x2 x7 x8 x11) := by
  unfold val_main_v222
  exact allReal_dotGeneral (fin_main_v11 x2 x7 x8 h2 h7 h8) (fin_main_v221 x11 h11)
theorem fin_main_v223 (x1 : (⟨S2000x768, .f32⟩ : BufTy).Contents (Elt Ideal)) (x2 : (⟨S20000x1024, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x26 : (⟨S2x200000, .i32⟩ : BufTy).Contents (Elt Ideal)) (h1 : AllReal x1) (h2 : AllReal x2) (h5 : AllReal x5) (h6 : AllReal x6) (h7 : AllReal x7) (h8 : AllReal x8) (h9 : AllReal x9) (h10 : AllReal x10) (h11 : AllReal x11) : AllReal (val_main_v223 (F := Ideal) x1 x2 x5 x6 x7 x8 x9 x10 x11 x26) := by
  unfold val_main_v223
  exact allReal_addf (fin_main_v219 x1 x5 x6 x9 x10 x26 h1 h5 h6 h9 h10) (fin_main_v222 x2 x7 x8 x11 h2 h7 h8 h11)
theorem fin_main_v224 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v224 (F := Ideal) x0 x1 x2 x3 x4 x5 x6 x7 x8 x9 x10 x11 x24 x26) := by
  unfold val_main_v224
  exact allReal_addf (fin_main_v188 x0 x2 x3 x4 x7 x8 x9 x10 x11 x24 h0 h2 h3 h4 h7 h8 h9 h10 h11) (fin_main_v223 x1 x2 x5 x6 x7 x8 x9 x10 x11 x26 h1 h2 h5 h6 h7 h8 h9 h10 h11)
theorem fin_main_call0_cst : AllReal (val_main_call0_cst (F := Ideal)) := by
  unfold val_main_call0_cst
  exact allReal_constant_zero
theorem fin_main_call0_v0 : AllReal (val_main_call0_v0 (F := Ideal)) := by
  unfold val_main_call0_v0
  exact allReal_broadcastInDim (fin_main_call0_cst)
theorem fin_main_v225 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v225 (F := Ideal) x0 x1 x2 x3 x4 x5 x6 x7 x8 x9 x10 x11 x24 x25) := by
  unfold val_main_v225
  exact allReal_maximumf (fin_main_v82 x0 x1 x2 x3 x4 x5 x6 x7 x8 x9 x10 x11 x24 x25 h0 h1 h2 h3 h4 h5 h6 h7 h8 h9 h10 h11) (fin_main_call0_v0)
theorem fin_main_call1_cst : AllReal (val_main_call1_cst (F := Ideal)) := by
  unfold val_main_call1_cst
  exact allReal_constant_zero
theorem fin_main_call1_v0 : AllReal (val_main_call1_v0 (F := Ideal)) := by
  unfold val_main_call1_v0
  exact allReal_broadcastInDim (fin_main_call1_cst)
theorem fin_main_v226 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v226 (F := Ideal) x0 x1 x2 x3 x4 x5 x6 x7 x8 x9 x10 x11 x25 x26) := by
  unfold val_main_v226
  exact allReal_maximumf (fin_main_v153 x0 x1 x2 x3 x4 x5 x6 x7 x8 x9 x10 x11 x25 x26 h0 h1 h2 h3 h4 h5 h6 h7 h8 h9 h10 h11) (fin_main_call1_v0)
theorem fin_main_call2_cst : AllReal (val_main_call2_cst (F := Ideal)) := by
  unfold val_main_call2_cst
  exact allReal_constant_zero
theorem fin_main_call2_v0 : AllReal (val_main_call2_v0 (F := Ideal)) := by
  unfold val_main_call2_v0
  exact allReal_broadcastInDim (fin_main_call2_cst)
theorem fin_main_v227 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v227 (F := Ideal) x0 x1 x2 x3 x4 x5 x6 x7 x8 x9 x10 x11 x24 x26) := by
  unfold val_main_v227
  exact allReal_maximumf (fin_main_v224 x0 x1 x2 x3 x4 x5 x6 x7 x8 x9 x10 x11 x24 x26 h0 h1 h2 h3 h4 h5 h6 h7 h8 h9 h10 h11) (fin_main_call2_v0)
theorem fin_main_v380 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v380 (F := Ideal) x0 x1 x2 x3 x4 x5 x6 x7 x8 x9 x10 x11 x24 x25) := by
  unfold val_main_v380
  exact allReal_gather (fin_main_v225 x0 x1 x2 x3 x4 x5 x6 x7 x8 x9 x10 x11 x24 x25 h0 h1 h2 h3 h4 h5 h6 h7 h8 h9 h10 h11)
theorem fin_main_cst_60 : AllReal (val_main_cst_60 (F := Ideal)) := by
  unfold val_main_cst_60
  exact allReal_constant_zero
theorem fin_main_v381 : AllReal (val_main_v381 (F := Ideal)) := by
  unfold val_main_v381
  exact allReal_broadcastInDim (fin_main_cst_60)
theorem fin_main_v383 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v383 (F := Ideal) x0 x1 x2 x3 x4 x5 x6 x7 x8 x9 x10 x11 x24 x25) := by
  unfold val_main_v383
  exact allReal_scatterAdd (fin_main_v381) (fin_main_v380 x0 x1 x2 x3 x4 x5 x6 x7 x8 x9 x10 x11 x24 x25 h0 h1 h2 h3 h4 h5 h6 h7 h8 h9 h10 h11)
theorem fin_main_cst_61 : AllReal (val_main_cst_61 (F := Ideal)) := by
  unfold val_main_cst_61
  exact allReal_constant_one
theorem fin_main_v384 : AllReal (val_main_v384 (F := Ideal)) := by
  unfold val_main_v384
  exact allReal_broadcastInDim (fin_main_cst_61)
theorem fin_main_cst_62 : AllReal (val_main_cst_62 (F := Ideal)) := by
  unfold val_main_cst_62
  exact allReal_constant_zero
theorem fin_main_v385 : AllReal (val_main_v385 (F := Ideal)) := by
  unfold val_main_v385
  exact allReal_broadcastInDim (fin_main_cst_62)
theorem fin_main_v387 (x24 : (⟨S2x500000, .i32⟩ : BufTy).Contents (Elt Ideal)) : AllReal (val_main_v387 (F := Ideal) x24) := by
  unfold val_main_v387
  exact allReal_scatterAdd (fin_main_v385) (fin_main_v384)
theorem oneLe_main_cst_63 : ∀ i, (1 : EReal) ≤ val_main_cst_63 (F := Ideal)  i := by
  unfold val_main_cst_63
  exact oneLe_constant_one
theorem fin_main_cst_63 : AllReal (val_main_cst_63 (F := Ideal)) := by
  unfold val_main_cst_63
  exact allReal_constant_one
theorem oneLe_main_v388 : ∀ i, (1 : EReal) ≤ val_main_v388 (F := Ideal)  i := by
  unfold val_main_v388
  exact oneLe_broadcastInDim (oneLe_main_cst_63)
theorem fin_main_v388 : AllReal (val_main_v388 (F := Ideal)) := by
  unfold val_main_v388
  exact allReal_broadcastInDim (fin_main_cst_63)
theorem oneLe_main_v389 (x24 : (⟨S2x500000, .i32⟩ : BufTy).Contents (Elt Ideal)) : ∀ i, (1 : EReal) ≤ val_main_v389 (F := Ideal) x24 i := by
  unfold val_main_v389
  exact oneLe_maximumf_right (oneLe_main_v388)
theorem fin_main_v389 (x24 : (⟨S2x500000, .i32⟩ : BufTy).Contents (Elt Ideal)) : AllReal (val_main_v389 (F := Ideal) x24) := by
  unfold val_main_v389
  exact allReal_maximumf (fin_main_v387 x24) (fin_main_v388)
theorem oneLe_main_v390 (x24 : (⟨S2x500000, .i32⟩ : BufTy).Contents (Elt Ideal)) : ∀ i, (1 : EReal) ≤ val_main_v390 (F := Ideal) x24 i := by
  unfold val_main_v390
  exact oneLe_broadcastInDim (oneLe_main_v389 x24)
theorem fin_main_v390 (x24 : (⟨S2x500000, .i32⟩ : BufTy).Contents (Elt Ideal)) : AllReal (val_main_v390 (F := Ideal) x24) := by
  unfold val_main_v390
  exact allReal_broadcastInDim (fin_main_v389 x24)
theorem oneLe_main_v391 (x24 : (⟨S2x500000, .i32⟩ : BufTy).Contents (Elt Ideal)) : ∀ i, (1 : EReal) ≤ val_main_v391 (F := Ideal) x24 i := by
  unfold val_main_v391
  exact oneLe_broadcastInDim (oneLe_main_v390 x24)
theorem fin_main_v391 (x24 : (⟨S2x500000, .i32⟩ : BufTy).Contents (Elt Ideal)) : AllReal (val_main_v391 (F := Ideal) x24) := by
  unfold val_main_v391
  exact allReal_broadcastInDim (fin_main_v390 x24)
theorem fin_main_v392 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v392 (F := Ideal) x0 x1 x2 x3 x4 x5 x6 x7 x8 x9 x10 x11 x24 x25) := by
  unfold val_main_v392
  exact allReal_divf (fin_main_v383 x0 x1 x2 x3 x4 x5 x6 x7 x8 x9 x10 x11 x24 x25 h0 h1 h2 h3 h4 h5 h6 h7 h8 h9 h10 h11) (fin_main_v391 x24) (oneLe_main_v391 x24)
theorem fin_main_v393 (x9 : (⟨S3x6x150x150, .f32⟩ : BufTy).Contents (Elt Ideal)) (h9 : AllReal x9) : AllReal (val_main_v393 (F := Ideal) x9) := by
  unfold val_main_v393
  exact allReal_extractStridedSlice h9
theorem fin_main_v394 (x9 : (⟨S3x6x150x150, .f32⟩ : BufTy).Contents (Elt Ideal)) (h9 : AllReal x9) : AllReal (val_main_v394 (F := Ideal) x9) := by
  unfold val_main_v394
  exact allReal_shapeCast (fin_main_v393 x9 h9)
theorem fin_main_v395 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v395 (F := Ideal) x0 x1 x2 x3 x4 x5 x6 x7 x8 x9 x10 x11 x24 x25) := by
  unfold val_main_v395
  exact allReal_dotGeneral (fin_main_v392 x0 x1 x2 x3 x4 x5 x6 x7 x8 x9 x10 x11 x24 x25 h0 h1 h2 h3 h4 h5 h6 h7 h8 h9 h10 h11) (fin_main_v394 x9 h9)
theorem fin_main_v396 (x10 : (⟨S3x6x150, .f32⟩ : BufTy).Contents (Elt Ideal)) (h10 : AllReal x10) : AllReal (val_main_v396 (F := Ideal) x10) := by
  unfold val_main_v396
  exact allReal_extractStridedSlice h10
theorem fin_main_v397 (x10 : (⟨S3x6x150, .f32⟩ : BufTy).Contents (Elt Ideal)) (h10 : AllReal x10) : AllReal (val_main_v397 (F := Ideal) x10) := by
  unfold val_main_v397
  exact allReal_shapeCast (fin_main_v396 x10 h10)
theorem fin_main_v398 (x10 : (⟨S3x6x150, .f32⟩ : BufTy).Contents (Elt Ideal)) (h10 : AllReal x10) : AllReal (val_main_v398 (F := Ideal) x10) := by
  unfold val_main_v398
  exact allReal_broadcastInDim (fin_main_v397 x10 h10)
theorem fin_main_v399 (x10 : (⟨S3x6x150, .f32⟩ : BufTy).Contents (Elt Ideal)) (h10 : AllReal x10) : AllReal (val_main_v399 (F := Ideal) x10) := by
  unfold val_main_v399
  exact allReal_broadcastInDim (fin_main_v398 x10 h10)
theorem fin_main_v400 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v400 (F := Ideal) x0 x1 x2 x3 x4 x5 x6 x7 x8 x9 x10 x11 x24 x25) := by
  unfold val_main_v400
  exact allReal_addf (fin_main_v395 x0 x1 x2 x3 x4 x5 x6 x7 x8 x9 x10 x11 x24 x25 h0 h1 h2 h3 h4 h5 h6 h7 h8 h9 h10 h11) (fin_main_v399 x10 h10)
theorem fin_main_v401 (x11 : (⟨S3x6x150x150, .f32⟩ : BufTy).Contents (Elt Ideal)) (h11 : AllReal x11) : AllReal (val_main_v401 (F := Ideal) x11) := by
  unfold val_main_v401
  exact allReal_extractStridedSlice h11
theorem fin_main_v402 (x11 : (⟨S3x6x150x150, .f32⟩ : BufTy).Contents (Elt Ideal)) (h11 : AllReal x11) : AllReal (val_main_v402 (F := Ideal) x11) := by
  unfold val_main_v402
  exact allReal_shapeCast (fin_main_v401 x11 h11)
theorem fin_main_v403 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v403 (F := Ideal) x0 x1 x2 x3 x4 x5 x6 x7 x8 x9 x10 x11 x24 x26) := by
  unfold val_main_v403
  exact allReal_dotGeneral (fin_main_v227 x0 x1 x2 x3 x4 x5 x6 x7 x8 x9 x10 x11 x24 x26 h0 h1 h2 h3 h4 h5 h6 h7 h8 h9 h10 h11) (fin_main_v402 x11 h11)
theorem fin_main_v404 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v404 (F := Ideal) x0 x1 x2 x3 x4 x5 x6 x7 x8 x9 x10 x11 x24 x25 x26) := by
  unfold val_main_v404
  exact allReal_addf (fin_main_v400 x0 x1 x2 x3 x4 x5 x6 x7 x8 x9 x10 x11 x24 x25 h0 h1 h2 h3 h4 h5 h6 h7 h8 h9 h10 h11) (fin_main_v403 x0 x1 x2 x3 x4 x5 x6 x7 x8 x9 x10 x11 x24 x26 h0 h1 h2 h3 h4 h5 h6 h7 h8 h9 h10 h11)
theorem fin_main_v415 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v415 (F := Ideal) x0 x1 x2 x3 x4 x5 x6 x7 x8 x9 x10 x11 x25 x26) := by
  unfold val_main_v415
  exact allReal_gather (fin_main_v226 x0 x1 x2 x3 x4 x5 x6 x7 x8 x9 x10 x11 x25 x26 h0 h1 h2 h3 h4 h5 h6 h7 h8 h9 h10 h11)
theorem fin_main_cst_66 : AllReal (val_main_cst_66 (F := Ideal)) := by
  unfold val_main_cst_66
  exact allReal_constant_zero
theorem fin_main_v416 : AllReal (val_main_v416 (F := Ideal)) := by
  unfold val_main_v416
  exact allReal_broadcastInDim (fin_main_cst_66)
theorem fin_main_v418 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v418 (F := Ideal) x0 x1 x2 x3 x4 x5 x6 x7 x8 x9 x10 x11 x25 x26) := by
  unfold val_main_v418
  exact allReal_scatterAdd (fin_main_v416) (fin_main_v415 x0 x1 x2 x3 x4 x5 x6 x7 x8 x9 x10 x11 x25 x26 h0 h1 h2 h3 h4 h5 h6 h7 h8 h9 h10 h11)
theorem fin_main_cst_67 : AllReal (val_main_cst_67 (F := Ideal)) := by
  unfold val_main_cst_67
  exact allReal_constant_one
theorem fin_main_v419 : AllReal (val_main_v419 (F := Ideal)) := by
  unfold val_main_v419
  exact allReal_broadcastInDim (fin_main_cst_67)
theorem fin_main_cst_68 : AllReal (val_main_cst_68 (F := Ideal)) := by
  unfold val_main_cst_68
  exact allReal_constant_zero
theorem fin_main_v420 : AllReal (val_main_v420 (F := Ideal)) := by
  unfold val_main_v420
  exact allReal_broadcastInDim (fin_main_cst_68)
theorem fin_main_v422 (x26 : (⟨S2x200000, .i32⟩ : BufTy).Contents (Elt Ideal)) : AllReal (val_main_v422 (F := Ideal) x26) := by
  unfold val_main_v422
  exact allReal_scatterAdd (fin_main_v420) (fin_main_v419)
theorem oneLe_main_cst_69 : ∀ i, (1 : EReal) ≤ val_main_cst_69 (F := Ideal)  i := by
  unfold val_main_cst_69
  exact oneLe_constant_one
theorem fin_main_cst_69 : AllReal (val_main_cst_69 (F := Ideal)) := by
  unfold val_main_cst_69
  exact allReal_constant_one
theorem oneLe_main_v423 : ∀ i, (1 : EReal) ≤ val_main_v423 (F := Ideal)  i := by
  unfold val_main_v423
  exact oneLe_broadcastInDim (oneLe_main_cst_69)
theorem fin_main_v423 : AllReal (val_main_v423 (F := Ideal)) := by
  unfold val_main_v423
  exact allReal_broadcastInDim (fin_main_cst_69)
theorem oneLe_main_v424 (x26 : (⟨S2x200000, .i32⟩ : BufTy).Contents (Elt Ideal)) : ∀ i, (1 : EReal) ≤ val_main_v424 (F := Ideal) x26 i := by
  unfold val_main_v424
  exact oneLe_maximumf_right (oneLe_main_v423)
theorem fin_main_v424 (x26 : (⟨S2x200000, .i32⟩ : BufTy).Contents (Elt Ideal)) : AllReal (val_main_v424 (F := Ideal) x26) := by
  unfold val_main_v424
  exact allReal_maximumf (fin_main_v422 x26) (fin_main_v423)
theorem oneLe_main_v425 (x26 : (⟨S2x200000, .i32⟩ : BufTy).Contents (Elt Ideal)) : ∀ i, (1 : EReal) ≤ val_main_v425 (F := Ideal) x26 i := by
  unfold val_main_v425
  exact oneLe_broadcastInDim (oneLe_main_v424 x26)
theorem fin_main_v425 (x26 : (⟨S2x200000, .i32⟩ : BufTy).Contents (Elt Ideal)) : AllReal (val_main_v425 (F := Ideal) x26) := by
  unfold val_main_v425
  exact allReal_broadcastInDim (fin_main_v424 x26)
theorem oneLe_main_v426 (x26 : (⟨S2x200000, .i32⟩ : BufTy).Contents (Elt Ideal)) : ∀ i, (1 : EReal) ≤ val_main_v426 (F := Ideal) x26 i := by
  unfold val_main_v426
  exact oneLe_broadcastInDim (oneLe_main_v425 x26)
theorem fin_main_v426 (x26 : (⟨S2x200000, .i32⟩ : BufTy).Contents (Elt Ideal)) : AllReal (val_main_v426 (F := Ideal) x26) := by
  unfold val_main_v426
  exact allReal_broadcastInDim (fin_main_v425 x26)
theorem fin_main_v427 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v427 (F := Ideal) x0 x1 x2 x3 x4 x5 x6 x7 x8 x9 x10 x11 x25 x26) := by
  unfold val_main_v427
  exact allReal_divf (fin_main_v418 x0 x1 x2 x3 x4 x5 x6 x7 x8 x9 x10 x11 x25 x26 h0 h1 h2 h3 h4 h5 h6 h7 h8 h9 h10 h11) (fin_main_v426 x26) (oneLe_main_v426 x26)
theorem fin_main_v428 (x9 : (⟨S3x6x150x150, .f32⟩ : BufTy).Contents (Elt Ideal)) (h9 : AllReal x9) : AllReal (val_main_v428 (F := Ideal) x9) := by
  unfold val_main_v428
  exact allReal_extractStridedSlice h9
theorem fin_main_v429 (x9 : (⟨S3x6x150x150, .f32⟩ : BufTy).Contents (Elt Ideal)) (h9 : AllReal x9) : AllReal (val_main_v429 (F := Ideal) x9) := by
  unfold val_main_v429
  exact allReal_shapeCast (fin_main_v428 x9 h9)
theorem fin_main_v430 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v430 (F := Ideal) x0 x1 x2 x3 x4 x5 x6 x7 x8 x9 x10 x11 x25 x26) := by
  unfold val_main_v430
  exact allReal_dotGeneral (fin_main_v427 x0 x1 x2 x3 x4 x5 x6 x7 x8 x9 x10 x11 x25 x26 h0 h1 h2 h3 h4 h5 h6 h7 h8 h9 h10 h11) (fin_main_v429 x9 h9)
theorem fin_main_v431 (x10 : (⟨S3x6x150, .f32⟩ : BufTy).Contents (Elt Ideal)) (h10 : AllReal x10) : AllReal (val_main_v431 (F := Ideal) x10) := by
  unfold val_main_v431
  exact allReal_extractStridedSlice h10
theorem fin_main_v432 (x10 : (⟨S3x6x150, .f32⟩ : BufTy).Contents (Elt Ideal)) (h10 : AllReal x10) : AllReal (val_main_v432 (F := Ideal) x10) := by
  unfold val_main_v432
  exact allReal_shapeCast (fin_main_v431 x10 h10)
theorem fin_main_v433 (x10 : (⟨S3x6x150, .f32⟩ : BufTy).Contents (Elt Ideal)) (h10 : AllReal x10) : AllReal (val_main_v433 (F := Ideal) x10) := by
  unfold val_main_v433
  exact allReal_broadcastInDim (fin_main_v432 x10 h10)
theorem fin_main_v434 (x10 : (⟨S3x6x150, .f32⟩ : BufTy).Contents (Elt Ideal)) (h10 : AllReal x10) : AllReal (val_main_v434 (F := Ideal) x10) := by
  unfold val_main_v434
  exact allReal_broadcastInDim (fin_main_v433 x10 h10)
theorem fin_main_v435 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v435 (F := Ideal) x0 x1 x2 x3 x4 x5 x6 x7 x8 x9 x10 x11 x25 x26) := by
  unfold val_main_v435
  exact allReal_addf (fin_main_v430 x0 x1 x2 x3 x4 x5 x6 x7 x8 x9 x10 x11 x25 x26 h0 h1 h2 h3 h4 h5 h6 h7 h8 h9 h10 h11) (fin_main_v434 x10 h10)
theorem fin_main_v436 (x11 : (⟨S3x6x150x150, .f32⟩ : BufTy).Contents (Elt Ideal)) (h11 : AllReal x11) : AllReal (val_main_v436 (F := Ideal) x11) := by
  unfold val_main_v436
  exact allReal_extractStridedSlice h11
theorem fin_main_v437 (x11 : (⟨S3x6x150x150, .f32⟩ : BufTy).Contents (Elt Ideal)) (h11 : AllReal x11) : AllReal (val_main_v437 (F := Ideal) x11) := by
  unfold val_main_v437
  exact allReal_shapeCast (fin_main_v436 x11 h11)
theorem fin_main_v438 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v438 (F := Ideal) x0 x1 x2 x3 x4 x5 x6 x7 x8 x9 x10 x11 x24 x26) := by
  unfold val_main_v438
  exact allReal_dotGeneral (fin_main_v227 x0 x1 x2 x3 x4 x5 x6 x7 x8 x9 x10 x11 x24 x26 h0 h1 h2 h3 h4 h5 h6 h7 h8 h9 h10 h11) (fin_main_v437 x11 h11)
theorem fin_main_v439 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v439 (F := Ideal) x0 x1 x2 x3 x4 x5 x6 x7 x8 x9 x10 x11 x24 x25 x26) := by
  unfold val_main_v439
  exact allReal_addf (fin_main_v435 x0 x1 x2 x3 x4 x5 x6 x7 x8 x9 x10 x11 x25 x26 h0 h1 h2 h3 h4 h5 h6 h7 h8 h9 h10 h11) (fin_main_v438 x0 x1 x2 x3 x4 x5 x6 x7 x8 x9 x10 x11 x24 x26 h0 h1 h2 h3 h4 h5 h6 h7 h8 h9 h10 h11)
theorem fin_main_v440 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v440 (F := Ideal) x0 x1 x2 x3 x4 x5 x6 x7 x8 x9 x10 x11 x24 x25 x26) := by
  unfold val_main_v440
  exact allReal_addf (fin_main_v404 x0 x1 x2 x3 x4 x5 x6 x7 x8 x9 x10 x11 x24 x25 x26 h0 h1 h2 h3 h4 h5 h6 h7 h8 h9 h10 h11) (fin_main_v439 x0 x1 x2 x3 x4 x5 x6 x7 x8 x9 x10 x11 x24 x25 x26 h0 h1 h2 h3 h4 h5 h6 h7 h8 h9 h10 h11)
theorem fin_main_call5_cst : AllReal (val_main_call5_cst (F := Ideal)) := by
  unfold val_main_call5_cst
  exact allReal_constant_zero
theorem fin_main_call5_v0 : AllReal (val_main_call5_v0 (F := Ideal)) := by
  unfold val_main_call5_v0
  exact allReal_broadcastInDim (fin_main_call5_cst)
theorem fin_main_v443 (x0 : (⟨S50000x768, .f32⟩ : BufTy).Contents (Elt Ideal)) (x1 : (⟨S2000x768, .f32⟩ : BufTy).Contents (Elt Ideal)) (x2 : (⟨S20000x1024, .f32⟩ : BufTy).Contents (Elt Ideal)) (x3 : (⟨S768x150, .f32⟩ : BufTy).Contents (Elt Ideal)) (x4 : (⟨S150, .f32⟩ : BufTy).Contents (Elt Ideal)) (x5 : (⟨S768x150, .f32⟩ : BufTy).Contents (Elt Ideal)) (x6 : (⟨S150, .f32⟩ : BufTy).Contents (Elt Ideal)) (x7 : (⟨S1024x150, .f32⟩ : BufTy).Contents (Elt Ideal)) (x8 : (⟨S150, .f32⟩ : BufTy).Contents (Elt Ideal)) (x9 : (⟨S3x6x150x150, .f32⟩ : BufTy).Contents (Elt Ideal)) (x10 : (⟨S3x6x150, .f32⟩ : BufTy).Contents (Elt Ideal)) (x11 : (⟨S3x6x150x150, .f32⟩ : BufTy).Contents (Elt Ideal)) (x24 : (⟨S2x500000, .i32⟩ : BufTy).Contents (Elt Ideal)) (x25 : (⟨S2x200000, .i32⟩ : BufTy).Contents (Elt Ideal)) (x26 : (⟨S2x200000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) (h9 : AllReal x9) (h10 : AllReal x10) (h11 : AllReal x11) : AllReal (val_main_v443 (F := Ideal) x0 x1 x2 x3 x4 x5 x6 x7 x8 x9 x10 x11 x24 x25 x26) := by
  unfold val_main_v443
  exact allReal_maximumf (fin_main_v440 x0 x1 x2 x3 x4 x5 x6 x7 x8 x9 x10 x11 x24 x25 x26 h0 h1 h2 h3 h4 h5 h6 h7 h8 h9 h10 h11) (fin_main_call5_v0)

end Cert.RefFinite

end
-- ==== Proof.RegionValue0.lean ====
/- Region 0 of the idealized kernel program, a linear layer out = x · w + b (rows of the whole array: 50000; row blocks: 25,
   of 2000 rows each; contraction length 768): the output array after the region, entry by entry, as a function of the
   operand arrays at the region's entry. First the body's stored value at an entry of a block (the matrix product read at
   an index through the contraction's one axis, the bias row repeated down the rows, the format changes the identity on
   the extended reals); then from the blocks to the array: the index maps' values over the grid, what each grid point
   writes back as its block of one whole-array function, the blocks' cover of the array. -/
import proofs.«138545_j63058709840619_2_alg».proof.Proof.FrameKIR0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The contraction's operand indices, axis by axis -/

/-- The left factor is read at the output's row. -/
theorem lhs0_0 (i : S2000x150.Idx) (q : dot_S2000x768_S768x150_S2000x150_1_0_0_1_n_n.contr.Idx) :
    (dot_S2000x768_S768x150_S2000x150_1_0_0_1_n_n.lhsIdx i q 0).val = (i 0).val := by
  unfold DotDims.lhsIdx
  rw [dif_neg (show ¬(0 : Fin S2000x768.rank) ∈ dot_S2000x768_S768x150_S2000x150_1_0_0_1_n_n.lhsBatch by decide), dif_pos (show (0 : Fin S2000x768.rank) ∈ dot_S2000x768_S768x150_S2000x150_1_0_0_1_n_n.lhsNonContracting by decide)]
  rfl
/-- The left factor's column is the contraction position. -/
theorem lhs0_1 (i : S2000x150.Idx) (q : dot_S2000x768_S768x150_S2000x150_1_0_0_1_n_n.contr.Idx) :
    (dot_S2000x768_S768x150_S2000x150_1_0_0_1_n_n.lhsIdx i q 1).val = (q ⟨0, by decide⟩).val :=
  dot_S2000x768_S768x150_S2000x150_1_0_0_1_n_n.lhsIdx_val_of_single rfl i q
/-- The right factor's row is the contraction position. -/
theorem rhs0_0 (i : S2000x150.Idx) (q : dot_S2000x768_S768x150_S2000x150_1_0_0_1_n_n.contr.Idx) :
    (dot_S2000x768_S768x150_S2000x150_1_0_0_1_n_n.rhsIdx i q 0).val = (q ⟨0, by decide⟩).val :=
  dot_S2000x768_S768x150_S2000x150_1_0_0_1_n_n.rhsIdx_val_of_single rfl i q
/-- The right factor is read at the output's column. -/
theorem rhs0_1 (i : S2000x150.Idx) (q : dot_S2000x768_S768x150_S2000x150_1_0_0_1_n_n.contr.Idx) :
    (dot_S2000x768_S768x150_S2000x150_1_0_0_1_n_n.rhsIdx i q 1).val = (i 1).val := by
  unfold DotDims.rhsIdx
  rw [dif_neg (show ¬(1 : Fin S768x150.rank) ∈ dot_S2000x768_S768x150_S2000x150_1_0_0_1_n_n.rhsBatch by decide), dif_pos (show (1 : Fin S768x150.rank) ∈ dot_S2000x768_S768x150_S2000x150_1_0_0_1_n_n.rhsNonContracting by decide)]
  rfl

/-! ## The body's stored value at an entry of a block -/

/-- The matrix product into the zero accumulator, at row `p` and column `q`: the sum over the 768 contraction positions
    of the products of row `p` of the left factor with column `q` of the right factor. -/
theorem matmul0_apply (a : FVec Ideal S2000x768 .bf16) (b : FVec Ideal S768x150 .bf16) (p : Fin 2000) (q : Fin 150) :
    matmul dot_S2000x768_S768x150_S2000x150_1_0_0_1_n_n none a b (constant (F := Ideal) S2000x150 .f32 0x00000000#32) (ix2 p q)
      = ∑ k : Fin 768, a (ix2 p k) * b (ix2 k q) := by
  simp only [matmul]
  rw [Ideal.matmul_constant_zero_apply, ← Equiv.sum_comp (contrEquiv1 dot_S2000x768_S768x150_S2000x150_1_0_0_1_n_n 768 rfl rfl).symm]
  refine Finset.sum_congr rfl fun k _ => ?_
  have hk := contrEquiv1_symm_val dot_S2000x768_S768x150_S2000x150_1_0_0_1_n_n 768 rfl rfl k
  have el : dot_S2000x768_S768x150_S2000x150_1_0_0_1_n_n.lhsIdx (ix2 p q) ((contrEquiv1 dot_S2000x768_S768x150_S2000x150_1_0_0_1_n_n 768 rfl rfl).symm k) = ix2 p k := funext fun a => Fin.ext (by
    match a with
    | ⟨0, _⟩ => exact lhs0_0 _ _
    | ⟨1, _⟩ => exact (lhs0_1 _ _).trans hk)
  have er : dot_S2000x768_S768x150_S2000x150_1_0_0_1_n_n.rhsIdx (ix2 p q) ((contrEquiv1 dot_S2000x768_S768x150_S2000x150_1_0_0_1_n_n 768 rfl rfl).symm k) = ix2 k q := funext fun a => Fin.ext (by
    match a with
    | ⟨0, _⟩ => exact (rhs0_0 _ _).trans hk
    | ⟨1, _⟩ => exact rhs0_1 _ _)
  rw [el, er]

/-- The bias row, cast to its own shape and repeated down the 2000 rows, at row `p` and column `q`: its entry in column `q`. -/
theorem bias0_apply (b : Vec Ideal S1x150 .f32) (p : Fin 2000) (q : Fin 150) :
    broadcastTo S2000x150 (shapeCast S1x150 b shapeCasts_S1x150_S1x150) broadcasts_S1x150_S2000x150 (ix2 p q) = b (ix2 0 q) := by
  rw [shapeCast_self]
  refine broadcastTo_apply b broadcasts_S1x150_S2000x150 (ix2 p q) (ix2 0 q) fun a => ?_
  match a with
  | ⟨0, _⟩ => show (0 : Nat) = if (1 : Nat) = 1 then 0 else _; rw [if_pos rfl]
  | ⟨1, _⟩ => show q.val = if (150 : Nat) = 1 then 0 else q.val; rw [if_neg (by decide)]

/-- The body's stored value at row `p` and column `q` of a block: the product's entry plus the bias row's (the format
    changes are the identity on the extended reals). -/
theorem pay0_apply (x : Vec Ideal S2000x768 .f32) (w : Vec Ideal S768x150 .f32) (b : Vec Ideal S1x150 .f32) (p : Fin 2000) (q : Fin 150) :
    k0_pay1 (F := Ideal) x w b (ix2 p q) = (∑ k : Fin 768, x (ix2 p k) * w (ix2 k q)) + b (ix2 0 q) := by
  unfold k0_pay1
  exact congrArg₂ (· + ·) (matmul0_apply (truncf .bf16 x bitsLt_bf16_f32) (truncf .bf16 w bitsLt_bf16_f32) p q) (bias0_apply b p q)

/-! ## From the blocks to the array -/

/-- The whole array the region leaves, as one function of the operand arrays: row `i 0` of `X` times column `i 1` of
    `W`, plus the bias row's entry in column `i 1`. -/
def lin0 (X : Vec Ideal S50000x768 .f32) (W : Vec Ideal S768x150 .f32) (B : Vec Ideal S1x150 .f32) : Vec Ideal S50000x150 .bf16 :=
  fun i => (∑ k : Fin 768, X (ix2 (i 0) k) * W (ix2 k (i 1))) + B (ix2 0 (i 1))

/-- The body's accesses are at zero offsets. -/
theorem zeros0 : (![0, 0] : Fin 2 → Nat) = fun _ => 0 := funext fun a => by
  match a with
  | ⟨0, _⟩ => rfl
  | ⟨1, _⟩ => rfl

/-- The index maps over the grid: the left factor's and the output's row blocks are the grid point's, every other
    block index is zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left factor's block at grid point `t` holds rows `2000 t … 2000 t + 1999` of its array. -/
theorem xblk0 (c : Dev nD) (t : Fin cfg0.N) (p : Fin 2000) (k : Fin 768) (r : Fin 50000) (hr : r.val = t.val * 2000 + p.val) :
    (iblk0 V c 0 t : Vec Ideal S2000x768 .f32) (ix2 p k) = (V c main_arg0 : Vec Ideal S50000x768 .f32) (ix2 r k) := by
  obtain ⟨e0, e1, -⟩ := idx0 t
  show (V c main_arg0 : Vec Ideal S50000x768 .f32) (((cfg0.win 0).blk t).view.emb (ix2 p k)) = _
  refine congrArg (V c main_arg0 : Vec Ideal S50000x768 .f32) (funext fun a => Fin.ext ?_)
  match a with
  | ⟨0, _⟩ => show win0_0.index t (0 : Fin 2) * 2000 + 1 * p.val = r.val; omega
  | ⟨1, _⟩ => show win0_0.index t (1 : Fin 2) * 768 + 1 * k.val = k.val; omega

/-- The right factor's block at every grid point is its whole array. -/
theorem wblk0 (c : Dev nD) (t : Fin cfg0.N) (k : Fin 768) (q : Fin 150) :
    (iblk0 V c 1 t : Vec Ideal S768x150 .f32) (ix2 k q) = (V c main_arg3 : Vec Ideal S768x150 .f32) (ix2 k q) := by
  obtain ⟨-, -, e2, e3, -⟩ := idx0 t
  show (V c main_arg3 : Vec Ideal S768x150 .f32) (((cfg0.win 1).blk t).view.emb (ix2 k q)) = _
  refine congrArg (V c main_arg3 : Vec Ideal S768x150 .f32) (funext fun a => Fin.ext ?_)
  match a with
  | ⟨0, _⟩ => show win0_1.index t (0 : Fin 2) * 768 + 1 * k.val = k.val; omega
  | ⟨1, _⟩ => show win0_1.index t (1 : Fin 2) * 150 + 1 * q.val = q.val; omega

/-- The bias row's block at every grid point is its whole array. -/
theorem bblk0 (c : Dev nD) (t : Fin cfg0.N) (q : Fin 150) :
    (iblk0 V c 2 t : Vec Ideal S1x150 .f32) (ix2 0 q) = (V c main_v0 : Vec Ideal S1x150 .f32) (ix2 0 q) := by
  obtain ⟨-, -, -, -, e4, e5, -⟩ := idx0 t
  show (V c main_v0 : Vec Ideal S1x150 .f32) (((cfg0.win 2).blk t).view.emb (ix2 0 q)) = _
  refine congrArg (V c main_v0 : Vec Ideal S1x150 .f32) (funext fun a => Fin.ext ?_)
  match a with
  | ⟨0, _⟩ => show win0_2.index t (0 : Fin 2) * 1 + 1 * 0 = 0; omega
  | ⟨1, _⟩ => show win0_2.index t (1 : Fin 2) * 150 + 1 * q.val = q.val; omega

/-- What grid point `t` writes back is its block of `lin0` of the operand arrays as the region finds them. -/
theorem flushed0_eq (c : Dev nD) (t : Fin cfg0.N) :
    (dat0 (F := Ideal) V c).flushed 3 t
      = ((cfg0.win 3).blk t).view.read (Elt Ideal) (lin0 (V c main_arg0) (V c main_arg3) (V c main_v0)) := by
  show (cfg0.win 3).cut (grid0.coords t) ((dat0 (F := Ideal) V c).after 3 t) = _
  rw [after0_3]
  unfold out0_3
  rw [View.canon_unit_zero zeros0]
  simp only [View.ld_unit_zero (S := S2000x768) zeros0, View.ld_unit_zero (S := S768x150) zeros0, View.ld_unit_zero (S := S1x150) zeros0]
  obtain ⟨-, -, -, -, -, -, e6, e7⟩ := idx0 t
  have ht : t.val < 25 := lt_of_lt_of_eq t.isLt N_0
  funext j
  obtain ⟨p, q, rfl⟩ : ∃ (p : Fin 2000) (q : Fin 150), j = ix2 p q := ⟨j 0, j 1, eq_ix2 j⟩
  have hr : t.val * 2000 + p.val < 50000 := by have := p.isLt; omega
  have hi : ((cfg0.win 3).blk t).view.emb (ix2 p q) = (ix2 ⟨t.val * 2000 + p.val, hr⟩ q : S50000x150.Idx) := funext fun a => Fin.ext (by
    match a with
    | ⟨0, _⟩ => show win0_3.index t (0 : Fin 2) * 2000 + 1 * p.val = t.val * 2000 + p.val; omega
    | ⟨1, _⟩ => show win0_3.index t (1 : Fin 2) * 150 + 1 * q.val = q.val; omega)
  show k0_pay1 (F := Ideal) (iblk0 V c 0 t) (iblk0 V c 1 t) (iblk0 V c 2 t) (ix2 p q)
    = lin0 (V c main_arg0) (V c main_arg3) (V c main_v0) (((cfg0.win 3).blk t).view.emb (ix2 p q))
  rw [hi]
  refine (pay0_apply (iblk0 V c 0 t) (iblk0 V c 1 t) (iblk0 V c 2 t) p q).trans ?_
  refine congrArg₂ (· + ·) (Finset.sum_congr rfl fun k _ => ?_) (bblk0 V c t q)
  exact congrArg₂ (· * ·) (xblk0 V c t p k ⟨t.val * 2000 + p.val, hr⟩ rfl) (wblk0 V c t k q)

/-- An index of the output array is in grid point `t`'s block iff each coordinate is in the block's range on its axis. -/
theorem mem_blk0 (t : Fin cfg0.N) (i : S50000x150.Idx) :
    i ∈ ((cfg0.win 3).blk t).view.set ↔ ∀ a : Fin 2, win0_3.index t a * S2000x150.size a ≤ (i a).val ∧ (i a).val < win0_3.index t a * S2000x150.size a + S2000x150.size a := by
  show i ∈ ((View.whole main_v1).slice (win0_3.rect t)).set ↔ _
  rw [View.set_slice_whole, Rect.mem_set_unit]
  exact Iff.rfl

/-- Every index of the output array is in the block of the grid point of its row block. -/
theorem cover0 (i : S50000x150.Idx) : ∃ t : Fin cfg0.N, (cfg0.win 3).flush t = true ∧ i ∈ ((cfg0.win 3).blk t).view.set := by
  have hi0 : (i 0).val < 50000 := (i 0).isLt
  have hi1 : (i 1).val < 150 := (i 1).isLt
  obtain ⟨t, ht⟩ : ∃ t : Fin cfg0.N, t.val = (i 0).val / 2000 := ⟨⟨(i 0).val / 2000, by rw [show cfg0.N = 25 from N_0]; omega⟩, rfl⟩
  obtain ⟨-, -, -, -, -, -, e6, e7⟩ := idx0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 150 ≤ (i 1).val ∧ (i 1).val < win0_3.index t (1 : Fin 2) * 150 + 150; omega

/-- The output array after the region is `lin0` of the operand arrays at the region's entry. -/
theorem final0 (c : Dev nD) :
    (dat0 (F := Ideal) V c).arrAt 3 cfg0.N = lin0 (V c main_arg0) (V c main_arg3) (V c main_v0) :=
  (dat0 (F := Ideal) V c).arrAt_eq_of_cover 3 (lin0 (V c main_arg0) (V c main_arg3) (V c main_v0)) (fun t _ => flushed0_eq V c t) cover0

/-- The operand arrays at the region's entry, at their literal vector types (so that their entries multiply and add as
    extended reals). -/
abbrev in0_x (c : Dev nD) : Vec Ideal S50000x768 .f32 := V c main_arg0
abbrev in0_w (c : Dev nD) : Vec Ideal S768x150 .f32 := V c main_arg3
abbrev in0_b (c : Dev nD) : Vec Ideal S1x150 .f32 := V c main_v0

/-- REGION 0's VALUE, over any names `X`, `W`, `B` of the operand arrays at the region's entry: entry (p, q) of the output
    array after the region is row `p` of the input times column `q` of the weight, plus the bias row's entry in column `q`. -/
theorem region0_at (c : Dev nD) (X : Vec Ideal S50000x768 .f32) (W : Vec Ideal S768x150 .f32) (B : Vec Ideal S1x150 .f32)
    (hX : X = V c main_arg0) (hW : W = V c main_arg3) (hB : B = V c main_v0) (p : Fin 50000) (q : Fin 150) :
    (dat0 (F := Ideal) V c).arrAt 3 cfg0.N (ix2 p q) = (∑ k : Fin 768, X (ix2 p k) * W (ix2 k q)) + B (ix2 0 q) := by
  subst hX hW hB
  exact congrFun (final0 V c) (ix2 p q)

/-- REGION 0's VALUE: entry (p, q) of the output array after the region is row `p` of the input times column `q` of the
    weight, plus the bias row's entry in column `q`. -/
theorem region0 (c : Dev nD) (p : Fin 50000) (q : Fin 150) :
    (dat0 (F := Ideal) V c).arrAt 3 cfg0.N (ix2 p q)
      = (∑ k : Fin 768, in0_x V c (ix2 p k) * in0_w V c (ix2 k q)) + in0_b V c (ix2 0 q) :=
  region0_at V c (in0_x V c) (in0_w V c) (in0_b V c) rfl rfl rfl p q

end Cert.KernelIdeal.RegionValue

end
-- ==== Proof.Step0.lean ====
/-
  Launch 0 (a linear layer): at the exit of the launch the kernel's output array is, entry by entry, the
  reference's `x @ W + b`.

  The kernel side: entry (p, q) of the output array is the sum over k of the input's entry (p, k) times the weight's
  entry (k, q), plus entry (0, q) of the bias kept as a [1 × 150] row; the row is the [150] bias vector under a change
  of shape that adds a leading unit axis, so its entry (0, q) is the vector's entry q. The input, the weight and the
  bias are argument arrays, which hold at the launch what the memory held at the start.

  The reference side: the matrix product read at (p, q) is the same sum, and the bias broadcast first to [1 × 150]
  and then along the rows reads the vector at q.
-/
import proofs.«138545_j63058709840619_2_alg».proof.Proof.FrameKIW
import proofs.«138545_j63058709840619_2_alg».proof.Proof.RegionValue0
import proofs.«138545_j63058709840619_2_alg».proof.Proof.RefRead
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.ShloMosaic.ValueIdx Idealize.ShloMosaic.StableHlo
open Idealize.SL Idealize.SL.Sem

/-- The reference's linear layer at entry (p, q): row `p` of the input against column `q` of the weight, plus the
    bias at `q`. -/
theorem ref_linear0
    (x : (⟨Cert.ReferenceIdeal.S50000x768, .f32⟩ : BufTy).Contents (Elt Ideal))
    (w : (⟨Cert.ReferenceIdeal.S768x150, .f32⟩ : BufTy).Contents (Elt Ideal))
    (b : (⟨Cert.ReferenceIdeal.S150, .f32⟩ : BufTy).Contents (Elt Ideal)) (p : Fin 50000) (q : Fin 150) :
    Cert.ReferenceIdeal.Read.val_main_v3 (F := Ideal) x w b (ix2 p q)
      = (∑ k : Fin 768, x (ix2 p k) * w (ix2 k q)) + b (ix1 q) := by
  rw [Cert.ReferenceIdeal.Read.val_main_v3_apply, Cert.ReferenceIdeal.Read.val_main_v0_apply,
    Cert.ReferenceIdeal.Read.val_main_v2_apply, Cert.ReferenceIdeal.Read.val_main_v1_apply, Ideal.addf_def]
  -- the indices the reads name are the coordinates written out
  have hl : ∀ k : Fin 768, Cert.ReferenceIdeal.Read.lidx_main_v0 (ix2 p q) k = ix2 p k := fun k =>
    funext fun a => Fin.ext (by match a with | ⟨0, _⟩ => rfl | ⟨1, _⟩ => rfl)
  have hr : ∀ k : Fin 768, Cert.ReferenceIdeal.Read.ridx_main_v0 (ix2 p q) k = ix2 k q := fun k =>
    funext fun a => Fin.ext (by match a with | ⟨0, _⟩ => rfl | ⟨1, _⟩ => rfl)
  have hb : Cert.ReferenceIdeal.Read.idx_main_v1 (Cert.ReferenceIdeal.Read.idx_main_v2 (ix2 p q)) = ix1 q :=
    funext fun a => Fin.ext (by match a with | ⟨0, _⟩ => rfl)
  simp only [hl, hr, hb]

/-- Launch 0: the kernel's output array at the launch's exit is the reference's linear layer of the same
    arguments. -/
theorem step0 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W2 (F := Ideal) m ρ c (Proc.devRef .tc Cert.KernelIdeal.main_v1) :
        Cert.ReferenceIdeal.S50000x150.Idx → EReal)
      = Cert.ReferenceIdeal.Read.val_main_v3 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  funext i
  obtain ⟨p, q, rfl⟩ : ∃ (p : Fin 50000) (q : Fin 150), i = ix2 p q := ⟨i 0, i 1, eq_ix2 i⟩
  -- at the exit of the launch the output array is what the launch leaves in the array of its output window
  have hL : W2 (F := Ideal) m ρ c (Proc.devRef .tc main_v1) = (dat0 (F := Ideal) (V1 m ρ) c).arrAt 3 cfg0.N :=
    W2_arr m ρ c 3
  -- the operands at the launch's entry: the input and the weight are the arguments as at the start,
  have ex : V1 (F := Ideal) m ρ c main_arg0 = m ((c.tc : Thread nD τ).loc main_arg0) := by
    show StableHlo.after hostOps0 (W0 m ρ c) (Proc.devRef .tc main_arg0) = _
    after_results
    all_goals rfl
  have ew : V1 (F := Ideal) m ρ c main_arg3 = m ((c.tc : Thread nD τ).loc main_arg3) := by
    show StableHlo.after hostOps0 (W0 m ρ c) (Proc.devRef .tc main_arg3) = _
    after_results
    all_goals rfl
  -- and the bias row is the bias vector with a leading unit axis added
  have eb : (V1 (F := Ideal) m ρ c main_v0 : Cert.KernelIdeal.S1x150.Idx → EReal)
      = shapeCast Cert.KernelIdeal.S1x150
          (m ((c.tc : Thread nD τ).loc main_arg4) : Cert.KernelIdeal.S150.Idx → EReal) shapeCasts_S150_S1x150 := by
    show (StableHlo.after hostOps0 (W0 m ρ c) (Proc.devRef .tc main_v0) : Cert.KernelIdeal.S1x150.Idx → EReal) = _
    after_results
    rfl
  have hB : (fun i : Cert.KernelIdeal.S1x150.Idx =>
        (m ((c.tc : Thread nD τ).loc main_arg4) : Cert.KernelIdeal.S150.Idx → EReal) (ix1 (i 1)))
      = (V1 (F := Ideal) m ρ c main_v0 : Cert.KernelIdeal.S1x150.Idx → EReal) := by
    rw [eb]
    funext i
    obtain ⟨u, j, rfl⟩ : ∃ (u : Fin 1) (j : Fin 150), i = ix2 u j := ⟨i 0, i 1, eq_ix2 i⟩
    exact (shapeCast_a_1a_apply _ _ u j).symm
  refine (congrFun hL (ix2 p q)).trans ?_
  -- the launch's value at the entry, over these three arrays
  refine (Cert.KernelIdeal.RegionValue.region0_at (V1 m ρ) c _ _ _ ex.symm ew.symm hB p q).trans ?_
  exact (ref_linear0 _ _ _ p q).symm

end Cert.Bridge

end
-- ==== Proof.RegionValue1.lean ====
/- Region 1 of the idealized kernel program, a linear layer out = x · w + b (rows of the whole array: 2000; row blocks: 1,
   of 2000 rows each; contraction length 768): the output array after the region, entry by entry, as a function of the
   operand arrays at the region's entry. First the body's stored value at an entry of a block (the matrix product read at
   an index through the contraction's one axis, the bias row repeated down the rows, the format changes the identity on
   the extended reals); then from the blocks to the array: the index maps' values over the grid, what each grid point
   writes back as its block of one whole-array function, the blocks' cover of the array. -/
import proofs.«138545_j63058709840619_2_alg».proof.Proof.FrameKIR1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The contraction's operand indices, axis by axis -/

/-- The left factor is read at the output's row. -/
theorem lhs1_0 (i : S2000x150.Idx) (q : dot_S2000x768_S768x150_S2000x150_1_0_0_1_n_n.contr.Idx) :
    (dot_S2000x768_S768x150_S2000x150_1_0_0_1_n_n.lhsIdx i q 0).val = (i 0).val := by
  unfold DotDims.lhsIdx
  rw [dif_neg (show ¬(0 : Fin S2000x768.rank) ∈ dot_S2000x768_S768x150_S2000x150_1_0_0_1_n_n.lhsBatch by decide), dif_pos (show (0 : Fin S2000x768.rank) ∈ dot_S2000x768_S768x150_S2000x150_1_0_0_1_n_n.lhsNonContracting by decide)]
  rfl
/-- The left factor's column is the contraction position. -/
theorem lhs1_1 (i : S2000x150.Idx) (q : dot_S2000x768_S768x150_S2000x150_1_0_0_1_n_n.contr.Idx) :
    (dot_S2000x768_S768x150_S2000x150_1_0_0_1_n_n.lhsIdx i q 1).val = (q ⟨0, by decide⟩).val :=
  dot_S2000x768_S768x150_S2000x150_1_0_0_1_n_n.lhsIdx_val_of_single rfl i q
/-- The right factor's row is the contraction position. -/
theorem rhs1_0 (i : S2000x150.Idx) (q : dot_S2000x768_S768x150_S2000x150_1_0_0_1_n_n.contr.Idx) :
    (dot_S2000x768_S768x150_S2000x150_1_0_0_1_n_n.rhsIdx i q 0).val = (q ⟨0, by decide⟩).val :=
  dot_S2000x768_S768x150_S2000x150_1_0_0_1_n_n.rhsIdx_val_of_single rfl i q
/-- The right factor is read at the output's column. -/
theorem rhs1_1 (i : S2000x150.Idx) (q : dot_S2000x768_S768x150_S2000x150_1_0_0_1_n_n.contr.Idx) :
    (dot_S2000x768_S768x150_S2000x150_1_0_0_1_n_n.rhsIdx i q 1).val = (i 1).val := by
  unfold DotDims.rhsIdx
  rw [dif_neg (show ¬(1 : Fin S768x150.rank) ∈ dot_S2000x768_S768x150_S2000x150_1_0_0_1_n_n.rhsBatch by decide), dif_pos (show (1 : Fin S768x150.rank) ∈ dot_S2000x768_S768x150_S2000x150_1_0_0_1_n_n.rhsNonContracting by decide)]
  rfl

/-! ## The body's stored value at an entry of a block -/

/-- The matrix product into the zero accumulator, at row `p` and column `q`: the sum over the 768 contraction positions
    of the products of row `p` of the left factor with column `q` of the right factor. -/
theorem matmul1_apply (a : FVec Ideal S2000x768 .bf16) (b : FVec Ideal S768x150 .bf16) (p : Fin 2000) (q : Fin 150) :
    matmul dot_S2000x768_S768x150_S2000x150_1_0_0_1_n_n none a b (constant (F := Ideal) S2000x150 .f32 0x00000000#32) (ix2 p q)
      = ∑ k : Fin 768, a (ix2 p k) * b (ix2 k q) := by
  simp only [matmul]
  rw [Ideal.matmul_constant_zero_apply, ← Equiv.sum_comp (contrEquiv1 dot_S2000x768_S768x150_S2000x150_1_0_0_1_n_n 768 rfl rfl).symm]
  refine Finset.sum_congr rfl fun k _ => ?_
  have hk := contrEquiv1_symm_val dot_S2000x768_S768x150_S2000x150_1_0_0_1_n_n 768 rfl rfl k
  have el : dot_S2000x768_S768x150_S2000x150_1_0_0_1_n_n.lhsIdx (ix2 p q) ((contrEquiv1 dot_S2000x768_S768x150_S2000x150_1_0_0_1_n_n 768 rfl rfl).symm k) = ix2 p k := funext fun a => Fin.ext (by
    match a with
    | ⟨0, _⟩ => exact lhs1_0 _ _
    | ⟨1, _⟩ => exact (lhs1_1 _ _).trans hk)
  have er : dot_S2000x768_S768x150_S2000x150_1_0_0_1_n_n.rhsIdx (ix2 p q) ((contrEquiv1 dot_S2000x768_S768x150_S2000x150_1_0_0_1_n_n 768 rfl rfl).symm k) = ix2 k q := funext fun a => Fin.ext (by
    match a with
    | ⟨0, _⟩ => exact (rhs1_0 _ _).trans hk
    | ⟨1, _⟩ => exact rhs1_1 _ _)
  rw [el, er]

/-- The bias row, cast to its own shape and repeated down the 2000 rows, at row `p` and column `q`: its entry in column `q`. -/
theorem bias1_apply (b : Vec Ideal S1x150 .f32) (p : Fin 2000) (q : Fin 150) :
    broadcastTo S2000x150 (shapeCast S1x150 b shapeCasts_S1x150_S1x150) broadcasts_S1x150_S2000x150 (ix2 p q) = b (ix2 0 q) := by
  rw [shapeCast_self]
  refine broadcastTo_apply b broadcasts_S1x150_S2000x150 (ix2 p q) (ix2 0 q) fun a => ?_
  match a with
  | ⟨0, _⟩ => show (0 : Nat) = if (1 : Nat) = 1 then 0 else _; rw [if_pos rfl]
  | ⟨1, _⟩ => show q.val = if (150 : Nat) = 1 then 0 else q.val; rw [if_neg (by decide)]

/-- The body's stored value at row `p` and column `q` of a block: the product's entry plus the bias row's (the format
    changes are the identity on the extended reals). -/
theorem pay1_apply (x : Vec Ideal S2000x768 .f32) (w : Vec Ideal S768x150 .f32) (b : Vec Ideal S1x150 .f32) (p : Fin 2000) (q : Fin 150) :
    k1_pay1 (F := Ideal) x w b (ix2 p q) = (∑ k : Fin 768, x (ix2 p k) * w (ix2 k q)) + b (ix2 0 q) := by
  unfold k1_pay1
  exact congrArg₂ (· + ·) (matmul1_apply (truncf .bf16 x bitsLt_bf16_f32) (truncf .bf16 w bitsLt_bf16_f32) p q) (bias1_apply b p q)

/-! ## From the blocks to the array -/

/-- The whole array the region leaves, as one function of the operand arrays: row `i 0` of `X` times column `i 1` of
    `W`, plus the bias row's entry in column `i 1`. -/
def lin1 (X : Vec Ideal S2000x768 .f32) (W : Vec Ideal S768x150 .f32) (B : Vec Ideal S1x150 .f32) : Vec Ideal S2000x150 .bf16 :=
  fun i => (∑ k : Fin 768, X (ix2 (i 0) k) * W (ix2 k (i 1))) + B (ix2 0 (i 1))

/-- The body's accesses are at zero offsets. -/
theorem zeros1 : (![0, 0] : Fin 2 → Nat) = fun _ => 0 := funext fun a => by
  match a with
  | ⟨0, _⟩ => rfl
  | ⟨1, _⟩ => rfl

/-- The index maps over the grid: the left factor's and the output's row blocks are the grid point's, every other
    block index is zero. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left factor's block at grid point `t` holds rows `2000 t … 2000 t + 1999` of its array. -/
theorem xblk1 (c : Dev nD) (t : Fin cfg1.N) (p : Fin 2000) (k : Fin 768) (r : Fin 2000) (hr : r.val = t.val * 2000 + p.val) :
    (iblk1 V c 0 t : Vec Ideal S2000x768 .f32) (ix2 p k) = (V c main_arg1 : Vec Ideal S2000x768 .f32) (ix2 r k) := by
  obtain ⟨e0, e1, -⟩ := idx1 t
  show (V c main_arg1 : Vec Ideal S2000x768 .f32) (((cfg1.win 0).blk t).view.emb (ix2 p k)) = _
  refine congrArg (V c main_arg1 : Vec Ideal S2000x768 .f32) (funext fun a => Fin.ext ?_)
  match a with
  | ⟨0, _⟩ => show win1_0.index t (0 : Fin 2) * 2000 + 1 * p.val = r.val; omega
  | ⟨1, _⟩ => show win1_0.index t (1 : Fin 2) * 768 + 1 * k.val = k.val; omega

/-- The right factor's block at every grid point is its whole array. -/
theorem wblk1 (c : Dev nD) (t : Fin cfg1.N) (k : Fin 768) (q : Fin 150) :
    (iblk1 V c 1 t : Vec Ideal S768x150 .f32) (ix2 k q) = (V c main_arg5 : Vec Ideal S768x150 .f32) (ix2 k q) := by
  obtain ⟨-, -, e2, e3, -⟩ := idx1 t
  show (V c main_arg5 : Vec Ideal S768x150 .f32) (((cfg1.win 1).blk t).view.emb (ix2 k q)) = _
  refine congrArg (V c main_arg5 : Vec Ideal S768x150 .f32) (funext fun a => Fin.ext ?_)
  match a with
  | ⟨0, _⟩ => show win1_1.index t (0 : Fin 2) * 768 + 1 * k.val = k.val; omega
  | ⟨1, _⟩ => show win1_1.index t (1 : Fin 2) * 150 + 1 * q.val = q.val; omega

/-- The bias row's block at every grid point is its whole array. -/
theorem bblk1 (c : Dev nD) (t : Fin cfg1.N) (q : Fin 150) :
    (iblk1 V c 2 t : Vec Ideal S1x150 .f32) (ix2 0 q) = (V c main_v2 : Vec Ideal S1x150 .f32) (ix2 0 q) := by
  obtain ⟨-, -, -, -, e4, e5, -⟩ := idx1 t
  show (V c main_v2 : Vec Ideal S1x150 .f32) (((cfg1.win 2).blk t).view.emb (ix2 0 q)) = _
  refine congrArg (V c main_v2 : Vec Ideal S1x150 .f32) (funext fun a => Fin.ext ?_)
  match a with
  | ⟨0, _⟩ => show win1_2.index t (0 : Fin 2) * 1 + 1 * 0 = 0; omega
  | ⟨1, _⟩ => show win1_2.index t (1 : Fin 2) * 150 + 1 * q.val = q.val; omega

/-- What grid point `t` writes back is its block of `lin1` of the operand arrays as the region finds them. -/
theorem flushed1_eq (c : Dev nD) (t : Fin cfg1.N) :
    (dat1 (F := Ideal) V c).flushed 3 t
      = ((cfg1.win 3).blk t).view.read (Elt Ideal) (lin1 (V c main_arg1) (V c main_arg5) (V c main_v2)) := by
  show (cfg1.win 3).cut (grid1.coords t) ((dat1 (F := Ideal) V c).after 3 t) = _
  rw [after1_3]
  unfold out1_3
  rw [View.canon_unit_zero zeros1]
  simp only [View.ld_unit_zero (S := S2000x768) zeros1, View.ld_unit_zero (S := S768x150) zeros1, View.ld_unit_zero (S := S1x150) zeros1]
  obtain ⟨-, -, -, -, -, -, e6, e7⟩ := idx1 t
  have ht : t.val < 1 := lt_of_lt_of_eq t.isLt N_1
  funext j
  obtain ⟨p, q, rfl⟩ : ∃ (p : Fin 2000) (q : Fin 150), j = ix2 p q := ⟨j 0, j 1, eq_ix2 j⟩
  have hr : t.val * 2000 + p.val < 2000 := by have := p.isLt; omega
  have hi : ((cfg1.win 3).blk t).view.emb (ix2 p q) = (ix2 ⟨t.val * 2000 + p.val, hr⟩ q : S2000x150.Idx) := funext fun a => Fin.ext (by
    match a with
    | ⟨0, _⟩ => show win1_3.index t (0 : Fin 2) * 2000 + 1 * p.val = t.val * 2000 + p.val; omega
    | ⟨1, _⟩ => show win1_3.index t (1 : Fin 2) * 150 + 1 * q.val = q.val; omega)
  show k1_pay1 (F := Ideal) (iblk1 V c 0 t) (iblk1 V c 1 t) (iblk1 V c 2 t) (ix2 p q)
    = lin1 (V c main_arg1) (V c main_arg5) (V c main_v2) (((cfg1.win 3).blk t).view.emb (ix2 p q))
  rw [hi]
  refine (pay1_apply (iblk1 V c 0 t) (iblk1 V c 1 t) (iblk1 V c 2 t) p q).trans ?_
  refine congrArg₂ (· + ·) (Finset.sum_congr rfl fun k _ => ?_) (bblk1 V c t q)
  exact congrArg₂ (· * ·) (xblk1 V c t p k ⟨t.val * 2000 + p.val, hr⟩ rfl) (wblk1 V c t k q)

/-- An index of the output array is in grid point `t`'s block iff each coordinate is in the block's range on its axis. -/
theorem mem_blk1 (t : Fin cfg1.N) (i : S2000x150.Idx) :
    i ∈ ((cfg1.win 3).blk t).view.set ↔ ∀ a : Fin 2, win1_3.index t a * S2000x150.size a ≤ (i a).val ∧ (i a).val < win1_3.index t a * S2000x150.size a + S2000x150.size a := by
  show i ∈ ((View.whole main_v3).slice (win1_3.rect t)).set ↔ _
  rw [View.set_slice_whole, Rect.mem_set_unit]
  exact Iff.rfl

/-- Every index of the output array is in the block of the grid point of its row block. -/
theorem cover1 (i : S2000x150.Idx) : ∃ t : Fin cfg1.N, (cfg1.win 3).flush t = true ∧ i ∈ ((cfg1.win 3).blk t).view.set := by
  have hi0 : (i 0).val < 2000 := (i 0).isLt
  have hi1 : (i 1).val < 150 := (i 1).isLt
  obtain ⟨t, ht⟩ : ∃ t : Fin cfg1.N, t.val = (i 0).val / 2000 := ⟨⟨(i 0).val / 2000, by rw [show cfg1.N = 1 from N_1]; omega⟩, rfl⟩
  obtain ⟨-, -, -, -, -, -, e6, e7⟩ := idx1 t
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 150 ≤ (i 1).val ∧ (i 1).val < win1_3.index t (1 : Fin 2) * 150 + 150; omega

/-- The output array after the region is `lin1` of the operand arrays at the region's entry. -/
theorem final1 (c : Dev nD) :
    (dat1 (F := Ideal) V c).arrAt 3 cfg1.N = lin1 (V c main_arg1) (V c main_arg5) (V c main_v2) :=
  (dat1 (F := Ideal) V c).arrAt_eq_of_cover 3 (lin1 (V c main_arg1) (V c main_arg5) (V c main_v2)) (fun t _ => flushed1_eq V c t) cover1

/-- The operand arrays at the region's entry, at their literal vector types (so that their entries multiply and add as
    extended reals). -/
abbrev in1_x (c : Dev nD) : Vec Ideal S2000x768 .f32 := V c main_arg1
abbrev in1_w (c : Dev nD) : Vec Ideal S768x150 .f32 := V c main_arg5
abbrev in1_b (c : Dev nD) : Vec Ideal S1x150 .f32 := V c main_v2

/-- REGION 1's VALUE, over any names `X`, `W`, `B` of the operand arrays at the region's entry: entry (p, q) of the output
    array after the region is row `p` of the input times column `q` of the weight, plus the bias row's entry in column `q`. -/
theorem region1_at (c : Dev nD) (X : Vec Ideal S2000x768 .f32) (W : Vec Ideal S768x150 .f32) (B : Vec Ideal S1x150 .f32)
    (hX : X = V c main_arg1) (hW : W = V c main_arg5) (hB : B = V c main_v2) (p : Fin 2000) (q : Fin 150) :
    (dat1 (F := Ideal) V c).arrAt 3 cfg1.N (ix2 p q) = (∑ k : Fin 768, X (ix2 p k) * W (ix2 k q)) + B (ix2 0 q) := by
  subst hX hW hB
  exact congrFun (final1 V c) (ix2 p q)

/-- REGION 1's VALUE: entry (p, q) of the output array after the region is row `p` of the input times column `q` of the
    weight, plus the bias row's entry in column `q`. -/
theorem region1 (c : Dev nD) (p : Fin 2000) (q : Fin 150) :
    (dat1 (F := Ideal) V c).arrAt 3 cfg1.N (ix2 p q)
      = (∑ k : Fin 768, in1_x V c (ix2 p k) * in1_w V c (ix2 k q)) + in1_b V c (ix2 0 q) :=
  region1_at V c (in1_x V c) (in1_w V c) (in1_b V c) rfl rfl rfl p q

end Cert.KernelIdeal.RegionValue

end
-- ==== Proof.CarryWrites.lean ====
/-
  What each stretch of host operations writes. A buffer that is none of a stretch's result references holds after the
  stretch what it held before it: here, once per stretch, the list of its result references and the fact that every
  operation of the stretch writes only one of them, so that carrying a buffer across the stretch is one membership test.
-/
import proofs.«138545_j63058709840619_2_alg».proof.Proof.FrameKIW

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- An operation that writes the one reference `y`, a member of the list `W`, writes inside `W`. -/
theorem writes_sub_of_mem {Val : EltTy → Type} {W : List (Ref sig .tc)} {op : HloOp τ sig Val} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The references the 1 operation of host stretch 0 write, in order. -/
abbrev writes0 : List (Ref sig .tc) :=
  [
    main_v0 ]
/-- Every operation of host stretch 0 writes only a reference of `writes0`. -/
theorem hostOps0_writes : (hostOps0 : List (HloOp τ sig (Elt F))).Forall fun op =>
    op.writes ⊆ (writes0.map (Proc.devRef (τ := τ) .tc)).toFinset := by
  simp only [hostOps0, List.Forall]
  repeat' apply And.intro
  all_goals exact writes_sub_of_mem rfl (by decide)

/-- The references the 1 operation of host stretch 1 write, in order. -/
abbrev writes1 : List (Ref sig .tc) :=
  [
    main_v2 ]
/-- Every operation of host stretch 1 writes only a reference of `writes1`. -/
theorem hostOps1_writes : (hostOps1 : List (HloOp τ sig (Elt F))).Forall fun op =>
    op.writes ⊆ (writes1.map (Proc.devRef (τ := τ) .tc)).toFinset := by
  simp only [hostOps1, List.Forall]
  repeat' apply And.intro
  all_goals exact writes_sub_of_mem rfl (by decide)

/-- The references the 1 operation of host stretch 2 write, in order. -/
abbrev writes2 : List (Ref sig .tc) :=
  [
    main_v4 ]
/-- Every operation of host stretch 2 writes only a reference of `writes2`. -/
theorem hostOps2_writes : (hostOps2 : List (HloOp τ sig (Elt F))).Forall fun op =>
    op.writes ⊆ (writes2.map (Proc.devRef (τ := τ) .tc)).toFinset := by
  simp only [hostOps2, List.Forall]
  repeat' apply And.intro
  all_goals exact writes_sub_of_mem rfl (by decide)

/-- The references the 127 operations of host stretch 3 write, in order. -/
abbrev writes3 : List (Ref sig .tc) :=
  [
    main_v6, main_v7, main_cst, main_v8, main_cst_0, main_v9, main_v10, main_v11, main_cst_1, main_v12,
    main_v13, main_v14, main_v15, main_v16, main_cst_2, main_v17, main_cst_3, main_v18, main_v19, main_v20,
    main_cst_4, main_v21, main_v22, main_v23, main_v24, main_v25, main_cst_5, main_v26, main_cst_6, main_v27,
    main_v28, main_v29, main_cst_7, main_v30, main_v31, main_v32, main_v33, main_v34, main_cst_8, main_v35,
    main_cst_9, main_v36, main_v37, main_v38, main_cst_10, main_v39, main_v40, main_v41, main_v42, main_v43,
    main_cst_11, main_v44, main_cst_12, main_v45, main_v46, main_v47, main_cst_13, main_v48, main_v49, main_v50,
    main_v51, main_v52, main_cst_14, main_v53, main_cst_15, main_v54, main_v55, main_v56, main_cst_16, main_v57,
    main_v58, main_v59, main_v60, main_v61, main_v62, main_v63, main_c, main_v64, main_v65, main_c_17,
    main_v66, main_v67, main_v68, main_v69, main_v70, main_v71, main_cst_18, main_v72, main_v73, main_v74,
    main_v75, main_v76, main_v77, main_v78, main_v79, main_v80, main_c_19, main_v81, main_v82, main_c_20,
    main_v83, main_v84, main_v85, main_v86, main_v87, main_v88, main_cst_21, main_v89, main_v90, main_v91,
    main_v92, main_v93, main_v94, main_v95, main_v96, main_v97, main_v98, main_v99, main_v100, main_v101,
    main_v102, main_v103, main_v104, main_v105, main_v106, main_v107, main_v108 ]
/-- Every operation of host stretch 3 writes only a reference of `writes3`. -/
theorem hostOps3_writes : (hostOps3 : List (HloOp τ sig (Elt F))).Forall fun op =>
    op.writes ⊆ (writes3.map (Proc.devRef (τ := τ) .tc)).toFinset := by
  simp only [hostOps3, List.Forall]
  repeat' apply And.intro
  all_goals exact writes_sub_of_mem rfl (by decide)

/-- The references the 55 operations of host stretch 4 write, in order. -/
abbrev writes4 : List (Ref sig .tc) :=
  [
    main_v110, main_v111, main_v112, main_v113, main_c_22, main_v114, main_v115, main_c_23, main_v116, main_v117,
    main_v118, main_v119, main_v120, main_v121, main_cst_24, main_v122, main_v123, main_v124, main_v125, main_v126,
    main_v127, main_v128, main_v129, main_v130, main_c_25, main_v131, main_v132, main_c_26, main_v133, main_v134,
    main_v135, main_v136, main_v137, main_v138, main_cst_27, main_v139, main_v140, main_v141, main_v142, main_v143,
    main_v144, main_v145, main_v146, main_v147, main_v148, main_v149, main_v150, main_v151, main_v152, main_v153,
    main_v154, main_v155, main_v156, main_v157, main_v158 ]
/-- Every operation of host stretch 4 writes only a reference of `writes4`. -/
theorem hostOps4_writes : (hostOps4 : List (HloOp τ sig (Elt F))).Forall fun op =>
    op.writes ⊆ (writes4.map (Proc.devRef (τ := τ) .tc)).toFinset := by
  simp only [hostOps4, List.Forall]
  repeat' apply And.intro
  all_goals exact writes_sub_of_mem rfl (by decide)

/-- The references the 55 operations of host stretch 5 write, in order. -/
abbrev writes5 : List (Ref sig .tc) :=
  [
    main_v160, main_v161, main_v162, main_v163, main_c_28, main_v164, main_v165, main_c_29, main_v166, main_v167,
    main_v168, main_v169, main_v170, main_v171, main_cst_30, main_v172, main_v173, main_v174, main_v175, main_v176,
    main_v177, main_v178, main_v179, main_v180, main_c_31, main_v181, main_v182, main_c_32, main_v183, main_v184,
    main_v185, main_v186, main_v187, main_v188, main_cst_33, main_v189, main_v190, main_v191, main_v192, main_v193,
    main_v194, main_v195, main_v196, main_v197, main_v198, main_v199, main_v200, main_v201, main_v202, main_v203,
    main_v204, main_v205, main_v206, main_v207, main_v208 ]
/-- Every operation of host stretch 5 writes only a reference of `writes5`. -/
theorem hostOps5_writes : (hostOps5 : List (HloOp τ sig (Elt F))).Forall fun op =>
    op.writes ⊆ (writes5.map (Proc.devRef (τ := τ) .tc)).toFinset := by
  simp only [hostOps5, List.Forall]
  repeat' apply And.intro
  all_goals exact writes_sub_of_mem rfl (by decide)

/-- The references the 55 operations of host stretch 6 write, in order. -/
abbrev writes6 : List (Ref sig .tc) :=
  [
    main_v210, main_v211, main_v212, main_v213, main_c_34, main_v214, main_v215, main_c_35, main_v216, main_v217,
    main_v218, main_v219, main_v220, main_v221, main_cst_36, main_v222, main_v223, main_v224, main_v225, main_v226,
    main_v227, main_v228, main_v229, main_v230, main_c_37, main_v231, main_v232, main_c_38, main_v233, main_v234,
    main_v235, main_v236, main_v237, main_v238, main_cst_39, main_v239, main_v240, main_v241, main_v242, main_v243,
    main_v244, main_v245, main_v246, main_v247, main_v248, main_v249, main_v250, main_v251, main_v252, main_v253,
    main_v254, main_v255, main_v256, main_v257, main_v258 ]
/-- Every operation of host stretch 6 writes only a reference of `writes6`. -/
theorem hostOps6_writes : (hostOps6 : List (HloOp τ sig (Elt F))).Forall fun op =>
    op.writes ⊆ (writes6.map (Proc.devRef (τ := τ) .tc)).toFinset := by
  simp only [hostOps6, List.Forall]
  repeat' apply And.intro
  all_goals exact writes_sub_of_mem rfl (by decide)

/-- The references the 55 operations of host stretch 7 write, in order. -/
abbrev writes7 : List (Ref sig .tc) :=
  [
    main_v260, main_v261, main_v262, main_v263, main_c_40, main_v264, main_v265, main_c_41, main_v266, main_v267,
    main_v268, main_v269, main_v270, main_v271, main_cst_42, main_v272, main_v273, main_v274, main_v275, main_v276,
    main_v277, main_v278, main_v279, main_v280, main_c_43, main_v281, main_v282, main_c_44, main_v283, main_v284,
    main_v285, main_v286, main_v287, main_v288, main_cst_45, main_v289, main_v290, main_v291, main_v292, main_v293,
    main_v294, main_v295, main_v296, main_v297, main_v298, main_v299, main_v300, main_v301, main_v302, main_v303,
    main_v304, main_v305, main_v306, main_v307, main_v308 ]
/-- Every operation of host stretch 7 writes only a reference of `writes7`. -/
theorem hostOps7_writes : (hostOps7 : List (HloOp τ sig (Elt F))).Forall fun op =>
    op.writes ⊆ (writes7.map (Proc.devRef (τ := τ) .tc)).toFinset := by
  simp only [hostOps7, List.Forall]
  repeat' apply And.intro
  all_goals exact writes_sub_of_mem rfl (by decide)

/-- The references the 55 operations of host stretch 8 write, in order. -/
abbrev writes8 : List (Ref sig .tc) :=
  [
    main_v310, main_v311, main_v312, main_v313, main_c_46, main_v314, main_v315, main_c_47, main_v316, main_v317,
    main_v318, main_v319, main_v320, main_v321, main_cst_48, main_v322, main_v323, main_v324, main_v325, main_v326,
    main_v327, main_v328, main_v329, main_v330, main_c_49, main_v331, main_v332, main_c_50, main_v333, main_v334,
    main_v335, main_v336, main_v337, main_v338, main_cst_51, main_v339, main_v340, main_v341, main_v342, main_v343,
    main_v344, main_v345, main_v346, main_v347, main_v348, main_v349, main_v350, main_v351, main_v352, main_v353,
    main_v354, main_v355, main_v356, main_v357, main_v358 ]
/-- Every operation of host stretch 8 writes only a reference of `writes8`. -/
theorem hostOps8_writes : (hostOps8 : List (HloOp τ sig (Elt F))).Forall fun op =>
    op.writes ⊆ (writes8.map (Proc.devRef (τ := τ) .tc)).toFinset := by
  simp only [hostOps8, List.Forall]
  repeat' apply And.intro
  all_goals exact writes_sub_of_mem rfl (by decide)

/-- The references the 55 operations of host stretch 9 write, in order. -/
abbrev writes9 : List (Ref sig .tc) :=
  [
    main_v360, main_v361, main_v362, main_v363, main_c_52, main_v364, main_v365, main_c_53, main_v366, main_v367,
    main_v368, main_v369, main_v370, main_v371, main_cst_54, main_v372, main_v373, main_v374, main_v375, main_v376,
    main_v377, main_v378, main_v379, main_v380, main_c_55, main_v381, main_v382, main_c_56, main_v383, main_v384,
    main_v385, main_v386, main_v387, main_v388, main_cst_57, main_v389, main_v390, main_v391, main_v392, main_v393,
    main_v394, main_v395, main_v396, main_v397, main_v398, main_v399, main_v400, main_v401, main_v402, main_v403,
    main_v404, main_v405, main_v406, main_v407, main_v408 ]
/-- Every operation of host stretch 9 writes only a reference of `writes9`. -/
theorem hostOps9_writes : (hostOps9 : List (HloOp τ sig (Elt F))).Forall fun op =>
    op.writes ⊆ (writes9.map (Proc.devRef (τ := τ) .tc)).toFinset := by
  simp only [hostOps9, List.Forall]
  repeat' apply And.intro
  all_goals exact writes_sub_of_mem rfl (by decide)

/-- The references the 3 operations of host stretch 10 write, in order. -/
abbrev writes10 : List (Ref sig .tc) :=
  [
    main_v410, main_v411, main_v412 ]
/-- Every operation of host stretch 10 writes only a reference of `writes10`. -/
theorem hostOps10_writes : (hostOps10 : List (HloOp τ sig (Elt F))).Forall fun op =>
    op.writes ⊆ (writes10.map (Proc.devRef (τ := τ) .tc)).toFinset := by
  simp only [hostOps10, List.Forall]
  repeat' apply And.intro
  all_goals exact writes_sub_of_mem rfl (by decide)

/-- The references the 27 operations of host stretch 11 write, in order. -/
abbrev writes11 : List (Ref sig .tc) :=
  [
    main_v414, main_v415, main_c_58, main_v416, main_v417, main_c_59, main_v418, main_v419, main_v420, main_v421,
    main_v422, main_v423, main_v424, main_c_60, main_v425, main_v426, main_c_61, main_v427, main_v428, main_v429,
    main_v430, main_v431, main_v432, main_v433, main_v434, main_v435, main_v436 ]
/-- Every operation of host stretch 11 writes only a reference of `writes11`. -/
theorem hostOps11_writes : (hostOps11 : List (HloOp τ sig (Elt F))).Forall fun op =>
    op.writes ⊆ (writes11.map (Proc.devRef (τ := τ) .tc)).toFinset := by
  simp only [hostOps11, List.Forall]
  repeat' apply And.intro
  all_goals exact writes_sub_of_mem rfl (by decide)

end Cert.KernelIdeal.Carry

end
-- ==== Proof.Carry1.lean ====
/- What the buffers read by the host operations before launch 1 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at1_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

set_option maxHeartbeats 4000000 in
theorem at1_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

set_option maxHeartbeats 4000000 in
theorem at1_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

end Cert.KernelIdeal.Carry

end
-- ==== Proof.Step1.lean ====
/-
  Launch 1 (a linear layer): at the exit of the launch the kernel's output array is, entry by entry, the
  reference's `x @ W + b`.

  The kernel side: entry (p, q) of the output array is the sum over k of the input's entry (p, k) times the weight's
  entry (k, q), plus entry (0, q) of the bias kept as a [1 × 150] row; the row is the [150] bias vector under a change
  of shape that adds a leading unit axis, so its entry (0, q) is the vector's entry q. The input, the weight and the
  bias are argument arrays, which hold at the launch what the memory held at the start.

  The reference side: the matrix product read at (p, q) is the same sum, and the bias broadcast first to [1 × 150]
  and then along the rows reads the vector at q.
-/
import proofs.«138545_j63058709840619_2_alg».proof.Proof.FrameKIW
import proofs.«138545_j63058709840619_2_alg».proof.Proof.RegionValue1
import proofs.«138545_j63058709840619_2_alg».proof.Proof.RefRead
import proofs.«138545_j63058709840619_2_alg».proof.Proof.Carry1
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.ShloMosaic.ValueIdx Idealize.ShloMosaic.StableHlo
open Idealize.SL Idealize.SL.Sem

/-- The reference's linear layer at entry (p, q): row `p` of the input against column `q` of the weight, plus the
    bias at `q`. -/
theorem ref_linear1
    (x : (⟨Cert.ReferenceIdeal.S2000x768, .f32⟩ : BufTy).Contents (Elt Ideal))
    (w : (⟨Cert.ReferenceIdeal.S768x150, .f32⟩ : BufTy).Contents (Elt Ideal))
    (b : (⟨Cert.ReferenceIdeal.S150, .f32⟩ : BufTy).Contents (Elt Ideal)) (p : Fin 2000) (q : Fin 150) :
    Cert.ReferenceIdeal.Read.val_main_v7 (F := Ideal) x w b (ix2 p q)
      = (∑ k : Fin 768, x (ix2 p k) * w (ix2 k q)) + b (ix1 q) := by
  rw [Cert.ReferenceIdeal.Read.val_main_v7_apply, Cert.ReferenceIdeal.Read.val_main_v4_apply,
    Cert.ReferenceIdeal.Read.val_main_v6_apply, Cert.ReferenceIdeal.Read.val_main_v5_apply, Ideal.addf_def]
  -- the indices the reads name are the coordinates written out
  have hl : ∀ k : Fin 768, Cert.ReferenceIdeal.Read.lidx_main_v4 (ix2 p q) k = ix2 p k := fun k =>
    funext fun a => Fin.ext (by match a with | ⟨0, _⟩ => rfl | ⟨1, _⟩ => rfl)
  have hr : ∀ k : Fin 768, Cert.ReferenceIdeal.Read.ridx_main_v4 (ix2 p q) k = ix2 k q := fun k =>
    funext fun a => Fin.ext (by match a with | ⟨0, _⟩ => rfl | ⟨1, _⟩ => rfl)
  have hb : Cert.ReferenceIdeal.Read.idx_main_v5 (Cert.ReferenceIdeal.Read.idx_main_v6 (ix2 p q)) = ix1 q :=
    funext fun a => Fin.ext (by match a with | ⟨0, _⟩ => rfl)
  simp only [hl, hr, hb]

/-- Launch 1: the kernel's output array at the launch's exit is the reference's linear layer of the same
    arguments. -/
theorem step1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W4 (F := Ideal) m ρ c (Proc.devRef .tc Cert.KernelIdeal.main_v3) :
        Cert.ReferenceIdeal.S2000x150.Idx → EReal)
      = Cert.ReferenceIdeal.Read.val_main_v7 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  funext i
  obtain ⟨p, q, rfl⟩ : ∃ (p : Fin 2000) (q : Fin 150), i = ix2 p q := ⟨i 0, i 1, eq_ix2 i⟩
  -- at the exit of the launch the output array is what the launch leaves in the array of its output window
  have hL : W4 (F := Ideal) m ρ c (Proc.devRef .tc main_v3) = (dat1 (F := Ideal) (V3 m ρ) c).arrAt 3 cfg1.N :=
    W4_arr m ρ c 3
  -- the operands at the launch's entry: the input and the weight are the arguments as at the start,
  have ex : V3 (F := Ideal) m ρ c main_arg1 = m ((c.tc : Thread nD τ).loc main_arg1) := by
    show StableHlo.after hostOps1 (W2 m ρ c) (Proc.devRef .tc main_arg1) = _
    after_results
    exact Cert.KernelIdeal.Carry.at1_main_arg1 m ρ c
  have ew : V3 (F := Ideal) m ρ c main_arg5 = m ((c.tc : Thread nD τ).loc main_arg5) := by
    show StableHlo.after hostOps1 (W2 m ρ c) (Proc.devRef .tc main_arg5) = _
    after_results
    exact Cert.KernelIdeal.Carry.at1_main_arg5 m ρ c
  -- and the bias row is the bias vector with a leading unit axis added
  have eb : (V3 (F := Ideal) m ρ c main_v2 : Cert.KernelIdeal.S1x150.Idx → EReal)
      = shapeCast Cert.KernelIdeal.S1x150
          (m ((c.tc : Thread nD τ).loc main_arg6) : Cert.KernelIdeal.S150.Idx → EReal) shapeCasts_S150_S1x150 := by
    show (StableHlo.after hostOps1 (W2 m ρ c) (Proc.devRef .tc main_v2) : Cert.KernelIdeal.S1x150.Idx → EReal) = _
    after_results
    rw [Cert.KernelIdeal.Carry.at1_main_arg6 m ρ c]
    rfl
  have hB : (fun i : Cert.KernelIdeal.S1x150.Idx =>
        (m ((c.tc : Thread nD τ).loc main_arg6) : Cert.KernelIdeal.S150.Idx → EReal) (ix1 (i 1)))
      = (V3 (F := Ideal) m ρ c main_v2 : Cert.KernelIdeal.S1x150.Idx → EReal) := by
    rw [eb]
    funext i
    obtain ⟨u, j, rfl⟩ : ∃ (u : Fin 1) (j : Fin 150), i = ix2 u j := ⟨i 0, i 1, eq_ix2 i⟩
    exact (shapeCast_a_1a_apply _ _ u j).symm
  refine (congrFun hL (ix2 p q)).trans ?_
  -- the launch's value at the entry, over these three arrays
  refine (Cert.KernelIdeal.RegionValue.region1_at (V3 m ρ) c _ _ _ ex.symm ew.symm hB p q).trans ?_
  exact (ref_linear1 _ _ _ p q).symm

end Cert.Bridge

end
-- ==== Proof.RegionValue2.lean ====
/- Region 2 of the idealized kernel program, a linear layer out = x · w + b (rows of the whole array: 20000; row blocks: 10,
   of 2000 rows each; contraction length 1024): the output array after the region, entry by entry, as a function of the
   operand arrays at the region's entry. First the body's stored value at an entry of a block (the matrix product read at
   an index through the contraction's one axis, the bias row repeated down the rows, the format changes the identity on
   the extended reals); then from the blocks to the array: the index maps' values over the grid, what each grid point
   writes back as its block of one whole-array function, the blocks' cover of the array. -/
import proofs.«138545_j63058709840619_2_alg».proof.Proof.FrameKIR2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The contraction's operand indices, axis by axis -/

/-- The left factor is read at the output's row. -/
theorem lhs2_0 (i : S2000x150.Idx) (q : dot_S2000x1024_S1024x150_S2000x150_1_0_0_1_n_n.contr.Idx) :
    (dot_S2000x1024_S1024x150_S2000x150_1_0_0_1_n_n.lhsIdx i q 0).val = (i 0).val := by
  unfold DotDims.lhsIdx
  rw [dif_neg (show ¬(0 : Fin S2000x1024.rank) ∈ dot_S2000x1024_S1024x150_S2000x150_1_0_0_1_n_n.lhsBatch by decide), dif_pos (show (0 : Fin S2000x1024.rank) ∈ dot_S2000x1024_S1024x150_S2000x150_1_0_0_1_n_n.lhsNonContracting by decide)]
  rfl
/-- The left factor's column is the contraction position. -/
theorem lhs2_1 (i : S2000x150.Idx) (q : dot_S2000x1024_S1024x150_S2000x150_1_0_0_1_n_n.contr.Idx) :
    (dot_S2000x1024_S1024x150_S2000x150_1_0_0_1_n_n.lhsIdx i q 1).val = (q ⟨0, by decide⟩).val :=
  dot_S2000x1024_S1024x150_S2000x150_1_0_0_1_n_n.lhsIdx_val_of_single rfl i q
/-- The right factor's row is the contraction position. -/
theorem rhs2_0 (i : S2000x150.Idx) (q : dot_S2000x1024_S1024x150_S2000x150_1_0_0_1_n_n.contr.Idx) :
    (dot_S2000x1024_S1024x150_S2000x150_1_0_0_1_n_n.rhsIdx i q 0).val = (q ⟨0, by decide⟩).val :=
  dot_S2000x1024_S1024x150_S2000x150_1_0_0_1_n_n.rhsIdx_val_of_single rfl i q
/-- The right factor is read at the output's column. -/
theorem rhs2_1 (i : S2000x150.Idx) (q : dot_S2000x1024_S1024x150_S2000x150_1_0_0_1_n_n.contr.Idx) :
    (dot_S2000x1024_S1024x150_S2000x150_1_0_0_1_n_n.rhsIdx i q 1).val = (i 1).val := by
  unfold DotDims.rhsIdx
  rw [dif_neg (show ¬(1 : Fin S1024x150.rank) ∈ dot_S2000x1024_S1024x150_S2000x150_1_0_0_1_n_n.rhsBatch by decide), dif_pos (show (1 : Fin S1024x150.rank) ∈ dot_S2000x1024_S1024x150_S2000x150_1_0_0_1_n_n.rhsNonContracting by decide)]
  rfl

/-! ## The body's stored value at an entry of a block -/

/-- The matrix product into the zero accumulator, at row `p` and column `q`: the sum over the 1024 contraction positions
    of the products of row `p` of the left factor with column `q` of the right factor. -/
theorem matmul2_apply (a : FVec Ideal S2000x1024 .bf16) (b : FVec Ideal S1024x150 .bf16) (p : Fin 2000) (q : Fin 150) :
    matmul dot_S2000x1024_S1024x150_S2000x150_1_0_0_1_n_n none a b (constant (F := Ideal) S2000x150 .f32 0x00000000#32) (ix2 p q)
      = ∑ k : Fin 1024, a (ix2 p k) * b (ix2 k q) := by
  simp only [matmul]
  rw [Ideal.matmul_constant_zero_apply, ← Equiv.sum_comp (contrEquiv1 dot_S2000x1024_S1024x150_S2000x150_1_0_0_1_n_n 1024 rfl rfl).symm]
  refine Finset.sum_congr rfl fun k _ => ?_
  have hk := contrEquiv1_symm_val dot_S2000x1024_S1024x150_S2000x150_1_0_0_1_n_n 1024 rfl rfl k
  have el : dot_S2000x1024_S1024x150_S2000x150_1_0_0_1_n_n.lhsIdx (ix2 p q) ((contrEquiv1 dot_S2000x1024_S1024x150_S2000x150_1_0_0_1_n_n 1024 rfl rfl).symm k) = ix2 p k := funext fun a => Fin.ext (by
    match a with
    | ⟨0, _⟩ => exact lhs2_0 _ _
    | ⟨1, _⟩ => exact (lhs2_1 _ _).trans hk)
  have er : dot_S2000x1024_S1024x150_S2000x150_1_0_0_1_n_n.rhsIdx (ix2 p q) ((contrEquiv1 dot_S2000x1024_S1024x150_S2000x150_1_0_0_1_n_n 1024 rfl rfl).symm k) = ix2 k q := funext fun a => Fin.ext (by
    match a with
    | ⟨0, _⟩ => exact (rhs2_0 _ _).trans hk
    | ⟨1, _⟩ => exact rhs2_1 _ _)
  rw [el, er]

/-- The bias row, cast to its own shape and repeated down the 2000 rows, at row `p` and column `q`: its entry in column `q`. -/
theorem bias2_apply (b : Vec Ideal S1x150 .f32) (p : Fin 2000) (q : Fin 150) :
    broadcastTo S2000x150 (shapeCast S1x150 b shapeCasts_S1x150_S1x150) broadcasts_S1x150_S2000x150 (ix2 p q) = b (ix2 0 q) := by
  rw [shapeCast_self]
  refine broadcastTo_apply b broadcasts_S1x150_S2000x150 (ix2 p q) (ix2 0 q) fun a => ?_
  match a with
  | ⟨0, _⟩ => show (0 : Nat) = if (1 : Nat) = 1 then 0 else _; rw [if_pos rfl]
  | ⟨1, _⟩ => show q.val = if (150 : Nat) = 1 then 0 else q.val; rw [if_neg (by decide)]

/-- The body's stored value at row `p` and column `q` of a block: the product's entry plus the bias row's (the format
    changes are the identity on the extended reals). -/
theorem pay2_apply (x : Vec Ideal S2000x1024 .f32) (w : Vec Ideal S1024x150 .f32) (b : Vec Ideal S1x150 .f32) (p : Fin 2000) (q : Fin 150) :
    k2_pay1 (F := Ideal) x w b (ix2 p q) = (∑ k : Fin 1024, x (ix2 p k) * w (ix2 k q)) + b (ix2 0 q) := by
  unfold k2_pay1
  exact congrArg₂ (· + ·) (matmul2_apply (truncf .bf16 x bitsLt_bf16_f32) (truncf .bf16 w bitsLt_bf16_f32) p q) (bias2_apply b p q)

/-! ## From the blocks to the array -/

/-- The whole array the region leaves, as one function of the operand arrays: row `i 0` of `X` times column `i 1` of
    `W`, plus the bias row's entry in column `i 1`. -/
def lin2 (X : Vec Ideal S20000x1024 .f32) (W : Vec Ideal S1024x150 .f32) (B : Vec Ideal S1x150 .f32) : Vec Ideal S20000x150 .bf16 :=
  fun i => (∑ k : Fin 1024, X (ix2 (i 0) k) * W (ix2 k (i 1))) + B (ix2 0 (i 1))

/-- The body's accesses are at zero offsets. -/
theorem zeros2 : (![0, 0] : Fin 2 → Nat) = fun _ => 0 := funext fun a => by
  match a with
  | ⟨0, _⟩ => rfl
  | ⟨1, _⟩ => rfl

/-- The index maps over the grid: the left factor's and the output's row blocks are the grid point's, every other
    block index is zero. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left factor's block at grid point `t` holds rows `2000 t … 2000 t + 1999` of its array. -/
theorem xblk2 (c : Dev nD) (t : Fin cfg2.N) (p : Fin 2000) (k : Fin 1024) (r : Fin 20000) (hr : r.val = t.val * 2000 + p.val) :
    (iblk2 V c 0 t : Vec Ideal S2000x1024 .f32) (ix2 p k) = (V c main_arg2 : Vec Ideal S20000x1024 .f32) (ix2 r k) := by
  obtain ⟨e0, e1, -⟩ := idx2 t
  show (V c main_arg2 : Vec Ideal S20000x1024 .f32) (((cfg2.win 0).blk t).view.emb (ix2 p k)) = _
  refine congrArg (V c main_arg2 : Vec Ideal S20000x1024 .f32) (funext fun a => Fin.ext ?_)
  match a with
  | ⟨0, _⟩ => show win2_0.index t (0 : Fin 2) * 2000 + 1 * p.val = r.val; omega
  | ⟨1, _⟩ => show win2_0.index t (1 : Fin 2) * 1024 + 1 * k.val = k.val; omega

/-- The right factor's block at every grid point is its whole array. -/
theorem wblk2 (c : Dev nD) (t : Fin cfg2.N) (k : Fin 1024) (q : Fin 150) :
    (iblk2 V c 1 t : Vec Ideal S1024x150 .f32) (ix2 k q) = (V c main_arg7 : Vec Ideal S1024x150 .f32) (ix2 k q) := by
  obtain ⟨-, -, e2, e3, -⟩ := idx2 t
  show (V c main_arg7 : Vec Ideal S1024x150 .f32) (((cfg2.win 1).blk t).view.emb (ix2 k q)) = _
  refine congrArg (V c main_arg7 : Vec Ideal S1024x150 .f32) (funext fun a => Fin.ext ?_)
  match a with
  | ⟨0, _⟩ => show win2_1.index t (0 : Fin 2) * 1024 + 1 * k.val = k.val; omega
  | ⟨1, _⟩ => show win2_1.index t (1 : Fin 2) * 150 + 1 * q.val = q.val; omega

/-- The bias row's block at every grid point is its whole array. -/
theorem bblk2 (c : Dev nD) (t : Fin cfg2.N) (q : Fin 150) :
    (iblk2 V c 2 t : Vec Ideal S1x150 .f32) (ix2 0 q) = (V c main_v4 : Vec Ideal S1x150 .f32) (ix2 0 q) := by
  obtain ⟨-, -, -, -, e4, e5, -⟩ := idx2 t
  show (V c main_v4 : Vec Ideal S1x150 .f32) (((cfg2.win 2).blk t).view.emb (ix2 0 q)) = _
  refine congrArg (V c main_v4 : Vec Ideal S1x150 .f32) (funext fun a => Fin.ext ?_)
  match a with
  | ⟨0, _⟩ => show win2_2.index t (0 : Fin 2) * 1 + 1 * 0 = 0; omega
  | ⟨1, _⟩ => show win2_2.index t (1 : Fin 2) * 150 + 1 * q.val = q.val; omega

/-- What grid point `t` writes back is its block of `lin2` of the operand arrays as the region finds them. -/
theorem flushed2_eq (c : Dev nD) (t : Fin cfg2.N) :
    (dat2 (F := Ideal) V c).flushed 3 t
      = ((cfg2.win 3).blk t).view.read (Elt Ideal) (lin2 (V c main_arg2) (V c main_arg7) (V c main_v4)) := by
  show (cfg2.win 3).cut (grid2.coords t) ((dat2 (F := Ideal) V c).after 3 t) = _
  rw [after2_3]
  unfold out2_3
  rw [View.canon_unit_zero zeros2]
  simp only [View.ld_unit_zero (S := S2000x1024) zeros2, View.ld_unit_zero (S := S1024x150) zeros2, View.ld_unit_zero (S := S1x150) zeros2]
  obtain ⟨-, -, -, -, -, -, e6, e7⟩ := idx2 t
  have ht : t.val < 10 := lt_of_lt_of_eq t.isLt N_2
  funext j
  obtain ⟨p, q, rfl⟩ : ∃ (p : Fin 2000) (q : Fin 150), j = ix2 p q := ⟨j 0, j 1, eq_ix2 j⟩
  have hr : t.val * 2000 + p.val < 20000 := by have := p.isLt; omega
  have hi : ((cfg2.win 3).blk t).view.emb (ix2 p q) = (ix2 ⟨t.val * 2000 + p.val, hr⟩ q : S20000x150.Idx) := funext fun a => Fin.ext (by
    match a with
    | ⟨0, _⟩ => show win2_3.index t (0 : Fin 2) * 2000 + 1 * p.val = t.val * 2000 + p.val; omega
    | ⟨1, _⟩ => show win2_3.index t (1 : Fin 2) * 150 + 1 * q.val = q.val; omega)
  show k2_pay1 (F := Ideal) (iblk2 V c 0 t) (iblk2 V c 1 t) (iblk2 V c 2 t) (ix2 p q)
    = lin2 (V c main_arg2) (V c main_arg7) (V c main_v4) (((cfg2.win 3).blk t).view.emb (ix2 p q))
  rw [hi]
  refine (pay2_apply (iblk2 V c 0 t) (iblk2 V c 1 t) (iblk2 V c 2 t) p q).trans ?_
  refine congrArg₂ (· + ·) (Finset.sum_congr rfl fun k _ => ?_) (bblk2 V c t q)
  exact congrArg₂ (· * ·) (xblk2 V c t p k ⟨t.val * 2000 + p.val, hr⟩ rfl) (wblk2 V c t k q)

/-- An index of the output array is in grid point `t`'s block iff each coordinate is in the block's range on its axis. -/
theorem mem_blk2 (t : Fin cfg2.N) (i : S20000x150.Idx) :
    i ∈ ((cfg2.win 3).blk t).view.set ↔ ∀ a : Fin 2, win2_3.index t a * S2000x150.size a ≤ (i a).val ∧ (i a).val < win2_3.index t a * S2000x150.size a + S2000x150.size a := by
  show i ∈ ((View.whole main_v5).slice (win2_3.rect t)).set ↔ _
  rw [View.set_slice_whole, Rect.mem_set_unit]
  exact Iff.rfl

/-- Every index of the output array is in the block of the grid point of its row block. -/
theorem cover2 (i : S20000x150.Idx) : ∃ t : Fin cfg2.N, (cfg2.win 3).flush t = true ∧ i ∈ ((cfg2.win 3).blk t).view.set := by
  have hi0 : (i 0).val < 20000 := (i 0).isLt
  have hi1 : (i 1).val < 150 := (i 1).isLt
  obtain ⟨t, ht⟩ : ∃ t : Fin cfg2.N, t.val = (i 0).val / 2000 := ⟨⟨(i 0).val / 2000, by rw [show cfg2.N = 10 from N_2]; omega⟩, rfl⟩
  obtain ⟨-, -, -, -, -, -, e6, e7⟩ := idx2 t
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 150 ≤ (i 1).val ∧ (i 1).val < win2_3.index t (1 : Fin 2) * 150 + 150; omega

/-- The output array after the region is `lin2` of the operand arrays at the region's entry. -/
theorem final2 (c : Dev nD) :
    (dat2 (F := Ideal) V c).arrAt 3 cfg2.N = lin2 (V c main_arg2) (V c main_arg7) (V c main_v4) :=
  (dat2 (F := Ideal) V c).arrAt_eq_of_cover 3 (lin2 (V c main_arg2) (V c main_arg7) (V c main_v4)) (fun t _ => flushed2_eq V c t) cover2

/-- The operand arrays at the region's entry, at their literal vector types (so that their entries multiply and add as
    extended reals). -/
abbrev in2_x (c : Dev nD) : Vec Ideal S20000x1024 .f32 := V c main_arg2
abbrev in2_w (c : Dev nD) : Vec Ideal S1024x150 .f32 := V c main_arg7
abbrev in2_b (c : Dev nD) : Vec Ideal S1x150 .f32 := V c main_v4

/-- REGION 2's VALUE, over any names `X`, `W`, `B` of the operand arrays at the region's entry: entry (p, q) of the output
    array after the region is row `p` of the input times column `q` of the weight, plus the bias row's entry in column `q`. -/
theorem region2_at (c : Dev nD) (X : Vec Ideal S20000x1024 .f32) (W : Vec Ideal S1024x150 .f32) (B : Vec Ideal S1x150 .f32)
    (hX : X = V c main_arg2) (hW : W = V c main_arg7) (hB : B = V c main_v4) (p : Fin 20000) (q : Fin 150) :
    (dat2 (F := Ideal) V c).arrAt 3 cfg2.N (ix2 p q) = (∑ k : Fin 1024, X (ix2 p k) * W (ix2 k q)) + B (ix2 0 q) := by
  subst hX hW hB
  exact congrFun (final2 V c) (ix2 p q)

/-- REGION 2's VALUE: entry (p, q) of the output array after the region is row `p` of the input times column `q` of the
    weight, plus the bias row's entry in column `q`. -/
theorem region2 (c : Dev nD) (p : Fin 20000) (q : Fin 150) :
    (dat2 (F := Ideal) V c).arrAt 3 cfg2.N (ix2 p q)
      = (∑ k : Fin 1024, in2_x V c (ix2 p k) * in2_w V c (ix2 k q)) + in2_b V c (ix2 0 q) :=
  region2_at V c (in2_x V c) (in2_w V c) (in2_b V c) rfl rfl rfl p q

end Cert.KernelIdeal.RegionValue

end
-- ==== Proof.Carry2.lean ====
/- What the buffers read by the host operations before launch 2 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at2_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

set_option maxHeartbeats 4000000 in
theorem at2_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

set_option maxHeartbeats 4000000 in
theorem at2_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

end Cert.KernelIdeal.Carry

end
-- ==== Proof.Step2.lean ====
/-
  Launch 2 (a linear layer): at the exit of the launch the kernel's output array is, entry by entry, the
  reference's `x @ W + b`.

  The kernel side: entry (p, q) of the output array is the sum over k of the input's entry (p, k) times the weight's
  entry (k, q), plus entry (0, q) of the bias kept as a [1 × 150] row; the row is the [150] bias vector under a change
  of shape that adds a leading unit axis, so its entry (0, q) is the vector's entry q. The input, the weight and the
  bias are argument arrays, which hold at the launch what the memory held at the start.

  The reference side: the matrix product read at (p, q) is the same sum, and the bias broadcast first to [1 × 150]
  and then along the rows reads the vector at q.
-/
import proofs.«138545_j63058709840619_2_alg».proof.Proof.FrameKIW
import proofs.«138545_j63058709840619_2_alg».proof.Proof.RegionValue2
import proofs.«138545_j63058709840619_2_alg».proof.Proof.RefRead
import proofs.«138545_j63058709840619_2_alg».proof.Proof.Carry2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.ShloMosaic.ValueIdx Idealize.ShloMosaic.StableHlo
open Idealize.SL Idealize.SL.Sem

/-- The reference's linear layer at entry (p, q): row `p` of the input against column `q` of the weight, plus the
    bias at `q`. -/
theorem ref_linear2
    (x : (⟨Cert.ReferenceIdeal.S20000x1024, .f32⟩ : BufTy).Contents (Elt Ideal))
    (w : (⟨Cert.ReferenceIdeal.S1024x150, .f32⟩ : BufTy).Contents (Elt Ideal))
    (b : (⟨Cert.ReferenceIdeal.S150, .f32⟩ : BufTy).Contents (Elt Ideal)) (p : Fin 20000) (q : Fin 150) :
    Cert.ReferenceIdeal.Read.val_main_v11 (F := Ideal) x w b (ix2 p q)
      = (∑ k : Fin 1024, x (ix2 p k) * w (ix2 k q)) + b (ix1 q) := by
  rw [Cert.ReferenceIdeal.Read.val_main_v11_apply, Cert.ReferenceIdeal.Read.val_main_v8_apply,
    Cert.ReferenceIdeal.Read.val_main_v10_apply, Cert.ReferenceIdeal.Read.val_main_v9_apply, Ideal.addf_def]
  -- the indices the reads name are the coordinates written out
  have hl : ∀ k : Fin 1024, Cert.ReferenceIdeal.Read.lidx_main_v8 (ix2 p q) k = ix2 p k := fun k =>
    funext fun a => Fin.ext (by match a with | ⟨0, _⟩ => rfl | ⟨1, _⟩ => rfl)
  have hr : ∀ k : Fin 1024, Cert.ReferenceIdeal.Read.ridx_main_v8 (ix2 p q) k = ix2 k q := fun k =>
    funext fun a => Fin.ext (by match a with | ⟨0, _⟩ => rfl | ⟨1, _⟩ => rfl)
  have hb : Cert.ReferenceIdeal.Read.idx_main_v9 (Cert.ReferenceIdeal.Read.idx_main_v10 (ix2 p q)) = ix1 q :=
    funext fun a => Fin.ext (by match a with | ⟨0, _⟩ => rfl)
  simp only [hl, hr, hb]

/-- Launch 2: the kernel's output array at the launch's exit is the reference's linear layer of the same
    arguments. -/
theorem step2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W6 (F := Ideal) m ρ c (Proc.devRef .tc Cert.KernelIdeal.main_v5) :
        Cert.ReferenceIdeal.S20000x150.Idx → EReal)
      = Cert.ReferenceIdeal.Read.val_main_v11 (F := Ideal)
          (m ((c.tc : Thread Cert.KernelIdeal.nD Cert.KernelIdeal.τ).loc Cert.KernelIdeal.main_arg2))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  funext i
  obtain ⟨p, q, rfl⟩ : ∃ (p : Fin 20000) (q : Fin 150), i = ix2 p q := ⟨i 0, i 1, eq_ix2 i⟩
  -- at the exit of the launch the output array is what the launch leaves in the array of its output window
  have hL : W6 (F := Ideal) m ρ c (Proc.devRef .tc main_v5) = (dat2 (F := Ideal) (V5 m ρ) c).arrAt 3 cfg2.N :=
    W6_arr m ρ c 3
  -- the operands at the launch's entry: the input and the weight are the arguments as at the start,
  have ex : V5 (F := Ideal) m ρ c main_arg2 = m ((c.tc : Thread nD τ).loc main_arg2) := by
    show StableHlo.after hostOps2 (W4 m ρ c) (Proc.devRef .tc main_arg2) = _
    after_results
    exact Cert.KernelIdeal.Carry.at2_main_arg2 m ρ c
  have ew : V5 (F := Ideal) m ρ c main_arg7 = m ((c.tc : Thread nD τ).loc main_arg7) := by
    show StableHlo.after hostOps2 (W4 m ρ c) (Proc.devRef .tc main_arg7) = _
    after_results
    exact Cert.KernelIdeal.Carry.at2_main_arg7 m ρ c
  -- and the bias row is the bias vector with a leading unit axis added
  have eb : (V5 (F := Ideal) m ρ c main_v4 : Cert.KernelIdeal.S1x150.Idx → EReal)
      = shapeCast Cert.KernelIdeal.S1x150
          (m ((c.tc : Thread nD τ).loc main_arg8) : Cert.KernelIdeal.S150.Idx → EReal) shapeCasts_S150_S1x150 := by
    show (StableHlo.after hostOps2 (W4 m ρ c) (Proc.devRef .tc main_v4) : Cert.KernelIdeal.S1x150.Idx → EReal) = _
    after_results
    rw [Cert.KernelIdeal.Carry.at2_main_arg8 m ρ c]
    rfl
  have hB : (fun i : Cert.KernelIdeal.S1x150.Idx =>
        (m ((c.tc : Thread nD τ).loc main_arg8) : Cert.KernelIdeal.S150.Idx → EReal) (ix1 (i 1)))
      = (V5 (F := Ideal) m ρ c main_v4 : Cert.KernelIdeal.S1x150.Idx → EReal) := by
    rw [eb]
    funext i
    obtain ⟨u, j, rfl⟩ : ∃ (u : Fin 1) (j : Fin 150), i = ix2 u j := ⟨i 0, i 1, eq_ix2 i⟩
    exact (shapeCast_a_1a_apply _ _ u j).symm
  refine (congrFun hL (ix2 p q)).trans ?_
  -- the launch's value at the entry, over these three arrays
  refine (Cert.KernelIdeal.RegionValue.region2_at (V5 m ρ) c _ _ _ ex.symm ew.symm hB p q).trans ?_
  exact (ref_linear2 _ _ _ p q).symm

end Cert.Bridge

end
-- ==== Proof.Carry3.lean ====
/- What the buffers read by the host operations before launch 3 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at3_main_arg24 (c : Dev nD) : W6 m ρ c (Proc.devRef .tc main_arg24) = m ((c : Thread nD τ).loc main_arg24) :=
  calc W6 m ρ c (Proc.devRef .tc main_arg24)
    _ = W5 m ρ c (Proc.devRef .tc main_arg24) := W6_of_ne m ρ c main_arg24 (by decide)
    _ = W4 m ρ c (Proc.devRef .tc main_arg24) := StableHlo.after_of_writes_sub hostOps2 _ hostOps2_writes (by decide)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl

set_option maxHeartbeats 4000000 in
theorem at3_main_arg25 (c : Dev nD) : W6 m ρ c (Proc.devRef .tc main_arg25) = m ((c : Thread nD τ).loc main_arg25) :=
  calc W6 m ρ c (Proc.devRef .tc main_arg25)
    _ = W5 m ρ c (Proc.devRef .tc main_arg25) := W6_of_ne m ρ c main_arg25 (by decide)
    _ = W4 m ρ c (Proc.devRef .tc main_arg25) := StableHlo.after_of_writes_sub hostOps2 _ hostOps2_writes (by decide)
    _ = W3 m ρ c (Proc.devRef .tc main_arg25) := W4_of_ne m ρ c main_arg25 (by decide)
    _ = W2 m ρ c (Proc.devRef .tc main_arg25) := StableHlo.after_of_writes_sub hostOps1 _ hostOps1_writes (by decide)
    _ = W1 m ρ c (Proc.devRef .tc main_arg25) := W2_of_ne m ρ c main_arg25 (by decide)
    _ = W0 m ρ c (Proc.devRef .tc main_arg25) := StableHlo.after_of_writes_sub hostOps0 _ hostOps0_writes (by decide)
    _ = m ((c : Thread nD τ).loc main_arg25) := rfl

set_option maxHeartbeats 4000000 in
theorem at3_main_arg26 (c : Dev nD) : W6 m ρ c (Proc.devRef .tc main_arg26) = m ((c : Thread nD τ).loc main_arg26) :=
  calc W6 m ρ c (Proc.devRef .tc main_arg26)
    _ = W5 m ρ c (Proc.devRef .tc main_arg26) := W6_of_ne m ρ c main_arg26 (by decide)
    _ = W4 m ρ c (Proc.devRef .tc main_arg26) := StableHlo.after_of_writes_sub hostOps2 _ hostOps2_writes (by decide)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl

set_option maxHeartbeats 4000000 in
theorem at3_main_v3 (c : Dev nD) : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_writes_sub hostOps2 _ hostOps2_writes (by decide)

set_option maxHeartbeats 4000000 in
theorem at3_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

set_option maxHeartbeats 4000000 in
theorem at3_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

set_option maxHeartbeats 4000000 in
theorem at3_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

set_option maxHeartbeats 4000000 in
theorem at3_main_v1 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_writes_sub hostOps2 _ hostOps2_writes (by decide)
    _ = W3 m ρ c (Proc.devRef .tc main_v1) := W4_of_ne m ρ c main_v1 (by decide)
    _ = W2 m ρ c (Proc.devRef .tc main_v1) := StableHlo.after_of_writes_sub hostOps1 _ hostOps1_writes (by decide)

end Cert.KernelIdeal.Carry

end
-- ==== Proof.SageBody.lean ====
/- The SAGE layer's body at one entry of its block: with a1, a2 (f32) and xd (bf16) blocks of 2000 rows, three
   150 x 150 weights and a bias row, entry (p, q) of the stored block is
     relu (Σ_k a1[p,k] w1[k,q] + Σ_k a2[p,k] w2[k,q] + Σ_k xd[p,k] wr[k,q] + b[0,q])
   (without the relu in the last layer). At the ideal values the format changes are the identity, each matrix
   product into the zero accumulator is the plain sum over the contracted axis, and the bias row is broadcast
   along the rows. -/
import proofs.«138545_j63058709840619_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.SageBody

open Cert.KernelIdeal Cert.KernelIdeal.Gen Idealize.ShloMosaic Idealize.ShloMosaic.ValueIdx

/-! ## The [2000,150] x [150,150] product's operand indices, axis by axis -/

/-- The left operand's row is the output's row. -/
theorem lhs_axis0 (i : S2000x150.Idx) (r : dot_S2000x150_S150x150_S2000x150_1_0_0_1_n_n.contr.Idx) :
    (dot_S2000x150_S150x150_S2000x150_1_0_0_1_n_n.lhsIdx i r 0).val = (i 0).val := by
  unfold DotDims.lhsIdx
  rw [dif_neg (show ¬(0 : Fin S2000x150.rank) ∈ dot_S2000x150_S150x150_S2000x150_1_0_0_1_n_n.lhsBatch by decide), dif_pos (show (0 : Fin S2000x150.rank) ∈ dot_S2000x150_S150x150_S2000x150_1_0_0_1_n_n.lhsNonContracting by decide)]
  rfl

/-- The left operand's column is the contracted coordinate. -/
theorem lhs_axis1 (i : S2000x150.Idx) (r : dot_S2000x150_S150x150_S2000x150_1_0_0_1_n_n.contr.Idx) :
    (dot_S2000x150_S150x150_S2000x150_1_0_0_1_n_n.lhsIdx i r 1).val = (r ⟨0, by decide⟩).val :=
  dot_S2000x150_S150x150_S2000x150_1_0_0_1_n_n.lhsIdx_val_of_single rfl i r

/-- The right operand's row is the contracted coordinate. -/
theorem rhs_axis0 (i : S2000x150.Idx) (r : dot_S2000x150_S150x150_S2000x150_1_0_0_1_n_n.contr.Idx) :
    (dot_S2000x150_S150x150_S2000x150_1_0_0_1_n_n.rhsIdx i r 0).val = (r ⟨0, by decide⟩).val :=
  dot_S2000x150_S150x150_S2000x150_1_0_0_1_n_n.rhsIdx_val_of_single rfl i r

/-- The right operand's column is the output's column. -/
theorem rhs_axis1 (i : S2000x150.Idx) (r : dot_S2000x150_S150x150_S2000x150_1_0_0_1_n_n.contr.Idx) :
    (dot_S2000x150_S150x150_S2000x150_1_0_0_1_n_n.rhsIdx i r 1).val = (i 1).val := by
  unfold DotDims.rhsIdx
  rw [dif_neg (show ¬(1 : Fin S150x150.rank) ∈ dot_S2000x150_S150x150_S2000x150_1_0_0_1_n_n.rhsBatch by decide), dif_pos (show (1 : Fin S150x150.rank) ∈ dot_S2000x150_S150x150_S2000x150_1_0_0_1_n_n.rhsNonContracting by decide)]
  rfl

/-- The product into the zero accumulator, at entry (p, q): the sum over the 150 contracted coordinates. -/
theorem matmul_at {φ₁ φ₂ : FTy} (lhs : FVec Ideal S2000x150 φ₁) (rhs : FVec Ideal S150x150 φ₂) (p : Fin 2000) (q : Fin 150) :
    FloatOps.matmul dot_S2000x150_S150x150_S2000x150_1_0_0_1_n_n none lhs rhs (constant S2000x150 .f32 0x00000000#32) (ix2 p q)
      = ∑ k : Fin 150, lhs (ix2 p k) * rhs (ix2 k q) := by
  rw [Ideal.matmul_constant_zero_apply, ← Equiv.sum_comp (contrEquiv1 dot_S2000x150_S150x150_S2000x150_1_0_0_1_n_n 150 rfl rfl).symm]
  refine Finset.sum_congr rfl fun k _ => ?_
  have hk := contrEquiv1_symm_val dot_S2000x150_S150x150_S2000x150_1_0_0_1_n_n 150 rfl rfl k
  have el : dot_S2000x150_S150x150_S2000x150_1_0_0_1_n_n.lhsIdx (ix2 p q) ((contrEquiv1 dot_S2000x150_S150x150_S2000x150_1_0_0_1_n_n 150 rfl rfl).symm k) = ix2 p k := funext fun a => Fin.ext (by
    match a with
    | ⟨0, _⟩ => exact lhs_axis0 _ _
    | ⟨1, _⟩ => exact (lhs_axis1 _ _).trans hk)
  have er : dot_S2000x150_S150x150_S2000x150_1_0_0_1_n_n.rhsIdx (ix2 p q) ((contrEquiv1 dot_S2000x150_S150x150_S2000x150_1_0_0_1_n_n 150 rfl rfl).symm k) = ix2 k q := funext fun a => Fin.ext (by
    match a with
    | ⟨0, _⟩ => exact (rhs_axis0 _ _).trans hk
    | ⟨1, _⟩ => exact rhs_axis1 _ _)
  rw [el, er]

/-- The bias row broadcast along the rows, at entry (p, q): the row's entry q. -/
theorem bias_at (b : FVec Ideal S1x150 .f32) (p : Fin 2000) (q : Fin 150) :
    broadcastTo S2000x150 b broadcasts_S1x150_S2000x150 (ix2 p q) = b (ix2 0 q) := by
  refine broadcastTo_apply b broadcasts_S1x150_S2000x150 (ix2 p q) (ix2 0 q) fun a => ?_
  match a with
  | ⟨0, _⟩ => rfl
  | ⟨1, _⟩ => rfl

/-! ## The body at an entry -/

/-- The layer's value at row p, column q, before the relu, for operands of n rows: the three products summed and the
    bias row's entry added. -/
abbrev layer {n : Nat} (a1 : (⟨2, ![n, 150]⟩ : Shape).Idx → EReal) (w1 : S150x150.Idx → EReal)
    (a2 : (⟨2, ![n, 150]⟩ : Shape).Idx → EReal) (w2 : S150x150.Idx → EReal)
    (xd : (⟨2, ![n, 150]⟩ : Shape).Idx → EReal) (wr : S150x150.Idx → EReal) (b : S1x150.Idx → EReal)
    (p : Fin n) (q : Fin 150) : EReal :=
  (((∑ k : Fin 150, a1 (ix2 p k) * w1 (ix2 k q)) + (∑ k : Fin 150, a2 (ix2 p k) * w2 (ix2 k q)))
    + (∑ k : Fin 150, xd (ix2 p k) * wr (ix2 k q))) + b (ix2 0 q)

/-- The layer's value reads only row p of the row operands: operands of n rows whose row p' is row p of operands of m
    rows, with the same weights, bias and column, give the same value. -/
theorem layer_congr {n m : Nat} (a1 a2 xd : (⟨2, ![n, 150]⟩ : Shape).Idx → EReal) (A1 A2 XD : (⟨2, ![m, 150]⟩ : Shape).Idx → EReal)
    (w1 w2 wr W1 W2 WR : S150x150.Idx → EReal) (b B : S1x150.Idx → EReal) (p' : Fin n) (p : Fin m) (q' q : Fin 150)
    (h1 : ∀ k : Fin 150, a1 (ix2 p' k) = A1 (ix2 p k)) (h2 : ∀ k : Fin 150, a2 (ix2 p' k) = A2 (ix2 p k))
    (h3 : ∀ k : Fin 150, xd (ix2 p' k) = XD (ix2 p k))
    (hw1 : w1 = W1) (hw2 : w2 = W2) (hwr : wr = WR) (hb : b = B) (hq : q' = q) :
    layer a1 w1 a2 w2 xd wr b p' q' = layer A1 W1 A2 W2 XD WR B p q := by
  subst hw1 hw2 hwr hb hq
  show (((∑ k : Fin 150, a1 (ix2 p' k) * w1 (ix2 k q')) + (∑ k : Fin 150, a2 (ix2 p' k) * w2 (ix2 k q')))
    + (∑ k : Fin 150, xd (ix2 p' k) * wr (ix2 k q'))) + b (ix2 0 q')
    = (((∑ k : Fin 150, A1 (ix2 p k) * w1 (ix2 k q')) + (∑ k : Fin 150, A2 (ix2 p k) * w2 (ix2 k q')))
    + (∑ k : Fin 150, XD (ix2 p k) * wr (ix2 k q'))) + b (ix2 0 q')
  simp only [h1, h2, h3]

/-- The zero offsets of a whole-buffer access, however spelt. -/
theorem hz : (![0, 0] : Fin 2 → Nat) = fun _ => 0 := funext fun a => by fin_cases a <;> rfl

/-- The body with the relu (the first six layers), at entry (p, q). -/
theorem k3_pay1_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (p : Fin 2000) (q : Fin 150) :
    k3_pay1 (F := Ideal) x0 x1 x2 x3 x4 x5 x6 (ix2 p q) = max (layer x0 x1 x2 x3 x4 x5 x6 p q) 0 := by
  unfold k3_pay1
  simp only [shapeCast_self]
  have e1 := matmul_at (φ₁ := .bf16) (φ₂ := .bf16) (truncf .bf16 x0 bitsLt_bf16_f32) (truncf .bf16 x1 bitsLt_bf16_f32) p q
  have e2 := matmul_at (φ₁ := .bf16) (φ₂ := .bf16) (truncf .bf16 x2 bitsLt_bf16_f32) (truncf .bf16 x3 bitsLt_bf16_f32) p q
  have e3 := matmul_at (φ₁ := .bf16) (φ₂ := .bf16) x4 (truncf .bf16 x5 bitsLt_bf16_f32) p q
  have e4 := bias_at x6 p q
  exact congrArg₂ max (congrArg₂ (· + ·) (congrArg₂ (· + ·) (congrArg₂ (· + ·) e1 e2) e3) e4) Ideal.ofBits_zero_f32

/-- The last layer's body (no relu), at entry (p, q). -/
theorem k9_pay1_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (p : Fin 2000) (q : Fin 150) :
    k9_pay1 (F := Ideal) x0 x1 x2 x3 x4 x5 x6 (ix2 p q) = layer x0 x1 x2 x3 x4 x5 x6 p q := by
  unfold k9_pay1
  simp only [shapeCast_self]
  have e1 := matmul_at (φ₁ := .bf16) (φ₂ := .bf16) (truncf .bf16 x0 bitsLt_bf16_f32) (truncf .bf16 x1 bitsLt_bf16_f32) p q
  have e2 := matmul_at (φ₁ := .bf16) (φ₂ := .bf16) (truncf .bf16 x2 bitsLt_bf16_f32) (truncf .bf16 x3 bitsLt_bf16_f32) p q
  have e3 := matmul_at (φ₁ := .bf16) (φ₂ := .bf16) x4 (truncf .bf16 x5 bitsLt_bf16_f32) p q
  have e4 := bias_at x6 p q
  exact congrArg₂ (· + ·) (congrArg₂ (· + ·) (congrArg₂ (· + ·) e1 e2) e3) e4

/-- The six layers with the relu have one body. -/
theorem k4_pay1_eq {F : FTy → Type} [FloatOps F] : @k4_pay1 F _ = @k3_pay1 F _ := rfl
theorem k5_pay1_eq {F : FTy → Type} [FloatOps F] : @k5_pay1 F _ = @k3_pay1 F _ := rfl
theorem k6_pay1_eq {F : FTy → Type} [FloatOps F] : @k6_pay1 F _ = @k3_pay1 F _ := rfl
theorem k7_pay1_eq {F : FTy → Type} [FloatOps F] : @k7_pay1 F _ = @k3_pay1 F _ := rfl
theorem k8_pay1_eq {F : FTy → Type} [FloatOps F] : @k8_pay1 F _ = @k3_pay1 F _ := rfl

/-- So each reads the same at an entry. -/
theorem k4_pay1_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (p : Fin 2000) (q : Fin 150) :
    k4_pay1 (F := Ideal) x0 x1 x2 x3 x4 x5 x6 (ix2 p q) = max (layer x0 x1 x2 x3 x4 x5 x6 p q) 0 := by
  rw [k4_pay1_eq]; exact k3_pay1_at x0 x1 x2 x3 x4 x5 x6 p q
theorem k5_pay1_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (p : Fin 2000) (q : Fin 150) :
    k5_pay1 (F := Ideal) x0 x1 x2 x3 x4 x5 x6 (ix2 p q) = max (layer x0 x1 x2 x3 x4 x5 x6 p q) 0 := by
  rw [k5_pay1_eq]; exact k3_pay1_at x0 x1 x2 x3 x4 x5 x6 p q
theorem k6_pay1_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (p : Fin 2000) (q : Fin 150) :
    k6_pay1 (F := Ideal) x0 x1 x2 x3 x4 x5 x6 (ix2 p q) = max (layer x0 x1 x2 x3 x4 x5 x6 p q) 0 := by
  rw [k6_pay1_eq]; exact k3_pay1_at x0 x1 x2 x3 x4 x5 x6 p q
theorem k7_pay1_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (p : Fin 2000) (q : Fin 150) :
    k7_pay1 (F := Ideal) x0 x1 x2 x3 x4 x5 x6 (ix2 p q) = max (layer x0 x1 x2 x3 x4 x5 x6 p q) 0 := by
  rw [k7_pay1_eq]; exact k3_pay1_at x0 x1 x2 x3 x4 x5 x6 p q
theorem k8_pay1_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (p : Fin 2000) (q : Fin 150) :
    k8_pay1 (F := Ideal) x0 x1 x2 x3 x4 x5 x6 (ix2 p q) = max (layer x0 x1 x2 x3 x4 x5 x6 p q) 0 := by
  rw [k8_pay1_eq]; exact k3_pay1_at x0 x1 x2 x3 x4 x5 x6 p q

end Cert.KernelIdeal.SageBody

end
-- ==== Proof.RegionValue3.lean ====
/- Region 3 (a SAGE layer with its relu): the output array after the region, entry by entry, as a function of the operand
   arrays the region finds. Each grid point t computes rows 2000 t … 2000 t + 1999 of the layer from the same rows of
   the three row operands and the whole weights and bias; the 25 blocks tile the 50000 rows, so the array ends holding
   the layer's value at every entry. -/
import proofs.«138545_j63058709840619_2_alg».proof.Proof.FrameKIR3
import proofs.«138545_j63058709840619_2_alg».proof.Proof.SageBody
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.SageBody
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The operand arrays as the region finds them, at their literal types -/

abbrev in3_a1 (c : Dev nD) : Vec Ideal S50000x150 .f32 := V c main_v76
abbrev in3_w1 (c : Dev nD) : Vec Ideal S150x150 .f32 := V c main_v105
abbrev in3_a2 (c : Dev nD) : Vec Ideal S50000x150 .f32 := V c main_v93
abbrev in3_w2 (c : Dev nD) : Vec Ideal S150x150 .f32 := V c main_v107
abbrev in3_xd (c : Dev nD) : Vec Ideal S50000x150 .bf16 := V c main_v1
abbrev in3_wr (c : Dev nD) : Vec Ideal S150x150 .f32 := V c main_v98
abbrev in3_b (c : Dev nD) : Vec Ideal S1x150 .f32 := V c main_v108

/-! ## The block indices over the grid -/

/-- The printed index maps, decided over the grid: the row operands and the output take block row t at point t, the
    weights and the bias their one block. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-! ## The input blocks as parts of their arrays -/

/-- Window 0's block at point t is rows 2000 t … 2000 t + 1999 of its array. -/
theorem blk3_0 (c : Dev nD) (t : Fin cfg3.N) (x : S2000x150.Idx) (i : S50000x150.Idx)
    (h0 : (i 0).val = t.val * 2000 + (x 0).val) (h1 : (i 1).val = (x 1).val) :
    (iblk3 V c 0 t : Vec Ideal S2000x150 .f32) x = in3_a1 V c i := by
  obtain ⟨e00, e01, e10, e11, e20, e21, e30, e31, e40, e41, e50, e51, e60, e61, e70, e71⟩ := idx3 t
  show V c main_v76 (((cfg3.win 0).blk t).view.emb x) = V c main_v76 i
  refine congrArg (V c main_v76) (funext fun a => Fin.ext ?_)
  match a with
  | ⟨0, _⟩ => show win3_0.index t (0 : Fin 2) * 2000 + 1 * (x 0).val = (i 0).val; rw [e00, h0]; omega
  | ⟨1, _⟩ => show win3_0.index t (1 : Fin 2) * 150 + 1 * (x 1).val = (i 1).val; rw [e01, h1]; omega

/-- Window 1's block is its whole array at every point. -/
theorem blk3_1 (c : Dev nD) (t : Fin cfg3.N) : (iblk3 V c 1 t : Vec Ideal S150x150 .f32) = in3_w1 V c := by
  obtain ⟨e00, e01, e10, e11, e20, e21, e30, e31, e40, e41, e50, e51, e60, e61, e70, e71⟩ := idx3 t
  funext x
  show V c main_v105 (((cfg3.win 1).blk t).view.emb x) = V c main_v105 x
  refine congrArg (V c main_v105) (funext fun a => Fin.ext ?_)
  match a with
  | ⟨0, _⟩ => show win3_1.index t (0 : Fin 2) * 150 + 1 * (x 0).val = (x 0).val; rw [e10]; omega
  | ⟨1, _⟩ => show win3_1.index t (1 : Fin 2) * 150 + 1 * (x 1).val = (x 1).val; rw [e11]; omega

/-- Window 2's block at point t is rows 2000 t … 2000 t + 1999 of its array. -/
theorem blk3_2 (c : Dev nD) (t : Fin cfg3.N) (x : S2000x150.Idx) (i : S50000x150.Idx)
    (h0 : (i 0).val = t.val * 2000 + (x 0).val) (h1 : (i 1).val = (x 1).val) :
    (iblk3 V c 2 t : Vec Ideal S2000x150 .f32) x = in3_a2 V c i := by
  obtain ⟨e00, e01, e10, e11, e20, e21, e30, e31, e40, e41, e50, e51, e60, e61, e70, e71⟩ := idx3 t
  show V c main_v93 (((cfg3.win 2).blk t).view.emb x) = V c main_v93 i
  refine congrArg (V c main_v93) (funext fun a => Fin.ext ?_)
  match a with
  | ⟨0, _⟩ => show win3_2.index t (0 : Fin 2) * 2000 + 1 * (x 0).val = (i 0).val; rw [e20, h0]; omega
  | ⟨1, _⟩ => show win3_2.index t (1 : Fin 2) * 150 + 1 * (x 1).val = (i 1).val; rw [e21, h1]; omega

/-- Window 3's block is its whole array at every point. -/
theorem blk3_3 (c : Dev nD) (t : Fin cfg3.N) : (iblk3 V c 3 t : Vec Ideal S150x150 .f32) = in3_w2 V c := by
  obtain ⟨e00, e01, e10, e11, e20, e21, e30, e31, e40, e41, e50, e51, e60, e61, e70, e71⟩ := idx3 t
  funext x
  show V c main_v107 (((cfg3.win 3).blk t).view.emb x) = V c main_v107 x
  refine congrArg (V c main_v107) (funext fun a => Fin.ext ?_)
  match a with
  | ⟨0, _⟩ => show win3_3.index t (0 : Fin 2) * 150 + 1 * (x 0).val = (x 0).val; rw [e30]; omega
  | ⟨1, _⟩ => show win3_3.index t (1 : Fin 2) * 150 + 1 * (x 1).val = (x 1).val; rw [e31]; omega

/-- Window 4's block at point t is rows 2000 t … 2000 t + 1999 of its array. -/
theorem blk3_4 (c : Dev nD) (t : Fin cfg3.N) (x : S2000x150.Idx) (i : S50000x150.Idx)
    (h0 : (i 0).val = t.val * 2000 + (x 0).val) (h1 : (i 1).val = (x 1).val) :
    (iblk3 V c 4 t : Vec Ideal S2000x150 .bf16) x = in3_xd V c i := by
  obtain ⟨e00, e01, e10, e11, e20, e21, e30, e31, e40, e41, e50, e51, e60, e61, e70, e71⟩ := idx3 t
  show V c main_v1 (((cfg3.win 4).blk t).view.emb x) = V c main_v1 i
  refine congrArg (V c main_v1) (funext fun a => Fin.ext ?_)
  match a with
  | ⟨0, _⟩ => show win3_4.index t (0 : Fin 2) * 2000 + 1 * (x 0).val = (i 0).val; rw [e40, h0]; omega
  | ⟨1, _⟩ => show win3_4.index t (1 : Fin 2) * 150 + 1 * (x 1).val = (i 1).val; rw [e41, h1]; omega

/-- Window 5's block is its whole array at every point. -/
theorem blk3_5 (c : Dev nD) (t : Fin cfg3.N) : (iblk3 V c 5 t : Vec Ideal S150x150 .f32) = in3_wr V c := by
  obtain ⟨e00, e01, e10, e11, e20, e21, e30, e31, e40, e41, e50, e51, e60, e61, e70, e71⟩ := idx3 t
  funext x
  show V c main_v98 (((cfg3.win 5).blk t).view.emb x) = V c main_v98 x
  refine congrArg (V c main_v98) (funext fun a => Fin.ext ?_)
  match a with
  | ⟨0, _⟩ => show win3_5.index t (0 : Fin 2) * 150 + 1 * (x 0).val = (x 0).val; rw [e50]; omega
  | ⟨1, _⟩ => show win3_5.index t (1 : Fin 2) * 150 + 1 * (x 1).val = (x 1).val; rw [e51]; omega

/-- Window 6's block is its whole array at every point. -/
theorem blk3_6 (c : Dev nD) (t : Fin cfg3.N) : (iblk3 V c 6 t : Vec Ideal S1x150 .f32) = in3_b V c := by
  obtain ⟨e00, e01, e10, e11, e20, e21, e30, e31, e40, e41, e50, e51, e60, e61, e70, e71⟩ := idx3 t
  funext x
  show V c main_v108 (((cfg3.win 6).blk t).view.emb x) = V c main_v108 x
  refine congrArg (V c main_v108) (funext fun a => Fin.ext ?_)
  match a with
  | ⟨0, _⟩ => show win3_6.index t (0 : Fin 2) * 1 + 1 * (x 0).val = (x 0).val; rw [e60]; omega
  | ⟨1, _⟩ => show win3_6.index t (1 : Fin 2) * 150 + 1 * (x 1).val = (x 1).val; rw [e61]; omega

/-! ## The block a point writes back -/

/-- What the body leaves in the output window's buffer, at an entry: the layer's value on the input blocks. -/
theorem out3_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (y : S2000x150.Idx) :
    out3_7 (F := Ideal) x0 x1 x2 x3 x4 x5 x6 y = max (layer (n := 2000) x0 x1 x2 x3 x4 x5 x6 (y 0) (y 1)) 0 := by
  obtain ⟨p, q, rfl⟩ : ∃ (p : Fin 2000) (q : Fin 150), y = ix2 p q := ⟨y 0, y 1, eq_ix2 y⟩
  unfold out3_7
  rw [View.canon_unit_zero hz]
  simp only [View.ld_unit_zero (S := S2000x150) hz, View.ld_unit_zero (S := S150x150) hz, View.ld_unit_zero (S := S1x150) hz]
  exact k3_pay1_at x0 x1 x2 x3 x4 x5 x6 p q

/-- The layer on the whole arrays, entry by entry: what the output array ends holding. -/
abbrev G3 (c : Dev nD) : S50000x150.Idx → EReal := fun i =>
  max (layer (n := 50000) (in3_a1 V c) (in3_w1 V c) (in3_a2 V c) (in3_w2 V c) (in3_xd V c) (in3_wr V c) (in3_b V c) (i 0) (i 1)) 0

/-- WHAT POINT t WRITES BACK is block t of the layer on the whole arrays. -/
theorem flushed3 (c : Dev nD) (t : Fin cfg3.N) :
    (dat3 (F := Ideal) V c).flushed 7 t = ((cfg3.win 7).blk t).view.read (Elt Ideal) (G3 V c) := by
  show (cfg3.win 7).cut (grid3.coords t) ((dat3 (F := Ideal) V c).after 7 t) = _
  rw [after3_7]
  obtain ⟨e00, e01, e10, e11, e20, e21, e30, e31, e40, e41, e50, e51, e60, e61, e70, e71⟩ := idx3 t
  funext j
  have hj0 : (j 0).val < 2000 := (j 0).isLt
  have hj1 : (j 1).val < 150 := (j 1).isLt
  refine (out3_at (iblk3 V c 0 t) (iblk3 V c 1 t) (iblk3 V c 2 t) (iblk3 V c 3 t) (iblk3 V c 4 t) (iblk3 V c 5 t) (iblk3 V c 6 t) ((cfg3.win 7).xinj (grid3.coords t) j)).trans ?_
  show max (layer (n := 2000) (iblk3 V c 0 t) (iblk3 V c 1 t) (iblk3 V c 2 t) (iblk3 V c 3 t) (iblk3 V c 4 t) (iblk3 V c 5 t) (iblk3 V c 6 t) ((cfg3.win 7).xinj (grid3.coords t) j 0) ((cfg3.win 7).xinj (grid3.coords t) j 1)) 0
    = max (layer (n := 50000) (in3_a1 V c) (in3_w1 V c) (in3_a2 V c) (in3_w2 V c) (in3_xd V c) (in3_wr V c) (in3_b V c) ((((cfg3.win 7).blk t).view.emb j) 0) ((((cfg3.win 7).blk t).view.emb j) 1)) 0
  have hr : (((cfg3.win 7).blk t).view.emb j 0).val = t.val * 2000 + (j 0).val := by
    show win3_7.index t (0 : Fin 2) * 2000 + 1 * (j 0).val = _; rw [e70]; omega
  have hc : (((cfg3.win 7).blk t).view.emb j 1).val = (j 1).val := by
    show win3_7.index t (1 : Fin 2) * 150 + 1 * (j 1).val = _; rw [e71]; omega
  exact congrArg (max · 0) (layer_congr (n := 2000) (m := 50000)
    (iblk3 V c 0 t) (iblk3 V c 2 t) (iblk3 V c 4 t) (in3_a1 V c) (in3_a2 V c) (in3_xd V c)
    (iblk3 V c 1 t) (iblk3 V c 3 t) (iblk3 V c 5 t) (in3_w1 V c) (in3_w2 V c) (in3_wr V c) (iblk3 V c 6 t) (in3_b V c)
    ((cfg3.win 7).xinj (grid3.coords t) j 0) (((cfg3.win 7).blk t).view.emb j 0)
    ((cfg3.win 7).xinj (grid3.coords t) j 1) (((cfg3.win 7).blk t).view.emb j 1)
    (fun k => blk3_0 V c t _ _ hr rfl) (fun k => blk3_2 V c t _ _ hr rfl) (fun k => blk3_4 V c t _ _ hr rfl)
    (blk3_1 V c t) (blk3_3 V c t) (blk3_5 V c t) (blk3_6 V c t) (Fin.ext hc.symm))

/-! ## The blocks tile the array -/

/-- An index of the array is in point t's block iff each coordinate is in the block's range on its axis. -/
theorem mem_blk3 (t : Fin cfg3.N) (i : S50000x150.Idx) :
    i ∈ ((cfg3.win 7).blk t).view.set ↔ ∀ a : Fin 2, win3_7.index t a * S2000x150.size a ≤ (i a).val ∧ (i a).val < win3_7.index t a * S2000x150.size a + S2000x150.size a := by
  show i ∈ ((View.whole main_v109).slice (win3_7.rect t)).set ↔ _
  rw [View.set_slice_whole, Rect.mem_set_unit]
  exact Iff.rfl

/-- Every entry of the array is in the block of the point its row falls to. -/
theorem cover3 (i : S50000x150.Idx) : ∃ t : Fin cfg3.N, (cfg3.win 7).flush t = true ∧ i ∈ ((cfg3.win 7).blk t).view.set := by
  have hi0 : (i 0).val < 50000 := (i 0).isLt
  have hi1 : (i 1).val < 150 := (i 1).isLt
  obtain ⟨t, ht⟩ : ∃ t : Fin cfg3.N, t.val = (i 0).val / 2000 :=
    ⟨⟨(i 0).val / 2000, Nat.lt_of_lt_of_eq (by omega : (i 0).val / 2000 < 25) N_3.symm⟩, rfl⟩
  obtain ⟨e00, e01, e10, e11, e20, e21, e30, e31, e40, e41, e50, e51, e60, e61, e70, e71⟩ := idx3 t
  refine ⟨t, flush3_7 t, ?_⟩
  rw [mem_blk3]
  intro a
  match a with
  | ⟨0, _⟩ => show win3_7.index t (0 : Fin 2) * 2000 ≤ (i 0).val ∧ (i 0).val < win3_7.index t (0 : Fin 2) * 2000 + 2000; rw [e70, ht]; omega
  | ⟨1, _⟩ => show win3_7.index t (1 : Fin 2) * 150 ≤ (i 1).val ∧ (i 1).val < win3_7.index t (1 : Fin 2) * 150 + 150; rw [e71]; omega

/-! ## The array after the region -/

/-- THE OUTPUT ARRAY after region 3, at entry (p, q): the layer's value on the operand arrays as the region finds them. -/
theorem region3 (c : Dev nD) (p : Fin 50000) (q : Fin 150) :
    (dat3 (F := Ideal) V c).arrAt 7 cfg3.N (ix2 p q)
      = max ((((∑ k : Fin 150, in3_a1 V c (ix2 p k) * in3_w1 V c (ix2 k q)) + (∑ k : Fin 150, in3_a2 V c (ix2 p k) * in3_w2 V c (ix2 k q))) + (∑ k : Fin 150, in3_xd V c (ix2 p k) * in3_wr V c (ix2 k q))) + in3_b V c (ix2 0 q)) 0 :=
  congrFun ((dat3 (F := Ideal) V c).arrAt_eq_of_cover 7 (G3 V c) (fun t _ => flushed3 V c t) cover3) (ix2 p q)

/-- The same over any arrays equal to the operand arrays: the form to instantiate. -/
theorem region3_at (c : Dev nD) (A1 : Vec Ideal S50000x150 .f32) (W1 : Vec Ideal S150x150 .f32) (A2 : Vec Ideal S50000x150 .f32) (W2 : Vec Ideal S150x150 .f32)
    (XD : Vec Ideal S50000x150 .bf16) (WR : Vec Ideal S150x150 .f32) (B : Vec Ideal S1x150 .f32)
    (hA1 : A1 = V c main_v76) (hW1 : W1 = V c main_v105) (hA2 : A2 = V c main_v93) (hW2 : W2 = V c main_v107)
    (hXD : XD = V c main_v1) (hWR : WR = V c main_v98) (hB : B = V c main_v108) (p : Fin 50000) (q : Fin 150) :
    (dat3 (F := Ideal) V c).arrAt 7 cfg3.N (ix2 p q)
      = max ((((∑ k : Fin 150, A1 (ix2 p k) * W1 (ix2 k q)) + (∑ k : Fin 150, A2 (ix2 p k) * W2 (ix2 k q))) + (∑ k : Fin 150, XD (ix2 p k) * WR (ix2 k q))) + B (ix2 0 q)) 0 := by
  subst hA1 hW1 hA2 hW2 hXD hWR hB
  exact region3 V c p q

end Cert.KernelIdeal.RegionValue

end
-- ==== Proof.Step3.lean ====
/-
  Launch 3: the first two-branch mean-aggregation layer, on the 50000-row node type.

  Per output entry (p, q) the kernel program computes
      max ( ((Σk A1[p,k]·W1[k,q] + Σk A2[p,k]·W2[k,q]) + Σk X[p,k]·(R1+R2)[k,q]) + (b1+b2)[q] , 0 )
  from seven operand arrays that the host operations before the launch prepare: A1, A2 the two mean aggregations
  (a scatter-add of gathered source rows divided by the clamped in-degree), W1, W2, R1, R2 slices of the two weight
  stacks, b1, b2 slices of the bias stack, X the destination rows. The reference computes
      max ( ((Σk A1·W1 + b1[q]) + Σk X·R1) + ((Σk A2·W2 + b2[q]) + Σk X·R2) , 0 ).
  The two agree when X, R1 and R2 have real entries (the product distributes over the sum of the two root matrices only
  away from the infinities).

  The file has three parts. First, over ANY contents of the buffers before the host operations and any argument
  arrays those contents hold, each operand array the launch finds is the reference's stage of the same name (the host
  operations on the two sides are the same tree over the same leaves; the widening of the gathered rows to the wider
  float format is the identity on the extended reals). Second, the reference's output stage read at an entry. Third,
  the two combined by the algebraic law, at the contents the program's run has there.
-/
import proofs.«138545_j63058709840619_2_alg».proof.Proof.FrameKIW
import proofs.«138545_j63058709840619_2_alg».proof.Proof.RefRead
import proofs.«138545_j63058709840619_2_alg».proof.Proof.Carry3
import proofs.«138545_j63058709840619_2_alg».proof.Proof.RegionValue3
import proofs.«138545_j63058709840619_2_alg».proof.Proof.Algebra
import proofs.«138545_j63058709840619_2_alg».proof.Proof.RefFinite
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.KernelIdeal Cert.KernelIdeal.Gen Cert.ReferenceIdeal.Read Cert.Algebra
open Idealize.ShloMosaic Idealize.ShloMosaic.TcCoe Idealize.ShloMosaic.ValueIdx
open Idealize.SL Idealize.SL.Sem

/-! ## Two pointwise facts about arrays of extended reals -/

/-- Widening an array from the narrower float format to the wider one changes no entry: a float of either format is
    an extended real. -/
theorem extf3_id {s : Shape} (x : FVec Ideal s .bf16) (h : FTy.bits .bf16 < FTy.bits .f32) :
    (extf (F := Ideal) .f32 x h : s.Idx → EReal) = x := rfl

/-- The entrywise sum of two arrays, read at an entry. -/
theorem addf3_at {s : Shape} (x y : FVec Ideal s .f32) (i : s.Idx) :
    (addf (F := Ideal) x y) i = (x i + y i : EReal) := rfl

/-! ## The seven operand arrays at the launch's entry

V0 is what the buffers hold before the host operations of this stretch; the argument arrays and the node features
are named by equations. Each operand array is then a term of the host operations over those, and the reference's
stage is the same term. -/

section Stretch

variable (V0 : Valuation τ sig (Elt Ideal))
variable {x0 : FVec Ideal Cert.ReferenceIdeal.S50000x768 .f32} {x1 : FVec Ideal Cert.ReferenceIdeal.S2000x768 .f32}
  {x2 : FVec Ideal Cert.ReferenceIdeal.S20000x1024 .f32} {x3 : FVec Ideal Cert.ReferenceIdeal.S768x150 .f32}
  {x4 : FVec Ideal Cert.ReferenceIdeal.S150 .f32} {x5 : FVec Ideal Cert.ReferenceIdeal.S768x150 .f32}
  {x6 : FVec Ideal Cert.ReferenceIdeal.S150 .f32} {x7 : FVec Ideal Cert.ReferenceIdeal.S1024x150 .f32}
  {x8 : FVec Ideal Cert.ReferenceIdeal.S150 .f32} {x9 : FVec Ideal Cert.ReferenceIdeal.S3x6x150x150 .f32}
  {x10 : FVec Ideal Cert.ReferenceIdeal.S3x6x150 .f32} {x11 : FVec Ideal Cert.ReferenceIdeal.S3x6x150x150 .f32}
  {x24 : IVec Cert.ReferenceIdeal.S2x500000 32} {x25 : IVec Cert.ReferenceIdeal.S2x200000 32}

set_option maxHeartbeats 4000000 in
/-- Operand 0, the first mean aggregation: the rows of the 20000-row features gathered along the first edge list's
    sources, added up per destination, divided by the destination's clamped in-degree. -/
theorem op3_0
    (h24 : (V0 (Proc.devRef .tc main_arg24) : Cert.ReferenceIdeal.S2x500000.Idx → BitVec 32) = x24)
    (h5 : (V0 (Proc.devRef .tc main_v5) : Cert.ReferenceIdeal.S20000x150.Idx → EReal)
      = val_main_v11 (F := Ideal) x2 x7 x8) :
    (StableHlo.after hostOps3 V0 (Proc.devRef .tc main_v76) : Cert.ReferenceIdeal.S50000x150.Idx → EReal)
      = val_main_v34 (F := Ideal) x2 x7 x8 x24 := by
  after_results_simp
  rw [h24, h5]
  simp only [extf3_id]
  simp only [val_main_v34, val_main_v25, val_main_v23, val_main_cst, val_main_v24, val_main_v15, val_main_v14,
    val_main_v22, val_main_v21, val_main_v20, val_main_v17, val_main_v13, val_main_v12, val_main_v16, val_main_c,
    val_main_v19, val_main_v18, val_main_c_0, val_main_v33, val_main_v32, val_main_v31, val_main_v29, val_main_v27,
    val_main_cst_2, val_main_v28, val_main_v26, val_main_cst_1, val_main_v30, val_main_cst_3]
  rfl

set_option maxHeartbeats 4000000 in
/-- Operand 1, the first neighbour weight: a slice of the neighbour weight stack as a 150 × 150 matrix. -/
theorem op3_1
    (h9 : (V0 (Proc.devRef .tc main_arg9) : Cert.ReferenceIdeal.S3x6x150x150.Idx → EReal) = x9) :
    (StableHlo.after hostOps3 V0 (Proc.devRef .tc main_v105) : Cert.ReferenceIdeal.S150x150.Idx → EReal)
      = val_main_v36 (F := Ideal) x9 := by
  after_results_simp
  rw [h9]
  simp only [val_main_v36, val_main_v35]
  rfl

set_option maxHeartbeats 4000000 in
/-- Operand 2, the second mean aggregation: the rows of the 2000-row features gathered along the second edge list's
    sources, added up per destination, divided by the destination's clamped in-degree. -/
theorem op3_2
    (h25 : (V0 (Proc.devRef .tc main_arg25) : Cert.ReferenceIdeal.S2x200000.Idx → BitVec 32) = x25)
    (h3 : (V0 (Proc.devRef .tc main_v3) : Cert.ReferenceIdeal.S2000x150.Idx → EReal)
      = val_main_v7 (F := Ideal) x1 x5 x6) :
    (StableHlo.after hostOps3 V0 (Proc.devRef .tc main_v93) : Cert.ReferenceIdeal.S50000x150.Idx → EReal)
      = val_main_v69 (F := Ideal) x1 x5 x6 x25 := by
  after_results_simp
  rw [h25, h3]
  simp only [extf3_id]
  simp only [val_main_v69, val_main_v60, val_main_v58, val_main_cst_6, val_main_v59, val_main_v50, val_main_v49,
    val_main_v57, val_main_v56, val_main_v55, val_main_v52, val_main_v48, val_main_v47, val_main_v51, val_main_c_4,
    val_main_v54, val_main_v53, val_main_c_5, val_main_v68, val_main_v67, val_main_v66, val_main_v64, val_main_v62,
    val_main_cst_8, val_main_v63, val_main_v61, val_main_cst_7, val_main_v65, val_main_cst_9]
  rfl

set_option maxHeartbeats 4000000 in
/-- Operand 3, the second neighbour weight. -/
theorem op3_3
    (h9 : (V0 (Proc.devRef .tc main_arg9) : Cert.ReferenceIdeal.S3x6x150x150.Idx → EReal) = x9) :
    (StableHlo.after hostOps3 V0 (Proc.devRef .tc main_v107) : Cert.ReferenceIdeal.S150x150.Idx → EReal)
      = val_main_v71 (F := Ideal) x9 := by
  after_results_simp
  rw [h9]
  simp only [val_main_v71, val_main_v70]
  rfl

set_option maxHeartbeats 4000000 in
/-- Operand 4, the destination rows: no host operation of the stretch writes the 50000-row features' buffer. -/
theorem op3_4 :
    StableHlo.after hostOps3 V0 (Proc.devRef .tc main_v1) = V0 (Proc.devRef .tc main_v1) := by
  after_results_simp

set_option maxHeartbeats 4000000 in
/-- Operand 5, the root weight: the entrywise sum of the two branches' slices of the root weight stack. -/
theorem op3_5
    (h11 : (V0 (Proc.devRef .tc main_arg11) : Cert.ReferenceIdeal.S3x6x150x150.Idx → EReal) = x11) :
    (StableHlo.after hostOps3 V0 (Proc.devRef .tc main_v98) : Cert.ReferenceIdeal.S150x150.Idx → EReal)
      = addf (F := Ideal) (φ := .f32) (val_main_v44 (F := Ideal) x11) (val_main_v79 (F := Ideal) x11) := by
  after_results_simp
  rw [h11]
  simp only [val_main_v44, val_main_v43, val_main_v79, val_main_v78]
  rfl

set_option maxHeartbeats 4000000 in
/-- Operand 6, the bias row: the entrywise sum of the two branches' slices of the bias stack, as a 1 × 150 array. -/
theorem op3_6
    (h10 : (V0 (Proc.devRef .tc main_arg10) : Cert.ReferenceIdeal.S3x6x150.Idx → EReal) = x10) :
    (StableHlo.after hostOps3 V0 (Proc.devRef .tc main_v108) : Cert.KernelIdeal.S1x150.Idx → EReal)
      = shapeCast Cert.KernelIdeal.S1x150
          (addf (F := Ideal) (φ := .f32) (val_main_v39 (F := Ideal) x10) (val_main_v74 (F := Ideal) x10))
          Cert.KernelIdeal.Facts₀.shapeCasts_S150_S1x150 := by
  after_results_simp
  rw [h10]
  simp only [val_main_v39, val_main_v38, val_main_v74, val_main_v73]
  rfl

end Stretch

/-! ## The reference's output stage at an entry -/

/-- The reference's layer output at entry (p, q): per branch the aggregated product, the bias entry and the
    destination row against the branch's root weight; the two branches added; the maximum with zero. -/
theorem ref3_at
    (x0 : FVec Ideal Cert.ReferenceIdeal.S50000x768 .f32) (x1 : FVec Ideal Cert.ReferenceIdeal.S2000x768 .f32)
    (x2 : FVec Ideal Cert.ReferenceIdeal.S20000x1024 .f32) (x3 : FVec Ideal Cert.ReferenceIdeal.S768x150 .f32)
    (x4 : FVec Ideal Cert.ReferenceIdeal.S150 .f32) (x5 : FVec Ideal Cert.ReferenceIdeal.S768x150 .f32)
    (x6 : FVec Ideal Cert.ReferenceIdeal.S150 .f32) (x7 : FVec Ideal Cert.ReferenceIdeal.S1024x150 .f32)
    (x8 : FVec Ideal Cert.ReferenceIdeal.S150 .f32) (x9 : FVec Ideal Cert.ReferenceIdeal.S3x6x150x150 .f32)
    (x10 : FVec Ideal Cert.ReferenceIdeal.S3x6x150 .f32) (x11 : FVec Ideal Cert.ReferenceIdeal.S3x6x150x150 .f32)
    (x24 : IVec Cert.ReferenceIdeal.S2x500000 32) (x25 : IVec Cert.ReferenceIdeal.S2x200000 32)
    (p : Fin 50000) (q : Fin 150) :
    val_main_v225 (F := Ideal) x0 x1 x2 x3 x4 x5 x6 x7 x8 x9 x10 x11 x24 x25 (ix2 p q)
      = (max ((((∑ k : Fin 150, val_main_v34 (F := Ideal) x2 x7 x8 x24 (ix2 p k) * val_main_v36 (F := Ideal) x9 (ix2 k q))
                + val_main_v39 (F := Ideal) x10 (ix1 q))
               + ∑ k : Fin 150, val_main_v3 (F := Ideal) x0 x3 x4 (ix2 p k) * val_main_v44 (F := Ideal) x11 (ix2 k q))
              + (((∑ k : Fin 150, val_main_v69 (F := Ideal) x1 x5 x6 x25 (ix2 p k) * val_main_v71 (F := Ideal) x9 (ix2 k q))
                + val_main_v74 (F := Ideal) x10 (ix1 q))
               + ∑ k : Fin 150, val_main_v3 (F := Ideal) x0 x3 x4 (ix2 p k) * val_main_v79 (F := Ideal) x11 (ix2 k q))) 0 : EReal) := by
  rw [val_main_v225_apply, val_main_v82_apply, val_main_v46_apply, val_main_v42_apply, val_main_v37_apply,
    val_main_v41_apply, val_main_v40_apply, val_main_v45_apply, val_main_v81_apply, val_main_v77_apply,
    val_main_v72_apply, val_main_v76_apply, val_main_v75_apply, val_main_v80_apply, val_main_call0_v0_apply,
    val_main_call0_cst_apply]
  -- the operands' indices: a product's left factor is read in the output's row, its right factor in the output's
  -- column, both at the contraction position; the bias is read in the output's column
  have el37 : ∀ k : Fin 150, lidx_main_v37 (ix2 p q) k = ix2 p k := fun k => funext fun a => by
    match a with | ⟨0, _⟩ => rfl | ⟨1, _⟩ => rfl
  have er37 : ∀ k : Fin 150, ridx_main_v37 (ix2 p q) k = ix2 k q := fun k => funext fun a => by
    match a with | ⟨0, _⟩ => rfl | ⟨1, _⟩ => rfl
  have el45 : ∀ k : Fin 150, lidx_main_v45 (ix2 p q) k = ix2 p k := fun k => funext fun a => by
    match a with | ⟨0, _⟩ => rfl | ⟨1, _⟩ => rfl
  have er45 : ∀ k : Fin 150, ridx_main_v45 (ix2 p q) k = ix2 k q := fun k => funext fun a => by
    match a with | ⟨0, _⟩ => rfl | ⟨1, _⟩ => rfl
  have el72 : ∀ k : Fin 150, lidx_main_v72 (ix2 p q) k = ix2 p k := fun k => funext fun a => by
    match a with | ⟨0, _⟩ => rfl | ⟨1, _⟩ => rfl
  have er72 : ∀ k : Fin 150, ridx_main_v72 (ix2 p q) k = ix2 k q := fun k => funext fun a => by
    match a with | ⟨0, _⟩ => rfl | ⟨1, _⟩ => rfl
  have el80 : ∀ k : Fin 150, lidx_main_v80 (ix2 p q) k = ix2 p k := fun k => funext fun a => by
    match a with | ⟨0, _⟩ => rfl | ⟨1, _⟩ => rfl
  have er80 : ∀ k : Fin 150, ridx_main_v80 (ix2 p q) k = ix2 k q := fun k => funext fun a => by
    match a with | ⟨0, _⟩ => rfl | ⟨1, _⟩ => rfl
  have eb40 : idx_main_v40 (idx_main_v41 (ix2 p q)) = ix1 q := funext fun a => by
    match a with | ⟨0, _⟩ => rfl
  have eb75 : idx_main_v75 (idx_main_v76 (ix2 p q)) = ix1 q := funext fun a => by
    match a with | ⟨0, _⟩ => rfl
  simp only [el37, er37, el45, er45, el72, er72, el80, er80, eb40, eb75, Ideal.maximumf_def, Ideal.addf_def,
    Ideal.ofBits_def, Ideal.ofBits_zero_f32]

/-! ## The launch's fact -/

variable (m : (ℓ : Loc nD τ sig) → Buf (Elt Ideal) ℓ) (ρ : Dev nD → PrngReg) (c : Dev nD)

set_option quotPrecheck false
local notation "𝔸0" => m ((c.tc : Thread nD τ).loc main_arg0)
local notation "𝔸1" => m ((c.tc : Thread nD τ).loc main_arg1)
local notation "𝔸2" => m ((c.tc : Thread nD τ).loc main_arg2)
local notation "𝔸3" => m ((c.tc : Thread nD τ).loc main_arg3)
local notation "𝔸4" => m ((c.tc : Thread nD τ).loc main_arg4)
local notation "𝔸5" => m ((c.tc : Thread nD τ).loc main_arg5)
local notation "𝔸6" => m ((c.tc : Thread nD τ).loc main_arg6)
local notation "𝔸7" => m ((c.tc : Thread nD τ).loc main_arg7)
local notation "𝔸8" => m ((c.tc : Thread nD τ).loc main_arg8)
local notation "𝔸9" => m ((c.tc : Thread nD τ).loc main_arg9)
local notation "𝔸10" => m ((c.tc : Thread nD τ).loc main_arg10)
local notation "𝔸11" => m ((c.tc : Thread nD τ).loc main_arg11)
local notation "𝔸24" => m ((c.tc : Thread nD τ).loc main_arg24)
local notation "𝔸25" => m ((c.tc : Thread nD τ).loc main_arg25)

set_option maxHeartbeats 4000000 in
/-- After launch 3 the layer's output buffer holds the reference's stage %225, given what the three feature launches
    left in their output buffers, and real entries in the destination rows and in the root weight stack. -/
theorem step3
    (hK0 : (W2 (F := Ideal) m ρ c (Proc.devRef .tc main_v1) : Cert.ReferenceIdeal.S50000x150.Idx → EReal)
      = val_main_v3 (F := Ideal) 𝔸0 𝔸3 𝔸4)
    (hK1 : (W4 (F := Ideal) m ρ c (Proc.devRef .tc main_v3) : Cert.ReferenceIdeal.S2000x150.Idx → EReal)
      = val_main_v7 (F := Ideal) 𝔸1 𝔸5 𝔸6)
    (hK2 : (W6 (F := Ideal) m ρ c (Proc.devRef .tc main_v5) : Cert.ReferenceIdeal.S20000x150.Idx → EReal)
      = val_main_v11 (F := Ideal) 𝔸2 𝔸7 𝔸8)
    (hX : AllReal (val_main_v3 (F := Ideal) 𝔸0 𝔸3 𝔸4))
    (h11 : AllReal (𝔸11 : Cert.ReferenceIdeal.S3x6x150x150.Idx → EReal)) :
    (W8 (F := Ideal) m ρ c (Proc.devRef .tc main_v109) : Cert.ReferenceIdeal.S50000x150.Idx → EReal)
      = val_main_v225 (F := Ideal) 𝔸0 𝔸1 𝔸2 𝔸3 𝔸4 𝔸5 𝔸6 𝔸7 𝔸8 𝔸9 𝔸10 𝔸11 𝔸24 𝔸25 := by
  -- the seven operand arrays at the contents the run has before the stretch: the arguments as launched, the three
  -- feature buffers as their launches left them
  have e0 := op3_0 (W6 m ρ c) (Carry.at3_main_arg24 m ρ c) hK2
  have e1 := op3_1 (W6 m ρ c) (Carry.at3_main_arg9 m ρ c)
  have e2 := op3_2 (W6 m ρ c) (Carry.at3_main_arg25 m ρ c) ((Carry.at3_main_v3 m ρ c).trans hK1)
  have e3 := op3_3 (W6 m ρ c) (Carry.at3_main_arg9 m ρ c)
  have e4 := ((op3_4 (W6 m ρ c)).trans (Carry.at3_main_v1 m ρ c)).trans hK0
  have e5 := op3_5 (W6 m ρ c) (Carry.at3_main_arg11 m ρ c)
  have e6 := op3_6 (W6 m ρ c) (Carry.at3_main_arg10 m ρ c)
  funext i
  obtain ⟨p, q, rfl⟩ : ∃ (p : Fin 50000) (q : Fin 150), i = ix2 p q := ⟨i 0, i 1, eq_ix2 i⟩
  rw [ref3_at]
  -- the kernel's side: the output array after the launch, entry by entry, over the seven operand arrays
  refine ((congrFun (W8_arr (F := Ideal) m ρ c 7) (ix2 p q)).trans
    (RegionValue.region3_at (V7 m ρ) c
      (val_main_v34 (F := Ideal) 𝔸2 𝔸7 𝔸8 𝔸24) (val_main_v36 (F := Ideal) 𝔸9)
      (val_main_v69 (F := Ideal) 𝔸1 𝔸5 𝔸6 𝔸25) (val_main_v71 (F := Ideal) 𝔸9)
      (val_main_v3 (F := Ideal) 𝔸0 𝔸3 𝔸4)
      (addf (F := Ideal) (φ := .f32) (val_main_v44 (F := Ideal) 𝔸11) (val_main_v79 (F := Ideal) 𝔸11))
      (shapeCast Cert.KernelIdeal.S1x150
        (addf (F := Ideal) (φ := .f32) (val_main_v39 (F := Ideal) 𝔸10) (val_main_v74 (F := Ideal) 𝔸10))
        Cert.KernelIdeal.Facts₀.shapeCasts_S150_S1x150)
      e0.symm e1.symm e2.symm e3.symm e4.symm e5.symm e6.symm p q)).trans ?_
  -- the bias row at (0, q) is the summed bias at q; a summed array's entry is the sum of the entries
  rw [shapeCast_a_1a_apply]
  simp only [addf3_at]
  refine congrArg (fun t : EReal => max t 0) ?_
  exact combine_law
    (fun k : Fin 150 => val_main_v34 (F := Ideal) 𝔸2 𝔸7 𝔸8 𝔸24 (ix2 p k)) (fun k => val_main_v36 (F := Ideal) 𝔸9 (ix2 k q))
    (fun k : Fin 150 => val_main_v69 (F := Ideal) 𝔸1 𝔸5 𝔸6 𝔸25 (ix2 p k)) (fun k => val_main_v71 (F := Ideal) 𝔸9 (ix2 k q))
    (fun k : Fin 150 => val_main_v3 (F := Ideal) 𝔸0 𝔸3 𝔸4 (ix2 p k))
    (fun k : Fin 150 => val_main_v44 (F := Ideal) 𝔸11 (ix2 k q)) (fun k => val_main_v79 (F := Ideal) 𝔸11 (ix2 k q))
    (val_main_v39 (F := Ideal) 𝔸10 (ix1 q)) (val_main_v74 (F := Ideal) 𝔸10 (ix1 q))
    (fun k => hX (ix2 p k))
    (fun k => Cert.RefFinite.fin_main_v44 𝔸11 h11 (ix2 k q))
    (fun k => Cert.RefFinite.fin_main_v79 𝔸11 h11 (ix2 k q))

end Cert.Bridge

end
-- ==== Proof.Carry4.lean ====
/- What the buffers read by the host operations before launch 4 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at4_main_arg25 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := StableHlo.after_of_writes_sub hostOps3 _ hostOps3_writes (by decide)
    _ = W5 m ρ c (Proc.devRef .tc main_arg25) := W6_of_ne m ρ c main_arg25 (by decide)
    _ = W4 m ρ c (Proc.devRef .tc main_arg25) := StableHlo.after_of_writes_sub hostOps2 _ hostOps2_writes (by decide)
    _ = W3 m ρ c (Proc.devRef .tc main_arg25) := W4_of_ne m ρ c main_arg25 (by decide)
    _ = W2 m ρ c (Proc.devRef .tc main_arg25) := StableHlo.after_of_writes_sub hostOps1 _ hostOps1_writes (by decide)
    _ = W1 m ρ c (Proc.devRef .tc main_arg25) := W2_of_ne m ρ c main_arg25 (by decide)
    _ = W0 m ρ c (Proc.devRef .tc main_arg25) := StableHlo.after_of_writes_sub hostOps0 _ hostOps0_writes (by decide)
    _ = m ((c : Thread nD τ).loc main_arg25) := rfl

set_option maxHeartbeats 4000000 in
theorem at4_main_v1 (c : Dev nD) : W8 m ρ c (Proc.devRef .tc main_v1) = W2 m ρ c (Proc.devRef .tc main_v1) :=
  calc W8 m ρ c (Proc.devRef .tc main_v1)
    _ = W7 m ρ c (Proc.devRef .tc main_v1) := (W8_arr m ρ c 4).trans (((dat3 (V7 m ρ) c).arrAt_in 4 rfl _).trans (A_eq3 (V7 m ρ) c 4))
    _ = W6 m ρ c (Proc.devRef .tc main_v1) := StableHlo.after_of_writes_sub hostOps3 _ hostOps3_writes (by decide)
    _ = W5 m ρ c (Proc.devRef .tc main_v1) := W6_of_ne m ρ c main_v1 (by decide)
    _ = W4 m ρ c (Proc.devRef .tc main_v1) := StableHlo.after_of_writes_sub hostOps2 _ hostOps2_writes (by decide)
    _ = W3 m ρ c (Proc.devRef .tc main_v1) := W4_of_ne m ρ c main_v1 (by decide)
    _ = W2 m ρ c (Proc.devRef .tc main_v1) := StableHlo.after_of_writes_sub hostOps1 _ hostOps1_writes (by decide)

set_option maxHeartbeats 4000000 in
theorem at4_main_v32 (c : Dev nD) : W8 m ρ c (Proc.devRef .tc main_v32) = W7 m ρ c (Proc.devRef .tc main_v32) :=
  calc W8 m ρ c (Proc.devRef .tc main_v32)
    _ = W7 m ρ c (Proc.devRef .tc main_v32) := W8_of_ne m ρ c main_v32 (by decide)

set_option maxHeartbeats 4000000 in
theorem at4_main_arg26 (c : Dev nD) : W8 m ρ c (Proc.devRef .tc main_arg26) = m ((c : Thread nD τ).loc main_arg26) :=
  calc W8 m ρ c (Proc.devRef .tc main_arg26)
    _ = W7 m ρ c (Proc.devRef .tc main_arg26) := W8_of_ne m ρ c main_arg26 (by decide)
    _ = W6 m ρ c (Proc.devRef .tc main_arg26) := StableHlo.after_of_writes_sub hostOps3 _ hostOps3_writes (by decide)
    _ = W5 m ρ c (Proc.devRef .tc main_arg26) := W6_of_ne m ρ c main_arg26 (by decide)
    _ = W4 m ρ c (Proc.devRef .tc main_arg26) := StableHlo.after_of_writes_sub hostOps2 _ hostOps2_writes (by decide)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl

set_option maxHeartbeats 4000000 in
theorem at4_main_v5 (c : Dev nD) : W8 m ρ c (Proc.devRef .tc main_v5) = W6 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := StableHlo.after_of_writes_sub hostOps3 _ hostOps3_writes (by decide)

set_option maxHeartbeats 4000000 in
theorem at4_main_v41 (c : Dev nD) : W8 m ρ c (Proc.devRef .tc main_v41) = W7 m ρ c (Proc.devRef .tc main_v41) :=
  calc W8 m ρ c (Proc.devRef .tc main_v41)
    _ = W7 m ρ c (Proc.devRef .tc main_v41) := W8_of_ne m ρ c main_v41 (by decide)

set_option maxHeartbeats 4000000 in
theorem at4_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

set_option maxHeartbeats 4000000 in
theorem at4_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

set_option maxHeartbeats 4000000 in
theorem at4_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

set_option maxHeartbeats 4000000 in
theorem at4_main_v3 (c : Dev nD) : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_writes_sub hostOps3 _ hostOps3_writes (by decide)
    _ = W5 m ρ c (Proc.devRef .tc main_v3) := W6_of_ne m ρ c main_v3 (by decide)
    _ = W4 m ρ c (Proc.devRef .tc main_v3) := StableHlo.after_of_writes_sub hostOps2 _ hostOps2_writes (by decide)

end Cert.KernelIdeal.Carry

end
-- ==== Proof.RegionValue4.lean ====
/- Region 4 (a SAGE layer with its relu): the output array after the region, entry by entry, as a function of the operand
   arrays the region finds. Each grid point t computes rows 2000 t … 2000 t + 1999 of the layer from the same rows of
   the three row operands and the whole weights and bias; the 1 blocks tile the 2000 rows, so the array ends holding
   the layer's value at every entry. -/
import proofs.«138545_j63058709840619_2_alg».proof.Proof.FrameKIR4
import proofs.«138545_j63058709840619_2_alg».proof.Proof.SageBody
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.SageBody
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The operand arrays as the region finds them, at their literal types -/

abbrev in4_a1 (c : Dev nD) : Vec Ideal S2000x150 .f32 := V c main_v126
abbrev in4_w1 (c : Dev nD) : Vec Ideal S150x150 .f32 := V c main_v155
abbrev in4_a2 (c : Dev nD) : Vec Ideal S2000x150 .f32 := V c main_v143
abbrev in4_w2 (c : Dev nD) : Vec Ideal S150x150 .f32 := V c main_v157
abbrev in4_xd (c : Dev nD) : Vec Ideal S2000x150 .bf16 := V c main_v3
abbrev in4_wr (c : Dev nD) : Vec Ideal S150x150 .f32 := V c main_v148
abbrev in4_b (c : Dev nD) : Vec Ideal S1x150 .f32 := V c main_v158

/-! ## The block indices over the grid -/

/-- The printed index maps, decided over the grid: the row operands and the output take block row t at point t, the
    weights and the bias their one block. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-! ## The input blocks as parts of their arrays -/

/-- Window 0's block at point t is rows 2000 t … 2000 t + 1999 of its array. -/
theorem blk4_0 (c : Dev nD) (t : Fin cfg4.N) (x : S2000x150.Idx) (i : S2000x150.Idx)
    (h0 : (i 0).val = t.val * 2000 + (x 0).val) (h1 : (i 1).val = (x 1).val) :
    (iblk4 V c 0 t : Vec Ideal S2000x150 .f32) x = in4_a1 V c i := by
  obtain ⟨e00, e01, e10, e11, e20, e21, e30, e31, e40, e41, e50, e51, e60, e61, e70, e71⟩ := idx4 t
  show V c main_v126 (((cfg4.win 0).blk t).view.emb x) = V c main_v126 i
  refine congrArg (V c main_v126) (funext fun a => Fin.ext ?_)
  match a with
  | ⟨0, _⟩ => show win4_0.index t (0 : Fin 2) * 2000 + 1 * (x 0).val = (i 0).val; rw [e00, h0]; omega
  | ⟨1, _⟩ => show win4_0.index t (1 : Fin 2) * 150 + 1 * (x 1).val = (i 1).val; rw [e01, h1]; omega

/-- Window 1's block is its whole array at every point. -/
theorem blk4_1 (c : Dev nD) (t : Fin cfg4.N) : (iblk4 V c 1 t : Vec Ideal S150x150 .f32) = in4_w1 V c := by
  obtain ⟨e00, e01, e10, e11, e20, e21, e30, e31, e40, e41, e50, e51, e60, e61, e70, e71⟩ := idx4 t
  funext x
  show V c main_v155 (((cfg4.win 1).blk t).view.emb x) = V c main_v155 x
  refine congrArg (V c main_v155) (funext fun a => Fin.ext ?_)
  match a with
  | ⟨0, _⟩ => show win4_1.index t (0 : Fin 2) * 150 + 1 * (x 0).val = (x 0).val; rw [e10]; omega
  | ⟨1, _⟩ => show win4_1.index t (1 : Fin 2) * 150 + 1 * (x 1).val = (x 1).val; rw [e11]; omega

/-- Window 2's block at point t is rows 2000 t … 2000 t + 1999 of its array. -/
theorem blk4_2 (c : Dev nD) (t : Fin cfg4.N) (x : S2000x150.Idx) (i : S2000x150.Idx)
    (h0 : (i 0).val = t.val * 2000 + (x 0).val) (h1 : (i 1).val = (x 1).val) :
    (iblk4 V c 2 t : Vec Ideal S2000x150 .f32) x = in4_a2 V c i := by
  obtain ⟨e00, e01, e10, e11, e20, e21, e30, e31, e40, e41, e50, e51, e60, e61, e70, e71⟩ := idx4 t
  show V c main_v143 (((cfg4.win 2).blk t).view.emb x) = V c main_v143 i
  refine congrArg (V c main_v143) (funext fun a => Fin.ext ?_)
  match a with
  | ⟨0, _⟩ => show win4_2.index t (0 : Fin 2) * 2000 + 1 * (x 0).val = (i 0).val; rw [e20, h0]; omega
  | ⟨1, _⟩ => show win4_2.index t (1 : Fin 2) * 150 + 1 * (x 1).val = (i 1).val; rw [e21, h1]; omega

/-- Window 3's block is its whole array at every point. -/
theorem blk4_3 (c : Dev nD) (t : Fin cfg4.N) : (iblk4 V c 3 t : Vec Ideal S150x150 .f32) = in4_w2 V c := by
  obtain ⟨e00, e01, e10, e11, e20, e21, e30, e31, e40, e41, e50, e51, e60, e61, e70, e71⟩ := idx4 t
  funext x
  show V c main_v157 (((cfg4.win 3).blk t).view.emb x) = V c main_v157 x
  refine congrArg (V c main_v157) (funext fun a => Fin.ext ?_)
  match a with
  | ⟨0, _⟩ => show win4_3.index t (0 : Fin 2) * 150 + 1 * (x 0).val = (x 0).val; rw [e30]; omega
  | ⟨1, _⟩ => show win4_3.index t (1 : Fin 2) * 150 + 1 * (x 1).val = (x 1).val; rw [e31]; omega

/-- Window 4's block at point t is rows 2000 t … 2000 t + 1999 of its array. -/
theorem blk4_4 (c : Dev nD) (t : Fin cfg4.N) (x : S2000x150.Idx) (i : S2000x150.Idx)
    (h0 : (i 0).val = t.val * 2000 + (x 0).val) (h1 : (i 1).val = (x 1).val) :
    (iblk4 V c 4 t : Vec Ideal S2000x150 .bf16) x = in4_xd V c i := by
  obtain ⟨e00, e01, e10, e11, e20, e21, e30, e31, e40, e41, e50, e51, e60, e61, e70, e71⟩ := idx4 t
  show V c main_v3 (((cfg4.win 4).blk t).view.emb x) = V c main_v3 i
  refine congrArg (V c main_v3) (funext fun a => Fin.ext ?_)
  match a with
  | ⟨0, _⟩ => show win4_4.index t (0 : Fin 2) * 2000 + 1 * (x 0).val = (i 0).val; rw [e40, h0]; omega
  | ⟨1, _⟩ => show win4_4.index t (1 : Fin 2) * 150 + 1 * (x 1).val = (i 1).val; rw [e41, h1]; omega

/-- Window 5's block is its whole array at every point. -/
theorem blk4_5 (c : Dev nD) (t : Fin cfg4.N) : (iblk4 V c 5 t : Vec Ideal S150x150 .f32) = in4_wr V c := by
  obtain ⟨e00, e01, e10, e11, e20, e21, e30, e31, e40, e41, e50, e51, e60, e61, e70, e71⟩ := idx4 t
  funext x
  show V c main_v148 (((cfg4.win 5).blk t).view.emb x) = V c main_v148 x
  refine congrArg (V c main_v148) (funext fun a => Fin.ext ?_)
  match a with
  | ⟨0, _⟩ => show win4_5.index t (0 : Fin 2) * 150 + 1 * (x 0).val = (x 0).val; rw [e50]; omega
  | ⟨1, _⟩ => show win4_5.index t (1 : Fin 2) * 150 + 1 * (x 1).val = (x 1).val; rw [e51]; omega

/-- Window 6's block is its whole array at every point. -/
theorem blk4_6 (c : Dev nD) (t : Fin cfg4.N) : (iblk4 V c 6 t : Vec Ideal S1x150 .f32) = in4_b V c := by
  obtain ⟨e00, e01, e10, e11, e20, e21, e30, e31, e40, e41, e50, e51, e60, e61, e70, e71⟩ := idx4 t
  funext x
  show V c main_v158 (((cfg4.win 6).blk t).view.emb x) = V c main_v158 x
  refine congrArg (V c main_v158) (funext fun a => Fin.ext ?_)
  match a with
  | ⟨0, _⟩ => show win4_6.index t (0 : Fin 2) * 1 + 1 * (x 0).val = (x 0).val; rw [e60]; omega
  | ⟨1, _⟩ => show win4_6.index t (1 : Fin 2) * 150 + 1 * (x 1).val = (x 1).val; rw [e61]; omega

/-! ## The block a point writes back -/

/-- What the body leaves in the output window's buffer, at an entry: the layer's value on the input blocks. -/
theorem out4_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (y : S2000x150.Idx) :
    out4_7 (F := Ideal) x0 x1 x2 x3 x4 x5 x6 y = max (layer (n := 2000) x0 x1 x2 x3 x4 x5 x6 (y 0) (y 1)) 0 := by
  obtain ⟨p, q, rfl⟩ : ∃ (p : Fin 2000) (q : Fin 150), y = ix2 p q := ⟨y 0, y 1, eq_ix2 y⟩
  unfold out4_7
  rw [View.canon_unit_zero hz]
  simp only [View.ld_unit_zero (S := S2000x150) hz, View.ld_unit_zero (S := S150x150) hz, View.ld_unit_zero (S := S1x150) hz]
  exact k4_pay1_at x0 x1 x2 x3 x4 x5 x6 p q

/-- The layer on the whole arrays, entry by entry: what the output array ends holding. -/
abbrev G4 (c : Dev nD) : S2000x150.Idx → EReal := fun i =>
  max (layer (n := 2000) (in4_a1 V c) (in4_w1 V c) (in4_a2 V c) (in4_w2 V c) (in4_xd V c) (in4_wr V c) (in4_b V c) (i 0) (i 1)) 0

/-- WHAT POINT t WRITES BACK is block t of the layer on the whole arrays. -/
theorem flushed4 (c : Dev nD) (t : Fin cfg4.N) :
    (dat4 (F := Ideal) V c).flushed 7 t = ((cfg4.win 7).blk t).view.read (Elt Ideal) (G4 V c) := by
  show (cfg4.win 7).cut (grid4.coords t) ((dat4 (F := Ideal) V c).after 7 t) = _
  rw [after4_7]
  obtain ⟨e00, e01, e10, e11, e20, e21, e30, e31, e40, e41, e50, e51, e60, e61, e70, e71⟩ := idx4 t
  funext j
  have hj0 : (j 0).val < 2000 := (j 0).isLt
  have hj1 : (j 1).val < 150 := (j 1).isLt
  refine (out4_at (iblk4 V c 0 t) (iblk4 V c 1 t) (iblk4 V c 2 t) (iblk4 V c 3 t) (iblk4 V c 4 t) (iblk4 V c 5 t) (iblk4 V c 6 t) ((cfg4.win 7).xinj (grid4.coords t) j)).trans ?_
  show max (layer (n := 2000) (iblk4 V c 0 t) (iblk4 V c 1 t) (iblk4 V c 2 t) (iblk4 V c 3 t) (iblk4 V c 4 t) (iblk4 V c 5 t) (iblk4 V c 6 t) ((cfg4.win 7).xinj (grid4.coords t) j 0) ((cfg4.win 7).xinj (grid4.coords t) j 1)) 0
    = max (layer (n := 2000) (in4_a1 V c) (in4_w1 V c) (in4_a2 V c) (in4_w2 V c) (in4_xd V c) (in4_wr V c) (in4_b V c) ((((cfg4.win 7).blk t).view.emb j) 0) ((((cfg4.win 7).blk t).view.emb j) 1)) 0
  have hr : (((cfg4.win 7).blk t).view.emb j 0).val = t.val * 2000 + (j 0).val := by
    show win4_7.index t (0 : Fin 2) * 2000 + 1 * (j 0).val = _; rw [e70]; omega
  have hc : (((cfg4.win 7).blk t).view.emb j 1).val = (j 1).val := by
    show win4_7.index t (1 : Fin 2) * 150 + 1 * (j 1).val = _; rw [e71]; omega
  exact congrArg (max · 0) (layer_congr (n := 2000) (m := 2000)
    (iblk4 V c 0 t) (iblk4 V c 2 t) (iblk4 V c 4 t) (in4_a1 V c) (in4_a2 V c) (in4_xd V c)
    (iblk4 V c 1 t) (iblk4 V c 3 t) (iblk4 V c 5 t) (in4_w1 V c) (in4_w2 V c) (in4_wr V c) (iblk4 V c 6 t) (in4_b V c)
    ((cfg4.win 7).xinj (grid4.coords t) j 0) (((cfg4.win 7).blk t).view.emb j 0)
    ((cfg4.win 7).xinj (grid4.coords t) j 1) (((cfg4.win 7).blk t).view.emb j 1)
    (fun k => blk4_0 V c t _ _ hr rfl) (fun k => blk4_2 V c t _ _ hr rfl) (fun k => blk4_4 V c t _ _ hr rfl)
    (blk4_1 V c t) (blk4_3 V c t) (blk4_5 V c t) (blk4_6 V c t) (Fin.ext hc.symm))

/-! ## The blocks tile the array -/

/-- An index of the array is in point t's block iff each coordinate is in the block's range on its axis. -/
theorem mem_blk4 (t : Fin cfg4.N) (i : S2000x150.Idx) :
    i ∈ ((cfg4.win 7).blk t).view.set ↔ ∀ a : Fin 2, win4_7.index t a * S2000x150.size a ≤ (i a).val ∧ (i a).val < win4_7.index t a * S2000x150.size a + S2000x150.size a := by
  show i ∈ ((View.whole main_v159).slice (win4_7.rect t)).set ↔ _
  rw [View.set_slice_whole, Rect.mem_set_unit]
  exact Iff.rfl

/-- Every entry of the array is in the block of the point its row falls to. -/
theorem cover4 (i : S2000x150.Idx) : ∃ t : Fin cfg4.N, (cfg4.win 7).flush t = true ∧ i ∈ ((cfg4.win 7).blk t).view.set := by
  have hi0 : (i 0).val < 2000 := (i 0).isLt
  have hi1 : (i 1).val < 150 := (i 1).isLt
  obtain ⟨t, ht⟩ : ∃ t : Fin cfg4.N, t.val = (i 0).val / 2000 :=
    ⟨⟨(i 0).val / 2000, Nat.lt_of_lt_of_eq (by omega : (i 0).val / 2000 < 1) N_4.symm⟩, rfl⟩
  obtain ⟨e00, e01, e10, e11, e20, e21, e30, e31, e40, e41, e50, e51, e60, e61, e70, e71⟩ := idx4 t
  refine ⟨t, flush4_7 t, ?_⟩
  rw [mem_blk4]
  intro a
  match a with
  | ⟨0, _⟩ => show win4_7.index t (0 : Fin 2) * 2000 ≤ (i 0).val ∧ (i 0).val < win4_7.index t (0 : Fin 2) * 2000 + 2000; rw [e70, ht]; omega
  | ⟨1, _⟩ => show win4_7.index t (1 : Fin 2) * 150 ≤ (i 1).val ∧ (i 1).val < win4_7.index t (1 : Fin 2) * 150 + 150; rw [e71]; omega

/-! ## The array after the region -/

/-- THE OUTPUT ARRAY after region 4, at entry (p, q): the layer's value on the operand arrays as the region finds them. -/
theorem region4 (c : Dev nD) (p : Fin 2000) (q : Fin 150) :
    (dat4 (F := Ideal) V c).arrAt 7 cfg4.N (ix2 p q)
      = max ((((∑ k : Fin 150, in4_a1 V c (ix2 p k) * in4_w1 V c (ix2 k q)) + (∑ k : Fin 150, in4_a2 V c (ix2 p k) * in4_w2 V c (ix2 k q))) + (∑ k : Fin 150, in4_xd V c (ix2 p k) * in4_wr V c (ix2 k q))) + in4_b V c (ix2 0 q)) 0 :=
  congrFun ((dat4 (F := Ideal) V c).arrAt_eq_of_cover 7 (G4 V c) (fun t _ => flushed4 V c t) cover4) (ix2 p q)

/-- The same over any arrays equal to the operand arrays: the form to instantiate. -/
theorem region4_at (c : Dev nD) (A1 : Vec Ideal S2000x150 .f32) (W1 : Vec Ideal S150x150 .f32) (A2 : Vec Ideal S2000x150 .f32) (W2 : Vec Ideal S150x150 .f32)
    (XD : Vec Ideal S2000x150 .bf16) (WR : Vec Ideal S150x150 .f32) (B : Vec Ideal S1x150 .f32)
    (hA1 : A1 = V c main_v126) (hW1 : W1 = V c main_v155) (hA2 : A2 = V c main_v143) (hW2 : W2 = V c main_v157)
    (hXD : XD = V c main_v3) (hWR : WR = V c main_v148) (hB : B = V c main_v158) (p : Fin 2000) (q : Fin 150) :
    (dat4 (F := Ideal) V c).arrAt 7 cfg4.N (ix2 p q)
      = max ((((∑ k : Fin 150, A1 (ix2 p k) * W1 (ix2 k q)) + (∑ k : Fin 150, A2 (ix2 p k) * W2 (ix2 k q))) + (∑ k : Fin 150, XD (ix2 p k) * WR (ix2 k q))) + B (ix2 0 q)) 0 := by
  subst hA1 hW1 hA2 hW2 hXD hWR hB
  exact region4 V c p q

end Cert.KernelIdeal.RegionValue

end
-- ==== Proof.Step4.lean ====
/-
  Launch 4: the first two-branch mean-aggregation layer, on the 2000-row node type.

  Per output entry (p, q) the kernel program computes
      max ( ((Σk A1[p,k]·W1[k,q] + Σk A2[p,k]·W2[k,q]) + Σk X[p,k]·(R1+R2)[k,q]) + (b1+b2)[q] , 0 )
  from seven operand arrays that the host operations before the launch prepare: A1, A2 the two mean aggregations
  (a scatter-add of gathered source rows divided by the clamped in-degree), W1, W2, R1, R2 slices of the two weight
  stacks, b1, b2 slices of the bias stack, X the destination rows. The reference computes
      max ( ((Σk A1·W1 + b1[q]) + Σk X·R1) + ((Σk A2·W2 + b2[q]) + Σk X·R2) , 0 ).
  The two agree when X, R1 and R2 have real entries (the product distributes over the sum of the two root matrices only
  away from the infinities).

  The in-degree columns this layer's two means divide by were computed by the host operations before launch 3 and
  have not been written since; they are the first part. Then, over ANY contents of the buffers before this launch's
  host operations, each operand array the launch finds is the reference's stage of the same name (the host operations
  on the two sides are the same tree over the same leaves; the widening of the gathered rows to the wider float format
  is the identity on the extended reals); the reference's output stage read at an entry; and the two combined by the
  algebraic law, at the contents the program's run has there.
-/
import proofs.«138545_j63058709840619_2_alg».proof.Proof.FrameKIW
import proofs.«138545_j63058709840619_2_alg».proof.Proof.RefRead
import proofs.«138545_j63058709840619_2_alg».proof.Proof.Carry3
import proofs.«138545_j63058709840619_2_alg».proof.Proof.Carry4
import proofs.«138545_j63058709840619_2_alg».proof.Proof.RegionValue4
import proofs.«138545_j63058709840619_2_alg».proof.Proof.Algebra
import proofs.«138545_j63058709840619_2_alg».proof.Proof.RefFinite
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.KernelIdeal Cert.KernelIdeal.Gen Cert.ReferenceIdeal.Read Cert.Algebra
open Idealize.ShloMosaic Idealize.ShloMosaic.TcCoe Idealize.ShloMosaic.ValueIdx
open Idealize.SL Idealize.SL.Sem

/-! ## Two pointwise facts about arrays of extended reals -/

/-- Widening an array from the narrower float format to the wider one changes no entry: a float of either format is
    an extended real. -/
theorem extf4_id {s : Shape} (x : FVec Ideal s .bf16) (h : FTy.bits .bf16 < FTy.bits .f32) :
    (extf (F := Ideal) .f32 x h : s.Idx → EReal) = x := rfl

/-- The entrywise sum of two arrays, read at an entry. -/
theorem addf4_at {s : Shape} (x y : FVec Ideal s .f32) (i : s.Idx) :
    (addf (F := Ideal) x y) i = (x i + y i : EReal) := rfl

section Stretch

variable (V0 : Valuation τ sig (Elt Ideal))
variable {x0 : FVec Ideal Cert.ReferenceIdeal.S50000x768 .f32} {x1 : FVec Ideal Cert.ReferenceIdeal.S2000x768 .f32}
  {x2 : FVec Ideal Cert.ReferenceIdeal.S20000x1024 .f32} {x3 : FVec Ideal Cert.ReferenceIdeal.S768x150 .f32}
  {x4 : FVec Ideal Cert.ReferenceIdeal.S150 .f32} {x5 : FVec Ideal Cert.ReferenceIdeal.S768x150 .f32}
  {x6 : FVec Ideal Cert.ReferenceIdeal.S150 .f32} {x7 : FVec Ideal Cert.ReferenceIdeal.S1024x150 .f32}
  {x8 : FVec Ideal Cert.ReferenceIdeal.S150 .f32} {x9 : FVec Ideal Cert.ReferenceIdeal.S3x6x150x150 .f32}
  {x10 : FVec Ideal Cert.ReferenceIdeal.S3x6x150 .f32} {x11 : FVec Ideal Cert.ReferenceIdeal.S3x6x150x150 .f32}
  {x25 : IVec Cert.ReferenceIdeal.S2x200000 32} {x26 : IVec Cert.ReferenceIdeal.S2x200000 32}

/-! ## The two in-degree columns, computed before launch 3

V0 is what the buffers hold before the host operations that precede launch 3. -/

set_option maxHeartbeats 4000000 in
/-- The clamped in-degree column the first mean divides by: per destination the number of edges of the second edge
    list that end there, or one if there is none. -/
theorem cnt4_main_v32
    (h25 : (V0 (Proc.devRef .tc main_arg25) : Cert.ReferenceIdeal.S2x200000.Idx → BitVec 32) = x25) :
    (StableHlo.after hostOps3 V0 (Proc.devRef .tc main_v32) : Cert.ReferenceIdeal.S2000x1.Idx → EReal)
      = val_main_v103 (F := Ideal) x25 := by
  after_results_simp
  rw [h25]
  simp only [val_main_v103, val_main_v102, val_main_v100, val_main_v98, val_main_cst_14, val_main_v99, val_main_v86,
    val_main_v85, val_main_v97, val_main_cst_13, val_main_v101, val_main_cst_15]
  rfl

set_option maxHeartbeats 4000000 in
/-- The clamped in-degree column the second mean divides by: per destination the number of edges of the third edge
    list that end there, or one if there is none. -/
theorem cnt4_main_v41
    (h26 : (V0 (Proc.devRef .tc main_arg26) : Cert.ReferenceIdeal.S2x200000.Idx → BitVec 32) = x26) :
    (StableHlo.after hostOps3 V0 (Proc.devRef .tc main_v41) : Cert.ReferenceIdeal.S2000x1.Idx → EReal)
      = val_main_v138 (F := Ideal) x26 := by
  after_results_simp
  rw [h26]
  simp only [val_main_v138, val_main_v137, val_main_v135, val_main_v133, val_main_cst_20, val_main_v134,
    val_main_v121, val_main_v120, val_main_v132, val_main_cst_19, val_main_v136, val_main_cst_21]
  rfl

/-! ## The seven operand arrays at the launch's entry

V0 is now what the buffers hold before the host operations of this launch's stretch; the argument arrays, the node
features and the two in-degree columns are named by equations. Each operand array is then a term of the host
operations over those, and the reference's stage is the same term. -/

set_option maxHeartbeats 4000000 in
/-- Operand 0, the first mean aggregation: the rows of the 50000-row features gathered along the second edge list's
    sources, added up per destination, divided by the destination's clamped in-degree. -/
theorem op4_0
    (h25 : (V0 (Proc.devRef .tc main_arg25) : Cert.ReferenceIdeal.S2x200000.Idx → BitVec 32) = x25)
    (h1 : (V0 (Proc.devRef .tc main_v1) : Cert.ReferenceIdeal.S50000x150.Idx → EReal)
      = val_main_v3 (F := Ideal) x0 x3 x4)
    (h32 : (V0 (Proc.devRef .tc main_v32) : Cert.ReferenceIdeal.S2000x1.Idx → EReal)
      = val_main_v103 (F := Ideal) x25) :
    (StableHlo.after hostOps4 V0 (Proc.devRef .tc main_v126) : Cert.ReferenceIdeal.S2000x150.Idx → EReal)
      = val_main_v105 (F := Ideal) x0 x3 x4 x25 := by
  after_results_simp
  rw [h25, h1, h32]
  simp only [extf4_id]
  simp only [val_main_v105, val_main_v96, val_main_v94, val_main_cst_12, val_main_v95, val_main_v86, val_main_v85,
    val_main_v93, val_main_v92, val_main_v91, val_main_v88, val_main_v84, val_main_v83, val_main_v87, val_main_c_10,
    val_main_v90, val_main_v89, val_main_c_11, val_main_v104]
  rfl

set_option maxHeartbeats 4000000 in
/-- Operand 1, the first neighbour weight: a slice of the neighbour weight stack as a 150 × 150 matrix. -/
theorem op4_1
    (h9 : (V0 (Proc.devRef .tc main_arg9) : Cert.ReferenceIdeal.S3x6x150x150.Idx → EReal) = x9) :
    (StableHlo.after hostOps4 V0 (Proc.devRef .tc main_v155) : Cert.ReferenceIdeal.S150x150.Idx → EReal)
      = val_main_v107 (F := Ideal) x9 := by
  after_results_simp
  rw [h9]
  simp only [val_main_v107, val_main_v106]
  rfl

set_option maxHeartbeats 4000000 in
/-- Operand 2, the second mean aggregation: the rows of the 20000-row features gathered along the third edge list's
    sources, added up per destination, divided by the destination's clamped in-degree. -/
theorem op4_2
    (h26 : (V0 (Proc.devRef .tc main_arg26) : Cert.ReferenceIdeal.S2x200000.Idx → BitVec 32) = x26)
    (h5 : (V0 (Proc.devRef .tc main_v5) : Cert.ReferenceIdeal.S20000x150.Idx → EReal)
      = val_main_v11 (F := Ideal) x2 x7 x8)
    (h41 : (V0 (Proc.devRef .tc main_v41) : Cert.ReferenceIdeal.S2000x1.Idx → EReal)
      = val_main_v138 (F := Ideal) x26) :
    (StableHlo.after hostOps4 V0 (Proc.devRef .tc main_v143) : Cert.ReferenceIdeal.S2000x150.Idx → EReal)
      = val_main_v140 (F := Ideal) x2 x7 x8 x26 := by
  after_results_simp
  rw [h26, h5, h41]
  simp only [extf4_id]
  simp only [val_main_v140, val_main_v131, val_main_v129, val_main_cst_18, val_main_v130, val_main_v121,
    val_main_v120, val_main_v128, val_main_v127, val_main_v126, val_main_v123, val_main_v119, val_main_v118,
    val_main_v122, val_main_c_16, val_main_v125, val_main_v124, val_main_c_17, val_main_v139]
  rfl

set_option maxHeartbeats 4000000 in
/-- Operand 3, the second neighbour weight. -/
theorem op4_3
    (h9 : (V0 (Proc.devRef .tc main_arg9) : Cert.ReferenceIdeal.S3x6x150x150.Idx → EReal) = x9) :
    (StableHlo.after hostOps4 V0 (Proc.devRef .tc main_v157) : Cert.ReferenceIdeal.S150x150.Idx → EReal)
      = val_main_v142 (F := Ideal) x9 := by
  after_results_simp
  rw [h9]
  simp only [val_main_v142, val_main_v141]
  rfl

set_option maxHeartbeats 4000000 in
/-- Operand 4, the destination rows: no host operation of the stretch writes the 2000-row features' buffer. -/
theorem op4_4 :
    StableHlo.after hostOps4 V0 (Proc.devRef .tc main_v3) = V0 (Proc.devRef .tc main_v3) := by
  after_results_simp

set_option maxHeartbeats 4000000 in
/-- Operand 5, the root weight: the entrywise sum of the two branches' slices of the root weight stack. -/
theorem op4_5
    (h11 : (V0 (Proc.devRef .tc main_arg11) : Cert.ReferenceIdeal.S3x6x150x150.Idx → EReal) = x11) :
    (StableHlo.after hostOps4 V0 (Proc.devRef .tc main_v148) : Cert.ReferenceIdeal.S150x150.Idx → EReal)
      = addf (F := Ideal) (φ := .f32) (val_main_v115 (F := Ideal) x11) (val_main_v150 (F := Ideal) x11) := by
  after_results_simp
  rw [h11]
  simp only [val_main_v115, val_main_v114, val_main_v150, val_main_v149]
  rfl

set_option maxHeartbeats 4000000 in
/-- Operand 6, the bias row: the entrywise sum of the two branches' slices of the bias stack, as a 1 × 150 array. -/
theorem op4_6
    (h10 : (V0 (Proc.devRef .tc main_arg10) : Cert.ReferenceIdeal.S3x6x150.Idx → EReal) = x10) :
    (StableHlo.after hostOps4 V0 (Proc.devRef .tc main_v158) : Cert.KernelIdeal.S1x150.Idx → EReal)
      = shapeCast Cert.KernelIdeal.S1x150
          (addf (F := Ideal) (φ := .f32) (val_main_v110 (F := Ideal) x10) (val_main_v145 (F := Ideal) x10))
          Cert.KernelIdeal.Facts₀.shapeCasts_S150_S1x150 := by
  after_results_simp
  rw [h10]
  simp only [val_main_v110, val_main_v109, val_main_v145, val_main_v144]
  rfl

end Stretch

/-! ## The reference's output stage at an entry -/

/-- The reference's layer output at entry (p, q): per branch the aggregated product, the bias entry and the
    destination row against the branch's root weight; the two branches added; the maximum with zero. -/
theorem ref4_at
    (x0 : FVec Ideal Cert.ReferenceIdeal.S50000x768 .f32) (x1 : FVec Ideal Cert.ReferenceIdeal.S2000x768 .f32)
    (x2 : FVec Ideal Cert.ReferenceIdeal.S20000x1024 .f32) (x3 : FVec Ideal Cert.ReferenceIdeal.S768x150 .f32)
    (x4 : FVec Ideal Cert.ReferenceIdeal.S150 .f32) (x5 : FVec Ideal Cert.ReferenceIdeal.S768x150 .f32)
    (x6 : FVec Ideal Cert.ReferenceIdeal.S150 .f32) (x7 : FVec Ideal Cert.ReferenceIdeal.S1024x150 .f32)
    (x8 : FVec Ideal Cert.ReferenceIdeal.S150 .f32) (x9 : FVec Ideal Cert.ReferenceIdeal.S3x6x150x150 .f32)
    (x10 : FVec Ideal Cert.ReferenceIdeal.S3x6x150 .f32) (x11 : FVec Ideal Cert.ReferenceIdeal.S3x6x150x150 .f32)
    (x25 : IVec Cert.ReferenceIdeal.S2x200000 32) (x26 : IVec Cert.ReferenceIdeal.S2x200000 32)
    (p : Fin 2000) (q : Fin 150) :
    val_main_v226 (F := Ideal) x0 x1 x2 x3 x4 x5 x6 x7 x8 x9 x10 x11 x25 x26 (ix2 p q)
      = (max ((((∑ k : Fin 150, val_main_v105 (F := Ideal) x0 x3 x4 x25 (ix2 p k) * val_main_v107 (F := Ideal) x9 (ix2 k q))
                + val_main_v110 (F := Ideal) x10 (ix1 q))
               + ∑ k : Fin 150, val_main_v7 (F := Ideal) x1 x5 x6 (ix2 p k) * val_main_v115 (F := Ideal) x11 (ix2 k q))
              + (((∑ k : Fin 150, val_main_v140 (F := Ideal) x2 x7 x8 x26 (ix2 p k) * val_main_v142 (F := Ideal) x9 (ix2 k q))
                + val_main_v145 (F := Ideal) x10 (ix1 q))
               + ∑ k : Fin 150, val_main_v7 (F := Ideal) x1 x5 x6 (ix2 p k) * val_main_v150 (F := Ideal) x11 (ix2 k q))) 0 : EReal) := by
  rw [val_main_v226_apply, val_main_v153_apply, val_main_v117_apply, val_main_v113_apply, val_main_v108_apply,
    val_main_v112_apply, val_main_v111_apply, val_main_v116_apply, val_main_v152_apply, val_main_v148_apply,
    val_main_v143_apply, val_main_v147_apply, val_main_v146_apply, val_main_v151_apply, val_main_call1_v0_apply,
    val_main_call1_cst_apply]
  -- the operands' indices: a product's left factor is read in the output's row, its right factor in the output's
  -- column, both at the contraction position; the bias is read in the output's column
  have el108 : ∀ k : Fin 150, lidx_main_v108 (ix2 p q) k = ix2 p k := fun k => funext fun a => by
    match a with | ⟨0, _⟩ => rfl | ⟨1, _⟩ => rfl
  have er108 : ∀ k : Fin 150, ridx_main_v108 (ix2 p q) k = ix2 k q := fun k => funext fun a => by
    match a with | ⟨0, _⟩ => rfl | ⟨1, _⟩ => rfl
  have el116 : ∀ k : Fin 150, lidx_main_v116 (ix2 p q) k = ix2 p k := fun k => funext fun a => by
    match a with | ⟨0, _⟩ => rfl | ⟨1, _⟩ => rfl
  have er116 : ∀ k : Fin 150, ridx_main_v116 (ix2 p q) k = ix2 k q := fun k => funext fun a => by
    match a with | ⟨0, _⟩ => rfl | ⟨1, _⟩ => rfl
  have el143 : ∀ k : Fin 150, lidx_main_v143 (ix2 p q) k = ix2 p k := fun k => funext fun a => by
    match a with | ⟨0, _⟩ => rfl | ⟨1, _⟩ => rfl
  have er143 : ∀ k : Fin 150, ridx_main_v143 (ix2 p q) k = ix2 k q := fun k => funext fun a => by
    match a with | ⟨0, _⟩ => rfl | ⟨1, _⟩ => rfl
  have el151 : ∀ k : Fin 150, lidx_main_v151 (ix2 p q) k = ix2 p k := fun k => funext fun a => by
    match a with | ⟨0, _⟩ => rfl | ⟨1, _⟩ => rfl
  have er151 : ∀ k : Fin 150, ridx_main_v151 (ix2 p q) k = ix2 k q := fun k => funext fun a => by
    match a with | ⟨0, _⟩ => rfl | ⟨1, _⟩ => rfl
  have eb111 : idx_main_v111 (idx_main_v112 (ix2 p q)) = ix1 q := funext fun a => by
    match a with | ⟨0, _⟩ => rfl
  have eb146 : idx_main_v146 (idx_main_v147 (ix2 p q)) = ix1 q := funext fun a => by
    match a with | ⟨0, _⟩ => rfl
  simp only [el108, er108, el116, er116, el143, er143, el151, er151, eb111, eb146, Ideal.maximumf_def,
    Ideal.addf_def, Ideal.ofBits_def, Ideal.ofBits_zero_f32]

/-! ## The launch's fact -/

variable (m : (ℓ : Loc nD τ sig) → Buf (Elt Ideal) ℓ) (ρ : Dev nD → PrngReg) (c : Dev nD)

set_option quotPrecheck false
local notation "𝔸0" => m ((c.tc : Thread nD τ).loc main_arg0)
local notation "𝔸1" => m ((c.tc : Thread nD τ).loc main_arg1)
local notation "𝔸2" => m ((c.tc : Thread nD τ).loc main_arg2)
local notation "𝔸3" => m ((c.tc : Thread nD τ).loc main_arg3)
local notation "𝔸4" => m ((c.tc : Thread nD τ).loc main_arg4)
local notation "𝔸5" => m ((c.tc : Thread nD τ).loc main_arg5)
local notation "𝔸6" => m ((c.tc : Thread nD τ).loc main_arg6)
local notation "𝔸7" => m ((c.tc : Thread nD τ).loc main_arg7)
local notation "𝔸8" => m ((c.tc : Thread nD τ).loc main_arg8)
local notation "𝔸9" => m ((c.tc : Thread nD τ).loc main_arg9)
local notation "𝔸10" => m ((c.tc : Thread nD τ).loc main_arg10)
local notation "𝔸11" => m ((c.tc : Thread nD τ).loc main_arg11)
local notation "𝔸25" => m ((c.tc : Thread nD τ).loc main_arg25)
local notation "𝔸26" => m ((c.tc : Thread nD τ).loc main_arg26)

set_option maxHeartbeats 4000000 in
/-- After launch 4 the layer's output buffer holds the reference's stage %226, given what the three feature launches
    left in their output buffers, and real entries in the destination rows and in the root weight stack. -/
theorem step4
    (hK0 : (W2 (F := Ideal) m ρ c (Proc.devRef .tc main_v1) : Cert.ReferenceIdeal.S50000x150.Idx → EReal)
      = val_main_v3 (F := Ideal) 𝔸0 𝔸3 𝔸4)
    (hK1 : (W4 (F := Ideal) m ρ c (Proc.devRef .tc main_v3) : Cert.ReferenceIdeal.S2000x150.Idx → EReal)
      = val_main_v7 (F := Ideal) 𝔸1 𝔸5 𝔸6)
    (hK2 : (W6 (F := Ideal) m ρ c (Proc.devRef .tc main_v5) : Cert.ReferenceIdeal.S20000x150.Idx → EReal)
      = val_main_v11 (F := Ideal) 𝔸2 𝔸7 𝔸8)
    (hX : AllReal (val_main_v7 (F := Ideal) 𝔸1 𝔸5 𝔸6))
    (h11 : AllReal (𝔸11 : Cert.ReferenceIdeal.S3x6x150x150.Idx → EReal)) :
    (W10 (F := Ideal) m ρ c (Proc.devRef .tc main_v159) : Cert.ReferenceIdeal.S2000x150.Idx → EReal)
      = val_main_v226 (F := Ideal) 𝔸0 𝔸1 𝔸2 𝔸3 𝔸4 𝔸5 𝔸6 𝔸7 𝔸8 𝔸9 𝔸10 𝔸11 𝔸25 𝔸26 := by
  -- the two in-degree columns: untouched since the stretch before launch 3, where the arguments were as launched
  have c32 := (Carry.at4_main_v32 m ρ c).trans (cnt4_main_v32 (W6 m ρ c) (Carry.at3_main_arg25 m ρ c))
  have c41 := (Carry.at4_main_v41 m ρ c).trans (cnt4_main_v41 (W6 m ρ c) (Carry.at3_main_arg26 m ρ c))
  -- the seven operand arrays at the contents the run has before the stretch: the arguments as launched, the three
  -- feature buffers as their launches left them
  have e0 := op4_0 (W8 m ρ c) (Carry.at4_main_arg25 m ρ c) ((Carry.at4_main_v1 m ρ c).trans hK0) c32
  have e1 := op4_1 (W8 m ρ c) (Carry.at4_main_arg9 m ρ c)
  have e2 := op4_2 (W8 m ρ c) (Carry.at4_main_arg26 m ρ c) ((Carry.at4_main_v5 m ρ c).trans hK2) c41
  have e3 := op4_3 (W8 m ρ c) (Carry.at4_main_arg9 m ρ c)
  have e4 := ((op4_4 (W8 m ρ c)).trans (Carry.at4_main_v3 m ρ c)).trans hK1
  have e5 := op4_5 (W8 m ρ c) (Carry.at4_main_arg11 m ρ c)
  have e6 := op4_6 (W8 m ρ c) (Carry.at4_main_arg10 m ρ c)
  funext i
  obtain ⟨p, q, rfl⟩ : ∃ (p : Fin 2000) (q : Fin 150), i = ix2 p q := ⟨i 0, i 1, eq_ix2 i⟩
  rw [ref4_at]
  -- the kernel's side: the output array after the launch, entry by entry, over the seven operand arrays
  refine ((congrFun (W10_arr (F := Ideal) m ρ c 7) (ix2 p q)).trans
    (RegionValue.region4_at (V9 m ρ) c
      (val_main_v105 (F := Ideal) 𝔸0 𝔸3 𝔸4 𝔸25) (val_main_v107 (F := Ideal) 𝔸9)
      (val_main_v140 (F := Ideal) 𝔸2 𝔸7 𝔸8 𝔸26) (val_main_v142 (F := Ideal) 𝔸9)
      (val_main_v7 (F := Ideal) 𝔸1 𝔸5 𝔸6)
      (addf (F := Ideal) (φ := .f32) (val_main_v115 (F := Ideal) 𝔸11) (val_main_v150 (F := Ideal) 𝔸11))
      (shapeCast Cert.KernelIdeal.S1x150
        (addf (F := Ideal) (φ := .f32) (val_main_v110 (F := Ideal) 𝔸10) (val_main_v145 (F := Ideal) 𝔸10))
        Cert.KernelIdeal.Facts₀.shapeCasts_S150_S1x150)
      e0.symm e1.symm e2.symm e3.symm e4.symm e5.symm e6.symm p q)).trans ?_
  -- the bias row at (0, q) is the summed bias at q; a summed array's entry is the sum of the entries
  rw [shapeCast_a_1a_apply]
  simp only [addf4_at]
  refine congrArg (fun t : EReal => max t 0) ?_
  exact combine_law
    (fun k : Fin 150 => val_main_v105 (F := Ideal) 𝔸0 𝔸3 𝔸4 𝔸25 (ix2 p k)) (fun k => val_main_v107 (F := Ideal) 𝔸9 (ix2 k q))
    (fun k : Fin 150 => val_main_v140 (F := Ideal) 𝔸2 𝔸7 𝔸8 𝔸26 (ix2 p k)) (fun k => val_main_v142 (F := Ideal) 𝔸9 (ix2 k q))
    (fun k : Fin 150 => val_main_v7 (F := Ideal) 𝔸1 𝔸5 𝔸6 (ix2 p k))
    (fun k : Fin 150 => val_main_v115 (F := Ideal) 𝔸11 (ix2 k q)) (fun k => val_main_v150 (F := Ideal) 𝔸11 (ix2 k q))
    (val_main_v110 (F := Ideal) 𝔸10 (ix1 q)) (val_main_v145 (F := Ideal) 𝔸10 (ix1 q))
    (fun k => hX (ix2 p k))
    (fun k => Cert.RefFinite.fin_main_v115 𝔸11 h11 (ix2 k q))
    (fun k => Cert.RefFinite.fin_main_v150 𝔸11 h11 (ix2 k q))

end Cert.Bridge

end
-- ==== Proof.Carry5.lean ====
/- What the buffers read by the host operations before launch 5 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at5_main_arg24 (c : Dev nD) : W10 m ρ c (Proc.devRef .tc main_arg24) = m ((c : Thread nD τ).loc main_arg24) :=
  calc W10 m ρ c (Proc.devRef .tc main_arg24)
    _ = W9 m ρ c (Proc.devRef .tc main_arg24) := W10_of_ne m ρ c main_arg24 (by decide)
    _ = W8 m ρ c (Proc.devRef .tc main_arg24) := StableHlo.after_of_writes_sub hostOps4 _ hostOps4_writes (by decide)
    _ = W7 m ρ c (Proc.devRef .tc main_arg24) := W8_of_ne m ρ c main_arg24 (by decide)
    _ = W6 m ρ c (Proc.devRef .tc main_arg24) := StableHlo.after_of_writes_sub hostOps3 _ hostOps3_writes (by decide)
    _ = W5 m ρ c (Proc.devRef .tc main_arg24) := W6_of_ne m ρ c main_arg24 (by decide)
    _ = W4 m ρ c (Proc.devRef .tc main_arg24) := StableHlo.after_of_writes_sub hostOps2 _ hostOps2_writes (by decide)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl

set_option maxHeartbeats 4000000 in
theorem at5_main_v1 (c : Dev nD) : W10 m ρ c (Proc.devRef .tc main_v1) = W2 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := StableHlo.after_of_writes_sub hostOps4 _ hostOps4_writes (by decide)
    _ = W7 m ρ c (Proc.devRef .tc main_v1) := (W8_arr m ρ c 4).trans (((dat3 (V7 m ρ) c).arrAt_in 4 rfl _).trans (A_eq3 (V7 m ρ) c 4))
    _ = W6 m ρ c (Proc.devRef .tc main_v1) := StableHlo.after_of_writes_sub hostOps3 _ hostOps3_writes (by decide)
    _ = W5 m ρ c (Proc.devRef .tc main_v1) := W6_of_ne m ρ c main_v1 (by decide)
    _ = W4 m ρ c (Proc.devRef .tc main_v1) := StableHlo.after_of_writes_sub hostOps2 _ hostOps2_writes (by decide)
    _ = W3 m ρ c (Proc.devRef .tc main_v1) := W4_of_ne m ρ c main_v1 (by decide)
    _ = W2 m ρ c (Proc.devRef .tc main_v1) := StableHlo.after_of_writes_sub hostOps1 _ hostOps1_writes (by decide)

set_option maxHeartbeats 4000000 in
theorem at5_main_v50 (c : Dev nD) : W10 m ρ c (Proc.devRef .tc main_v50) = W7 m ρ c (Proc.devRef .tc main_v50) :=
  calc W10 m ρ c (Proc.devRef .tc main_v50)
    _ = W9 m ρ c (Proc.devRef .tc main_v50) := W10_of_ne m ρ c main_v50 (by decide)
    _ = W8 m ρ c (Proc.devRef .tc main_v50) := StableHlo.after_of_writes_sub hostOps4 _ hostOps4_writes (by decide)
    _ = W7 m ρ c (Proc.devRef .tc main_v50) := W8_of_ne m ρ c main_v50 (by decide)

set_option maxHeartbeats 4000000 in
theorem at5_main_arg26 (c : Dev nD) : W10 m ρ c (Proc.devRef .tc main_arg26) = m ((c : Thread nD τ).loc main_arg26) :=
  calc W10 m ρ c (Proc.devRef .tc main_arg26)
    _ = W9 m ρ c (Proc.devRef .tc main_arg26) := W10_of_ne m ρ c main_arg26 (by decide)
    _ = W8 m ρ c (Proc.devRef .tc main_arg26) := StableHlo.after_of_writes_sub hostOps4 _ hostOps4_writes (by decide)
    _ = W7 m ρ c (Proc.devRef .tc main_arg26) := W8_of_ne m ρ c main_arg26 (by decide)
    _ = W6 m ρ c (Proc.devRef .tc main_arg26) := StableHlo.after_of_writes_sub hostOps3 _ hostOps3_writes (by decide)
    _ = W5 m ρ c (Proc.devRef .tc main_arg26) := W6_of_ne m ρ c main_arg26 (by decide)
    _ = W4 m ρ c (Proc.devRef .tc main_arg26) := StableHlo.after_of_writes_sub hostOps2 _ hostOps2_writes (by decide)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl

set_option maxHeartbeats 4000000 in
theorem at5_main_v3 (c : Dev nD) : W10 m ρ c (Proc.devRef .tc main_v3) = W4 m ρ c (Proc.devRef .tc main_v3) :=
  calc W10 m ρ c (Proc.devRef .tc main_v3)
    _ = W9 m ρ c (Proc.devRef .tc main_v3) := (W10_arr m ρ c 4).trans (((dat4 (V9 m ρ) c).arrAt_in 4 rfl _).trans (A_eq4 (V9 m ρ) c 4))
    _ = W8 m ρ c (Proc.devRef .tc main_v3) := StableHlo.after_of_writes_sub hostOps4 _ hostOps4_writes (by decide)
    _ = W7 m ρ c (Proc.devRef .tc main_v3) := W8_of_ne m ρ c main_v3 (by decide)
    _ = W6 m ρ c (Proc.devRef .tc main_v3) := StableHlo.after_of_writes_sub hostOps3 _ hostOps3_writes (by decide)
    _ = W5 m ρ c (Proc.devRef .tc main_v3) := W6_of_ne m ρ c main_v3 (by decide)
    _ = W4 m ρ c (Proc.devRef .tc main_v3) := StableHlo.after_of_writes_sub hostOps2 _ hostOps2_writes (by decide)

set_option maxHeartbeats 4000000 in
theorem at5_main_v59 (c : Dev nD) : W10 m ρ c (Proc.devRef .tc main_v59) = W7 m ρ c (Proc.devRef .tc main_v59) :=
  calc W10 m ρ c (Proc.devRef .tc main_v59)
    _ = W9 m ρ c (Proc.devRef .tc main_v59) := W10_of_ne m ρ c main_v59 (by decide)
    _ = W8 m ρ c (Proc.devRef .tc main_v59) := StableHlo.after_of_writes_sub hostOps4 _ hostOps4_writes (by decide)
    _ = W7 m ρ c (Proc.devRef .tc main_v59) := W8_of_ne m ρ c main_v59 (by decide)

set_option maxHeartbeats 4000000 in
theorem at5_main_arg11 (c : Dev nD) : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

set_option maxHeartbeats 4000000 in
theorem at5_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

set_option maxHeartbeats 4000000 in
theorem at5_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

set_option maxHeartbeats 4000000 in
theorem at5_main_v5 (c : Dev nD) : W10 m ρ c (Proc.devRef .tc main_v5) = W6 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := StableHlo.after_of_writes_sub hostOps4 _ hostOps4_writes (by decide)
    _ = W7 m ρ c (Proc.devRef .tc main_v5) := W8_of_ne m ρ c main_v5 (by decide)
    _ = W6 m ρ c (Proc.devRef .tc main_v5) := StableHlo.after_of_writes_sub hostOps3 _ hostOps3_writes (by decide)

end Cert.KernelIdeal.Carry

end
-- ==== Proof.RegionValue5.lean ====
/- Region 5 (a SAGE layer with its relu): the output array after the region, entry by entry, as a function of the operand
   arrays the region finds. Each grid point t computes rows 2000 t … 2000 t + 1999 of the layer from the same rows of
   the three row operands and the whole weights and bias; the 10 blocks tile the 20000 rows, so the array ends holding
   the layer's value at every entry. -/
import proofs.«138545_j63058709840619_2_alg».proof.Proof.FrameKIR5
import proofs.«138545_j63058709840619_2_alg».proof.Proof.SageBody
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.SageBody
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The operand arrays as the region finds them, at their literal types -/

abbrev in5_a1 (c : Dev nD) : Vec Ideal S20000x150 .f32 := V c main_v176
abbrev in5_w1 (c : Dev nD) : Vec Ideal S150x150 .f32 := V c main_v205
abbrev in5_a2 (c : Dev nD) : Vec Ideal S20000x150 .f32 := V c main_v193
abbrev in5_w2 (c : Dev nD) : Vec Ideal S150x150 .f32 := V c main_v207
abbrev in5_xd (c : Dev nD) : Vec Ideal S20000x150 .bf16 := V c main_v5
abbrev in5_wr (c : Dev nD) : Vec Ideal S150x150 .f32 := V c main_v198
abbrev in5_b (c : Dev nD) : Vec Ideal S1x150 .f32 := V c main_v208

/-! ## The block indices over the grid -/

/-- The printed index maps, decided over the grid: the row operands and the output take block row t at point t, the
    weights and the bias their one block. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-! ## The input blocks as parts of their arrays -/

/-- Window 0's block at point t is rows 2000 t … 2000 t + 1999 of its array. -/
theorem blk5_0 (c : Dev nD) (t : Fin cfg5.N) (x : S2000x150.Idx) (i : S20000x150.Idx)
    (h0 : (i 0).val = t.val * 2000 + (x 0).val) (h1 : (i 1).val = (x 1).val) :
    (iblk5 V c 0 t : Vec Ideal S2000x150 .f32) x = in5_a1 V c i := by
  obtain ⟨e00, e01, e10, e11, e20, e21, e30, e31, e40, e41, e50, e51, e60, e61, e70, e71⟩ := idx5 t
  show V c main_v176 (((cfg5.win 0).blk t).view.emb x) = V c main_v176 i
  refine congrArg (V c main_v176) (funext fun a => Fin.ext ?_)
  match a with
  | ⟨0, _⟩ => show win5_0.index t (0 : Fin 2) * 2000 + 1 * (x 0).val = (i 0).val; rw [e00, h0]; omega
  | ⟨1, _⟩ => show win5_0.index t (1 : Fin 2) * 150 + 1 * (x 1).val = (i 1).val; rw [e01, h1]; omega

/-- Window 1's block is its whole array at every point. -/
theorem blk5_1 (c : Dev nD) (t : Fin cfg5.N) : (iblk5 V c 1 t : Vec Ideal S150x150 .f32) = in5_w1 V c := by
  obtain ⟨e00, e01, e10, e11, e20, e21, e30, e31, e40, e41, e50, e51, e60, e61, e70, e71⟩ := idx5 t
  funext x
  show V c main_v205 (((cfg5.win 1).blk t).view.emb x) = V c main_v205 x
  refine congrArg (V c main_v205) (funext fun a => Fin.ext ?_)
  match a with
  | ⟨0, _⟩ => show win5_1.index t (0 : Fin 2) * 150 + 1 * (x 0).val = (x 0).val; rw [e10]; omega
  | ⟨1, _⟩ => show win5_1.index t (1 : Fin 2) * 150 + 1 * (x 1).val = (x 1).val; rw [e11]; omega

/-- Window 2's block at point t is rows 2000 t … 2000 t + 1999 of its array. -/
theorem blk5_2 (c : Dev nD) (t : Fin cfg5.N) (x : S2000x150.Idx) (i : S20000x150.Idx)
    (h0 : (i 0).val = t.val * 2000 + (x 0).val) (h1 : (i 1).val = (x 1).val) :
    (iblk5 V c 2 t : Vec Ideal S2000x150 .f32) x = in5_a2 V c i := by
  obtain ⟨e00, e01, e10, e11, e20, e21, e30, e31, e40, e41, e50, e51, e60, e61, e70, e71⟩ := idx5 t
  show V c main_v193 (((cfg5.win 2).blk t).view.emb x) = V c main_v193 i
  refine congrArg (V c main_v193) (funext fun a => Fin.ext ?_)
  match a with
  | ⟨0, _⟩ => show win5_2.index t (0 : Fin 2) * 2000 + 1 * (x 0).val = (i 0).val; rw [e20, h0]; omega
  | ⟨1, _⟩ => show win5_2.index t (1 : Fin 2) * 150 + 1 * (x 1).val = (i 1).val; rw [e21, h1]; omega

/-- Window 3's block is its whole array at every point. -/
theorem blk5_3 (c : Dev nD) (t : Fin cfg5.N) : (iblk5 V c 3 t : Vec Ideal S150x150 .f32) = in5_w2 V c := by
  obtain ⟨e00, e01, e10, e11, e20, e21, e30, e31, e40, e41, e50, e51, e60, e61, e70, e71⟩ := idx5 t
  funext x
  show V c main_v207 (((cfg5.win 3).blk t).view.emb x) = V c main_v207 x
  refine congrArg (V c main_v207) (funext fun a => Fin.ext ?_)
  match a with
  | ⟨0, _⟩ => show win5_3.index t (0 : Fin 2) * 150 + 1 * (x 0).val = (x 0).val; rw [e30]; omega
  | ⟨1, _⟩ => show win5_3.index t (1 : Fin 2) * 150 + 1 * (x 1).val = (x 1).val; rw [e31]; omega

/-- Window 4's block at point t is rows 2000 t … 2000 t + 1999 of its array. -/
theorem blk5_4 (c : Dev nD) (t : Fin cfg5.N) (x : S2000x150.Idx) (i : S20000x150.Idx)
    (h0 : (i 0).val = t.val * 2000 + (x 0).val) (h1 : (i 1).val = (x 1).val) :
    (iblk5 V c 4 t : Vec Ideal S2000x150 .bf16) x = in5_xd V c i := by
  obtain ⟨e00, e01, e10, e11, e20, e21, e30, e31, e40, e41, e50, e51, e60, e61, e70, e71⟩ := idx5 t
  show V c main_v5 (((cfg5.win 4).blk t).view.emb x) = V c main_v5 i
  refine congrArg (V c main_v5) (funext fun a => Fin.ext ?_)
  match a with
  | ⟨0, _⟩ => show win5_4.index t (0 : Fin 2) * 2000 + 1 * (x 0).val = (i 0).val; rw [e40, h0]; omega
  | ⟨1, _⟩ => show win5_4.index t (1 : Fin 2) * 150 + 1 * (x 1).val = (i 1).val; rw [e41, h1]; omega

/-- Window 5's block is its whole array at every point. -/
theorem blk5_5 (c : Dev nD) (t : Fin cfg5.N) : (iblk5 V c 5 t : Vec Ideal S150x150 .f32) = in5_wr V c := by
  obtain ⟨e00, e01, e10, e11, e20, e21, e30, e31, e40, e41, e50, e51, e60, e61, e70, e71⟩ := idx5 t
  funext x
  show V c main_v198 (((cfg5.win 5).blk t).view.emb x) = V c main_v198 x
  refine congrArg (V c main_v198) (funext fun a => Fin.ext ?_)
  match a with
  | ⟨0, _⟩ => show win5_5.index t (0 : Fin 2) * 150 + 1 * (x 0).val = (x 0).val; rw [e50]; omega
  | ⟨1, _⟩ => show win5_5.index t (1 : Fin 2) * 150 + 1 * (x 1).val = (x 1).val; rw [e51]; omega

/-- Window 6's block is its whole array at every point. -/
theorem blk5_6 (c : Dev nD) (t : Fin cfg5.N) : (iblk5 V c 6 t : Vec Ideal S1x150 .f32) = in5_b V c := by
  obtain ⟨e00, e01, e10, e11, e20, e21, e30, e31, e40, e41, e50, e51, e60, e61, e70, e71⟩ := idx5 t
  funext x
  show V c main_v208 (((cfg5.win 6).blk t).view.emb x) = V c main_v208 x
  refine congrArg (V c main_v208) (funext fun a => Fin.ext ?_)
  match a with
  | ⟨0, _⟩ => show win5_6.index t (0 : Fin 2) * 1 + 1 * (x 0).val = (x 0).val; rw [e60]; omega
  | ⟨1, _⟩ => show win5_6.index t (1 : Fin 2) * 150 + 1 * (x 1).val = (x 1).val; rw [e61]; omega

/-! ## The block a point writes back -/

/-- What the body leaves in the output window's buffer, at an entry: the layer's value on the input blocks. -/
theorem out5_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (y : S2000x150.Idx) :
    out5_7 (F := Ideal) x0 x1 x2 x3 x4 x5 x6 y = max (layer (n := 2000) x0 x1 x2 x3 x4 x5 x6 (y 0) (y 1)) 0 := by
  obtain ⟨p, q, rfl⟩ : ∃ (p : Fin 2000) (q : Fin 150), y = ix2 p q := ⟨y 0, y 1, eq_ix2 y⟩
  unfold out5_7
  rw [View.canon_unit_zero hz]
  simp only [View.ld_unit_zero (S := S2000x150) hz, View.ld_unit_zero (S := S150x150) hz, View.ld_unit_zero (S := S1x150) hz]
  exact k5_pay1_at x0 x1 x2 x3 x4 x5 x6 p q

/-- The layer on the whole arrays, entry by entry: what the output array ends holding. -/
abbrev G5 (c : Dev nD) : S20000x150.Idx → EReal := fun i =>
  max (layer (n := 20000) (in5_a1 V c) (in5_w1 V c) (in5_a2 V c) (in5_w2 V c) (in5_xd V c) (in5_wr V c) (in5_b V c) (i 0) (i 1)) 0

/-- WHAT POINT t WRITES BACK is block t of the layer on the whole arrays. -/
theorem flushed5 (c : Dev nD) (t : Fin cfg5.N) :
    (dat5 (F := Ideal) V c).flushed 7 t = ((cfg5.win 7).blk t).view.read (Elt Ideal) (G5 V c) := by
  show (cfg5.win 7).cut (grid5.coords t) ((dat5 (F := Ideal) V c).after 7 t) = _
  rw [after5_7]
  obtain ⟨e00, e01, e10, e11, e20, e21, e30, e31, e40, e41, e50, e51, e60, e61, e70, e71⟩ := idx5 t
  funext j
  have hj0 : (j 0).val < 2000 := (j 0).isLt
  have hj1 : (j 1).val < 150 := (j 1).isLt
  refine (out5_at (iblk5 V c 0 t) (iblk5 V c 1 t) (iblk5 V c 2 t) (iblk5 V c 3 t) (iblk5 V c 4 t) (iblk5 V c 5 t) (iblk5 V c 6 t) ((cfg5.win 7).xinj (grid5.coords t) j)).trans ?_
  show max (layer (n := 2000) (iblk5 V c 0 t) (iblk5 V c 1 t) (iblk5 V c 2 t) (iblk5 V c 3 t) (iblk5 V c 4 t) (iblk5 V c 5 t) (iblk5 V c 6 t) ((cfg5.win 7).xinj (grid5.coords t) j 0) ((cfg5.win 7).xinj (grid5.coords t) j 1)) 0
    = max (layer (n := 20000) (in5_a1 V c) (in5_w1 V c) (in5_a2 V c) (in5_w2 V c) (in5_xd V c) (in5_wr V c) (in5_b V c) ((((cfg5.win 7).blk t).view.emb j) 0) ((((cfg5.win 7).blk t).view.emb j) 1)) 0
  have hr : (((cfg5.win 7).blk t).view.emb j 0).val = t.val * 2000 + (j 0).val := by
    show win5_7.index t (0 : Fin 2) * 2000 + 1 * (j 0).val = _; rw [e70]; omega
  have hc : (((cfg5.win 7).blk t).view.emb j 1).val = (j 1).val := by
    show win5_7.index t (1 : Fin 2) * 150 + 1 * (j 1).val = _; rw [e71]; omega
  exact congrArg (max · 0) (layer_congr (n := 2000) (m := 20000)
    (iblk5 V c 0 t) (iblk5 V c 2 t) (iblk5 V c 4 t) (in5_a1 V c) (in5_a2 V c) (in5_xd V c)
    (iblk5 V c 1 t) (iblk5 V c 3 t) (iblk5 V c 5 t) (in5_w1 V c) (in5_w2 V c) (in5_wr V c) (iblk5 V c 6 t) (in5_b V c)
    ((cfg5.win 7).xinj (grid5.coords t) j 0) (((cfg5.win 7).blk t).view.emb j 0)
    ((cfg5.win 7).xinj (grid5.coords t) j 1) (((cfg5.win 7).blk t).view.emb j 1)
    (fun k => blk5_0 V c t _ _ hr rfl) (fun k => blk5_2 V c t _ _ hr rfl) (fun k => blk5_4 V c t _ _ hr rfl)
    (blk5_1 V c t) (blk5_3 V c t) (blk5_5 V c t) (blk5_6 V c t) (Fin.ext hc.symm))

/-! ## The blocks tile the array -/

/-- An index of the array is in point t's block iff each coordinate is in the block's range on its axis. -/
theorem mem_blk5 (t : Fin cfg5.N) (i : S20000x150.Idx) :
    i ∈ ((cfg5.win 7).blk t).view.set ↔ ∀ a : Fin 2, win5_7.index t a * S2000x150.size a ≤ (i a).val ∧ (i a).val < win5_7.index t a * S2000x150.size a + S2000x150.size a := by
  show i ∈ ((View.whole main_v209).slice (win5_7.rect t)).set ↔ _
  rw [View.set_slice_whole, Rect.mem_set_unit]
  exact Iff.rfl

/-- Every entry of the array is in the block of the point its row falls to. -/
theorem cover5 (i : S20000x150.Idx) : ∃ t : Fin cfg5.N, (cfg5.win 7).flush t = true ∧ i ∈ ((cfg5.win 7).blk t).view.set := by
  have hi0 : (i 0).val < 20000 := (i 0).isLt
  have hi1 : (i 1).val < 150 := (i 1).isLt
  obtain ⟨t, ht⟩ : ∃ t : Fin cfg5.N, t.val = (i 0).val / 2000 :=
    ⟨⟨(i 0).val / 2000, Nat.lt_of_lt_of_eq (by omega : (i 0).val / 2000 < 10) N_5.symm⟩, rfl⟩
  obtain ⟨e00, e01, e10, e11, e20, e21, e30, e31, e40, e41, e50, e51, e60, e61, e70, e71⟩ := idx5 t
  refine ⟨t, flush5_7 t, ?_⟩
  rw [mem_blk5]
  intro a
  match a with
  | ⟨0, _⟩ => show win5_7.index t (0 : Fin 2) * 2000 ≤ (i 0).val ∧ (i 0).val < win5_7.index t (0 : Fin 2) * 2000 + 2000; rw [e70, ht]; omega
  | ⟨1, _⟩ => show win5_7.index t (1 : Fin 2) * 150 ≤ (i 1).val ∧ (i 1).val < win5_7.index t (1 : Fin 2) * 150 + 150; rw [e71]; omega

/-! ## The array after the region -/

/-- THE OUTPUT ARRAY after region 5, at entry (p, q): the layer's value on the operand arrays as the region finds them. -/
theorem region5 (c : Dev nD) (p : Fin 20000) (q : Fin 150) :
    (dat5 (F := Ideal) V c).arrAt 7 cfg5.N (ix2 p q)
      = max ((((∑ k : Fin 150, in5_a1 V c (ix2 p k) * in5_w1 V c (ix2 k q)) + (∑ k : Fin 150, in5_a2 V c (ix2 p k) * in5_w2 V c (ix2 k q))) + (∑ k : Fin 150, in5_xd V c (ix2 p k) * in5_wr V c (ix2 k q))) + in5_b V c (ix2 0 q)) 0 :=
  congrFun ((dat5 (F := Ideal) V c).arrAt_eq_of_cover 7 (G5 V c) (fun t _ => flushed5 V c t) cover5) (ix2 p q)

/-- The same over any arrays equal to the operand arrays: the form to instantiate. -/
theorem region5_at (c : Dev nD) (A1 : Vec Ideal S20000x150 .f32) (W1 : Vec Ideal S150x150 .f32) (A2 : Vec Ideal S20000x150 .f32) (W2 : Vec Ideal S150x150 .f32)
    (XD : Vec Ideal S20000x150 .bf16) (WR : Vec Ideal S150x150 .f32) (B : Vec Ideal S1x150 .f32)
    (hA1 : A1 = V c main_v176) (hW1 : W1 = V c main_v205) (hA2 : A2 = V c main_v193) (hW2 : W2 = V c main_v207)
    (hXD : XD = V c main_v5) (hWR : WR = V c main_v198) (hB : B = V c main_v208) (p : Fin 20000) (q : Fin 150) :
    (dat5 (F := Ideal) V c).arrAt 7 cfg5.N (ix2 p q)
      = max ((((∑ k : Fin 150, A1 (ix2 p k) * W1 (ix2 k q)) + (∑ k : Fin 150, A2 (ix2 p k) * W2 (ix2 k q))) + (∑ k : Fin 150, XD (ix2 p k) * WR (ix2 k q))) + B (ix2 0 q)) 0 := by
  subst hA1 hW1 hA2 hW2 hXD hWR hB
  exact region5 V c p q

end Cert.KernelIdeal.RegionValue

end
-- ==== Proof.Step5.lean ====
/-
  Launch 5: the first two-branch mean-aggregation layer, on the 20000-row node type.

  Per output entry (p, q) the kernel program computes
      max ( ((Σk A1[p,k]·W1[k,q] + Σk A2[p,k]·W2[k,q]) + Σk X[p,k]·(R1+R2)[k,q]) + (b1+b2)[q] , 0 )
  from seven operand arrays that the host operations before the launch prepare: A1, A2 the two mean aggregations
  (a scatter-add of gathered source rows divided by the clamped in-degree), W1, W2, R1, R2 slices of the two weight
  stacks, b1, b2 slices of the bias stack, X the destination rows. The reference computes
      max ( ((Σk A1·W1 + b1[q]) + Σk X·R1) + ((Σk A2·W2 + b2[q]) + Σk X·R2) , 0 ).
  The two agree when X, R1 and R2 have real entries (the product distributes over the sum of the two root matrices only
  away from the infinities).

  The in-degree columns this layer's two means divide by were computed by the host operations before launch 3 and
  have not been written since; they are the first part. Then, over ANY contents of the buffers before this launch's
  host operations, each operand array the launch finds is the reference's stage of the same name (the host operations
  on the two sides are the same tree over the same leaves; the widening of the gathered rows to the wider float format
  is the identity on the extended reals); the reference's output stage read at an entry; and the two combined by the
  algebraic law, at the contents the program's run has there.
-/
import proofs.«138545_j63058709840619_2_alg».proof.Proof.FrameKIW
import proofs.«138545_j63058709840619_2_alg».proof.Proof.RefRead
import proofs.«138545_j63058709840619_2_alg».proof.Proof.Carry3
import proofs.«138545_j63058709840619_2_alg».proof.Proof.Carry5
import proofs.«138545_j63058709840619_2_alg».proof.Proof.RegionValue5
import proofs.«138545_j63058709840619_2_alg».proof.Proof.Algebra
import proofs.«138545_j63058709840619_2_alg».proof.Proof.RefFinite
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.KernelIdeal Cert.KernelIdeal.Gen Cert.ReferenceIdeal.Read Cert.Algebra
open Idealize.ShloMosaic Idealize.ShloMosaic.TcCoe Idealize.ShloMosaic.ValueIdx
open Idealize.SL Idealize.SL.Sem

/-! ## Two pointwise facts about arrays of extended reals -/

/-- Widening an array from the narrower float format to the wider one changes no entry: a float of either format is
    an extended real. -/
theorem extf5_id {s : Shape} (x : FVec Ideal s .bf16) (h : FTy.bits .bf16 < FTy.bits .f32) :
    (extf (F := Ideal) .f32 x h : s.Idx → EReal) = x := rfl

/-- The entrywise sum of two arrays, read at an entry. -/
theorem addf5_at {s : Shape} (x y : FVec Ideal s .f32) (i : s.Idx) :
    (addf (F := Ideal) x y) i = (x i + y i : EReal) := rfl

section Stretch

variable (V0 : Valuation τ sig (Elt Ideal))
variable {x0 : FVec Ideal Cert.ReferenceIdeal.S50000x768 .f32} {x1 : FVec Ideal Cert.ReferenceIdeal.S2000x768 .f32}
  {x2 : FVec Ideal Cert.ReferenceIdeal.S20000x1024 .f32} {x3 : FVec Ideal Cert.ReferenceIdeal.S768x150 .f32}
  {x4 : FVec Ideal Cert.ReferenceIdeal.S150 .f32} {x5 : FVec Ideal Cert.ReferenceIdeal.S768x150 .f32}
  {x6 : FVec Ideal Cert.ReferenceIdeal.S150 .f32} {x7 : FVec Ideal Cert.ReferenceIdeal.S1024x150 .f32}
  {x8 : FVec Ideal Cert.ReferenceIdeal.S150 .f32} {x9 : FVec Ideal Cert.ReferenceIdeal.S3x6x150x150 .f32}
  {x10 : FVec Ideal Cert.ReferenceIdeal.S3x6x150 .f32} {x11 : FVec Ideal Cert.ReferenceIdeal.S3x6x150x150 .f32}
  {x24 : IVec Cert.ReferenceIdeal.S2x500000 32} {x26 : IVec Cert.ReferenceIdeal.S2x200000 32}

/-! ## The two in-degree columns, computed before launch 3

V0 is what the buffers hold before the host operations that precede launch 3. -/

set_option maxHeartbeats 4000000 in
/-- The clamped in-degree column the first mean divides by: per destination the number of edges of the first edge
    list that end there, or one if there is none. -/
theorem cnt5_main_v50
    (h24 : (V0 (Proc.devRef .tc main_arg24) : Cert.ReferenceIdeal.S2x500000.Idx → BitVec 32) = x24) :
    (StableHlo.after hostOps3 V0 (Proc.devRef .tc main_v50) : Cert.ReferenceIdeal.S20000x1.Idx → EReal)
      = val_main_v174 (F := Ideal) x24 := by
  after_results_simp
  rw [h24]
  simp only [val_main_v174, val_main_v173, val_main_v171, val_main_v169, val_main_cst_26, val_main_v170, val_main_v157,
    val_main_v156, val_main_v168, val_main_cst_25, val_main_v172, val_main_cst_27]
  rfl

set_option maxHeartbeats 4000000 in
/-- The clamped in-degree column the second mean divides by: per destination the number of edges of the third edge
    list that end there, or one if there is none. -/
theorem cnt5_main_v59
    (h26 : (V0 (Proc.devRef .tc main_arg26) : Cert.ReferenceIdeal.S2x200000.Idx → BitVec 32) = x26) :
    (StableHlo.after hostOps3 V0 (Proc.devRef .tc main_v59) : Cert.ReferenceIdeal.S20000x1.Idx → EReal)
      = val_main_v209 (F := Ideal) x26 := by
  after_results_simp
  rw [h26]
  simp only [val_main_v209, val_main_v208, val_main_v206, val_main_v204, val_main_cst_32, val_main_v205,
    val_main_v192, val_main_v191, val_main_v203, val_main_cst_31, val_main_v207, val_main_cst_33]
  rfl

/-! ## The seven operand arrays at the launch's entry

V0 is now what the buffers hold before the host operations of this launch's stretch; the argument arrays, the node
features and the two in-degree columns are named by equations. Each operand array is then a term of the host
operations over those, and the reference's stage is the same term. -/

set_option maxHeartbeats 4000000 in
/-- Operand 0, the first mean aggregation: the rows of the 50000-row features gathered along the first edge list's
    sources, added up per destination, divided by the destination's clamped in-degree. -/
theorem op5_0
    (h24 : (V0 (Proc.devRef .tc main_arg24) : Cert.ReferenceIdeal.S2x500000.Idx → BitVec 32) = x24)
    (h1 : (V0 (Proc.devRef .tc main_v1) : Cert.ReferenceIdeal.S50000x150.Idx → EReal)
      = val_main_v3 (F := Ideal) x0 x3 x4)
    (h50 : (V0 (Proc.devRef .tc main_v50) : Cert.ReferenceIdeal.S20000x1.Idx → EReal)
      = val_main_v174 (F := Ideal) x24) :
    (StableHlo.after hostOps5 V0 (Proc.devRef .tc main_v176) : Cert.ReferenceIdeal.S20000x150.Idx → EReal)
      = val_main_v176 (F := Ideal) x0 x3 x4 x24 := by
  after_results_simp
  rw [h24, h1, h50]
  simp only [extf5_id]
  simp only [val_main_v176, val_main_v167, val_main_v165, val_main_cst_24, val_main_v166, val_main_v157, val_main_v156,
    val_main_v164, val_main_v163, val_main_v162, val_main_v159, val_main_v155, val_main_v154, val_main_v158, val_main_c_22,
    val_main_v161, val_main_v160, val_main_c_23, val_main_v175]
  rfl

set_option maxHeartbeats 4000000 in
/-- Operand 1, the first neighbour weight: a slice of the neighbour weight stack as a 150 × 150 matrix. -/
theorem op5_1
    (h9 : (V0 (Proc.devRef .tc main_arg9) : Cert.ReferenceIdeal.S3x6x150x150.Idx → EReal) = x9) :
    (StableHlo.after hostOps5 V0 (Proc.devRef .tc main_v205) : Cert.ReferenceIdeal.S150x150.Idx → EReal)
      = val_main_v178 (F := Ideal) x9 := by
  after_results_simp
  rw [h9]
  simp only [val_main_v178, val_main_v177]
  rfl

set_option maxHeartbeats 4000000 in
/-- Operand 2, the second mean aggregation: the rows of the 2000-row features gathered along the third edge list's
    sources, added up per destination, divided by the destination's clamped in-degree. -/
theorem op5_2
    (h26 : (V0 (Proc.devRef .tc main_arg26) : Cert.ReferenceIdeal.S2x200000.Idx → BitVec 32) = x26)
    (h3 : (V0 (Proc.devRef .tc main_v3) : Cert.ReferenceIdeal.S2000x150.Idx → EReal)
      = val_main_v7 (F := Ideal) x1 x5 x6)
    (h59 : (V0 (Proc.devRef .tc main_v59) : Cert.ReferenceIdeal.S20000x1.Idx → EReal)
      = val_main_v209 (F := Ideal) x26) :
    (StableHlo.after hostOps5 V0 (Proc.devRef .tc main_v193) : Cert.ReferenceIdeal.S20000x150.Idx → EReal)
      = val_main_v211 (F := Ideal) x1 x5 x6 x26 := by
  after_results_simp
  rw [h26, h3, h59]
  simp only [extf5_id]
  simp only [val_main_v211, val_main_v202, val_main_v200, val_main_cst_30, val_main_v201, val_main_v192,
    val_main_v191, val_main_v199, val_main_v198, val_main_v197, val_main_v194, val_main_v190, val_main_v189,
    val_main_v193, val_main_c_28, val_main_v196, val_main_v195, val_main_c_29, val_main_v210]
  rfl

set_option maxHeartbeats 4000000 in
/-- Operand 3, the second neighbour weight. -/
theorem op5_3
    (h9 : (V0 (Proc.devRef .tc main_arg9) : Cert.ReferenceIdeal.S3x6x150x150.Idx → EReal) = x9) :
    (StableHlo.after hostOps5 V0 (Proc.devRef .tc main_v207) : Cert.ReferenceIdeal.S150x150.Idx → EReal)
      = val_main_v213 (F := Ideal) x9 := by
  after_results_simp
  rw [h9]
  simp only [val_main_v213, val_main_v212]
  rfl

set_option maxHeartbeats 4000000 in
/-- Operand 4, the destination rows: no host operation of the stretch writes the 20000-row features' buffer. -/
theorem op5_4 :
    StableHlo.after hostOps5 V0 (Proc.devRef .tc main_v5) = V0 (Proc.devRef .tc main_v5) := by
  after_results_simp

set_option maxHeartbeats 4000000 in
/-- Operand 5, the root weight: the entrywise sum of the two branches' slices of the root weight stack. -/
theorem op5_5
    (h11 : (V0 (Proc.devRef .tc main_arg11) : Cert.ReferenceIdeal.S3x6x150x150.Idx → EReal) = x11) :
    (StableHlo.after hostOps5 V0 (Proc.devRef .tc main_v198) : Cert.ReferenceIdeal.S150x150.Idx → EReal)
      = addf (F := Ideal) (φ := .f32) (val_main_v186 (F := Ideal) x11) (val_main_v221 (F := Ideal) x11) := by
  after_results_simp
  rw [h11]
  simp only [val_main_v186, val_main_v185, val_main_v221, val_main_v220]
  rfl

set_option maxHeartbeats 4000000 in
/-- Operand 6, the bias row: the entrywise sum of the two branches' slices of the bias stack, as a 1 × 150 array. -/
theorem op5_6
    (h10 : (V0 (Proc.devRef .tc main_arg10) : Cert.ReferenceIdeal.S3x6x150.Idx → EReal) = x10) :
    (StableHlo.after hostOps5 V0 (Proc.devRef .tc main_v208) : Cert.KernelIdeal.S1x150.Idx → EReal)
      = shapeCast Cert.KernelIdeal.S1x150
          (addf (F := Ideal) (φ := .f32) (val_main_v181 (F := Ideal) x10) (val_main_v216 (F := Ideal) x10))
          Cert.KernelIdeal.Facts₀.shapeCasts_S150_S1x150 := by
  after_results_simp
  rw [h10]
  simp only [val_main_v181, val_main_v180, val_main_v216, val_main_v215]
  rfl

end Stretch

/-! ## The reference's output stage at an entry -/

/-- The reference's layer output at entry (p, q): per branch the aggregated product, the bias entry and the
    destination row against the branch's root weight; the two branches added; the maximum with zero. -/
theorem ref5_at
    (x0 : FVec Ideal Cert.ReferenceIdeal.S50000x768 .f32) (x1 : FVec Ideal Cert.ReferenceIdeal.S2000x768 .f32)
    (x2 : FVec Ideal Cert.ReferenceIdeal.S20000x1024 .f32) (x3 : FVec Ideal Cert.ReferenceIdeal.S768x150 .f32)
    (x4 : FVec Ideal Cert.ReferenceIdeal.S150 .f32) (x5 : FVec Ideal Cert.ReferenceIdeal.S768x150 .f32)
    (x6 : FVec Ideal Cert.ReferenceIdeal.S150 .f32) (x7 : FVec Ideal Cert.ReferenceIdeal.S1024x150 .f32)
    (x8 : FVec Ideal Cert.ReferenceIdeal.S150 .f32) (x9 : FVec Ideal Cert.ReferenceIdeal.S3x6x150x150 .f32)
    (x10 : FVec Ideal Cert.ReferenceIdeal.S3x6x150 .f32) (x11 : FVec Ideal Cert.ReferenceIdeal.S3x6x150x150 .f32)
    (x24 : IVec Cert.ReferenceIdeal.S2x500000 32) (x26 : IVec Cert.ReferenceIdeal.S2x200000 32)
    (p : Fin 20000) (q : Fin 150) :
    val_main_v227 (F := Ideal) x0 x1 x2 x3 x4 x5 x6 x7 x8 x9 x10 x11 x24 x26 (ix2 p q)
      = (max ((((∑ k : Fin 150, val_main_v176 (F := Ideal) x0 x3 x4 x24 (ix2 p k) * val_main_v178 (F := Ideal) x9 (ix2 k q))
                + val_main_v181 (F := Ideal) x10 (ix1 q))
               + ∑ k : Fin 150, val_main_v11 (F := Ideal) x2 x7 x8 (ix2 p k) * val_main_v186 (F := Ideal) x11 (ix2 k q))
              + (((∑ k : Fin 150, val_main_v211 (F := Ideal) x1 x5 x6 x26 (ix2 p k) * val_main_v213 (F := Ideal) x9 (ix2 k q))
                + val_main_v216 (F := Ideal) x10 (ix1 q))
               + ∑ k : Fin 150, val_main_v11 (F := Ideal) x2 x7 x8 (ix2 p k) * val_main_v221 (F := Ideal) x11 (ix2 k q))) 0 : EReal) := by
  rw [val_main_v227_apply, val_main_v224_apply, val_main_v188_apply, val_main_v184_apply, val_main_v179_apply,
    val_main_v183_apply, val_main_v182_apply, val_main_v187_apply, val_main_v223_apply, val_main_v219_apply,
    val_main_v214_apply, val_main_v218_apply, val_main_v217_apply, val_main_v222_apply, val_main_call2_v0_apply,
    val_main_call2_cst_apply]
  -- the operands' indices: a product's left factor is read in the output's row, its right factor in the output's
  -- column, both at the contraction position; the bias is read in the output's column
  have el179 : ∀ k : Fin 150, lidx_main_v179 (ix2 p q) k = ix2 p k := fun k => funext fun a => by
    match a with | ⟨0, _⟩ => rfl | ⟨1, _⟩ => rfl
  have er179 : ∀ k : Fin 150, ridx_main_v179 (ix2 p q) k = ix2 k q := fun k => funext fun a => by
    match a with | ⟨0, _⟩ => rfl | ⟨1, _⟩ => rfl
  have el187 : ∀ k : Fin 150, lidx_main_v187 (ix2 p q) k = ix2 p k := fun k => funext fun a => by
    match a with | ⟨0, _⟩ => rfl | ⟨1, _⟩ => rfl
  have er187 : ∀ k : Fin 150, ridx_main_v187 (ix2 p q) k = ix2 k q := fun k => funext fun a => by
    match a with | ⟨0, _⟩ => rfl | ⟨1, _⟩ => rfl
  have el214 : ∀ k : Fin 150, lidx_main_v214 (ix2 p q) k = ix2 p k := fun k => funext fun a => by
    match a with | ⟨0, _⟩ => rfl | ⟨1, _⟩ => rfl
  have er214 : ∀ k : Fin 150, ridx_main_v214 (ix2 p q) k = ix2 k q := fun k => funext fun a => by
    match a with | ⟨0, _⟩ => rfl | ⟨1, _⟩ => rfl
  have el222 : ∀ k : Fin 150, lidx_main_v222 (ix2 p q) k = ix2 p k := fun k => funext fun a => by
    match a with | ⟨0, _⟩ => rfl | ⟨1, _⟩ => rfl
  have er222 : ∀ k : Fin 150, ridx_main_v222 (ix2 p q) k = ix2 k q := fun k => funext fun a => by
    match a with | ⟨0, _⟩ => rfl | ⟨1, _⟩ => rfl
  have eb182 : idx_main_v182 (idx_main_v183 (ix2 p q)) = ix1 q := funext fun a => by
    match a with | ⟨0, _⟩ => rfl
  have eb217 : idx_main_v217 (idx_main_v218 (ix2 p q)) = ix1 q := funext fun a => by
    match a with | ⟨0, _⟩ => rfl
  simp only [el179, er179, el187, er187, el214, er214, el222, er222, eb182, eb217, Ideal.maximumf_def,
    Ideal.addf_def, Ideal.ofBits_def, Ideal.ofBits_zero_f32]

/-! ## The launch's fact -/

variable (m : (ℓ : Loc nD τ sig) → Buf (Elt Ideal) ℓ) (ρ : Dev nD → PrngReg) (c : Dev nD)

set_option quotPrecheck false
local notation "𝔸0" => m ((c.tc : Thread nD τ).loc main_arg0)
local notation "𝔸1" => m ((c.tc : Thread nD τ).loc main_arg1)
local notation "𝔸2" => m ((c.tc : Thread nD τ).loc main_arg2)
local notation "𝔸3" => m ((c.tc : Thread nD τ).loc main_arg3)
local notation "𝔸4" => m ((c.tc : Thread nD τ).loc main_arg4)
local notation "𝔸5" => m ((c.tc : Thread nD τ).loc main_arg5)
local notation "𝔸6" => m ((c.tc : Thread nD τ).loc main_arg6)
local notation "𝔸7" => m ((c.tc : Thread nD τ).loc main_arg7)
local notation "𝔸8" => m ((c.tc : Thread nD τ).loc main_arg8)
local notation "𝔸9" => m ((c.tc : Thread nD τ).loc main_arg9)
local notation "𝔸10" => m ((c.tc : Thread nD τ).loc main_arg10)
local notation "𝔸11" => m ((c.tc : Thread nD τ).loc main_arg11)
local notation "𝔸24" => m ((c.tc : Thread nD τ).loc main_arg24)
local notation "𝔸26" => m ((c.tc : Thread nD τ).loc main_arg26)

set_option maxHeartbeats 4000000 in
/-- After launch 5 the layer's output buffer holds the reference's stage %227, given what the three feature launches
    left in their output buffers, and real entries in the destination rows and in the root weight stack. -/
theorem step5
    (hK0 : (W2 (F := Ideal) m ρ c (Proc.devRef .tc main_v1) : Cert.ReferenceIdeal.S50000x150.Idx → EReal)
      = val_main_v3 (F := Ideal) 𝔸0 𝔸3 𝔸4)
    (hK2 : (W6 (F := Ideal) m ρ c (Proc.devRef .tc main_v5) : Cert.ReferenceIdeal.S20000x150.Idx → EReal)
      = val_main_v11 (F := Ideal) 𝔸2 𝔸7 𝔸8)
    (hK1 : (W4 (F := Ideal) m ρ c (Proc.devRef .tc main_v3) : Cert.ReferenceIdeal.S2000x150.Idx → EReal)
      = val_main_v7 (F := Ideal) 𝔸1 𝔸5 𝔸6)
    (hX : AllReal (val_main_v11 (F := Ideal) 𝔸2 𝔸7 𝔸8))
    (h11 : AllReal (𝔸11 : Cert.ReferenceIdeal.S3x6x150x150.Idx → EReal)) :
    (W12 (F := Ideal) m ρ c (Proc.devRef .tc main_v209) : Cert.ReferenceIdeal.S20000x150.Idx → EReal)
      = val_main_v227 (F := Ideal) 𝔸0 𝔸1 𝔸2 𝔸3 𝔸4 𝔸5 𝔸6 𝔸7 𝔸8 𝔸9 𝔸10 𝔸11 𝔸24 𝔸26 := by
  -- the two in-degree columns: untouched since the stretch before launch 3, where the arguments were as launched
  have c50 := (Carry.at5_main_v50 m ρ c).trans (cnt5_main_v50 (W6 m ρ c) (Carry.at3_main_arg24 m ρ c))
  have c59 := (Carry.at5_main_v59 m ρ c).trans (cnt5_main_v59 (W6 m ρ c) (Carry.at3_main_arg26 m ρ c))
  -- the seven operand arrays at the contents the run has before the stretch: the arguments as launched, the three
  -- feature buffers as their launches left them
  have e0 := op5_0 (W10 m ρ c) (Carry.at5_main_arg24 m ρ c) ((Carry.at5_main_v1 m ρ c).trans hK0) c50
  have e1 := op5_1 (W10 m ρ c) (Carry.at5_main_arg9 m ρ c)
  have e2 := op5_2 (W10 m ρ c) (Carry.at5_main_arg26 m ρ c) ((Carry.at5_main_v3 m ρ c).trans hK1) c59
  have e3 := op5_3 (W10 m ρ c) (Carry.at5_main_arg9 m ρ c)
  have e4 := ((op5_4 (W10 m ρ c)).trans (Carry.at5_main_v5 m ρ c)).trans hK2
  have e5 := op5_5 (W10 m ρ c) (Carry.at5_main_arg11 m ρ c)
  have e6 := op5_6 (W10 m ρ c) (Carry.at5_main_arg10 m ρ c)
  funext i
  obtain ⟨p, q, rfl⟩ : ∃ (p : Fin 20000) (q : Fin 150), i = ix2 p q := ⟨i 0, i 1, eq_ix2 i⟩
  rw [ref5_at]
  -- the kernel's side: the output array after the launch, entry by entry, over the seven operand arrays
  refine ((congrFun (W12_arr (F := Ideal) m ρ c 7) (ix2 p q)).trans
    (RegionValue.region5_at (V11 m ρ) c
      (val_main_v176 (F := Ideal) 𝔸0 𝔸3 𝔸4 𝔸24) (val_main_v178 (F := Ideal) 𝔸9)
      (val_main_v211 (F := Ideal) 𝔸1 𝔸5 𝔸6 𝔸26) (val_main_v213 (F := Ideal) 𝔸9)
      (val_main_v11 (F := Ideal) 𝔸2 𝔸7 𝔸8)
      (addf (F := Ideal) (φ := .f32) (val_main_v186 (F := Ideal) 𝔸11) (val_main_v221 (F := Ideal) 𝔸11))
      (shapeCast Cert.KernelIdeal.S1x150
        (addf (F := Ideal) (φ := .f32) (val_main_v181 (F := Ideal) 𝔸10) (val_main_v216 (F := Ideal) 𝔸10))
        Cert.KernelIdeal.Facts₀.shapeCasts_S150_S1x150)
      e0.symm e1.symm e2.symm e3.symm e4.symm e5.symm e6.symm p q)).trans ?_
  -- the bias row at (0, q) is the summed bias at q; a summed array's entry is the sum of the entries
  rw [shapeCast_a_1a_apply]
  simp only [addf5_at]
  refine congrArg (fun t : EReal => max t 0) ?_
  exact combine_law
    (fun k : Fin 150 => val_main_v176 (F := Ideal) 𝔸0 𝔸3 𝔸4 𝔸24 (ix2 p k)) (fun k => val_main_v178 (F := Ideal) 𝔸9 (ix2 k q))
    (fun k : Fin 150 => val_main_v211 (F := Ideal) 𝔸1 𝔸5 𝔸6 𝔸26 (ix2 p k)) (fun k => val_main_v213 (F := Ideal) 𝔸9 (ix2 k q))
    (fun k : Fin 150 => val_main_v11 (F := Ideal) 𝔸2 𝔸7 𝔸8 (ix2 p k))
    (fun k : Fin 150 => val_main_v186 (F := Ideal) 𝔸11 (ix2 k q)) (fun k => val_main_v221 (F := Ideal) 𝔸11 (ix2 k q))
    (val_main_v181 (F := Ideal) 𝔸10 (ix1 q)) (val_main_v216 (F := Ideal) 𝔸10 (ix1 q))
    (fun k => hX (ix2 p k))
    (fun k => Cert.RefFinite.fin_main_v186 𝔸11 h11 (ix2 k q))
    (fun k => Cert.RefFinite.fin_main_v221 𝔸11 h11 (ix2 k q))

end Cert.Bridge

end
-- ==== Proof.Carry6.lean ====
/- What the buffers read by the host operations before launch 6 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at6_main_arg24 (c : Dev nD) : W12 m ρ c (Proc.devRef .tc main_arg24) = m ((c : Thread nD τ).loc main_arg24) :=
  calc W12 m ρ c (Proc.devRef .tc main_arg24)
    _ = W11 m ρ c (Proc.devRef .tc main_arg24) := W12_of_ne m ρ c main_arg24 (by decide)
    _ = W10 m ρ c (Proc.devRef .tc main_arg24) := StableHlo.after_of_writes_sub hostOps5 _ hostOps5_writes (by decide)
    _ = W9 m ρ c (Proc.devRef .tc main_arg24) := W10_of_ne m ρ c main_arg24 (by decide)
    _ = W8 m ρ c (Proc.devRef .tc main_arg24) := StableHlo.after_of_writes_sub hostOps4 _ hostOps4_writes (by decide)
    _ = W7 m ρ c (Proc.devRef .tc main_arg24) := W8_of_ne m ρ c main_arg24 (by decide)
    _ = W6 m ρ c (Proc.devRef .tc main_arg24) := StableHlo.after_of_writes_sub hostOps3 _ hostOps3_writes (by decide)
    _ = W5 m ρ c (Proc.devRef .tc main_arg24) := W6_of_ne m ρ c main_arg24 (by decide)
    _ = W4 m ρ c (Proc.devRef .tc main_arg24) := StableHlo.after_of_writes_sub hostOps2 _ hostOps2_writes (by decide)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl

set_option maxHeartbeats 4000000 in
theorem at6_main_v14 (c : Dev nD) : W12 m ρ c (Proc.devRef .tc main_v14) = W7 m ρ c (Proc.devRef .tc main_v14) :=
  calc W12 m ρ c (Proc.devRef .tc main_v14)
    _ = W11 m ρ c (Proc.devRef .tc main_v14) := W12_of_ne m ρ c main_v14 (by decide)
    _ = W10 m ρ c (Proc.devRef .tc main_v14) := StableHlo.after_of_writes_sub hostOps5 _ hostOps5_writes (by decide)
    _ = W9 m ρ c (Proc.devRef .tc main_v14) := W10_of_ne m ρ c main_v14 (by decide)
    _ = W8 m ρ c (Proc.devRef .tc main_v14) := StableHlo.after_of_writes_sub hostOps4 _ hostOps4_writes (by decide)
    _ = W7 m ρ c (Proc.devRef .tc main_v14) := W8_of_ne m ρ c main_v14 (by decide)

set_option maxHeartbeats 4000000 in
theorem at6_main_arg25 (c : Dev nD) : W12 m ρ c (Proc.devRef .tc main_arg25) = m ((c : Thread nD τ).loc main_arg25) :=
  calc W12 m ρ c (Proc.devRef .tc main_arg25)
    _ = W11 m ρ c (Proc.devRef .tc main_arg25) := W12_of_ne m ρ c main_arg25 (by decide)
    _ = W10 m ρ c (Proc.devRef .tc main_arg25) := StableHlo.after_of_writes_sub hostOps5 _ hostOps5_writes (by decide)
    _ = W9 m ρ c (Proc.devRef .tc main_arg25) := W10_of_ne m ρ c main_arg25 (by decide)
    _ = W8 m ρ c (Proc.devRef .tc main_arg25) := StableHlo.after_of_writes_sub hostOps4 _ hostOps4_writes (by decide)
    _ = W7 m ρ c (Proc.devRef .tc main_arg25) := W8_of_ne m ρ c main_arg25 (by decide)
    _ = W6 m ρ c (Proc.devRef .tc main_arg25) := StableHlo.after_of_writes_sub hostOps3 _ hostOps3_writes (by decide)
    _ = W5 m ρ c (Proc.devRef .tc main_arg25) := W6_of_ne m ρ c main_arg25 (by decide)
    _ = W4 m ρ c (Proc.devRef .tc main_arg25) := StableHlo.after_of_writes_sub hostOps2 _ hostOps2_writes (by decide)
    _ = W3 m ρ c (Proc.devRef .tc main_arg25) := W4_of_ne m ρ c main_arg25 (by decide)
    _ = W2 m ρ c (Proc.devRef .tc main_arg25) := StableHlo.after_of_writes_sub hostOps1 _ hostOps1_writes (by decide)
    _ = W1 m ρ c (Proc.devRef .tc main_arg25) := W2_of_ne m ρ c main_arg25 (by decide)
    _ = W0 m ρ c (Proc.devRef .tc main_arg25) := StableHlo.after_of_writes_sub hostOps0 _ hostOps0_writes (by decide)
    _ = m ((c : Thread nD τ).loc main_arg25) := rfl

set_option maxHeartbeats 4000000 in
theorem at6_main_v159 (c : Dev nD) : W12 m ρ c (Proc.devRef .tc main_v159) = W10 m ρ c (Proc.devRef .tc main_v159) :=
  calc W12 m ρ c (Proc.devRef .tc main_v159)
    _ = W11 m ρ c (Proc.devRef .tc main_v159) := W12_of_ne m ρ c main_v159 (by decide)
    _ = W10 m ρ c (Proc.devRef .tc main_v159) := StableHlo.after_of_writes_sub hostOps5 _ hostOps5_writes (by decide)

set_option maxHeartbeats 4000000 in
theorem at6_main_v23 (c : Dev nD) : W12 m ρ c (Proc.devRef .tc main_v23) = W7 m ρ c (Proc.devRef .tc main_v23) :=
  calc W12 m ρ c (Proc.devRef .tc main_v23)
    _ = W11 m ρ c (Proc.devRef .tc main_v23) := W12_of_ne m ρ c main_v23 (by decide)
    _ = W10 m ρ c (Proc.devRef .tc main_v23) := StableHlo.after_of_writes_sub hostOps5 _ hostOps5_writes (by decide)
    _ = W9 m ρ c (Proc.devRef .tc main_v23) := W10_of_ne m ρ c main_v23 (by decide)
    _ = W8 m ρ c (Proc.devRef .tc main_v23) := StableHlo.after_of_writes_sub hostOps4 _ hostOps4_writes (by decide)
    _ = W7 m ρ c (Proc.devRef .tc main_v23) := W8_of_ne m ρ c main_v23 (by decide)

set_option maxHeartbeats 4000000 in
theorem at6_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

set_option maxHeartbeats 4000000 in
theorem at6_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

set_option maxHeartbeats 4000000 in
theorem at6_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

set_option maxHeartbeats 4000000 in
theorem at6_main_v109 (c : Dev nD) : W12 m ρ c (Proc.devRef .tc main_v109) = W8 m ρ c (Proc.devRef .tc main_v109) :=
  calc W12 m ρ c (Proc.devRef .tc main_v109)
    _ = W11 m ρ c (Proc.devRef .tc main_v109) := W12_of_ne m ρ c main_v109 (by decide)
    _ = W10 m ρ c (Proc.devRef .tc main_v109) := StableHlo.after_of_writes_sub hostOps5 _ hostOps5_writes (by decide)
    _ = W9 m ρ c (Proc.devRef .tc main_v109) := W10_of_ne m ρ c main_v109 (by decide)
    _ = W8 m ρ c (Proc.devRef .tc main_v109) := StableHlo.after_of_writes_sub hostOps4 _ hostOps4_writes (by decide)

end Cert.KernelIdeal.Carry

end
-- ==== Proof.RegionValue6.lean ====
/- Region 6 (a SAGE layer with its relu): the output array after the region, entry by entry, as a function of the operand
   arrays the region finds. Each grid point t computes rows 2000 t … 2000 t + 1999 of the layer from the same rows of
   the three row operands and the whole weights and bias; the 25 blocks tile the 50000 rows, so the array ends holding
   the layer's value at every entry. -/
import proofs.«138545_j63058709840619_2_alg».proof.Proof.FrameKIR6
import proofs.«138545_j63058709840619_2_alg».proof.Proof.SageBody
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.SageBody
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The operand arrays as the region finds them, at their literal types -/

abbrev in6_a1 (c : Dev nD) : Vec Ideal S50000x150 .f32 := V c main_v226
abbrev in6_w1 (c : Dev nD) : Vec Ideal S150x150 .f32 := V c main_v255
abbrev in6_a2 (c : Dev nD) : Vec Ideal S50000x150 .f32 := V c main_v243
abbrev in6_w2 (c : Dev nD) : Vec Ideal S150x150 .f32 := V c main_v257
abbrev in6_xd (c : Dev nD) : Vec Ideal S50000x150 .bf16 := V c main_v109
abbrev in6_wr (c : Dev nD) : Vec Ideal S150x150 .f32 := V c main_v248
abbrev in6_b (c : Dev nD) : Vec Ideal S1x150 .f32 := V c main_v258

/-! ## The block indices over the grid -/

/-- The printed index maps, decided over the grid: the row operands and the output take block row t at point t, the
    weights and the bias their one block. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-! ## The input blocks as parts of their arrays -/

/-- Window 0's block at point t is rows 2000 t … 2000 t + 1999 of its array. -/
theorem blk6_0 (c : Dev nD) (t : Fin cfg6.N) (x : S2000x150.Idx) (i : S50000x150.Idx)
    (h0 : (i 0).val = t.val * 2000 + (x 0).val) (h1 : (i 1).val = (x 1).val) :
    (iblk6 V c 0 t : Vec Ideal S2000x150 .f32) x = in6_a1 V c i := by
  obtain ⟨e00, e01, e10, e11, e20, e21, e30, e31, e40, e41, e50, e51, e60, e61, e70, e71⟩ := idx6 t
  show V c main_v226 (((cfg6.win 0).blk t).view.emb x) = V c main_v226 i
  refine congrArg (V c main_v226) (funext fun a => Fin.ext ?_)
  match a with
  | ⟨0, _⟩ => show win6_0.index t (0 : Fin 2) * 2000 + 1 * (x 0).val = (i 0).val; rw [e00, h0]; omega
  | ⟨1, _⟩ => show win6_0.index t (1 : Fin 2) * 150 + 1 * (x 1).val = (i 1).val; rw [e01, h1]; omega

/-- Window 1's block is its whole array at every point. -/
theorem blk6_1 (c : Dev nD) (t : Fin cfg6.N) : (iblk6 V c 1 t : Vec Ideal S150x150 .f32) = in6_w1 V c := by
  obtain ⟨e00, e01, e10, e11, e20, e21, e30, e31, e40, e41, e50, e51, e60, e61, e70, e71⟩ := idx6 t
  funext x
  show V c main_v255 (((cfg6.win 1).blk t).view.emb x) = V c main_v255 x
  refine congrArg (V c main_v255) (funext fun a => Fin.ext ?_)
  match a with
  | ⟨0, _⟩ => show win6_1.index t (0 : Fin 2) * 150 + 1 * (x 0).val = (x 0).val; rw [e10]; omega
  | ⟨1, _⟩ => show win6_1.index t (1 : Fin 2) * 150 + 1 * (x 1).val = (x 1).val; rw [e11]; omega

/-- Window 2's block at point t is rows 2000 t … 2000 t + 1999 of its array. -/
theorem blk6_2 (c : Dev nD) (t : Fin cfg6.N) (x : S2000x150.Idx) (i : S50000x150.Idx)
    (h0 : (i 0).val = t.val * 2000 + (x 0).val) (h1 : (i 1).val = (x 1).val) :
    (iblk6 V c 2 t : Vec Ideal S2000x150 .f32) x = in6_a2 V c i := by
  obtain ⟨e00, e01, e10, e11, e20, e21, e30, e31, e40, e41, e50, e51, e60, e61, e70, e71⟩ := idx6 t
  show V c main_v243 (((cfg6.win 2).blk t).view.emb x) = V c main_v243 i
  refine congrArg (V c main_v243) (funext fun a => Fin.ext ?_)
  match a with
  | ⟨0, _⟩ => show win6_2.index t (0 : Fin 2) * 2000 + 1 * (x 0).val = (i 0).val; rw [e20, h0]; omega
  | ⟨1, _⟩ => show win6_2.index t (1 : Fin 2) * 150 + 1 * (x 1).val = (i 1).val; rw [e21, h1]; omega

/-- Window 3's block is its whole array at every point. -/
theorem blk6_3 (c : Dev nD) (t : Fin cfg6.N) : (iblk6 V c 3 t : Vec Ideal S150x150 .f32) = in6_w2 V c := by
  obtain ⟨e00, e01, e10, e11, e20, e21, e30, e31, e40, e41, e50, e51, e60, e61, e70, e71⟩ := idx6 t
  funext x
  show V c main_v257 (((cfg6.win 3).blk t).view.emb x) = V c main_v257 x
  refine congrArg (V c main_v257) (funext fun a => Fin.ext ?_)
  match a with
  | ⟨0, _⟩ => show win6_3.index t (0 : Fin 2) * 150 + 1 * (x 0).val = (x 0).val; rw [e30]; omega
  | ⟨1, _⟩ => show win6_3.index t (1 : Fin 2) * 150 + 1 * (x 1).val = (x 1).val; rw [e31]; omega

/-- Window 4's block at point t is rows 2000 t … 2000 t + 1999 of its array. -/
theorem blk6_4 (c : Dev nD) (t : Fin cfg6.N) (x : S2000x150.Idx) (i : S50000x150.Idx)
    (h0 : (i 0).val = t.val * 2000 + (x 0).val) (h1 : (i 1).val = (x 1).val) :
    (iblk6 V c 4 t : Vec Ideal S2000x150 .bf16) x = in6_xd V c i := by
  obtain ⟨e00, e01, e10, e11, e20, e21, e30, e31, e40, e41, e50, e51, e60, e61, e70, e71⟩ := idx6 t
  show V c main_v109 (((cfg6.win 4).blk t).view.emb x) = V c main_v109 i
  refine congrArg (V c main_v109) (funext fun a => Fin.ext ?_)
  match a with
  | ⟨0, _⟩ => show win6_4.index t (0 : Fin 2) * 2000 + 1 * (x 0).val = (i 0).val; rw [e40, h0]; omega
  | ⟨1, _⟩ => show win6_4.index t (1 : Fin 2) * 150 + 1 * (x 1).val = (i 1).val; rw [e41, h1]; omega

/-- Window 5's block is its whole array at every point. -/
theorem blk6_5 (c : Dev nD) (t : Fin cfg6.N) : (iblk6 V c 5 t : Vec Ideal S150x150 .f32) = in6_wr V c := by
  obtain ⟨e00, e01, e10, e11, e20, e21, e30, e31, e40, e41, e50, e51, e60, e61, e70, e71⟩ := idx6 t
  funext x
  show V c main_v248 (((cfg6.win 5).blk t).view.emb x) = V c main_v248 x
  refine congrArg (V c main_v248) (funext fun a => Fin.ext ?_)
  match a with
  | ⟨0, _⟩ => show win6_5.index t (0 : Fin 2) * 150 + 1 * (x 0).val = (x 0).val; rw [e50]; omega
  | ⟨1, _⟩ => show win6_5.index t (1 : Fin 2) * 150 + 1 * (x 1).val = (x 1).val; rw [e51]; omega

/-- Window 6's block is its whole array at every point. -/
theorem blk6_6 (c : Dev nD) (t : Fin cfg6.N) : (iblk6 V c 6 t : Vec Ideal S1x150 .f32) = in6_b V c := by
  obtain ⟨e00, e01, e10, e11, e20, e21, e30, e31, e40, e41, e50, e51, e60, e61, e70, e71⟩ := idx6 t
  funext x
  show V c main_v258 (((cfg6.win 6).blk t).view.emb x) = V c main_v258 x
  refine congrArg (V c main_v258) (funext fun a => Fin.ext ?_)
  match a with
  | ⟨0, _⟩ => show win6_6.index t (0 : Fin 2) * 1 + 1 * (x 0).val = (x 0).val; rw [e60]; omega
  | ⟨1, _⟩ => show win6_6.index t (1 : Fin 2) * 150 + 1 * (x 1).val = (x 1).val; rw [e61]; omega

/-! ## The block a point writes back -/

/-- What the body leaves in the output window's buffer, at an entry: the layer's value on the input blocks. -/
theorem out6_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (y : S2000x150.Idx) :
    out6_7 (F := Ideal) x0 x1 x2 x3 x4 x5 x6 y = max (layer (n := 2000) x0 x1 x2 x3 x4 x5 x6 (y 0) (y 1)) 0 := by
  obtain ⟨p, q, rfl⟩ : ∃ (p : Fin 2000) (q : Fin 150), y = ix2 p q := ⟨y 0, y 1, eq_ix2 y⟩
  unfold out6_7
  rw [View.canon_unit_zero hz]
  simp only [View.ld_unit_zero (S := S2000x150) hz, View.ld_unit_zero (S := S150x150) hz, View.ld_unit_zero (S := S1x150) hz]
  exact k6_pay1_at x0 x1 x2 x3 x4 x5 x6 p q

/-- The layer on the whole arrays, entry by entry: what the output array ends holding. -/
abbrev G6 (c : Dev nD) : S50000x150.Idx → EReal := fun i =>
  max (layer (n := 50000) (in6_a1 V c) (in6_w1 V c) (in6_a2 V c) (in6_w2 V c) (in6_xd V c) (in6_wr V c) (in6_b V c) (i 0) (i 1)) 0

/-- WHAT POINT t WRITES BACK is block t of the layer on the whole arrays. -/
theorem flushed6 (c : Dev nD) (t : Fin cfg6.N) :
    (dat6 (F := Ideal) V c).flushed 7 t = ((cfg6.win 7).blk t).view.read (Elt Ideal) (G6 V c) := by
  show (cfg6.win 7).cut (grid6.coords t) ((dat6 (F := Ideal) V c).after 7 t) = _
  rw [after6_7]
  obtain ⟨e00, e01, e10, e11, e20, e21, e30, e31, e40, e41, e50, e51, e60, e61, e70, e71⟩ := idx6 t
  funext j
  have hj0 : (j 0).val < 2000 := (j 0).isLt
  have hj1 : (j 1).val < 150 := (j 1).isLt
  refine (out6_at (iblk6 V c 0 t) (iblk6 V c 1 t) (iblk6 V c 2 t) (iblk6 V c 3 t) (iblk6 V c 4 t) (iblk6 V c 5 t) (iblk6 V c 6 t) ((cfg6.win 7).xinj (grid6.coords t) j)).trans ?_
  show max (layer (n := 2000) (iblk6 V c 0 t) (iblk6 V c 1 t) (iblk6 V c 2 t) (iblk6 V c 3 t) (iblk6 V c 4 t) (iblk6 V c 5 t) (iblk6 V c 6 t) ((cfg6.win 7).xinj (grid6.coords t) j 0) ((cfg6.win 7).xinj (grid6.coords t) j 1)) 0
    = max (layer (n := 50000) (in6_a1 V c) (in6_w1 V c) (in6_a2 V c) (in6_w2 V c) (in6_xd V c) (in6_wr V c) (in6_b V c) ((((cfg6.win 7).blk t).view.emb j) 0) ((((cfg6.win 7).blk t).view.emb j) 1)) 0
  have hr : (((cfg6.win 7).blk t).view.emb j 0).val = t.val * 2000 + (j 0).val := by
    show win6_7.index t (0 : Fin 2) * 2000 + 1 * (j 0).val = _; rw [e70]; omega
  have hc : (((cfg6.win 7).blk t).view.emb j 1).val = (j 1).val := by
    show win6_7.index t (1 : Fin 2) * 150 + 1 * (j 1).val = _; rw [e71]; omega
  exact congrArg (max · 0) (layer_congr (n := 2000) (m := 50000)
    (iblk6 V c 0 t) (iblk6 V c 2 t) (iblk6 V c 4 t) (in6_a1 V c) (in6_a2 V c) (in6_xd V c)
    (iblk6 V c 1 t) (iblk6 V c 3 t) (iblk6 V c 5 t) (in6_w1 V c) (in6_w2 V c) (in6_wr V c) (iblk6 V c 6 t) (in6_b V c)
    ((cfg6.win 7).xinj (grid6.coords t) j 0) (((cfg6.win 7).blk t).view.emb j 0)
    ((cfg6.win 7).xinj (grid6.coords t) j 1) (((cfg6.win 7).blk t).view.emb j 1)
    (fun k => blk6_0 V c t _ _ hr rfl) (fun k => blk6_2 V c t _ _ hr rfl) (fun k => blk6_4 V c t _ _ hr rfl)
    (blk6_1 V c t) (blk6_3 V c t) (blk6_5 V c t) (blk6_6 V c t) (Fin.ext hc.symm))

/-! ## The blocks tile the array -/

/-- An index of the array is in point t's block iff each coordinate is in the block's range on its axis. -/
theorem mem_blk6 (t : Fin cfg6.N) (i : S50000x150.Idx) :
    i ∈ ((cfg6.win 7).blk t).view.set ↔ ∀ a : Fin 2, win6_7.index t a * S2000x150.size a ≤ (i a).val ∧ (i a).val < win6_7.index t a * S2000x150.size a + S2000x150.size a := by
  show i ∈ ((View.whole main_v259).slice (win6_7.rect t)).set ↔ _
  rw [View.set_slice_whole, Rect.mem_set_unit]
  exact Iff.rfl

/-- Every entry of the array is in the block of the point its row falls to. -/
theorem cover6 (i : S50000x150.Idx) : ∃ t : Fin cfg6.N, (cfg6.win 7).flush t = true ∧ i ∈ ((cfg6.win 7).blk t).view.set := by
  have hi0 : (i 0).val < 50000 := (i 0).isLt
  have hi1 : (i 1).val < 150 := (i 1).isLt
  obtain ⟨t, ht⟩ : ∃ t : Fin cfg6.N, t.val = (i 0).val / 2000 :=
    ⟨⟨(i 0).val / 2000, Nat.lt_of_lt_of_eq (by omega : (i 0).val / 2000 < 25) N_6.symm⟩, rfl⟩
  obtain ⟨e00, e01, e10, e11, e20, e21, e30, e31, e40, e41, e50, e51, e60, e61, e70, e71⟩ := idx6 t
  refine ⟨t, flush6_7 t, ?_⟩
  rw [mem_blk6]
  intro a
  match a with
  | ⟨0, _⟩ => show win6_7.index t (0 : Fin 2) * 2000 ≤ (i 0).val ∧ (i 0).val < win6_7.index t (0 : Fin 2) * 2000 + 2000; rw [e70, ht]; omega
  | ⟨1, _⟩ => show win6_7.index t (1 : Fin 2) * 150 ≤ (i 1).val ∧ (i 1).val < win6_7.index t (1 : Fin 2) * 150 + 150; rw [e71]; omega

/-! ## The array after the region -/

/-- THE OUTPUT ARRAY after region 6, at entry (p, q): the layer's value on the operand arrays as the region finds them. -/
theorem region6 (c : Dev nD) (p : Fin 50000) (q : Fin 150) :
    (dat6 (F := Ideal) V c).arrAt 7 cfg6.N (ix2 p q)
      = max ((((∑ k : Fin 150, in6_a1 V c (ix2 p k) * in6_w1 V c (ix2 k q)) + (∑ k : Fin 150, in6_a2 V c (ix2 p k) * in6_w2 V c (ix2 k q))) + (∑ k : Fin 150, in6_xd V c (ix2 p k) * in6_wr V c (ix2 k q))) + in6_b V c (ix2 0 q)) 0 :=
  congrFun ((dat6 (F := Ideal) V c).arrAt_eq_of_cover 7 (G6 V c) (fun t _ => flushed6 V c t) cover6) (ix2 p q)

/-- The same over any arrays equal to the operand arrays: the form to instantiate. -/
theorem region6_at (c : Dev nD) (A1 : Vec Ideal S50000x150 .f32) (W1 : Vec Ideal S150x150 .f32) (A2 : Vec Ideal S50000x150 .f32) (W2 : Vec Ideal S150x150 .f32)
    (XD : Vec Ideal S50000x150 .bf16) (WR : Vec Ideal S150x150 .f32) (B : Vec Ideal S1x150 .f32)
    (hA1 : A1 = V c main_v226) (hW1 : W1 = V c main_v255) (hA2 : A2 = V c main_v243) (hW2 : W2 = V c main_v257)
    (hXD : XD = V c main_v109) (hWR : WR = V c main_v248) (hB : B = V c main_v258) (p : Fin 50000) (q : Fin 150) :
    (dat6 (F := Ideal) V c).arrAt 7 cfg6.N (ix2 p q)
      = max ((((∑ k : Fin 150, A1 (ix2 p k) * W1 (ix2 k q)) + (∑ k : Fin 150, A2 (ix2 p k) * W2 (ix2 k q))) + (∑ k : Fin 150, XD (ix2 p k) * WR (ix2 k q))) + B (ix2 0 q)) 0 := by
  subst hA1 hW1 hA2 hW2 hXD hWR hB
  exact region6 V c p q

end Cert.KernelIdeal.RegionValue

end
-- ==== Proof.Step6.lean ====
/-
  Launch 6 (a two-branch mean-aggregation layer with a rectifier): at the exit of the launch the kernel's output array
  is, entry by entry, the reference's feature of the layer's destination node type.

  One entry (p, q). The kernel adds the two aggregated products, then the destination row against the SUM of the two
  root matrices, then the SUM of the two biases, and takes the maximum with zero:
      max (((Σk A1[p,k] W1[k,q] + Σk A2[p,k] W2[k,q]) + Σk X[p,k] (R1 + R2)[k,q]) + (b1 + b2)[q]) 0.
  The reference computes each branch by itself, adds the branches, and takes the maximum with zero:
      max (((Σk A1[p,k] W1[k,q] + b1[q]) + Σk X[p,k] R1[k,q]) + ((Σk A2[p,k] W2[k,q] + b2[q]) + Σk X[p,k] R2[k,q])) 0.
  The two agree when the destination row X[p,·] and the root matrices R1, R2 are real (a product distributes over a
  sum of extended reals only away from the infinities): the combine law of the algebra module.

  The operands. A1 and A2 are mean aggregations: a source feature gathered along the edges, summed into the
  destination rows, and divided by the in-degree (at least one). The kernel's program and the reference apply the SAME
  host operations to the same source features and the same edge lists, so the two aggregations are one term; the only
  difference is that the kernel gathers rows kept in the narrow float format and widens them, which is the identity at
  the ideal values. The in-degree columns are computed once, before the first aggregation layer, and reach this launch
  unchanged. W1, W2, R1, R2, b1, b2 are slices of the stacked weight, root and bias arguments; the kernel adds the two
  root slices and the two bias slices before the launch, and keeps the bias sum as a [1 × 150] row.
-/
import proofs.«138545_j63058709840619_2_alg».proof.Proof.FrameKIW
import proofs.«138545_j63058709840619_2_alg».proof.Proof.Carry3
import proofs.«138545_j63058709840619_2_alg».proof.Proof.Carry6
import proofs.«138545_j63058709840619_2_alg».proof.Proof.RegionValue6
import proofs.«138545_j63058709840619_2_alg».proof.Proof.RefRead
import proofs.«138545_j63058709840619_2_alg».proof.Proof.Algebra
import proofs.«138545_j63058709840619_2_alg».proof.Proof.OpsFinite
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal
import Idealize.ShloMosaic.PureOps.Ideal.Laws

set_option maxRecDepth 16384
set_option quotPrecheck false

noncomputable section

open scoped BigOperators

namespace Cert.Bridge

open Cert.KernelIdeal Cert.KernelIdeal.Gen Cert.Algebra
open Idealize.ShloMosaic Idealize.ShloMosaic.TcCoe Idealize.ShloMosaic.ValueIdx Idealize.ShloMosaic.StableHlo
open Idealize.SL Idealize.SL.Sem

/-! ## The reference side, at one entry -/

/-- The reference's feature at entry (p, q): per branch, the aggregated row against the weight's column, plus the
    bias at `q`, plus the destination row against the root's column; the two branches added; the maximum with zero. -/
theorem ref6_at
    (x0 : (⟨Cert.ReferenceIdeal.S50000x768, .f32⟩ : BufTy).Contents (Elt Ideal))
    (x1 : (⟨Cert.ReferenceIdeal.S2000x768, .f32⟩ : BufTy).Contents (Elt Ideal))
    (x2 : (⟨Cert.ReferenceIdeal.S20000x1024, .f32⟩ : BufTy).Contents (Elt Ideal))
    (x3 : (⟨Cert.ReferenceIdeal.S768x150, .f32⟩ : BufTy).Contents (Elt Ideal))
    (x4 : (⟨Cert.ReferenceIdeal.S150, .f32⟩ : BufTy).Contents (Elt Ideal))
    (x5 : (⟨Cert.ReferenceIdeal.S768x150, .f32⟩ : BufTy).Contents (Elt Ideal))
    (x6 : (⟨Cert.ReferenceIdeal.S150, .f32⟩ : BufTy).Contents (Elt Ideal))
    (x7 : (⟨Cert.ReferenceIdeal.S1024x150, .f32⟩ : BufTy).Contents (Elt Ideal))
    (x8 : (⟨Cert.ReferenceIdeal.S150, .f32⟩ : BufTy).Contents (Elt Ideal))
    (x9 : (⟨Cert.ReferenceIdeal.S3x6x150x150, .f32⟩ : BufTy).Contents (Elt Ideal))
    (x10 : (⟨Cert.ReferenceIdeal.S3x6x150, .f32⟩ : BufTy).Contents (Elt Ideal))
    (x11 : (⟨Cert.ReferenceIdeal.S3x6x150x150, .f32⟩ : BufTy).Contents (Elt Ideal))
    (x24 : (⟨Cert.ReferenceIdeal.S2x500000, .i32⟩ : BufTy).Contents (Elt Ideal))
    (x25 x26 : (⟨Cert.ReferenceIdeal.S2x200000, .i32⟩ : BufTy).Contents (Elt Ideal)) (p : Fin 50000) (q : Fin 150) :
    Cert.ReferenceIdeal.Read.val_main_v441 (F := Ideal) x0 x1 x2 x3 x4 x5 x6 x7 x8 x9 x10 x11 x24 x25 x26 (ix2 p q)
      = max ((((∑ k : Fin 150, Cert.ReferenceIdeal.Read.val_main_v250 (F := Ideal) x0 x1 x2 x3 x4 x5 x6 x7 x8 x9 x10 x11 x24 x26 (ix2 p k) * Cert.ReferenceIdeal.Read.val_main_v252 (F := Ideal) x9 (ix2 k q))
              + Cert.ReferenceIdeal.Read.val_main_v255 (F := Ideal) x10 (ix1 q))
            + ∑ k : Fin 150, Cert.ReferenceIdeal.Read.val_main_v225 (F := Ideal) x0 x1 x2 x3 x4 x5 x6 x7 x8 x9 x10 x11 x24 x25 (ix2 p k) * Cert.ReferenceIdeal.Read.val_main_v260 (F := Ideal) x11 (ix2 k q))
          + (((∑ k : Fin 150, Cert.ReferenceIdeal.Read.val_main_v285 (F := Ideal) x0 x1 x2 x3 x4 x5 x6 x7 x8 x9 x10 x11 x25 x26 (ix2 p k) * Cert.ReferenceIdeal.Read.val_main_v287 (F := Ideal) x9 (ix2 k q))
              + Cert.ReferenceIdeal.Read.val_main_v290 (F := Ideal) x10 (ix1 q))
            + ∑ k : Fin 150, Cert.ReferenceIdeal.Read.val_main_v225 (F := Ideal) x0 x1 x2 x3 x4 x5 x6 x7 x8 x9 x10 x11 x24 x25 (ix2 p k) * Cert.ReferenceIdeal.Read.val_main_v295 (F := Ideal) x11 (ix2 k q))) 0 := by
  rw [Cert.ReferenceIdeal.Read.val_main_v441_apply, Cert.ReferenceIdeal.Read.val_main_call3_v0_apply, Cert.ReferenceIdeal.Read.val_main_call3_cst_apply,
    Cert.ReferenceIdeal.Read.val_main_v298_apply, Cert.ReferenceIdeal.Read.val_main_v262_apply, Cert.ReferenceIdeal.Read.val_main_v258_apply,
    Cert.ReferenceIdeal.Read.val_main_v253_apply, Cert.ReferenceIdeal.Read.val_main_v257_apply, Cert.ReferenceIdeal.Read.val_main_v256_apply,
    Cert.ReferenceIdeal.Read.val_main_v261_apply, Cert.ReferenceIdeal.Read.val_main_v297_apply, Cert.ReferenceIdeal.Read.val_main_v293_apply,
    Cert.ReferenceIdeal.Read.val_main_v288_apply, Cert.ReferenceIdeal.Read.val_main_v292_apply, Cert.ReferenceIdeal.Read.val_main_v291_apply,
    Cert.ReferenceIdeal.Read.val_main_v296_apply]
  simp only [Ideal.addf_def, Ideal.maximumf_def, Ideal.ofBits_def, Ideal.ofBits_zero_f32]
  -- the indices the reads name are the coordinates written out
  have hl1 : ∀ k : Fin 150, Cert.ReferenceIdeal.Read.lidx_main_v253 (ix2 p q) k = ix2 p k := fun k =>
    funext fun a => Fin.ext (by match a with | ⟨0, _⟩ => rfl | ⟨1, _⟩ => rfl)
  have hr1 : ∀ k : Fin 150, Cert.ReferenceIdeal.Read.ridx_main_v253 (ix2 p q) k = ix2 k q := fun k =>
    funext fun a => Fin.ext (by match a with | ⟨0, _⟩ => rfl | ⟨1, _⟩ => rfl)
  have hl2 : ∀ k : Fin 150, Cert.ReferenceIdeal.Read.lidx_main_v261 (ix2 p q) k = ix2 p k := fun k =>
    funext fun a => Fin.ext (by match a with | ⟨0, _⟩ => rfl | ⟨1, _⟩ => rfl)
  have hr2 : ∀ k : Fin 150, Cert.ReferenceIdeal.Read.ridx_main_v261 (ix2 p q) k = ix2 k q := fun k =>
    funext fun a => Fin.ext (by match a with | ⟨0, _⟩ => rfl | ⟨1, _⟩ => rfl)
  have hl3 : ∀ k : Fin 150, Cert.ReferenceIdeal.Read.lidx_main_v288 (ix2 p q) k = ix2 p k := fun k =>
    funext fun a => Fin.ext (by match a with | ⟨0, _⟩ => rfl | ⟨1, _⟩ => rfl)
  have hr3 : ∀ k : Fin 150, Cert.ReferenceIdeal.Read.ridx_main_v288 (ix2 p q) k = ix2 k q := fun k =>
    funext fun a => Fin.ext (by match a with | ⟨0, _⟩ => rfl | ⟨1, _⟩ => rfl)
  have hl4 : ∀ k : Fin 150, Cert.ReferenceIdeal.Read.lidx_main_v296 (ix2 p q) k = ix2 p k := fun k =>
    funext fun a => Fin.ext (by match a with | ⟨0, _⟩ => rfl | ⟨1, _⟩ => rfl)
  have hr4 : ∀ k : Fin 150, Cert.ReferenceIdeal.Read.ridx_main_v296 (ix2 p q) k = ix2 k q := fun k =>
    funext fun a => Fin.ext (by match a with | ⟨0, _⟩ => rfl | ⟨1, _⟩ => rfl)
  have hb1 : Cert.ReferenceIdeal.Read.idx_main_v256 (Cert.ReferenceIdeal.Read.idx_main_v257 (ix2 p q)) = ix1 q :=
    funext fun a => Fin.ext (by match a with | ⟨0, _⟩ => rfl)
  have hb2 : Cert.ReferenceIdeal.Read.idx_main_v291 (Cert.ReferenceIdeal.Read.idx_main_v292 (ix2 p q)) = ix1 q :=
    funext fun a => Fin.ext (by match a with | ⟨0, _⟩ => rfl)
  simp only [hl1, hr1, hl2, hr2, hl3, hr3, hl4, hr4, hb1, hb2]

/-- A root slice of a real stacked root argument is real: its entries are entries of the argument. -/
theorem real6_wr1 (x11 : (⟨Cert.ReferenceIdeal.S3x6x150x150, .f32⟩ : BufTy).Contents (Elt Ideal)) (h : AllReal x11) :
    AllReal (Cert.ReferenceIdeal.Read.val_main_v260 (F := Ideal) x11) := by
  unfold Cert.ReferenceIdeal.Read.val_main_v260 Cert.ReferenceIdeal.Read.val_main_v259
  exact Cert.OpsFinite.allReal_shapeCast (Cert.OpsFinite.allReal_extractStridedSlice h)
theorem real6_wr2 (x11 : (⟨Cert.ReferenceIdeal.S3x6x150x150, .f32⟩ : BufTy).Contents (Elt Ideal)) (h : AllReal x11) :
    AllReal (Cert.ReferenceIdeal.Read.val_main_v295 (F := Ideal) x11) := by
  unfold Cert.ReferenceIdeal.Read.val_main_v295 Cert.ReferenceIdeal.Read.val_main_v294
  exact Cert.OpsFinite.allReal_shapeCast (Cert.OpsFinite.allReal_extractStridedSlice h)

/-! ## The host operations before the launch, over any buffer contents

Each lemma takes the contents `V0` of the buffers before a stretch of host operations and what `V0` holds at the
buffers the stretch reads, and gives what one buffer holds after the stretch as the reference's term. -/

/-- At the ideal values widening the narrow float format is the identity. -/
theorem extf6_id {s : Shape} (x : FVec Ideal s .bf16) (h : FTy.bits .bf16 < FTy.bits .f32) :
    (extf (F := Ideal) .f32 x h : s.Idx → EReal) = x := rfl

section Stretch

variable (V0 : Valuation τ sig (Elt Ideal))
variable {x0 : (⟨Cert.ReferenceIdeal.S50000x768, .f32⟩ : BufTy).Contents (Elt Ideal)}
variable {x1 : (⟨Cert.ReferenceIdeal.S2000x768, .f32⟩ : BufTy).Contents (Elt Ideal)}
variable {x2 : (⟨Cert.ReferenceIdeal.S20000x1024, .f32⟩ : BufTy).Contents (Elt Ideal)}
variable {x3 : (⟨Cert.ReferenceIdeal.S768x150, .f32⟩ : BufTy).Contents (Elt Ideal)}
variable {x4 : (⟨Cert.ReferenceIdeal.S150, .f32⟩ : BufTy).Contents (Elt Ideal)}
variable {x5 : (⟨Cert.ReferenceIdeal.S768x150, .f32⟩ : BufTy).Contents (Elt Ideal)}
variable {x6 : (⟨Cert.ReferenceIdeal.S150, .f32⟩ : BufTy).Contents (Elt Ideal)}
variable {x7 : (⟨Cert.ReferenceIdeal.S1024x150, .f32⟩ : BufTy).Contents (Elt Ideal)}
variable {x8 : (⟨Cert.ReferenceIdeal.S150, .f32⟩ : BufTy).Contents (Elt Ideal)}
variable {x9 : (⟨Cert.ReferenceIdeal.S3x6x150x150, .f32⟩ : BufTy).Contents (Elt Ideal)}
variable {x10 : (⟨Cert.ReferenceIdeal.S3x6x150, .f32⟩ : BufTy).Contents (Elt Ideal)}
variable {x11 : (⟨Cert.ReferenceIdeal.S3x6x150x150, .f32⟩ : BufTy).Contents (Elt Ideal)}
variable {x24 : (⟨Cert.ReferenceIdeal.S2x500000, .i32⟩ : BufTy).Contents (Elt Ideal)}
variable {x25 x26 : (⟨Cert.ReferenceIdeal.S2x200000, .i32⟩ : BufTy).Contents (Elt Ideal)}

/-- The first branch's in-degree column, computed before the first aggregation layer from the destination row of the
    branch's edge list, is the reference's: the same operations on the same edge list. -/
theorem cnt6_a (hE1 : V0 (Proc.devRef .tc main_arg24) = x24) :
    (StableHlo.after hostOps3 V0 (Proc.devRef .tc main_v14) : Cert.ReferenceIdeal.S50000x1.Idx → EReal)
      = Cert.ReferenceIdeal.Read.val_main_v248 (F := Ideal) x24 := by
  after_results_simp
  rw [hE1]
  unfold Cert.ReferenceIdeal.Read.val_main_v248 Cert.ReferenceIdeal.Read.val_main_v247 Cert.ReferenceIdeal.Read.val_main_v245 Cert.ReferenceIdeal.Read.val_main_v243 Cert.ReferenceIdeal.Read.val_main_cst_38 Cert.ReferenceIdeal.Read.val_main_v244 Cert.ReferenceIdeal.Read.val_main_v231 Cert.ReferenceIdeal.Read.val_main_v230 Cert.ReferenceIdeal.Read.val_main_v242 Cert.ReferenceIdeal.Read.val_main_cst_37 Cert.ReferenceIdeal.Read.val_main_v246 Cert.ReferenceIdeal.Read.val_main_cst_39
  rfl

/-- The second branch's in-degree column. -/
theorem cnt6_b (hE2 : V0 (Proc.devRef .tc main_arg25) = x25) :
    (StableHlo.after hostOps3 V0 (Proc.devRef .tc main_v23) : Cert.ReferenceIdeal.S50000x1.Idx → EReal)
      = Cert.ReferenceIdeal.Read.val_main_v283 (F := Ideal) x25 := by
  after_results_simp
  rw [hE2]
  unfold Cert.ReferenceIdeal.Read.val_main_v283 Cert.ReferenceIdeal.Read.val_main_v282 Cert.ReferenceIdeal.Read.val_main_v280 Cert.ReferenceIdeal.Read.val_main_v278 Cert.ReferenceIdeal.Read.val_main_cst_44 Cert.ReferenceIdeal.Read.val_main_v279 Cert.ReferenceIdeal.Read.val_main_v266 Cert.ReferenceIdeal.Read.val_main_v265 Cert.ReferenceIdeal.Read.val_main_v277 Cert.ReferenceIdeal.Read.val_main_cst_43 Cert.ReferenceIdeal.Read.val_main_v281 Cert.ReferenceIdeal.Read.val_main_cst_45
  rfl

/-- Window 0: the first branch's mean aggregation, from the branch's edge list, its source feature and its in-degree
    column. -/
theorem op6_0 (hE1 : V0 (Proc.devRef .tc main_arg24) = x24)
    (hS1 : (V0 (Proc.devRef .tc main_v209) : Cert.ReferenceIdeal.S20000x150.Idx → EReal) = Cert.ReferenceIdeal.Read.val_main_v227 (F := Ideal) x0 x1 x2 x3 x4 x5 x6 x7 x8 x9 x10 x11 x24 x26)
    (hC1 : (V0 (Proc.devRef .tc main_v14) : Cert.ReferenceIdeal.S50000x1.Idx → EReal) = Cert.ReferenceIdeal.Read.val_main_v248 (F := Ideal) x24) :
    (StableHlo.after hostOps6 V0 (Proc.devRef .tc main_v226) : Cert.ReferenceIdeal.S50000x150.Idx → EReal)
      = Cert.ReferenceIdeal.Read.val_main_v250 (F := Ideal) x0 x1 x2 x3 x4 x5 x6 x7 x8 x9 x10 x11 x24 x26 := by
  after_results_simp
  rw [hE1, hS1, hC1, extf6_id]
  unfold Cert.ReferenceIdeal.Read.val_main_v250 Cert.ReferenceIdeal.Read.val_main_v241 Cert.ReferenceIdeal.Read.val_main_v239 Cert.ReferenceIdeal.Read.val_main_cst_36 Cert.ReferenceIdeal.Read.val_main_v240 Cert.ReferenceIdeal.Read.val_main_v231 Cert.ReferenceIdeal.Read.val_main_v230 Cert.ReferenceIdeal.Read.val_main_v238 Cert.ReferenceIdeal.Read.val_main_v237 Cert.ReferenceIdeal.Read.val_main_v236 Cert.ReferenceIdeal.Read.val_main_v233 Cert.ReferenceIdeal.Read.val_main_v229 Cert.ReferenceIdeal.Read.val_main_v228 Cert.ReferenceIdeal.Read.val_main_v232 Cert.ReferenceIdeal.Read.val_main_c_34 Cert.ReferenceIdeal.Read.val_main_v235 Cert.ReferenceIdeal.Read.val_main_v234 Cert.ReferenceIdeal.Read.val_main_c_35 Cert.ReferenceIdeal.Read.val_main_v249
  rfl

/-- Window 1: the first branch's weight, a slice of the stacked weights. -/
theorem op6_1 (hW : V0 (Proc.devRef .tc main_arg9) = x9) :
    (StableHlo.after hostOps6 V0 (Proc.devRef .tc main_v255) : Cert.ReferenceIdeal.S150x150.Idx → EReal)
      = Cert.ReferenceIdeal.Read.val_main_v252 (F := Ideal) x9 := by
  after_results_simp
  rw [hW]
  unfold Cert.ReferenceIdeal.Read.val_main_v252 Cert.ReferenceIdeal.Read.val_main_v251
  rfl

/-- Window 2: the second branch's mean aggregation. -/
theorem op6_2 (hE2 : V0 (Proc.devRef .tc main_arg25) = x25)
    (hS2 : (V0 (Proc.devRef .tc main_v159) : Cert.ReferenceIdeal.S2000x150.Idx → EReal) = Cert.ReferenceIdeal.Read.val_main_v226 (F := Ideal) x0 x1 x2 x3 x4 x5 x6 x7 x8 x9 x10 x11 x25 x26)
    (hC2 : (V0 (Proc.devRef .tc main_v23) : Cert.ReferenceIdeal.S50000x1.Idx → EReal) = Cert.ReferenceIdeal.Read.val_main_v283 (F := Ideal) x25) :
    (StableHlo.after hostOps6 V0 (Proc.devRef .tc main_v243) : Cert.ReferenceIdeal.S50000x150.Idx → EReal)
      = Cert.ReferenceIdeal.Read.val_main_v285 (F := Ideal) x0 x1 x2 x3 x4 x5 x6 x7 x8 x9 x10 x11 x25 x26 := by
  after_results_simp
  rw [hE2, hS2, hC2, extf6_id]
  unfold Cert.ReferenceIdeal.Read.val_main_v285 Cert.ReferenceIdeal.Read.val_main_v276 Cert.ReferenceIdeal.Read.val_main_v274 Cert.ReferenceIdeal.Read.val_main_cst_42 Cert.ReferenceIdeal.Read.val_main_v275 Cert.ReferenceIdeal.Read.val_main_v266 Cert.ReferenceIdeal.Read.val_main_v265 Cert.ReferenceIdeal.Read.val_main_v273 Cert.ReferenceIdeal.Read.val_main_v272 Cert.ReferenceIdeal.Read.val_main_v271 Cert.ReferenceIdeal.Read.val_main_v268 Cert.ReferenceIdeal.Read.val_main_v264 Cert.ReferenceIdeal.Read.val_main_v263 Cert.ReferenceIdeal.Read.val_main_v267 Cert.ReferenceIdeal.Read.val_main_c_40 Cert.ReferenceIdeal.Read.val_main_v270 Cert.ReferenceIdeal.Read.val_main_v269 Cert.ReferenceIdeal.Read.val_main_c_41 Cert.ReferenceIdeal.Read.val_main_v284
  rfl

/-- Window 3: the second branch's weight. -/
theorem op6_3 (hW : V0 (Proc.devRef .tc main_arg9) = x9) :
    (StableHlo.after hostOps6 V0 (Proc.devRef .tc main_v257) : Cert.ReferenceIdeal.S150x150.Idx → EReal)
      = Cert.ReferenceIdeal.Read.val_main_v287 (F := Ideal) x9 := by
  after_results_simp
  rw [hW]
  unfold Cert.ReferenceIdeal.Read.val_main_v287 Cert.ReferenceIdeal.Read.val_main_v286
  rfl

/-- Window 4: the destination feature, which no host operation of the stretch touches. -/
theorem op6_4 :
    StableHlo.after hostOps6 V0 (Proc.devRef .tc main_v109) = V0 (Proc.devRef .tc main_v109) := by
  after_results_simp

/-- Window 5: the sum of the two branches' root matrices. -/
theorem op6_5 (hR : V0 (Proc.devRef .tc main_arg11) = x11) :
    (StableHlo.after hostOps6 V0 (Proc.devRef .tc main_v248) : Cert.ReferenceIdeal.S150x150.Idx → EReal)
      = addf (F := Ideal) (s := Cert.ReferenceIdeal.S150x150) (φ := .f32) (Cert.ReferenceIdeal.Read.val_main_v260 (F := Ideal) x11) (Cert.ReferenceIdeal.Read.val_main_v295 (F := Ideal) x11) := by
  after_results_simp
  rw [hR]
  unfold Cert.ReferenceIdeal.Read.val_main_v260 Cert.ReferenceIdeal.Read.val_main_v259 Cert.ReferenceIdeal.Read.val_main_v295 Cert.ReferenceIdeal.Read.val_main_v294
  rfl

/-- Window 6: the sum of the two branches' biases, kept as a [1 × 150] row. -/
theorem op6_6 (hB : V0 (Proc.devRef .tc main_arg10) = x10) :
    (StableHlo.after hostOps6 V0 (Proc.devRef .tc main_v258) : Cert.KernelIdeal.S1x150.Idx → EReal)
      = shapeCast Cert.KernelIdeal.S1x150
          (addf (F := Ideal) (s := Cert.ReferenceIdeal.S150) (φ := .f32) (Cert.ReferenceIdeal.Read.val_main_v255 (F := Ideal) x10) (Cert.ReferenceIdeal.Read.val_main_v290 (F := Ideal) x10))
          shapeCasts_S150_S1x150 := by
  after_results_simp
  rw [hB]
  unfold Cert.ReferenceIdeal.Read.val_main_v255 Cert.ReferenceIdeal.Read.val_main_v254 Cert.ReferenceIdeal.Read.val_main_v290 Cert.ReferenceIdeal.Read.val_main_v289
  rfl

end Stretch

/-! ## The launch -/

variable (m : (ℓ : Loc nD τ sig) → Buf (Elt Ideal) ℓ) (ρ : Dev nD → PrngReg) (c : Dev nD)

/-- The kernel's argument array `b`, as the memory holds it at the start. -/
local notation "arg(" b ")" => m ((c.tc : Thread nD τ).loc b)
/-- The reference's stages of this layer at the kernel's arguments: the layer's feature (after the rectifier), -/
local notation "rOut" => Cert.ReferenceIdeal.Read.val_main_v441 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25) arg(main_arg26)
/-- the source features the two branches aggregate, and the destination feature, -/
local notation "rSrc1" => Cert.ReferenceIdeal.Read.val_main_v227 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg26)
local notation "rSrc2" => Cert.ReferenceIdeal.Read.val_main_v226 (F := Ideal) arg(main_arg0) arg(main_arg1) arg(main_arg2) arg(main_arg3) arg(main_arg4) arg(main_arg5) arg(main_arg6) arg(main_arg7) arg(main_arg8) arg(main_arg9) arg(main_arg10) arg(main_arg11) arg(main_arg25) arg(main_arg26)
local notation "rDst" => Cert.ReferenceIdeal.Read.val_main_v225 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25)
/-- the two mean aggregations and the in-degree columns they divide by, -/
local notation "rAgg1" => Cert.ReferenceIdeal.Read.val_main_v250 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg26)
local notation "rAgg2" => Cert.ReferenceIdeal.Read.val_main_v285 (F := Ideal) arg(main_arg0) arg(main_arg1) arg(main_arg2) arg(main_arg3) arg(main_arg4) arg(main_arg5) arg(main_arg6) arg(main_arg7) arg(main_arg8) arg(main_arg9) arg(main_arg10) arg(main_arg11) arg(main_arg25) arg(main_arg26)
local notation "rCnt1" => Cert.ReferenceIdeal.Read.val_main_v248 (F := Ideal) arg(main_arg24)
local notation "rCnt2" => Cert.ReferenceIdeal.Read.val_main_v283 (F := Ideal) arg(main_arg25)
/-- the weight, root and bias slices of the two branches. -/
local notation "rWl1" => Cert.ReferenceIdeal.Read.val_main_v252 (F := Ideal) arg(main_arg9)
local notation "rWl2" => Cert.ReferenceIdeal.Read.val_main_v287 (F := Ideal) arg(main_arg9)
local notation "rWr1" => Cert.ReferenceIdeal.Read.val_main_v260 (F := Ideal) arg(main_arg11)
local notation "rWr2" => Cert.ReferenceIdeal.Read.val_main_v295 (F := Ideal) arg(main_arg11)
local notation "rB1" => Cert.ReferenceIdeal.Read.val_main_v255 (F := Ideal) arg(main_arg10)
local notation "rB2" => Cert.ReferenceIdeal.Read.val_main_v290 (F := Ideal) arg(main_arg10)

set_option maxHeartbeats 1000000 in
/-- Launch 6: given what the launches that wrote the two source features and the destination feature left (their
    own facts), and the destination feature and the stacked root argument real, the kernel's output array at the
    launch's exit is the reference's feature of the same arguments. -/
theorem step6
    (hK5 : (W12 (F := Ideal) m ρ c (Proc.devRef .tc main_v209) : Cert.ReferenceIdeal.S20000x150.Idx → EReal) = rSrc1)
    (hK4 : (W10 (F := Ideal) m ρ c (Proc.devRef .tc main_v159) : Cert.ReferenceIdeal.S2000x150.Idx → EReal) = rSrc2)
    (hK3 : (W8 (F := Ideal) m ρ c (Proc.devRef .tc main_v109) : Cert.ReferenceIdeal.S50000x150.Idx → EReal) = rDst)
    (hX : AllReal (rDst : Cert.ReferenceIdeal.S50000x150.Idx → EReal))
    (h11 : AllReal (arg(main_arg11) : Cert.ReferenceIdeal.S3x6x150x150.Idx → EReal)) :
    (W14 (F := Ideal) m ρ c (Proc.devRef .tc main_v259) : Cert.ReferenceIdeal.S50000x150.Idx → EReal) = rOut := by
  funext i
  obtain ⟨p, q, rfl⟩ : ∃ (p : Fin 50000) (q : Fin 150), i = ix2 p q := ⟨i 0, i 1, eq_ix2 i⟩
  -- the three features as the boundary before the host stretch holds them: carried there unchanged
  have hS1 : (W12 (F := Ideal) m ρ c (Proc.devRef .tc main_v209) : Cert.ReferenceIdeal.S20000x150.Idx → EReal) = rSrc1 :=
    hK5
  have hS2 : (W12 (F := Ideal) m ρ c (Proc.devRef .tc main_v159) : Cert.ReferenceIdeal.S2000x150.Idx → EReal) = rSrc2 :=
    (Cert.KernelIdeal.Carry.at6_main_v159 m ρ c).trans hK4
  have hD : (W12 (F := Ideal) m ρ c (Proc.devRef .tc main_v109) : Cert.ReferenceIdeal.S50000x150.Idx → EReal) = rDst :=
    (Cert.KernelIdeal.Carry.at6_main_v109 m ρ c).trans hK3
  -- the two in-degree columns there: computed before the first aggregation layer, carried unchanged since
  have hC1 : (W12 (F := Ideal) m ρ c (Proc.devRef .tc main_v14) : Cert.ReferenceIdeal.S50000x1.Idx → EReal) = rCnt1 :=
    (Cert.KernelIdeal.Carry.at6_main_v14 m ρ c).trans (cnt6_a (W6 m ρ c) (Cert.KernelIdeal.Carry.at3_main_arg24 m ρ c))
  have hC2 : (W12 (F := Ideal) m ρ c (Proc.devRef .tc main_v23) : Cert.ReferenceIdeal.S50000x1.Idx → EReal) = rCnt2 :=
    (Cert.KernelIdeal.Carry.at6_main_v23 m ρ c).trans (cnt6_b (W6 m ρ c) (Cert.KernelIdeal.Carry.at3_main_arg25 m ρ c))
  -- the seven operand arrays at the launch's entry, each as its reference term
  have e0 : (V13 (F := Ideal) m ρ c main_v226 : Cert.ReferenceIdeal.S50000x150.Idx → EReal) = rAgg1 :=
    op6_0 (W12 m ρ c) (Cert.KernelIdeal.Carry.at6_main_arg24 m ρ c) hS1 hC1
  have e1 : (V13 (F := Ideal) m ρ c main_v255 : Cert.ReferenceIdeal.S150x150.Idx → EReal) = rWl1 :=
    op6_1 (W12 m ρ c) (Cert.KernelIdeal.Carry.at6_main_arg9 m ρ c)
  have e2 : (V13 (F := Ideal) m ρ c main_v243 : Cert.ReferenceIdeal.S50000x150.Idx → EReal) = rAgg2 :=
    op6_2 (W12 m ρ c) (Cert.KernelIdeal.Carry.at6_main_arg25 m ρ c) hS2 hC2
  have e3 : (V13 (F := Ideal) m ρ c main_v257 : Cert.ReferenceIdeal.S150x150.Idx → EReal) = rWl2 :=
    op6_3 (W12 m ρ c) (Cert.KernelIdeal.Carry.at6_main_arg9 m ρ c)
  have e4 : (V13 (F := Ideal) m ρ c main_v109 : Cert.ReferenceIdeal.S50000x150.Idx → EReal) = rDst :=
    (op6_4 (W12 m ρ c)).trans hD
  have e5 : (V13 (F := Ideal) m ρ c main_v248 : Cert.ReferenceIdeal.S150x150.Idx → EReal)
      = addf (F := Ideal) (s := Cert.ReferenceIdeal.S150x150) (φ := .f32) rWr1 rWr2 :=
    op6_5 (W12 m ρ c) (Cert.KernelIdeal.Carry.at6_main_arg11 m ρ c)
  have e6 : (V13 (F := Ideal) m ρ c main_v258 : Cert.KernelIdeal.S1x150.Idx → EReal)
      = shapeCast Cert.KernelIdeal.S1x150 (addf (F := Ideal) (s := Cert.ReferenceIdeal.S150) (φ := .f32) rB1 rB2) shapeCasts_S150_S1x150 :=
    op6_6 (W12 m ρ c) (Cert.KernelIdeal.Carry.at6_main_arg10 m ρ c)
  -- the output array at the exit is what the pipeline leaves in its eighth window's array
  have hL : W14 (F := Ideal) m ρ c (Proc.devRef .tc main_v259) = (dat6 (F := Ideal) (V13 m ρ) c).arrAt 7 cfg6.N :=
    W14_arr m ρ c 7
  refine (congrFun hL (ix2 p q)).trans ?_
  -- the launch's value on the seven operand arrays, each replaced by its reference term
  refine (Cert.KernelIdeal.RegionValue.region6_at (V13 m ρ) c
    rAgg1 rWl1 rAgg2 rWl2 rDst (addf (F := Ideal) (s := Cert.ReferenceIdeal.S150x150) (φ := .f32) rWr1 rWr2)
    (shapeCast Cert.KernelIdeal.S1x150 (addf (F := Ideal) (s := Cert.ReferenceIdeal.S150) (φ := .f32) rB1 rB2) shapeCasts_S150_S1x150)
    e0.symm e1.symm e2.symm e3.symm e4.symm e5.symm e6.symm p q).trans ?_
  -- the bias row at (0, q) is the bias sum at q
  rw [shapeCast_a_1a_apply _ _ 0 q, ref6_at]
  -- under the maximum with zero the two sides are the two groupings of the combine law
  exact congrArg (fun z : EReal => max z 0) (combine_law
    (fun k : Fin 150 => (rAgg1 : Cert.ReferenceIdeal.S50000x150.Idx → EReal) (ix2 p k))
    (fun k : Fin 150 => (rWl1 : Cert.ReferenceIdeal.S150x150.Idx → EReal) (ix2 k q))
    (fun k : Fin 150 => (rAgg2 : Cert.ReferenceIdeal.S50000x150.Idx → EReal) (ix2 p k))
    (fun k : Fin 150 => (rWl2 : Cert.ReferenceIdeal.S150x150.Idx → EReal) (ix2 k q))
    (fun k : Fin 150 => (rDst : Cert.ReferenceIdeal.S50000x150.Idx → EReal) (ix2 p k))
    (fun k : Fin 150 => (rWr1 : Cert.ReferenceIdeal.S150x150.Idx → EReal) (ix2 k q))
    (fun k : Fin 150 => (rWr2 : Cert.ReferenceIdeal.S150x150.Idx → EReal) (ix2 k q))
    ((rB1 : Cert.ReferenceIdeal.S150.Idx → EReal) (ix1 q))
    ((rB2 : Cert.ReferenceIdeal.S150.Idx → EReal) (ix1 q))
    (fun k => hX (ix2 p k))
    (fun k => real6_wr1 _ h11 (ix2 k q))
    (fun k => real6_wr2 _ h11 (ix2 k q)))

end Cert.Bridge

end
-- ==== Proof.Carry7.lean ====
/- What the buffers read by the host operations before launch 7 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at7_main_arg25 (c : Dev nD) : W14 m ρ c (Proc.devRef .tc main_arg25) = m ((c : Thread nD τ).loc main_arg25) :=
  calc W14 m ρ c (Proc.devRef .tc main_arg25)
    _ = W13 m ρ c (Proc.devRef .tc main_arg25) := W14_of_ne m ρ c main_arg25 (by decide)
    _ = W12 m ρ c (Proc.devRef .tc main_arg25) := StableHlo.after_of_writes_sub hostOps6 _ hostOps6_writes (by decide)
    _ = W11 m ρ c (Proc.devRef .tc main_arg25) := W12_of_ne m ρ c main_arg25 (by decide)
    _ = W10 m ρ c (Proc.devRef .tc main_arg25) := StableHlo.after_of_writes_sub hostOps5 _ hostOps5_writes (by decide)
    _ = W9 m ρ c (Proc.devRef .tc main_arg25) := W10_of_ne m ρ c main_arg25 (by decide)
    _ = W8 m ρ c (Proc.devRef .tc main_arg25) := StableHlo.after_of_writes_sub hostOps4 _ hostOps4_writes (by decide)
    _ = W7 m ρ c (Proc.devRef .tc main_arg25) := W8_of_ne m ρ c main_arg25 (by decide)
    _ = W6 m ρ c (Proc.devRef .tc main_arg25) := StableHlo.after_of_writes_sub hostOps3 _ hostOps3_writes (by decide)
    _ = W5 m ρ c (Proc.devRef .tc main_arg25) := W6_of_ne m ρ c main_arg25 (by decide)
    _ = W4 m ρ c (Proc.devRef .tc main_arg25) := StableHlo.after_of_writes_sub hostOps2 _ hostOps2_writes (by decide)
    _ = W3 m ρ c (Proc.devRef .tc main_arg25) := W4_of_ne m ρ c main_arg25 (by decide)
    _ = W2 m ρ c (Proc.devRef .tc main_arg25) := StableHlo.after_of_writes_sub hostOps1 _ hostOps1_writes (by decide)
    _ = W1 m ρ c (Proc.devRef .tc main_arg25) := W2_of_ne m ρ c main_arg25 (by decide)
    _ = W0 m ρ c (Proc.devRef .tc main_arg25) := StableHlo.after_of_writes_sub hostOps0 _ hostOps0_writes (by decide)
    _ = m ((c : Thread nD τ).loc main_arg25) := rfl

set_option maxHeartbeats 4000000 in
theorem at7_main_v109 (c : Dev nD) : W14 m ρ c (Proc.devRef .tc main_v109) = W8 m ρ c (Proc.devRef .tc main_v109) :=
  calc W14 m ρ c (Proc.devRef .tc main_v109)
    _ = W13 m ρ c (Proc.devRef .tc main_v109) := (W14_arr m ρ c 4).trans (((dat6 (V13 m ρ) c).arrAt_in 4 rfl _).trans (A_eq6 (V13 m ρ) c 4))
    _ = W12 m ρ c (Proc.devRef .tc main_v109) := StableHlo.after_of_writes_sub hostOps6 _ hostOps6_writes (by decide)
    _ = W11 m ρ c (Proc.devRef .tc main_v109) := W12_of_ne m ρ c main_v109 (by decide)
    _ = W10 m ρ c (Proc.devRef .tc main_v109) := StableHlo.after_of_writes_sub hostOps5 _ hostOps5_writes (by decide)
    _ = W9 m ρ c (Proc.devRef .tc main_v109) := W10_of_ne m ρ c main_v109 (by decide)
    _ = W8 m ρ c (Proc.devRef .tc main_v109) := StableHlo.after_of_writes_sub hostOps4 _ hostOps4_writes (by decide)

set_option maxHeartbeats 4000000 in
theorem at7_main_v32 (c : Dev nD) : W14 m ρ c (Proc.devRef .tc main_v32) = W7 m ρ c (Proc.devRef .tc main_v32) :=
  calc W14 m ρ c (Proc.devRef .tc main_v32)
    _ = W13 m ρ c (Proc.devRef .tc main_v32) := W14_of_ne m ρ c main_v32 (by decide)
    _ = W12 m ρ c (Proc.devRef .tc main_v32) := StableHlo.after_of_writes_sub hostOps6 _ hostOps6_writes (by decide)
    _ = W11 m ρ c (Proc.devRef .tc main_v32) := W12_of_ne m ρ c main_v32 (by decide)
    _ = W10 m ρ c (Proc.devRef .tc main_v32) := StableHlo.after_of_writes_sub hostOps5 _ hostOps5_writes (by decide)
    _ = W9 m ρ c (Proc.devRef .tc main_v32) := W10_of_ne m ρ c main_v32 (by decide)
    _ = W8 m ρ c (Proc.devRef .tc main_v32) := StableHlo.after_of_writes_sub hostOps4 _ hostOps4_writes (by decide)
    _ = W7 m ρ c (Proc.devRef .tc main_v32) := W8_of_ne m ρ c main_v32 (by decide)

set_option maxHeartbeats 4000000 in
theorem at7_main_arg26 (c : Dev nD) : W14 m ρ c (Proc.devRef .tc main_arg26) = m ((c : Thread nD τ).loc main_arg26) :=
  calc W14 m ρ c (Proc.devRef .tc main_arg26)
    _ = W13 m ρ c (Proc.devRef .tc main_arg26) := W14_of_ne m ρ c main_arg26 (by decide)
    _ = W12 m ρ c (Proc.devRef .tc main_arg26) := StableHlo.after_of_writes_sub hostOps6 _ hostOps6_writes (by decide)
    _ = W11 m ρ c (Proc.devRef .tc main_arg26) := W12_of_ne m ρ c main_arg26 (by decide)
    _ = W10 m ρ c (Proc.devRef .tc main_arg26) := StableHlo.after_of_writes_sub hostOps5 _ hostOps5_writes (by decide)
    _ = W9 m ρ c (Proc.devRef .tc main_arg26) := W10_of_ne m ρ c main_arg26 (by decide)
    _ = W8 m ρ c (Proc.devRef .tc main_arg26) := StableHlo.after_of_writes_sub hostOps4 _ hostOps4_writes (by decide)
    _ = W7 m ρ c (Proc.devRef .tc main_arg26) := W8_of_ne m ρ c main_arg26 (by decide)
    _ = W6 m ρ c (Proc.devRef .tc main_arg26) := StableHlo.after_of_writes_sub hostOps3 _ hostOps3_writes (by decide)
    _ = W5 m ρ c (Proc.devRef .tc main_arg26) := W6_of_ne m ρ c main_arg26 (by decide)
    _ = W4 m ρ c (Proc.devRef .tc main_arg26) := StableHlo.after_of_writes_sub hostOps2 _ hostOps2_writes (by decide)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl

set_option maxHeartbeats 4000000 in
theorem at7_main_v209 (c : Dev nD) : W14 m ρ c (Proc.devRef .tc main_v209) = W12 m ρ c (Proc.devRef .tc main_v209) :=
  calc W14 m ρ c (Proc.devRef .tc main_v209)
    _ = W13 m ρ c (Proc.devRef .tc main_v209) := W14_of_ne m ρ c main_v209 (by decide)
    _ = W12 m ρ c (Proc.devRef .tc main_v209) := StableHlo.after_of_writes_sub hostOps6 _ hostOps6_writes (by decide)

set_option maxHeartbeats 4000000 in
theorem at7_main_v41 (c : Dev nD) : W14 m ρ c (Proc.devRef .tc main_v41) = W7 m ρ c (Proc.devRef .tc main_v41) :=
  calc W14 m ρ c (Proc.devRef .tc main_v41)
    _ = W13 m ρ c (Proc.devRef .tc main_v41) := W14_of_ne m ρ c main_v41 (by decide)
    _ = W12 m ρ c (Proc.devRef .tc main_v41) := StableHlo.after_of_writes_sub hostOps6 _ hostOps6_writes (by decide)
    _ = W11 m ρ c (Proc.devRef .tc main_v41) := W12_of_ne m ρ c main_v41 (by decide)
    _ = W10 m ρ c (Proc.devRef .tc main_v41) := StableHlo.after_of_writes_sub hostOps5 _ hostOps5_writes (by decide)
    _ = W9 m ρ c (Proc.devRef .tc main_v41) := W10_of_ne m ρ c main_v41 (by decide)
    _ = W8 m ρ c (Proc.devRef .tc main_v41) := StableHlo.after_of_writes_sub hostOps4 _ hostOps4_writes (by decide)
    _ = W7 m ρ c (Proc.devRef .tc main_v41) := W8_of_ne m ρ c main_v41 (by decide)

set_option maxHeartbeats 4000000 in
theorem at7_main_arg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

set_option maxHeartbeats 4000000 in
theorem at7_main_arg10 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

set_option maxHeartbeats 4000000 in
theorem at7_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

set_option maxHeartbeats 4000000 in
theorem at7_main_v159 (c : Dev nD) : W14 m ρ c (Proc.devRef .tc main_v159) = W10 m ρ c (Proc.devRef .tc main_v159) :=
  calc W14 m ρ c (Proc.devRef .tc main_v159)
    _ = W13 m ρ c (Proc.devRef .tc main_v159) := W14_of_ne m ρ c main_v159 (by decide)
    _ = W12 m ρ c (Proc.devRef .tc main_v159) := StableHlo.after_of_writes_sub hostOps6 _ hostOps6_writes (by decide)
    _ = W11 m ρ c (Proc.devRef .tc main_v159) := W12_of_ne m ρ c main_v159 (by decide)
    _ = W10 m ρ c (Proc.devRef .tc main_v159) := StableHlo.after_of_writes_sub hostOps5 _ hostOps5_writes (by decide)

end Cert.KernelIdeal.Carry

end
-- ==== Proof.RegionValue7.lean ====
/- Region 7 (a SAGE layer with its relu): the output array after the region, entry by entry, as a function of the operand
   arrays the region finds. Each grid point t computes rows 2000 t … 2000 t + 1999 of the layer from the same rows of
   the three row operands and the whole weights and bias; the 1 blocks tile the 2000 rows, so the array ends holding
   the layer's value at every entry. -/
import proofs.«138545_j63058709840619_2_alg».proof.Proof.FrameKIR7
import proofs.«138545_j63058709840619_2_alg».proof.Proof.SageBody
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.SageBody
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The operand arrays as the region finds them, at their literal types -/

abbrev in7_a1 (c : Dev nD) : Vec Ideal S2000x150 .f32 := V c main_v276
abbrev in7_w1 (c : Dev nD) : Vec Ideal S150x150 .f32 := V c main_v305
abbrev in7_a2 (c : Dev nD) : Vec Ideal S2000x150 .f32 := V c main_v293
abbrev in7_w2 (c : Dev nD) : Vec Ideal S150x150 .f32 := V c main_v307
abbrev in7_xd (c : Dev nD) : Vec Ideal S2000x150 .bf16 := V c main_v159
abbrev in7_wr (c : Dev nD) : Vec Ideal S150x150 .f32 := V c main_v298
abbrev in7_b (c : Dev nD) : Vec Ideal S1x150 .f32 := V c main_v308

/-! ## The block indices over the grid -/

/-- The printed index maps, decided over the grid: the row operands and the output take block row t at point t, the
    weights and the bias their one block. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-! ## The input blocks as parts of their arrays -/

/-- Window 0's block at point t is rows 2000 t … 2000 t + 1999 of its array. -/
theorem blk7_0 (c : Dev nD) (t : Fin cfg7.N) (x : S2000x150.Idx) (i : S2000x150.Idx)
    (h0 : (i 0).val = t.val * 2000 + (x 0).val) (h1 : (i 1).val = (x 1).val) :
    (iblk7 V c 0 t : Vec Ideal S2000x150 .f32) x = in7_a1 V c i := by
  obtain ⟨e00, e01, e10, e11, e20, e21, e30, e31, e40, e41, e50, e51, e60, e61, e70, e71⟩ := idx7 t
  show V c main_v276 (((cfg7.win 0).blk t).view.emb x) = V c main_v276 i
  refine congrArg (V c main_v276) (funext fun a => Fin.ext ?_)
  match a with
  | ⟨0, _⟩ => show win7_0.index t (0 : Fin 2) * 2000 + 1 * (x 0).val = (i 0).val; rw [e00, h0]; omega
  | ⟨1, _⟩ => show win7_0.index t (1 : Fin 2) * 150 + 1 * (x 1).val = (i 1).val; rw [e01, h1]; omega

/-- Window 1's block is its whole array at every point. -/
theorem blk7_1 (c : Dev nD) (t : Fin cfg7.N) : (iblk7 V c 1 t : Vec Ideal S150x150 .f32) = in7_w1 V c := by
  obtain ⟨e00, e01, e10, e11, e20, e21, e30, e31, e40, e41, e50, e51, e60, e61, e70, e71⟩ := idx7 t
  funext x
  show V c main_v305 (((cfg7.win 1).blk t).view.emb x) = V c main_v305 x
  refine congrArg (V c main_v305) (funext fun a => Fin.ext ?_)
  match a with
  | ⟨0, _⟩ => show win7_1.index t (0 : Fin 2) * 150 + 1 * (x 0).val = (x 0).val; rw [e10]; omega
  | ⟨1, _⟩ => show win7_1.index t (1 : Fin 2) * 150 + 1 * (x 1).val = (x 1).val; rw [e11]; omega

/-- Window 2's block at point t is rows 2000 t … 2000 t + 1999 of its array. -/
theorem blk7_2 (c : Dev nD) (t : Fin cfg7.N) (x : S2000x150.Idx) (i : S2000x150.Idx)
    (h0 : (i 0).val = t.val * 2000 + (x 0).val) (h1 : (i 1).val = (x 1).val) :
    (iblk7 V c 2 t : Vec Ideal S2000x150 .f32) x = in7_a2 V c i := by
  obtain ⟨e00, e01, e10, e11, e20, e21, e30, e31, e40, e41, e50, e51, e60, e61, e70, e71⟩ := idx7 t
  show V c main_v293 (((cfg7.win 2).blk t).view.emb x) = V c main_v293 i
  refine congrArg (V c main_v293) (funext fun a => Fin.ext ?_)
  match a with
  | ⟨0, _⟩ => show win7_2.index t (0 : Fin 2) * 2000 + 1 * (x 0).val = (i 0).val; rw [e20, h0]; omega
  | ⟨1, _⟩ => show win7_2.index t (1 : Fin 2) * 150 + 1 * (x 1).val = (i 1).val; rw [e21, h1]; omega

/-- Window 3's block is its whole array at every point. -/
theorem blk7_3 (c : Dev nD) (t : Fin cfg7.N) : (iblk7 V c 3 t : Vec Ideal S150x150 .f32) = in7_w2 V c := by
  obtain ⟨e00, e01, e10, e11, e20, e21, e30, e31, e40, e41, e50, e51, e60, e61, e70, e71⟩ := idx7 t
  funext x
  show V c main_v307 (((cfg7.win 3).blk t).view.emb x) = V c main_v307 x
  refine congrArg (V c main_v307) (funext fun a => Fin.ext ?_)
  match a with
  | ⟨0, _⟩ => show win7_3.index t (0 : Fin 2) * 150 + 1 * (x 0).val = (x 0).val; rw [e30]; omega
  | ⟨1, _⟩ => show win7_3.index t (1 : Fin 2) * 150 + 1 * (x 1).val = (x 1).val; rw [e31]; omega

/-- Window 4's block at point t is rows 2000 t … 2000 t + 1999 of its array. -/
theorem blk7_4 (c : Dev nD) (t : Fin cfg7.N) (x : S2000x150.Idx) (i : S2000x150.Idx)
    (h0 : (i 0).val = t.val * 2000 + (x 0).val) (h1 : (i 1).val = (x 1).val) :
    (iblk7 V c 4 t : Vec Ideal S2000x150 .bf16) x = in7_xd V c i := by
  obtain ⟨e00, e01, e10, e11, e20, e21, e30, e31, e40, e41, e50, e51, e60, e61, e70, e71⟩ := idx7 t
  show V c main_v159 (((cfg7.win 4).blk t).view.emb x) = V c main_v159 i
  refine congrArg (V c main_v159) (funext fun a => Fin.ext ?_)
  match a with
  | ⟨0, _⟩ => show win7_4.index t (0 : Fin 2) * 2000 + 1 * (x 0).val = (i 0).val; rw [e40, h0]; omega
  | ⟨1, _⟩ => show win7_4.index t (1 : Fin 2) * 150 + 1 * (x 1).val = (i 1).val; rw [e41, h1]; omega

/-- Window 5's block is its whole array at every point. -/
theorem blk7_5 (c : Dev nD) (t : Fin cfg7.N) : (iblk7 V c 5 t : Vec Ideal S150x150 .f32) = in7_wr V c := by
  obtain ⟨e00, e01, e10, e11, e20, e21, e30, e31, e40, e41, e50, e51, e60, e61, e70, e71⟩ := idx7 t
  funext x
  show V c main_v298 (((cfg7.win 5).blk t).view.emb x) = V c main_v298 x
  refine congrArg (V c main_v298) (funext fun a => Fin.ext ?_)
  match a with
  | ⟨0, _⟩ => show win7_5.index t (0 : Fin 2) * 150 + 1 * (x 0).val = (x 0).val; rw [e50]; omega
  | ⟨1, _⟩ => show win7_5.index t (1 : Fin 2) * 150 + 1 * (x 1).val = (x 1).val; rw [e51]; omega

/-- Window 6's block is its whole array at every point. -/
theorem blk7_6 (c : Dev nD) (t : Fin cfg7.N) : (iblk7 V c 6 t : Vec Ideal S1x150 .f32) = in7_b V c := by
  obtain ⟨e00, e01, e10, e11, e20, e21, e30, e31, e40, e41, e50, e51, e60, e61, e70, e71⟩ := idx7 t
  funext x
  show V c main_v308 (((cfg7.win 6).blk t).view.emb x) = V c main_v308 x
  refine congrArg (V c main_v308) (funext fun a => Fin.ext ?_)
  match a with
  | ⟨0, _⟩ => show win7_6.index t (0 : Fin 2) * 1 + 1 * (x 0).val = (x 0).val; rw [e60]; omega
  | ⟨1, _⟩ => show win7_6.index t (1 : Fin 2) * 150 + 1 * (x 1).val = (x 1).val; rw [e61]; omega

/-! ## The block a point writes back -/

/-- What the body leaves in the output window's buffer, at an entry: the layer's value on the input blocks. -/
theorem out7_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (y : S2000x150.Idx) :
    out7_7 (F := Ideal) x0 x1 x2 x3 x4 x5 x6 y = max (layer (n := 2000) x0 x1 x2 x3 x4 x5 x6 (y 0) (y 1)) 0 := by
  obtain ⟨p, q, rfl⟩ : ∃ (p : Fin 2000) (q : Fin 150), y = ix2 p q := ⟨y 0, y 1, eq_ix2 y⟩
  unfold out7_7
  rw [View.canon_unit_zero hz]
  simp only [View.ld_unit_zero (S := S2000x150) hz, View.ld_unit_zero (S := S150x150) hz, View.ld_unit_zero (S := S1x150) hz]
  exact k7_pay1_at x0 x1 x2 x3 x4 x5 x6 p q

/-- The layer on the whole arrays, entry by entry: what the output array ends holding. -/
abbrev G7 (c : Dev nD) : S2000x150.Idx → EReal := fun i =>
  max (layer (n := 2000) (in7_a1 V c) (in7_w1 V c) (in7_a2 V c) (in7_w2 V c) (in7_xd V c) (in7_wr V c) (in7_b V c) (i 0) (i 1)) 0

/-- WHAT POINT t WRITES BACK is block t of the layer on the whole arrays. -/
theorem flushed7 (c : Dev nD) (t : Fin cfg7.N) :
    (dat7 (F := Ideal) V c).flushed 7 t = ((cfg7.win 7).blk t).view.read (Elt Ideal) (G7 V c) := by
  show (cfg7.win 7).cut (grid7.coords t) ((dat7 (F := Ideal) V c).after 7 t) = _
  rw [after7_7]
  obtain ⟨e00, e01, e10, e11, e20, e21, e30, e31, e40, e41, e50, e51, e60, e61, e70, e71⟩ := idx7 t
  funext j
  have hj0 : (j 0).val < 2000 := (j 0).isLt
  have hj1 : (j 1).val < 150 := (j 1).isLt
  refine (out7_at (iblk7 V c 0 t) (iblk7 V c 1 t) (iblk7 V c 2 t) (iblk7 V c 3 t) (iblk7 V c 4 t) (iblk7 V c 5 t) (iblk7 V c 6 t) ((cfg7.win 7).xinj (grid7.coords t) j)).trans ?_
  show max (layer (n := 2000) (iblk7 V c 0 t) (iblk7 V c 1 t) (iblk7 V c 2 t) (iblk7 V c 3 t) (iblk7 V c 4 t) (iblk7 V c 5 t) (iblk7 V c 6 t) ((cfg7.win 7).xinj (grid7.coords t) j 0) ((cfg7.win 7).xinj (grid7.coords t) j 1)) 0
    = max (layer (n := 2000) (in7_a1 V c) (in7_w1 V c) (in7_a2 V c) (in7_w2 V c) (in7_xd V c) (in7_wr V c) (in7_b V c) ((((cfg7.win 7).blk t).view.emb j) 0) ((((cfg7.win 7).blk t).view.emb j) 1)) 0
  have hr : (((cfg7.win 7).blk t).view.emb j 0).val = t.val * 2000 + (j 0).val := by
    show win7_7.index t (0 : Fin 2) * 2000 + 1 * (j 0).val = _; rw [e70]; omega
  have hc : (((cfg7.win 7).blk t).view.emb j 1).val = (j 1).val := by
    show win7_7.index t (1 : Fin 2) * 150 + 1 * (j 1).val = _; rw [e71]; omega
  exact congrArg (max · 0) (layer_congr (n := 2000) (m := 2000)
    (iblk7 V c 0 t) (iblk7 V c 2 t) (iblk7 V c 4 t) (in7_a1 V c) (in7_a2 V c) (in7_xd V c)
    (iblk7 V c 1 t) (iblk7 V c 3 t) (iblk7 V c 5 t) (in7_w1 V c) (in7_w2 V c) (in7_wr V c) (iblk7 V c 6 t) (in7_b V c)
    ((cfg7.win 7).xinj (grid7.coords t) j 0) (((cfg7.win 7).blk t).view.emb j 0)
    ((cfg7.win 7).xinj (grid7.coords t) j 1) (((cfg7.win 7).blk t).view.emb j 1)
    (fun k => blk7_0 V c t _ _ hr rfl) (fun k => blk7_2 V c t _ _ hr rfl) (fun k => blk7_4 V c t _ _ hr rfl)
    (blk7_1 V c t) (blk7_3 V c t) (blk7_5 V c t) (blk7_6 V c t) (Fin.ext hc.symm))

/-! ## The blocks tile the array -/

/-- An index of the array is in point t's block iff each coordinate is in the block's range on its axis. -/
theorem mem_blk7 (t : Fin cfg7.N) (i : S2000x150.Idx) :
    i ∈ ((cfg7.win 7).blk t).view.set ↔ ∀ a : Fin 2, win7_7.index t a * S2000x150.size a ≤ (i a).val ∧ (i a).val < win7_7.index t a * S2000x150.size a + S2000x150.size a := by
  show i ∈ ((View.whole main_v309).slice (win7_7.rect t)).set ↔ _
  rw [View.set_slice_whole, Rect.mem_set_unit]
  exact Iff.rfl

/-- Every entry of the array is in the block of the point its row falls to. -/
theorem cover7 (i : S2000x150.Idx) : ∃ t : Fin cfg7.N, (cfg7.win 7).flush t = true ∧ i ∈ ((cfg7.win 7).blk t).view.set := by
  have hi0 : (i 0).val < 2000 := (i 0).isLt
  have hi1 : (i 1).val < 150 := (i 1).isLt
  obtain ⟨t, ht⟩ : ∃ t : Fin cfg7.N, t.val = (i 0).val / 2000 :=
    ⟨⟨(i 0).val / 2000, Nat.lt_of_lt_of_eq (by omega : (i 0).val / 2000 < 1) N_7.symm⟩, rfl⟩
  obtain ⟨e00, e01, e10, e11, e20, e21, e30, e31, e40, e41, e50, e51, e60, e61, e70, e71⟩ := idx7 t
  refine ⟨t, flush7_7 t, ?_⟩
  rw [mem_blk7]
  intro a
  match a with
  | ⟨0, _⟩ => show win7_7.index t (0 : Fin 2) * 2000 ≤ (i 0).val ∧ (i 0).val < win7_7.index t (0 : Fin 2) * 2000 + 2000; rw [e70, ht]; omega
  | ⟨1, _⟩ => show win7_7.index t (1 : Fin 2) * 150 ≤ (i 1).val ∧ (i 1).val < win7_7.index t (1 : Fin 2) * 150 + 150; rw [e71]; omega

/-! ## The array after the region -/

/-- THE OUTPUT ARRAY after region 7, at entry (p, q): the layer's value on the operand arrays as the region finds them. -/
theorem region7 (c : Dev nD) (p : Fin 2000) (q : Fin 150) :
    (dat7 (F := Ideal) V c).arrAt 7 cfg7.N (ix2 p q)
      = max ((((∑ k : Fin 150, in7_a1 V c (ix2 p k) * in7_w1 V c (ix2 k q)) + (∑ k : Fin 150, in7_a2 V c (ix2 p k) * in7_w2 V c (ix2 k q))) + (∑ k : Fin 150, in7_xd V c (ix2 p k) * in7_wr V c (ix2 k q))) + in7_b V c (ix2 0 q)) 0 :=
  congrFun ((dat7 (F := Ideal) V c).arrAt_eq_of_cover 7 (G7 V c) (fun t _ => flushed7 V c t) cover7) (ix2 p q)

/-- The same over any arrays equal to the operand arrays: the form to instantiate. -/
theorem region7_at (c : Dev nD) (A1 : Vec Ideal S2000x150 .f32) (W1 : Vec Ideal S150x150 .f32) (A2 : Vec Ideal S2000x150 .f32) (W2 : Vec Ideal S150x150 .f32)
    (XD : Vec Ideal S2000x150 .bf16) (WR : Vec Ideal S150x150 .f32) (B : Vec Ideal S1x150 .f32)
    (hA1 : A1 = V c main_v276) (hW1 : W1 = V c main_v305) (hA2 : A2 = V c main_v293) (hW2 : W2 = V c main_v307)
    (hXD : XD = V c main_v159) (hWR : WR = V c main_v298) (hB : B = V c main_v308) (p : Fin 2000) (q : Fin 150) :
    (dat7 (F := Ideal) V c).arrAt 7 cfg7.N (ix2 p q)
      = max ((((∑ k : Fin 150, A1 (ix2 p k) * W1 (ix2 k q)) + (∑ k : Fin 150, A2 (ix2 p k) * W2 (ix2 k q))) + (∑ k : Fin 150, XD (ix2 p k) * WR (ix2 k q))) + B (ix2 0 q)) 0 := by
  subst hA1 hW1 hA2 hW2 hXD hWR hB
  exact region7 V c p q

end Cert.KernelIdeal.RegionValue

end
-- ==== Proof.Step7.lean ====
/-
  Launch 7 (a two-branch mean-aggregation layer with a rectifier): at the exit of the launch the kernel's output array
  is, entry by entry, the reference's feature of the layer's destination node type.

  One entry (p, q). The kernel adds the two aggregated products, then the destination row against the SUM of the two
  root matrices, then the SUM of the two biases, and takes the maximum with zero:
      max (((Σk A1[p,k] W1[k,q] + Σk A2[p,k] W2[k,q]) + Σk X[p,k] (R1 + R2)[k,q]) + (b1 + b2)[q]) 0.
  The reference computes each branch by itself, adds the branches, and takes the maximum with zero:
      max (((Σk A1[p,k] W1[k,q] + b1[q]) + Σk X[p,k] R1[k,q]) + ((Σk A2[p,k] W2[k,q] + b2[q]) + Σk X[p,k] R2[k,q])) 0.
  The two agree when the destination row X[p,·] and the root matrices R1, R2 are real (a product distributes over a
  sum of extended reals only away from the infinities): the combine law of the algebra module.

  The operands. A1 and A2 are mean aggregations: a source feature gathered along the edges, summed into the
  destination rows, and divided by the in-degree (at least one). The kernel's program and the reference apply the SAME
  host operations to the same source features and the same edge lists, so the two aggregations are one term; the only
  difference is that the kernel gathers rows kept in the narrow float format and widens them, which is the identity at
  the ideal values. The in-degree columns are computed once, before the first aggregation layer, and reach this launch
  unchanged. W1, W2, R1, R2, b1, b2 are slices of the stacked weight, root and bias arguments; the kernel adds the two
  root slices and the two bias slices before the launch, and keeps the bias sum as a [1 × 150] row.
-/
import proofs.«138545_j63058709840619_2_alg».proof.Proof.FrameKIW
import proofs.«138545_j63058709840619_2_alg».proof.Proof.Carry3
import proofs.«138545_j63058709840619_2_alg».proof.Proof.Carry7
import proofs.«138545_j63058709840619_2_alg».proof.Proof.RegionValue7
import proofs.«138545_j63058709840619_2_alg».proof.Proof.RefRead
import proofs.«138545_j63058709840619_2_alg».proof.Proof.Algebra
import proofs.«138545_j63058709840619_2_alg».proof.Proof.OpsFinite
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal
import Idealize.ShloMosaic.PureOps.Ideal.Laws

set_option maxRecDepth 16384
set_option quotPrecheck false

noncomputable section

open scoped BigOperators

namespace Cert.Bridge

open Cert.KernelIdeal Cert.KernelIdeal.Gen Cert.Algebra
open Idealize.ShloMosaic Idealize.ShloMosaic.TcCoe Idealize.ShloMosaic.ValueIdx Idealize.ShloMosaic.StableHlo
open Idealize.SL Idealize.SL.Sem

/-! ## The reference side, at one entry -/

/-- The reference's feature at entry (p, q): per branch, the aggregated row against the weight's column, plus the
    bias at `q`, plus the destination row against the root's column; the two branches added; the maximum with zero. -/
theorem ref7_at
    (x0 : (⟨Cert.ReferenceIdeal.S50000x768, .f32⟩ : BufTy).Contents (Elt Ideal))
    (x1 : (⟨Cert.ReferenceIdeal.S2000x768, .f32⟩ : BufTy).Contents (Elt Ideal))
    (x2 : (⟨Cert.ReferenceIdeal.S20000x1024, .f32⟩ : BufTy).Contents (Elt Ideal))
    (x3 : (⟨Cert.ReferenceIdeal.S768x150, .f32⟩ : BufTy).Contents (Elt Ideal))
    (x4 : (⟨Cert.ReferenceIdeal.S150, .f32⟩ : BufTy).Contents (Elt Ideal))
    (x5 : (⟨Cert.ReferenceIdeal.S768x150, .f32⟩ : BufTy).Contents (Elt Ideal))
    (x6 : (⟨Cert.ReferenceIdeal.S150, .f32⟩ : BufTy).Contents (Elt Ideal))
    (x7 : (⟨Cert.ReferenceIdeal.S1024x150, .f32⟩ : BufTy).Contents (Elt Ideal))
    (x8 : (⟨Cert.ReferenceIdeal.S150, .f32⟩ : BufTy).Contents (Elt Ideal))
    (x9 : (⟨Cert.ReferenceIdeal.S3x6x150x150, .f32⟩ : BufTy).Contents (Elt Ideal))
    (x10 : (⟨Cert.ReferenceIdeal.S3x6x150, .f32⟩ : BufTy).Contents (Elt Ideal))
    (x11 : (⟨Cert.ReferenceIdeal.S3x6x150x150, .f32⟩ : BufTy).Contents (Elt Ideal))
    (x24 : (⟨Cert.ReferenceIdeal.S2x500000, .i32⟩ : BufTy).Contents (Elt Ideal))
    (x25 x26 : (⟨Cert.ReferenceIdeal.S2x200000, .i32⟩ : BufTy).Contents (Elt Ideal)) (p : Fin 2000) (q : Fin 150) :
    Cert.ReferenceIdeal.Read.val_main_v442 (F := Ideal) x0 x1 x2 x3 x4 x5 x6 x7 x8 x9 x10 x11 x24 x25 x26 (ix2 p q)
      = max ((((∑ k : Fin 150, Cert.ReferenceIdeal.Read.val_main_v321 (F := Ideal) x0 x1 x2 x3 x4 x5 x6 x7 x8 x9 x10 x11 x24 x25 (ix2 p k) * Cert.ReferenceIdeal.Read.val_main_v323 (F := Ideal) x9 (ix2 k q))
              + Cert.ReferenceIdeal.Read.val_main_v326 (F := Ideal) x10 (ix1 q))
            + ∑ k : Fin 150, Cert.ReferenceIdeal.Read.val_main_v226 (F := Ideal) x0 x1 x2 x3 x4 x5 x6 x7 x8 x9 x10 x11 x25 x26 (ix2 p k) * Cert.ReferenceIdeal.Read.val_main_v331 (F := Ideal) x11 (ix2 k q))
          + (((∑ k : Fin 150, Cert.ReferenceIdeal.Read.val_main_v356 (F := Ideal) x0 x1 x2 x3 x4 x5 x6 x7 x8 x9 x10 x11 x24 x26 (ix2 p k) * Cert.ReferenceIdeal.Read.val_main_v358 (F := Ideal) x9 (ix2 k q))
              + Cert.ReferenceIdeal.Read.val_main_v361 (F := Ideal) x10 (ix1 q))
            + ∑ k : Fin 150, Cert.ReferenceIdeal.Read.val_main_v226 (F := Ideal) x0 x1 x2 x3 x4 x5 x6 x7 x8 x9 x10 x11 x25 x26 (ix2 p k) * Cert.ReferenceIdeal.Read.val_main_v366 (F := Ideal) x11 (ix2 k q))) 0 := by
  rw [Cert.ReferenceIdeal.Read.val_main_v442_apply, Cert.ReferenceIdeal.Read.val_main_call4_v0_apply, Cert.ReferenceIdeal.Read.val_main_call4_cst_apply,
    Cert.ReferenceIdeal.Read.val_main_v369_apply, Cert.ReferenceIdeal.Read.val_main_v333_apply, Cert.ReferenceIdeal.Read.val_main_v329_apply,
    Cert.ReferenceIdeal.Read.val_main_v324_apply, Cert.ReferenceIdeal.Read.val_main_v328_apply, Cert.ReferenceIdeal.Read.val_main_v327_apply,
    Cert.ReferenceIdeal.Read.val_main_v332_apply, Cert.ReferenceIdeal.Read.val_main_v368_apply, Cert.ReferenceIdeal.Read.val_main_v364_apply,
    Cert.ReferenceIdeal.Read.val_main_v359_apply, Cert.ReferenceIdeal.Read.val_main_v363_apply, Cert.ReferenceIdeal.Read.val_main_v362_apply,
    Cert.ReferenceIdeal.Read.val_main_v367_apply]
  simp only [Ideal.addf_def, Ideal.maximumf_def, Ideal.ofBits_def, Ideal.ofBits_zero_f32]
  -- the indices the reads name are the coordinates written out
  have hl1 : ∀ k : Fin 150, Cert.ReferenceIdeal.Read.lidx_main_v324 (ix2 p q) k = ix2 p k := fun k =>
    funext fun a => Fin.ext (by match a with | ⟨0, _⟩ => rfl | ⟨1, _⟩ => rfl)
  have hr1 : ∀ k : Fin 150, Cert.ReferenceIdeal.Read.ridx_main_v324 (ix2 p q) k = ix2 k q := fun k =>
    funext fun a => Fin.ext (by match a with | ⟨0, _⟩ => rfl | ⟨1, _⟩ => rfl)
  have hl2 : ∀ k : Fin 150, Cert.ReferenceIdeal.Read.lidx_main_v332 (ix2 p q) k = ix2 p k := fun k =>
    funext fun a => Fin.ext (by match a with | ⟨0, _⟩ => rfl | ⟨1, _⟩ => rfl)
  have hr2 : ∀ k : Fin 150, Cert.ReferenceIdeal.Read.ridx_main_v332 (ix2 p q) k = ix2 k q := fun k =>
    funext fun a => Fin.ext (by match a with | ⟨0, _⟩ => rfl | ⟨1, _⟩ => rfl)
  have hl3 : ∀ k : Fin 150, Cert.ReferenceIdeal.Read.lidx_main_v359 (ix2 p q) k = ix2 p k := fun k =>
    funext fun a => Fin.ext (by match a with | ⟨0, _⟩ => rfl | ⟨1, _⟩ => rfl)
  have hr3 : ∀ k : Fin 150, Cert.ReferenceIdeal.Read.ridx_main_v359 (ix2 p q) k = ix2 k q := fun k =>
    funext fun a => Fin.ext (by match a with | ⟨0, _⟩ => rfl | ⟨1, _⟩ => rfl)
  have hl4 : ∀ k : Fin 150, Cert.ReferenceIdeal.Read.lidx_main_v367 (ix2 p q) k = ix2 p k := fun k =>
    funext fun a => Fin.ext (by match a with | ⟨0, _⟩ => rfl | ⟨1, _⟩ => rfl)
  have hr4 : ∀ k : Fin 150, Cert.ReferenceIdeal.Read.ridx_main_v367 (ix2 p q) k = ix2 k q := fun k =>
    funext fun a => Fin.ext (by match a with | ⟨0, _⟩ => rfl | ⟨1, _⟩ => rfl)
  have hb1 : Cert.ReferenceIdeal.Read.idx_main_v327 (Cert.ReferenceIdeal.Read.idx_main_v328 (ix2 p q)) = ix1 q :=
    funext fun a => Fin.ext (by match a with | ⟨0, _⟩ => rfl)
  have hb2 : Cert.ReferenceIdeal.Read.idx_main_v362 (Cert.ReferenceIdeal.Read.idx_main_v363 (ix2 p q)) = ix1 q :=
    funext fun a => Fin.ext (by match a with | ⟨0, _⟩ => rfl)
  simp only [hl1, hr1, hl2, hr2, hl3, hr3, hl4, hr4, hb1, hb2]

/-- A root slice of a real stacked root argument is real: its entries are entries of the argument. -/
theorem real7_wr1 (x11 : (⟨Cert.ReferenceIdeal.S3x6x150x150, .f32⟩ : BufTy).Contents (Elt Ideal)) (h : AllReal x11) :
    AllReal (Cert.ReferenceIdeal.Read.val_main_v331 (F := Ideal) x11) := by
  unfold Cert.ReferenceIdeal.Read.val_main_v331 Cert.ReferenceIdeal.Read.val_main_v330
  exact Cert.OpsFinite.allReal_shapeCast (Cert.OpsFinite.allReal_extractStridedSlice h)
theorem real7_wr2 (x11 : (⟨Cert.ReferenceIdeal.S3x6x150x150, .f32⟩ : BufTy).Contents (Elt Ideal)) (h : AllReal x11) :
    AllReal (Cert.ReferenceIdeal.Read.val_main_v366 (F := Ideal) x11) := by
  unfold Cert.ReferenceIdeal.Read.val_main_v366 Cert.ReferenceIdeal.Read.val_main_v365
  exact Cert.OpsFinite.allReal_shapeCast (Cert.OpsFinite.allReal_extractStridedSlice h)

/-! ## The host operations before the launch, over any buffer contents

Each lemma takes the contents `V0` of the buffers before a stretch of host operations and what `V0` holds at the
buffers the stretch reads, and gives what one buffer holds after the stretch as the reference's term. -/

/-- At the ideal values widening the narrow float format is the identity. -/
theorem extf7_id {s : Shape} (x : FVec Ideal s .bf16) (h : FTy.bits .bf16 < FTy.bits .f32) :
    (extf (F := Ideal) .f32 x h : s.Idx → EReal) = x := rfl

section Stretch

variable (V0 : Valuation τ sig (Elt Ideal))
variable {x0 : (⟨Cert.ReferenceIdeal.S50000x768, .f32⟩ : BufTy).Contents (Elt Ideal)}
variable {x1 : (⟨Cert.ReferenceIdeal.S2000x768, .f32⟩ : BufTy).Contents (Elt Ideal)}
variable {x2 : (⟨Cert.ReferenceIdeal.S20000x1024, .f32⟩ : BufTy).Contents (Elt Ideal)}
variable {x3 : (⟨Cert.ReferenceIdeal.S768x150, .f32⟩ : BufTy).Contents (Elt Ideal)}
variable {x4 : (⟨Cert.ReferenceIdeal.S150, .f32⟩ : BufTy).Contents (Elt Ideal)}
variable {x5 : (⟨Cert.ReferenceIdeal.S768x150, .f32⟩ : BufTy).Contents (Elt Ideal)}
variable {x6 : (⟨Cert.ReferenceIdeal.S150, .f32⟩ : BufTy).Contents (Elt Ideal)}
variable {x7 : (⟨Cert.ReferenceIdeal.S1024x150, .f32⟩ : BufTy).Contents (Elt Ideal)}
variable {x8 : (⟨Cert.ReferenceIdeal.S150, .f32⟩ : BufTy).Contents (Elt Ideal)}
variable {x9 : (⟨Cert.ReferenceIdeal.S3x6x150x150, .f32⟩ : BufTy).Contents (Elt Ideal)}
variable {x10 : (⟨Cert.ReferenceIdeal.S3x6x150, .f32⟩ : BufTy).Contents (Elt Ideal)}
variable {x11 : (⟨Cert.ReferenceIdeal.S3x6x150x150, .f32⟩ : BufTy).Contents (Elt Ideal)}
variable {x24 : (⟨Cert.ReferenceIdeal.S2x500000, .i32⟩ : BufTy).Contents (Elt Ideal)}
variable {x25 x26 : (⟨Cert.ReferenceIdeal.S2x200000, .i32⟩ : BufTy).Contents (Elt Ideal)}

/-- The first branch's in-degree column, computed before the first aggregation layer from the destination row of the
    branch's edge list, is the reference's: the same operations on the same edge list. -/
theorem cnt7_a (hE1 : V0 (Proc.devRef .tc main_arg25) = x25) :
    (StableHlo.after hostOps3 V0 (Proc.devRef .tc main_v32) : Cert.ReferenceIdeal.S2000x1.Idx → EReal)
      = Cert.ReferenceIdeal.Read.val_main_v319 (F := Ideal) x25 := by
  after_results_simp
  rw [hE1]
  unfold Cert.ReferenceIdeal.Read.val_main_v319 Cert.ReferenceIdeal.Read.val_main_v318 Cert.ReferenceIdeal.Read.val_main_v316 Cert.ReferenceIdeal.Read.val_main_v314 Cert.ReferenceIdeal.Read.val_main_cst_50 Cert.ReferenceIdeal.Read.val_main_v315 Cert.ReferenceIdeal.Read.val_main_v302 Cert.ReferenceIdeal.Read.val_main_v301 Cert.ReferenceIdeal.Read.val_main_v313 Cert.ReferenceIdeal.Read.val_main_cst_49 Cert.ReferenceIdeal.Read.val_main_v317 Cert.ReferenceIdeal.Read.val_main_cst_51
  rfl

/-- The second branch's in-degree column. -/
theorem cnt7_b (hE2 : V0 (Proc.devRef .tc main_arg26) = x26) :
    (StableHlo.after hostOps3 V0 (Proc.devRef .tc main_v41) : Cert.ReferenceIdeal.S2000x1.Idx → EReal)
      = Cert.ReferenceIdeal.Read.val_main_v354 (F := Ideal) x26 := by
  after_results_simp
  rw [hE2]
  unfold Cert.ReferenceIdeal.Read.val_main_v354 Cert.ReferenceIdeal.Read.val_main_v353 Cert.ReferenceIdeal.Read.val_main_v351 Cert.ReferenceIdeal.Read.val_main_v349 Cert.ReferenceIdeal.Read.val_main_cst_56 Cert.ReferenceIdeal.Read.val_main_v350 Cert.ReferenceIdeal.Read.val_main_v337 Cert.ReferenceIdeal.Read.val_main_v336 Cert.ReferenceIdeal.Read.val_main_v348 Cert.ReferenceIdeal.Read.val_main_cst_55 Cert.ReferenceIdeal.Read.val_main_v352 Cert.ReferenceIdeal.Read.val_main_cst_57
  rfl

/-- Window 0: the first branch's mean aggregation, from the branch's edge list, its source feature and its in-degree
    column. -/
theorem op7_0 (hE1 : V0 (Proc.devRef .tc main_arg25) = x25)
    (hS1 : (V0 (Proc.devRef .tc main_v109) : Cert.ReferenceIdeal.S50000x150.Idx → EReal) = Cert.ReferenceIdeal.Read.val_main_v225 (F := Ideal) x0 x1 x2 x3 x4 x5 x6 x7 x8 x9 x10 x11 x24 x25)
    (hC1 : (V0 (Proc.devRef .tc main_v32) : Cert.ReferenceIdeal.S2000x1.Idx → EReal) = Cert.ReferenceIdeal.Read.val_main_v319 (F := Ideal) x25) :
    (StableHlo.after hostOps7 V0 (Proc.devRef .tc main_v276) : Cert.ReferenceIdeal.S2000x150.Idx → EReal)
      = Cert.ReferenceIdeal.Read.val_main_v321 (F := Ideal) x0 x1 x2 x3 x4 x5 x6 x7 x8 x9 x10 x11 x24 x25 := by
  after_results_simp
  rw [hE1, hS1, hC1, extf7_id]
  unfold Cert.ReferenceIdeal.Read.val_main_v321 Cert.ReferenceIdeal.Read.val_main_v312 Cert.ReferenceIdeal.Read.val_main_v310 Cert.ReferenceIdeal.Read.val_main_cst_48 Cert.ReferenceIdeal.Read.val_main_v311 Cert.ReferenceIdeal.Read.val_main_v302 Cert.ReferenceIdeal.Read.val_main_v301 Cert.ReferenceIdeal.Read.val_main_v309 Cert.ReferenceIdeal.Read.val_main_v308 Cert.ReferenceIdeal.Read.val_main_v307 Cert.ReferenceIdeal.Read.val_main_v304 Cert.ReferenceIdeal.Read.val_main_v300 Cert.ReferenceIdeal.Read.val_main_v299 Cert.ReferenceIdeal.Read.val_main_v303 Cert.ReferenceIdeal.Read.val_main_c_46 Cert.ReferenceIdeal.Read.val_main_v306 Cert.ReferenceIdeal.Read.val_main_v305 Cert.ReferenceIdeal.Read.val_main_c_47 Cert.ReferenceIdeal.Read.val_main_v320
  rfl

/-- Window 1: the first branch's weight, a slice of the stacked weights. -/
theorem op7_1 (hW : V0 (Proc.devRef .tc main_arg9) = x9) :
    (StableHlo.after hostOps7 V0 (Proc.devRef .tc main_v305) : Cert.ReferenceIdeal.S150x150.Idx → EReal)
      = Cert.ReferenceIdeal.Read.val_main_v323 (F := Ideal) x9 := by
  after_results_simp
  rw [hW]
  unfold Cert.ReferenceIdeal.Read.val_main_v323 Cert.ReferenceIdeal.Read.val_main_v322
  rfl

/-- Window 2: the second branch's mean aggregation. -/
theorem op7_2 (hE2 : V0 (Proc.devRef .tc main_arg26) = x26)
    (hS2 : (V0 (Proc.devRef .tc main_v209) : Cert.ReferenceIdeal.S20000x150.Idx → EReal) = Cert.ReferenceIdeal.Read.val_main_v227 (F := Ideal) x0 x1 x2 x3 x4 x5 x6 x7 x8 x9 x10 x11 x24 x26)
    (hC2 : (V0 (Proc.devRef .tc main_v41) : Cert.ReferenceIdeal.S2000x1.Idx → EReal) = Cert.ReferenceIdeal.Read.val_main_v354 (F := Ideal) x26) :
    (StableHlo.after hostOps7 V0 (Proc.devRef .tc main_v293) : Cert.ReferenceIdeal.S2000x150.Idx → EReal)
      = Cert.ReferenceIdeal.Read.val_main_v356 (F := Ideal) x0 x1 x2 x3 x4 x5 x6 x7 x8 x9 x10 x11 x24 x26 := by
  after_results_simp
  rw [hE2, hS2, hC2, extf7_id]
  unfold Cert.ReferenceIdeal.Read.val_main_v356 Cert.ReferenceIdeal.Read.val_main_v347 Cert.ReferenceIdeal.Read.val_main_v345 Cert.ReferenceIdeal.Read.val_main_cst_54 Cert.ReferenceIdeal.Read.val_main_v346 Cert.ReferenceIdeal.Read.val_main_v337 Cert.ReferenceIdeal.Read.val_main_v336 Cert.ReferenceIdeal.Read.val_main_v344 Cert.ReferenceIdeal.Read.val_main_v343 Cert.ReferenceIdeal.Read.val_main_v342 Cert.ReferenceIdeal.Read.val_main_v339 Cert.ReferenceIdeal.Read.val_main_v335 Cert.ReferenceIdeal.Read.val_main_v334 Cert.ReferenceIdeal.Read.val_main_v338 Cert.ReferenceIdeal.Read.val_main_c_52 Cert.ReferenceIdeal.Read.val_main_v341 Cert.ReferenceIdeal.Read.val_main_v340 Cert.ReferenceIdeal.Read.val_main_c_53 Cert.ReferenceIdeal.Read.val_main_v355
  rfl

/-- Window 3: the second branch's weight. -/
theorem op7_3 (hW : V0 (Proc.devRef .tc main_arg9) = x9) :
    (StableHlo.after hostOps7 V0 (Proc.devRef .tc main_v307) : Cert.ReferenceIdeal.S150x150.Idx → EReal)
      = Cert.ReferenceIdeal.Read.val_main_v358 (F := Ideal) x9 := by
  after_results_simp
  rw [hW]
  unfold Cert.ReferenceIdeal.Read.val_main_v358 Cert.ReferenceIdeal.Read.val_main_v357
  rfl

/-- Window 4: the destination feature, which no host operation of the stretch touches. -/
theorem op7_4 :
    StableHlo.after hostOps7 V0 (Proc.devRef .tc main_v159) = V0 (Proc.devRef .tc main_v159) := by
  after_results_simp

/-- Window 5: the sum of the two branches' root matrices. -/
theorem op7_5 (hR : V0 (Proc.devRef .tc main_arg11) = x11) :
    (StableHlo.after hostOps7 V0 (Proc.devRef .tc main_v298) : Cert.ReferenceIdeal.S150x150.Idx → EReal)
      = addf (F := Ideal) (s := Cert.ReferenceIdeal.S150x150) (φ := .f32) (Cert.ReferenceIdeal.Read.val_main_v331 (F := Ideal) x11) (Cert.ReferenceIdeal.Read.val_main_v366 (F := Ideal) x11) := by
  after_results_simp
  rw [hR]
  unfold Cert.ReferenceIdeal.Read.val_main_v331 Cert.ReferenceIdeal.Read.val_main_v330 Cert.ReferenceIdeal.Read.val_main_v366 Cert.ReferenceIdeal.Read.val_main_v365
  rfl

/-- Window 6: the sum of the two branches' biases, kept as a [1 × 150] row. -/
theorem op7_6 (hB : V0 (Proc.devRef .tc main_arg10) = x10) :
    (StableHlo.after hostOps7 V0 (Proc.devRef .tc main_v308) : Cert.KernelIdeal.S1x150.Idx → EReal)
      = shapeCast Cert.KernelIdeal.S1x150
          (addf (F := Ideal) (s := Cert.ReferenceIdeal.S150) (φ := .f32) (Cert.ReferenceIdeal.Read.val_main_v326 (F := Ideal) x10) (Cert.ReferenceIdeal.Read.val_main_v361 (F := Ideal) x10))
          shapeCasts_S150_S1x150 := by
  after_results_simp
  rw [hB]
  unfold Cert.ReferenceIdeal.Read.val_main_v326 Cert.ReferenceIdeal.Read.val_main_v325 Cert.ReferenceIdeal.Read.val_main_v361 Cert.ReferenceIdeal.Read.val_main_v360
  rfl

end Stretch

/-! ## The launch -/

variable (m : (ℓ : Loc nD τ sig) → Buf (Elt Ideal) ℓ) (ρ : Dev nD → PrngReg) (c : Dev nD)

/-- The kernel's argument array `b`, as the memory holds it at the start. -/
local notation "arg(" b ")" => m ((c.tc : Thread nD τ).loc b)
/-- The reference's stages of this layer at the kernel's arguments: the layer's feature (after the rectifier), -/
local notation "rOut" => Cert.ReferenceIdeal.Read.val_main_v442 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25) arg(main_arg26)
/-- the source features the two branches aggregate, and the destination feature, -/
local notation "rSrc1" => Cert.ReferenceIdeal.Read.val_main_v225 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25)
local notation "rSrc2" => Cert.ReferenceIdeal.Read.val_main_v227 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg26)
local notation "rDst" => Cert.ReferenceIdeal.Read.val_main_v226 (F := Ideal) arg(main_arg0) arg(main_arg1) arg(main_arg2) arg(main_arg3) arg(main_arg4) arg(main_arg5) arg(main_arg6) arg(main_arg7) arg(main_arg8) arg(main_arg9) arg(main_arg10) arg(main_arg11) arg(main_arg25) arg(main_arg26)
/-- the two mean aggregations and the in-degree columns they divide by, -/
local notation "rAgg1" => Cert.ReferenceIdeal.Read.val_main_v321 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25)
local notation "rAgg2" => Cert.ReferenceIdeal.Read.val_main_v356 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg26)
local notation "rCnt1" => Cert.ReferenceIdeal.Read.val_main_v319 (F := Ideal) arg(main_arg25)
local notation "rCnt2" => Cert.ReferenceIdeal.Read.val_main_v354 (F := Ideal) arg(main_arg26)
/-- the weight, root and bias slices of the two branches. -/
local notation "rWl1" => Cert.ReferenceIdeal.Read.val_main_v323 (F := Ideal) arg(main_arg9)
local notation "rWl2" => Cert.ReferenceIdeal.Read.val_main_v358 (F := Ideal) arg(main_arg9)
local notation "rWr1" => Cert.ReferenceIdeal.Read.val_main_v331 (F := Ideal) arg(main_arg11)
local notation "rWr2" => Cert.ReferenceIdeal.Read.val_main_v366 (F := Ideal) arg(main_arg11)
local notation "rB1" => Cert.ReferenceIdeal.Read.val_main_v326 (F := Ideal) arg(main_arg10)
local notation "rB2" => Cert.ReferenceIdeal.Read.val_main_v361 (F := Ideal) arg(main_arg10)

set_option maxHeartbeats 1000000 in
/-- Launch 7: given what the launches that wrote the two source features and the destination feature left (their
    own facts), and the destination feature and the stacked root argument real, the kernel's output array at the
    launch's exit is the reference's feature of the same arguments. -/
theorem step7
    (hK3 : (W8 (F := Ideal) m ρ c (Proc.devRef .tc main_v109) : Cert.ReferenceIdeal.S50000x150.Idx → EReal) = rSrc1)
    (hK5 : (W12 (F := Ideal) m ρ c (Proc.devRef .tc main_v209) : Cert.ReferenceIdeal.S20000x150.Idx → EReal) = rSrc2)
    (hK4 : (W10 (F := Ideal) m ρ c (Proc.devRef .tc main_v159) : Cert.ReferenceIdeal.S2000x150.Idx → EReal) = rDst)
    (hX : AllReal (rDst : Cert.ReferenceIdeal.S2000x150.Idx → EReal))
    (h11 : AllReal (arg(main_arg11) : Cert.ReferenceIdeal.S3x6x150x150.Idx → EReal)) :
    (W16 (F := Ideal) m ρ c (Proc.devRef .tc main_v309) : Cert.ReferenceIdeal.S2000x150.Idx → EReal) = rOut := by
  funext i
  obtain ⟨p, q, rfl⟩ : ∃ (p : Fin 2000) (q : Fin 150), i = ix2 p q := ⟨i 0, i 1, eq_ix2 i⟩
  -- the three features as the boundary before the host stretch holds them: carried there unchanged
  have hS1 : (W14 (F := Ideal) m ρ c (Proc.devRef .tc main_v109) : Cert.ReferenceIdeal.S50000x150.Idx → EReal) = rSrc1 :=
    (Cert.KernelIdeal.Carry.at7_main_v109 m ρ c).trans hK3
  have hS2 : (W14 (F := Ideal) m ρ c (Proc.devRef .tc main_v209) : Cert.ReferenceIdeal.S20000x150.Idx → EReal) = rSrc2 :=
    (Cert.KernelIdeal.Carry.at7_main_v209 m ρ c).trans hK5
  have hD : (W14 (F := Ideal) m ρ c (Proc.devRef .tc main_v159) : Cert.ReferenceIdeal.S2000x150.Idx → EReal) = rDst :=
    (Cert.KernelIdeal.Carry.at7_main_v159 m ρ c).trans hK4
  -- the two in-degree columns there: computed before the first aggregation layer, carried unchanged since
  have hC1 : (W14 (F := Ideal) m ρ c (Proc.devRef .tc main_v32) : Cert.ReferenceIdeal.S2000x1.Idx → EReal) = rCnt1 :=
    (Cert.KernelIdeal.Carry.at7_main_v32 m ρ c).trans (cnt7_a (W6 m ρ c) (Cert.KernelIdeal.Carry.at3_main_arg25 m ρ c))
  have hC2 : (W14 (F := Ideal) m ρ c (Proc.devRef .tc main_v41) : Cert.ReferenceIdeal.S2000x1.Idx → EReal) = rCnt2 :=
    (Cert.KernelIdeal.Carry.at7_main_v41 m ρ c).trans (cnt7_b (W6 m ρ c) (Cert.KernelIdeal.Carry.at3_main_arg26 m ρ c))
  -- the seven operand arrays at the launch's entry, each as its reference term
  have e0 : (V15 (F := Ideal) m ρ c main_v276 : Cert.ReferenceIdeal.S2000x150.Idx → EReal) = rAgg1 :=
    op7_0 (W14 m ρ c) (Cert.KernelIdeal.Carry.at7_main_arg25 m ρ c) hS1 hC1
  have e1 : (V15 (F := Ideal) m ρ c main_v305 : Cert.ReferenceIdeal.S150x150.Idx → EReal) = rWl1 :=
    op7_1 (W14 m ρ c) (Cert.KernelIdeal.Carry.at7_main_arg9 m ρ c)
  have e2 : (V15 (F := Ideal) m ρ c main_v293 : Cert.ReferenceIdeal.S2000x150.Idx → EReal) = rAgg2 :=
    op7_2 (W14 m ρ c) (Cert.KernelIdeal.Carry.at7_main_arg26 m ρ c) hS2 hC2
  have e3 : (V15 (F := Ideal) m ρ c main_v307 : Cert.ReferenceIdeal.S150x150.Idx → EReal) = rWl2 :=
    op7_3 (W14 m ρ c) (Cert.KernelIdeal.Carry.at7_main_arg9 m ρ c)
  have e4 : (V15 (F := Ideal) m ρ c main_v159 : Cert.ReferenceIdeal.S2000x150.Idx → EReal) = rDst :=
    (op7_4 (W14 m ρ c)).trans hD
  have e5 : (V15 (F := Ideal) m ρ c main_v298 : Cert.ReferenceIdeal.S150x150.Idx → EReal)
      = addf (F := Ideal) (s := Cert.ReferenceIdeal.S150x150) (φ := .f32) rWr1 rWr2 :=
    op7_5 (W14 m ρ c) (Cert.KernelIdeal.Carry.at7_main_arg11 m ρ c)
  have e6 : (V15 (F := Ideal) m ρ c main_v308 : Cert.KernelIdeal.S1x150.Idx → EReal)
      = shapeCast Cert.KernelIdeal.S1x150 (addf (F := Ideal) (s := Cert.ReferenceIdeal.S150) (φ := .f32) rB1 rB2) shapeCasts_S150_S1x150 :=
    op7_6 (W14 m ρ c) (Cert.KernelIdeal.Carry.at7_main_arg10 m ρ c)
  -- the output array at the exit is what the pipeline leaves in its eighth window's array
  have hL : W16 (F := Ideal) m ρ c (Proc.devRef .tc main_v309) = (dat7 (F := Ideal) (V15 m ρ) c).arrAt 7 cfg7.N :=
    W16_arr m ρ c 7
  refine (congrFun hL (ix2 p q)).trans ?_
  -- the launch's value on the seven operand arrays, each replaced by its reference term
  refine (Cert.KernelIdeal.RegionValue.region7_at (V15 m ρ) c
    rAgg1 rWl1 rAgg2 rWl2 rDst (addf (F := Ideal) (s := Cert.ReferenceIdeal.S150x150) (φ := .f32) rWr1 rWr2)
    (shapeCast Cert.KernelIdeal.S1x150 (addf (F := Ideal) (s := Cert.ReferenceIdeal.S150) (φ := .f32) rB1 rB2) shapeCasts_S150_S1x150)
    e0.symm e1.symm e2.symm e3.symm e4.symm e5.symm e6.symm p q).trans ?_
  -- the bias row at (0, q) is the bias sum at q
  rw [shapeCast_a_1a_apply _ _ 0 q, ref7_at]
  -- under the maximum with zero the two sides are the two groupings of the combine law
  exact congrArg (fun z : EReal => max z 0) (combine_law
    (fun k : Fin 150 => (rAgg1 : Cert.ReferenceIdeal.S2000x150.Idx → EReal) (ix2 p k))
    (fun k : Fin 150 => (rWl1 : Cert.ReferenceIdeal.S150x150.Idx → EReal) (ix2 k q))
    (fun k : Fin 150 => (rAgg2 : Cert.ReferenceIdeal.S2000x150.Idx → EReal) (ix2 p k))
    (fun k : Fin 150 => (rWl2 : Cert.ReferenceIdeal.S150x150.Idx → EReal) (ix2 k q))
    (fun k : Fin 150 => (rDst : Cert.ReferenceIdeal.S2000x150.Idx → EReal) (ix2 p k))
    (fun k : Fin 150 => (rWr1 : Cert.ReferenceIdeal.S150x150.Idx → EReal) (ix2 k q))
    (fun k : Fin 150 => (rWr2 : Cert.ReferenceIdeal.S150x150.Idx → EReal) (ix2 k q))
    ((rB1 : Cert.ReferenceIdeal.S150.Idx → EReal) (ix1 q))
    ((rB2 : Cert.ReferenceIdeal.S150.Idx → EReal) (ix1 q))
    (fun k => hX (ix2 p k))
    (fun k => real7_wr1 _ h11 (ix2 k q))
    (fun k => real7_wr2 _ h11 (ix2 k q)))

end Cert.Bridge

end
-- ==== Proof.Carry8.lean ====
/- What the buffers read by the host operations before launch 8 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at8_main_arg24 (c : Dev nD) : W16 m ρ c (Proc.devRef .tc main_arg24) = m ((c : Thread nD τ).loc main_arg24) :=
  calc W16 m ρ c (Proc.devRef .tc main_arg24)
    _ = W15 m ρ c (Proc.devRef .tc main_arg24) := W16_of_ne m ρ c main_arg24 (by decide)
    _ = W14 m ρ c (Proc.devRef .tc main_arg24) := StableHlo.after_of_writes_sub hostOps7 _ hostOps7_writes (by decide)
    _ = W13 m ρ c (Proc.devRef .tc main_arg24) := W14_of_ne m ρ c main_arg24 (by decide)
    _ = W12 m ρ c (Proc.devRef .tc main_arg24) := StableHlo.after_of_writes_sub hostOps6 _ hostOps6_writes (by decide)
    _ = W11 m ρ c (Proc.devRef .tc main_arg24) := W12_of_ne m ρ c main_arg24 (by decide)
    _ = W10 m ρ c (Proc.devRef .tc main_arg24) := StableHlo.after_of_writes_sub hostOps5 _ hostOps5_writes (by decide)
    _ = W9 m ρ c (Proc.devRef .tc main_arg24) := W10_of_ne m ρ c main_arg24 (by decide)
    _ = W8 m ρ c (Proc.devRef .tc main_arg24) := StableHlo.after_of_writes_sub hostOps4 _ hostOps4_writes (by decide)
    _ = W7 m ρ c (Proc.devRef .tc main_arg24) := W8_of_ne m ρ c main_arg24 (by decide)
    _ = W6 m ρ c (Proc.devRef .tc main_arg24) := StableHlo.after_of_writes_sub hostOps3 _ hostOps3_writes (by decide)
    _ = W5 m ρ c (Proc.devRef .tc main_arg24) := W6_of_ne m ρ c main_arg24 (by decide)
    _ = W4 m ρ c (Proc.devRef .tc main_arg24) := StableHlo.after_of_writes_sub hostOps2 _ hostOps2_writes (by decide)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl

set_option maxHeartbeats 4000000 in
theorem at8_main_v109 (c : Dev nD) : W16 m ρ c (Proc.devRef .tc main_v109) = W8 m ρ c (Proc.devRef .tc main_v109) :=
  calc W16 m ρ c (Proc.devRef .tc main_v109)
    _ = W15 m ρ c (Proc.devRef .tc main_v109) := W16_of_ne m ρ c main_v109 (by decide)
    _ = W14 m ρ c (Proc.devRef .tc main_v109) := StableHlo.after_of_writes_sub hostOps7 _ hostOps7_writes (by decide)
    _ = W13 m ρ c (Proc.devRef .tc main_v109) := (W14_arr m ρ c 4).trans (((dat6 (V13 m ρ) c).arrAt_in 4 rfl _).trans (A_eq6 (V13 m ρ) c 4))
    _ = W12 m ρ c (Proc.devRef .tc main_v109) := StableHlo.after_of_writes_sub hostOps6 _ hostOps6_writes (by decide)
    _ = W11 m ρ c (Proc.devRef .tc main_v109) := W12_of_ne m ρ c main_v109 (by decide)
    _ = W10 m ρ c (Proc.devRef .tc main_v109) := StableHlo.after_of_writes_sub hostOps5 _ hostOps5_writes (by decide)
    _ = W9 m ρ c (Proc.devRef .tc main_v109) := W10_of_ne m ρ c main_v109 (by decide)
    _ = W8 m ρ c (Proc.devRef .tc main_v109) := StableHlo.after_of_writes_sub hostOps4 _ hostOps4_writes (by decide)

set_option maxHeartbeats 4000000 in
theorem at8_main_v50 (c : Dev nD) : W16 m ρ c (Proc.devRef .tc main_v50) = W7 m ρ c (Proc.devRef .tc main_v50) :=
  calc W16 m ρ c (Proc.devRef .tc main_v50)
    _ = W15 m ρ c (Proc.devRef .tc main_v50) := W16_of_ne m ρ c main_v50 (by decide)
    _ = W14 m ρ c (Proc.devRef .tc main_v50) := StableHlo.after_of_writes_sub hostOps7 _ hostOps7_writes (by decide)
    _ = W13 m ρ c (Proc.devRef .tc main_v50) := W14_of_ne m ρ c main_v50 (by decide)
    _ = W12 m ρ c (Proc.devRef .tc main_v50) := StableHlo.after_of_writes_sub hostOps6 _ hostOps6_writes (by decide)
    _ = W11 m ρ c (Proc.devRef .tc main_v50) := W12_of_ne m ρ c main_v50 (by decide)
    _ = W10 m ρ c (Proc.devRef .tc main_v50) := StableHlo.after_of_writes_sub hostOps5 _ hostOps5_writes (by decide)
    _ = W9 m ρ c (Proc.devRef .tc main_v50) := W10_of_ne m ρ c main_v50 (by decide)
    _ = W8 m ρ c (Proc.devRef .tc main_v50) := StableHlo.after_of_writes_sub hostOps4 _ hostOps4_writes (by decide)
    _ = W7 m ρ c (Proc.devRef .tc main_v50) := W8_of_ne m ρ c main_v50 (by decide)

set_option maxHeartbeats 4000000 in
theorem at8_main_arg26 (c : Dev nD) : W16 m ρ c (Proc.devRef .tc main_arg26) = m ((c : Thread nD τ).loc main_arg26) :=
  calc W16 m ρ c (Proc.devRef .tc main_arg26)
    _ = W15 m ρ c (Proc.devRef .tc main_arg26) := W16_of_ne m ρ c main_arg26 (by decide)
    _ = W14 m ρ c (Proc.devRef .tc main_arg26) := StableHlo.after_of_writes_sub hostOps7 _ hostOps7_writes (by decide)
    _ = W13 m ρ c (Proc.devRef .tc main_arg26) := W14_of_ne m ρ c main_arg26 (by decide)
    _ = W12 m ρ c (Proc.devRef .tc main_arg26) := StableHlo.after_of_writes_sub hostOps6 _ hostOps6_writes (by decide)
    _ = W11 m ρ c (Proc.devRef .tc main_arg26) := W12_of_ne m ρ c main_arg26 (by decide)
    _ = W10 m ρ c (Proc.devRef .tc main_arg26) := StableHlo.after_of_writes_sub hostOps5 _ hostOps5_writes (by decide)
    _ = W9 m ρ c (Proc.devRef .tc main_arg26) := W10_of_ne m ρ c main_arg26 (by decide)
    _ = W8 m ρ c (Proc.devRef .tc main_arg26) := StableHlo.after_of_writes_sub hostOps4 _ hostOps4_writes (by decide)
    _ = W7 m ρ c (Proc.devRef .tc main_arg26) := W8_of_ne m ρ c main_arg26 (by decide)
    _ = W6 m ρ c (Proc.devRef .tc main_arg26) := StableHlo.after_of_writes_sub hostOps3 _ hostOps3_writes (by decide)
    _ = W5 m ρ c (Proc.devRef .tc main_arg26) := W6_of_ne m ρ c main_arg26 (by decide)
    _ = W4 m ρ c (Proc.devRef .tc main_arg26) := StableHlo.after_of_writes_sub hostOps2 _ hostOps2_writes (by decide)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl

set_option maxHeartbeats 4000000 in
theorem at8_main_v159 (c : Dev nD) : W16 m ρ c (Proc.devRef .tc main_v159) = W10 m ρ c (Proc.devRef .tc main_v159) :=
  calc W16 m ρ c (Proc.devRef .tc main_v159)
    _ = W15 m ρ c (Proc.devRef .tc main_v159) := (W16_arr m ρ c 4).trans (((dat7 (V15 m ρ) c).arrAt_in 4 rfl _).trans (A_eq7 (V15 m ρ) c 4))
    _ = W14 m ρ c (Proc.devRef .tc main_v159) := StableHlo.after_of_writes_sub hostOps7 _ hostOps7_writes (by decide)
    _ = W13 m ρ c (Proc.devRef .tc main_v159) := W14_of_ne m ρ c main_v159 (by decide)
    _ = W12 m ρ c (Proc.devRef .tc main_v159) := StableHlo.after_of_writes_sub hostOps6 _ hostOps6_writes (by decide)
    _ = W11 m ρ c (Proc.devRef .tc main_v159) := W12_of_ne m ρ c main_v159 (by decide)
    _ = W10 m ρ c (Proc.devRef .tc main_v159) := StableHlo.after_of_writes_sub hostOps5 _ hostOps5_writes (by decide)

set_option maxHeartbeats 4000000 in
theorem at8_main_v59 (c : Dev nD) : W16 m ρ c (Proc.devRef .tc main_v59) = W7 m ρ c (Proc.devRef .tc main_v59) :=
  calc W16 m ρ c (Proc.devRef .tc main_v59)
    _ = W15 m ρ c (Proc.devRef .tc main_v59) := W16_of_ne m ρ c main_v59 (by decide)
    _ = W14 m ρ c (Proc.devRef .tc main_v59) := StableHlo.after_of_writes_sub hostOps7 _ hostOps7_writes (by decide)
    _ = W13 m ρ c (Proc.devRef .tc main_v59) := W14_of_ne m ρ c main_v59 (by decide)
    _ = W12 m ρ c (Proc.devRef .tc main_v59) := StableHlo.after_of_writes_sub hostOps6 _ hostOps6_writes (by decide)
    _ = W11 m ρ c (Proc.devRef .tc main_v59) := W12_of_ne m ρ c main_v59 (by decide)
    _ = W10 m ρ c (Proc.devRef .tc main_v59) := StableHlo.after_of_writes_sub hostOps5 _ hostOps5_writes (by decide)
    _ = W9 m ρ c (Proc.devRef .tc main_v59) := W10_of_ne m ρ c main_v59 (by decide)
    _ = W8 m ρ c (Proc.devRef .tc main_v59) := StableHlo.after_of_writes_sub hostOps4 _ hostOps4_writes (by decide)
    _ = W7 m ρ c (Proc.devRef .tc main_v59) := W8_of_ne m ρ c main_v59 (by decide)

set_option maxHeartbeats 4000000 in
theorem at8_main_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := StableHlo.after_of_writes_sub hostOps7 _ hostOps7_writes (by decide)
    _ = W13 m ρ c (Proc.devRef .tc main_arg11) := W14_of_ne m ρ c main_arg11 (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

set_option maxHeartbeats 4000000 in
theorem at8_main_arg10 (c : Dev nD) : W16 m ρ c (Proc.devRef .tc main_arg10) = m ((c : Thread nD τ).loc main_arg10) :=
  calc W16 m ρ c (Proc.devRef .tc main_arg10)
    _ = W15 m ρ c (Proc.devRef .tc main_arg10) := W16_of_ne m ρ c main_arg10 (by decide)
    _ = W14 m ρ c (Proc.devRef .tc main_arg10) := StableHlo.after_of_writes_sub hostOps7 _ hostOps7_writes (by decide)
    _ = W13 m ρ c (Proc.devRef .tc main_arg10) := W14_of_ne m ρ c main_arg10 (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

set_option maxHeartbeats 4000000 in
theorem at8_main_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of_ne m ρ c main_arg9 (by decide)
    _ = W14 m ρ c (Proc.devRef .tc main_arg9) := StableHlo.after_of_writes_sub hostOps7 _ hostOps7_writes (by decide)
    _ = W13 m ρ c (Proc.devRef .tc main_arg9) := W14_of_ne m ρ c main_arg9 (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

set_option maxHeartbeats 4000000 in
theorem at8_main_v209 (c : Dev nD) : W16 m ρ c (Proc.devRef .tc main_v209) = W12 m ρ c (Proc.devRef .tc main_v209) :=
  calc W16 m ρ c (Proc.devRef .tc main_v209)
    _ = W15 m ρ c (Proc.devRef .tc main_v209) := W16_of_ne m ρ c main_v209 (by decide)
    _ = W14 m ρ c (Proc.devRef .tc main_v209) := StableHlo.after_of_writes_sub hostOps7 _ hostOps7_writes (by decide)
    _ = W13 m ρ c (Proc.devRef .tc main_v209) := W14_of_ne m ρ c main_v209 (by decide)
    _ = W12 m ρ c (Proc.devRef .tc main_v209) := StableHlo.after_of_writes_sub hostOps6 _ hostOps6_writes (by decide)

end Cert.KernelIdeal.Carry

end
-- ==== Proof.RegionValue8.lean ====
/- Region 8 (a SAGE layer with its relu): the output array after the region, entry by entry, as a function of the operand
   arrays the region finds. Each grid point t computes rows 2000 t … 2000 t + 1999 of the layer from the same rows of
   the three row operands and the whole weights and bias; the 10 blocks tile the 20000 rows, so the array ends holding
   the layer's value at every entry. -/
import proofs.«138545_j63058709840619_2_alg».proof.Proof.FrameKIR8
import proofs.«138545_j63058709840619_2_alg».proof.Proof.SageBody
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.SageBody
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The operand arrays as the region finds them, at their literal types -/

abbrev in8_a1 (c : Dev nD) : Vec Ideal S20000x150 .f32 := V c main_v326
abbrev in8_w1 (c : Dev nD) : Vec Ideal S150x150 .f32 := V c main_v355
abbrev in8_a2 (c : Dev nD) : Vec Ideal S20000x150 .f32 := V c main_v343
abbrev in8_w2 (c : Dev nD) : Vec Ideal S150x150 .f32 := V c main_v357
abbrev in8_xd (c : Dev nD) : Vec Ideal S20000x150 .bf16 := V c main_v209
abbrev in8_wr (c : Dev nD) : Vec Ideal S150x150 .f32 := V c main_v348
abbrev in8_b (c : Dev nD) : Vec Ideal S1x150 .f32 := V c main_v358

/-! ## The block indices over the grid -/

/-- The printed index maps, decided over the grid: the row operands and the output take block row t at point t, the
    weights and the bias their one block. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

/-! ## The input blocks as parts of their arrays -/

/-- Window 0's block at point t is rows 2000 t … 2000 t + 1999 of its array. -/
theorem blk8_0 (c : Dev nD) (t : Fin cfg8.N) (x : S2000x150.Idx) (i : S20000x150.Idx)
    (h0 : (i 0).val = t.val * 2000 + (x 0).val) (h1 : (i 1).val = (x 1).val) :
    (iblk8 V c 0 t : Vec Ideal S2000x150 .f32) x = in8_a1 V c i := by
  obtain ⟨e00, e01, e10, e11, e20, e21, e30, e31, e40, e41, e50, e51, e60, e61, e70, e71⟩ := idx8 t
  show V c main_v326 (((cfg8.win 0).blk t).view.emb x) = V c main_v326 i
  refine congrArg (V c main_v326) (funext fun a => Fin.ext ?_)
  match a with
  | ⟨0, _⟩ => show win8_0.index t (0 : Fin 2) * 2000 + 1 * (x 0).val = (i 0).val; rw [e00, h0]; omega
  | ⟨1, _⟩ => show win8_0.index t (1 : Fin 2) * 150 + 1 * (x 1).val = (i 1).val; rw [e01, h1]; omega

/-- Window 1's block is its whole array at every point. -/
theorem blk8_1 (c : Dev nD) (t : Fin cfg8.N) : (iblk8 V c 1 t : Vec Ideal S150x150 .f32) = in8_w1 V c := by
  obtain ⟨e00, e01, e10, e11, e20, e21, e30, e31, e40, e41, e50, e51, e60, e61, e70, e71⟩ := idx8 t
  funext x
  show V c main_v355 (((cfg8.win 1).blk t).view.emb x) = V c main_v355 x
  refine congrArg (V c main_v355) (funext fun a => Fin.ext ?_)
  match a with
  | ⟨0, _⟩ => show win8_1.index t (0 : Fin 2) * 150 + 1 * (x 0).val = (x 0).val; rw [e10]; omega
  | ⟨1, _⟩ => show win8_1.index t (1 : Fin 2) * 150 + 1 * (x 1).val = (x 1).val; rw [e11]; omega

/-- Window 2's block at point t is rows 2000 t … 2000 t + 1999 of its array. -/
theorem blk8_2 (c : Dev nD) (t : Fin cfg8.N) (x : S2000x150.Idx) (i : S20000x150.Idx)
    (h0 : (i 0).val = t.val * 2000 + (x 0).val) (h1 : (i 1).val = (x 1).val) :
    (iblk8 V c 2 t : Vec Ideal S2000x150 .f32) x = in8_a2 V c i := by
  obtain ⟨e00, e01, e10, e11, e20, e21, e30, e31, e40, e41, e50, e51, e60, e61, e70, e71⟩ := idx8 t
  show V c main_v343 (((cfg8.win 2).blk t).view.emb x) = V c main_v343 i
  refine congrArg (V c main_v343) (funext fun a => Fin.ext ?_)
  match a with
  | ⟨0, _⟩ => show win8_2.index t (0 : Fin 2) * 2000 + 1 * (x 0).val = (i 0).val; rw [e20, h0]; omega
  | ⟨1, _⟩ => show win8_2.index t (1 : Fin 2) * 150 + 1 * (x 1).val = (i 1).val; rw [e21, h1]; omega

/-- Window 3's block is its whole array at every point. -/
theorem blk8_3 (c : Dev nD) (t : Fin cfg8.N) : (iblk8 V c 3 t : Vec Ideal S150x150 .f32) = in8_w2 V c := by
  obtain ⟨e00, e01, e10, e11, e20, e21, e30, e31, e40, e41, e50, e51, e60, e61, e70, e71⟩ := idx8 t
  funext x
  show V c main_v357 (((cfg8.win 3).blk t).view.emb x) = V c main_v357 x
  refine congrArg (V c main_v357) (funext fun a => Fin.ext ?_)
  match a with
  | ⟨0, _⟩ => show win8_3.index t (0 : Fin 2) * 150 + 1 * (x 0).val = (x 0).val; rw [e30]; omega
  | ⟨1, _⟩ => show win8_3.index t (1 : Fin 2) * 150 + 1 * (x 1).val = (x 1).val; rw [e31]; omega

/-- Window 4's block at point t is rows 2000 t … 2000 t + 1999 of its array. -/
theorem blk8_4 (c : Dev nD) (t : Fin cfg8.N) (x : S2000x150.Idx) (i : S20000x150.Idx)
    (h0 : (i 0).val = t.val * 2000 + (x 0).val) (h1 : (i 1).val = (x 1).val) :
    (iblk8 V c 4 t : Vec Ideal S2000x150 .bf16) x = in8_xd V c i := by
  obtain ⟨e00, e01, e10, e11, e20, e21, e30, e31, e40, e41, e50, e51, e60, e61, e70, e71⟩ := idx8 t
  show V c main_v209 (((cfg8.win 4).blk t).view.emb x) = V c main_v209 i
  refine congrArg (V c main_v209) (funext fun a => Fin.ext ?_)
  match a with
  | ⟨0, _⟩ => show win8_4.index t (0 : Fin 2) * 2000 + 1 * (x 0).val = (i 0).val; rw [e40, h0]; omega
  | ⟨1, _⟩ => show win8_4.index t (1 : Fin 2) * 150 + 1 * (x 1).val = (i 1).val; rw [e41, h1]; omega

/-- Window 5's block is its whole array at every point. -/
theorem blk8_5 (c : Dev nD) (t : Fin cfg8.N) : (iblk8 V c 5 t : Vec Ideal S150x150 .f32) = in8_wr V c := by
  obtain ⟨e00, e01, e10, e11, e20, e21, e30, e31, e40, e41, e50, e51, e60, e61, e70, e71⟩ := idx8 t
  funext x
  show V c main_v348 (((cfg8.win 5).blk t).view.emb x) = V c main_v348 x
  refine congrArg (V c main_v348) (funext fun a => Fin.ext ?_)
  match a with
  | ⟨0, _⟩ => show win8_5.index t (0 : Fin 2) * 150 + 1 * (x 0).val = (x 0).val; rw [e50]; omega
  | ⟨1, _⟩ => show win8_5.index t (1 : Fin 2) * 150 + 1 * (x 1).val = (x 1).val; rw [e51]; omega

/-- Window 6's block is its whole array at every point. -/
theorem blk8_6 (c : Dev nD) (t : Fin cfg8.N) : (iblk8 V c 6 t : Vec Ideal S1x150 .f32) = in8_b V c := by
  obtain ⟨e00, e01, e10, e11, e20, e21, e30, e31, e40, e41, e50, e51, e60, e61, e70, e71⟩ := idx8 t
  funext x
  show V c main_v358 (((cfg8.win 6).blk t).view.emb x) = V c main_v358 x
  refine congrArg (V c main_v358) (funext fun a => Fin.ext ?_)
  match a with
  | ⟨0, _⟩ => show win8_6.index t (0 : Fin 2) * 1 + 1 * (x 0).val = (x 0).val; rw [e60]; omega
  | ⟨1, _⟩ => show win8_6.index t (1 : Fin 2) * 150 + 1 * (x 1).val = (x 1).val; rw [e61]; omega

/-! ## The block a point writes back -/

/-- What the body leaves in the output window's buffer, at an entry: the layer's value on the input blocks. -/
theorem out8_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (y : S2000x150.Idx) :
    out8_7 (F := Ideal) x0 x1 x2 x3 x4 x5 x6 y = max (layer (n := 2000) x0 x1 x2 x3 x4 x5 x6 (y 0) (y 1)) 0 := by
  obtain ⟨p, q, rfl⟩ : ∃ (p : Fin 2000) (q : Fin 150), y = ix2 p q := ⟨y 0, y 1, eq_ix2 y⟩
  unfold out8_7
  rw [View.canon_unit_zero hz]
  simp only [View.ld_unit_zero (S := S2000x150) hz, View.ld_unit_zero (S := S150x150) hz, View.ld_unit_zero (S := S1x150) hz]
  exact k8_pay1_at x0 x1 x2 x3 x4 x5 x6 p q

/-- The layer on the whole arrays, entry by entry: what the output array ends holding. -/
abbrev G8 (c : Dev nD) : S20000x150.Idx → EReal := fun i =>
  max (layer (n := 20000) (in8_a1 V c) (in8_w1 V c) (in8_a2 V c) (in8_w2 V c) (in8_xd V c) (in8_wr V c) (in8_b V c) (i 0) (i 1)) 0

/-- WHAT POINT t WRITES BACK is block t of the layer on the whole arrays. -/
theorem flushed8 (c : Dev nD) (t : Fin cfg8.N) :
    (dat8 (F := Ideal) V c).flushed 7 t = ((cfg8.win 7).blk t).view.read (Elt Ideal) (G8 V c) := by
  show (cfg8.win 7).cut (grid8.coords t) ((dat8 (F := Ideal) V c).after 7 t) = _
  rw [after8_7]
  obtain ⟨e00, e01, e10, e11, e20, e21, e30, e31, e40, e41, e50, e51, e60, e61, e70, e71⟩ := idx8 t
  funext j
  have hj0 : (j 0).val < 2000 := (j 0).isLt
  have hj1 : (j 1).val < 150 := (j 1).isLt
  refine (out8_at (iblk8 V c 0 t) (iblk8 V c 1 t) (iblk8 V c 2 t) (iblk8 V c 3 t) (iblk8 V c 4 t) (iblk8 V c 5 t) (iblk8 V c 6 t) ((cfg8.win 7).xinj (grid8.coords t) j)).trans ?_
  show max (layer (n := 2000) (iblk8 V c 0 t) (iblk8 V c 1 t) (iblk8 V c 2 t) (iblk8 V c 3 t) (iblk8 V c 4 t) (iblk8 V c 5 t) (iblk8 V c 6 t) ((cfg8.win 7).xinj (grid8.coords t) j 0) ((cfg8.win 7).xinj (grid8.coords t) j 1)) 0
    = max (layer (n := 20000) (in8_a1 V c) (in8_w1 V c) (in8_a2 V c) (in8_w2 V c) (in8_xd V c) (in8_wr V c) (in8_b V c) ((((cfg8.win 7).blk t).view.emb j) 0) ((((cfg8.win 7).blk t).view.emb j) 1)) 0
  have hr : (((cfg8.win 7).blk t).view.emb j 0).val = t.val * 2000 + (j 0).val := by
    show win8_7.index t (0 : Fin 2) * 2000 + 1 * (j 0).val = _; rw [e70]; omega
  have hc : (((cfg8.win 7).blk t).view.emb j 1).val = (j 1).val := by
    show win8_7.index t (1 : Fin 2) * 150 + 1 * (j 1).val = _; rw [e71]; omega
  exact congrArg (max · 0) (layer_congr (n := 2000) (m := 20000)
    (iblk8 V c 0 t) (iblk8 V c 2 t) (iblk8 V c 4 t) (in8_a1 V c) (in8_a2 V c) (in8_xd V c)
    (iblk8 V c 1 t) (iblk8 V c 3 t) (iblk8 V c 5 t) (in8_w1 V c) (in8_w2 V c) (in8_wr V c) (iblk8 V c 6 t) (in8_b V c)
    ((cfg8.win 7).xinj (grid8.coords t) j 0) (((cfg8.win 7).blk t).view.emb j 0)
    ((cfg8.win 7).xinj (grid8.coords t) j 1) (((cfg8.win 7).blk t).view.emb j 1)
    (fun k => blk8_0 V c t _ _ hr rfl) (fun k => blk8_2 V c t _ _ hr rfl) (fun k => blk8_4 V c t _ _ hr rfl)
    (blk8_1 V c t) (blk8_3 V c t) (blk8_5 V c t) (blk8_6 V c t) (Fin.ext hc.symm))

/-! ## The blocks tile the array -/

/-- An index of the array is in point t's block iff each coordinate is in the block's range on its axis. -/
theorem mem_blk8 (t : Fin cfg8.N) (i : S20000x150.Idx) :
    i ∈ ((cfg8.win 7).blk t).view.set ↔ ∀ a : Fin 2, win8_7.index t a * S2000x150.size a ≤ (i a).val ∧ (i a).val < win8_7.index t a * S2000x150.size a + S2000x150.size a := by
  show i ∈ ((View.whole main_v359).slice (win8_7.rect t)).set ↔ _
  rw [View.set_slice_whole, Rect.mem_set_unit]
  exact Iff.rfl

/-- Every entry of the array is in the block of the point its row falls to. -/
theorem cover8 (i : S20000x150.Idx) : ∃ t : Fin cfg8.N, (cfg8.win 7).flush t = true ∧ i ∈ ((cfg8.win 7).blk t).view.set := by
  have hi0 : (i 0).val < 20000 := (i 0).isLt
  have hi1 : (i 1).val < 150 := (i 1).isLt
  obtain ⟨t, ht⟩ : ∃ t : Fin cfg8.N, t.val = (i 0).val / 2000 :=
    ⟨⟨(i 0).val / 2000, Nat.lt_of_lt_of_eq (by omega : (i 0).val / 2000 < 10) N_8.symm⟩, rfl⟩
  obtain ⟨e00, e01, e10, e11, e20, e21, e30, e31, e40, e41, e50, e51, e60, e61, e70, e71⟩ := idx8 t
  refine ⟨t, flush8_7 t, ?_⟩
  rw [mem_blk8]
  intro a
  match a with
  | ⟨0, _⟩ => show win8_7.index t (0 : Fin 2) * 2000 ≤ (i 0).val ∧ (i 0).val < win8_7.index t (0 : Fin 2) * 2000 + 2000; rw [e70, ht]; omega
  | ⟨1, _⟩ => show win8_7.index t (1 : Fin 2) * 150 ≤ (i 1).val ∧ (i 1).val < win8_7.index t (1 : Fin 2) * 150 + 150; rw [e71]; omega

/-! ## The array after the region -/

/-- THE OUTPUT ARRAY after region 8, at entry (p, q): the layer's value on the operand arrays as the region finds them. -/
theorem region8 (c : Dev nD) (p : Fin 20000) (q : Fin 150) :
    (dat8 (F := Ideal) V c).arrAt 7 cfg8.N (ix2 p q)
      = max ((((∑ k : Fin 150, in8_a1 V c (ix2 p k) * in8_w1 V c (ix2 k q)) + (∑ k : Fin 150, in8_a2 V c (ix2 p k) * in8_w2 V c (ix2 k q))) + (∑ k : Fin 150, in8_xd V c (ix2 p k) * in8_wr V c (ix2 k q))) + in8_b V c (ix2 0 q)) 0 :=
  congrFun ((dat8 (F := Ideal) V c).arrAt_eq_of_cover 7 (G8 V c) (fun t _ => flushed8 V c t) cover8) (ix2 p q)

/-- The same over any arrays equal to the operand arrays: the form to instantiate. -/
theorem region8_at (c : Dev nD) (A1 : Vec Ideal S20000x150 .f32) (W1 : Vec Ideal S150x150 .f32) (A2 : Vec Ideal S20000x150 .f32) (W2 : Vec Ideal S150x150 .f32)
    (XD : Vec Ideal S20000x150 .bf16) (WR : Vec Ideal S150x150 .f32) (B : Vec Ideal S1x150 .f32)
    (hA1 : A1 = V c main_v326) (hW1 : W1 = V c main_v355) (hA2 : A2 = V c main_v343) (hW2 : W2 = V c main_v357)
    (hXD : XD = V c main_v209) (hWR : WR = V c main_v348) (hB : B = V c main_v358) (p : Fin 20000) (q : Fin 150) :
    (dat8 (F := Ideal) V c).arrAt 7 cfg8.N (ix2 p q)
      = max ((((∑ k : Fin 150, A1 (ix2 p k) * W1 (ix2 k q)) + (∑ k : Fin 150, A2 (ix2 p k) * W2 (ix2 k q))) + (∑ k : Fin 150, XD (ix2 p k) * WR (ix2 k q))) + B (ix2 0 q)) 0 := by
  subst hA1 hW1 hA2 hW2 hXD hWR hB
  exact region8 V c p q

end Cert.KernelIdeal.RegionValue

end
-- ==== Proof.Step8.lean ====
/-
  Launch 8 (a two-branch mean-aggregation layer with a rectifier): at the exit of the launch the kernel's output array
  is, entry by entry, the reference's feature of the layer's destination node type.

  One entry (p, q). The kernel adds the two aggregated products, then the destination row against the SUM of the two
  root matrices, then the SUM of the two biases, and takes the maximum with zero:
      max (((Σk A1[p,k] W1[k,q] + Σk A2[p,k] W2[k,q]) + Σk X[p,k] (R1 + R2)[k,q]) + (b1 + b2)[q]) 0.
  The reference computes each branch by itself, adds the branches, and takes the maximum with zero:
      max (((Σk A1[p,k] W1[k,q] + b1[q]) + Σk X[p,k] R1[k,q]) + ((Σk A2[p,k] W2[k,q] + b2[q]) + Σk X[p,k] R2[k,q])) 0.
  The two agree when the destination row X[p,·] and the root matrices R1, R2 are real (a product distributes over a
  sum of extended reals only away from the infinities): the combine law of the algebra module.

  The operands. A1 and A2 are mean aggregations: a source feature gathered along the edges, summed into the
  destination rows, and divided by the in-degree (at least one). The kernel's program and the reference apply the SAME
  host operations to the same source features and the same edge lists, so the two aggregations are one term; the only
  difference is that the kernel gathers rows kept in the narrow float format and widens them, which is the identity at
  the ideal values. The in-degree columns are computed once, before the first aggregation layer, and reach this launch
  unchanged. W1, W2, R1, R2, b1, b2 are slices of the stacked weight, root and bias arguments; the kernel adds the two
  root slices and the two bias slices before the launch, and keeps the bias sum as a [1 × 150] row.
-/
import proofs.«138545_j63058709840619_2_alg».proof.Proof.FrameKIW
import proofs.«138545_j63058709840619_2_alg».proof.Proof.Carry3
import proofs.«138545_j63058709840619_2_alg».proof.Proof.Carry8
import proofs.«138545_j63058709840619_2_alg».proof.Proof.RegionValue8
import proofs.«138545_j63058709840619_2_alg».proof.Proof.RefRead
import proofs.«138545_j63058709840619_2_alg».proof.Proof.Algebra
import proofs.«138545_j63058709840619_2_alg».proof.Proof.OpsFinite
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal
import Idealize.ShloMosaic.PureOps.Ideal.Laws

set_option maxRecDepth 16384
set_option quotPrecheck false

noncomputable section

open scoped BigOperators

namespace Cert.Bridge

open Cert.KernelIdeal Cert.KernelIdeal.Gen Cert.Algebra
open Idealize.ShloMosaic Idealize.ShloMosaic.TcCoe Idealize.ShloMosaic.ValueIdx Idealize.ShloMosaic.StableHlo
open Idealize.SL Idealize.SL.Sem

/-! ## The reference side, at one entry -/

/-- The reference's feature at entry (p, q): per branch, the aggregated row against the weight's column, plus the
    bias at `q`, plus the destination row against the root's column; the two branches added; the maximum with zero. -/
theorem ref8_at
    (x0 : (⟨Cert.ReferenceIdeal.S50000x768, .f32⟩ : BufTy).Contents (Elt Ideal))
    (x1 : (⟨Cert.ReferenceIdeal.S2000x768, .f32⟩ : BufTy).Contents (Elt Ideal))
    (x2 : (⟨Cert.ReferenceIdeal.S20000x1024, .f32⟩ : BufTy).Contents (Elt Ideal))
    (x3 : (⟨Cert.ReferenceIdeal.S768x150, .f32⟩ : BufTy).Contents (Elt Ideal))
    (x4 : (⟨Cert.ReferenceIdeal.S150, .f32⟩ : BufTy).Contents (Elt Ideal))
    (x5 : (⟨Cert.ReferenceIdeal.S768x150, .f32⟩ : BufTy).Contents (Elt Ideal))
    (x6 : (⟨Cert.ReferenceIdeal.S150, .f32⟩ : BufTy).Contents (Elt Ideal))
    (x7 : (⟨Cert.ReferenceIdeal.S1024x150, .f32⟩ : BufTy).Contents (Elt Ideal))
    (x8 : (⟨Cert.ReferenceIdeal.S150, .f32⟩ : BufTy).Contents (Elt Ideal))
    (x9 : (⟨Cert.ReferenceIdeal.S3x6x150x150, .f32⟩ : BufTy).Contents (Elt Ideal))
    (x10 : (⟨Cert.ReferenceIdeal.S3x6x150, .f32⟩ : BufTy).Contents (Elt Ideal))
    (x11 : (⟨Cert.ReferenceIdeal.S3x6x150x150, .f32⟩ : BufTy).Contents (Elt Ideal))
    (x24 : (⟨Cert.ReferenceIdeal.S2x500000, .i32⟩ : BufTy).Contents (Elt Ideal))
    (x25 x26 : (⟨Cert.ReferenceIdeal.S2x200000, .i32⟩ : BufTy).Contents (Elt Ideal)) (p : Fin 20000) (q : Fin 150) :
    Cert.ReferenceIdeal.Read.val_main_v443 (F := Ideal) x0 x1 x2 x3 x4 x5 x6 x7 x8 x9 x10 x11 x24 x25 x26 (ix2 p q)
      = max ((((∑ k : Fin 150, Cert.ReferenceIdeal.Read.val_main_v392 (F := Ideal) x0 x1 x2 x3 x4 x5 x6 x7 x8 x9 x10 x11 x24 x25 (ix2 p k) * Cert.ReferenceIdeal.Read.val_main_v394 (F := Ideal) x9 (ix2 k q))
              + Cert.ReferenceIdeal.Read.val_main_v397 (F := Ideal) x10 (ix1 q))
            + ∑ k : Fin 150, Cert.ReferenceIdeal.Read.val_main_v227 (F := Ideal) x0 x1 x2 x3 x4 x5 x6 x7 x8 x9 x10 x11 x24 x26 (ix2 p k) * Cert.ReferenceIdeal.Read.val_main_v402 (F := Ideal) x11 (ix2 k q))
          + (((∑ k : Fin 150, Cert.ReferenceIdeal.Read.val_main_v427 (F := Ideal) x0 x1 x2 x3 x4 x5 x6 x7 x8 x9 x10 x11 x25 x26 (ix2 p k) * Cert.ReferenceIdeal.Read.val_main_v429 (F := Ideal) x9 (ix2 k q))
              + Cert.ReferenceIdeal.Read.val_main_v432 (F := Ideal) x10 (ix1 q))
            + ∑ k : Fin 150, Cert.ReferenceIdeal.Read.val_main_v227 (F := Ideal) x0 x1 x2 x3 x4 x5 x6 x7 x8 x9 x10 x11 x24 x26 (ix2 p k) * Cert.ReferenceIdeal.Read.val_main_v437 (F := Ideal) x11 (ix2 k q))) 0 := by
  rw [Cert.ReferenceIdeal.Read.val_main_v443_apply, Cert.ReferenceIdeal.Read.val_main_call5_v0_apply, Cert.ReferenceIdeal.Read.val_main_call5_cst_apply,
    Cert.ReferenceIdeal.Read.val_main_v440_apply, Cert.ReferenceIdeal.Read.val_main_v404_apply, Cert.ReferenceIdeal.Read.val_main_v400_apply,
    Cert.ReferenceIdeal.Read.val_main_v395_apply, Cert.ReferenceIdeal.Read.val_main_v399_apply, Cert.ReferenceIdeal.Read.val_main_v398_apply,
    Cert.ReferenceIdeal.Read.val_main_v403_apply, Cert.ReferenceIdeal.Read.val_main_v439_apply, Cert.ReferenceIdeal.Read.val_main_v435_apply,
    Cert.ReferenceIdeal.Read.val_main_v430_apply, Cert.ReferenceIdeal.Read.val_main_v434_apply, Cert.ReferenceIdeal.Read.val_main_v433_apply,
    Cert.ReferenceIdeal.Read.val_main_v438_apply]
  simp only [Ideal.addf_def, Ideal.maximumf_def, Ideal.ofBits_def, Ideal.ofBits_zero_f32]
  -- the indices the reads name are the coordinates written out
  have hl1 : ∀ k : Fin 150, Cert.ReferenceIdeal.Read.lidx_main_v395 (ix2 p q) k = ix2 p k := fun k =>
    funext fun a => Fin.ext (by match a with | ⟨0, _⟩ => rfl | ⟨1, _⟩ => rfl)
  have hr1 : ∀ k : Fin 150, Cert.ReferenceIdeal.Read.ridx_main_v395 (ix2 p q) k = ix2 k q := fun k =>
    funext fun a => Fin.ext (by match a with | ⟨0, _⟩ => rfl | ⟨1, _⟩ => rfl)
  have hl2 : ∀ k : Fin 150, Cert.ReferenceIdeal.Read.lidx_main_v403 (ix2 p q) k = ix2 p k := fun k =>
    funext fun a => Fin.ext (by match a with | ⟨0, _⟩ => rfl | ⟨1, _⟩ => rfl)
  have hr2 : ∀ k : Fin 150, Cert.ReferenceIdeal.Read.ridx_main_v403 (ix2 p q) k = ix2 k q := fun k =>
    funext fun a => Fin.ext (by match a with | ⟨0, _⟩ => rfl | ⟨1, _⟩ => rfl)
  have hl3 : ∀ k : Fin 150, Cert.ReferenceIdeal.Read.lidx_main_v430 (ix2 p q) k = ix2 p k := fun k =>
    funext fun a => Fin.ext (by match a with | ⟨0, _⟩ => rfl | ⟨1, _⟩ => rfl)
  have hr3 : ∀ k : Fin 150, Cert.ReferenceIdeal.Read.ridx_main_v430 (ix2 p q) k = ix2 k q := fun k =>
    funext fun a => Fin.ext (by match a with | ⟨0, _⟩ => rfl | ⟨1, _⟩ => rfl)
  have hl4 : ∀ k : Fin 150, Cert.ReferenceIdeal.Read.lidx_main_v438 (ix2 p q) k = ix2 p k := fun k =>
    funext fun a => Fin.ext (by match a with | ⟨0, _⟩ => rfl | ⟨1, _⟩ => rfl)
  have hr4 : ∀ k : Fin 150, Cert.ReferenceIdeal.Read.ridx_main_v438 (ix2 p q) k = ix2 k q := fun k =>
    funext fun a => Fin.ext (by match a with | ⟨0, _⟩ => rfl | ⟨1, _⟩ => rfl)
  have hb1 : Cert.ReferenceIdeal.Read.idx_main_v398 (Cert.ReferenceIdeal.Read.idx_main_v399 (ix2 p q)) = ix1 q :=
    funext fun a => Fin.ext (by match a with | ⟨0, _⟩ => rfl)
  have hb2 : Cert.ReferenceIdeal.Read.idx_main_v433 (Cert.ReferenceIdeal.Read.idx_main_v434 (ix2 p q)) = ix1 q :=
    funext fun a => Fin.ext (by match a with | ⟨0, _⟩ => rfl)
  simp only [hl1, hr1, hl2, hr2, hl3, hr3, hl4, hr4, hb1, hb2]

/-- A root slice of a real stacked root argument is real: its entries are entries of the argument. -/
theorem real8_wr1 (x11 : (⟨Cert.ReferenceIdeal.S3x6x150x150, .f32⟩ : BufTy).Contents (Elt Ideal)) (h : AllReal x11) :
    AllReal (Cert.ReferenceIdeal.Read.val_main_v402 (F := Ideal) x11) := by
  unfold Cert.ReferenceIdeal.Read.val_main_v402 Cert.ReferenceIdeal.Read.val_main_v401
  exact Cert.OpsFinite.allReal_shapeCast (Cert.OpsFinite.allReal_extractStridedSlice h)
theorem real8_wr2 (x11 : (⟨Cert.ReferenceIdeal.S3x6x150x150, .f32⟩ : BufTy).Contents (Elt Ideal)) (h : AllReal x11) :
    AllReal (Cert.ReferenceIdeal.Read.val_main_v437 (F := Ideal) x11) := by
  unfold Cert.ReferenceIdeal.Read.val_main_v437 Cert.ReferenceIdeal.Read.val_main_v436
  exact Cert.OpsFinite.allReal_shapeCast (Cert.OpsFinite.allReal_extractStridedSlice h)

/-! ## The host operations before the launch, over any buffer contents

Each lemma takes the contents `V0` of the buffers before a stretch of host operations and what `V0` holds at the
buffers the stretch reads, and gives what one buffer holds after the stretch as the reference's term. -/

/-- At the ideal values widening the narrow float format is the identity. -/
theorem extf8_id {s : Shape} (x : FVec Ideal s .bf16) (h : FTy.bits .bf16 < FTy.bits .f32) :
    (extf (F := Ideal) .f32 x h : s.Idx → EReal) = x := rfl

section Stretch

variable (V0 : Valuation τ sig (Elt Ideal))
variable {x0 : (⟨Cert.ReferenceIdeal.S50000x768, .f32⟩ : BufTy).Contents (Elt Ideal)}
variable {x1 : (⟨Cert.ReferenceIdeal.S2000x768, .f32⟩ : BufTy).Contents (Elt Ideal)}
variable {x2 : (⟨Cert.ReferenceIdeal.S20000x1024, .f32⟩ : BufTy).Contents (Elt Ideal)}
variable {x3 : (⟨Cert.ReferenceIdeal.S768x150, .f32⟩ : BufTy).Contents (Elt Ideal)}
variable {x4 : (⟨Cert.ReferenceIdeal.S150, .f32⟩ : BufTy).Contents (Elt Ideal)}
variable {x5 : (⟨Cert.ReferenceIdeal.S768x150, .f32⟩ : BufTy).Contents (Elt Ideal)}
variable {x6 : (⟨Cert.ReferenceIdeal.S150, .f32⟩ : BufTy).Contents (Elt Ideal)}
variable {x7 : (⟨Cert.ReferenceIdeal.S1024x150, .f32⟩ : BufTy).Contents (Elt Ideal)}
variable {x8 : (⟨Cert.ReferenceIdeal.S150, .f32⟩ : BufTy).Contents (Elt Ideal)}
variable {x9 : (⟨Cert.ReferenceIdeal.S3x6x150x150, .f32⟩ : BufTy).Contents (Elt Ideal)}
variable {x10 : (⟨Cert.ReferenceIdeal.S3x6x150, .f32⟩ : BufTy).Contents (Elt Ideal)}
variable {x11 : (⟨Cert.ReferenceIdeal.S3x6x150x150, .f32⟩ : BufTy).Contents (Elt Ideal)}
variable {x24 : (⟨Cert.ReferenceIdeal.S2x500000, .i32⟩ : BufTy).Contents (Elt Ideal)}
variable {x25 x26 : (⟨Cert.ReferenceIdeal.S2x200000, .i32⟩ : BufTy).Contents (Elt Ideal)}

/-- The first branch's in-degree column, computed before the first aggregation layer from the destination row of the
    branch's edge list, is the reference's: the same operations on the same edge list. -/
theorem cnt8_a (hE1 : V0 (Proc.devRef .tc main_arg24) = x24) :
    (StableHlo.after hostOps3 V0 (Proc.devRef .tc main_v50) : Cert.ReferenceIdeal.S20000x1.Idx → EReal)
      = Cert.ReferenceIdeal.Read.val_main_v390 (F := Ideal) x24 := by
  after_results_simp
  rw [hE1]
  unfold Cert.ReferenceIdeal.Read.val_main_v390 Cert.ReferenceIdeal.Read.val_main_v389 Cert.ReferenceIdeal.Read.val_main_v387 Cert.ReferenceIdeal.Read.val_main_v385 Cert.ReferenceIdeal.Read.val_main_cst_62 Cert.ReferenceIdeal.Read.val_main_v386 Cert.ReferenceIdeal.Read.val_main_v373 Cert.ReferenceIdeal.Read.val_main_v372 Cert.ReferenceIdeal.Read.val_main_v384 Cert.ReferenceIdeal.Read.val_main_cst_61 Cert.ReferenceIdeal.Read.val_main_v388 Cert.ReferenceIdeal.Read.val_main_cst_63
  rfl

/-- The second branch's in-degree column. -/
theorem cnt8_b (hE2 : V0 (Proc.devRef .tc main_arg26) = x26) :
    (StableHlo.after hostOps3 V0 (Proc.devRef .tc main_v59) : Cert.ReferenceIdeal.S20000x1.Idx → EReal)
      = Cert.ReferenceIdeal.Read.val_main_v425 (F := Ideal) x26 := by
  after_results_simp
  rw [hE2]
  unfold Cert.ReferenceIdeal.Read.val_main_v425 Cert.ReferenceIdeal.Read.val_main_v424 Cert.ReferenceIdeal.Read.val_main_v422 Cert.ReferenceIdeal.Read.val_main_v420 Cert.ReferenceIdeal.Read.val_main_cst_68 Cert.ReferenceIdeal.Read.val_main_v421 Cert.ReferenceIdeal.Read.val_main_v408 Cert.ReferenceIdeal.Read.val_main_v407 Cert.ReferenceIdeal.Read.val_main_v419 Cert.ReferenceIdeal.Read.val_main_cst_67 Cert.ReferenceIdeal.Read.val_main_v423 Cert.ReferenceIdeal.Read.val_main_cst_69
  rfl

/-- Window 0: the first branch's mean aggregation, from the branch's edge list, its source feature and its in-degree
    column. -/
theorem op8_0 (hE1 : V0 (Proc.devRef .tc main_arg24) = x24)
    (hS1 : (V0 (Proc.devRef .tc main_v109) : Cert.ReferenceIdeal.S50000x150.Idx → EReal) = Cert.ReferenceIdeal.Read.val_main_v225 (F := Ideal) x0 x1 x2 x3 x4 x5 x6 x7 x8 x9 x10 x11 x24 x25)
    (hC1 : (V0 (Proc.devRef .tc main_v50) : Cert.ReferenceIdeal.S20000x1.Idx → EReal) = Cert.ReferenceIdeal.Read.val_main_v390 (F := Ideal) x24) :
    (StableHlo.after hostOps8 V0 (Proc.devRef .tc main_v326) : Cert.ReferenceIdeal.S20000x150.Idx → EReal)
      = Cert.ReferenceIdeal.Read.val_main_v392 (F := Ideal) x0 x1 x2 x3 x4 x5 x6 x7 x8 x9 x10 x11 x24 x25 := by
  after_results_simp
  rw [hE1, hS1, hC1, extf8_id]
  unfold Cert.ReferenceIdeal.Read.val_main_v392 Cert.ReferenceIdeal.Read.val_main_v383 Cert.ReferenceIdeal.Read.val_main_v381 Cert.ReferenceIdeal.Read.val_main_cst_60 Cert.ReferenceIdeal.Read.val_main_v382 Cert.ReferenceIdeal.Read.val_main_v373 Cert.ReferenceIdeal.Read.val_main_v372 Cert.ReferenceIdeal.Read.val_main_v380 Cert.ReferenceIdeal.Read.val_main_v379 Cert.ReferenceIdeal.Read.val_main_v378 Cert.ReferenceIdeal.Read.val_main_v375 Cert.ReferenceIdeal.Read.val_main_v371 Cert.ReferenceIdeal.Read.val_main_v370 Cert.ReferenceIdeal.Read.val_main_v374 Cert.ReferenceIdeal.Read.val_main_c_58 Cert.ReferenceIdeal.Read.val_main_v377 Cert.ReferenceIdeal.Read.val_main_v376 Cert.ReferenceIdeal.Read.val_main_c_59 Cert.ReferenceIdeal.Read.val_main_v391
  rfl

/-- Window 1: the first branch's weight, a slice of the stacked weights. -/
theorem op8_1 (hW : V0 (Proc.devRef .tc main_arg9) = x9) :
    (StableHlo.after hostOps8 V0 (Proc.devRef .tc main_v355) : Cert.ReferenceIdeal.S150x150.Idx → EReal)
      = Cert.ReferenceIdeal.Read.val_main_v394 (F := Ideal) x9 := by
  after_results_simp
  rw [hW]
  unfold Cert.ReferenceIdeal.Read.val_main_v394 Cert.ReferenceIdeal.Read.val_main_v393
  rfl

/-- Window 2: the second branch's mean aggregation. -/
theorem op8_2 (hE2 : V0 (Proc.devRef .tc main_arg26) = x26)
    (hS2 : (V0 (Proc.devRef .tc main_v159) : Cert.ReferenceIdeal.S2000x150.Idx → EReal) = Cert.ReferenceIdeal.Read.val_main_v226 (F := Ideal) x0 x1 x2 x3 x4 x5 x6 x7 x8 x9 x10 x11 x25 x26)
    (hC2 : (V0 (Proc.devRef .tc main_v59) : Cert.ReferenceIdeal.S20000x1.Idx → EReal) = Cert.ReferenceIdeal.Read.val_main_v425 (F := Ideal) x26) :
    (StableHlo.after hostOps8 V0 (Proc.devRef .tc main_v343) : Cert.ReferenceIdeal.S20000x150.Idx → EReal)
      = Cert.ReferenceIdeal.Read.val_main_v427 (F := Ideal) x0 x1 x2 x3 x4 x5 x6 x7 x8 x9 x10 x11 x25 x26 := by
  after_results_simp
  rw [hE2, hS2, hC2, extf8_id]
  unfold Cert.ReferenceIdeal.Read.val_main_v427 Cert.ReferenceIdeal.Read.val_main_v418 Cert.ReferenceIdeal.Read.val_main_v416 Cert.ReferenceIdeal.Read.val_main_cst_66 Cert.ReferenceIdeal.Read.val_main_v417 Cert.ReferenceIdeal.Read.val_main_v408 Cert.ReferenceIdeal.Read.val_main_v407 Cert.ReferenceIdeal.Read.val_main_v415 Cert.ReferenceIdeal.Read.val_main_v414 Cert.ReferenceIdeal.Read.val_main_v413 Cert.ReferenceIdeal.Read.val_main_v410 Cert.ReferenceIdeal.Read.val_main_v406 Cert.ReferenceIdeal.Read.val_main_v405 Cert.ReferenceIdeal.Read.val_main_v409 Cert.ReferenceIdeal.Read.val_main_c_64 Cert.ReferenceIdeal.Read.val_main_v412 Cert.ReferenceIdeal.Read.val_main_v411 Cert.ReferenceIdeal.Read.val_main_c_65 Cert.ReferenceIdeal.Read.val_main_v426
  rfl

/-- Window 3: the second branch's weight. -/
theorem op8_3 (hW : V0 (Proc.devRef .tc main_arg9) = x9) :
    (StableHlo.after hostOps8 V0 (Proc.devRef .tc main_v357) : Cert.ReferenceIdeal.S150x150.Idx → EReal)
      = Cert.ReferenceIdeal.Read.val_main_v429 (F := Ideal) x9 := by
  after_results_simp
  rw [hW]
  unfold Cert.ReferenceIdeal.Read.val_main_v429 Cert.ReferenceIdeal.Read.val_main_v428
  rfl

/-- Window 4: the destination feature, which no host operation of the stretch touches. -/
theorem op8_4 :
    StableHlo.after hostOps8 V0 (Proc.devRef .tc main_v209) = V0 (Proc.devRef .tc main_v209) := by
  after_results_simp

/-- Window 5: the sum of the two branches' root matrices. -/
theorem op8_5 (hR : V0 (Proc.devRef .tc main_arg11) = x11) :
    (StableHlo.after hostOps8 V0 (Proc.devRef .tc main_v348) : Cert.ReferenceIdeal.S150x150.Idx → EReal)
      = addf (F := Ideal) (s := Cert.ReferenceIdeal.S150x150) (φ := .f32) (Cert.ReferenceIdeal.Read.val_main_v402 (F := Ideal) x11) (Cert.ReferenceIdeal.Read.val_main_v437 (F := Ideal) x11) := by
  after_results_simp
  rw [hR]
  unfold Cert.ReferenceIdeal.Read.val_main_v402 Cert.ReferenceIdeal.Read.val_main_v401 Cert.ReferenceIdeal.Read.val_main_v437 Cert.ReferenceIdeal.Read.val_main_v436
  rfl

/-- Window 6: the sum of the two branches' biases, kept as a [1 × 150] row. -/
theorem op8_6 (hB : V0 (Proc.devRef .tc main_arg10) = x10) :
    (StableHlo.after hostOps8 V0 (Proc.devRef .tc main_v358) : Cert.KernelIdeal.S1x150.Idx → EReal)
      = shapeCast Cert.KernelIdeal.S1x150
          (addf (F := Ideal) (s := Cert.ReferenceIdeal.S150) (φ := .f32) (Cert.ReferenceIdeal.Read.val_main_v397 (F := Ideal) x10) (Cert.ReferenceIdeal.Read.val_main_v432 (F := Ideal) x10))
          shapeCasts_S150_S1x150 := by
  after_results_simp
  rw [hB]
  unfold Cert.ReferenceIdeal.Read.val_main_v397 Cert.ReferenceIdeal.Read.val_main_v396 Cert.ReferenceIdeal.Read.val_main_v432 Cert.ReferenceIdeal.Read.val_main_v431
  rfl

end Stretch

/-! ## The launch -/

variable (m : (ℓ : Loc nD τ sig) → Buf (Elt Ideal) ℓ) (ρ : Dev nD → PrngReg) (c : Dev nD)

/-- The kernel's argument array `b`, as the memory holds it at the start. -/
local notation "arg(" b ")" => m ((c.tc : Thread nD τ).loc b)
/-- The reference's stages of this layer at the kernel's arguments: the layer's feature (after the rectifier), -/
local notation "rOut" => Cert.ReferenceIdeal.Read.val_main_v443 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25) arg(main_arg26)
/-- the source features the two branches aggregate, and the destination feature, -/
local notation "rSrc1" => Cert.ReferenceIdeal.Read.val_main_v225 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25)
local notation "rSrc2" => Cert.ReferenceIdeal.Read.val_main_v226 (F := Ideal) arg(main_arg0) arg(main_arg1) arg(main_arg2) arg(main_arg3) arg(main_arg4) arg(main_arg5) arg(main_arg6) arg(main_arg7) arg(main_arg8) arg(main_arg9) arg(main_arg10) arg(main_arg11) arg(main_arg25) arg(main_arg26)
local notation "rDst" => Cert.ReferenceIdeal.Read.val_main_v227 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg26)
/-- the two mean aggregations and the in-degree columns they divide by, -/
local notation "rAgg1" => Cert.ReferenceIdeal.Read.val_main_v392 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25)
local notation "rAgg2" => Cert.ReferenceIdeal.Read.val_main_v427 (F := Ideal) arg(main_arg0) arg(main_arg1) arg(main_arg2) arg(main_arg3) arg(main_arg4) arg(main_arg5) arg(main_arg6) arg(main_arg7) arg(main_arg8) arg(main_arg9) arg(main_arg10) arg(main_arg11) arg(main_arg25) arg(main_arg26)
local notation "rCnt1" => Cert.ReferenceIdeal.Read.val_main_v390 (F := Ideal) arg(main_arg24)
local notation "rCnt2" => Cert.ReferenceIdeal.Read.val_main_v425 (F := Ideal) arg(main_arg26)
/-- the weight, root and bias slices of the two branches. -/
local notation "rWl1" => Cert.ReferenceIdeal.Read.val_main_v394 (F := Ideal) arg(main_arg9)
local notation "rWl2" => Cert.ReferenceIdeal.Read.val_main_v429 (F := Ideal) arg(main_arg9)
local notation "rWr1" => Cert.ReferenceIdeal.Read.val_main_v402 (F := Ideal) arg(main_arg11)
local notation "rWr2" => Cert.ReferenceIdeal.Read.val_main_v437 (F := Ideal) arg(main_arg11)
local notation "rB1" => Cert.ReferenceIdeal.Read.val_main_v397 (F := Ideal) arg(main_arg10)
local notation "rB2" => Cert.ReferenceIdeal.Read.val_main_v432 (F := Ideal) arg(main_arg10)

set_option maxHeartbeats 1000000 in
/-- Launch 8: given what the launches that wrote the two source features and the destination feature left (their
    own facts), and the destination feature and the stacked root argument real, the kernel's output array at the
    launch's exit is the reference's feature of the same arguments. -/
theorem step8
    (hK3 : (W8 (F := Ideal) m ρ c (Proc.devRef .tc main_v109) : Cert.ReferenceIdeal.S50000x150.Idx → EReal) = rSrc1)
    (hK4 : (W10 (F := Ideal) m ρ c (Proc.devRef .tc main_v159) : Cert.ReferenceIdeal.S2000x150.Idx → EReal) = rSrc2)
    (hK5 : (W12 (F := Ideal) m ρ c (Proc.devRef .tc main_v209) : Cert.ReferenceIdeal.S20000x150.Idx → EReal) = rDst)
    (hX : AllReal (rDst : Cert.ReferenceIdeal.S20000x150.Idx → EReal))
    (h11 : AllReal (arg(main_arg11) : Cert.ReferenceIdeal.S3x6x150x150.Idx → EReal)) :
    (W18 (F := Ideal) m ρ c (Proc.devRef .tc main_v359) : Cert.ReferenceIdeal.S20000x150.Idx → EReal) = rOut := by
  funext i
  obtain ⟨p, q, rfl⟩ : ∃ (p : Fin 20000) (q : Fin 150), i = ix2 p q := ⟨i 0, i 1, eq_ix2 i⟩
  -- the three features as the boundary before the host stretch holds them: carried there unchanged
  have hS1 : (W16 (F := Ideal) m ρ c (Proc.devRef .tc main_v109) : Cert.ReferenceIdeal.S50000x150.Idx → EReal) = rSrc1 :=
    (Cert.KernelIdeal.Carry.at8_main_v109 m ρ c).trans hK3
  have hS2 : (W16 (F := Ideal) m ρ c (Proc.devRef .tc main_v159) : Cert.ReferenceIdeal.S2000x150.Idx → EReal) = rSrc2 :=
    (Cert.KernelIdeal.Carry.at8_main_v159 m ρ c).trans hK4
  have hD : (W16 (F := Ideal) m ρ c (Proc.devRef .tc main_v209) : Cert.ReferenceIdeal.S20000x150.Idx → EReal) = rDst :=
    (Cert.KernelIdeal.Carry.at8_main_v209 m ρ c).trans hK5
  -- the two in-degree columns there: computed before the first aggregation layer, carried unchanged since
  have hC1 : (W16 (F := Ideal) m ρ c (Proc.devRef .tc main_v50) : Cert.ReferenceIdeal.S20000x1.Idx → EReal) = rCnt1 :=
    (Cert.KernelIdeal.Carry.at8_main_v50 m ρ c).trans (cnt8_a (W6 m ρ c) (Cert.KernelIdeal.Carry.at3_main_arg24 m ρ c))
  have hC2 : (W16 (F := Ideal) m ρ c (Proc.devRef .tc main_v59) : Cert.ReferenceIdeal.S20000x1.Idx → EReal) = rCnt2 :=
    (Cert.KernelIdeal.Carry.at8_main_v59 m ρ c).trans (cnt8_b (W6 m ρ c) (Cert.KernelIdeal.Carry.at3_main_arg26 m ρ c))
  -- the seven operand arrays at the launch's entry, each as its reference term
  have e0 : (V17 (F := Ideal) m ρ c main_v326 : Cert.ReferenceIdeal.S20000x150.Idx → EReal) = rAgg1 :=
    op8_0 (W16 m ρ c) (Cert.KernelIdeal.Carry.at8_main_arg24 m ρ c) hS1 hC1
  have e1 : (V17 (F := Ideal) m ρ c main_v355 : Cert.ReferenceIdeal.S150x150.Idx → EReal) = rWl1 :=
    op8_1 (W16 m ρ c) (Cert.KernelIdeal.Carry.at8_main_arg9 m ρ c)
  have e2 : (V17 (F := Ideal) m ρ c main_v343 : Cert.ReferenceIdeal.S20000x150.Idx → EReal) = rAgg2 :=
    op8_2 (W16 m ρ c) (Cert.KernelIdeal.Carry.at8_main_arg26 m ρ c) hS2 hC2
  have e3 : (V17 (F := Ideal) m ρ c main_v357 : Cert.ReferenceIdeal.S150x150.Idx → EReal) = rWl2 :=
    op8_3 (W16 m ρ c) (Cert.KernelIdeal.Carry.at8_main_arg9 m ρ c)
  have e4 : (V17 (F := Ideal) m ρ c main_v209 : Cert.ReferenceIdeal.S20000x150.Idx → EReal) = rDst :=
    (op8_4 (W16 m ρ c)).trans hD
  have e5 : (V17 (F := Ideal) m ρ c main_v348 : Cert.ReferenceIdeal.S150x150.Idx → EReal)
      = addf (F := Ideal) (s := Cert.ReferenceIdeal.S150x150) (φ := .f32) rWr1 rWr2 :=
    op8_5 (W16 m ρ c) (Cert.KernelIdeal.Carry.at8_main_arg11 m ρ c)
  have e6 : (V17 (F := Ideal) m ρ c main_v358 : Cert.KernelIdeal.S1x150.Idx → EReal)
      = shapeCast Cert.KernelIdeal.S1x150 (addf (F := Ideal) (s := Cert.ReferenceIdeal.S150) (φ := .f32) rB1 rB2) shapeCasts_S150_S1x150 :=
    op8_6 (W16 m ρ c) (Cert.KernelIdeal.Carry.at8_main_arg10 m ρ c)
  -- the output array at the exit is what the pipeline leaves in its eighth window's array
  have hL : W18 (F := Ideal) m ρ c (Proc.devRef .tc main_v359) = (dat8 (F := Ideal) (V17 m ρ) c).arrAt 7 cfg8.N :=
    W18_arr m ρ c 7
  refine (congrFun hL (ix2 p q)).trans ?_
  -- the launch's value on the seven operand arrays, each replaced by its reference term
  refine (Cert.KernelIdeal.RegionValue.region8_at (V17 m ρ) c
    rAgg1 rWl1 rAgg2 rWl2 rDst (addf (F := Ideal) (s := Cert.ReferenceIdeal.S150x150) (φ := .f32) rWr1 rWr2)
    (shapeCast Cert.KernelIdeal.S1x150 (addf (F := Ideal) (s := Cert.ReferenceIdeal.S150) (φ := .f32) rB1 rB2) shapeCasts_S150_S1x150)
    e0.symm e1.symm e2.symm e3.symm e4.symm e5.symm e6.symm p q).trans ?_
  -- the bias row at (0, q) is the bias sum at q
  rw [shapeCast_a_1a_apply _ _ 0 q, ref8_at]
  -- under the maximum with zero the two sides are the two groupings of the combine law
  exact congrArg (fun z : EReal => max z 0) (combine_law
    (fun k : Fin 150 => (rAgg1 : Cert.ReferenceIdeal.S20000x150.Idx → EReal) (ix2 p k))
    (fun k : Fin 150 => (rWl1 : Cert.ReferenceIdeal.S150x150.Idx → EReal) (ix2 k q))
    (fun k : Fin 150 => (rAgg2 : Cert.ReferenceIdeal.S20000x150.Idx → EReal) (ix2 p k))
    (fun k : Fin 150 => (rWl2 : Cert.ReferenceIdeal.S150x150.Idx → EReal) (ix2 k q))
    (fun k : Fin 150 => (rDst : Cert.ReferenceIdeal.S20000x150.Idx → EReal) (ix2 p k))
    (fun k : Fin 150 => (rWr1 : Cert.ReferenceIdeal.S150x150.Idx → EReal) (ix2 k q))
    (fun k : Fin 150 => (rWr2 : Cert.ReferenceIdeal.S150x150.Idx → EReal) (ix2 k q))
    ((rB1 : Cert.ReferenceIdeal.S150.Idx → EReal) (ix1 q))
    ((rB2 : Cert.ReferenceIdeal.S150.Idx → EReal) (ix1 q))
    (fun k => hX (ix2 p k))
    (fun k => real8_wr1 _ h11 (ix2 k q))
    (fun k => real8_wr2 _ h11 (ix2 k q)))

end Cert.Bridge

end
-- ==== Proof.Carry9.lean ====
/- What the buffers read by the host operations before launch 9 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at9_main_arg24 (c : Dev nD) : W18 m ρ c (Proc.devRef .tc main_arg24) = m ((c : Thread nD τ).loc main_arg24) :=
  calc W18 m ρ c (Proc.devRef .tc main_arg24)
    _ = W17 m ρ c (Proc.devRef .tc main_arg24) := W18_of_ne m ρ c main_arg24 (by decide)
    _ = W16 m ρ c (Proc.devRef .tc main_arg24) := StableHlo.after_of_writes_sub hostOps8 _ hostOps8_writes (by decide)
    _ = W15 m ρ c (Proc.devRef .tc main_arg24) := W16_of_ne m ρ c main_arg24 (by decide)
    _ = W14 m ρ c (Proc.devRef .tc main_arg24) := StableHlo.after_of_writes_sub hostOps7 _ hostOps7_writes (by decide)
    _ = W13 m ρ c (Proc.devRef .tc main_arg24) := W14_of_ne m ρ c main_arg24 (by decide)
    _ = W12 m ρ c (Proc.devRef .tc main_arg24) := StableHlo.after_of_writes_sub hostOps6 _ hostOps6_writes (by decide)
    _ = W11 m ρ c (Proc.devRef .tc main_arg24) := W12_of_ne m ρ c main_arg24 (by decide)
    _ = W10 m ρ c (Proc.devRef .tc main_arg24) := StableHlo.after_of_writes_sub hostOps5 _ hostOps5_writes (by decide)
    _ = W9 m ρ c (Proc.devRef .tc main_arg24) := W10_of_ne m ρ c main_arg24 (by decide)
    _ = W8 m ρ c (Proc.devRef .tc main_arg24) := StableHlo.after_of_writes_sub hostOps4 _ hostOps4_writes (by decide)
    _ = W7 m ρ c (Proc.devRef .tc main_arg24) := W8_of_ne m ρ c main_arg24 (by decide)
    _ = W6 m ρ c (Proc.devRef .tc main_arg24) := StableHlo.after_of_writes_sub hostOps3 _ hostOps3_writes (by decide)
    _ = W5 m ρ c (Proc.devRef .tc main_arg24) := W6_of_ne m ρ c main_arg24 (by decide)
    _ = W4 m ρ c (Proc.devRef .tc main_arg24) := StableHlo.after_of_writes_sub hostOps2 _ hostOps2_writes (by decide)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl

set_option maxHeartbeats 4000000 in
theorem at9_main_v259 (c : Dev nD) : W18 m ρ c (Proc.devRef .tc main_v259) = W14 m ρ c (Proc.devRef .tc main_v259) :=
  calc W18 m ρ c (Proc.devRef .tc main_v259)
    _ = W17 m ρ c (Proc.devRef .tc main_v259) := W18_of_ne m ρ c main_v259 (by decide)
    _ = W16 m ρ c (Proc.devRef .tc main_v259) := StableHlo.after_of_writes_sub hostOps8 _ hostOps8_writes (by decide)
    _ = W15 m ρ c (Proc.devRef .tc main_v259) := W16_of_ne m ρ c main_v259 (by decide)
    _ = W14 m ρ c (Proc.devRef .tc main_v259) := StableHlo.after_of_writes_sub hostOps7 _ hostOps7_writes (by decide)

set_option maxHeartbeats 4000000 in
theorem at9_main_v50 (c : Dev nD) : W18 m ρ c (Proc.devRef .tc main_v50) = W7 m ρ c (Proc.devRef .tc main_v50) :=
  calc W18 m ρ c (Proc.devRef .tc main_v50)
    _ = W17 m ρ c (Proc.devRef .tc main_v50) := W18_of_ne m ρ c main_v50 (by decide)
    _ = W16 m ρ c (Proc.devRef .tc main_v50) := StableHlo.after_of_writes_sub hostOps8 _ hostOps8_writes (by decide)
    _ = W15 m ρ c (Proc.devRef .tc main_v50) := W16_of_ne m ρ c main_v50 (by decide)
    _ = W14 m ρ c (Proc.devRef .tc main_v50) := StableHlo.after_of_writes_sub hostOps7 _ hostOps7_writes (by decide)
    _ = W13 m ρ c (Proc.devRef .tc main_v50) := W14_of_ne m ρ c main_v50 (by decide)
    _ = W12 m ρ c (Proc.devRef .tc main_v50) := StableHlo.after_of_writes_sub hostOps6 _ hostOps6_writes (by decide)
    _ = W11 m ρ c (Proc.devRef .tc main_v50) := W12_of_ne m ρ c main_v50 (by decide)
    _ = W10 m ρ c (Proc.devRef .tc main_v50) := StableHlo.after_of_writes_sub hostOps5 _ hostOps5_writes (by decide)
    _ = W9 m ρ c (Proc.devRef .tc main_v50) := W10_of_ne m ρ c main_v50 (by decide)
    _ = W8 m ρ c (Proc.devRef .tc main_v50) := StableHlo.after_of_writes_sub hostOps4 _ hostOps4_writes (by decide)
    _ = W7 m ρ c (Proc.devRef .tc main_v50) := W8_of_ne m ρ c main_v50 (by decide)

set_option maxHeartbeats 4000000 in
theorem at9_main_arg26 (c : Dev nD) : W18 m ρ c (Proc.devRef .tc main_arg26) = m ((c : Thread nD τ).loc main_arg26) :=
  calc W18 m ρ c (Proc.devRef .tc main_arg26)
    _ = W17 m ρ c (Proc.devRef .tc main_arg26) := W18_of_ne m ρ c main_arg26 (by decide)
    _ = W16 m ρ c (Proc.devRef .tc main_arg26) := StableHlo.after_of_writes_sub hostOps8 _ hostOps8_writes (by decide)
    _ = W15 m ρ c (Proc.devRef .tc main_arg26) := W16_of_ne m ρ c main_arg26 (by decide)
    _ = W14 m ρ c (Proc.devRef .tc main_arg26) := StableHlo.after_of_writes_sub hostOps7 _ hostOps7_writes (by decide)
    _ = W13 m ρ c (Proc.devRef .tc main_arg26) := W14_of_ne m ρ c main_arg26 (by decide)
    _ = W12 m ρ c (Proc.devRef .tc main_arg26) := StableHlo.after_of_writes_sub hostOps6 _ hostOps6_writes (by decide)
    _ = W11 m ρ c (Proc.devRef .tc main_arg26) := W12_of_ne m ρ c main_arg26 (by decide)
    _ = W10 m ρ c (Proc.devRef .tc main_arg26) := StableHlo.after_of_writes_sub hostOps5 _ hostOps5_writes (by decide)
    _ = W9 m ρ c (Proc.devRef .tc main_arg26) := W10_of_ne m ρ c main_arg26 (by decide)
    _ = W8 m ρ c (Proc.devRef .tc main_arg26) := StableHlo.after_of_writes_sub hostOps4 _ hostOps4_writes (by decide)
    _ = W7 m ρ c (Proc.devRef .tc main_arg26) := W8_of_ne m ρ c main_arg26 (by decide)
    _ = W6 m ρ c (Proc.devRef .tc main_arg26) := StableHlo.after_of_writes_sub hostOps3 _ hostOps3_writes (by decide)
    _ = W5 m ρ c (Proc.devRef .tc main_arg26) := W6_of_ne m ρ c main_arg26 (by decide)
    _ = W4 m ρ c (Proc.devRef .tc main_arg26) := StableHlo.after_of_writes_sub hostOps2 _ hostOps2_writes (by decide)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl

set_option maxHeartbeats 4000000 in
theorem at9_main_v309 (c : Dev nD) : W18 m ρ c (Proc.devRef .tc main_v309) = W16 m ρ c (Proc.devRef .tc main_v309) :=
  calc W18 m ρ c (Proc.devRef .tc main_v309)
    _ = W17 m ρ c (Proc.devRef .tc main_v309) := W18_of_ne m ρ c main_v309 (by decide)
    _ = W16 m ρ c (Proc.devRef .tc main_v309) := StableHlo.after_of_writes_sub hostOps8 _ hostOps8_writes (by decide)

set_option maxHeartbeats 4000000 in
theorem at9_main_v59 (c : Dev nD) : W18 m ρ c (Proc.devRef .tc main_v59) = W7 m ρ c (Proc.devRef .tc main_v59) :=
  calc W18 m ρ c (Proc.devRef .tc main_v59)
    _ = W17 m ρ c (Proc.devRef .tc main_v59) := W18_of_ne m ρ c main_v59 (by decide)
    _ = W16 m ρ c (Proc.devRef .tc main_v59) := StableHlo.after_of_writes_sub hostOps8 _ hostOps8_writes (by decide)
    _ = W15 m ρ c (Proc.devRef .tc main_v59) := W16_of_ne m ρ c main_v59 (by decide)
    _ = W14 m ρ c (Proc.devRef .tc main_v59) := StableHlo.after_of_writes_sub hostOps7 _ hostOps7_writes (by decide)
    _ = W13 m ρ c (Proc.devRef .tc main_v59) := W14_of_ne m ρ c main_v59 (by decide)
    _ = W12 m ρ c (Proc.devRef .tc main_v59) := StableHlo.after_of_writes_sub hostOps6 _ hostOps6_writes (by decide)
    _ = W11 m ρ c (Proc.devRef .tc main_v59) := W12_of_ne m ρ c main_v59 (by decide)
    _ = W10 m ρ c (Proc.devRef .tc main_v59) := StableHlo.after_of_writes_sub hostOps5 _ hostOps5_writes (by decide)
    _ = W9 m ρ c (Proc.devRef .tc main_v59) := W10_of_ne m ρ c main_v59 (by decide)
    _ = W8 m ρ c (Proc.devRef .tc main_v59) := StableHlo.after_of_writes_sub hostOps4 _ hostOps4_writes (by decide)
    _ = W7 m ρ c (Proc.devRef .tc main_v59) := W8_of_ne m ρ c main_v59 (by decide)

set_option maxHeartbeats 4000000 in
theorem at9_main_arg11 (c : Dev nD) : W18 m ρ c (Proc.devRef .tc main_arg11) = m ((c : Thread nD τ).loc main_arg11) :=
  calc W18 m ρ c (Proc.devRef .tc main_arg11)
    _ = W17 m ρ c (Proc.devRef .tc main_arg11) := W18_of_ne m ρ c main_arg11 (by decide)
    _ = W16 m ρ c (Proc.devRef .tc main_arg11) := StableHlo.after_of_writes_sub hostOps8 _ hostOps8_writes (by decide)
    _ = W15 m ρ c (Proc.devRef .tc main_arg11) := W16_of_ne m ρ c main_arg11 (by decide)
    _ = W14 m ρ c (Proc.devRef .tc main_arg11) := StableHlo.after_of_writes_sub hostOps7 _ hostOps7_writes (by decide)
    _ = W13 m ρ c (Proc.devRef .tc main_arg11) := W14_of_ne m ρ c main_arg11 (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

set_option maxHeartbeats 4000000 in
theorem at9_main_arg10 (c : Dev nD) : W18 m ρ c (Proc.devRef .tc main_arg10) = m ((c : Thread nD τ).loc main_arg10) :=
  calc W18 m ρ c (Proc.devRef .tc main_arg10)
    _ = W17 m ρ c (Proc.devRef .tc main_arg10) := W18_of_ne m ρ c main_arg10 (by decide)
    _ = W16 m ρ c (Proc.devRef .tc main_arg10) := StableHlo.after_of_writes_sub hostOps8 _ hostOps8_writes (by decide)
    _ = W15 m ρ c (Proc.devRef .tc main_arg10) := W16_of_ne m ρ c main_arg10 (by decide)
    _ = W14 m ρ c (Proc.devRef .tc main_arg10) := StableHlo.after_of_writes_sub hostOps7 _ hostOps7_writes (by decide)
    _ = W13 m ρ c (Proc.devRef .tc main_arg10) := W14_of_ne m ρ c main_arg10 (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

set_option maxHeartbeats 4000000 in
theorem at9_main_arg9 (c : Dev nD) : W18 m ρ c (Proc.devRef .tc main_arg9) = m ((c : Thread nD τ).loc main_arg9) :=
  calc W18 m ρ c (Proc.devRef .tc main_arg9)
    _ = W17 m ρ c (Proc.devRef .tc main_arg9) := W18_of_ne m ρ c main_arg9 (by decide)
    _ = W16 m ρ c (Proc.devRef .tc main_arg9) := StableHlo.after_of_writes_sub hostOps8 _ hostOps8_writes (by decide)
    _ = W15 m ρ c (Proc.devRef .tc main_arg9) := W16_of_ne m ρ c main_arg9 (by decide)
    _ = W14 m ρ c (Proc.devRef .tc main_arg9) := StableHlo.after_of_writes_sub hostOps7 _ hostOps7_writes (by decide)
    _ = W13 m ρ c (Proc.devRef .tc main_arg9) := W14_of_ne m ρ c main_arg9 (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

end Cert.KernelIdeal.Carry

end
-- ==== Proof.RegionValue9.lean ====
/- Region 9 (the last SAGE layer: no relu): the output array after the region, entry by entry, as a function of the operand
   arrays the region finds. Each grid point t computes rows 2000 t … 2000 t + 1999 of the layer from the same rows of
   the three row operands and the whole weights and bias; the 10 blocks tile the 20000 rows, so the array ends holding
   the layer's value at every entry. -/
import proofs.«138545_j63058709840619_2_alg».proof.Proof.FrameKIR9
import proofs.«138545_j63058709840619_2_alg».proof.Proof.SageBody
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.SageBody
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The operand arrays as the region finds them, at their literal types -/

abbrev in9_a1 (c : Dev nD) : Vec Ideal S20000x150 .f32 := V c main_v376
abbrev in9_w1 (c : Dev nD) : Vec Ideal S150x150 .f32 := V c main_v405
abbrev in9_a2 (c : Dev nD) : Vec Ideal S20000x150 .f32 := V c main_v393
abbrev in9_w2 (c : Dev nD) : Vec Ideal S150x150 .f32 := V c main_v407
abbrev in9_xd (c : Dev nD) : Vec Ideal S20000x150 .bf16 := V c main_v359
abbrev in9_wr (c : Dev nD) : Vec Ideal S150x150 .f32 := V c main_v398
abbrev in9_b (c : Dev nD) : Vec Ideal S1x150 .f32 := V c main_v408

/-! ## The block indices over the grid -/

/-- The printed index maps, decided over the grid: the row operands and the output take block row t at point t, the
    weights and the bias their one block. -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0 :=
  (by decide +kernel : ∀ t : Fin grid9.N, _)

/-! ## The input blocks as parts of their arrays -/

/-- Window 0's block at point t is rows 2000 t … 2000 t + 1999 of its array. -/
theorem blk9_0 (c : Dev nD) (t : Fin cfg9.N) (x : S2000x150.Idx) (i : S20000x150.Idx)
    (h0 : (i 0).val = t.val * 2000 + (x 0).val) (h1 : (i 1).val = (x 1).val) :
    (iblk9 V c 0 t : Vec Ideal S2000x150 .f32) x = in9_a1 V c i := by
  obtain ⟨e00, e01, e10, e11, e20, e21, e30, e31, e40, e41, e50, e51, e60, e61, e70, e71⟩ := idx9 t
  show V c main_v376 (((cfg9.win 0).blk t).view.emb x) = V c main_v376 i
  refine congrArg (V c main_v376) (funext fun a => Fin.ext ?_)
  match a with
  | ⟨0, _⟩ => show win9_0.index t (0 : Fin 2) * 2000 + 1 * (x 0).val = (i 0).val; rw [e00, h0]; omega
  | ⟨1, _⟩ => show win9_0.index t (1 : Fin 2) * 150 + 1 * (x 1).val = (i 1).val; rw [e01, h1]; omega

/-- Window 1's block is its whole array at every point. -/
theorem blk9_1 (c : Dev nD) (t : Fin cfg9.N) : (iblk9 V c 1 t : Vec Ideal S150x150 .f32) = in9_w1 V c := by
  obtain ⟨e00, e01, e10, e11, e20, e21, e30, e31, e40, e41, e50, e51, e60, e61, e70, e71⟩ := idx9 t
  funext x
  show V c main_v405 (((cfg9.win 1).blk t).view.emb x) = V c main_v405 x
  refine congrArg (V c main_v405) (funext fun a => Fin.ext ?_)
  match a with
  | ⟨0, _⟩ => show win9_1.index t (0 : Fin 2) * 150 + 1 * (x 0).val = (x 0).val; rw [e10]; omega
  | ⟨1, _⟩ => show win9_1.index t (1 : Fin 2) * 150 + 1 * (x 1).val = (x 1).val; rw [e11]; omega

/-- Window 2's block at point t is rows 2000 t … 2000 t + 1999 of its array. -/
theorem blk9_2 (c : Dev nD) (t : Fin cfg9.N) (x : S2000x150.Idx) (i : S20000x150.Idx)
    (h0 : (i 0).val = t.val * 2000 + (x 0).val) (h1 : (i 1).val = (x 1).val) :
    (iblk9 V c 2 t : Vec Ideal S2000x150 .f32) x = in9_a2 V c i := by
  obtain ⟨e00, e01, e10, e11, e20, e21, e30, e31, e40, e41, e50, e51, e60, e61, e70, e71⟩ := idx9 t
  show V c main_v393 (((cfg9.win 2).blk t).view.emb x) = V c main_v393 i
  refine congrArg (V c main_v393) (funext fun a => Fin.ext ?_)
  match a with
  | ⟨0, _⟩ => show win9_2.index t (0 : Fin 2) * 2000 + 1 * (x 0).val = (i 0).val; rw [e20, h0]; omega
  | ⟨1, _⟩ => show win9_2.index t (1 : Fin 2) * 150 + 1 * (x 1).val = (i 1).val; rw [e21, h1]; omega

/-- Window 3's block is its whole array at every point. -/
theorem blk9_3 (c : Dev nD) (t : Fin cfg9.N) : (iblk9 V c 3 t : Vec Ideal S150x150 .f32) = in9_w2 V c := by
  obtain ⟨e00, e01, e10, e11, e20, e21, e30, e31, e40, e41, e50, e51, e60, e61, e70, e71⟩ := idx9 t
  funext x
  show V c main_v407 (((cfg9.win 3).blk t).view.emb x) = V c main_v407 x
  refine congrArg (V c main_v407) (funext fun a => Fin.ext ?_)
  match a with
  | ⟨0, _⟩ => show win9_3.index t (0 : Fin 2) * 150 + 1 * (x 0).val = (x 0).val; rw [e30]; omega
  | ⟨1, _⟩ => show win9_3.index t (1 : Fin 2) * 150 + 1 * (x 1).val = (x 1).val; rw [e31]; omega

/-- Window 4's block at point t is rows 2000 t … 2000 t + 1999 of its array. -/
theorem blk9_4 (c : Dev nD) (t : Fin cfg9.N) (x : S2000x150.Idx) (i : S20000x150.Idx)
    (h0 : (i 0).val = t.val * 2000 + (x 0).val) (h1 : (i 1).val = (x 1).val) :
    (iblk9 V c 4 t : Vec Ideal S2000x150 .bf16) x = in9_xd V c i := by
  obtain ⟨e00, e01, e10, e11, e20, e21, e30, e31, e40, e41, e50, e51, e60, e61, e70, e71⟩ := idx9 t
  show V c main_v359 (((cfg9.win 4).blk t).view.emb x) = V c main_v359 i
  refine congrArg (V c main_v359) (funext fun a => Fin.ext ?_)
  match a with
  | ⟨0, _⟩ => show win9_4.index t (0 : Fin 2) * 2000 + 1 * (x 0).val = (i 0).val; rw [e40, h0]; omega
  | ⟨1, _⟩ => show win9_4.index t (1 : Fin 2) * 150 + 1 * (x 1).val = (i 1).val; rw [e41, h1]; omega

/-- Window 5's block is its whole array at every point. -/
theorem blk9_5 (c : Dev nD) (t : Fin cfg9.N) : (iblk9 V c 5 t : Vec Ideal S150x150 .f32) = in9_wr V c := by
  obtain ⟨e00, e01, e10, e11, e20, e21, e30, e31, e40, e41, e50, e51, e60, e61, e70, e71⟩ := idx9 t
  funext x
  show V c main_v398 (((cfg9.win 5).blk t).view.emb x) = V c main_v398 x
  refine congrArg (V c main_v398) (funext fun a => Fin.ext ?_)
  match a with
  | ⟨0, _⟩ => show win9_5.index t (0 : Fin 2) * 150 + 1 * (x 0).val = (x 0).val; rw [e50]; omega
  | ⟨1, _⟩ => show win9_5.index t (1 : Fin 2) * 150 + 1 * (x 1).val = (x 1).val; rw [e51]; omega

/-- Window 6's block is its whole array at every point. -/
theorem blk9_6 (c : Dev nD) (t : Fin cfg9.N) : (iblk9 V c 6 t : Vec Ideal S1x150 .f32) = in9_b V c := by
  obtain ⟨e00, e01, e10, e11, e20, e21, e30, e31, e40, e41, e50, e51, e60, e61, e70, e71⟩ := idx9 t
  funext x
  show V c main_v408 (((cfg9.win 6).blk t).view.emb x) = V c main_v408 x
  refine congrArg (V c main_v408) (funext fun a => Fin.ext ?_)
  match a with
  | ⟨0, _⟩ => show win9_6.index t (0 : Fin 2) * 1 + 1 * (x 0).val = (x 0).val; rw [e60]; omega
  | ⟨1, _⟩ => show win9_6.index t (1 : Fin 2) * 150 + 1 * (x 1).val = (x 1).val; rw [e61]; omega

/-! ## The block a point writes back -/

/-- What the body leaves in the output window's buffer, at an entry: the layer's value on the input blocks. -/
theorem out9_at (x0 : Vec Ideal S2000x150 .f32) (x1 : Vec Ideal S150x150 .f32) (x2 : Vec Ideal S2000x150 .f32) (x3 : Vec Ideal S150x150 .f32)
    (x4 : Vec Ideal S2000x150 .bf16) (x5 : Vec Ideal S150x150 .f32) (x6 : Vec Ideal S1x150 .f32) (y : S2000x150.Idx) :
    out9_7 (F := Ideal) x0 x1 x2 x3 x4 x5 x6 y = layer (n := 2000) x0 x1 x2 x3 x4 x5 x6 (y 0) (y 1) := by
  obtain ⟨p, q, rfl⟩ : ∃ (p : Fin 2000) (q : Fin 150), y = ix2 p q := ⟨y 0, y 1, eq_ix2 y⟩
  unfold out9_7
  rw [View.canon_unit_zero hz]
  simp only [View.ld_unit_zero (S := S2000x150) hz, View.ld_unit_zero (S := S150x150) hz, View.ld_unit_zero (S := S1x150) hz]
  exact k9_pay1_at x0 x1 x2 x3 x4 x5 x6 p q

/-- The layer on the whole arrays, entry by entry: what the output array ends holding. -/
abbrev G9 (c : Dev nD) : S20000x150.Idx → EReal := fun i =>
  layer (n := 20000) (in9_a1 V c) (in9_w1 V c) (in9_a2 V c) (in9_w2 V c) (in9_xd V c) (in9_wr V c) (in9_b V c) (i 0) (i 1)

/-- WHAT POINT t WRITES BACK is block t of the layer on the whole arrays. -/
theorem flushed9 (c : Dev nD) (t : Fin cfg9.N) :
    (dat9 (F := Ideal) V c).flushed 7 t = ((cfg9.win 7).blk t).view.read (Elt Ideal) (G9 V c) := by
  show (cfg9.win 7).cut (grid9.coords t) ((dat9 (F := Ideal) V c).after 7 t) = _
  rw [after9_7]
  obtain ⟨e00, e01, e10, e11, e20, e21, e30, e31, e40, e41, e50, e51, e60, e61, e70, e71⟩ := idx9 t
  funext j
  have hj0 : (j 0).val < 2000 := (j 0).isLt
  have hj1 : (j 1).val < 150 := (j 1).isLt
  refine (out9_at (iblk9 V c 0 t) (iblk9 V c 1 t) (iblk9 V c 2 t) (iblk9 V c 3 t) (iblk9 V c 4 t) (iblk9 V c 5 t) (iblk9 V c 6 t) ((cfg9.win 7).xinj (grid9.coords t) j)).trans ?_
  show layer (n := 2000) (iblk9 V c 0 t) (iblk9 V c 1 t) (iblk9 V c 2 t) (iblk9 V c 3 t) (iblk9 V c 4 t) (iblk9 V c 5 t) (iblk9 V c 6 t) ((cfg9.win 7).xinj (grid9.coords t) j 0) ((cfg9.win 7).xinj (grid9.coords t) j 1)
    = layer (n := 20000) (in9_a1 V c) (in9_w1 V c) (in9_a2 V c) (in9_w2 V c) (in9_xd V c) (in9_wr V c) (in9_b V c) ((((cfg9.win 7).blk t).view.emb j) 0) ((((cfg9.win 7).blk t).view.emb j) 1)
  have hr : (((cfg9.win 7).blk t).view.emb j 0).val = t.val * 2000 + (j 0).val := by
    show win9_7.index t (0 : Fin 2) * 2000 + 1 * (j 0).val = _; rw [e70]; omega
  have hc : (((cfg9.win 7).blk t).view.emb j 1).val = (j 1).val := by
    show win9_7.index t (1 : Fin 2) * 150 + 1 * (j 1).val = _; rw [e71]; omega
  exact (layer_congr (n := 2000) (m := 20000)
    (iblk9 V c 0 t) (iblk9 V c 2 t) (iblk9 V c 4 t) (in9_a1 V c) (in9_a2 V c) (in9_xd V c)
    (iblk9 V c 1 t) (iblk9 V c 3 t) (iblk9 V c 5 t) (in9_w1 V c) (in9_w2 V c) (in9_wr V c) (iblk9 V c 6 t) (in9_b V c)
    ((cfg9.win 7).xinj (grid9.coords t) j 0) (((cfg9.win 7).blk t).view.emb j 0)
    ((cfg9.win 7).xinj (grid9.coords t) j 1) (((cfg9.win 7).blk t).view.emb j 1)
    (fun k => blk9_0 V c t _ _ hr rfl) (fun k => blk9_2 V c t _ _ hr rfl) (fun k => blk9_4 V c t _ _ hr rfl)
    (blk9_1 V c t) (blk9_3 V c t) (blk9_5 V c t) (blk9_6 V c t) (Fin.ext hc.symm))

/-! ## The blocks tile the array -/

/-- An index of the array is in point t's block iff each coordinate is in the block's range on its axis. -/
theorem mem_blk9 (t : Fin cfg9.N) (i : S20000x150.Idx) :
    i ∈ ((cfg9.win 7).blk t).view.set ↔ ∀ a : Fin 2, win9_7.index t a * S2000x150.size a ≤ (i a).val ∧ (i a).val < win9_7.index t a * S2000x150.size a + S2000x150.size a := by
  show i ∈ ((View.whole main_v409).slice (win9_7.rect t)).set ↔ _
  rw [View.set_slice_whole, Rect.mem_set_unit]
  exact Iff.rfl

/-- Every entry of the array is in the block of the point its row falls to. -/
theorem cover9 (i : S20000x150.Idx) : ∃ t : Fin cfg9.N, (cfg9.win 7).flush t = true ∧ i ∈ ((cfg9.win 7).blk t).view.set := by
  have hi0 : (i 0).val < 20000 := (i 0).isLt
  have hi1 : (i 1).val < 150 := (i 1).isLt
  obtain ⟨t, ht⟩ : ∃ t : Fin cfg9.N, t.val = (i 0).val / 2000 :=
    ⟨⟨(i 0).val / 2000, Nat.lt_of_lt_of_eq (by omega : (i 0).val / 2000 < 10) N_9.symm⟩, rfl⟩
  obtain ⟨e00, e01, e10, e11, e20, e21, e30, e31, e40, e41, e50, e51, e60, e61, e70, e71⟩ := idx9 t
  refine ⟨t, flush9_7 t, ?_⟩
  rw [mem_blk9]
  intro a
  match a with
  | ⟨0, _⟩ => show win9_7.index t (0 : Fin 2) * 2000 ≤ (i 0).val ∧ (i 0).val < win9_7.index t (0 : Fin 2) * 2000 + 2000; rw [e70, ht]; omega
  | ⟨1, _⟩ => show win9_7.index t (1 : Fin 2) * 150 ≤ (i 1).val ∧ (i 1).val < win9_7.index t (1 : Fin 2) * 150 + 150; rw [e71]; omega

/-! ## The array after the region -/

/-- THE OUTPUT ARRAY after region 9, at entry (p, q): the layer's value on the operand arrays as the region finds them. -/
theorem region9 (c : Dev nD) (p : Fin 20000) (q : Fin 150) :
    (dat9 (F := Ideal) V c).arrAt 7 cfg9.N (ix2 p q)
      = (((∑ k : Fin 150, in9_a1 V c (ix2 p k) * in9_w1 V c (ix2 k q)) + (∑ k : Fin 150, in9_a2 V c (ix2 p k) * in9_w2 V c (ix2 k q))) + (∑ k : Fin 150, in9_xd V c (ix2 p k) * in9_wr V c (ix2 k q))) + in9_b V c (ix2 0 q) :=
  congrFun ((dat9 (F := Ideal) V c).arrAt_eq_of_cover 7 (G9 V c) (fun t _ => flushed9 V c t) cover9) (ix2 p q)

/-- The same over any arrays equal to the operand arrays: the form to instantiate. -/
theorem region9_at (c : Dev nD) (A1 : Vec Ideal S20000x150 .f32) (W1 : Vec Ideal S150x150 .f32) (A2 : Vec Ideal S20000x150 .f32) (W2 : Vec Ideal S150x150 .f32)
    (XD : Vec Ideal S20000x150 .bf16) (WR : Vec Ideal S150x150 .f32) (B : Vec Ideal S1x150 .f32)
    (hA1 : A1 = V c main_v376) (hW1 : W1 = V c main_v405) (hA2 : A2 = V c main_v393) (hW2 : W2 = V c main_v407)
    (hXD : XD = V c main_v359) (hWR : WR = V c main_v398) (hB : B = V c main_v408) (p : Fin 20000) (q : Fin 150) :
    (dat9 (F := Ideal) V c).arrAt 7 cfg9.N (ix2 p q)
      = (((∑ k : Fin 150, A1 (ix2 p k) * W1 (ix2 k q)) + (∑ k : Fin 150, A2 (ix2 p k) * W2 (ix2 k q))) + (∑ k : Fin 150, XD (ix2 p k) * WR (ix2 k q))) + B (ix2 0 q) := by
  subst hA1 hW1 hA2 hW2 hXD hWR hB
  exact region9 V c p q

end Cert.KernelIdeal.RegionValue

end
-- ==== Proof.Step9.lean ====
/-
  Launch 9 (the last of the two-branch mean-aggregation layers, the one without a rectifier): at the exit of the
  launch the kernel's output array is, entry by entry, the reference's feature of the layer's destination node type.

  One entry (p, q). The kernel adds the two aggregated products, then the destination row against the SUM of the two
  root matrices, then the SUM of the two biases:
      ((Σk A1[p,k] W1[k,q] + Σk A2[p,k] W2[k,q]) + Σk X[p,k] (R1 + R2)[k,q]) + (b1 + b2)[q].
  The reference computes each branch by itself and adds the branches:
      ((Σk A1[p,k] W1[k,q] + b1[q]) + Σk X[p,k] R1[k,q]) + ((Σk A2[p,k] W2[k,q] + b2[q]) + Σk X[p,k] R2[k,q]).
  The two agree when the destination row X[p,·] and the root matrices R1, R2 are real (a product distributes over a
  sum of extended reals only away from the infinities): the combine law of the algebra module.

  The operands. A1 and A2 are mean aggregations: a source feature gathered along the edges, summed into the
  destination rows, and divided by the in-degree (at least one). The kernel's program and the reference apply the SAME
  host operations to the same source features and the same edge lists, so the two aggregations are one term; the only
  difference is that the kernel gathers rows kept in the narrow float format and widens them, which is the identity at
  the ideal values. The in-degree columns are computed once, before the first aggregation layer, and reach this launch
  unchanged. W1, W2, R1, R2, b1, b2 are slices of the stacked weight, root and bias arguments; the kernel adds the two
  root slices and the two bias slices before the launch, and keeps the bias sum as a [1 × 150] row.
-/
import proofs.«138545_j63058709840619_2_alg».proof.Proof.FrameKIW
import proofs.«138545_j63058709840619_2_alg».proof.Proof.Carry3
import proofs.«138545_j63058709840619_2_alg».proof.Proof.Carry9
import proofs.«138545_j63058709840619_2_alg».proof.Proof.RegionValue9
import proofs.«138545_j63058709840619_2_alg».proof.Proof.RefRead
import proofs.«138545_j63058709840619_2_alg».proof.Proof.Algebra
import proofs.«138545_j63058709840619_2_alg».proof.Proof.OpsFinite
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal
import Idealize.ShloMosaic.PureOps.Ideal.Laws

set_option maxRecDepth 16384
set_option quotPrecheck false

noncomputable section

open scoped BigOperators

namespace Cert.Bridge

open Cert.KernelIdeal Cert.KernelIdeal.Gen Cert.Algebra
open Idealize.ShloMosaic Idealize.ShloMosaic.TcCoe Idealize.ShloMosaic.ValueIdx Idealize.ShloMosaic.StableHlo
open Idealize.SL Idealize.SL.Sem

/-! ## The reference side, at one entry -/

/-- The reference's feature at entry (p, q): per branch, the aggregated row against the weight's column, plus the
    bias at `q`, plus the destination row against the root's column; the two branches added. -/
theorem ref9_at
    (x0 : (⟨Cert.ReferenceIdeal.S50000x768, .f32⟩ : BufTy).Contents (Elt Ideal))
    (x1 : (⟨Cert.ReferenceIdeal.S2000x768, .f32⟩ : BufTy).Contents (Elt Ideal))
    (x2 : (⟨Cert.ReferenceIdeal.S20000x1024, .f32⟩ : BufTy).Contents (Elt Ideal))
    (x3 : (⟨Cert.ReferenceIdeal.S768x150, .f32⟩ : BufTy).Contents (Elt Ideal))
    (x4 : (⟨Cert.ReferenceIdeal.S150, .f32⟩ : BufTy).Contents (Elt Ideal))
    (x5 : (⟨Cert.ReferenceIdeal.S768x150, .f32⟩ : BufTy).Contents (Elt Ideal))
    (x6 : (⟨Cert.ReferenceIdeal.S150, .f32⟩ : BufTy).Contents (Elt Ideal))
    (x7 : (⟨Cert.ReferenceIdeal.S1024x150, .f32⟩ : BufTy).Contents (Elt Ideal))
    (x8 : (⟨Cert.ReferenceIdeal.S150, .f32⟩ : BufTy).Contents (Elt Ideal))
    (x9 : (⟨Cert.ReferenceIdeal.S3x6x150x150, .f32⟩ : BufTy).Contents (Elt Ideal))
    (x10 : (⟨Cert.ReferenceIdeal.S3x6x150, .f32⟩ : BufTy).Contents (Elt Ideal))
    (x11 : (⟨Cert.ReferenceIdeal.S3x6x150x150, .f32⟩ : BufTy).Contents (Elt Ideal))
    (x24 : (⟨Cert.ReferenceIdeal.S2x500000, .i32⟩ : BufTy).Contents (Elt Ideal))
    (x25 x26 : (⟨Cert.ReferenceIdeal.S2x200000, .i32⟩ : BufTy).Contents (Elt Ideal)) (p : Fin 20000) (q : Fin 150) :
    Cert.ReferenceIdeal.Read.val_main_v656 (F := Ideal) x0 x1 x2 x3 x4 x5 x6 x7 x8 x9 x10 x11 x24 x25 x26 (ix2 p q)
      = (((∑ k : Fin 150, Cert.ReferenceIdeal.Read.val_main_v608 (F := Ideal) x0 x1 x2 x3 x4 x5 x6 x7 x8 x9 x10 x11 x24 x25 x26 (ix2 p k) * Cert.ReferenceIdeal.Read.val_main_v610 (F := Ideal) x9 (ix2 k q))
              + Cert.ReferenceIdeal.Read.val_main_v613 (F := Ideal) x10 (ix1 q))
            + ∑ k : Fin 150, Cert.ReferenceIdeal.Read.val_main_v443 (F := Ideal) x0 x1 x2 x3 x4 x5 x6 x7 x8 x9 x10 x11 x24 x25 x26 (ix2 p k) * Cert.ReferenceIdeal.Read.val_main_v618 (F := Ideal) x11 (ix2 k q))
          + (((∑ k : Fin 150, Cert.ReferenceIdeal.Read.val_main_v643 (F := Ideal) x0 x1 x2 x3 x4 x5 x6 x7 x8 x9 x10 x11 x24 x25 x26 (ix2 p k) * Cert.ReferenceIdeal.Read.val_main_v645 (F := Ideal) x9 (ix2 k q))
              + Cert.ReferenceIdeal.Read.val_main_v648 (F := Ideal) x10 (ix1 q))
            + ∑ k : Fin 150, Cert.ReferenceIdeal.Read.val_main_v443 (F := Ideal) x0 x1 x2 x3 x4 x5 x6 x7 x8 x9 x10 x11 x24 x25 x26 (ix2 p k) * Cert.ReferenceIdeal.Read.val_main_v653 (F := Ideal) x11 (ix2 k q)) := by
  rw [Cert.ReferenceIdeal.Read.val_main_v656_apply, Cert.ReferenceIdeal.Read.val_main_v620_apply, Cert.ReferenceIdeal.Read.val_main_v616_apply,
    Cert.ReferenceIdeal.Read.val_main_v611_apply, Cert.ReferenceIdeal.Read.val_main_v615_apply, Cert.ReferenceIdeal.Read.val_main_v614_apply,
    Cert.ReferenceIdeal.Read.val_main_v619_apply, Cert.ReferenceIdeal.Read.val_main_v655_apply, Cert.ReferenceIdeal.Read.val_main_v651_apply,
    Cert.ReferenceIdeal.Read.val_main_v646_apply, Cert.ReferenceIdeal.Read.val_main_v650_apply, Cert.ReferenceIdeal.Read.val_main_v649_apply,
    Cert.ReferenceIdeal.Read.val_main_v654_apply]
  simp only [Ideal.addf_def]
  -- the indices the reads name are the coordinates written out
  have hl1 : ∀ k : Fin 150, Cert.ReferenceIdeal.Read.lidx_main_v611 (ix2 p q) k = ix2 p k := fun k =>
    funext fun a => Fin.ext (by match a with | ⟨0, _⟩ => rfl | ⟨1, _⟩ => rfl)
  have hr1 : ∀ k : Fin 150, Cert.ReferenceIdeal.Read.ridx_main_v611 (ix2 p q) k = ix2 k q := fun k =>
    funext fun a => Fin.ext (by match a with | ⟨0, _⟩ => rfl | ⟨1, _⟩ => rfl)
  have hl2 : ∀ k : Fin 150, Cert.ReferenceIdeal.Read.lidx_main_v619 (ix2 p q) k = ix2 p k := fun k =>
    funext fun a => Fin.ext (by match a with | ⟨0, _⟩ => rfl | ⟨1, _⟩ => rfl)
  have hr2 : ∀ k : Fin 150, Cert.ReferenceIdeal.Read.ridx_main_v619 (ix2 p q) k = ix2 k q := fun k =>
    funext fun a => Fin.ext (by match a with | ⟨0, _⟩ => rfl | ⟨1, _⟩ => rfl)
  have hl3 : ∀ k : Fin 150, Cert.ReferenceIdeal.Read.lidx_main_v646 (ix2 p q) k = ix2 p k := fun k =>
    funext fun a => Fin.ext (by match a with | ⟨0, _⟩ => rfl | ⟨1, _⟩ => rfl)
  have hr3 : ∀ k : Fin 150, Cert.ReferenceIdeal.Read.ridx_main_v646 (ix2 p q) k = ix2 k q := fun k =>
    funext fun a => Fin.ext (by match a with | ⟨0, _⟩ => rfl | ⟨1, _⟩ => rfl)
  have hl4 : ∀ k : Fin 150, Cert.ReferenceIdeal.Read.lidx_main_v654 (ix2 p q) k = ix2 p k := fun k =>
    funext fun a => Fin.ext (by match a with | ⟨0, _⟩ => rfl | ⟨1, _⟩ => rfl)
  have hr4 : ∀ k : Fin 150, Cert.ReferenceIdeal.Read.ridx_main_v654 (ix2 p q) k = ix2 k q := fun k =>
    funext fun a => Fin.ext (by match a with | ⟨0, _⟩ => rfl | ⟨1, _⟩ => rfl)
  have hb1 : Cert.ReferenceIdeal.Read.idx_main_v614 (Cert.ReferenceIdeal.Read.idx_main_v615 (ix2 p q)) = ix1 q :=
    funext fun a => Fin.ext (by match a with | ⟨0, _⟩ => rfl)
  have hb2 : Cert.ReferenceIdeal.Read.idx_main_v649 (Cert.ReferenceIdeal.Read.idx_main_v650 (ix2 p q)) = ix1 q :=
    funext fun a => Fin.ext (by match a with | ⟨0, _⟩ => rfl)
  simp only [hl1, hr1, hl2, hr2, hl3, hr3, hl4, hr4, hb1, hb2]

/-- A root slice of a real stacked root argument is real: its entries are entries of the argument. -/
theorem real9_wr1 (x11 : (⟨Cert.ReferenceIdeal.S3x6x150x150, .f32⟩ : BufTy).Contents (Elt Ideal)) (h : AllReal x11) :
    AllReal (Cert.ReferenceIdeal.Read.val_main_v618 (F := Ideal) x11) := by
  unfold Cert.ReferenceIdeal.Read.val_main_v618 Cert.ReferenceIdeal.Read.val_main_v617
  exact Cert.OpsFinite.allReal_shapeCast (Cert.OpsFinite.allReal_extractStridedSlice h)
theorem real9_wr2 (x11 : (⟨Cert.ReferenceIdeal.S3x6x150x150, .f32⟩ : BufTy).Contents (Elt Ideal)) (h : AllReal x11) :
    AllReal (Cert.ReferenceIdeal.Read.val_main_v653 (F := Ideal) x11) := by
  unfold Cert.ReferenceIdeal.Read.val_main_v653 Cert.ReferenceIdeal.Read.val_main_v652
  exact Cert.OpsFinite.allReal_shapeCast (Cert.OpsFinite.allReal_extractStridedSlice h)

/-! ## The host operations before the launch, over any buffer contents

Each lemma takes the contents `V0` of the buffers before a stretch of host operations and what `V0` holds at the
buffers the stretch reads, and gives what one buffer holds after the stretch as the reference's term. -/

/-- At the ideal values widening the narrow float format is the identity. -/
theorem extf9_id {s : Shape} (x : FVec Ideal s .bf16) (h : FTy.bits .bf16 < FTy.bits .f32) :
    (extf (F := Ideal) .f32 x h : s.Idx → EReal) = x := rfl

section Stretch

variable (V0 : Valuation τ sig (Elt Ideal))
variable {x0 : (⟨Cert.ReferenceIdeal.S50000x768, .f32⟩ : BufTy).Contents (Elt Ideal)}
variable {x1 : (⟨Cert.ReferenceIdeal.S2000x768, .f32⟩ : BufTy).Contents (Elt Ideal)}
variable {x2 : (⟨Cert.ReferenceIdeal.S20000x1024, .f32⟩ : BufTy).Contents (Elt Ideal)}
variable {x3 : (⟨Cert.ReferenceIdeal.S768x150, .f32⟩ : BufTy).Contents (Elt Ideal)}
variable {x4 : (⟨Cert.ReferenceIdeal.S150, .f32⟩ : BufTy).Contents (Elt Ideal)}
variable {x5 : (⟨Cert.ReferenceIdeal.S768x150, .f32⟩ : BufTy).Contents (Elt Ideal)}
variable {x6 : (⟨Cert.ReferenceIdeal.S150, .f32⟩ : BufTy).Contents (Elt Ideal)}
variable {x7 : (⟨Cert.ReferenceIdeal.S1024x150, .f32⟩ : BufTy).Contents (Elt Ideal)}
variable {x8 : (⟨Cert.ReferenceIdeal.S150, .f32⟩ : BufTy).Contents (Elt Ideal)}
variable {x9 : (⟨Cert.ReferenceIdeal.S3x6x150x150, .f32⟩ : BufTy).Contents (Elt Ideal)}
variable {x10 : (⟨Cert.ReferenceIdeal.S3x6x150, .f32⟩ : BufTy).Contents (Elt Ideal)}
variable {x11 : (⟨Cert.ReferenceIdeal.S3x6x150x150, .f32⟩ : BufTy).Contents (Elt Ideal)}
variable {x24 : (⟨Cert.ReferenceIdeal.S2x500000, .i32⟩ : BufTy).Contents (Elt Ideal)}
variable {x25 x26 : (⟨Cert.ReferenceIdeal.S2x200000, .i32⟩ : BufTy).Contents (Elt Ideal)}

/-- The first branch's in-degree column, computed before the first aggregation layer from the destination row of the
    branch's edge list, is the reference's: the same operations on the same edge list. -/
theorem cnt9_a (hE1 : V0 (Proc.devRef .tc main_arg24) = x24) :
    (StableHlo.after hostOps3 V0 (Proc.devRef .tc main_v50) : Cert.ReferenceIdeal.S20000x1.Idx → EReal)
      = Cert.ReferenceIdeal.Read.val_main_v606 (F := Ideal) x24 := by
  after_results_simp
  rw [hE1]
  unfold Cert.ReferenceIdeal.Read.val_main_v606 Cert.ReferenceIdeal.Read.val_main_v605 Cert.ReferenceIdeal.Read.val_main_v603 Cert.ReferenceIdeal.Read.val_main_v601 Cert.ReferenceIdeal.Read.val_main_cst_98 Cert.ReferenceIdeal.Read.val_main_v602 Cert.ReferenceIdeal.Read.val_main_v589 Cert.ReferenceIdeal.Read.val_main_v588 Cert.ReferenceIdeal.Read.val_main_v600 Cert.ReferenceIdeal.Read.val_main_cst_97 Cert.ReferenceIdeal.Read.val_main_v604 Cert.ReferenceIdeal.Read.val_main_cst_99
  rfl

/-- The second branch's in-degree column. -/
theorem cnt9_b (hE2 : V0 (Proc.devRef .tc main_arg26) = x26) :
    (StableHlo.after hostOps3 V0 (Proc.devRef .tc main_v59) : Cert.ReferenceIdeal.S20000x1.Idx → EReal)
      = Cert.ReferenceIdeal.Read.val_main_v641 (F := Ideal) x26 := by
  after_results_simp
  rw [hE2]
  unfold Cert.ReferenceIdeal.Read.val_main_v641 Cert.ReferenceIdeal.Read.val_main_v640 Cert.ReferenceIdeal.Read.val_main_v638 Cert.ReferenceIdeal.Read.val_main_v636 Cert.ReferenceIdeal.Read.val_main_cst_104 Cert.ReferenceIdeal.Read.val_main_v637 Cert.ReferenceIdeal.Read.val_main_v624 Cert.ReferenceIdeal.Read.val_main_v623 Cert.ReferenceIdeal.Read.val_main_v635 Cert.ReferenceIdeal.Read.val_main_cst_103 Cert.ReferenceIdeal.Read.val_main_v639 Cert.ReferenceIdeal.Read.val_main_cst_105
  rfl

/-- Window 0: the first branch's mean aggregation, from the branch's edge list, its source feature and its in-degree
    column. -/
theorem op9_0 (hE1 : V0 (Proc.devRef .tc main_arg24) = x24)
    (hS1 : (V0 (Proc.devRef .tc main_v259) : Cert.ReferenceIdeal.S50000x150.Idx → EReal) = Cert.ReferenceIdeal.Read.val_main_v441 (F := Ideal) x0 x1 x2 x3 x4 x5 x6 x7 x8 x9 x10 x11 x24 x25 x26)
    (hC1 : (V0 (Proc.devRef .tc main_v50) : Cert.ReferenceIdeal.S20000x1.Idx → EReal) = Cert.ReferenceIdeal.Read.val_main_v606 (F := Ideal) x24) :
    (StableHlo.after hostOps9 V0 (Proc.devRef .tc main_v376) : Cert.ReferenceIdeal.S20000x150.Idx → EReal)
      = Cert.ReferenceIdeal.Read.val_main_v608 (F := Ideal) x0 x1 x2 x3 x4 x5 x6 x7 x8 x9 x10 x11 x24 x25 x26 := by
  after_results_simp
  rw [hE1, hS1, hC1, extf9_id]
  unfold Cert.ReferenceIdeal.Read.val_main_v608 Cert.ReferenceIdeal.Read.val_main_v599 Cert.ReferenceIdeal.Read.val_main_v597 Cert.ReferenceIdeal.Read.val_main_cst_96 Cert.ReferenceIdeal.Read.val_main_v598 Cert.ReferenceIdeal.Read.val_main_v589 Cert.ReferenceIdeal.Read.val_main_v588 Cert.ReferenceIdeal.Read.val_main_v596 Cert.ReferenceIdeal.Read.val_main_v595 Cert.ReferenceIdeal.Read.val_main_v594 Cert.ReferenceIdeal.Read.val_main_v591 Cert.ReferenceIdeal.Read.val_main_v587 Cert.ReferenceIdeal.Read.val_main_v586 Cert.ReferenceIdeal.Read.val_main_v590 Cert.ReferenceIdeal.Read.val_main_c_94 Cert.ReferenceIdeal.Read.val_main_v593 Cert.ReferenceIdeal.Read.val_main_v592 Cert.ReferenceIdeal.Read.val_main_c_95 Cert.ReferenceIdeal.Read.val_main_v607
  rfl

/-- Window 1: the first branch's weight, a slice of the stacked weights. -/
theorem op9_1 (hW : V0 (Proc.devRef .tc main_arg9) = x9) :
    (StableHlo.after hostOps9 V0 (Proc.devRef .tc main_v405) : Cert.ReferenceIdeal.S150x150.Idx → EReal)
      = Cert.ReferenceIdeal.Read.val_main_v610 (F := Ideal) x9 := by
  after_results_simp
  rw [hW]
  unfold Cert.ReferenceIdeal.Read.val_main_v610 Cert.ReferenceIdeal.Read.val_main_v609
  rfl

/-- Window 2: the second branch's mean aggregation. -/
theorem op9_2 (hE2 : V0 (Proc.devRef .tc main_arg26) = x26)
    (hS2 : (V0 (Proc.devRef .tc main_v309) : Cert.ReferenceIdeal.S2000x150.Idx → EReal) = Cert.ReferenceIdeal.Read.val_main_v442 (F := Ideal) x0 x1 x2 x3 x4 x5 x6 x7 x8 x9 x10 x11 x24 x25 x26)
    (hC2 : (V0 (Proc.devRef .tc main_v59) : Cert.ReferenceIdeal.S20000x1.Idx → EReal) = Cert.ReferenceIdeal.Read.val_main_v641 (F := Ideal) x26) :
    (StableHlo.after hostOps9 V0 (Proc.devRef .tc main_v393) : Cert.ReferenceIdeal.S20000x150.Idx → EReal)
      = Cert.ReferenceIdeal.Read.val_main_v643 (F := Ideal) x0 x1 x2 x3 x4 x5 x6 x7 x8 x9 x10 x11 x24 x25 x26 := by
  after_results_simp
  rw [hE2, hS2, hC2, extf9_id]
  unfold Cert.ReferenceIdeal.Read.val_main_v643 Cert.ReferenceIdeal.Read.val_main_v634 Cert.ReferenceIdeal.Read.val_main_v632 Cert.ReferenceIdeal.Read.val_main_cst_102 Cert.ReferenceIdeal.Read.val_main_v633 Cert.ReferenceIdeal.Read.val_main_v624 Cert.ReferenceIdeal.Read.val_main_v623 Cert.ReferenceIdeal.Read.val_main_v631 Cert.ReferenceIdeal.Read.val_main_v630 Cert.ReferenceIdeal.Read.val_main_v629 Cert.ReferenceIdeal.Read.val_main_v626 Cert.ReferenceIdeal.Read.val_main_v622 Cert.ReferenceIdeal.Read.val_main_v621 Cert.ReferenceIdeal.Read.val_main_v625 Cert.ReferenceIdeal.Read.val_main_c_100 Cert.ReferenceIdeal.Read.val_main_v628 Cert.ReferenceIdeal.Read.val_main_v627 Cert.ReferenceIdeal.Read.val_main_c_101 Cert.ReferenceIdeal.Read.val_main_v642
  rfl

/-- Window 3: the second branch's weight. -/
theorem op9_3 (hW : V0 (Proc.devRef .tc main_arg9) = x9) :
    (StableHlo.after hostOps9 V0 (Proc.devRef .tc main_v407) : Cert.ReferenceIdeal.S150x150.Idx → EReal)
      = Cert.ReferenceIdeal.Read.val_main_v645 (F := Ideal) x9 := by
  after_results_simp
  rw [hW]
  unfold Cert.ReferenceIdeal.Read.val_main_v645 Cert.ReferenceIdeal.Read.val_main_v644
  rfl

/-- Window 4: the destination feature, which no host operation of the stretch touches. -/
theorem op9_4 :
    StableHlo.after hostOps9 V0 (Proc.devRef .tc main_v359) = V0 (Proc.devRef .tc main_v359) := by
  after_results_simp

/-- Window 5: the sum of the two branches' root matrices. -/
theorem op9_5 (hR : V0 (Proc.devRef .tc main_arg11) = x11) :
    (StableHlo.after hostOps9 V0 (Proc.devRef .tc main_v398) : Cert.ReferenceIdeal.S150x150.Idx → EReal)
      = addf (F := Ideal) (s := Cert.ReferenceIdeal.S150x150) (φ := .f32) (Cert.ReferenceIdeal.Read.val_main_v618 (F := Ideal) x11) (Cert.ReferenceIdeal.Read.val_main_v653 (F := Ideal) x11) := by
  after_results_simp
  rw [hR]
  unfold Cert.ReferenceIdeal.Read.val_main_v618 Cert.ReferenceIdeal.Read.val_main_v617 Cert.ReferenceIdeal.Read.val_main_v653 Cert.ReferenceIdeal.Read.val_main_v652
  rfl

/-- Window 6: the sum of the two branches' biases, kept as a [1 × 150] row. -/
theorem op9_6 (hB : V0 (Proc.devRef .tc main_arg10) = x10) :
    (StableHlo.after hostOps9 V0 (Proc.devRef .tc main_v408) : Cert.KernelIdeal.S1x150.Idx → EReal)
      = shapeCast Cert.KernelIdeal.S1x150
          (addf (F := Ideal) (s := Cert.ReferenceIdeal.S150) (φ := .f32) (Cert.ReferenceIdeal.Read.val_main_v613 (F := Ideal) x10) (Cert.ReferenceIdeal.Read.val_main_v648 (F := Ideal) x10))
          shapeCasts_S150_S1x150 := by
  after_results_simp
  rw [hB]
  unfold Cert.ReferenceIdeal.Read.val_main_v613 Cert.ReferenceIdeal.Read.val_main_v612 Cert.ReferenceIdeal.Read.val_main_v648 Cert.ReferenceIdeal.Read.val_main_v647
  rfl

end Stretch

/-! ## The launch -/

variable (m : (ℓ : Loc nD τ sig) → Buf (Elt Ideal) ℓ) (ρ : Dev nD → PrngReg) (c : Dev nD)

/-- The kernel's argument array `b`, as the memory holds it at the start. -/
local notation "arg(" b ")" => m ((c.tc : Thread nD τ).loc b)
/-- The reference's stages of this layer at the kernel's arguments: the layer's feature, -/
local notation "rOut" => Cert.ReferenceIdeal.Read.val_main_v656 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25) arg(main_arg26)
/-- the source features the two branches aggregate, and the destination feature, -/
local notation "rSrc1" => Cert.ReferenceIdeal.Read.val_main_v441 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25) arg(main_arg26)
local notation "rSrc2" => Cert.ReferenceIdeal.Read.val_main_v442 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25) arg(main_arg26)
local notation "rDst" => Cert.ReferenceIdeal.Read.val_main_v443 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25) arg(main_arg26)
/-- the two mean aggregations and the in-degree columns they divide by, -/
local notation "rAgg1" => Cert.ReferenceIdeal.Read.val_main_v608 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25) arg(main_arg26)
local notation "rAgg2" => Cert.ReferenceIdeal.Read.val_main_v643 (F := Ideal) arg(main_arg0) arg(main_arg1) arg(main_arg2) arg(main_arg3) arg(main_arg4) arg(main_arg5) arg(main_arg6) arg(main_arg7) arg(main_arg8) arg(main_arg9) arg(main_arg10) arg(main_arg11) arg(main_arg24) arg(main_arg25) arg(main_arg26)
local notation "rCnt1" => Cert.ReferenceIdeal.Read.val_main_v606 (F := Ideal) arg(main_arg24)
local notation "rCnt2" => Cert.ReferenceIdeal.Read.val_main_v641 (F := Ideal) arg(main_arg26)
/-- the weight, root and bias slices of the two branches. -/
local notation "rWl1" => Cert.ReferenceIdeal.Read.val_main_v610 (F := Ideal) arg(main_arg9)
local notation "rWl2" => Cert.ReferenceIdeal.Read.val_main_v645 (F := Ideal) arg(main_arg9)
local notation "rWr1" => Cert.ReferenceIdeal.Read.val_main_v618 (F := Ideal) arg(main_arg11)
local notation "rWr2" => Cert.ReferenceIdeal.Read.val_main_v653 (F := Ideal) arg(main_arg11)
local notation "rB1" => Cert.ReferenceIdeal.Read.val_main_v613 (F := Ideal) arg(main_arg10)
local notation "rB2" => Cert.ReferenceIdeal.Read.val_main_v648 (F := Ideal) arg(main_arg10)

set_option maxHeartbeats 1000000 in
/-- Launch 9: given what the launches that wrote the two source features and the destination feature left (their
    own facts), and the destination feature and the stacked root argument real, the kernel's output array at the
    launch's exit is the reference's feature of the same arguments. -/
theorem step9
    (hK6 : (W14 (F := Ideal) m ρ c (Proc.devRef .tc main_v259) : Cert.ReferenceIdeal.S50000x150.Idx → EReal) = rSrc1)
    (hK7 : (W16 (F := Ideal) m ρ c (Proc.devRef .tc main_v309) : Cert.ReferenceIdeal.S2000x150.Idx → EReal) = rSrc2)
    (hK8 : (W18 (F := Ideal) m ρ c (Proc.devRef .tc main_v359) : Cert.ReferenceIdeal.S20000x150.Idx → EReal) = rDst)
    (hX : AllReal (rDst : Cert.ReferenceIdeal.S20000x150.Idx → EReal))
    (h11 : AllReal (arg(main_arg11) : Cert.ReferenceIdeal.S3x6x150x150.Idx → EReal)) :
    (W20 (F := Ideal) m ρ c (Proc.devRef .tc main_v409) : Cert.ReferenceIdeal.S20000x150.Idx → EReal) = rOut := by
  funext i
  obtain ⟨p, q, rfl⟩ : ∃ (p : Fin 20000) (q : Fin 150), i = ix2 p q := ⟨i 0, i 1, eq_ix2 i⟩
  -- the three features as the boundary before the host stretch holds them: carried there unchanged
  have hS1 : (W18 (F := Ideal) m ρ c (Proc.devRef .tc main_v259) : Cert.ReferenceIdeal.S50000x150.Idx → EReal) = rSrc1 :=
    (Cert.KernelIdeal.Carry.at9_main_v259 m ρ c).trans hK6
  have hS2 : (W18 (F := Ideal) m ρ c (Proc.devRef .tc main_v309) : Cert.ReferenceIdeal.S2000x150.Idx → EReal) = rSrc2 :=
    (Cert.KernelIdeal.Carry.at9_main_v309 m ρ c).trans hK7
  have hD : (W18 (F := Ideal) m ρ c (Proc.devRef .tc main_v359) : Cert.ReferenceIdeal.S20000x150.Idx → EReal) = rDst :=
    hK8
  -- the two in-degree columns there: computed before the first aggregation layer, carried unchanged since
  have hC1 : (W18 (F := Ideal) m ρ c (Proc.devRef .tc main_v50) : Cert.ReferenceIdeal.S20000x1.Idx → EReal) = rCnt1 :=
    (Cert.KernelIdeal.Carry.at9_main_v50 m ρ c).trans (cnt9_a (W6 m ρ c) (Cert.KernelIdeal.Carry.at3_main_arg24 m ρ c))
  have hC2 : (W18 (F := Ideal) m ρ c (Proc.devRef .tc main_v59) : Cert.ReferenceIdeal.S20000x1.Idx → EReal) = rCnt2 :=
    (Cert.KernelIdeal.Carry.at9_main_v59 m ρ c).trans (cnt9_b (W6 m ρ c) (Cert.KernelIdeal.Carry.at3_main_arg26 m ρ c))
  -- the seven operand arrays at the launch's entry, each as its reference term
  have e0 : (V19 (F := Ideal) m ρ c main_v376 : Cert.ReferenceIdeal.S20000x150.Idx → EReal) = rAgg1 :=
    op9_0 (W18 m ρ c) (Cert.KernelIdeal.Carry.at9_main_arg24 m ρ c) hS1 hC1
  have e1 : (V19 (F := Ideal) m ρ c main_v405 : Cert.ReferenceIdeal.S150x150.Idx → EReal) = rWl1 :=
    op9_1 (W18 m ρ c) (Cert.KernelIdeal.Carry.at9_main_arg9 m ρ c)
  have e2 : (V19 (F := Ideal) m ρ c main_v393 : Cert.ReferenceIdeal.S20000x150.Idx → EReal) = rAgg2 :=
    op9_2 (W18 m ρ c) (Cert.KernelIdeal.Carry.at9_main_arg26 m ρ c) hS2 hC2
  have e3 : (V19 (F := Ideal) m ρ c main_v407 : Cert.ReferenceIdeal.S150x150.Idx → EReal) = rWl2 :=
    op9_3 (W18 m ρ c) (Cert.KernelIdeal.Carry.at9_main_arg9 m ρ c)
  have e4 : (V19 (F := Ideal) m ρ c main_v359 : Cert.ReferenceIdeal.S20000x150.Idx → EReal) = rDst :=
    (op9_4 (W18 m ρ c)).trans hD
  have e5 : (V19 (F := Ideal) m ρ c main_v398 : Cert.ReferenceIdeal.S150x150.Idx → EReal)
      = addf (F := Ideal) (s := Cert.ReferenceIdeal.S150x150) (φ := .f32) rWr1 rWr2 :=
    op9_5 (W18 m ρ c) (Cert.KernelIdeal.Carry.at9_main_arg11 m ρ c)
  have e6 : (V19 (F := Ideal) m ρ c main_v408 : Cert.KernelIdeal.S1x150.Idx → EReal)
      = shapeCast Cert.KernelIdeal.S1x150 (addf (F := Ideal) (s := Cert.ReferenceIdeal.S150) (φ := .f32) rB1 rB2) shapeCasts_S150_S1x150 :=
    op9_6 (W18 m ρ c) (Cert.KernelIdeal.Carry.at9_main_arg10 m ρ c)
  -- the output array at the exit is what the pipeline leaves in its eighth window's array
  have hL : W20 (F := Ideal) m ρ c (Proc.devRef .tc main_v409) = (dat9 (F := Ideal) (V19 m ρ) c).arrAt 7 cfg9.N :=
    W20_arr m ρ c 7
  refine (congrFun hL (ix2 p q)).trans ?_
  -- the launch's value on the seven operand arrays, each replaced by its reference term
  refine (Cert.KernelIdeal.RegionValue.region9_at (V19 m ρ) c
    rAgg1 rWl1 rAgg2 rWl2 rDst (addf (F := Ideal) (s := Cert.ReferenceIdeal.S150x150) (φ := .f32) rWr1 rWr2)
    (shapeCast Cert.KernelIdeal.S1x150 (addf (F := Ideal) (s := Cert.ReferenceIdeal.S150) (φ := .f32) rB1 rB2) shapeCasts_S150_S1x150)
    e0.symm e1.symm e2.symm e3.symm e4.symm e5.symm e6.symm p q).trans ?_
  -- the bias row at (0, q) is the bias sum at q
  rw [shapeCast_a_1a_apply _ _ 0 q, ref9_at]
  -- the two sides are the two groupings of the combine law
  exact combine_law
    (fun k : Fin 150 => (rAgg1 : Cert.ReferenceIdeal.S20000x150.Idx → EReal) (ix2 p k))
    (fun k : Fin 150 => (rWl1 : Cert.ReferenceIdeal.S150x150.Idx → EReal) (ix2 k q))
    (fun k : Fin 150 => (rAgg2 : Cert.ReferenceIdeal.S20000x150.Idx → EReal) (ix2 p k))
    (fun k : Fin 150 => (rWl2 : Cert.ReferenceIdeal.S150x150.Idx → EReal) (ix2 k q))
    (fun k : Fin 150 => (rDst : Cert.ReferenceIdeal.S20000x150.Idx → EReal) (ix2 p k))
    (fun k : Fin 150 => (rWr1 : Cert.ReferenceIdeal.S150x150.Idx → EReal) (ix2 k q))
    (fun k : Fin 150 => (rWr2 : Cert.ReferenceIdeal.S150x150.Idx → EReal) (ix2 k q))
    ((rB1 : Cert.ReferenceIdeal.S150.Idx → EReal) (ix1 q))
    ((rB2 : Cert.ReferenceIdeal.S150.Idx → EReal) (ix1 q))
    (fun k => hX (ix2 p k))
    (fun k => real9_wr1 _ h11 (ix2 k q))
    (fun k => real9_wr2 _ h11 (ix2 k q))

end Cert.Bridge

end
-- ==== Proof.RegionValue10.lean ====
/- Region 10 of the idealized kernel program, the classifier: three linear layers, the first two followed by max(·, 0), on
   50000 rows in 25 row blocks of 2000 (768 → 300 → 200 → 150 columns): the output array after the region, entry by entry,
   as a function of the operand arrays at the region's entry. First the body's stored value at an entry of a block: each
   matrix product read at an index through its contraction's one axis, each bias row repeated down the rows, the
   maximum with the zero constant, the format changes the identity on the extended reals; the two hidden layers are named
   as vectors of the block so that the stored value is a product over them. Then from the blocks to the array: the index
   maps' values over the grid, what each grid point writes back as its block of one whole-array function, the blocks'
   cover of the array. -/
import proofs.«138545_j63058709840619_2_alg».proof.Proof.FrameKIR10
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The three contractions' operand indices, axis by axis -/

/-- First layer: the left factor is read at the output's row. -/
theorem lhs10a_0 (i : S2000x300.Idx) (q : dot_S2000x768_S768x300_S2000x300_1_0_0_1_n_n.contr.Idx) :
    (dot_S2000x768_S768x300_S2000x300_1_0_0_1_n_n.lhsIdx i q 0).val = (i 0).val := by
  unfold DotDims.lhsIdx
  rw [dif_neg (show ¬(0 : Fin S2000x768.rank) ∈ dot_S2000x768_S768x300_S2000x300_1_0_0_1_n_n.lhsBatch by decide), dif_pos (show (0 : Fin S2000x768.rank) ∈ dot_S2000x768_S768x300_S2000x300_1_0_0_1_n_n.lhsNonContracting by decide)]
  rfl
/-- First layer: the left factor's column is the contraction position. -/
theorem lhs10a_1 (i : S2000x300.Idx) (q : dot_S2000x768_S768x300_S2000x300_1_0_0_1_n_n.contr.Idx) :
    (dot_S2000x768_S768x300_S2000x300_1_0_0_1_n_n.lhsIdx i q 1).val = (q ⟨0, by decide⟩).val :=
  dot_S2000x768_S768x300_S2000x300_1_0_0_1_n_n.lhsIdx_val_of_single rfl i q
/-- First layer: the right factor's row is the contraction position. -/
theorem rhs10a_0 (i : S2000x300.Idx) (q : dot_S2000x768_S768x300_S2000x300_1_0_0_1_n_n.contr.Idx) :
    (dot_S2000x768_S768x300_S2000x300_1_0_0_1_n_n.rhsIdx i q 0).val = (q ⟨0, by decide⟩).val :=
  dot_S2000x768_S768x300_S2000x300_1_0_0_1_n_n.rhsIdx_val_of_single rfl i q
/-- First layer: the right factor is read at the output's column. -/
theorem rhs10a_1 (i : S2000x300.Idx) (q : dot_S2000x768_S768x300_S2000x300_1_0_0_1_n_n.contr.Idx) :
    (dot_S2000x768_S768x300_S2000x300_1_0_0_1_n_n.rhsIdx i q 1).val = (i 1).val := by
  unfold DotDims.rhsIdx
  rw [dif_neg (show ¬(1 : Fin S768x300.rank) ∈ dot_S2000x768_S768x300_S2000x300_1_0_0_1_n_n.rhsBatch by decide), dif_pos (show (1 : Fin S768x300.rank) ∈ dot_S2000x768_S768x300_S2000x300_1_0_0_1_n_n.rhsNonContracting by decide)]
  rfl

/-- Second layer: the left factor is read at the output's row. -/
theorem lhs10b_0 (i : S2000x200.Idx) (q : dot_S2000x300_S300x200_S2000x200_1_0_0_1_n_n.contr.Idx) :
    (dot_S2000x300_S300x200_S2000x200_1_0_0_1_n_n.lhsIdx i q 0).val = (i 0).val := by
  unfold DotDims.lhsIdx
  rw [dif_neg (show ¬(0 : Fin S2000x300.rank) ∈ dot_S2000x300_S300x200_S2000x200_1_0_0_1_n_n.lhsBatch by decide), dif_pos (show (0 : Fin S2000x300.rank) ∈ dot_S2000x300_S300x200_S2000x200_1_0_0_1_n_n.lhsNonContracting by decide)]
  rfl
/-- Second layer: the left factor's column is the contraction position. -/
theorem lhs10b_1 (i : S2000x200.Idx) (q : dot_S2000x300_S300x200_S2000x200_1_0_0_1_n_n.contr.Idx) :
    (dot_S2000x300_S300x200_S2000x200_1_0_0_1_n_n.lhsIdx i q 1).val = (q ⟨0, by decide⟩).val :=
  dot_S2000x300_S300x200_S2000x200_1_0_0_1_n_n.lhsIdx_val_of_single rfl i q
/-- Second layer: the right factor's row is the contraction position. -/
theorem rhs10b_0 (i : S2000x200.Idx) (q : dot_S2000x300_S300x200_S2000x200_1_0_0_1_n_n.contr.Idx) :
    (dot_S2000x300_S300x200_S2000x200_1_0_0_1_n_n.rhsIdx i q 0).val = (q ⟨0, by decide⟩).val :=
  dot_S2000x300_S300x200_S2000x200_1_0_0_1_n_n.rhsIdx_val_of_single rfl i q
/-- Second layer: the right factor is read at the output's column. -/
theorem rhs10b_1 (i : S2000x200.Idx) (q : dot_S2000x300_S300x200_S2000x200_1_0_0_1_n_n.contr.Idx) :
    (dot_S2000x300_S300x200_S2000x200_1_0_0_1_n_n.rhsIdx i q 1).val = (i 1).val := by
  unfold DotDims.rhsIdx
  rw [dif_neg (show ¬(1 : Fin S300x200.rank) ∈ dot_S2000x300_S300x200_S2000x200_1_0_0_1_n_n.rhsBatch by decide), dif_pos (show (1 : Fin S300x200.rank) ∈ dot_S2000x300_S300x200_S2000x200_1_0_0_1_n_n.rhsNonContracting by decide)]
  rfl

/-- Third layer: the left factor is read at the output's row. -/
theorem lhs10c_0 (i : S2000x150.Idx) (q : dot_S2000x200_S200x150_S2000x150_1_0_0_1_n_n.contr.Idx) :
    (dot_S2000x200_S200x150_S2000x150_1_0_0_1_n_n.lhsIdx i q 0).val = (i 0).val := by
  unfold DotDims.lhsIdx
  rw [dif_neg (show ¬(0 : Fin S2000x200.rank) ∈ dot_S2000x200_S200x150_S2000x150_1_0_0_1_n_n.lhsBatch by decide), dif_pos (show (0 : Fin S2000x200.rank) ∈ dot_S2000x200_S200x150_S2000x150_1_0_0_1_n_n.lhsNonContracting by decide)]
  rfl
/-- Third layer: the left factor's column is the contraction position. -/
theorem lhs10c_1 (i : S2000x150.Idx) (q : dot_S2000x200_S200x150_S2000x150_1_0_0_1_n_n.contr.Idx) :
    (dot_S2000x200_S200x150_S2000x150_1_0_0_1_n_n.lhsIdx i q 1).val = (q ⟨0, by decide⟩).val :=
  dot_S2000x200_S200x150_S2000x150_1_0_0_1_n_n.lhsIdx_val_of_single rfl i q
/-- Third layer: the right factor's row is the contraction position. -/
theorem rhs10c_0 (i : S2000x150.Idx) (q : dot_S2000x200_S200x150_S2000x150_1_0_0_1_n_n.contr.Idx) :
    (dot_S2000x200_S200x150_S2000x150_1_0_0_1_n_n.rhsIdx i q 0).val = (q ⟨0, by decide⟩).val :=
  dot_S2000x200_S200x150_S2000x150_1_0_0_1_n_n.rhsIdx_val_of_single rfl i q
/-- Third layer: the right factor is read at the output's column. -/
theorem rhs10c_1 (i : S2000x150.Idx) (q : dot_S2000x200_S200x150_S2000x150_1_0_0_1_n_n.contr.Idx) :
    (dot_S2000x200_S200x150_S2000x150_1_0_0_1_n_n.rhsIdx i q 1).val = (i 1).val := by
  unfold DotDims.rhsIdx
  rw [dif_neg (show ¬(1 : Fin S200x150.rank) ∈ dot_S2000x200_S200x150_S2000x150_1_0_0_1_n_n.rhsBatch by decide), dif_pos (show (1 : Fin S200x150.rank) ∈ dot_S2000x200_S200x150_S2000x150_1_0_0_1_n_n.rhsNonContracting by decide)]
  rfl

/-! ## The operations of the body at an entry of a block -/

/-- The first layer's matrix product, into the zero accumulator, at row `p` and column `q`: the sum over the 768 contraction positions of the
    products of row `p` of the left factor with column `q` of the right factor. -/
theorem matmul10a_apply (a : FVec Ideal S2000x768 .bf16) (b : FVec Ideal S768x300 .bf16) (p : Fin 2000) (q : Fin 300) :
    matmul dot_S2000x768_S768x300_S2000x300_1_0_0_1_n_n none a b (constant (F := Ideal) S2000x300 .f32 0x00000000#32) (ix2 p q)
      = ∑ k : Fin 768, a (ix2 p k) * b (ix2 k q) := by
  simp only [matmul]
  rw [Ideal.matmul_constant_zero_apply, ← Equiv.sum_comp (contrEquiv1 dot_S2000x768_S768x300_S2000x300_1_0_0_1_n_n 768 rfl rfl).symm]
  refine Finset.sum_congr rfl fun k _ => ?_
  have hk := contrEquiv1_symm_val dot_S2000x768_S768x300_S2000x300_1_0_0_1_n_n 768 rfl rfl k
  have el : dot_S2000x768_S768x300_S2000x300_1_0_0_1_n_n.lhsIdx (ix2 p q) ((contrEquiv1 dot_S2000x768_S768x300_S2000x300_1_0_0_1_n_n 768 rfl rfl).symm k) = ix2 p k := funext fun a => Fin.ext (by
    match a with
    | ⟨0, _⟩ => exact lhs10a_0 _ _
    | ⟨1, _⟩ => exact (lhs10a_1 _ _).trans hk)
  have er : dot_S2000x768_S768x300_S2000x300_1_0_0_1_n_n.rhsIdx (ix2 p q) ((contrEquiv1 dot_S2000x768_S768x300_S2000x300_1_0_0_1_n_n 768 rfl rfl).symm k) = ix2 k q := funext fun a => Fin.ext (by
    match a with
    | ⟨0, _⟩ => exact (rhs10a_0 _ _).trans hk
    | ⟨1, _⟩ => exact rhs10a_1 _ _)
  rw [el, er]

/-- The second layer's matrix product, into the zero accumulator, at row `p` and column `q`: the sum over the 300 contraction positions of the
    products of row `p` of the left factor with column `q` of the right factor. -/
theorem matmul10b_apply (a : FVec Ideal S2000x300 .bf16) (b : FVec Ideal S300x200 .bf16) (p : Fin 2000) (q : Fin 200) :
    matmul dot_S2000x300_S300x200_S2000x200_1_0_0_1_n_n none a b (constant (F := Ideal) S2000x200 .f32 0x00000000#32) (ix2 p q)
      = ∑ k : Fin 300, a (ix2 p k) * b (ix2 k q) := by
  simp only [matmul]
  rw [Ideal.matmul_constant_zero_apply, ← Equiv.sum_comp (contrEquiv1 dot_S2000x300_S300x200_S2000x200_1_0_0_1_n_n 300 rfl rfl).symm]
  refine Finset.sum_congr rfl fun k _ => ?_
  have hk := contrEquiv1_symm_val dot_S2000x300_S300x200_S2000x200_1_0_0_1_n_n 300 rfl rfl k
  have el : dot_S2000x300_S300x200_S2000x200_1_0_0_1_n_n.lhsIdx (ix2 p q) ((contrEquiv1 dot_S2000x300_S300x200_S2000x200_1_0_0_1_n_n 300 rfl rfl).symm k) = ix2 p k := funext fun a => Fin.ext (by
    match a with
    | ⟨0, _⟩ => exact lhs10b_0 _ _
    | ⟨1, _⟩ => exact (lhs10b_1 _ _).trans hk)
  have er : dot_S2000x300_S300x200_S2000x200_1_0_0_1_n_n.rhsIdx (ix2 p q) ((contrEquiv1 dot_S2000x300_S300x200_S2000x200_1_0_0_1_n_n 300 rfl rfl).symm k) = ix2 k q := funext fun a => Fin.ext (by
    match a with
    | ⟨0, _⟩ => exact (rhs10b_0 _ _).trans hk
    | ⟨1, _⟩ => exact rhs10b_1 _ _)
  rw [el, er]

/-- The third layer's matrix product, into the zero accumulator, at row `p` and column `q`: the sum over the 200 contraction positions of the
    products of row `p` of the left factor with column `q` of the right factor. -/
theorem matmul10c_apply (a : FVec Ideal S2000x200 .bf16) (b : FVec Ideal S200x150 .bf16) (p : Fin 2000) (q : Fin 150) :
    matmul dot_S2000x200_S200x150_S2000x150_1_0_0_1_n_n none a b (constant (F := Ideal) S2000x150 .f32 0x00000000#32) (ix2 p q)
      = ∑ k : Fin 200, a (ix2 p k) * b (ix2 k q) := by
  simp only [matmul]
  rw [Ideal.matmul_constant_zero_apply, ← Equiv.sum_comp (contrEquiv1 dot_S2000x200_S200x150_S2000x150_1_0_0_1_n_n 200 rfl rfl).symm]
  refine Finset.sum_congr rfl fun k _ => ?_
  have hk := contrEquiv1_symm_val dot_S2000x200_S200x150_S2000x150_1_0_0_1_n_n 200 rfl rfl k
  have el : dot_S2000x200_S200x150_S2000x150_1_0_0_1_n_n.lhsIdx (ix2 p q) ((contrEquiv1 dot_S2000x200_S200x150_S2000x150_1_0_0_1_n_n 200 rfl rfl).symm k) = ix2 p k := funext fun a => Fin.ext (by
    match a with
    | ⟨0, _⟩ => exact lhs10c_0 _ _
    | ⟨1, _⟩ => exact (lhs10c_1 _ _).trans hk)
  have er : dot_S2000x200_S200x150_S2000x150_1_0_0_1_n_n.rhsIdx (ix2 p q) ((contrEquiv1 dot_S2000x200_S200x150_S2000x150_1_0_0_1_n_n 200 rfl rfl).symm k) = ix2 k q := funext fun a => Fin.ext (by
    match a with
    | ⟨0, _⟩ => exact (rhs10c_0 _ _).trans hk
    | ⟨1, _⟩ => exact rhs10c_1 _ _)
  rw [el, er]

/-- The first layer's bias row, cast to its own shape and repeated down the 2000 rows, at row `p` and column `q`: its entry in column `q`. -/
theorem bias10a_apply (b : Vec Ideal S1x300 .f32) (p : Fin 2000) (q : Fin 300) :
    broadcastTo S2000x300 (shapeCast S1x300 b shapeCasts_S1x300_S1x300) broadcasts_S1x300_S2000x300 (ix2 p q) = b (ix2 0 q) := by
  rw [shapeCast_self]
  refine broadcastTo_apply b broadcasts_S1x300_S2000x300 (ix2 p q) (ix2 0 q) fun a => ?_
  match a with
  | ⟨0, _⟩ => show (0 : Nat) = if (1 : Nat) = 1 then 0 else _; rw [if_pos rfl]
  | ⟨1, _⟩ => show q.val = if (300 : Nat) = 1 then 0 else q.val; rw [if_neg (by decide)]

/-- The second layer's bias row, cast to its own shape and repeated down the 2000 rows, at row `p` and column `q`: its entry in column `q`. -/
theorem bias10b_apply (b : Vec Ideal S1x200 .f32) (p : Fin 2000) (q : Fin 200) :
    broadcastTo S2000x200 (shapeCast S1x200 b shapeCasts_S1x200_S1x200) broadcasts_S1x200_S2000x200 (ix2 p q) = b (ix2 0 q) := by
  rw [shapeCast_self]
  refine broadcastTo_apply b broadcasts_S1x200_S2000x200 (ix2 p q) (ix2 0 q) fun a => ?_
  match a with
  | ⟨0, _⟩ => show (0 : Nat) = if (1 : Nat) = 1 then 0 else _; rw [if_pos rfl]
  | ⟨1, _⟩ => show q.val = if (200 : Nat) = 1 then 0 else q.val; rw [if_neg (by decide)]

/-- The third layer's bias row, cast to its own shape and repeated down the 2000 rows, at row `p` and column `q`: its entry in column `q`. -/
theorem bias10c_apply (b : Vec Ideal S1x150 .f32) (p : Fin 2000) (q : Fin 150) :
    broadcastTo S2000x150 (shapeCast S1x150 b shapeCasts_S1x150_S1x150) broadcasts_S1x150_S2000x150 (ix2 p q) = b (ix2 0 q) := by
  rw [shapeCast_self]
  refine broadcastTo_apply b broadcasts_S1x150_S2000x150 (ix2 p q) (ix2 0 q) fun a => ?_
  match a with
  | ⟨0, _⟩ => show (0 : Nat) = if (1 : Nat) = 1 then 0 else _; rw [if_pos rfl]
  | ⟨1, _⟩ => show q.val = if (150 : Nat) = 1 then 0 else q.val; rw [if_neg (by decide)]

/-- The maximum with the repeated zero constant, at an index: the maximum of the entry and zero. -/
theorem relu10_apply {s : Shape} (a : FVec Ideal s .f32) (i : s.Idx) :
    maximumf a (broadcast s (Scalar.ofBits (F := Ideal) .f32 0x00000000#32)) i = max (a i) 0 := by
  show max (a i) (Ideal.ofBits .f32 0x00000000#32) = _
  rw [Ideal.ofBits_zero_f32]

/-! ## The two hidden layers of a block, and the body's stored value -/

/-- The first hidden layer of a block: the block of the input times the first weight, plus the first bias row, cut below at
    zero (the body's value of that name, in its stored format). -/
def hid10a (x : Vec Ideal S2000x768 .f32) (w1 : Vec Ideal S768x300 .f32) (b1 : Vec Ideal S1x300 .f32) : FVec Ideal S2000x300 .bf16 :=
  truncf .bf16 (maximumf (addf (matmul dot_S2000x768_S768x300_S2000x300_1_0_0_1_n_n none (truncf .bf16 x bitsLt_bf16_f32) (truncf .bf16 w1 bitsLt_bf16_f32) (constant S2000x300 .f32 0x00000000#32))
      (broadcastTo S2000x300 (shapeCast S1x300 b1 shapeCasts_S1x300_S1x300) broadcasts_S1x300_S2000x300))
    (broadcast S2000x300 (Scalar.ofBits .f32 0x00000000#32))) bitsLt_bf16_f32

/-- The second hidden layer of a block, from the first: times the second weight, plus the second bias row, cut below at zero. -/
def hid10b (h1 : FVec Ideal S2000x300 .bf16) (w2 : Vec Ideal S300x200 .f32) (b2 : Vec Ideal S1x200 .f32) : FVec Ideal S2000x200 .bf16 :=
  truncf .bf16 (maximumf (addf (matmul dot_S2000x300_S300x200_S2000x200_1_0_0_1_n_n none h1 (truncf .bf16 w2 bitsLt_bf16_f32) (constant S2000x200 .f32 0x00000000#32))
      (broadcastTo S2000x200 (shapeCast S1x200 b2 shapeCasts_S1x200_S1x200) broadcasts_S1x200_S2000x200))
    (broadcast S2000x200 (Scalar.ofBits .f32 0x00000000#32))) bitsLt_bf16_f32

/-- The first hidden layer at row `p` and column `j`. -/
theorem hid10a_apply (x : Vec Ideal S2000x768 .f32) (w1 : Vec Ideal S768x300 .f32) (b1 : Vec Ideal S1x300 .f32) (p : Fin 2000) (j : Fin 300) :
    hid10a x w1 b1 (ix2 p j) = max ((∑ k : Fin 768, x (ix2 p k) * w1 (ix2 k j)) + b1 (ix2 0 j)) 0 := by
  unfold hid10a
  refine (relu10_apply _ (ix2 p j)).trans ?_
  exact congrArg (fun z : EReal => max z 0)
    (congrArg₂ (· + ·) (matmul10a_apply (truncf .bf16 x bitsLt_bf16_f32) (truncf .bf16 w1 bitsLt_bf16_f32) p j) (bias10a_apply b1 p j))

/-- The second hidden layer at row `p` and column `j`, over the first. -/
theorem hid10b_apply (h1 : FVec Ideal S2000x300 .bf16) (w2 : Vec Ideal S300x200 .f32) (b2 : Vec Ideal S1x200 .f32) (p : Fin 2000) (j : Fin 200) :
    hid10b h1 w2 b2 (ix2 p j) = max ((∑ k : Fin 300, h1 (ix2 p k) * w2 (ix2 k j)) + b2 (ix2 0 j)) 0 := by
  unfold hid10b
  refine (relu10_apply _ (ix2 p j)).trans ?_
  exact congrArg (fun z : EReal => max z 0)
    (congrArg₂ (· + ·) (matmul10b_apply h1 (truncf .bf16 w2 bitsLt_bf16_f32) p j) (bias10b_apply b2 p j))

/-- The body's stored value is the third layer over the two hidden ones (the printed sequence of operations, regrouped). -/
theorem pay10_eq (x : Vec Ideal S2000x768 .f32) (w1 : Vec Ideal S768x300 .f32) (b1 : Vec Ideal S1x300 .f32) (w2 : Vec Ideal S300x200 .f32)
    (b2 : Vec Ideal S1x200 .f32) (w3 : Vec Ideal S200x150 .f32) (b3 : Vec Ideal S1x150 .f32) :
    k10_pay1 (F := Ideal) x w1 b1 w2 b2 w3 b3
      = truncf .bf16 (addf (matmul dot_S2000x200_S200x150_S2000x150_1_0_0_1_n_n none (hid10b (hid10a x w1 b1) w2 b2) (truncf .bf16 w3 bitsLt_bf16_f32) (constant S2000x150 .f32 0x00000000#32))
          (broadcastTo S2000x150 (shapeCast S1x150 b3 shapeCasts_S1x150_S1x150) broadcasts_S1x150_S2000x150)) bitsLt_bf16_f32 := rfl

/-- The body's stored value at row `p` and column `q` of a block: three layers of products and bias rows, the first two cut
    below at zero. -/
theorem pay10_apply (x : Vec Ideal S2000x768 .f32) (w1 : Vec Ideal S768x300 .f32) (b1 : Vec Ideal S1x300 .f32) (w2 : Vec Ideal S300x200 .f32)
    (b2 : Vec Ideal S1x200 .f32) (w3 : Vec Ideal S200x150 .f32) (b3 : Vec Ideal S1x150 .f32) (p : Fin 2000) (q : Fin 150) :
    k10_pay1 (F := Ideal) x w1 b1 w2 b2 w3 b3 (ix2 p q)
      = (∑ k2 : Fin 200, max ((∑ k1 : Fin 300, max ((∑ k : Fin 768, x (ix2 p k) * w1 (ix2 k k1)) + b1 (ix2 0 k1)) 0 * w2 (ix2 k1 k2)) + b2 (ix2 0 k2)) 0
          * w3 (ix2 k2 q)) + b3 (ix2 0 q) := by
  rw [pay10_eq]
  refine (congrArg₂ (· + ·) (matmul10c_apply (hid10b (hid10a x w1 b1) w2 b2) (truncf .bf16 w3 bitsLt_bf16_f32) p q) (bias10c_apply b3 p q)).trans ?_
  refine congrArg₂ (· + ·) (Finset.sum_congr rfl fun k2 _ => congrArg₂ (· * ·) ?_ rfl) rfl
  refine (hid10b_apply (hid10a x w1 b1) w2 b2 p k2).trans ?_
  exact congrArg (fun z : EReal => max z 0)
    (congrArg₂ (· + ·) (Finset.sum_congr rfl fun k1 _ => congrArg₂ (· * ·) (hid10a_apply x w1 b1 p k1) rfl) rfl)

/-! ## The classifier on whole arrays -/

/-- The first hidden layer, entry (p, j): row `p` of the input times column `j` of the first weight, plus the first bias
    row's entry in column `j`, cut below at zero. -/
def layer1 (x : Vec Ideal S50000x768 .f32) (w1 : Vec Ideal S768x300 .f32) (b1 : Vec Ideal S1x300 .f32) (p : Fin 50000) (j : Fin 300) : EReal :=
  max ((∑ k : Fin 768, x (ix2 p k) * w1 (ix2 k j)) + b1 (ix2 0 j)) 0

/-- The second hidden layer, entry (p, j): row `p` of the first hidden layer times column `j` of the second weight, plus
    the second bias row's entry in column `j`, cut below at zero. -/
def layer2 (x : Vec Ideal S50000x768 .f32) (w1 : Vec Ideal S768x300 .f32) (b1 : Vec Ideal S1x300 .f32) (w2 : Vec Ideal S300x200 .f32)
    (b2 : Vec Ideal S1x200 .f32) (p : Fin 50000) (j : Fin 200) : EReal :=
  max ((∑ k : Fin 300, layer1 x w1 b1 p k * w2 (ix2 k j)) + b2 (ix2 0 j)) 0

/-- The whole array the region leaves, as one function of the operand arrays: row `i 0` of the second hidden layer times
    column `i 1` of the third weight, plus the third bias row's entry in column `i 1`. -/
def cls10 (X : Vec Ideal S50000x768 .f32) (W1 : Vec Ideal S768x300 .f32) (B1 : Vec Ideal S1x300 .f32) (W2 : Vec Ideal S300x200 .f32)
    (B2 : Vec Ideal S1x200 .f32) (W3 : Vec Ideal S200x150 .f32) (B3 : Vec Ideal S1x150 .f32) : Vec Ideal S50000x150 .bf16 :=
  fun i => (∑ k : Fin 200, layer2 X W1 B1 W2 B2 (i 0) k * W3 (ix2 k (i 1))) + B3 (ix2 0 (i 1))

/-! ## From the blocks to the array -/

/-- The body's accesses are at zero offsets. -/
theorem zeros10 : (![0, 0] : Fin 2 → Nat) = fun _ => 0 := funext fun a => by
  match a with
  | ⟨0, _⟩ => rfl
  | ⟨1, _⟩ => rfl

/-- The index maps over the grid: the input's and the output's row blocks are the grid point's, every other block index
    is zero. -/
theorem idx10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

/-- The input's block at grid point `t` holds rows `2000 t … 2000 t + 1999` of its array. -/
theorem xblk10 (c : Dev nD) (t : Fin cfg10.N) (p : Fin 2000) (k : Fin 768) (r : Fin 50000) (hr : r.val = t.val * 2000 + p.val) :
    (iblk10 V c 0 t : Vec Ideal S2000x768 .f32) (ix2 p k) = (V c main_arg0 : Vec Ideal S50000x768 .f32) (ix2 r k) := by
  have e := idx10 t
  show (V c main_arg0 : Vec Ideal S50000x768 .f32) (((cfg10.win 0).blk t).view.emb (ix2 p k)) = _
  refine congrArg (V c main_arg0 : Vec Ideal S50000x768 .f32) (funext fun a => Fin.ext ?_)
  match a with
  | ⟨0, _⟩ => show win10_0.index t (0 : Fin 2) * 2000 + 1 * p.val = r.val; omega
  | ⟨1, _⟩ => show win10_0.index t (1 : Fin 2) * 768 + 1 * k.val = k.val; omega

/-- The first weight's block at every grid point is its whole array. -/
theorem w1blk10 (c : Dev nD) (t : Fin cfg10.N) (k : Fin 768) (j : Fin 300) :
    (iblk10 V c 1 t : Vec Ideal S768x300 .f32) (ix2 k j) = (V c main_arg12 : Vec Ideal S768x300 .f32) (ix2 k j) := by
  have e := idx10 t
  show (V c main_arg12 : Vec Ideal S768x300 .f32) (((cfg10.win 1).blk t).view.emb (ix2 k j)) = _
  refine congrArg (V c main_arg12 : Vec Ideal S768x300 .f32) (funext fun a => Fin.ext ?_)
  match a with
  | ⟨0, _⟩ => show win10_1.index t (0 : Fin 2) * 768 + 1 * k.val = k.val; omega
  | ⟨1, _⟩ => show win10_1.index t (1 : Fin 2) * 300 + 1 * j.val = j.val; omega

/-- The first bias row's block at every grid point is its whole array. -/
theorem b1blk10 (c : Dev nD) (t : Fin cfg10.N) (j : Fin 300) :
    (iblk10 V c 2 t : Vec Ideal S1x300 .f32) (ix2 0 j) = (V c main_v410 : Vec Ideal S1x300 .f32) (ix2 0 j) := by
  have e := idx10 t
  show (V c main_v410 : Vec Ideal S1x300 .f32) (((cfg10.win 2).blk t).view.emb (ix2 0 j)) = _
  refine congrArg (V c main_v410 : Vec Ideal S1x300 .f32) (funext fun a => Fin.ext ?_)
  match a with
  | ⟨0, _⟩ => show win10_2.index t (0 : Fin 2) * 1 + 1 * 0 = 0; omega
  | ⟨1, _⟩ => show win10_2.index t (1 : Fin 2) * 300 + 1 * j.val = j.val; omega

/-- The second weight's block at every grid point is its whole array. -/
theorem w2blk10 (c : Dev nD) (t : Fin cfg10.N) (k : Fin 300) (j : Fin 200) :
    (iblk10 V c 3 t : Vec Ideal S300x200 .f32) (ix2 k j) = (V c main_arg14 : Vec Ideal S300x200 .f32) (ix2 k j) := by
  have e := idx10 t
  show (V c main_arg14 : Vec Ideal S300x200 .f32) (((cfg10.win 3).blk t).view.emb (ix2 k j)) = _
  refine congrArg (V c main_arg14 : Vec Ideal S300x200 .f32) (funext fun a => Fin.ext ?_)
  match a with
  | ⟨0, _⟩ => show win10_3.index t (0 : Fin 2) * 300 + 1 * k.val = k.val; omega
  | ⟨1, _⟩ => show win10_3.index t (1 : Fin 2) * 200 + 1 * j.val = j.val; omega

/-- The second bias row's block at every grid point is its whole array. -/
theorem b2blk10 (c : Dev nD) (t : Fin cfg10.N) (j : Fin 200) :
    (iblk10 V c 4 t : Vec Ideal S1x200 .f32) (ix2 0 j) = (V c main_v411 : Vec Ideal S1x200 .f32) (ix2 0 j) := by
  have e := idx10 t
  show (V c main_v411 : Vec Ideal S1x200 .f32) (((cfg10.win 4).blk t).view.emb (ix2 0 j)) = _
  refine congrArg (V c main_v411 : Vec Ideal S1x200 .f32) (funext fun a => Fin.ext ?_)
  match a with
  | ⟨0, _⟩ => show win10_4.index t (0 : Fin 2) * 1 + 1 * 0 = 0; omega
  | ⟨1, _⟩ => show win10_4.index t (1 : Fin 2) * 200 + 1 * j.val = j.val; omega

/-- The third weight's block at every grid point is its whole array. -/
theorem w3blk10 (c : Dev nD) (t : Fin cfg10.N) (k : Fin 200) (j : Fin 150) :
    (iblk10 V c 5 t : Vec Ideal S200x150 .f32) (ix2 k j) = (V c main_arg16 : Vec Ideal S200x150 .f32) (ix2 k j) := by
  have e := idx10 t
  show (V c main_arg16 : Vec Ideal S200x150 .f32) (((cfg10.win 5).blk t).view.emb (ix2 k j)) = _
  refine congrArg (V c main_arg16 : Vec Ideal S200x150 .f32) (funext fun a => Fin.ext ?_)
  match a with
  | ⟨0, _⟩ => show win10_5.index t (0 : Fin 2) * 200 + 1 * k.val = k.val; omega
  | ⟨1, _⟩ => show win10_5.index t (1 : Fin 2) * 150 + 1 * j.val = j.val; omega

/-- The third bias row's block at every grid point is its whole array. -/
theorem b3blk10 (c : Dev nD) (t : Fin cfg10.N) (j : Fin 150) :
    (iblk10 V c 6 t : Vec Ideal S1x150 .f32) (ix2 0 j) = (V c main_v412 : Vec Ideal S1x150 .f32) (ix2 0 j) := by
  have e := idx10 t
  show (V c main_v412 : Vec Ideal S1x150 .f32) (((cfg10.win 6).blk t).view.emb (ix2 0 j)) = _
  refine congrArg (V c main_v412 : Vec Ideal S1x150 .f32) (funext fun a => Fin.ext ?_)
  match a with
  | ⟨0, _⟩ => show win10_6.index t (0 : Fin 2) * 1 + 1 * 0 = 0; omega
  | ⟨1, _⟩ => show win10_6.index t (1 : Fin 2) * 150 + 1 * j.val = j.val; omega

/-- What grid point `t` writes back is its block of `cls10` of the operand arrays as the region finds them. -/
theorem flushed10_eq (c : Dev nD) (t : Fin cfg10.N) :
    (dat10 (F := Ideal) V c).flushed 7 t
      = ((cfg10.win 7).blk t).view.read (Elt Ideal)
          (cls10 (V c main_arg0) (V c main_arg12) (V c main_v410) (V c main_arg14) (V c main_v411) (V c main_arg16) (V c main_v412)) := by
  show (cfg10.win 7).cut (grid10.coords t) ((dat10 (F := Ideal) V c).after 7 t) = _
  rw [after10_7]
  unfold out10_7
  rw [View.canon_unit_zero zeros10]
  simp only [View.ld_unit_zero (S := S2000x768) zeros10, View.ld_unit_zero (S := S768x300) zeros10, View.ld_unit_zero (S := S1x300) zeros10,
    View.ld_unit_zero (S := S300x200) zeros10, View.ld_unit_zero (S := S1x200) zeros10, View.ld_unit_zero (S := S200x150) zeros10,
    View.ld_unit_zero (S := S1x150) zeros10]
  have e := idx10 t
  have ht : t.val < 25 := lt_of_lt_of_eq t.isLt N_10
  funext j
  obtain ⟨p, q, rfl⟩ : ∃ (p : Fin 2000) (q : Fin 150), j = ix2 p q := ⟨j 0, j 1, eq_ix2 j⟩
  have hr : t.val * 2000 + p.val < 50000 := by have := p.isLt; omega
  have hi : ((cfg10.win 7).blk t).view.emb (ix2 p q) = (ix2 ⟨t.val * 2000 + p.val, hr⟩ q : S50000x150.Idx) := funext fun a => Fin.ext (by
    match a with
    | ⟨0, _⟩ => show win10_7.index t (0 : Fin 2) * 2000 + 1 * p.val = t.val * 2000 + p.val; omega
    | ⟨1, _⟩ => show win10_7.index t (1 : Fin 2) * 150 + 1 * q.val = q.val; omega)
  show k10_pay1 (F := Ideal) (iblk10 V c 0 t) (iblk10 V c 1 t) (iblk10 V c 2 t) (iblk10 V c 3 t) (iblk10 V c 4 t) (iblk10 V c 5 t) (iblk10 V c 6 t) (ix2 p q)
    = cls10 (V c main_arg0) (V c main_arg12) (V c main_v410) (V c main_arg14) (V c main_v411) (V c main_arg16) (V c main_v412)
        (((cfg10.win 7).blk t).view.emb (ix2 p q))
  rw [hi]
  refine (pay10_apply (iblk10 V c 0 t) (iblk10 V c 1 t) (iblk10 V c 2 t) (iblk10 V c 3 t) (iblk10 V c 4 t) (iblk10 V c 5 t) (iblk10 V c 6 t) p q).trans ?_
  refine congrArg₂ (· + ·) (Finset.sum_congr rfl fun k2 _ => congrArg₂ (· * ·) ?_ (w3blk10 V c t k2 q)) (b3blk10 V c t q)
  refine congrArg (fun z : EReal => max z 0)
    (congrArg₂ (· + ·) (Finset.sum_congr rfl fun k1 _ => congrArg₂ (· * ·) ?_ (w2blk10 V c t k1 k2)) (b2blk10 V c t k2))
  exact congrArg (fun z : EReal => max z 0)
    (congrArg₂ (· + ·) (Finset.sum_congr rfl fun k _ => congrArg₂ (· * ·) (xblk10 V c t p k ⟨t.val * 2000 + p.val, hr⟩ rfl) (w1blk10 V c t k k1)) (b1blk10 V c t k1))

/-- An index of the output array is in grid point `t`'s block iff each coordinate is in the block's range on its axis. -/
theorem mem_blk10 (t : Fin cfg10.N) (i : S50000x150.Idx) :
    i ∈ ((cfg10.win 7).blk t).view.set ↔ ∀ a : Fin 2, win10_7.index t a * S2000x150.size a ≤ (i a).val ∧ (i a).val < win10_7.index t a * S2000x150.size a + S2000x150.size a := by
  show i ∈ ((View.whole main_v413).slice (win10_7.rect t)).set ↔ _
  rw [View.set_slice_whole, Rect.mem_set_unit]
  exact Iff.rfl

/-- Every index of the output array is in the block of the grid point of its row block. -/
theorem cover10 (i : S50000x150.Idx) : ∃ t : Fin cfg10.N, (cfg10.win 7).flush t = true ∧ i ∈ ((cfg10.win 7).blk t).view.set := by
  have hi0 : (i 0).val < 50000 := (i 0).isLt
  have hi1 : (i 1).val < 150 := (i 1).isLt
  obtain ⟨t, ht⟩ : ∃ t : Fin cfg10.N, t.val = (i 0).val / 2000 := ⟨⟨(i 0).val / 2000, by rw [show cfg10.N = 25 from N_10]; omega⟩, rfl⟩
  have e := idx10 t
  refine ⟨t, flush10_7 t, ?_⟩
  rw [mem_blk10]
  intro a
  match a with
  | ⟨0, _⟩ => show win10_7.index t (0 : Fin 2) * 2000 ≤ (i 0).val ∧ (i 0).val < win10_7.index t (0 : Fin 2) * 2000 + 2000; omega
  | ⟨1, _⟩ => show win10_7.index t (1 : Fin 2) * 150 ≤ (i 1).val ∧ (i 1).val < win10_7.index t (1 : Fin 2) * 150 + 150; omega

/-- The output array after the region is `cls10` of the operand arrays at the region's entry. -/
theorem final10 (c : Dev nD) :
    (dat10 (F := Ideal) V c).arrAt 7 cfg10.N
      = cls10 (V c main_arg0) (V c main_arg12) (V c main_v410) (V c main_arg14) (V c main_v411) (V c main_arg16) (V c main_v412) :=
  (dat10 (F := Ideal) V c).arrAt_eq_of_cover 7
    (cls10 (V c main_arg0) (V c main_arg12) (V c main_v410) (V c main_arg14) (V c main_v411) (V c main_arg16) (V c main_v412))
    (fun t _ => flushed10_eq V c t) cover10

/-- The operand arrays at the region's entry, at their literal vector types (so that their entries multiply and add as
    extended reals). -/
abbrev in10_x (c : Dev nD) : Vec Ideal S50000x768 .f32 := V c main_arg0
abbrev in10_w1 (c : Dev nD) : Vec Ideal S768x300 .f32 := V c main_arg12
abbrev in10_b1 (c : Dev nD) : Vec Ideal S1x300 .f32 := V c main_v410
abbrev in10_w2 (c : Dev nD) : Vec Ideal S300x200 .f32 := V c main_arg14
abbrev in10_b2 (c : Dev nD) : Vec Ideal S1x200 .f32 := V c main_v411
abbrev in10_w3 (c : Dev nD) : Vec Ideal S200x150 .f32 := V c main_arg16
abbrev in10_b3 (c : Dev nD) : Vec Ideal S1x150 .f32 := V c main_v412

/-- REGION 10's VALUE, over any names of the operand arrays at the region's entry: entry (p, q) of the output array after the
    region is row `p` of the second hidden layer times column `q` of the third weight, plus the third bias row's entry in
    column `q`. -/
theorem region10_at (c : Dev nD) (X : Vec Ideal S50000x768 .f32) (W1 : Vec Ideal S768x300 .f32) (B1 : Vec Ideal S1x300 .f32)
    (W2 : Vec Ideal S300x200 .f32) (B2 : Vec Ideal S1x200 .f32) (W3 : Vec Ideal S200x150 .f32) (B3 : Vec Ideal S1x150 .f32)
    (hX : X = V c main_arg0) (hW1 : W1 = V c main_arg12) (hB1 : B1 = V c main_v410) (hW2 : W2 = V c main_arg14) (hB2 : B2 = V c main_v411)
    (hW3 : W3 = V c main_arg16) (hB3 : B3 = V c main_v412) (p : Fin 50000) (q : Fin 150) :
    (dat10 (F := Ideal) V c).arrAt 7 cfg10.N (ix2 p q)
      = (∑ k : Fin 200, layer2 X W1 B1 W2 B2 p k * W3 (ix2 k q)) + B3 (ix2 0 q) := by
  subst hX hW1 hB1 hW2 hB2 hW3 hB3
  exact congrFun (final10 V c) (ix2 p q)

/-- REGION 10's VALUE: entry (p, q) of the output array after the region is row `p` of the second hidden layer times column
    `q` of the third weight, plus the third bias row's entry in column `q`. -/
theorem region10 (c : Dev nD) (p : Fin 50000) (q : Fin 150) :
    (dat10 (F := Ideal) V c).arrAt 7 cfg10.N (ix2 p q)
      = (∑ k : Fin 200, layer2 (in10_x V c) (in10_w1 V c) (in10_b1 V c) (in10_w2 V c) (in10_b2 V c) p k * in10_w3 V c (ix2 k q))
        + in10_b3 V c (ix2 0 q) :=
  region10_at V c (in10_x V c) (in10_w1 V c) (in10_b1 V c) (in10_w2 V c) (in10_b2 V c) (in10_w3 V c) (in10_b3 V c) rfl rfl rfl rfl rfl rfl rfl p q

end Cert.KernelIdeal.RegionValue

end
-- ==== Proof.Carry10.lean ====
/- What the buffers read by the host operations before launch 10 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at10_main_arg13 (c : Dev nD) : W20 m ρ c (Proc.devRef .tc main_arg13) = m ((c : Thread nD τ).loc main_arg13) :=
  calc W20 m ρ c (Proc.devRef .tc main_arg13)
    _ = W19 m ρ c (Proc.devRef .tc main_arg13) := W20_of_ne m ρ c main_arg13 (by decide)
    _ = W18 m ρ c (Proc.devRef .tc main_arg13) := StableHlo.after_of_writes_sub hostOps9 _ hostOps9_writes (by decide)
    _ = W17 m ρ c (Proc.devRef .tc main_arg13) := W18_of_ne m ρ c main_arg13 (by decide)
    _ = W16 m ρ c (Proc.devRef .tc main_arg13) := StableHlo.after_of_writes_sub hostOps8 _ hostOps8_writes (by decide)
    _ = W15 m ρ c (Proc.devRef .tc main_arg13) := W16_of_ne m ρ c main_arg13 (by decide)
    _ = W14 m ρ c (Proc.devRef .tc main_arg13) := StableHlo.after_of_writes_sub hostOps7 _ hostOps7_writes (by decide)
    _ = W13 m ρ c (Proc.devRef .tc main_arg13) := W14_of_ne m ρ c main_arg13 (by decide)
    _ = W12 m ρ c (Proc.devRef .tc main_arg13) := StableHlo.after_of_writes_sub hostOps6 _ hostOps6_writes (by decide)
    _ = W11 m ρ c (Proc.devRef .tc main_arg13) := W12_of_ne m ρ c main_arg13 (by decide)
    _ = W10 m ρ c (Proc.devRef .tc main_arg13) := StableHlo.after_of_writes_sub hostOps5 _ hostOps5_writes (by decide)
    _ = W9 m ρ c (Proc.devRef .tc main_arg13) := W10_of_ne m ρ c main_arg13 (by decide)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

set_option maxHeartbeats 4000000 in
theorem at10_main_arg15 (c : Dev nD) : W20 m ρ c (Proc.devRef .tc main_arg15) = m ((c : Thread nD τ).loc main_arg15) :=
  calc W20 m ρ c (Proc.devRef .tc main_arg15)
    _ = W19 m ρ c (Proc.devRef .tc main_arg15) := W20_of_ne m ρ c main_arg15 (by decide)
    _ = W18 m ρ c (Proc.devRef .tc main_arg15) := StableHlo.after_of_writes_sub hostOps9 _ hostOps9_writes (by decide)
    _ = W17 m ρ c (Proc.devRef .tc main_arg15) := W18_of_ne m ρ c main_arg15 (by decide)
    _ = W16 m ρ c (Proc.devRef .tc main_arg15) := StableHlo.after_of_writes_sub hostOps8 _ hostOps8_writes (by decide)
    _ = W15 m ρ c (Proc.devRef .tc main_arg15) := W16_of_ne m ρ c main_arg15 (by decide)
    _ = W14 m ρ c (Proc.devRef .tc main_arg15) := StableHlo.after_of_writes_sub hostOps7 _ hostOps7_writes (by decide)
    _ = W13 m ρ c (Proc.devRef .tc main_arg15) := W14_of_ne m ρ c main_arg15 (by decide)
    _ = W12 m ρ c (Proc.devRef .tc main_arg15) := StableHlo.after_of_writes_sub hostOps6 _ hostOps6_writes (by decide)
    _ = W11 m ρ c (Proc.devRef .tc main_arg15) := W12_of_ne m ρ c main_arg15 (by decide)
    _ = W10 m ρ c (Proc.devRef .tc main_arg15) := StableHlo.after_of_writes_sub hostOps5 _ hostOps5_writes (by decide)
    _ = W9 m ρ c (Proc.devRef .tc main_arg15) := W10_of_ne m ρ c main_arg15 (by decide)
    _ = W8 m ρ c (Proc.devRef .tc main_arg15) := StableHlo.after_of_writes_sub hostOps4 _ hostOps4_writes (by decide)
    _ = W7 m ρ c (Proc.devRef .tc main_arg15) := W8_of_ne m ρ c main_arg15 (by decide)
    _ = W6 m ρ c (Proc.devRef .tc main_arg15) := StableHlo.after_of_writes_sub hostOps3 _ hostOps3_writes (by decide)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

set_option maxHeartbeats 4000000 in
theorem at10_main_arg17 (c : Dev nD) : W20 m ρ c (Proc.devRef .tc main_arg17) = m ((c : Thread nD τ).loc main_arg17) :=
  calc W20 m ρ c (Proc.devRef .tc main_arg17)
    _ = W19 m ρ c (Proc.devRef .tc main_arg17) := W20_of_ne m ρ c main_arg17 (by decide)
    _ = W18 m ρ c (Proc.devRef .tc main_arg17) := StableHlo.after_of_writes_sub hostOps9 _ hostOps9_writes (by decide)
    _ = W17 m ρ c (Proc.devRef .tc main_arg17) := W18_of_ne m ρ c main_arg17 (by decide)
    _ = W16 m ρ c (Proc.devRef .tc main_arg17) := StableHlo.after_of_writes_sub hostOps8 _ hostOps8_writes (by decide)
    _ = W15 m ρ c (Proc.devRef .tc main_arg17) := W16_of_ne m ρ c main_arg17 (by decide)
    _ = W14 m ρ c (Proc.devRef .tc main_arg17) := StableHlo.after_of_writes_sub hostOps7 _ hostOps7_writes (by decide)
    _ = W13 m ρ c (Proc.devRef .tc main_arg17) := W14_of_ne m ρ c main_arg17 (by decide)
    _ = W12 m ρ c (Proc.devRef .tc main_arg17) := StableHlo.after_of_writes_sub hostOps6 _ hostOps6_writes (by decide)
    _ = W11 m ρ c (Proc.devRef .tc main_arg17) := W12_of_ne m ρ c main_arg17 (by decide)
    _ = W10 m ρ c (Proc.devRef .tc main_arg17) := StableHlo.after_of_writes_sub hostOps5 _ hostOps5_writes (by decide)
    _ = W9 m ρ c (Proc.devRef .tc main_arg17) := W10_of_ne m ρ c main_arg17 (by decide)
    _ = W8 m ρ c (Proc.devRef .tc main_arg17) := StableHlo.after_of_writes_sub hostOps4 _ hostOps4_writes (by decide)
    _ = W7 m ρ c (Proc.devRef .tc main_arg17) := W8_of_ne m ρ c main_arg17 (by decide)
    _ = W6 m ρ c (Proc.devRef .tc main_arg17) := StableHlo.after_of_writes_sub hostOps3 _ hostOps3_writes (by decide)
    _ = W5 m ρ c (Proc.devRef .tc main_arg17) := W6_of_ne m ρ c main_arg17 (by decide)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

set_option maxHeartbeats 4000000 in
theorem at10_main_arg0 (c : Dev nD) : W20 m ρ c (Proc.devRef .tc main_arg0) = m ((c : Thread nD τ).loc main_arg0) :=
  calc W20 m ρ c (Proc.devRef .tc main_arg0)
    _ = W19 m ρ c (Proc.devRef .tc main_arg0) := W20_of_ne m ρ c main_arg0 (by decide)
    _ = W18 m ρ c (Proc.devRef .tc main_arg0) := StableHlo.after_of_writes_sub hostOps9 _ hostOps9_writes (by decide)
    _ = W17 m ρ c (Proc.devRef .tc main_arg0) := W18_of_ne m ρ c main_arg0 (by decide)
    _ = W16 m ρ c (Proc.devRef .tc main_arg0) := StableHlo.after_of_writes_sub hostOps8 _ hostOps8_writes (by decide)
    _ = W15 m ρ c (Proc.devRef .tc main_arg0) := W16_of_ne m ρ c main_arg0 (by decide)
    _ = W14 m ρ c (Proc.devRef .tc main_arg0) := StableHlo.after_of_writes_sub hostOps7 _ hostOps7_writes (by decide)
    _ = W13 m ρ c (Proc.devRef .tc main_arg0) := W14_of_ne m ρ c main_arg0 (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

set_option maxHeartbeats 4000000 in
theorem at10_main_arg12 (c : Dev nD) : W20 m ρ c (Proc.devRef .tc main_arg12) = m ((c : Thread nD τ).loc main_arg12) :=
  calc W20 m ρ c (Proc.devRef .tc main_arg12)
    _ = W19 m ρ c (Proc.devRef .tc main_arg12) := W20_of_ne m ρ c main_arg12 (by decide)
    _ = W18 m ρ c (Proc.devRef .tc main_arg12) := StableHlo.after_of_writes_sub hostOps9 _ hostOps9_writes (by decide)
    _ = W17 m ρ c (Proc.devRef .tc main_arg12) := W18_of_ne m ρ c main_arg12 (by decide)
    _ = W16 m ρ c (Proc.devRef .tc main_arg12) := StableHlo.after_of_writes_sub hostOps8 _ hostOps8_writes (by decide)
    _ = W15 m ρ c (Proc.devRef .tc main_arg12) := W16_of_ne m ρ c main_arg12 (by decide)
    _ = W14 m ρ c (Proc.devRef .tc main_arg12) := StableHlo.after_of_writes_sub hostOps7 _ hostOps7_writes (by decide)
    _ = W13 m ρ c (Proc.devRef .tc main_arg12) := W14_of_ne m ρ c main_arg12 (by decide)
    _ = W12 m ρ c (Proc.devRef .tc main_arg12) := StableHlo.after_of_writes_sub hostOps6 _ hostOps6_writes (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

set_option maxHeartbeats 4000000 in
theorem at10_main_arg14 (c : Dev nD) : W20 m ρ c (Proc.devRef .tc main_arg14) = m ((c : Thread nD τ).loc main_arg14) :=
  calc W20 m ρ c (Proc.devRef .tc main_arg14)
    _ = W19 m ρ c (Proc.devRef .tc main_arg14) := W20_of_ne m ρ c main_arg14 (by decide)
    _ = W18 m ρ c (Proc.devRef .tc main_arg14) := StableHlo.after_of_writes_sub hostOps9 _ hostOps9_writes (by decide)
    _ = W17 m ρ c (Proc.devRef .tc main_arg14) := W18_of_ne m ρ c main_arg14 (by decide)
    _ = W16 m ρ c (Proc.devRef .tc main_arg14) := StableHlo.after_of_writes_sub hostOps8 _ hostOps8_writes (by decide)
    _ = W15 m ρ c (Proc.devRef .tc main_arg14) := W16_of_ne m ρ c main_arg14 (by decide)
    _ = W14 m ρ c (Proc.devRef .tc main_arg14) := StableHlo.after_of_writes_sub hostOps7 _ hostOps7_writes (by decide)
    _ = W13 m ρ c (Proc.devRef .tc main_arg14) := W14_of_ne m ρ c main_arg14 (by decide)
    _ = W12 m ρ c (Proc.devRef .tc main_arg14) := StableHlo.after_of_writes_sub hostOps6 _ hostOps6_writes (by decide)
    _ = W11 m ρ c (Proc.devRef .tc main_arg14) := W12_of_ne m ρ c main_arg14 (by decide)
    _ = W10 m ρ c (Proc.devRef .tc main_arg14) := StableHlo.after_of_writes_sub hostOps5 _ hostOps5_writes (by decide)
    _ = W9 m ρ c (Proc.devRef .tc main_arg14) := W10_of_ne m ρ c main_arg14 (by decide)
    _ = W8 m ρ c (Proc.devRef .tc main_arg14) := StableHlo.after_of_writes_sub hostOps4 _ hostOps4_writes (by decide)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

set_option maxHeartbeats 4000000 in
theorem at10_main_arg16 (c : Dev nD) : W20 m ρ c (Proc.devRef .tc main_arg16) = m ((c : Thread nD τ).loc main_arg16) :=
  calc W20 m ρ c (Proc.devRef .tc main_arg16)
    _ = W19 m ρ c (Proc.devRef .tc main_arg16) := W20_of_ne m ρ c main_arg16 (by decide)
    _ = W18 m ρ c (Proc.devRef .tc main_arg16) := StableHlo.after_of_writes_sub hostOps9 _ hostOps9_writes (by decide)
    _ = W17 m ρ c (Proc.devRef .tc main_arg16) := W18_of_ne m ρ c main_arg16 (by decide)
    _ = W16 m ρ c (Proc.devRef .tc main_arg16) := StableHlo.after_of_writes_sub hostOps8 _ hostOps8_writes (by decide)
    _ = W15 m ρ c (Proc.devRef .tc main_arg16) := W16_of_ne m ρ c main_arg16 (by decide)
    _ = W14 m ρ c (Proc.devRef .tc main_arg16) := StableHlo.after_of_writes_sub hostOps7 _ hostOps7_writes (by decide)
    _ = W13 m ρ c (Proc.devRef .tc main_arg16) := W14_of_ne m ρ c main_arg16 (by decide)
    _ = W12 m ρ c (Proc.devRef .tc main_arg16) := StableHlo.after_of_writes_sub hostOps6 _ hostOps6_writes (by decide)
    _ = W11 m ρ c (Proc.devRef .tc main_arg16) := W12_of_ne m ρ c main_arg16 (by decide)
    _ = W10 m ρ c (Proc.devRef .tc main_arg16) := StableHlo.after_of_writes_sub hostOps5 _ hostOps5_writes (by decide)
    _ = W9 m ρ c (Proc.devRef .tc main_arg16) := W10_of_ne m ρ c main_arg16 (by decide)
    _ = W8 m ρ c (Proc.devRef .tc main_arg16) := StableHlo.after_of_writes_sub hostOps4 _ hostOps4_writes (by decide)
    _ = W7 m ρ c (Proc.devRef .tc main_arg16) := W8_of_ne m ρ c main_arg16 (by decide)
    _ = W6 m ρ c (Proc.devRef .tc main_arg16) := StableHlo.after_of_writes_sub hostOps3 _ hostOps3_writes (by decide)
    _ = W5 m ρ c (Proc.devRef .tc main_arg16) := W6_of_ne m ρ c main_arg16 (by decide)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

end Cert.KernelIdeal.Carry

end
-- ==== Proof.Step10.lean ====
/-
  Launch 10 (the classifier's three-layer perceptron on the first node type's input features): at the exit of the
  launch the kernel's output array is, entry by entry, the reference's
  `relu(relu(x @ W1 + b1) @ W2 + b2) @ W3 + b3`.

  The kernel side gives entry (p, q) of the output as the last layer's sum over the second hidden layer, each hidden
  entry the maximum with zero of the layer below's sum plus the bias row's entry (0, j); each bias row is its bias vector
  with a leading unit axis added, so its entry (0, j) is the vector's entry j. The input, the three weights and the
  three biases are argument arrays, which hold at the launch what the memory held at the start.

  The reference side reads each matrix product at an entry as the same sum, each bias (broadcast to one row, then
  along the rows) as the vector's entry, and each rectifier as the maximum with the constant zero.
-/
import proofs.«138545_j63058709840619_2_alg».proof.Proof.FrameKIW
import proofs.«138545_j63058709840619_2_alg».proof.Proof.RegionValue10
import proofs.«138545_j63058709840619_2_alg».proof.Proof.RefRead
import proofs.«138545_j63058709840619_2_alg».proof.Proof.Carry10
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.ShloMosaic.ValueIdx Idealize.ShloMosaic.StableHlo
open Idealize.SL Idealize.SL.Sem

/-- The pattern of all zero bits denotes the real number zero. -/
theorem ofBits_zero_f32 : Ideal.ofBits .f32 0x00000000#32 = 0 := by simp [Ideal.ofBits, Ideal.ieee]

/-- The reference's first hidden layer at entry (p, j). -/
theorem ref_h1 (x0 : (⟨Cert.ReferenceIdeal.S50000x768, .f32⟩ : BufTy).Contents (Elt Ideal)) (x12 : (⟨Cert.ReferenceIdeal.S768x300, .f32⟩ : BufTy).Contents (Elt Ideal)) (x13 : (⟨Cert.ReferenceIdeal.S300, .f32⟩ : BufTy).Contents (Elt Ideal))
    (p : Fin 50000) (j : Fin 300) :
    Cert.ReferenceIdeal.Read.val_main_v661 (F := Ideal) x0 x12 x13 (ix2 p j)
      = max ((∑ k : Fin 768, x0 (ix2 p k) * x12 (ix2 k j)) + x13 (ix1 j)) 0 := by
  rw [Cert.ReferenceIdeal.Read.val_main_v661_apply, Cert.ReferenceIdeal.Read.val_main_v660_apply, Cert.ReferenceIdeal.Read.val_main_v657_apply, Cert.ReferenceIdeal.Read.val_main_v659_apply,
    Cert.ReferenceIdeal.Read.val_main_v658_apply, Cert.ReferenceIdeal.Read.val_main_call6_v0_apply, Cert.ReferenceIdeal.Read.val_main_call6_cst_apply,
    Ideal.maximumf_def, Ideal.addf_def, Ideal.ofBits_def, ofBits_zero_f32]
  have hl : ∀ k : Fin 768, Cert.ReferenceIdeal.Read.lidx_main_v657 (ix2 p j) k = ix2 p k := fun k =>
    funext fun a => Fin.ext (by match a with | ⟨0, _⟩ => rfl | ⟨1, _⟩ => rfl)
  have hr : ∀ k : Fin 768, Cert.ReferenceIdeal.Read.ridx_main_v657 (ix2 p j) k = ix2 k j := fun k =>
    funext fun a => Fin.ext (by match a with | ⟨0, _⟩ => rfl | ⟨1, _⟩ => rfl)
  have hb : Cert.ReferenceIdeal.Read.idx_main_v658 (Cert.ReferenceIdeal.Read.idx_main_v659 (ix2 p j)) = ix1 j :=
    funext fun a => Fin.ext (by match a with | ⟨0, _⟩ => rfl)
  simp only [hl, hr, hb]

/-- The reference's second hidden layer at entry (p, j), over the first. -/
theorem ref_h2 (x0 : (⟨Cert.ReferenceIdeal.S50000x768, .f32⟩ : BufTy).Contents (Elt Ideal)) (x12 : (⟨Cert.ReferenceIdeal.S768x300, .f32⟩ : BufTy).Contents (Elt Ideal)) (x13 : (⟨Cert.ReferenceIdeal.S300, .f32⟩ : BufTy).Contents (Elt Ideal))
    (x14 : (⟨Cert.ReferenceIdeal.S300x200, .f32⟩ : BufTy).Contents (Elt Ideal)) (x15 : (⟨Cert.ReferenceIdeal.S200, .f32⟩ : BufTy).Contents (Elt Ideal)) (p : Fin 50000) (j : Fin 200) :
    Cert.ReferenceIdeal.Read.val_main_v666 (F := Ideal) x0 x12 x13 x14 x15 (ix2 p j)
      = max ((∑ k : Fin 300, Cert.ReferenceIdeal.Read.val_main_v661 (F := Ideal) x0 x12 x13 (ix2 p k) * x14 (ix2 k j)) + x15 (ix1 j)) 0 := by
  rw [Cert.ReferenceIdeal.Read.val_main_v666_apply, Cert.ReferenceIdeal.Read.val_main_v665_apply, Cert.ReferenceIdeal.Read.val_main_v662_apply, Cert.ReferenceIdeal.Read.val_main_v664_apply,
    Cert.ReferenceIdeal.Read.val_main_v663_apply, Cert.ReferenceIdeal.Read.val_main_call7_v0_apply, Cert.ReferenceIdeal.Read.val_main_call7_cst_apply,
    Ideal.maximumf_def, Ideal.addf_def, Ideal.ofBits_def, ofBits_zero_f32]
  have hl : ∀ k : Fin 300, Cert.ReferenceIdeal.Read.lidx_main_v662 (ix2 p j) k = ix2 p k := fun k =>
    funext fun a => Fin.ext (by match a with | ⟨0, _⟩ => rfl | ⟨1, _⟩ => rfl)
  have hr : ∀ k : Fin 300, Cert.ReferenceIdeal.Read.ridx_main_v662 (ix2 p j) k = ix2 k j := fun k =>
    funext fun a => Fin.ext (by match a with | ⟨0, _⟩ => rfl | ⟨1, _⟩ => rfl)
  have hb : Cert.ReferenceIdeal.Read.idx_main_v663 (Cert.ReferenceIdeal.Read.idx_main_v664 (ix2 p j)) = ix1 j :=
    funext fun a => Fin.ext (by match a with | ⟨0, _⟩ => rfl)
  simp only [hl, hr, hb]

/-- The reference's output layer at entry (p, q), over the second hidden layer. -/
theorem ref_out (x0 : (⟨Cert.ReferenceIdeal.S50000x768, .f32⟩ : BufTy).Contents (Elt Ideal)) (x12 : (⟨Cert.ReferenceIdeal.S768x300, .f32⟩ : BufTy).Contents (Elt Ideal)) (x13 : (⟨Cert.ReferenceIdeal.S300, .f32⟩ : BufTy).Contents (Elt Ideal))
    (x14 : (⟨Cert.ReferenceIdeal.S300x200, .f32⟩ : BufTy).Contents (Elt Ideal)) (x15 : (⟨Cert.ReferenceIdeal.S200, .f32⟩ : BufTy).Contents (Elt Ideal)) (x16 : (⟨Cert.ReferenceIdeal.S200x150, .f32⟩ : BufTy).Contents (Elt Ideal)) (x17 : (⟨Cert.ReferenceIdeal.S150, .f32⟩ : BufTy).Contents (Elt Ideal))
    (p : Fin 50000) (q : Fin 150) :
    Cert.ReferenceIdeal.Read.val_main_v670 (F := Ideal) x0 x12 x13 x14 x15 x16 x17 (ix2 p q)
      = (∑ k : Fin 200, Cert.ReferenceIdeal.Read.val_main_v666 (F := Ideal) x0 x12 x13 x14 x15 (ix2 p k) * x16 (ix2 k q)) + x17 (ix1 q) := by
  rw [Cert.ReferenceIdeal.Read.val_main_v670_apply, Cert.ReferenceIdeal.Read.val_main_v667_apply, Cert.ReferenceIdeal.Read.val_main_v669_apply, Cert.ReferenceIdeal.Read.val_main_v668_apply,
    Ideal.addf_def]
  have hl : ∀ k : Fin 200, Cert.ReferenceIdeal.Read.lidx_main_v667 (ix2 p q) k = ix2 p k := fun k =>
    funext fun a => Fin.ext (by match a with | ⟨0, _⟩ => rfl | ⟨1, _⟩ => rfl)
  have hr : ∀ k : Fin 200, Cert.ReferenceIdeal.Read.ridx_main_v667 (ix2 p q) k = ix2 k q := fun k =>
    funext fun a => Fin.ext (by match a with | ⟨0, _⟩ => rfl | ⟨1, _⟩ => rfl)
  have hb : Cert.ReferenceIdeal.Read.idx_main_v668 (Cert.ReferenceIdeal.Read.idx_main_v669 (ix2 p q)) = ix1 q :=
    funext fun a => Fin.ext (by match a with | ⟨0, _⟩ => rfl)
  simp only [hl, hr, hb]

/-- The reference's perceptron at entry (p, q), the three layers written out. -/
theorem ref_mlp (x0 : (⟨Cert.ReferenceIdeal.S50000x768, .f32⟩ : BufTy).Contents (Elt Ideal)) (x12 : (⟨Cert.ReferenceIdeal.S768x300, .f32⟩ : BufTy).Contents (Elt Ideal)) (x13 : (⟨Cert.ReferenceIdeal.S300, .f32⟩ : BufTy).Contents (Elt Ideal))
    (x14 : (⟨Cert.ReferenceIdeal.S300x200, .f32⟩ : BufTy).Contents (Elt Ideal)) (x15 : (⟨Cert.ReferenceIdeal.S200, .f32⟩ : BufTy).Contents (Elt Ideal)) (x16 : (⟨Cert.ReferenceIdeal.S200x150, .f32⟩ : BufTy).Contents (Elt Ideal)) (x17 : (⟨Cert.ReferenceIdeal.S150, .f32⟩ : BufTy).Contents (Elt Ideal))
    (p : Fin 50000) (q : Fin 150) :
    Cert.ReferenceIdeal.Read.val_main_v670 (F := Ideal) x0 x12 x13 x14 x15 x16 x17 (ix2 p q)
      = (∑ k : Fin 200,
          max ((∑ k' : Fin 300,
                max ((∑ k'' : Fin 768, x0 (ix2 p k'') * x12 (ix2 k'' k')) + x13 (ix1 k')) 0 * x14 (ix2 k' k))
              + x15 (ix1 k)) 0 * x16 (ix2 k q))
        + x17 (ix1 q) := by
  rw [ref_out]
  simp only [ref_h2, ref_h1]

/-- Launch 10: the kernel's output array at the launch's exit is the reference's perceptron of the same arguments. -/
theorem step10 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W22 (F := Ideal) m ρ c (Proc.devRef .tc Cert.KernelIdeal.main_v413) :
        Cert.ReferenceIdeal.S50000x150.Idx → EReal)
      = Cert.ReferenceIdeal.Read.val_main_v670 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17)) := by
  funext i
  obtain ⟨p, q, rfl⟩ : ∃ (p : Fin 50000) (q : Fin 150), i = ix2 p q := ⟨i 0, i 1, eq_ix2 i⟩
  -- at the exit of the launch the output array is what the launch leaves in the array of its output window
  have hL : W22 (F := Ideal) m ρ c (Proc.devRef .tc main_v413) = (dat10 (F := Ideal) (V21 m ρ) c).arrAt 7 cfg10.N :=
    W22_arr m ρ c 7
  -- the input and the weights at the launch's entry are the arguments as at the start,
  have e0 : V21 (F := Ideal) m ρ c main_arg0 = m ((c.tc : Thread nD τ).loc main_arg0) := by
    show StableHlo.after hostOps10 (W20 m ρ c) (Proc.devRef .tc main_arg0) = _
    after_results
    exact Cert.KernelIdeal.Carry.at10_main_arg0 m ρ c
  have e12 : V21 (F := Ideal) m ρ c main_arg12 = m ((c.tc : Thread nD τ).loc main_arg12) := by
    show StableHlo.after hostOps10 (W20 m ρ c) (Proc.devRef .tc main_arg12) = _
    after_results
    exact Cert.KernelIdeal.Carry.at10_main_arg12 m ρ c
  have e14 : V21 (F := Ideal) m ρ c main_arg14 = m ((c.tc : Thread nD τ).loc main_arg14) := by
    show StableHlo.after hostOps10 (W20 m ρ c) (Proc.devRef .tc main_arg14) = _
    after_results
    exact Cert.KernelIdeal.Carry.at10_main_arg14 m ρ c
  have e16 : V21 (F := Ideal) m ρ c main_arg16 = m ((c.tc : Thread nD τ).loc main_arg16) := by
    show StableHlo.after hostOps10 (W20 m ρ c) (Proc.devRef .tc main_arg16) = _
    after_results
    exact Cert.KernelIdeal.Carry.at10_main_arg16 m ρ c
  -- and each bias row is its bias vector with a leading unit axis added: the row's entry (u, j) is the vector's entry j
  have hB13 : (fun i : Cert.KernelIdeal.S1x300.Idx =>
        (m ((c.tc : Thread nD τ).loc main_arg13) : Cert.KernelIdeal.S300.Idx → EReal) (ix1 (i 1)))
      = (V21 (F := Ideal) m ρ c main_v410 : Cert.KernelIdeal.S1x300.Idx → EReal) := by
    have e : (V21 (F := Ideal) m ρ c main_v410 : Cert.KernelIdeal.S1x300.Idx → EReal)
        = shapeCast Cert.KernelIdeal.S1x300
            (m ((c.tc : Thread nD τ).loc main_arg13) : Cert.KernelIdeal.S300.Idx → EReal) shapeCasts_S300_S1x300 := by
      show (StableHlo.after hostOps10 (W20 m ρ c) (Proc.devRef .tc main_v410) : Cert.KernelIdeal.S1x300.Idx → EReal) = _
      after_results
      rw [Cert.KernelIdeal.Carry.at10_main_arg13 m ρ c]
      rfl
    rw [e]
    funext i
    obtain ⟨u, j, rfl⟩ : ∃ (u : Fin 1) (j : Fin 300), i = ix2 u j := ⟨i 0, i 1, eq_ix2 i⟩
    exact (shapeCast_a_1a_apply _ _ u j).symm
  have hB15 : (fun i : Cert.KernelIdeal.S1x200.Idx =>
        (m ((c.tc : Thread nD τ).loc main_arg15) : Cert.KernelIdeal.S200.Idx → EReal) (ix1 (i 1)))
      = (V21 (F := Ideal) m ρ c main_v411 : Cert.KernelIdeal.S1x200.Idx → EReal) := by
    have e : (V21 (F := Ideal) m ρ c main_v411 : Cert.KernelIdeal.S1x200.Idx → EReal)
        = shapeCast Cert.KernelIdeal.S1x200
            (m ((c.tc : Thread nD τ).loc main_arg15) : Cert.KernelIdeal.S200.Idx → EReal) shapeCasts_S200_S1x200 := by
      show (StableHlo.after hostOps10 (W20 m ρ c) (Proc.devRef .tc main_v411) : Cert.KernelIdeal.S1x200.Idx → EReal) = _
      after_results
      rw [Cert.KernelIdeal.Carry.at10_main_arg15 m ρ c]
      rfl
    rw [e]
    funext i
    obtain ⟨u, j, rfl⟩ : ∃ (u : Fin 1) (j : Fin 200), i = ix2 u j := ⟨i 0, i 1, eq_ix2 i⟩
    exact (shapeCast_a_1a_apply _ _ u j).symm
  have hB17 : (fun i : Cert.KernelIdeal.S1x150.Idx =>
        (m ((c.tc : Thread nD τ).loc main_arg17) : Cert.KernelIdeal.S150.Idx → EReal) (ix1 (i 1)))
      = (V21 (F := Ideal) m ρ c main_v412 : Cert.KernelIdeal.S1x150.Idx → EReal) := by
    have e : (V21 (F := Ideal) m ρ c main_v412 : Cert.KernelIdeal.S1x150.Idx → EReal)
        = shapeCast Cert.KernelIdeal.S1x150
            (m ((c.tc : Thread nD τ).loc main_arg17) : Cert.KernelIdeal.S150.Idx → EReal) shapeCasts_S150_S1x150 := by
      show (StableHlo.after hostOps10 (W20 m ρ c) (Proc.devRef .tc main_v412) : Cert.KernelIdeal.S1x150.Idx → EReal) = _
      after_results
      rw [Cert.KernelIdeal.Carry.at10_main_arg17 m ρ c]
      rfl
    rw [e]
    funext i
    obtain ⟨u, j, rfl⟩ : ∃ (u : Fin 1) (j : Fin 150), i = ix2 u j := ⟨i 0, i 1, eq_ix2 i⟩
    exact (shapeCast_a_1a_apply _ _ u j).symm
  refine (congrFun hL (ix2 p q)).trans ?_
  -- the launch's value at the entry, over these seven arrays
  refine (Cert.KernelIdeal.RegionValue.region10_at (V21 m ρ) c _ _ _ _ _ _ _
    e0.symm e12.symm hB13 e14.symm hB15 e16.symm hB17 p q).trans ?_
  simp only [Cert.KernelIdeal.RegionValue.layer1, Cert.KernelIdeal.RegionValue.layer2]
  exact (ref_mlp _ _ _ _ _ _ _ p q).symm

end Cert.Bridge

end
-- ==== Proof.Carry11.lean ====
/- What the buffers read by the host operations before launch 11 hold there: each is carried, one segment boundary at a time,
   from the boundary where it was written (an argument: from the launch memory). -/
import proofs.«138545_j63058709840619_2_alg».proof.Proof.CarryWrites

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
theorem at11_main_arg27 (c : Dev nD) : W22 m ρ c (Proc.devRef .tc main_arg27) = m ((c : Thread nD τ).loc main_arg27) :=
  calc W22 m ρ c (Proc.devRef .tc main_arg27)
    _ = W21 m ρ c (Proc.devRef .tc main_arg27) := W22_of_ne m ρ c main_arg27 (by decide)
    _ = W20 m ρ c (Proc.devRef .tc main_arg27) := StableHlo.after_of_writes_sub hostOps10 _ hostOps10_writes (by decide)
    _ = W19 m ρ c (Proc.devRef .tc main_arg27) := W20_of_ne m ρ c main_arg27 (by decide)
    _ = W18 m ρ c (Proc.devRef .tc main_arg27) := StableHlo.after_of_writes_sub hostOps9 _ hostOps9_writes (by decide)
    _ = W17 m ρ c (Proc.devRef .tc main_arg27) := W18_of_ne m ρ c main_arg27 (by decide)
    _ = W16 m ρ c (Proc.devRef .tc main_arg27) := StableHlo.after_of_writes_sub hostOps8 _ hostOps8_writes (by decide)
    _ = W15 m ρ c (Proc.devRef .tc main_arg27) := W16_of_ne m ρ c main_arg27 (by decide)
    _ = W14 m ρ c (Proc.devRef .tc main_arg27) := StableHlo.after_of_writes_sub hostOps7 _ hostOps7_writes (by decide)
    _ = W13 m ρ c (Proc.devRef .tc main_arg27) := W14_of_ne m ρ c main_arg27 (by decide)
    _ = W12 m ρ c (Proc.devRef .tc main_arg27) := StableHlo.after_of_writes_sub hostOps6 _ hostOps6_writes (by decide)
    _ = W11 m ρ c (Proc.devRef .tc main_arg27) := W12_of_ne m ρ c main_arg27 (by decide)
    _ = W10 m ρ c (Proc.devRef .tc main_arg27) := StableHlo.after_of_writes_sub hostOps5 _ hostOps5_writes (by decide)
    _ = W9 m ρ c (Proc.devRef .tc main_arg27) := W10_of_ne m ρ c main_arg27 (by decide)
    _ = W8 m ρ c (Proc.devRef .tc main_arg27) := StableHlo.after_of_writes_sub hostOps4 _ hostOps4_writes (by decide)
    _ = W7 m ρ c (Proc.devRef .tc main_arg27) := W8_of_ne m ρ c main_arg27 (by decide)
    _ = W6 m ρ c (Proc.devRef .tc main_arg27) := StableHlo.after_of_writes_sub hostOps3 _ hostOps3_writes (by decide)
    _ = W5 m ρ c (Proc.devRef .tc main_arg27) := W6_of_ne m ρ c main_arg27 (by decide)
    _ = W4 m ρ c (Proc.devRef .tc main_arg27) := StableHlo.after_of_writes_sub hostOps2 _ hostOps2_writes (by decide)
    _ = W3 m ρ c (Proc.devRef .tc main_arg27) := W4_of_ne m ρ c main_arg27 (by decide)
    _ = W2 m ρ c (Proc.devRef .tc main_arg27) := StableHlo.after_of_writes_sub hostOps1 _ hostOps1_writes (by decide)
    _ = W1 m ρ c (Proc.devRef .tc main_arg27) := W2_of_ne m ρ c main_arg27 (by decide)
    _ = W0 m ρ c (Proc.devRef .tc main_arg27) := StableHlo.after_of_writes_sub hostOps0 _ hostOps0_writes (by decide)
    _ = m ((c : Thread nD τ).loc main_arg27) := rfl

set_option maxHeartbeats 4000000 in
theorem at11_main_v409 (c : Dev nD) : W22 m ρ c (Proc.devRef .tc main_v409) = W20 m ρ c (Proc.devRef .tc main_v409) :=
  calc W22 m ρ c (Proc.devRef .tc main_v409)
    _ = W21 m ρ c (Proc.devRef .tc main_v409) := W22_of_ne m ρ c main_v409 (by decide)
    _ = W20 m ρ c (Proc.devRef .tc main_v409) := StableHlo.after_of_writes_sub hostOps10 _ hostOps10_writes (by decide)

set_option maxHeartbeats 4000000 in
theorem at11_main_arg18 (c : Dev nD) : W22 m ρ c (Proc.devRef .tc main_arg18) = m ((c : Thread nD τ).loc main_arg18) :=
  calc W22 m ρ c (Proc.devRef .tc main_arg18)
    _ = W21 m ρ c (Proc.devRef .tc main_arg18) := W22_of_ne m ρ c main_arg18 (by decide)
    _ = W20 m ρ c (Proc.devRef .tc main_arg18) := StableHlo.after_of_writes_sub hostOps10 _ hostOps10_writes (by decide)
    _ = W19 m ρ c (Proc.devRef .tc main_arg18) := W20_of_ne m ρ c main_arg18 (by decide)
    _ = W18 m ρ c (Proc.devRef .tc main_arg18) := StableHlo.after_of_writes_sub hostOps9 _ hostOps9_writes (by decide)
    _ = W17 m ρ c (Proc.devRef .tc main_arg18) := W18_of_ne m ρ c main_arg18 (by decide)
    _ = W16 m ρ c (Proc.devRef .tc main_arg18) := StableHlo.after_of_writes_sub hostOps8 _ hostOps8_writes (by decide)
    _ = W15 m ρ c (Proc.devRef .tc main_arg18) := W16_of_ne m ρ c main_arg18 (by decide)
    _ = W14 m ρ c (Proc.devRef .tc main_arg18) := StableHlo.after_of_writes_sub hostOps7 _ hostOps7_writes (by decide)
    _ = W13 m ρ c (Proc.devRef .tc main_arg18) := W14_of_ne m ρ c main_arg18 (by decide)
    _ = W12 m ρ c (Proc.devRef .tc main_arg18) := StableHlo.after_of_writes_sub hostOps6 _ hostOps6_writes (by decide)
    _ = W11 m ρ c (Proc.devRef .tc main_arg18) := W12_of_ne m ρ c main_arg18 (by decide)
    _ = W10 m ρ c (Proc.devRef .tc main_arg18) := StableHlo.after_of_writes_sub hostOps5 _ hostOps5_writes (by decide)
    _ = W9 m ρ c (Proc.devRef .tc main_arg18) := W10_of_ne m ρ c main_arg18 (by decide)
    _ = W8 m ρ c (Proc.devRef .tc main_arg18) := StableHlo.after_of_writes_sub hostOps4 _ hostOps4_writes (by decide)
    _ = W7 m ρ c (Proc.devRef .tc main_arg18) := W8_of_ne m ρ c main_arg18 (by decide)
    _ = W6 m ρ c (Proc.devRef .tc main_arg18) := StableHlo.after_of_writes_sub hostOps3 _ hostOps3_writes (by decide)
    _ = W5 m ρ c (Proc.devRef .tc main_arg18) := W6_of_ne m ρ c main_arg18 (by decide)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

set_option maxHeartbeats 4000000 in
theorem at11_main_arg19 (c : Dev nD) : W22 m ρ c (Proc.devRef .tc main_arg19) = m ((c : Thread nD τ).loc main_arg19) :=
  calc W22 m ρ c (Proc.devRef .tc main_arg19)
    _ = W21 m ρ c (Proc.devRef .tc main_arg19) := W22_of_ne m ρ c main_arg19 (by decide)
    _ = W20 m ρ c (Proc.devRef .tc main_arg19) := StableHlo.after_of_writes_sub hostOps10 _ hostOps10_writes (by decide)
    _ = W19 m ρ c (Proc.devRef .tc main_arg19) := W20_of_ne m ρ c main_arg19 (by decide)
    _ = W18 m ρ c (Proc.devRef .tc main_arg19) := StableHlo.after_of_writes_sub hostOps9 _ hostOps9_writes (by decide)
    _ = W17 m ρ c (Proc.devRef .tc main_arg19) := W18_of_ne m ρ c main_arg19 (by decide)
    _ = W16 m ρ c (Proc.devRef .tc main_arg19) := StableHlo.after_of_writes_sub hostOps8 _ hostOps8_writes (by decide)
    _ = W15 m ρ c (Proc.devRef .tc main_arg19) := W16_of_ne m ρ c main_arg19 (by decide)
    _ = W14 m ρ c (Proc.devRef .tc main_arg19) := StableHlo.after_of_writes_sub hostOps7 _ hostOps7_writes (by decide)
    _ = W13 m ρ c (Proc.devRef .tc main_arg19) := W14_of_ne m ρ c main_arg19 (by decide)
    _ = W12 m ρ c (Proc.devRef .tc main_arg19) := StableHlo.after_of_writes_sub hostOps6 _ hostOps6_writes (by decide)
    _ = W11 m ρ c (Proc.devRef .tc main_arg19) := W12_of_ne m ρ c main_arg19 (by decide)
    _ = W10 m ρ c (Proc.devRef .tc main_arg19) := StableHlo.after_of_writes_sub hostOps5 _ hostOps5_writes (by decide)
    _ = W9 m ρ c (Proc.devRef .tc main_arg19) := W10_of_ne m ρ c main_arg19 (by decide)
    _ = W8 m ρ c (Proc.devRef .tc main_arg19) := StableHlo.after_of_writes_sub hostOps4 _ hostOps4_writes (by decide)
    _ = W7 m ρ c (Proc.devRef .tc main_arg19) := W8_of_ne m ρ c main_arg19 (by decide)
    _ = W6 m ρ c (Proc.devRef .tc main_arg19) := StableHlo.after_of_writes_sub hostOps3 _ hostOps3_writes (by decide)
    _ = W5 m ρ c (Proc.devRef .tc main_arg19) := W6_of_ne m ρ c main_arg19 (by decide)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl

set_option maxHeartbeats 4000000 in
theorem at11_main_arg21 (c : Dev nD) : W22 m ρ c (Proc.devRef .tc main_arg21) = m ((c : Thread nD τ).loc main_arg21) :=
  calc W22 m ρ c (Proc.devRef .tc main_arg21)
    _ = W21 m ρ c (Proc.devRef .tc main_arg21) := W22_of_ne m ρ c main_arg21 (by decide)
    _ = W20 m ρ c (Proc.devRef .tc main_arg21) := StableHlo.after_of_writes_sub hostOps10 _ hostOps10_writes (by decide)
    _ = W19 m ρ c (Proc.devRef .tc main_arg21) := W20_of_ne m ρ c main_arg21 (by decide)
    _ = W18 m ρ c (Proc.devRef .tc main_arg21) := StableHlo.after_of_writes_sub hostOps9 _ hostOps9_writes (by decide)
    _ = W17 m ρ c (Proc.devRef .tc main_arg21) := W18_of_ne m ρ c main_arg21 (by decide)
    _ = W16 m ρ c (Proc.devRef .tc main_arg21) := StableHlo.after_of_writes_sub hostOps8 _ hostOps8_writes (by decide)
    _ = W15 m ρ c (Proc.devRef .tc main_arg21) := W16_of_ne m ρ c main_arg21 (by decide)
    _ = W14 m ρ c (Proc.devRef .tc main_arg21) := StableHlo.after_of_writes_sub hostOps7 _ hostOps7_writes (by decide)
    _ = W13 m ρ c (Proc.devRef .tc main_arg21) := W14_of_ne m ρ c main_arg21 (by decide)
    _ = W12 m ρ c (Proc.devRef .tc main_arg21) := StableHlo.after_of_writes_sub hostOps6 _ hostOps6_writes (by decide)
    _ = W11 m ρ c (Proc.devRef .tc main_arg21) := W12_of_ne m ρ c main_arg21 (by decide)
    _ = W10 m ρ c (Proc.devRef .tc main_arg21) := StableHlo.after_of_writes_sub hostOps5 _ hostOps5_writes (by decide)
    _ = W9 m ρ c (Proc.devRef .tc main_arg21) := W10_of_ne m ρ c main_arg21 (by decide)
    _ = W8 m ρ c (Proc.devRef .tc main_arg21) := StableHlo.after_of_writes_sub hostOps4 _ hostOps4_writes (by decide)
    _ = W7 m ρ c (Proc.devRef .tc main_arg21) := W8_of_ne m ρ c main_arg21 (by decide)
    _ = W6 m ρ c (Proc.devRef .tc main_arg21) := StableHlo.after_of_writes_sub hostOps3 _ hostOps3_writes (by decide)
    _ = W5 m ρ c (Proc.devRef .tc main_arg21) := W6_of_ne m ρ c main_arg21 (by decide)
    _ = W4 m ρ c (Proc.devRef .tc main_arg21) := StableHlo.after_of_writes_sub hostOps2 _ hostOps2_writes (by decide)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = W0 m ρ c (Proc.devRef .tc main_arg21) := StableHlo.after_of_writes_sub hostOps0 _ hostOps0_writes (by decide)
    _ = m ((c : Thread nD τ).loc main_arg21) := rfl

set_option maxHeartbeats 4000000 in
theorem at11_main_arg23 (c : Dev nD) : W22 m ρ c (Proc.devRef .tc main_arg23) = m ((c : Thread nD τ).loc main_arg23) :=
  calc W22 m ρ c (Proc.devRef .tc main_arg23)
    _ = W21 m ρ c (Proc.devRef .tc main_arg23) := W22_of_ne m ρ c main_arg23 (by decide)
    _ = W20 m ρ c (Proc.devRef .tc main_arg23) := StableHlo.after_of_writes_sub hostOps10 _ hostOps10_writes (by decide)
    _ = W19 m ρ c (Proc.devRef .tc main_arg23) := W20_of_ne m ρ c main_arg23 (by decide)
    _ = W18 m ρ c (Proc.devRef .tc main_arg23) := StableHlo.after_of_writes_sub hostOps9 _ hostOps9_writes (by decide)
    _ = W17 m ρ c (Proc.devRef .tc main_arg23) := W18_of_ne m ρ c main_arg23 (by decide)
    _ = W16 m ρ c (Proc.devRef .tc main_arg23) := StableHlo.after_of_writes_sub hostOps8 _ hostOps8_writes (by decide)
    _ = W15 m ρ c (Proc.devRef .tc main_arg23) := W16_of_ne m ρ c main_arg23 (by decide)
    _ = W14 m ρ c (Proc.devRef .tc main_arg23) := StableHlo.after_of_writes_sub hostOps7 _ hostOps7_writes (by decide)
    _ = W13 m ρ c (Proc.devRef .tc main_arg23) := W14_of_ne m ρ c main_arg23 (by decide)
    _ = W12 m ρ c (Proc.devRef .tc main_arg23) := StableHlo.after_of_writes_sub hostOps6 _ hostOps6_writes (by decide)
    _ = W11 m ρ c (Proc.devRef .tc main_arg23) := W12_of_ne m ρ c main_arg23 (by decide)
    _ = W10 m ρ c (Proc.devRef .tc main_arg23) := StableHlo.after_of_writes_sub hostOps5 _ hostOps5_writes (by decide)
    _ = W9 m ρ c (Proc.devRef .tc main_arg23) := W10_of_ne m ρ c main_arg23 (by decide)
    _ = W8 m ρ c (Proc.devRef .tc main_arg23) := StableHlo.after_of_writes_sub hostOps4 _ hostOps4_writes (by decide)
    _ = W7 m ρ c (Proc.devRef .tc main_arg23) := W8_of_ne m ρ c main_arg23 (by decide)
    _ = W6 m ρ c (Proc.devRef .tc main_arg23) := StableHlo.after_of_writes_sub hostOps3 _ hostOps3_writes (by decide)
    _ = W5 m ρ c (Proc.devRef .tc main_arg23) := W6_of_ne m ρ c main_arg23 (by decide)
    _ = W4 m ρ c (Proc.devRef .tc main_arg23) := StableHlo.after_of_writes_sub hostOps2 _ hostOps2_writes (by decide)
    _ = W3 m ρ c (Proc.devRef .tc main_arg23) := W4_of_ne m ρ c main_arg23 (by decide)
    _ = W2 m ρ c (Proc.devRef .tc main_arg23) := StableHlo.after_of_writes_sub hostOps1 _ hostOps1_writes (by decide)
    _ = W1 m ρ c (Proc.devRef .tc main_arg23) := W2_of_ne m ρ c main_arg23 (by decide)
    _ = W0 m ρ c (Proc.devRef .tc main_arg23) := StableHlo.after_of_writes_sub hostOps0 _ hostOps0_writes (by decide)
    _ = m ((c : Thread nD τ).loc main_arg23) := rfl

set_option maxHeartbeats 4000000 in
theorem at11_main_arg20 (c : Dev nD) : W22 m ρ c (Proc.devRef .tc main_arg20) = m ((c : Thread nD τ).loc main_arg20) :=
  calc W22 m ρ c (Proc.devRef .tc main_arg20)
    _ = W21 m ρ c (Proc.devRef .tc main_arg20) := W22_of_ne m ρ c main_arg20 (by decide)
    _ = W20 m ρ c (Proc.devRef .tc main_arg20) := StableHlo.after_of_writes_sub hostOps10 _ hostOps10_writes (by decide)
    _ = W19 m ρ c (Proc.devRef .tc main_arg20) := W20_of_ne m ρ c main_arg20 (by decide)
    _ = W18 m ρ c (Proc.devRef .tc main_arg20) := StableHlo.after_of_writes_sub hostOps9 _ hostOps9_writes (by decide)
    _ = W17 m ρ c (Proc.devRef .tc main_arg20) := W18_of_ne m ρ c main_arg20 (by decide)
    _ = W16 m ρ c (Proc.devRef .tc main_arg20) := StableHlo.after_of_writes_sub hostOps8 _ hostOps8_writes (by decide)
    _ = W15 m ρ c (Proc.devRef .tc main_arg20) := W16_of_ne m ρ c main_arg20 (by decide)
    _ = W14 m ρ c (Proc.devRef .tc main_arg20) := StableHlo.after_of_writes_sub hostOps7 _ hostOps7_writes (by decide)
    _ = W13 m ρ c (Proc.devRef .tc main_arg20) := W14_of_ne m ρ c main_arg20 (by decide)
    _ = W12 m ρ c (Proc.devRef .tc main_arg20) := StableHlo.after_of_writes_sub hostOps6 _ hostOps6_writes (by decide)
    _ = W11 m ρ c (Proc.devRef .tc main_arg20) := W12_of_ne m ρ c main_arg20 (by decide)
    _ = W10 m ρ c (Proc.devRef .tc main_arg20) := StableHlo.after_of_writes_sub hostOps5 _ hostOps5_writes (by decide)
    _ = W9 m ρ c (Proc.devRef .tc main_arg20) := W10_of_ne m ρ c main_arg20 (by decide)
    _ = W8 m ρ c (Proc.devRef .tc main_arg20) := StableHlo.after_of_writes_sub hostOps4 _ hostOps4_writes (by decide)
    _ = W7 m ρ c (Proc.devRef .tc main_arg20) := W8_of_ne m ρ c main_arg20 (by decide)
    _ = W6 m ρ c (Proc.devRef .tc main_arg20) := StableHlo.after_of_writes_sub hostOps3 _ hostOps3_writes (by decide)
    _ = W5 m ρ c (Proc.devRef .tc main_arg20) := W6_of_ne m ρ c main_arg20 (by decide)
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl

set_option maxHeartbeats 4000000 in
theorem at11_main_arg22 (c : Dev nD) : W22 m ρ c (Proc.devRef .tc main_arg22) = m ((c : Thread nD τ).loc main_arg22) :=
  calc W22 m ρ c (Proc.devRef .tc main_arg22)
    _ = W21 m ρ c (Proc.devRef .tc main_arg22) := W22_of_ne m ρ c main_arg22 (by decide)
    _ = W20 m ρ c (Proc.devRef .tc main_arg22) := StableHlo.after_of_writes_sub hostOps10 _ hostOps10_writes (by decide)
    _ = W19 m ρ c (Proc.devRef .tc main_arg22) := W20_of_ne m ρ c main_arg22 (by decide)
    _ = W18 m ρ c (Proc.devRef .tc main_arg22) := StableHlo.after_of_writes_sub hostOps9 _ hostOps9_writes (by decide)
    _ = W17 m ρ c (Proc.devRef .tc main_arg22) := W18_of_ne m ρ c main_arg22 (by decide)
    _ = W16 m ρ c (Proc.devRef .tc main_arg22) := StableHlo.after_of_writes_sub hostOps8 _ hostOps8_writes (by decide)
    _ = W15 m ρ c (Proc.devRef .tc main_arg22) := W16_of_ne m ρ c main_arg22 (by decide)
    _ = W14 m ρ c (Proc.devRef .tc main_arg22) := StableHlo.after_of_writes_sub hostOps7 _ hostOps7_writes (by decide)
    _ = W13 m ρ c (Proc.devRef .tc main_arg22) := W14_of_ne m ρ c main_arg22 (by decide)
    _ = W12 m ρ c (Proc.devRef .tc main_arg22) := StableHlo.after_of_writes_sub hostOps6 _ hostOps6_writes (by decide)
    _ = W11 m ρ c (Proc.devRef .tc main_arg22) := W12_of_ne m ρ c main_arg22 (by decide)
    _ = W10 m ρ c (Proc.devRef .tc main_arg22) := StableHlo.after_of_writes_sub hostOps5 _ hostOps5_writes (by decide)
    _ = W9 m ρ c (Proc.devRef .tc main_arg22) := W10_of_ne m ρ c main_arg22 (by decide)
    _ = W8 m ρ c (Proc.devRef .tc main_arg22) := StableHlo.after_of_writes_sub hostOps4 _ hostOps4_writes (by decide)
    _ = W7 m ρ c (Proc.devRef .tc main_arg22) := W8_of_ne m ρ c main_arg22 (by decide)
    _ = W6 m ρ c (Proc.devRef .tc main_arg22) := StableHlo.after_of_writes_sub hostOps3 _ hostOps3_writes (by decide)
    _ = W5 m ρ c (Proc.devRef .tc main_arg22) := W6_of_ne m ρ c main_arg22 (by decide)
    _ = W4 m ρ c (Proc.devRef .tc main_arg22) := StableHlo.after_of_writes_sub hostOps2 _ hostOps2_writes (by decide)
    _ = W3 m ρ c (Proc.devRef .tc main_arg22) := W4_of_ne m ρ c main_arg22 (by decide)
    _ = W2 m ρ c (Proc.devRef .tc main_arg22) := StableHlo.after_of_writes_sub hostOps1 _ hostOps1_writes (by decide)
    _ = W1 m ρ c (Proc.devRef .tc main_arg22) := W2_of_ne m ρ c main_arg22 (by decide)
    _ = W0 m ρ c (Proc.devRef .tc main_arg22) := StableHlo.after_of_writes_sub hostOps0 _ hostOps0_writes (by decide)
    _ = m ((c : Thread nD τ).loc main_arg22) := rfl

end Cert.KernelIdeal.Carry

end
-- ==== Proof.RegionValue11.lean ====
/-
  The edge-label network (the last launch), read entry by entry.

  Every edge `p` of the 500000 carries two 150-wide feature rows, `hg p` and `pg p`. The launch computes, row by row,

    h₁(p, j) = max (∑ₖ hg(p,k)·w1t(k,j) + ∑ₖ pg(p,k)·w1b(k,j) + b1(j)) 0        (150 hidden units)
    h₂(p, j) = max (∑ₖ h₁(p,k)·w2(k,j) + b2(j)) 0                                (50 hidden units)
    out(p, q) = ∑ₖ h₂(p,k)·w3(k,q) + b3(q)                                        (3 labels)

  over the extended reals, where a change of float format is the identity and each product into a zero accumulator is the
  plain sum over the contracted axis. The grid has 100 points; point `t` sees rows `5000 t … 5000 t + 4999` of the
  two feature arrays and of the output, and all of every weight and bias. Since row `p` of the output depends on row `p`
  of the features only, what point `t` writes back is block `t` of ONE function of the whole arrays (`edgeOut`), and
  the 100 blocks tile the output's rows, so the output array ends holding that function (`region11`).
-/
import proofs.«138545_j63058709840619_2_alg».proof.Proof.FrameKIR11
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-! ## The three layers as functions of the whole arrays -/

/-- The first hidden layer at edge `p`, unit `j`: both feature rows against their weights, the bias, then the positive part. -/
def hidden1 (hg pg : Vec Ideal S500000x150 .bf16) (w1t w1b : Vec Ideal S150x150 .f32) (b1 : Vec Ideal S1x150 .f32)
    (p : Fin 500000) (j : Fin 150) : EReal :=
  max ((((∑ k : Fin 150, hg (ix2 p k) * w1t (ix2 k j)) + (∑ k : Fin 150, pg (ix2 p k) * w1b (ix2 k j)))) + b1 (ix2 0 j)) 0

/-- The second hidden layer at edge `p`, unit `j`: the first layer's row against the second weight, the bias, the positive part. -/
def hidden2 (hg pg : Vec Ideal S500000x150 .bf16) (w1t w1b : Vec Ideal S150x150 .f32) (b1 : Vec Ideal S1x150 .f32)
    (w2 : Vec Ideal S150x50 .f32) (b2 : Vec Ideal S1x50 .f32) (p : Fin 500000) (j : Fin 50) : EReal :=
  max ((∑ k : Fin 150, hidden1 hg pg w1t w1b b1 p k * w2 (ix2 k j)) + b2 (ix2 0 j)) 0

/-! ## A product into the zero accumulator, at an entry

Each of the three products contracts the left operand's columns with the right operand's rows. The contraction index
has one axis; through the bijection with its one coordinate the sum runs over `Fin K`, the left factor at `(p, k)` and
the right at `(k, q)`. -/

/-! ### The first layer's two products: a [5000,150] block against a [150,150] weight -/

theorem edge_lhs1_0 (i : S5000x150.Idx) (q : dot_S5000x150_S150x150_S5000x150_1_0_0_1_n_n.contr.Idx) :
    (dot_S5000x150_S150x150_S5000x150_1_0_0_1_n_n.lhsIdx i q 0).val = (i 0).val := by
  unfold DotDims.lhsIdx
  rw [dif_neg (show ¬(0 : Fin S5000x150.rank) ∈ dot_S5000x150_S150x150_S5000x150_1_0_0_1_n_n.lhsBatch by decide), dif_pos (show (0 : Fin S5000x150.rank) ∈ dot_S5000x150_S150x150_S5000x150_1_0_0_1_n_n.lhsNonContracting by decide)]
  rfl
theorem edge_lhs1_1 (i : S5000x150.Idx) (q : dot_S5000x150_S150x150_S5000x150_1_0_0_1_n_n.contr.Idx) :
    (dot_S5000x150_S150x150_S5000x150_1_0_0_1_n_n.lhsIdx i q 1).val = (q ⟨0, by decide⟩).val :=
  dot_S5000x150_S150x150_S5000x150_1_0_0_1_n_n.lhsIdx_val_of_single rfl i q
theorem edge_rhs1_0 (i : S5000x150.Idx) (q : dot_S5000x150_S150x150_S5000x150_1_0_0_1_n_n.contr.Idx) :
    (dot_S5000x150_S150x150_S5000x150_1_0_0_1_n_n.rhsIdx i q 0).val = (q ⟨0, by decide⟩).val :=
  dot_S5000x150_S150x150_S5000x150_1_0_0_1_n_n.rhsIdx_val_of_single rfl i q
theorem edge_rhs1_1 (i : S5000x150.Idx) (q : dot_S5000x150_S150x150_S5000x150_1_0_0_1_n_n.contr.Idx) :
    (dot_S5000x150_S150x150_S5000x150_1_0_0_1_n_n.rhsIdx i q 1).val = (i 1).val := by
  unfold DotDims.rhsIdx
  rw [dif_neg (show ¬(1 : Fin S150x150.rank) ∈ dot_S5000x150_S150x150_S5000x150_1_0_0_1_n_n.rhsBatch by decide), dif_pos (show (1 : Fin S150x150.rank) ∈ dot_S5000x150_S150x150_S5000x150_1_0_0_1_n_n.rhsNonContracting by decide)]
  rfl

/-- The product into the zero accumulator, at row `p` and column `q`: the sum over the 150 contracted positions of
    the left operand's row entry times the right operand's column entry. -/
theorem edge_mm1_apply {φ₁ φ₂ : FTy} (l : FVec Ideal S5000x150 φ₁) (r : FVec Ideal S150x150 φ₂) (p : Fin 5000) (q : Fin 150) :
    matmul dot_S5000x150_S150x150_S5000x150_1_0_0_1_n_n none l r (constant S5000x150 .f32 0x00000000#32) (ix2 p q)
      = ∑ k : Fin 150, l (ix2 p k) * r (ix2 k q) := by
  show FloatOps.matmul dot_S5000x150_S150x150_S5000x150_1_0_0_1_n_n none l r (constant S5000x150 .f32 0x00000000#32) (ix2 p q) = _
  rw [Ideal.matmul_constant_zero_apply, ← Equiv.sum_comp (contrEquiv1 dot_S5000x150_S150x150_S5000x150_1_0_0_1_n_n 150 rfl rfl).symm]
  refine Finset.sum_congr rfl fun k _ => ?_
  have hk := contrEquiv1_symm_val dot_S5000x150_S150x150_S5000x150_1_0_0_1_n_n 150 rfl rfl k
  have el : dot_S5000x150_S150x150_S5000x150_1_0_0_1_n_n.lhsIdx (ix2 p q) ((contrEquiv1 dot_S5000x150_S150x150_S5000x150_1_0_0_1_n_n 150 rfl rfl).symm k) = ix2 p k := funext fun a => Fin.ext (by
    match a with
    | ⟨0, _⟩ => exact edge_lhs1_0 _ _
    | ⟨1, _⟩ => exact (edge_lhs1_1 _ _).trans hk)
  have er : dot_S5000x150_S150x150_S5000x150_1_0_0_1_n_n.rhsIdx (ix2 p q) ((contrEquiv1 dot_S5000x150_S150x150_S5000x150_1_0_0_1_n_n 150 rfl rfl).symm k) = ix2 k q := funext fun a => Fin.ext (by
    match a with
    | ⟨0, _⟩ => exact (edge_rhs1_0 _ _).trans hk
    | ⟨1, _⟩ => exact edge_rhs1_1 _ _)
  rw [el, er]

/-! ### The second layer's product: the [5000,150] hidden block against the [150,50] weight -/

theorem edge_lhs2_0 (i : S5000x50.Idx) (q : dot_S5000x150_S150x50_S5000x50_1_0_0_1_n_n.contr.Idx) :
    (dot_S5000x150_S150x50_S5000x50_1_0_0_1_n_n.lhsIdx i q 0).val = (i 0).val := by
  unfold DotDims.lhsIdx
  rw [dif_neg (show ¬(0 : Fin S5000x150.rank) ∈ dot_S5000x150_S150x50_S5000x50_1_0_0_1_n_n.lhsBatch by decide), dif_pos (show (0 : Fin S5000x150.rank) ∈ dot_S5000x150_S150x50_S5000x50_1_0_0_1_n_n.lhsNonContracting by decide)]
  rfl
theorem edge_lhs2_1 (i : S5000x50.Idx) (q : dot_S5000x150_S150x50_S5000x50_1_0_0_1_n_n.contr.Idx) :
    (dot_S5000x150_S150x50_S5000x50_1_0_0_1_n_n.lhsIdx i q 1).val = (q ⟨0, by decide⟩).val :=
  dot_S5000x150_S150x50_S5000x50_1_0_0_1_n_n.lhsIdx_val_of_single rfl i q
theorem edge_rhs2_0 (i : S5000x50.Idx) (q : dot_S5000x150_S150x50_S5000x50_1_0_0_1_n_n.contr.Idx) :
    (dot_S5000x150_S150x50_S5000x50_1_0_0_1_n_n.rhsIdx i q 0).val = (q ⟨0, by decide⟩).val :=
  dot_S5000x150_S150x50_S5000x50_1_0_0_1_n_n.rhsIdx_val_of_single rfl i q
theorem edge_rhs2_1 (i : S5000x50.Idx) (q : dot_S5000x150_S150x50_S5000x50_1_0_0_1_n_n.contr.Idx) :
    (dot_S5000x150_S150x50_S5000x50_1_0_0_1_n_n.rhsIdx i q 1).val = (i 1).val := by
  unfold DotDims.rhsIdx
  rw [dif_neg (show ¬(1 : Fin S150x50.rank) ∈ dot_S5000x150_S150x50_S5000x50_1_0_0_1_n_n.rhsBatch by decide), dif_pos (show (1 : Fin S150x50.rank) ∈ dot_S5000x150_S150x50_S5000x50_1_0_0_1_n_n.rhsNonContracting by decide)]
  rfl

/-- The product into the zero accumulator, at row `p` and column `q`: the sum over the 150 contracted positions of
    the left operand's row entry times the right operand's column entry. -/
theorem edge_mm2_apply {φ₁ φ₂ : FTy} (l : FVec Ideal S5000x150 φ₁) (r : FVec Ideal S150x50 φ₂) (p : Fin 5000) (q : Fin 50) :
    matmul dot_S5000x150_S150x50_S5000x50_1_0_0_1_n_n none l r (constant S5000x50 .f32 0x00000000#32) (ix2 p q)
      = ∑ k : Fin 150, l (ix2 p k) * r (ix2 k q) := by
  show FloatOps.matmul dot_S5000x150_S150x50_S5000x50_1_0_0_1_n_n none l r (constant S5000x50 .f32 0x00000000#32) (ix2 p q) = _
  rw [Ideal.matmul_constant_zero_apply, ← Equiv.sum_comp (contrEquiv1 dot_S5000x150_S150x50_S5000x50_1_0_0_1_n_n 150 rfl rfl).symm]
  refine Finset.sum_congr rfl fun k _ => ?_
  have hk := contrEquiv1_symm_val dot_S5000x150_S150x50_S5000x50_1_0_0_1_n_n 150 rfl rfl k
  have el : dot_S5000x150_S150x50_S5000x50_1_0_0_1_n_n.lhsIdx (ix2 p q) ((contrEquiv1 dot_S5000x150_S150x50_S5000x50_1_0_0_1_n_n 150 rfl rfl).symm k) = ix2 p k := funext fun a => Fin.ext (by
    match a with
    | ⟨0, _⟩ => exact edge_lhs2_0 _ _
    | ⟨1, _⟩ => exact (edge_lhs2_1 _ _).trans hk)
  have er : dot_S5000x150_S150x50_S5000x50_1_0_0_1_n_n.rhsIdx (ix2 p q) ((contrEquiv1 dot_S5000x150_S150x50_S5000x50_1_0_0_1_n_n 150 rfl rfl).symm k) = ix2 k q := funext fun a => Fin.ext (by
    match a with
    | ⟨0, _⟩ => exact (edge_rhs2_0 _ _).trans hk
    | ⟨1, _⟩ => exact edge_rhs2_1 _ _)
  rw [el, er]

/-! ### The output layer's product: the [5000,50] hidden block against the [50,3] weight -/

theorem edge_lhs3_0 (i : S5000x3.Idx) (q : dot_S5000x50_S50x3_S5000x3_1_0_0_1_n_n.contr.Idx) :
    (dot_S5000x50_S50x3_S5000x3_1_0_0_1_n_n.lhsIdx i q 0).val = (i 0).val := by
  unfold DotDims.lhsIdx
  rw [dif_neg (show ¬(0 : Fin S5000x50.rank) ∈ dot_S5000x50_S50x3_S5000x3_1_0_0_1_n_n.lhsBatch by decide), dif_pos (show (0 : Fin S5000x50.rank) ∈ dot_S5000x50_S50x3_S5000x3_1_0_0_1_n_n.lhsNonContracting by decide)]
  rfl
theorem edge_lhs3_1 (i : S5000x3.Idx) (q : dot_S5000x50_S50x3_S5000x3_1_0_0_1_n_n.contr.Idx) :
    (dot_S5000x50_S50x3_S5000x3_1_0_0_1_n_n.lhsIdx i q 1).val = (q ⟨0, by decide⟩).val :=
  dot_S5000x50_S50x3_S5000x3_1_0_0_1_n_n.lhsIdx_val_of_single rfl i q
theorem edge_rhs3_0 (i : S5000x3.Idx) (q : dot_S5000x50_S50x3_S5000x3_1_0_0_1_n_n.contr.Idx) :
    (dot_S5000x50_S50x3_S5000x3_1_0_0_1_n_n.rhsIdx i q 0).val = (q ⟨0, by decide⟩).val :=
  dot_S5000x50_S50x3_S5000x3_1_0_0_1_n_n.rhsIdx_val_of_single rfl i q
theorem edge_rhs3_1 (i : S5000x3.Idx) (q : dot_S5000x50_S50x3_S5000x3_1_0_0_1_n_n.contr.Idx) :
    (dot_S5000x50_S50x3_S5000x3_1_0_0_1_n_n.rhsIdx i q 1).val = (i 1).val := by
  unfold DotDims.rhsIdx
  rw [dif_neg (show ¬(1 : Fin S50x3.rank) ∈ dot_S5000x50_S50x3_S5000x3_1_0_0_1_n_n.rhsBatch by decide), dif_pos (show (1 : Fin S50x3.rank) ∈ dot_S5000x50_S50x3_S5000x3_1_0_0_1_n_n.rhsNonContracting by decide)]
  rfl

/-- The product into the zero accumulator, at row `p` and column `q`: the sum over the 50 contracted positions of
    the left operand's row entry times the right operand's column entry. -/
theorem edge_mm3_apply {φ₁ φ₂ : FTy} (l : FVec Ideal S5000x50 φ₁) (r : FVec Ideal S50x3 φ₂) (p : Fin 5000) (q : Fin 3) :
    matmul dot_S5000x50_S50x3_S5000x3_1_0_0_1_n_n none l r (constant S5000x3 .f32 0x00000000#32) (ix2 p q)
      = ∑ k : Fin 50, l (ix2 p k) * r (ix2 k q) := by
  show FloatOps.matmul dot_S5000x50_S50x3_S5000x3_1_0_0_1_n_n none l r (constant S5000x3 .f32 0x00000000#32) (ix2 p q) = _
  rw [Ideal.matmul_constant_zero_apply, ← Equiv.sum_comp (contrEquiv1 dot_S5000x50_S50x3_S5000x3_1_0_0_1_n_n 50 rfl rfl).symm]
  refine Finset.sum_congr rfl fun k _ => ?_
  have hk := contrEquiv1_symm_val dot_S5000x50_S50x3_S5000x3_1_0_0_1_n_n 50 rfl rfl k
  have el : dot_S5000x50_S50x3_S5000x3_1_0_0_1_n_n.lhsIdx (ix2 p q) ((contrEquiv1 dot_S5000x50_S50x3_S5000x3_1_0_0_1_n_n 50 rfl rfl).symm k) = ix2 p k := funext fun a => Fin.ext (by
    match a with
    | ⟨0, _⟩ => exact edge_lhs3_0 _ _
    | ⟨1, _⟩ => exact (edge_lhs3_1 _ _).trans hk)
  have er : dot_S5000x50_S50x3_S5000x3_1_0_0_1_n_n.rhsIdx (ix2 p q) ((contrEquiv1 dot_S5000x50_S50x3_S5000x3_1_0_0_1_n_n 50 rfl rfl).symm k) = ix2 k q := funext fun a => Fin.ext (by
    match a with
    | ⟨0, _⟩ => exact (edge_rhs3_0 _ _).trans hk
    | ⟨1, _⟩ => exact edge_rhs3_1 _ _)
  rw [el, er]

/-! ## One block's arithmetic at an entry -/

/-- The product part of what one grid point computes, at block row `p` and label `q`: the three layers over the
    point's blocks (format changes and same-shape casts are the identity, the zero splat is `0`, a bias row is read at
    its column). -/
theorem edge_pay2_apply (x0 x1 : Vec Ideal S5000x150 .bf16) (x2 x3 : Vec Ideal S150x150 .f32) (x4 : Vec Ideal S1x150 .f32)
    (x5 : Vec Ideal S150x50 .f32) (x6 : Vec Ideal S1x50 .f32) (x7 : Vec Ideal S50x3 .f32) (p : Fin 5000) (q : Fin 3) :
    k11_pay2 x0 x1 x2 x3 x4 x5 x6 x7 (ix2 p q)
      = ∑ k : Fin 50, (max ((∑ j : Fin 150, (max (((∑ i : Fin 150, x0 (ix2 p i) * x2 (ix2 i j)) + (∑ i : Fin 150, x1 (ix2 p i) * x3 (ix2 i j))) + x4 (ix2 0 j)) 0) * x5 (ix2 j k)) + x6 (ix2 0 k)) 0) * x7 (ix2 k q) := by
  unfold k11_pay2
  simp only [shapeCast_self, edge_mm3_apply, edge_mm2_apply, edge_mm1_apply, truncf_apply, maximumf_apply, addf_apply,
    broadcast_apply, broadcastTo_1b_ab_apply, Ideal.ofBits_def, Ideal.ofBits_zero_f32]

theorem edge_hz : (![0, 0] : Fin 2 → Nat) = fun _ => 0 :=
  funext fun a => by match a with | ⟨0, _⟩ => rfl | ⟨1, _⟩ => rfl

/-- What one grid point leaves in the output's buffer, at block row `p` and label `q`, when its two feature blocks are
    rows of `hg`, `pg` (block row `p` is array row `P`) and its other blocks are the whole weights and biases: the
    network's output at edge `P`. -/
theorem edge_point (x0 x1 : Vec Ideal S5000x150 .bf16) (x2 x3 : Vec Ideal S150x150 .f32) (x4 : Vec Ideal S1x150 .f32)
    (x5 : Vec Ideal S150x50 .f32) (x6 : Vec Ideal S1x50 .f32) (x7 : Vec Ideal S50x3 .f32) (x8 : Vec Ideal S1x3 .f32)
    (hg pg : Vec Ideal S500000x150 .bf16) (w1t w1b : Vec Ideal S150x150 .f32) (b1 : Vec Ideal S1x150 .f32)
    (w2 : Vec Ideal S150x50 .f32) (b2 : Vec Ideal S1x50 .f32) (w3 : Vec Ideal S50x3 .f32) (b3 : Vec Ideal S1x3 .f32)
    (p : Fin 5000) (P : Fin 500000) (q : Fin 3)
    (h0 : ∀ k : Fin 150, x0 (ix2 p k) = hg (ix2 P k)) (h1 : ∀ k : Fin 150, x1 (ix2 p k) = pg (ix2 P k))
    (h2 : x2 = w1t) (h3 : x3 = w1b) (h4 : x4 = b1) (h5 : x5 = w2) (h6 : x6 = b2) (h7 : x7 = w3) (h8 : x8 = b3) :
    out11_9 x0 x1 x2 x3 x4 x5 x6 x7 x8 (ix2 p q)
      = (∑ k : Fin 50, hidden2 hg pg w1t w1b b1 w2 b2 P k * w3 (ix2 k q)) + b3 (ix2 0 q) := by
  subst h2 h3 h4 h5 h6 h7 h8
  unfold out11_9
  rw [View.canon_unit_zero edge_hz]
  simp only [View.ld_unit_zero (S := S5000x150) edge_hz, View.ld_unit_zero (S := S150x150) edge_hz,
    View.ld_unit_zero (S := S1x150) edge_hz, View.ld_unit_zero (S := S150x50) edge_hz, View.ld_unit_zero (S := S1x50) edge_hz,
    View.ld_unit_zero (S := S50x3) edge_hz, View.ld_unit_zero (S := S1x3) edge_hz]
  unfold k11_pay1 k11_pay3
  simp only [shapeCast_self, addf_apply, broadcastTo_1b_ab_apply, edge_pay2_apply]
  unfold hidden2 hidden1
  simp only [h0, h1]

/-! ## The blocks as parts of the arrays -/

/-- The block index maps over the 100 grid points: the two feature windows and the output window move down the rows with
    the point, on the one column block. -/
theorem edge_idx_rows : ∀ t : Fin cfg11.N,
    win11_0.index t (0 : Fin 2) = t.val ∧ win11_0.index t (1 : Fin 2) = 0
    ∧ win11_1.index t (0 : Fin 2) = t.val ∧ win11_1.index t (1 : Fin 2) = 0
    ∧ win11_9.index t (0 : Fin 2) = t.val ∧ win11_9.index t (1 : Fin 2) = 0 :=
  (by decide +kernel : ∀ t : Fin grid11.N, _)

/-- The weight and bias windows stay on block (0, 0) at every point. -/
theorem edge_idx_whole : ∀ t : Fin cfg11.N,
    win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = 0 ∧ win11_7.index t (1 : Fin 2) = 0
    ∧ win11_8.index t (0 : Fin 2) = 0 ∧ win11_8.index t (1 : Fin 2) = 0 :=
  (by decide +kernel : ∀ t : Fin grid11.N, _)

variable (V : (c : Dev nD) → (b : Ref sig .tc) → Buf (Elt Ideal) ((c : Thread nD τ).loc b))

/-- The first feature window: block `t` is rows `5000 t … 5000 t + 4999` of the array, all 150 columns. -/
theorem edge_blk0 (c : Dev nD) (t : Fin cfg11.N) (p : Fin 5000) (k : Fin 150) (P : Fin 500000)
    (hP : P.val = t.val * 5000 + p.val) :
    (iblk11 V c 0 t : Vec Ideal S5000x150 .bf16) (ix2 p k) = (V c main_v422 : Vec Ideal S500000x150 .bf16) (ix2 P k) := by
  show (V c main_v422 : Vec Ideal S500000x150 .bf16) (((cfg11.win 0).blk t).view.emb (ix2 p k)) = _
  refine congrArg _ (funext fun a => Fin.ext ?_)
  have e := edge_idx_rows t
  match a with
  | ⟨0, _⟩ => show win11_0.index t (0 : Fin 2) * 5000 + 1 * p.val = P.val; omega
  | ⟨1, _⟩ => show win11_0.index t (1 : Fin 2) * 150 + 1 * k.val = k.val; omega

/-- The second feature window: block `t` is rows `5000 t … 5000 t + 4999` of the array, all 150 columns. -/
theorem edge_blk1 (c : Dev nD) (t : Fin cfg11.N) (p : Fin 5000) (k : Fin 150) (P : Fin 500000)
    (hP : P.val = t.val * 5000 + p.val) :
    (iblk11 V c 1 t : Vec Ideal S5000x150 .bf16) (ix2 p k) = (V c main_v431 : Vec Ideal S500000x150 .bf16) (ix2 P k) := by
  show (V c main_v431 : Vec Ideal S500000x150 .bf16) (((cfg11.win 1).blk t).view.emb (ix2 p k)) = _
  refine congrArg _ (funext fun a => Fin.ext ?_)
  have e := edge_idx_rows t
  match a with
  | ⟨0, _⟩ => show win11_1.index t (0 : Fin 2) * 5000 + 1 * p.val = P.val; omega
  | ⟨1, _⟩ => show win11_1.index t (1 : Fin 2) * 150 + 1 * k.val = k.val; omega

/-- The first layer's weight for the first feature row: its one block is the whole array, at every grid point. -/
theorem edge_blk2 (c : Dev nD) (t : Fin cfg11.N) :
    (iblk11 V c 2 t : Vec Ideal S150x150 .f32) = (V c main_v432 : Vec Ideal S150x150 .f32) := by
  funext y
  show (V c main_v432 : Vec Ideal S150x150 .f32) (((cfg11.win 2).blk t).view.emb y) = _
  refine congrArg _ (funext fun a => Fin.ext ?_)
  have e := edge_idx_whole t
  match a with
  | ⟨0, _⟩ => show win11_2.index t (0 : Fin 2) * 150 + 1 * (y 0).val = (y 0).val; omega
  | ⟨1, _⟩ => show win11_2.index t (1 : Fin 2) * 150 + 1 * (y 1).val = (y 1).val; omega

/-- The first layer's weight for the second feature row: its one block is the whole array, at every grid point. -/
theorem edge_blk3 (c : Dev nD) (t : Fin cfg11.N) :
    (iblk11 V c 3 t : Vec Ideal S150x150 .f32) = (V c main_v433 : Vec Ideal S150x150 .f32) := by
  funext y
  show (V c main_v433 : Vec Ideal S150x150 .f32) (((cfg11.win 3).blk t).view.emb y) = _
  refine congrArg _ (funext fun a => Fin.ext ?_)
  have e := edge_idx_whole t
  match a with
  | ⟨0, _⟩ => show win11_3.index t (0 : Fin 2) * 150 + 1 * (y 0).val = (y 0).val; omega
  | ⟨1, _⟩ => show win11_3.index t (1 : Fin 2) * 150 + 1 * (y 1).val = (y 1).val; omega

/-- The first layer's bias row: its one block is the whole array, at every grid point. -/
theorem edge_blk4 (c : Dev nD) (t : Fin cfg11.N) :
    (iblk11 V c 4 t : Vec Ideal S1x150 .f32) = (V c main_v434 : Vec Ideal S1x150 .f32) := by
  funext y
  show (V c main_v434 : Vec Ideal S1x150 .f32) (((cfg11.win 4).blk t).view.emb y) = _
  refine congrArg _ (funext fun a => Fin.ext ?_)
  have e := edge_idx_whole t
  match a with
  | ⟨0, _⟩ => show win11_4.index t (0 : Fin 2) * 1 + 1 * (y 0).val = (y 0).val; omega
  | ⟨1, _⟩ => show win11_4.index t (1 : Fin 2) * 150 + 1 * (y 1).val = (y 1).val; omega

/-- The second layer's weight: its one block is the whole array, at every grid point. -/
theorem edge_blk5 (c : Dev nD) (t : Fin cfg11.N) :
    (iblk11 V c 5 t : Vec Ideal S150x50 .f32) = (V c main_arg20 : Vec Ideal S150x50 .f32) := by
  funext y
  show (V c main_arg20 : Vec Ideal S150x50 .f32) (((cfg11.win 5).blk t).view.emb y) = _
  refine congrArg _ (funext fun a => Fin.ext ?_)
  have e := edge_idx_whole t
  match a with
  | ⟨0, _⟩ => show win11_5.index t (0 : Fin 2) * 150 + 1 * (y 0).val = (y 0).val; omega
  | ⟨1, _⟩ => show win11_5.index t (1 : Fin 2) * 50 + 1 * (y 1).val = (y 1).val; omega

/-- The second layer's bias row: its one block is the whole array, at every grid point. -/
theorem edge_blk6 (c : Dev nD) (t : Fin cfg11.N) :
    (iblk11 V c 6 t : Vec Ideal S1x50 .f32) = (V c main_v435 : Vec Ideal S1x50 .f32) := by
  funext y
  show (V c main_v435 : Vec Ideal S1x50 .f32) (((cfg11.win 6).blk t).view.emb y) = _
  refine congrArg _ (funext fun a => Fin.ext ?_)
  have e := edge_idx_whole t
  match a with
  | ⟨0, _⟩ => show win11_6.index t (0 : Fin 2) * 1 + 1 * (y 0).val = (y 0).val; omega
  | ⟨1, _⟩ => show win11_6.index t (1 : Fin 2) * 50 + 1 * (y 1).val = (y 1).val; omega

/-- The output layer's weight: its one block is the whole array, at every grid point. -/
theorem edge_blk7 (c : Dev nD) (t : Fin cfg11.N) :
    (iblk11 V c 7 t : Vec Ideal S50x3 .f32) = (V c main_arg22 : Vec Ideal S50x3 .f32) := by
  funext y
  show (V c main_arg22 : Vec Ideal S50x3 .f32) (((cfg11.win 7).blk t).view.emb y) = _
  refine congrArg _ (funext fun a => Fin.ext ?_)
  have e := edge_idx_whole t
  match a with
  | ⟨0, _⟩ => show win11_7.index t (0 : Fin 2) * 50 + 1 * (y 0).val = (y 0).val; omega
  | ⟨1, _⟩ => show win11_7.index t (1 : Fin 2) * 3 + 1 * (y 1).val = (y 1).val; omega

/-- The output layer's bias row: its one block is the whole array, at every grid point. -/
theorem edge_blk8 (c : Dev nD) (t : Fin cfg11.N) :
    (iblk11 V c 8 t : Vec Ideal S1x3 .f32) = (V c main_v436 : Vec Ideal S1x3 .f32) := by
  funext y
  show (V c main_v436 : Vec Ideal S1x3 .f32) (((cfg11.win 8).blk t).view.emb y) = _
  refine congrArg _ (funext fun a => Fin.ext ?_)
  have e := edge_idx_whole t
  match a with
  | ⟨0, _⟩ => show win11_8.index t (0 : Fin 2) * 1 + 1 * (y 0).val = (y 0).val; omega
  | ⟨1, _⟩ => show win11_8.index t (1 : Fin 2) * 3 + 1 * (y 1).val = (y 1).val; omega

/-! ## From the blocks to the array -/

/-- The network's output as ONE function of the arrays the launch finds: entry `(p, q)` from row `p` of the features. -/
def edgeOut (c : Dev nD) : Vec Ideal S500000x3 .f32 := fun i =>
  (∑ k : Fin 50, hidden2 (V c main_v422 : Vec Ideal S500000x150 .bf16) (V c main_v431 : Vec Ideal S500000x150 .bf16)
      (V c main_v432 : Vec Ideal S150x150 .f32) (V c main_v433 : Vec Ideal S150x150 .f32) (V c main_v434 : Vec Ideal S1x150 .f32)
      (V c main_arg20 : Vec Ideal S150x50 .f32) (V c main_v435 : Vec Ideal S1x50 .f32) (i 0) k
      * (V c main_arg22 : Vec Ideal S50x3 .f32) (ix2 k (i 1)))
    + (V c main_v436 : Vec Ideal S1x3 .f32) (ix2 0 (i 1))

/-- What grid point `t` writes back is block `t` of `edgeOut`: block row `p` is array row `5000 t + p`, on the
    features and on the output alike. -/
theorem edge_flushed (c : Dev nD) (t : Fin cfg11.N) :
    (dat11 (F := Ideal) V c).flushed 9 t = ((cfg11.win 9).blk t).view.read (Elt Ideal) (edgeOut V c) := by
  show (cfg11.win 9).cut (grid11.coords t) ((dat11 (F := Ideal) V c).after 9 t) = _
  rw [after11_9]
  funext j
  obtain ⟨p, q, rfl⟩ : ∃ (p : Fin 5000) (q : Fin 3), j = ix2 p q := ⟨j 0, j 1, eq_ix2 (n0 := 5000) (n1 := 3) j⟩
  have ht : t.val < 100 := t.isLt.trans_eq N_11
  have hp : p.val < 5000 := p.isLt
  have e := edge_idx_rows t
  have hemb : ((cfg11.win 9).blk t).view.emb (ix2 p q) = ix2 (⟨t.val * 5000 + p.val, by omega⟩ : Fin 500000) q :=
    funext fun a => Fin.ext (by
      match a with
      | ⟨0, _⟩ => show win11_9.index t (0 : Fin 2) * 5000 + 1 * p.val = t.val * 5000 + p.val; omega
      | ⟨1, _⟩ => show win11_9.index t (1 : Fin 2) * 3 + 1 * q.val = q.val; omega)
  show out11_9 (iblk11 V c 0 t) (iblk11 V c 1 t) (iblk11 V c 2 t) (iblk11 V c 3 t) (iblk11 V c 4 t) (iblk11 V c 5 t)
      (iblk11 V c 6 t) (iblk11 V c 7 t) (iblk11 V c 8 t) (ix2 p q)
    = edgeOut V c (((cfg11.win 9).blk t).view.emb (ix2 p q))
  rw [hemb]
  exact edge_point (iblk11 V c 0 t) (iblk11 V c 1 t) (iblk11 V c 2 t) (iblk11 V c 3 t) (iblk11 V c 4 t) (iblk11 V c 5 t)
    (iblk11 V c 6 t) (iblk11 V c 7 t) (iblk11 V c 8 t)
    (V c main_v422) (V c main_v431) (V c main_v432) (V c main_v433) (V c main_v434) (V c main_arg20) (V c main_v435)
    (V c main_arg22) (V c main_v436) p ⟨t.val * 5000 + p.val, by omega⟩ q
    (fun k => edge_blk0 V c t p k _ rfl) (fun k => edge_blk1 V c t p k _ rfl)
    (edge_blk2 V c t) (edge_blk3 V c t) (edge_blk4 V c t) (edge_blk5 V c t) (edge_blk6 V c t) (edge_blk7 V c t) (edge_blk8 V c t)

/-- An entry of the output array is in point `t`'s block iff each coordinate is in the block's range on its axis. -/
theorem edge_mem_blk (t : Fin cfg11.N) (i : S500000x3.Idx) :
    i ∈ ((cfg11.win 9).blk t).view.set ↔ ∀ a : Fin 2, win11_9.index t a * S5000x3.size a ≤ (i a).val ∧ (i a).val < win11_9.index t a * S5000x3.size a + S5000x3.size a := by
  show i ∈ ((View.whole main_v437).slice (win11_9.rect t)).set ↔ _
  rw [View.set_slice_whole, Rect.mem_set_unit]
  exact Iff.rfl

/-- The 100 blocks tile the output's rows: row `r` is in the block of point `r / 5000`, and every point writes back. -/
theorem edge_cover (i : S500000x3.Idx) :
    ∃ t : Fin cfg11.N, (cfg11.win 9).flush t = true ∧ i ∈ ((cfg11.win 9).blk t).view.set := by
  have hi0 : (i 0).val < 500000 := (i 0).isLt
  have hi1 : (i 1).val < 3 := (i 1).isLt
  have hN : cfg11.N = 100 := N_11
  refine ⟨⟨(i 0).val / 5000, by rw [hN]; omega⟩, flush11_9 _, ?_⟩
  rw [edge_mem_blk]
  have e := edge_idx_rows ⟨(i 0).val / 5000, by rw [hN]; omega⟩
  intro a
  match a with
  | ⟨0, _⟩ =>
    show win11_9.index ⟨(i 0).val / 5000, _⟩ (0 : Fin 2) * 5000 ≤ (i 0).val
      ∧ (i 0).val < win11_9.index ⟨(i 0).val / 5000, _⟩ (0 : Fin 2) * 5000 + 5000
    rw [e.2.2.2.2.1]
    show (i 0).val / 5000 * 5000 ≤ (i 0).val ∧ (i 0).val < (i 0).val / 5000 * 5000 + 5000
    omega
  | ⟨1, _⟩ =>
    show win11_9.index ⟨(i 0).val / 5000, _⟩ (1 : Fin 2) * 3 ≤ (i 1).val
      ∧ (i 1).val < win11_9.index ⟨(i 0).val / 5000, _⟩ (1 : Fin 2) * 3 + 3
    rw [e.2.2.2.2.2]
    omega

/-- The output array after the launch is `edgeOut` of the arrays the launch found. -/
theorem edge_final (c : Dev nD) : (dat11 (F := Ideal) V c).arrAt 9 cfg11.N = edgeOut V c :=
  (dat11 (F := Ideal) V c).arrAt_eq_of_cover 9 (edgeOut V c) (fun t _ => edge_flushed V c t) edge_cover

/-- THE LAUNCH'S VALUE: entry `(p, q)` of the label array is the three-layer network of edge `p`'s two feature rows. -/
theorem region11 (c : Dev nD) (p : Fin 500000) (q : Fin 3) :
    (dat11 (F := Ideal) V c).arrAt 9 cfg11.N (ix2 p q)
      = (∑ k : Fin 50, hidden2 (V c main_v422 : Vec Ideal S500000x150 .bf16) (V c main_v431 : Vec Ideal S500000x150 .bf16)
            (V c main_v432 : Vec Ideal S150x150 .f32) (V c main_v433 : Vec Ideal S150x150 .f32) (V c main_v434 : Vec Ideal S1x150 .f32)
            (V c main_arg20 : Vec Ideal S150x50 .f32) (V c main_v435 : Vec Ideal S1x50 .f32) p k
          * (V c main_arg22 : Vec Ideal S50x3 .f32) (ix2 k q))
        + (V c main_v436 : Vec Ideal S1x3 .f32) (ix2 0 q) :=
  (congrFun (edge_final V c) (ix2 p q)).trans rfl

end Cert.KernelIdeal.RegionValue

end
-- ==== Proof.Step11.lean ====
/-
  The last launch (the edge-label network): at the exit of the launch the kernel's label array is, entry by entry,
  the reference's three dense layers over the concatenated gathered features.

  Every edge `p` has two gathered feature rows: row `src p` of the node classifier's hidden array `h` and row
  `dst p` of the third node-feature array `xp3`, the two index rows being the two rows of the edge list with a
  negative index wrapped round once. Both programs build the two gathered arrays by the same chain of host operations
  from the same two arrays (the earlier launches' facts say the arrays agree), so the gathered arrays are compared as
  whole terms and never opened.

  The reference joins the two gathered arrays along the columns into a [500000 × 300] array and multiplies by the whole
  [300 × 150] first weight; the kernel multiplies each gathered array by its own half of the weight's rows (rows
  0 … 149 and rows 150 … 299) and adds the two products. At one entry

      ∑_{k < 300} cat(p, k) · W(k, j)  =  ∑_{k < 150} hg(p, k) · W(k, j)  +  ∑_{k < 150} pg(p, k) · W(150 + k, j),

  the split of a finite sum at position 150, with `cat(p, k) = hg(p, k)` below 150 and `pg(p, k - 150)` from 150 on.
  After that both sides add the bias, take the positive part, and apply the same two further layers; the biases the
  kernel keeps as [1 × n] rows are the bias vectors with a leading unit axis added. Only the associativity of the
  split is used: no entry needs to be finite.
-/
import proofs.«138545_j63058709840619_2_alg».proof.Proof.FrameKIW
import proofs.«138545_j63058709840619_2_alg».proof.Proof.Carry11
import proofs.«138545_j63058709840619_2_alg».proof.Proof.RegionValue11
import proofs.«138545_j63058709840619_2_alg».proof.Proof.RefRead
import proofs.«138545_j63058709840619_2_alg».proof.Proof.Algebra
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.Bridge

open Cert.KernelIdeal Cert.KernelIdeal.Gen
open Idealize.ShloMosaic Idealize.ShloMosaic.TcCoe Idealize.ShloMosaic.ValueIdx Idealize.ShloMosaic.StableHlo
open Idealize.SL Idealize.SL.Sem

/-! ## The 300 contraction positions as two runs of 150 -/

/-- Position `a` of the first 150 among the 300. -/
abbrev lo11 (a : Fin 150) : Fin 300 := ⟨a.val, by have := a.isLt; omega⟩
/-- Position `a` of the last 150 among the 300. -/
abbrev hi11 (a : Fin 150) : Fin 300 := ⟨150 + a.val, by have := a.isLt; omega⟩

/-- A sum over the 300 positions is the sum over the first 150 plus the sum over the last 150. -/
theorem sum_split11 (f : Fin 300 → EReal) :
    ∑ k, f k = (∑ a : Fin 150, f (lo11 a)) + ∑ a : Fin 150, f (hi11 a) :=
  Cert.Algebra.sum_split 150 150 f

/-! ## The joined array and the weight's two halves, read at an entry -/

/-- The two gathered arrays joined along the columns, read in the first 150 columns: the first array. -/
theorem cat11_lo (G1 G2 : Cert.ReferenceIdeal.S500000x150.Idx → EReal) (p : Fin 500000) (a : Fin 150) :
    concatenate Cert.ReferenceIdeal.S500000x300 1 [⟨Cert.ReferenceIdeal.S500000x150, G1⟩, ⟨Cert.ReferenceIdeal.S500000x150, G2⟩]
        Cert.ReferenceIdeal.Gen.concatenates_S500000x150_S500000x150_S500000x300_d1 (ix2 p (lo11 a)) = G1 (ix2 p a) :=
  concatenate_pair_apply_left 1 G1 G2 _ (ix2 p (lo11 a)) rfl (ix2 p a) (fun b => by
    match b with
    | ⟨0, _⟩ => rfl
    | ⟨1, _⟩ => rfl)

/-- The two gathered arrays joined along the columns, read in the last 150 columns: the second array, 150 columns
    to the left. -/
theorem cat11_hi (G1 G2 : Cert.ReferenceIdeal.S500000x150.Idx → EReal) (p : Fin 500000) (a : Fin 150) :
    concatenate Cert.ReferenceIdeal.S500000x300 1 [⟨Cert.ReferenceIdeal.S500000x150, G1⟩, ⟨Cert.ReferenceIdeal.S500000x150, G2⟩]
        Cert.ReferenceIdeal.Gen.concatenates_S500000x150_S500000x150_S500000x300_d1 (ix2 p (hi11 a)) = G2 (ix2 p a) :=
  concatenate_pair_apply_right 1 G1 G2 _ (ix2 p (hi11 a)) rfl rfl (ix2 p a)
    (fun b => by
      match b with
      | ⟨0, _⟩ => exact fun _ => rfl
      | ⟨1, _⟩ => exact fun hb => absurd rfl hb)
    (by show a.val + 150 = 150 + a.val; omega)

/-- Rows 0 … 149 of the first weight, at row `a`: the weight's row `a`. -/
theorem w11_top (W : Cert.KernelIdeal.S300x150.Idx → EReal) (a j : Fin 150) :
    extractStridedSlice Cert.KernelIdeal.S150x150 ![0, 0] W Cert.KernelIdeal.Gen.slices_S300x150_S150x150_0_0 (ix2 a j) = W (ix2 (lo11 a) j) :=
  extractStridedSlice_apply ![0, 0] W _ (ix2 a j) (ix2 (lo11 a) j) (fun b => by
    match b with
    | ⟨0, _⟩ => show a.val = 0 + a.val; omega
    | ⟨1, _⟩ => show j.val = 0 + j.val; omega)

/-- Rows 150 … 299 of the first weight, at row `a`: the weight's row `150 + a`. -/
theorem w11_bot (W : Cert.KernelIdeal.S300x150.Idx → EReal) (a j : Fin 150) :
    extractStridedSlice Cert.KernelIdeal.S150x150 ![150, 0] W Cert.KernelIdeal.Gen.slices_S300x150_S150x150_150_0 (ix2 a j) = W (ix2 (hi11 a) j) :=
  extractStridedSlice_apply ![150, 0] W _ (ix2 a j) (ix2 (hi11 a) j) (fun b => by
    match b with
    | ⟨0, _⟩ => show 150 + a.val = 150 + a.val; rfl
    | ⟨1, _⟩ => show j.val = 0 + j.val; omega)

/-! ## The reference's three layers, one entry at a time

Each layer is stated against the function the kernel's launch is read as (`hidden1`, `hidden2` of the two gathered
arrays, the weight's two halves and the bias rows), so that the two sides of the launch's fact meet at one term. -/

/-- The reference's first hidden layer at edge `p`, unit `j`. -/
theorem ref11_hidden1
    (x0 : (⟨Cert.ReferenceIdeal.S50000x768, .f32⟩ : BufTy).Contents (Elt Ideal))
    (x1 : (⟨Cert.ReferenceIdeal.S2000x768, .f32⟩ : BufTy).Contents (Elt Ideal))
    (x2 : (⟨Cert.ReferenceIdeal.S20000x1024, .f32⟩ : BufTy).Contents (Elt Ideal))
    (x3 : (⟨Cert.ReferenceIdeal.S768x150, .f32⟩ : BufTy).Contents (Elt Ideal))
    (x4 : (⟨Cert.ReferenceIdeal.S150, .f32⟩ : BufTy).Contents (Elt Ideal))
    (x5 : (⟨Cert.ReferenceIdeal.S768x150, .f32⟩ : BufTy).Contents (Elt Ideal))
    (x6 : (⟨Cert.ReferenceIdeal.S150, .f32⟩ : BufTy).Contents (Elt Ideal))
    (x7 : (⟨Cert.ReferenceIdeal.S1024x150, .f32⟩ : BufTy).Contents (Elt Ideal))
    (x8 : (⟨Cert.ReferenceIdeal.S150, .f32⟩ : BufTy).Contents (Elt Ideal))
    (x9 : (⟨Cert.ReferenceIdeal.S3x6x150x150, .f32⟩ : BufTy).Contents (Elt Ideal))
    (x10 : (⟨Cert.ReferenceIdeal.S3x6x150, .f32⟩ : BufTy).Contents (Elt Ideal))
    (x11 : (⟨Cert.ReferenceIdeal.S3x6x150x150, .f32⟩ : BufTy).Contents (Elt Ideal))
    (x12 : (⟨Cert.ReferenceIdeal.S768x300, .f32⟩ : BufTy).Contents (Elt Ideal))
    (x13 : (⟨Cert.ReferenceIdeal.S300, .f32⟩ : BufTy).Contents (Elt Ideal))
    (x14 : (⟨Cert.ReferenceIdeal.S300x200, .f32⟩ : BufTy).Contents (Elt Ideal))
    (x15 : (⟨Cert.ReferenceIdeal.S200, .f32⟩ : BufTy).Contents (Elt Ideal))
    (x16 : (⟨Cert.ReferenceIdeal.S200x150, .f32⟩ : BufTy).Contents (Elt Ideal))
    (x17 : (⟨Cert.ReferenceIdeal.S150, .f32⟩ : BufTy).Contents (Elt Ideal))
    (x18 : (⟨Cert.ReferenceIdeal.S300x150, .f32⟩ : BufTy).Contents (Elt Ideal))
    (x19 : (⟨Cert.ReferenceIdeal.S150, .f32⟩ : BufTy).Contents (Elt Ideal))
    (x20 : (⟨Cert.ReferenceIdeal.S150x50, .f32⟩ : BufTy).Contents (Elt Ideal))
    (x21 : (⟨Cert.ReferenceIdeal.S50, .f32⟩ : BufTy).Contents (Elt Ideal))
    (x22 : (⟨Cert.ReferenceIdeal.S50x3, .f32⟩ : BufTy).Contents (Elt Ideal))
    (x23 : (⟨Cert.ReferenceIdeal.S3, .f32⟩ : BufTy).Contents (Elt Ideal))
    (x24 : (⟨Cert.ReferenceIdeal.S2x500000, .i32⟩ : BufTy).Contents (Elt Ideal))
    (x25 : (⟨Cert.ReferenceIdeal.S2x200000, .i32⟩ : BufTy).Contents (Elt Ideal))
    (x26 : (⟨Cert.ReferenceIdeal.S2x200000, .i32⟩ : BufTy).Contents (Elt Ideal))
    (x27 : (⟨Cert.ReferenceIdeal.S2x500000, .i32⟩ : BufTy).Contents (Elt Ideal))
    (p : Fin 500000) (j : Fin 150) :
    Cert.ReferenceIdeal.Read.val_main_v694 (F := Ideal) x0 x1 x2 x3 x4 x5 x6 x7 x8 x9 x10 x11 x12 x13 x14 x15 x16 x17 x18 x19 x24 x25 x26 x27 (ix2 p j)
      = Cert.KernelIdeal.RegionValue.hidden1
          (Cert.ReferenceIdeal.Read.val_main_v679 (F := Ideal) x0 x12 x13 x14 x15 x16 x17 x27)
          (Cert.ReferenceIdeal.Read.val_main_v688 (F := Ideal) x0 x1 x2 x3 x4 x5 x6 x7 x8 x9 x10 x11 x24 x25 x26 x27)
          (extractStridedSlice Cert.KernelIdeal.S150x150 ![0, 0] x18 Cert.KernelIdeal.Gen.slices_S300x150_S150x150_0_0)
          (extractStridedSlice Cert.KernelIdeal.S150x150 ![150, 0] x18 Cert.KernelIdeal.Gen.slices_S300x150_S150x150_150_0)
          (shapeCast Cert.KernelIdeal.S1x150 x19 Cert.KernelIdeal.Gen.shapeCasts_S150_S1x150) p j := by
  unfold Cert.KernelIdeal.RegionValue.hidden1
  rw [Cert.ReferenceIdeal.Read.val_main_v694_apply, Cert.ReferenceIdeal.Read.val_main_v693_apply, Cert.ReferenceIdeal.Read.val_main_v690_apply,
    Cert.ReferenceIdeal.Read.val_main_v692_apply, Cert.ReferenceIdeal.Read.val_main_v691_apply, Cert.ReferenceIdeal.Read.val_main_call8_v0_apply,
    Cert.ReferenceIdeal.Read.val_main_call8_cst_apply, Ideal.maximumf_def, Ideal.addf_def, Ideal.ofBits_def, Ideal.ofBits_zero_f32]
  refine congrArg (fun t : EReal => max t 0) (congrArg₂ (· + ·) ?_ ?_)
  · -- the 300 products, split at position 150
    refine (sum_split11 _).trans (congrArg₂ (· + ·)
      (Finset.sum_congr rfl fun a _ => congrArg₂ (· * ·) ?_ ?_) (Finset.sum_congr rfl fun a _ => congrArg₂ (· * ·) ?_ ?_))
    · -- the joined array in its first 150 columns
      have hi : Cert.ReferenceIdeal.Read.lidx_main_v690 (ix2 p j) (lo11 a) = ix2 p (lo11 a) :=
        funext fun a => Fin.ext (by match a with | ⟨0, _⟩ => rfl | ⟨1, _⟩ => rfl)
      refine (congrArg (Cert.ReferenceIdeal.Read.val_main_v689 (F := Ideal) x0 x1 x2 x3 x4 x5 x6 x7 x8 x9 x10 x11 x12 x13 x14 x15 x16 x17 x24 x25 x26 x27) hi).trans ?_
      exact cat11_lo (Cert.ReferenceIdeal.Read.val_main_v679 (F := Ideal) x0 x12 x13 x14 x15 x16 x17 x27) (Cert.ReferenceIdeal.Read.val_main_v688 (F := Ideal) x0 x1 x2 x3 x4 x5 x6 x7 x8 x9 x10 x11 x24 x25 x26 x27) p a
    · -- the weight's row `a`
      have hr : Cert.ReferenceIdeal.Read.ridx_main_v690 (ix2 p j) (lo11 a) = ix2 (lo11 a) j :=
        funext fun a => Fin.ext (by match a with | ⟨0, _⟩ => rfl | ⟨1, _⟩ => rfl)
      exact (congrArg x18 hr).trans (w11_top x18 a j).symm
    · -- the joined array in its last 150 columns
      have hi : Cert.ReferenceIdeal.Read.lidx_main_v690 (ix2 p j) (hi11 a) = ix2 p (hi11 a) :=
        funext fun a => Fin.ext (by match a with | ⟨0, _⟩ => rfl | ⟨1, _⟩ => rfl)
      refine (congrArg (Cert.ReferenceIdeal.Read.val_main_v689 (F := Ideal) x0 x1 x2 x3 x4 x5 x6 x7 x8 x9 x10 x11 x12 x13 x14 x15 x16 x17 x24 x25 x26 x27) hi).trans ?_
      exact cat11_hi (Cert.ReferenceIdeal.Read.val_main_v679 (F := Ideal) x0 x12 x13 x14 x15 x16 x17 x27) (Cert.ReferenceIdeal.Read.val_main_v688 (F := Ideal) x0 x1 x2 x3 x4 x5 x6 x7 x8 x9 x10 x11 x24 x25 x26 x27) p a
    · -- the weight's row `150 + a`
      have hr : Cert.ReferenceIdeal.Read.ridx_main_v690 (ix2 p j) (hi11 a) = ix2 (hi11 a) j :=
        funext fun a => Fin.ext (by match a with | ⟨0, _⟩ => rfl | ⟨1, _⟩ => rfl)
      exact (congrArg x18 hr).trans (w11_bot x18 a j).symm
  · -- the bias broadcast along the rows reads the bias vector at `j`, as the bias row does
    have hb : Cert.ReferenceIdeal.Read.idx_main_v691 (Cert.ReferenceIdeal.Read.idx_main_v692 (ix2 p j)) = ix1 j :=
      funext fun a => Fin.ext (by match a with | ⟨0, _⟩ => rfl)
    exact (congrArg x19 hb).trans (shapeCast_a_1a_apply x19 _ 0 j).symm

/-- The reference's second hidden layer at edge `p`, unit `k`. -/
theorem ref11_hidden2
    (x0 : (⟨Cert.ReferenceIdeal.S50000x768, .f32⟩ : BufTy).Contents (Elt Ideal))
    (x1 : (⟨Cert.ReferenceIdeal.S2000x768, .f32⟩ : BufTy).Contents (Elt Ideal))
    (x2 : (⟨Cert.ReferenceIdeal.S20000x1024, .f32⟩ : BufTy).Contents (Elt Ideal))
    (x3 : (⟨Cert.ReferenceIdeal.S768x150, .f32⟩ : BufTy).Contents (Elt Ideal))
    (x4 : (⟨Cert.ReferenceIdeal.S150, .f32⟩ : BufTy).Contents (Elt Ideal))
    (x5 : (⟨Cert.ReferenceIdeal.S768x150, .f32⟩ : BufTy).Contents (Elt Ideal))
    (x6 : (⟨Cert.ReferenceIdeal.S150, .f32⟩ : BufTy).Contents (Elt Ideal))
    (x7 : (⟨Cert.ReferenceIdeal.S1024x150, .f32⟩ : BufTy).Contents (Elt Ideal))
    (x8 : (⟨Cert.ReferenceIdeal.S150, .f32⟩ : BufTy).Contents (Elt Ideal))
    (x9 : (⟨Cert.ReferenceIdeal.S3x6x150x150, .f32⟩ : BufTy).Contents (Elt Ideal))
    (x10 : (⟨Cert.ReferenceIdeal.S3x6x150, .f32⟩ : BufTy).Contents (Elt Ideal))
    (x11 : (⟨Cert.ReferenceIdeal.S3x6x150x150, .f32⟩ : BufTy).Contents (Elt Ideal))
    (x12 : (⟨Cert.ReferenceIdeal.S768x300, .f32⟩ : BufTy).Contents (Elt Ideal))
    (x13 : (⟨Cert.ReferenceIdeal.S300, .f32⟩ : BufTy).Contents (Elt Ideal))
    (x14 : (⟨Cert.ReferenceIdeal.S300x200, .f32⟩ : BufTy).Contents (Elt Ideal))
    (x15 : (⟨Cert.ReferenceIdeal.S200, .f32⟩ : BufTy).Contents (Elt Ideal))
    (x16 : (⟨Cert.ReferenceIdeal.S200x150, .f32⟩ : BufTy).Contents (Elt Ideal))
    (x17 : (⟨Cert.ReferenceIdeal.S150, .f32⟩ : BufTy).Contents (Elt Ideal))
    (x18 : (⟨Cert.ReferenceIdeal.S300x150, .f32⟩ : BufTy).Contents (Elt Ideal))
    (x19 : (⟨Cert.ReferenceIdeal.S150, .f32⟩ : BufTy).Contents (Elt Ideal))
    (x20 : (⟨Cert.ReferenceIdeal.S150x50, .f32⟩ : BufTy).Contents (Elt Ideal))
    (x21 : (⟨Cert.ReferenceIdeal.S50, .f32⟩ : BufTy).Contents (Elt Ideal))
    (x22 : (⟨Cert.ReferenceIdeal.S50x3, .f32⟩ : BufTy).Contents (Elt Ideal))
    (x23 : (⟨Cert.ReferenceIdeal.S3, .f32⟩ : BufTy).Contents (Elt Ideal))
    (x24 : (⟨Cert.ReferenceIdeal.S2x500000, .i32⟩ : BufTy).Contents (Elt Ideal))
    (x25 : (⟨Cert.ReferenceIdeal.S2x200000, .i32⟩ : BufTy).Contents (Elt Ideal))
    (x26 : (⟨Cert.ReferenceIdeal.S2x200000, .i32⟩ : BufTy).Contents (Elt Ideal))
    (x27 : (⟨Cert.ReferenceIdeal.S2x500000, .i32⟩ : BufTy).Contents (Elt Ideal))
    (p : Fin 500000) (k : Fin 50) :
    Cert.ReferenceIdeal.Read.val_main_v699 (F := Ideal) x0 x1 x2 x3 x4 x5 x6 x7 x8 x9 x10 x11 x12 x13 x14 x15 x16 x17 x18 x19 x20 x21 x24 x25 x26 x27 (ix2 p k)
      = Cert.KernelIdeal.RegionValue.hidden2
          (Cert.ReferenceIdeal.Read.val_main_v679 (F := Ideal) x0 x12 x13 x14 x15 x16 x17 x27)
          (Cert.ReferenceIdeal.Read.val_main_v688 (F := Ideal) x0 x1 x2 x3 x4 x5 x6 x7 x8 x9 x10 x11 x24 x25 x26 x27)
          (extractStridedSlice Cert.KernelIdeal.S150x150 ![0, 0] x18 Cert.KernelIdeal.Gen.slices_S300x150_S150x150_0_0)
          (extractStridedSlice Cert.KernelIdeal.S150x150 ![150, 0] x18 Cert.KernelIdeal.Gen.slices_S300x150_S150x150_150_0)
          (shapeCast Cert.KernelIdeal.S1x150 x19 Cert.KernelIdeal.Gen.shapeCasts_S150_S1x150)
          x20 (shapeCast Cert.KernelIdeal.S1x50 x21 Cert.KernelIdeal.Gen.shapeCasts_S50_S1x50) p k := by
  unfold Cert.KernelIdeal.RegionValue.hidden2
  rw [Cert.ReferenceIdeal.Read.val_main_v699_apply, Cert.ReferenceIdeal.Read.val_main_v698_apply, Cert.ReferenceIdeal.Read.val_main_v695_apply,
    Cert.ReferenceIdeal.Read.val_main_v697_apply, Cert.ReferenceIdeal.Read.val_main_v696_apply, Cert.ReferenceIdeal.Read.val_main_call9_v0_apply,
    Cert.ReferenceIdeal.Read.val_main_call9_cst_apply, Ideal.maximumf_def, Ideal.addf_def, Ideal.ofBits_def, Ideal.ofBits_zero_f32]
  refine congrArg (fun t : EReal => max t 0) (congrArg₂ (· + ·)
    (Finset.sum_congr rfl fun j _ => congrArg₂ (· * ·) ?_ ?_) ?_)
  · -- the first hidden layer at `(p, j)`
    have hl : Cert.ReferenceIdeal.Read.lidx_main_v695 (ix2 p k) j = ix2 p j :=
      funext fun a => Fin.ext (by match a with | ⟨0, _⟩ => rfl | ⟨1, _⟩ => rfl)
    exact (congrArg (Cert.ReferenceIdeal.Read.val_main_v694 (F := Ideal) x0 x1 x2 x3 x4 x5 x6 x7 x8 x9 x10 x11 x12 x13 x14 x15 x16 x17 x18 x19 x24 x25 x26 x27) hl).trans
      (ref11_hidden1 x0 x1 x2 x3 x4 x5 x6 x7 x8 x9 x10 x11 x12 x13 x14 x15 x16 x17 x18 x19 x20 x21 x22 x23 x24 x25 x26 x27 p j)
  · have hr : Cert.ReferenceIdeal.Read.ridx_main_v695 (ix2 p k) j = ix2 j k :=
      funext fun a => Fin.ext (by match a with | ⟨0, _⟩ => rfl | ⟨1, _⟩ => rfl)
    exact congrArg x20 hr
  · have hb : Cert.ReferenceIdeal.Read.idx_main_v696 (Cert.ReferenceIdeal.Read.idx_main_v697 (ix2 p k)) = ix1 k :=
      funext fun a => Fin.ext (by match a with | ⟨0, _⟩ => rfl)
    exact (congrArg x21 hb).trans (shapeCast_a_1a_apply x21 _ 0 k).symm

/-- The reference's result at edge `p`, label `q`. -/
theorem ref11_out
    (x0 : (⟨Cert.ReferenceIdeal.S50000x768, .f32⟩ : BufTy).Contents (Elt Ideal))
    (x1 : (⟨Cert.ReferenceIdeal.S2000x768, .f32⟩ : BufTy).Contents (Elt Ideal))
    (x2 : (⟨Cert.ReferenceIdeal.S20000x1024, .f32⟩ : BufTy).Contents (Elt Ideal))
    (x3 : (⟨Cert.ReferenceIdeal.S768x150, .f32⟩ : BufTy).Contents (Elt Ideal))
    (x4 : (⟨Cert.ReferenceIdeal.S150, .f32⟩ : BufTy).Contents (Elt Ideal))
    (x5 : (⟨Cert.ReferenceIdeal.S768x150, .f32⟩ : BufTy).Contents (Elt Ideal))
    (x6 : (⟨Cert.ReferenceIdeal.S150, .f32⟩ : BufTy).Contents (Elt Ideal))
    (x7 : (⟨Cert.ReferenceIdeal.S1024x150, .f32⟩ : BufTy).Contents (Elt Ideal))
    (x8 : (⟨Cert.ReferenceIdeal.S150, .f32⟩ : BufTy).Contents (Elt Ideal))
    (x9 : (⟨Cert.ReferenceIdeal.S3x6x150x150, .f32⟩ : BufTy).Contents (Elt Ideal))
    (x10 : (⟨Cert.ReferenceIdeal.S3x6x150, .f32⟩ : BufTy).Contents (Elt Ideal))
    (x11 : (⟨Cert.ReferenceIdeal.S3x6x150x150, .f32⟩ : BufTy).Contents (Elt Ideal))
    (x12 : (⟨Cert.ReferenceIdeal.S768x300, .f32⟩ : BufTy).Contents (Elt Ideal))
    (x13 : (⟨Cert.ReferenceIdeal.S300, .f32⟩ : BufTy).Contents (Elt Ideal))
    (x14 : (⟨Cert.ReferenceIdeal.S300x200, .f32⟩ : BufTy).Contents (Elt Ideal))
    (x15 : (⟨Cert.ReferenceIdeal.S200, .f32⟩ : BufTy).Contents (Elt Ideal))
    (x16 : (⟨Cert.ReferenceIdeal.S200x150, .f32⟩ : BufTy).Contents (Elt Ideal))
    (x17 : (⟨Cert.ReferenceIdeal.S150, .f32⟩ : BufTy).Contents (Elt Ideal))
    (x18 : (⟨Cert.ReferenceIdeal.S300x150, .f32⟩ : BufTy).Contents (Elt Ideal))
    (x19 : (⟨Cert.ReferenceIdeal.S150, .f32⟩ : BufTy).Contents (Elt Ideal))
    (x20 : (⟨Cert.ReferenceIdeal.S150x50, .f32⟩ : BufTy).Contents (Elt Ideal))
    (x21 : (⟨Cert.ReferenceIdeal.S50, .f32⟩ : BufTy).Contents (Elt Ideal))
    (x22 : (⟨Cert.ReferenceIdeal.S50x3, .f32⟩ : BufTy).Contents (Elt Ideal))
    (x23 : (⟨Cert.ReferenceIdeal.S3, .f32⟩ : BufTy).Contents (Elt Ideal))
    (x24 : (⟨Cert.ReferenceIdeal.S2x500000, .i32⟩ : BufTy).Contents (Elt Ideal))
    (x25 : (⟨Cert.ReferenceIdeal.S2x200000, .i32⟩ : BufTy).Contents (Elt Ideal))
    (x26 : (⟨Cert.ReferenceIdeal.S2x200000, .i32⟩ : BufTy).Contents (Elt Ideal))
    (x27 : (⟨Cert.ReferenceIdeal.S2x500000, .i32⟩ : BufTy).Contents (Elt Ideal))
    (p : Fin 500000) (q : Fin 3) :
    Cert.ReferenceIdeal.Read.val_main_v703 (F := Ideal) x0 x1 x2 x3 x4 x5 x6 x7 x8 x9 x10 x11 x12 x13 x14 x15 x16 x17 x18 x19 x20 x21 x22 x23 x24 x25 x26 x27 (ix2 p q)
      = (∑ k : Fin 50, Cert.KernelIdeal.RegionValue.hidden2
          (Cert.ReferenceIdeal.Read.val_main_v679 (F := Ideal) x0 x12 x13 x14 x15 x16 x17 x27)
          (Cert.ReferenceIdeal.Read.val_main_v688 (F := Ideal) x0 x1 x2 x3 x4 x5 x6 x7 x8 x9 x10 x11 x24 x25 x26 x27)
          (extractStridedSlice Cert.KernelIdeal.S150x150 ![0, 0] x18 Cert.KernelIdeal.Gen.slices_S300x150_S150x150_0_0)
          (extractStridedSlice Cert.KernelIdeal.S150x150 ![150, 0] x18 Cert.KernelIdeal.Gen.slices_S300x150_S150x150_150_0)
          (shapeCast Cert.KernelIdeal.S1x150 x19 Cert.KernelIdeal.Gen.shapeCasts_S150_S1x150)
          x20 (shapeCast Cert.KernelIdeal.S1x50 x21 Cert.KernelIdeal.Gen.shapeCasts_S50_S1x50) p k * x22 (ix2 k q))
        + shapeCast Cert.KernelIdeal.S1x3 x23 Cert.KernelIdeal.Gen.shapeCasts_S3_S1x3 (ix2 0 q) := by
  rw [Cert.ReferenceIdeal.Read.val_main_v703_apply, Cert.ReferenceIdeal.Read.val_main_v700_apply, Cert.ReferenceIdeal.Read.val_main_v702_apply,
    Cert.ReferenceIdeal.Read.val_main_v701_apply, Ideal.addf_def]
  refine congrArg₂ (· + ·) (Finset.sum_congr rfl fun k _ => congrArg₂ (· * ·) ?_ ?_) ?_
  · -- the second hidden layer at `(p, k)`
    have hl : Cert.ReferenceIdeal.Read.lidx_main_v700 (ix2 p q) k = ix2 p k :=
      funext fun a => Fin.ext (by match a with | ⟨0, _⟩ => rfl | ⟨1, _⟩ => rfl)
    exact (congrArg (Cert.ReferenceIdeal.Read.val_main_v699 (F := Ideal) x0 x1 x2 x3 x4 x5 x6 x7 x8 x9 x10 x11 x12 x13 x14 x15 x16 x17 x18 x19 x20 x21 x24 x25 x26 x27) hl).trans
      (ref11_hidden2 x0 x1 x2 x3 x4 x5 x6 x7 x8 x9 x10 x11 x12 x13 x14 x15 x16 x17 x18 x19 x20 x21 x22 x23 x24 x25 x26 x27 p k)
  · have hr : Cert.ReferenceIdeal.Read.ridx_main_v700 (ix2 p q) k = ix2 k q :=
      funext fun a => Fin.ext (by match a with | ⟨0, _⟩ => rfl | ⟨1, _⟩ => rfl)
    exact congrArg x22 hr
  · have hb : Cert.ReferenceIdeal.Read.idx_main_v701 (Cert.ReferenceIdeal.Read.idx_main_v702 (ix2 p q)) = ix1 q :=
      funext fun a => Fin.ext (by match a with | ⟨0, _⟩ => rfl)
    exact (congrArg x23 hb).trans (shapeCast_a_1a_apply x23 _ 0 q).symm

/-! ## The launch's operand arrays at its entry

The host operations before the launch write the two gathered arrays, the weight's two halves and the three bias rows;
the second and third weights are arguments. Each is read off the operations' list, over any contents `V0` of the
buffers before the operations: what the operations read from earlier (the edge list, the two feature arrays, the
weights and biases) enters as a hypothesis on `V0`. -/

section Operands

variable (V0 : Valuation τ sig (Elt Ideal))

set_option maxHeartbeats 1000000 in
/-- The first gathered array: the same gather, by the same wrapped first row of the edge list, of the classifier's
    hidden array. -/
theorem opnd11_hg
    {x0 : (⟨Cert.ReferenceIdeal.S50000x768, .f32⟩ : BufTy).Contents (Elt Ideal)}
    {x12 : (⟨Cert.ReferenceIdeal.S768x300, .f32⟩ : BufTy).Contents (Elt Ideal)}
    {x13 : (⟨Cert.ReferenceIdeal.S300, .f32⟩ : BufTy).Contents (Elt Ideal)}
    {x14 : (⟨Cert.ReferenceIdeal.S300x200, .f32⟩ : BufTy).Contents (Elt Ideal)}
    {x15 : (⟨Cert.ReferenceIdeal.S200, .f32⟩ : BufTy).Contents (Elt Ideal)}
    {x16 : (⟨Cert.ReferenceIdeal.S200x150, .f32⟩ : BufTy).Contents (Elt Ideal)}
    {x17 : (⟨Cert.ReferenceIdeal.S150, .f32⟩ : BufTy).Contents (Elt Ideal)}
    {x27 : (⟨Cert.ReferenceIdeal.S2x500000, .i32⟩ : BufTy).Contents (Elt Ideal)}
    (h27 : (V0 (Proc.devRef .tc main_arg27) : (⟨Cert.ReferenceIdeal.S2x500000, .i32⟩ : BufTy).Contents (Elt Ideal)) = x27)
    (h413 : (V0 (Proc.devRef .tc main_v413) : (⟨Cert.ReferenceIdeal.S50000x150, .f32⟩ : BufTy).Contents (Elt Ideal))
      = Cert.ReferenceIdeal.Read.val_main_v670 (F := Ideal) x0 x12 x13 x14 x15 x16 x17) :
    (StableHlo.after hostOps11 V0 (Proc.devRef .tc main_v422) : (⟨Cert.ReferenceIdeal.S500000x150, .f32⟩ : BufTy).Contents (Elt Ideal))
      = Cert.ReferenceIdeal.Read.val_main_v679 (F := Ideal) x0 x12 x13 x14 x15 x16 x17 x27 := by
  after_results_simp
  rw [h27, h413]
  rfl

set_option maxHeartbeats 1000000 in
/-- The second gathered array: the same gather, by the same wrapped second row of the edge list, of the third
    node-feature array. -/
theorem opnd11_pg
    {x0 : (⟨Cert.ReferenceIdeal.S50000x768, .f32⟩ : BufTy).Contents (Elt Ideal)}
    {x1 : (⟨Cert.ReferenceIdeal.S2000x768, .f32⟩ : BufTy).Contents (Elt Ideal)}
    {x2 : (⟨Cert.ReferenceIdeal.S20000x1024, .f32⟩ : BufTy).Contents (Elt Ideal)}
    {x3 : (⟨Cert.ReferenceIdeal.S768x150, .f32⟩ : BufTy).Contents (Elt Ideal)}
    {x4 : (⟨Cert.ReferenceIdeal.S150, .f32⟩ : BufTy).Contents (Elt Ideal)}
    {x5 : (⟨Cert.ReferenceIdeal.S768x150, .f32⟩ : BufTy).Contents (Elt Ideal)}
    {x6 : (⟨Cert.ReferenceIdeal.S150, .f32⟩ : BufTy).Contents (Elt Ideal)}
    {x7 : (⟨Cert.ReferenceIdeal.S1024x150, .f32⟩ : BufTy).Contents (Elt Ideal)}
    {x8 : (⟨Cert.ReferenceIdeal.S150, .f32⟩ : BufTy).Contents (Elt Ideal)}
    {x9 : (⟨Cert.ReferenceIdeal.S3x6x150x150, .f32⟩ : BufTy).Contents (Elt Ideal)}
    {x10 : (⟨Cert.ReferenceIdeal.S3x6x150, .f32⟩ : BufTy).Contents (Elt Ideal)}
    {x11 : (⟨Cert.ReferenceIdeal.S3x6x150x150, .f32⟩ : BufTy).Contents (Elt Ideal)}
    {x24 : (⟨Cert.ReferenceIdeal.S2x500000, .i32⟩ : BufTy).Contents (Elt Ideal)}
    {x25 : (⟨Cert.ReferenceIdeal.S2x200000, .i32⟩ : BufTy).Contents (Elt Ideal)}
    {x26 : (⟨Cert.ReferenceIdeal.S2x200000, .i32⟩ : BufTy).Contents (Elt Ideal)}
    {x27 : (⟨Cert.ReferenceIdeal.S2x500000, .i32⟩ : BufTy).Contents (Elt Ideal)}
    (h27 : (V0 (Proc.devRef .tc main_arg27) : (⟨Cert.ReferenceIdeal.S2x500000, .i32⟩ : BufTy).Contents (Elt Ideal)) = x27)
    (h409 : (V0 (Proc.devRef .tc main_v409) : (⟨Cert.ReferenceIdeal.S20000x150, .f32⟩ : BufTy).Contents (Elt Ideal))
      = Cert.ReferenceIdeal.Read.val_main_v656 (F := Ideal) x0 x1 x2 x3 x4 x5 x6 x7 x8 x9 x10 x11 x24 x25 x26) :
    (StableHlo.after hostOps11 V0 (Proc.devRef .tc main_v431) : (⟨Cert.ReferenceIdeal.S500000x150, .f32⟩ : BufTy).Contents (Elt Ideal))
      = Cert.ReferenceIdeal.Read.val_main_v688 (F := Ideal) x0 x1 x2 x3 x4 x5 x6 x7 x8 x9 x10 x11 x24 x25 x26 x27 := by
  after_results_simp
  rw [h27, h409]
  rfl

/-- Rows 0 … 149 of the first weight. -/
theorem opnd11_w1t {x18 : (⟨Cert.ReferenceIdeal.S300x150, .f32⟩ : BufTy).Contents (Elt Ideal)}
    (h18 : (V0 (Proc.devRef .tc main_arg18) : (⟨Cert.ReferenceIdeal.S300x150, .f32⟩ : BufTy).Contents (Elt Ideal)) = x18) :
    (StableHlo.after hostOps11 V0 (Proc.devRef .tc main_v432) : Cert.KernelIdeal.S150x150.Idx → EReal)
      = extractStridedSlice Cert.KernelIdeal.S150x150 ![0, 0] x18 Cert.KernelIdeal.Gen.slices_S300x150_S150x150_0_0 := by
  after_results
  rw [h18] <;> rfl

/-- Rows 150 … 299 of the first weight. -/
theorem opnd11_w1b {x18 : (⟨Cert.ReferenceIdeal.S300x150, .f32⟩ : BufTy).Contents (Elt Ideal)}
    (h18 : (V0 (Proc.devRef .tc main_arg18) : (⟨Cert.ReferenceIdeal.S300x150, .f32⟩ : BufTy).Contents (Elt Ideal)) = x18) :
    (StableHlo.after hostOps11 V0 (Proc.devRef .tc main_v433) : Cert.KernelIdeal.S150x150.Idx → EReal)
      = extractStridedSlice Cert.KernelIdeal.S150x150 ![150, 0] x18 Cert.KernelIdeal.Gen.slices_S300x150_S150x150_150_0 := by
  after_results
  rw [h18] <;> rfl

/-- The first bias as a [1 × 150] row. -/
theorem opnd11_b1 {x19 : (⟨Cert.ReferenceIdeal.S150, .f32⟩ : BufTy).Contents (Elt Ideal)}
    (h19 : (V0 (Proc.devRef .tc main_arg19) : (⟨Cert.ReferenceIdeal.S150, .f32⟩ : BufTy).Contents (Elt Ideal)) = x19) :
    (StableHlo.after hostOps11 V0 (Proc.devRef .tc main_v434) : Cert.KernelIdeal.S1x150.Idx → EReal)
      = shapeCast Cert.KernelIdeal.S1x150 x19 Cert.KernelIdeal.Gen.shapeCasts_S150_S1x150 := by
  after_results
  rw [h19] <;> rfl

/-- The second weight is an argument. -/
theorem opnd11_w2 {x20 : (⟨Cert.ReferenceIdeal.S150x50, .f32⟩ : BufTy).Contents (Elt Ideal)}
    (h20 : (V0 (Proc.devRef .tc main_arg20) : (⟨Cert.ReferenceIdeal.S150x50, .f32⟩ : BufTy).Contents (Elt Ideal)) = x20) :
    (StableHlo.after hostOps11 V0 (Proc.devRef .tc main_arg20) : (⟨Cert.ReferenceIdeal.S150x50, .f32⟩ : BufTy).Contents (Elt Ideal)) = x20 := by
  after_results
  exact h20

/-- The second bias as a [1 × 50] row. -/
theorem opnd11_b2 {x21 : (⟨Cert.ReferenceIdeal.S50, .f32⟩ : BufTy).Contents (Elt Ideal)}
    (h21 : (V0 (Proc.devRef .tc main_arg21) : (⟨Cert.ReferenceIdeal.S50, .f32⟩ : BufTy).Contents (Elt Ideal)) = x21) :
    (StableHlo.after hostOps11 V0 (Proc.devRef .tc main_v435) : Cert.KernelIdeal.S1x50.Idx → EReal)
      = shapeCast Cert.KernelIdeal.S1x50 x21 Cert.KernelIdeal.Gen.shapeCasts_S50_S1x50 := by
  after_results
  rw [h21] <;> rfl

/-- The third weight is an argument. -/
theorem opnd11_w3 {x22 : (⟨Cert.ReferenceIdeal.S50x3, .f32⟩ : BufTy).Contents (Elt Ideal)}
    (h22 : (V0 (Proc.devRef .tc main_arg22) : (⟨Cert.ReferenceIdeal.S50x3, .f32⟩ : BufTy).Contents (Elt Ideal)) = x22) :
    (StableHlo.after hostOps11 V0 (Proc.devRef .tc main_arg22) : (⟨Cert.ReferenceIdeal.S50x3, .f32⟩ : BufTy).Contents (Elt Ideal)) = x22 := by
  after_results
  exact h22

/-- The third bias as a [1 × 3] row. -/
theorem opnd11_b3 {x23 : (⟨Cert.ReferenceIdeal.S3, .f32⟩ : BufTy).Contents (Elt Ideal)}
    (h23 : (V0 (Proc.devRef .tc main_arg23) : (⟨Cert.ReferenceIdeal.S3, .f32⟩ : BufTy).Contents (Elt Ideal)) = x23) :
    (StableHlo.after hostOps11 V0 (Proc.devRef .tc main_v436) : Cert.KernelIdeal.S1x3.Idx → EReal)
      = shapeCast Cert.KernelIdeal.S1x3 x23 Cert.KernelIdeal.Gen.shapeCasts_S3_S1x3 := by
  after_results
  rw [h23] <;> rfl

end Operands

/-! ## The launch's fact -/

/-- The network of the launch's nine operand arrays is the reference's result, once each operand array is what the
    host operations make of the reference's arrays. -/
theorem step11_core
    (x0 : (⟨Cert.ReferenceIdeal.S50000x768, .f32⟩ : BufTy).Contents (Elt Ideal))
    (x1 : (⟨Cert.ReferenceIdeal.S2000x768, .f32⟩ : BufTy).Contents (Elt Ideal))
    (x2 : (⟨Cert.ReferenceIdeal.S20000x1024, .f32⟩ : BufTy).Contents (Elt Ideal))
    (x3 : (⟨Cert.ReferenceIdeal.S768x150, .f32⟩ : BufTy).Contents (Elt Ideal))
    (x4 : (⟨Cert.ReferenceIdeal.S150, .f32⟩ : BufTy).Contents (Elt Ideal))
    (x5 : (⟨Cert.ReferenceIdeal.S768x150, .f32⟩ : BufTy).Contents (Elt Ideal))
    (x6 : (⟨Cert.ReferenceIdeal.S150, .f32⟩ : BufTy).Contents (Elt Ideal))
    (x7 : (⟨Cert.ReferenceIdeal.S1024x150, .f32⟩ : BufTy).Contents (Elt Ideal))
    (x8 : (⟨Cert.ReferenceIdeal.S150, .f32⟩ : BufTy).Contents (Elt Ideal))
    (x9 : (⟨Cert.ReferenceIdeal.S3x6x150x150, .f32⟩ : BufTy).Contents (Elt Ideal))
    (x10 : (⟨Cert.ReferenceIdeal.S3x6x150, .f32⟩ : BufTy).Contents (Elt Ideal))
    (x11 : (⟨Cert.ReferenceIdeal.S3x6x150x150, .f32⟩ : BufTy).Contents (Elt Ideal))
    (x12 : (⟨Cert.ReferenceIdeal.S768x300, .f32⟩ : BufTy).Contents (Elt Ideal))
    (x13 : (⟨Cert.ReferenceIdeal.S300, .f32⟩ : BufTy).Contents (Elt Ideal))
    (x14 : (⟨Cert.ReferenceIdeal.S300x200, .f32⟩ : BufTy).Contents (Elt Ideal))
    (x15 : (⟨Cert.ReferenceIdeal.S200, .f32⟩ : BufTy).Contents (Elt Ideal))
    (x16 : (⟨Cert.ReferenceIdeal.S200x150, .f32⟩ : BufTy).Contents (Elt Ideal))
    (x17 : (⟨Cert.ReferenceIdeal.S150, .f32⟩ : BufTy).Contents (Elt Ideal))
    (x18 : (⟨Cert.ReferenceIdeal.S300x150, .f32⟩ : BufTy).Contents (Elt Ideal))
    (x19 : (⟨Cert.ReferenceIdeal.S150, .f32⟩ : BufTy).Contents (Elt Ideal))
    (x20 : (⟨Cert.ReferenceIdeal.S150x50, .f32⟩ : BufTy).Contents (Elt Ideal))
    (x21 : (⟨Cert.ReferenceIdeal.S50, .f32⟩ : BufTy).Contents (Elt Ideal))
    (x22 : (⟨Cert.ReferenceIdeal.S50x3, .f32⟩ : BufTy).Contents (Elt Ideal))
    (x23 : (⟨Cert.ReferenceIdeal.S3, .f32⟩ : BufTy).Contents (Elt Ideal))
    (x24 : (⟨Cert.ReferenceIdeal.S2x500000, .i32⟩ : BufTy).Contents (Elt Ideal))
    (x25 : (⟨Cert.ReferenceIdeal.S2x200000, .i32⟩ : BufTy).Contents (Elt Ideal))
    (x26 : (⟨Cert.ReferenceIdeal.S2x200000, .i32⟩ : BufTy).Contents (Elt Ideal))
    (x27 : (⟨Cert.ReferenceIdeal.S2x500000, .i32⟩ : BufTy).Contents (Elt Ideal))
    (hg pg : Vec Ideal Cert.KernelIdeal.S500000x150 .bf16) (w1t w1b : Vec Ideal Cert.KernelIdeal.S150x150 .f32) (b1 : Vec Ideal Cert.KernelIdeal.S1x150 .f32)
    (w2 : Vec Ideal Cert.KernelIdeal.S150x50 .f32) (b2 : Vec Ideal Cert.KernelIdeal.S1x50 .f32) (w3 : Vec Ideal Cert.KernelIdeal.S50x3 .f32)
    (b3 : Vec Ideal Cert.KernelIdeal.S1x3 .f32)
    (e1 : hg = Cert.ReferenceIdeal.Read.val_main_v679 (F := Ideal) x0 x12 x13 x14 x15 x16 x17 x27)
    (e2 : pg = Cert.ReferenceIdeal.Read.val_main_v688 (F := Ideal) x0 x1 x2 x3 x4 x5 x6 x7 x8 x9 x10 x11 x24 x25 x26 x27)
    (e3 : w1t = extractStridedSlice Cert.KernelIdeal.S150x150 ![0, 0] x18 Cert.KernelIdeal.Gen.slices_S300x150_S150x150_0_0)
    (e4 : w1b = extractStridedSlice Cert.KernelIdeal.S150x150 ![150, 0] x18 Cert.KernelIdeal.Gen.slices_S300x150_S150x150_150_0)
    (e5 : b1 = shapeCast Cert.KernelIdeal.S1x150 x19 Cert.KernelIdeal.Gen.shapeCasts_S150_S1x150)
    (e6 : w2 = x20)
    (e7 : b2 = shapeCast Cert.KernelIdeal.S1x50 x21 Cert.KernelIdeal.Gen.shapeCasts_S50_S1x50)
    (e8 : w3 = x22)
    (e9 : b3 = shapeCast Cert.KernelIdeal.S1x3 x23 Cert.KernelIdeal.Gen.shapeCasts_S3_S1x3)
    (p : Fin 500000) (q : Fin 3) :
    (∑ k : Fin 50, Cert.KernelIdeal.RegionValue.hidden2 hg pg w1t w1b b1 w2 b2 p k * w3 (ix2 k q)) + b3 (ix2 0 q)
      = Cert.ReferenceIdeal.Read.val_main_v703 (F := Ideal) x0 x1 x2 x3 x4 x5 x6 x7 x8 x9 x10 x11 x12 x13 x14 x15 x16 x17 x18 x19 x20 x21 x22 x23 x24 x25 x26 x27 (ix2 p q) := by
  subst e1 e2 e3 e4 e5 e7 e9
  -- the two weights that are arguments: put the reference's name for each
  have e6' := e6.symm
  have e8' := e8.symm
  subst e6' e8'
  exact (ref11_out x0 x1 x2 x3 x4 x5 x6 x7 x8 x9 x10 x11 x12 x13 x14 x15 x16 x17 x18 x19 x20 x21 x22 x23 x24 x25 x26 x27 p q).symm

set_option maxHeartbeats 2000000 in
/-- The last launch: given that the third node-feature array and the classifier's hidden array are the reference's,
    the kernel's label array at the launch's exit is the reference's result. -/
theorem step11 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hK9 : (Cert.KernelIdeal.Gen.W20 (F := Ideal) m ρ c (Proc.devRef .tc Cert.KernelIdeal.main_v409) :
        Cert.ReferenceIdeal.S20000x150.Idx → EReal)
      = Cert.ReferenceIdeal.Read.val_main_v656 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg24))
          (m ((c.tc : Thread Cert.KernelIdeal.nD Cert.KernelIdeal.τ).loc Cert.KernelIdeal.main_arg25))
          (m ((c.tc : Thread Cert.KernelIdeal.nD Cert.KernelIdeal.τ).loc Cert.KernelIdeal.main_arg26)))
    (hK10 : (Cert.KernelIdeal.Gen.W22 (F := Ideal) m ρ c (Proc.devRef .tc Cert.KernelIdeal.main_v413) :
        Cert.ReferenceIdeal.S50000x150.Idx → EReal)
      = Cert.ReferenceIdeal.Read.val_main_v670 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))) :
    (Cert.KernelIdeal.Gen.W24 (F := Ideal) m ρ c (Proc.devRef .tc Cert.KernelIdeal.main_v437) :
        Cert.ReferenceIdeal.S500000x3.Idx → EReal)
      = Cert.ReferenceIdeal.Read.val_main_v703 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19))
          (m ((c.tc : Thread Cert.KernelIdeal.nD Cert.KernelIdeal.τ).loc Cert.KernelIdeal.main_arg20))
          (m ((c.tc : Thread Cert.KernelIdeal.nD Cert.KernelIdeal.τ).loc Cert.KernelIdeal.main_arg21))
          (m ((c.tc : Thread Cert.KernelIdeal.nD Cert.KernelIdeal.τ).loc Cert.KernelIdeal.main_arg22))
          (m ((c.tc : Thread Cert.KernelIdeal.nD Cert.KernelIdeal.τ).loc Cert.KernelIdeal.main_arg23))
          (m ((c.tc : Thread Cert.KernelIdeal.nD Cert.KernelIdeal.τ).loc Cert.KernelIdeal.main_arg24))
          (m ((c.tc : Thread Cert.KernelIdeal.nD Cert.KernelIdeal.τ).loc Cert.KernelIdeal.main_arg25))
          (m ((c.tc : Thread Cert.KernelIdeal.nD Cert.KernelIdeal.τ).loc Cert.KernelIdeal.main_arg26))
          (m ((c.tc : Thread Cert.KernelIdeal.nD Cert.KernelIdeal.τ).loc Cert.KernelIdeal.main_arg27)) := by
  funext i
  obtain ⟨p, q, rfl⟩ : ∃ (p : Fin 500000) (q : Fin 3), i = ix2 p q := ⟨i 0, i 1, eq_ix2 i⟩
  -- the label array at the exit is what the pipeline leaves in its last window's array
  have hL : W24 (F := Ideal) m ρ c (Proc.devRef .tc main_v437) = (dat11 (F := Ideal) (V23 m ρ) c).arrAt 9 cfg11.N :=
    W24_arr m ρ c 9
  refine (congrFun hL (ix2 p q)).trans ?_
  -- the launch's value at the entry's operand arrays
  refine (Cert.KernelIdeal.RegionValue.region11 (V23 m ρ) c p q).trans ?_
  -- each operand array from the host operations, over the contents at the previous launch's exit: the edge list,
  -- the weights and the biases as at the start, the two feature arrays the reference's by the earlier launches' facts
  have h27 := Cert.KernelIdeal.Carry.at11_main_arg27 m ρ c
  exact step11_core _ _ _ _ _ _ _ _ _ _ _ _ _ _ _ _ _ _ _ _ _ _ _ _ _ _ _ _
    (V23 m ρ c main_v422) (V23 m ρ c main_v431) (V23 m ρ c main_v432) (V23 m ρ c main_v433) (V23 m ρ c main_v434)
    (V23 m ρ c main_arg20) (V23 m ρ c main_v435) (V23 m ρ c main_arg22) (V23 m ρ c main_v436)
    (opnd11_hg (W22 m ρ c) h27 hK10)
    (opnd11_pg (W22 m ρ c) h27 ((Cert.KernelIdeal.Carry.at11_main_v409 m ρ c).trans hK9))
    (opnd11_w1t (W22 m ρ c) (Cert.KernelIdeal.Carry.at11_main_arg18 m ρ c))
    (opnd11_w1b (W22 m ρ c) (Cert.KernelIdeal.Carry.at11_main_arg18 m ρ c))
    (opnd11_b1 (W22 m ρ c) (Cert.KernelIdeal.Carry.at11_main_arg19 m ρ c))
    (opnd11_w2 (W22 m ρ c) (Cert.KernelIdeal.Carry.at11_main_arg20 m ρ c))
    (opnd11_b2 (W22 m ρ c) (Cert.KernelIdeal.Carry.at11_main_arg21 m ρ c))
    (opnd11_w3 (W22 m ρ c) (Cert.KernelIdeal.Carry.at11_main_arg22 m ρ c))
    (opnd11_b3 (W22 m ρ c) (Cert.KernelIdeal.Carry.at11_main_arg23 m ρ c))
    p q

end Cert.Bridge

end
-- ==== Proof.lean ====
/-
  The certificate's proof.

  Both programs compute a three-layer heterogeneous message-passing network on three node types, a
  three-layer classifier on one node type's raw features, and a three-layer edge classifier on gathered pairs of
  rows. The kernel runs every dense product in twelve launches and leaves the gathers and the segment sums to
  host operations; it adds the two root matrices and the two biases of a layer's two branches BEFORE the product,
  where the reference multiplies per branch and adds afterwards, and it multiplies the two halves of the edge
  classifier's first weight separately, where the reference multiplies the concatenated rows. At the ideal
  instance a change of float format is the identity, so the two programs differ only by these two regroupings:
  the second is a split of a finite sum; the first is distributivity, which on the extended reals needs the
  destination features and the root matrices to be real numbers. The precondition makes every float input real,
  and sums, products, maxima and quotients by in-degree counts (at least one) keep node features real.

  The proof walks the kernel's twelve launches in order: after each, the launch's output array equals the
  reference's corresponding node-feature stage (modules Step0 … Step11, each from the facts of the launches it
  reads); the last launch's output is the result.
-/
import proofs.«138545_j63058709840619_2_alg».proof.Defs
import proofs.«138545_j63058709840619_2_alg».proof.Proof.Gen.Kernel
import proofs.«138545_j63058709840619_2_alg».proof.Proof.FrameKFinal
import proofs.«138545_j63058709840619_2_alg».proof.Proof.Gen.KernelIdeal
import proofs.«138545_j63058709840619_2_alg».proof.Proof.FrameKIFinal
import proofs.«138545_j63058709840619_2_alg».proof.Proof.Gen.ReferenceIdeal
import proofs.«138545_j63058709840619_2_alg».proof.Proof.Gen.Pre_finite_inputs
import proofs.«138545_j63058709840619_2_alg».proof.Proof.RefRunP
import proofs.«138545_j63058709840619_2_alg».proof.Proof.RefRead
import proofs.«138545_j63058709840619_2_alg».proof.Proof.RefReadEq
import proofs.«138545_j63058709840619_2_alg».proof.Proof.KRun
import proofs.«138545_j63058709840619_2_alg».proof.Proof.PreFinite
import proofs.«138545_j63058709840619_2_alg».proof.Proof.RefFinite
import proofs.«138545_j63058709840619_2_alg».proof.Proof.Step0
import proofs.«138545_j63058709840619_2_alg».proof.Proof.Step1
import proofs.«138545_j63058709840619_2_alg».proof.Proof.Step2
import proofs.«138545_j63058709840619_2_alg».proof.Proof.Step3
import proofs.«138545_j63058709840619_2_alg».proof.Proof.Step4
import proofs.«138545_j63058709840619_2_alg».proof.Proof.Step5
import proofs.«138545_j63058709840619_2_alg».proof.Proof.Step6
import proofs.«138545_j63058709840619_2_alg».proof.Proof.Step7
import proofs.«138545_j63058709840619_2_alg».proof.Proof.Step8
import proofs.«138545_j63058709840619_2_alg».proof.Proof.Step9
import proofs.«138545_j63058709840619_2_alg».proof.Proof.Step10
import proofs.«138545_j63058709840619_2_alg».proof.Proof.Step11
import Idealize.ShloMosaic.Adequacy
import Idealize.ShloMosaic.Init

noncomputable section

namespace Cert.Proof

open Idealize.ShloMosaic Idealize.SL.Sem Cert.Algebra

/-- The kernel's result array, after its last launch, is the reference's last stage of the same arguments: the
    twelve per-launch facts in order, the node features real by the precondition. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Gen.W24 (F := Ideal) m ρ c (Proc.devRef .tc Cert.KernelIdeal.main_v437) :
        Cert.ReferenceIdeal.S500000x3.Idx → EReal)
      = Cert.ReferenceIdeal.Read.val_main_v703 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) := by
  obtain ⟨hr0, hr1, hr2, hr3, hr4, hr5, hr6, hr7, hr8, hr9, hr10, hr11, hr12, hr13, hr14, hr15, hr16, hr17, hr18, hr19, hr20, hr21, hr22, hr23⟩ :=
    Cert.PreFinite.args_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (hpre c)
  have k0 := Cert.Bridge.step0 m ρ c
  have k1 := Cert.Bridge.step1 m ρ c
  have k2 := Cert.Bridge.step2 m ρ c
  have k3 := Cert.Bridge.step3 m ρ c (hK0 := k0) (hK1 := k1) (hK2 := k2) (hX := (Cert.RefFinite.fin_main_v3 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) hr0 hr3 hr4)) (h11 := hr11)
  have k4 := Cert.Bridge.step4 m ρ c (hK0 := k0) (hK1 := k1) (hK2 := k2) (hX := (Cert.RefFinite.fin_main_v7 (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) hr1 hr5 hr6)) (h11 := hr11)
  have k5 := Cert.Bridge.step5 m ρ c (hK0 := k0) (hK1 := k1) (hK2 := k2) (hX := (Cert.RefFinite.fin_main_v11 (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) hr2 hr7 hr8)) (h11 := hr11)
  have k6 := Cert.Bridge.step6 m ρ c (hK3 := k3) (hK4 := k4) (hK5 := k5) (hX := (Cert.RefFinite.fin_main_v225 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) hr0 hr1 hr2 hr3 hr4 hr5 hr6 hr7 hr8 hr9 hr10 hr11)) (h11 := hr11)
  have k7 := Cert.Bridge.step7 m ρ c (hK3 := k3) (hK4 := k4) (hK5 := k5) (hX := (Cert.RefFinite.fin_main_v226 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) hr0 hr1 hr2 hr3 hr4 hr5 hr6 hr7 hr8 hr9 hr10 hr11)) (h11 := hr11)
  have k8 := Cert.Bridge.step8 m ρ c (hK3 := k3) (hK4 := k4) (hK5 := k5) (hX := (Cert.RefFinite.fin_main_v227 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg24)) (m ((c.tc : Thread Cert.KernelIdeal.nD Cert.KernelIdeal.τ).loc Cert.KernelIdeal.main_arg26)) hr0 hr1 hr2 hr3 hr4 hr5 hr6 hr7 hr8 hr9 hr10 hr11)) (h11 := hr11)
  have k9 := Cert.Bridge.step9 m ρ c (hK6 := k6) (hK7 := k7) (hK8 := k8) (hX := (Cert.RefFinite.fin_main_v443 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) hr0 hr1 hr2 hr3 hr4 hr5 hr6 hr7 hr8 hr9 hr10 hr11)) (h11 := hr11)
  have k10 := Cert.Bridge.step10 m ρ c
  exact Cert.Bridge.step11 m ρ c (hK9 := k9) (hK10 := k10)

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the same result: the kernel's at its last boundary's contents, the reference's at its last
    stage of arguments that agree with the kernel's. -/
theorem algebraic : Cert.algebraic_KernelIdeal_ReferenceIdeal := by
  intro m ρ m' ρ' hpre hagree
  refine ⟨fun c => Cert.KernelIdeal.Gen.W24 (F := Ideal) m ρ c (Proc.devRef .tc Cert.KernelIdeal.main_v437),
    Cert.KernelIdeal.GenV.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v703_eq m' c]
  obtain ⟨e0, e1, e2, e3, e4, e5, e6, e7, e8, e9, e10, e11, e12, e13, e14, e15, e16, e17, e18, e19, e20, e21, e22, e23, e24, e25, e26, e27⟩ := hagree c
  rw [e0, e1, e2, e3, e4, e5, e6, e7, e8, e9, e10, e11, e12, e13, e14, e15, e16, e17, e18, e19, e20, e21, e22, e23, e24, e25, e26, e27]
  exact (kernel_value m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
